-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v1_0)) (v7 : (c : Dev Cert.KernelIdeal.nD) → Buf (Elt Ideal) ((c.tc : Thread Cert.KernelIdeal.nD Cert.KernelIdeal.τ).loc Cert.KernelIdeal.main_v1_1)) (v8 : (c : Dev Cert.KernelIdeal.nD) → Buf (Elt Ideal) ((c.tc : Thread Cert.KernelIdeal.nD Cert.KernelIdeal.τ).loc Cert.KernelIdeal.main_v1_2)) (v9 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v1_0) = v6 c
          ∧ r.2.mem ((c.tc : Thread Cert.KernelIdeal.nD Cert.KernelIdeal.τ).loc Cert.KernelIdeal.main_v1_1) = v7 c
          ∧ r.2.mem ((c.tc : Thread Cert.KernelIdeal.nD Cert.KernelIdeal.τ).loc Cert.KernelIdeal.main_v1_2) = v8 c
          ∧ r.2.mem ((c.tc : Thread Cert.KernelIdeal.nD Cert.KernelIdeal.τ).loc Cert.KernelIdeal.main_v1_3) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_v35) = v5 c
          ∧ r.2.mem ((c.tc : Thread Cert.ReferenceIdeal.nD Cert.ReferenceIdeal.τ).loc Cert.ReferenceIdeal.main_v122) = v6 c
          ∧ r.2.mem ((c.tc : Thread Cert.ReferenceIdeal.nD Cert.ReferenceIdeal.τ).loc Cert.ReferenceIdeal.main_v129) = v7 c
          ∧ r.2.mem ((c.tc : Thread Cert.ReferenceIdeal.nD Cert.ReferenceIdeal.τ).loc Cert.ReferenceIdeal.main_v137) = v8 c
          ∧ r.2.mem ((c.tc : Thread Cert.ReferenceIdeal.nD Cert.ReferenceIdeal.τ).loc Cert.ReferenceIdeal.main_v145) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x1 : Shape := ⟨2, ![4096, 1]⟩
abbrev S200000x128 : Shape := ⟨2, ![200000, 128]⟩
abbrev S200000x1 : Shape := ⟨2, ![200000, 1]⟩
abbrev S1x128 : Shape := ⟨2, ![1, 128]⟩
abbrev S128x129 : Shape := ⟨2, ![128, 129]⟩
abbrev S128x128 : Shape := ⟨2, ![128, 128]⟩
abbrev S128 : Shape := ⟨1, ![128]⟩
abbrev S256x512 : Shape := ⟨2, ![256, 512]⟩
abbrev S256 : Shape := ⟨1, ![256]⟩
abbrev S128x1 : Shape := ⟨2, ![128, 1]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S200000x1 : S_.BroadcastsInDim S200000x1 (![] : Fin 0 → Fin S200000x1.rank)
  reducesTo_S200000x1_S_d0_1 : S200000x1.ReducesTo [0, 1] S_
  bcast_S_S1x128 : S_.BroadcastsInDim S1x128 (![] : Fin 0 → Fin S1x128.rank)
  reducesTo_S1x128_S_d0_1 : S1x128.ReducesTo [0, 1] S_
  bcast_S_S128x129 : S_.BroadcastsInDim S128x129 (![] : Fin 0 → Fin S128x129.rank)
  reducesTo_S128x129_S_d0_1 : S128x129.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x1 : S_.BroadcastsInDim S128x1 (![] : Fin 0 → Fin S128x1.rank)
  reducesTo_S128x1_S_d0_1 : S128x1.ReducesTo [0, 1] S_
  bcast_S_S4096 : S_.BroadcastsInDim S4096 (![] : Fin 0 → Fin S4096.rank)
  reducesTo_S4096_S_d0 : S4096.ReducesTo [0] S_

variable [Facts]

def fn_part7 {F : FTy → Type} [FloatOps F] (main_arg1 : IVec S4096 32) (main_arg2 : IVec S4096 32) (main_v116 : IVec S_ 1) (main_v118 : IVec S4096 1) : IVec S_ 1 :=
  let main_c_47 : IVec S_ 1 := constantI S_ 1 1#1
  let main_v119 : IVec S_ 1 := (fun x v => Host.reduce IntOp.andi x v reducesTo_S4096_S_d0 h_S_) main_v118 main_c_47
  let main_v120 : IVec S_ 1 := andi main_v116 main_v119
  let main_c_48 : IVec S_ 32 := constantI S_ 32 200000#32
  let main_v121 : IVec S4096 32 := broadcastInDim S4096 ![] bcast_S_S4096 main_c_48
  let main_v122 : IVec S4096 1 := cmpi .slt main_arg1 main_v121
  let main_c_49 : IVec S_ 1 := constantI S_ 1 1#1
  let main_v123 : IVec S_ 1 := (fun x v => Host.reduce IntOp.andi x v reducesTo_S4096_S_d0 h_S_) main_v122 main_c_49
  let main_v124 : IVec S_ 1 := andi main_v120 main_v123
  let main_c_50 : IVec S_ 32 := constantI S_ 32 0#32
  let main_v125 : IVec S4096 32 := broadcastInDim S4096 ![] bcast_S_S4096 main_c_50
  let main_v126 : IVec S4096 1 := cmpi .sge main_arg2 main_v125
  let main_c_51 : IVec S_ 1 := constantI S_ 1 1#1
  let main_v127 : IVec S_ 1 := (fun x v => Host.reduce IntOp.andi x v reducesTo_S4096_S_d0 h_S_) main_v126 main_c_51
  let main_v128 : IVec S_ 1 := andi main_v124 main_v127
  let main_c_52 : IVec S_ 32 := constantI S_ 32 200000#32
  let main_v129 : IVec S4096 32 := broadcastInDim S4096 ![] bcast_S_S4096 main_c_52
  let main_v130 : IVec S4096 1 := cmpi .slt main_arg2 main_v129
  let main_c_53 : IVec S_ 1 := constantI S_ 1 1#1
  let main_v131 : IVec S_ 1 := (fun x v => Host.reduce IntOp.andi x v reducesTo_S4096_S_d0 h_S_) main_v130 main_c_53
  let main_v132 : IVec S_ 1 := andi main_v128 main_v131
  main_v132

def fn_part6 {F : FTy → Type} [FloatOps F] (main_arg0 : IVec S4096 32) (main_arg1 : IVec S4096 32) (main_arg2 : IVec S4096 32) (main_arg24 : FVec F S128 .f32) (main_v98 : IVec S_ 1) (main_v101 : IVec S128x1 1) (main_c_39 : IVec S_ 1) : IVec S_ 1 :=
  let main_v102 : IVec S_ 1 := (fun x v => Host.reduce IntOp.andi x v reducesTo_S128x1_S_d0_1 h_S_) main_v101 main_c_39
  let main_v103 : IVec S_ 1 := andi main_v98 main_v102
  let main_v104 : FVec F S128 .f32 := Host.absf main_arg24
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_c_42 : IVec S_ 32 := constantI S_ 32 0#32
  let main_v109 : IVec S4096 32 := broadcastInDim S4096 ![] bcast_S_S4096 main_c_42
  let main_v110 : IVec S4096 1 := cmpi .sge main_arg0 main_v109
  let main_c_43 : IVec S_ 1 := constantI S_ 1 1#1
  let main_v111 : IVec S_ 1 := (fun x v => Host.reduce IntOp.andi x v reducesTo_S4096_S_d0 h_S_) main_v110 main_c_43
  let main_v112 : IVec S_ 1 := andi main_v108 main_v111
  let main_c_44 : IVec S_ 32 := constantI S_ 32 200000#32
  let main_v113 : IVec S4096 32 := broadcastInDim S4096 ![] bcast_S_S4096 main_c_44
  let main_v114 : IVec S4096 1 := cmpi .slt main_arg0 main_v113
  let main_c_45 : IVec S_ 1 := constantI S_ 1 1#1
  let main_v115 : IVec S_ 1 := (fun x v => Host.reduce IntOp.andi x v reducesTo_S4096_S_d0 h_S_) main_v114 main_c_45
  let main_v116 : IVec S_ 1 := andi main_v112 main_v115
  let main_c_46 : IVec S_ 32 := constantI S_ 32 0#32
  let main_v117 : IVec S4096 32 := broadcastInDim S4096 ![] bcast_S_S4096 main_c_46
  let main_v118 : IVec S4096 1 := cmpi .sge main_arg1 main_v117
  fn_part7 (F := F) main_arg1 main_arg2 main_v116 main_v118

def fn_part5 {F : FTy → Type} [FloatOps F] (main_arg0 : IVec S4096 32) (main_arg1 : IVec S4096 32) (main_arg2 : IVec S4096 32) (main_arg21 : FVec F S256x512 .f32) (main_arg22 : FVec F S256 .f32) (main_arg23 : FVec F S128x1 .f32) (main_arg24 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256x512 .f32 := Host.absf main_arg21
  let main_cst_34 : FVec F S_ .f32 := constant S_ .f32 0x7F800000#32
  let main_v90 : FVec F S256x512 .f32 := broadcastInDim S256x512 ![] bcast_S_S256x512 main_cst_34
  let main_v91 : IVec S256x512 1 := cmpf .olt main_v89 main_v90
  let main_c_35 : IVec S_ 1 := constantI S_ 1 1#1
  let main_v92 : IVec S_ 1 := (fun x v => Host.reduce IntOp.andi x v reducesTo_S256x512_S_d0_1 h_S_) main_v91 main_c_35
  let main_v93 : IVec S_ 1 := andi main_v88 main_v92
  let main_v94 : FVec F S256 .f32 := Host.absf main_arg22
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S128x1 .f32 := Host.absf main_arg23
  let main_cst_38 : FVec F S_ .f32 := constant S_ .f32 0x7F800000#32
  let main_v100 : FVec F S128x1 .f32 := broadcastInDim S128x1 ![] bcast_S_S128x1 main_cst_38
  let main_v101 : IVec S128x1 1 := cmpf .olt main_v99 main_v100
  let main_c_39 : IVec S_ 1 := constantI S_ 1 1#1
  fn_part6 (F := F) main_arg0 main_arg1 main_arg2 main_arg24 main_v98 main_v101 main_c_39

def fn_part4 {F : FTy → Type} [FloatOps F] (main_arg0 : IVec S4096 32) (main_arg1 : IVec S4096 32) (main_arg2 : IVec S4096 32) (main_arg17 : FVec F S128x129 .f32) (main_arg18 : FVec F S128x128 .f32) (main_arg19 : FVec F S128 .f32) (main_arg20 : FVec F S128 .f32) (main_arg21 : FVec F S256x512 .f32) (main_arg22 : FVec F S256 .f32) (main_arg23 : FVec F S128x1 .f32) (main_arg24 : FVec F S128 .f32) (main_v63 : IVec S_ 1) (main_v67 : IVec S_ 1) : IVec S_ 1 :=
  let main_v68 : IVec S_ 1 := andi main_v63 main_v67
  let main_v69 : FVec F S128x129 .f32 := Host.absf main_arg17
  let main_cst_26 : FVec F S_ .f32 := constant S_ .f32 0x7F800000#32
  let main_v70 : FVec F S128x129 .f32 := broadcastInDim S128x129 ![] bcast_S_S128x129 main_cst_26
  let main_v71 : IVec S128x129 1 := cmpf .olt main_v69 main_v70
  let main_c_27 : IVec S_ 1 := constantI S_ 1 1#1
  let main_v72 : IVec S_ 1 := (fun x v => Host.reduce IntOp.andi x v reducesTo_S128x129_S_d0_1 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg20
  let main_cst_32 : FVec F S_ .f32 := constant S_ .f32 0x7F800000#32
  fn_part5 (F := F) main_arg0 main_arg1 main_arg2 main_arg21 main_arg22 main_arg23 main_arg24 main_v83 main_v84 main_cst_32

def fn_part3 {F : FTy → Type} [FloatOps F] (main_arg0 : IVec S4096 32) (main_arg1 : IVec S4096 32) (main_arg2 : IVec S4096 32) (main_arg14 : FVec F S128x128 .f32) (main_arg15 : FVec F S128 .f32) (main_arg16 : FVec F S128 .f32) (main_arg17 : FVec F S128x129 .f32) (main_arg18 : FVec F S128x128 .f32) (main_arg19 : FVec F S128 .f32) (main_arg20 : FVec F S128 .f32) (main_arg21 : FVec F S256x512 .f32) (main_arg22 : FVec F S256 .f32) (main_arg23 : FVec F S128x1 .f32) (main_arg24 : FVec F S128 .f32) (main_v48 : IVec S_ 1) (main_v49 : FVec F S128x129 .f32) (main_v50 : FVec F S128x129 .f32) : IVec S_ 1 :=
  let main_v51 : IVec S128x129 1 := cmpf .olt main_v49 main_v50
  let main_c_19 : IVec S_ 1 := constantI S_ 1 1#1
  let main_v52 : IVec S_ 1 := (fun x v => Host.reduce IntOp.andi x v reducesTo_S128x129_S_d0_1 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg1 main_arg2 main_arg17 main_arg18 main_arg19 main_arg20 main_arg21 main_arg22 main_arg23 main_arg24 main_v63 main_v67

def fn_part2 {F : FTy → Type} [FloatOps F] (main_arg0 : IVec S4096 32) (main_arg1 : IVec S4096 32) (main_arg2 : IVec S4096 32) (main_arg10 : FVec F S200000x128 .f32) (main_arg11 : FVec F S1x128 .f32) (main_arg12 : FVec F S1x128 .f32) (main_arg13 : FVec F S128x129 .f32) (main_arg14 : FVec F S128x128 .f32) (main_arg15 : FVec F S128 .f32) (main_arg16 : FVec F S128 .f32) (main_arg17 : FVec F S128x129 .f32) (main_arg18 : FVec F S128x128 .f32) (main_arg19 : FVec F S128 .f32) (main_arg20 : FVec F S128 .f32) (main_arg21 : FVec F S256x512 .f32) (main_arg22 : FVec F S256 .f32) (main_arg23 : FVec F S128x1 .f32) (main_arg24 : FVec F S128 .f32) (main_v33 : IVec S_ 1) : IVec S_ 1 :=
  let main_v34 : FVec F S200000x128 .f32 := Host.absf main_arg10
  let main_cst_12 : FVec F S_ .f32 := constant S_ .f32 0x7F800000#32
  let main_v35 : FVec F S200000x128 .f32 := broadcastInDim S200000x128 ![] bcast_S_S200000x128 main_cst_12
  let main_v36 : IVec S200000x128 1 := cmpf .olt main_v34 main_v35
  let main_c_13 : IVec S_ 1 := constantI S_ 1 1#1
  let main_v37 : IVec S_ 1 := (fun x v => Host.reduce IntOp.andi x v reducesTo_S200000x128_S_d0_1 h_S_) main_v36 main_c_13
  let main_v38 : IVec S_ 1 := andi main_v33 main_v37
  let main_v39 : FVec F S1x128 .f32 := Host.absf main_arg11
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1x128 .f32 := Host.absf main_arg12
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S128x129 .f32 := Host.absf main_arg13
  let main_cst_18 : FVec F S_ .f32 := constant S_ .f32 0x7F800000#32
  let main_v50 : FVec F S128x129 .f32 := broadcastInDim S128x129 ![] bcast_S_S128x129 main_cst_18
  fn_part3 (F := F) main_arg0 main_arg1 main_arg2 main_arg14 main_arg15 main_arg16 main_arg17 main_arg18 main_arg19 main_arg20 main_arg21 main_arg22 main_arg23 main_arg24 main_v48 main_v49 main_v50

def fn_part1 {F : FTy → Type} [FloatOps F] (main_arg0 : IVec S4096 32) (main_arg1 : IVec S4096 32) (main_arg2 : IVec S4096 32) (main_arg7 : FVec F S200000x1 .f32) (main_arg8 : FVec F S200000x1 .f32) (main_arg9 : FVec F S200000x128 .f32) (main_arg10 : FVec F S200000x128 .f32) (main_arg11 : FVec F S1x128 .f32) (main_arg12 : FVec F S1x128 .f32) (main_arg13 : FVec F S128x129 .f32) (main_arg14 : FVec F S128x128 .f32) (main_arg15 : FVec F S128 .f32) (main_arg16 : FVec F S128 .f32) (main_arg17 : FVec F S128x129 .f32) (main_arg18 : FVec F S128x128 .f32) (main_arg19 : FVec F S128 .f32) (main_arg20 : FVec F S128 .f32) (main_arg21 : FVec F S256x512 .f32) (main_arg22 : FVec F S256 .f32) (main_arg23 : FVec F S128x1 .f32) (main_arg24 : FVec F S128 .f32) (main_v13 : IVec S_ 1) (main_v16 : IVec S200000x128 1) : IVec S_ 1 :=
  let main_c_5 : IVec S_ 1 := constantI S_ 1 1#1
  let main_v17 : IVec S_ 1 := (fun x v => Host.reduce IntOp.andi x v reducesTo_S200000x128_S_d0_1 h_S_) main_v16 main_c_5
  let main_v18 : IVec S_ 1 := andi main_v13 main_v17
  let main_v19 : FVec F S200000x1 .f32 := Host.absf main_arg7
  let main_cst_6 : FVec F S_ .f32 := constant S_ .f32 0x7F800000#32
  let main_v20 : FVec F S200000x1 .f32 := broadcastInDim S200000x1 ![] bcast_S_S200000x1 main_cst_6
  let main_v21 : IVec S200000x1 1 := cmpf .olt main_v19 main_v20
  let main_c_7 : IVec S_ 1 := constantI S_ 1 1#1
  let main_v22 : IVec S_ 1 := (fun x v => Host.reduce IntOp.andi x v reducesTo_S200000x1_S_d0_1 h_S_) main_v21 main_c_7
  let main_v23 : IVec S_ 1 := andi main_v18 main_v22
  let main_v24 : FVec F S200000x1 .f32 := Host.absf main_arg8
  let main_cst_8 : FVec F S_ .f32 := constant S_ .f32 0x7F800000#32
  let main_v25 : FVec F S200000x1 .f32 := broadcastInDim S200000x1 ![] bcast_S_S200000x1 main_cst_8
  let main_v26 : IVec S200000x1 1 := cmpf .olt main_v24 main_v25
  let main_c_9 : IVec S_ 1 := constantI S_ 1 1#1
  let main_v27 : IVec S_ 1 := (fun x v => Host.reduce IntOp.andi x v reducesTo_S200000x1_S_d0_1 h_S_) main_v26 main_c_9
  let main_v28 : IVec S_ 1 := andi main_v23 main_v27
  let main_v29 : FVec F S200000x128 .f32 := Host.absf main_arg9
  let main_cst_10 : FVec F S_ .f32 := constant S_ .f32 0x7F800000#32
  let main_v30 : FVec F S200000x128 .f32 := broadcastInDim S200000x128 ![] bcast_S_S200000x128 main_cst_10
  let main_v31 : IVec S200000x128 1 := cmpf .olt main_v29 main_v30
  let main_c_11 : IVec S_ 1 := constantI S_ 1 1#1
  let main_v32 : IVec S_ 1 := (fun x v => Host.reduce IntOp.andi x v reducesTo_S200000x128_S_d0_1 h_S_) main_v31 main_c_11
  let main_v33 : IVec S_ 1 := andi main_v28 main_v32
  fn_part2 (F := F) main_arg0 main_arg1 main_arg2 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : IVec S4096 32) (main_arg1 : IVec S4096 32) (main_arg2 : IVec S4096 32) (main_arg3 : FVec F S4096x1 .f32) (main_arg4 : FVec F S4096x1 .f32) (main_arg5 : FVec F S200000x128 .f32) (main_arg6 : FVec F S200000x128 .f32) (main_arg7 : FVec F S200000x1 .f32) (main_arg8 : FVec F S200000x1 .f32) (main_arg9 : FVec F S200000x128 .f32) (main_arg10 : FVec F S200000x128 .f32) (main_arg11 : FVec F S1x128 .f32) (main_arg12 : FVec F S1x128 .f32) (main_arg13 : FVec F S128x129 .f32) (main_arg14 : FVec F S128x128 .f32) (main_arg15 : FVec F S128 .f32) (main_arg16 : FVec F S128 .f32) (main_arg17 : FVec F S128x129 .f32) (main_arg18 : FVec F S128x128 .f32) (main_arg19 : FVec F S128 .f32) (main_arg20 : FVec F S128 .f32) (main_arg21 : FVec F S256x512 .f32) (main_arg22 : FVec F S256 .f32) (main_arg23 : FVec F S128x1 .f32) (main_arg24 : FVec F S128 .f32) : IVec S_ 1 :=
  let main_v0 : FVec F S4096x1 .f32 := Host.absf main_arg3
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x1 .f32 := Host.absf main_arg4
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S200000x128 .f32 := Host.absf main_arg5
  let main_cst_2 : FVec F S_ .f32 := constant S_ .f32 0x7F800000#32
  let main_v10 : FVec F S200000x128 .f32 := broadcastInDim S200000x128 ![] bcast_S_S200000x128 main_cst_2
  let main_v11 : IVec S200000x128 1 := cmpf .olt main_v9 main_v10
  let main_c_3 : IVec S_ 1 := constantI S_ 1 1#1
  let main_v12 : IVec S_ 1 := (fun x v => Host.reduce IntOp.andi x v reducesTo_S200000x128_S_d0_1 h_S_) main_v11 main_c_3
  let main_v13 : IVec S_ 1 := andi main_v8 main_v12
  let main_v14 : FVec F S200000x128 .f32 := Host.absf main_arg6
  let main_cst_4 : FVec F S_ .f32 := constant S_ .f32 0x7F800000#32
  let main_v15 : FVec F S200000x128 .f32 := broadcastInDim S200000x128 ![] bcast_S_S200000x128 main_cst_4
  let main_v16 : IVec S200000x128 1 := cmpf .olt main_v14 main_v15
  fn_part1 (F := F) main_arg0 main_arg1 main_arg2 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S4096 : Shape := ⟨1, ![4096]⟩
abbrev S4096x1 : Shape := ⟨2, ![4096, 1]⟩
abbrev S200000x128 : Shape := ⟨2, ![200000, 128]⟩
abbrev S200000x1 : Shape := ⟨2, ![200000, 1]⟩
abbrev S1x128 : Shape := ⟨2, ![1, 128]⟩
abbrev S128x129 : Shape := ⟨2, ![128, 129]⟩
abbrev S128x128 : Shape := ⟨2, ![128, 128]⟩
abbrev S128 : Shape := ⟨1, ![128]⟩
abbrev S256x512 : Shape := ⟨2, ![256, 512]⟩
abbrev S256 : Shape := ⟨1, ![256]⟩
abbrev S128x1 : Shape := ⟨2, ![128, 1]⟩
abbrev S4096x256 : Shape := ⟨2, ![4096, 256]⟩
abbrev S4096x128 : Shape := ⟨2, ![4096, 128]⟩
abbrev S16x1 : Shape := ⟨2, ![16, 1]⟩
abbrev S16x256 : Shape := ⟨2, ![16, 256]⟩
abbrev S16x128 : Shape := ⟨2, ![16, 128]⟩
abbrev S9 : Shape := ⟨1, ![9]⟩
abbrev S1 : Shape := ⟨1, ![1]⟩
abbrev S_ : Shape := ⟨0, ![]⟩
abbrev S1x1 : Shape := ⟨2, ![1, 1]⟩
abbrev S16x512 : Shape := ⟨2, ![16, 512]⟩
abbrev S512x256 : Shape := ⟨2, ![512, 256]⟩
abbrev S1x256 : Shape := ⟨2, ![1, 256]⟩
abbrev S16x129 : Shape := ⟨2, ![16, 129]⟩
abbrev S129x128 : Shape := ⟨2, ![129, 128]⟩
abbrev S4 : Shape := ⟨1, ![4]⟩

abbrev nBuf : Space → Nat
  | .hbm => 32
  | .vmem => 44
  | .smem => 3
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S200000x128, .f32⟩
  | .hbm, ⟨3, _⟩ => ⟨S200000x128, .f32⟩
  | .hbm, ⟨4, _⟩ => ⟨S200000x1, .f32⟩
  | .hbm, ⟨5, _⟩ => ⟨S200000x1, .f32⟩
  | .hbm, ⟨6, _⟩ => ⟨S200000x128, .f32⟩
  | .hbm, ⟨7, _⟩ => ⟨S200000x128, .f32⟩
  | .hbm, ⟨8, _⟩ => ⟨S1x128, .f32⟩
  | .hbm, ⟨9, _⟩ => ⟨S1x128, .f32⟩
  | .hbm, ⟨10, _⟩ => ⟨S128x129, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128x129, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S256x512, .f32⟩
  | .hbm, ⟨19, _⟩ => ⟨S256, .f32⟩
  | .hbm, ⟨20, _⟩ => ⟨S128x1, .f32⟩
  | .hbm, ⟨21, _⟩ => ⟨S128, .f32⟩
  | .hbm, ⟨22, _⟩ => ⟨S4096x256, .f32⟩
  | .hbm, ⟨23, _⟩ => ⟨S4096x256, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S200000x128, .f32⟩
  | .hbm, ⟨29, _⟩ => ⟨S200000x128, .f32⟩
  | .hbm, ⟨30, _⟩ => ⟨S200000x1, .f32⟩
  | .hbm, ⟨31, _⟩ => ⟨S200000x1, .f32⟩
  | .local _ .vmem, ⟨0, _⟩ => ⟨S16x1, .f32⟩
  | .local _ .vmem, ⟨1, _⟩ => ⟨S16x1, .f32⟩
  | .local _ .vmem, ⟨2, _⟩ => ⟨S16x1, .f32⟩
  | .local _ .vmem, ⟨3, _⟩ => ⟨S16x1, .f32⟩
  | .local _ .vmem, ⟨4, _⟩ => ⟨S1x128, .f32⟩
  | .local _ .vmem, ⟨5, _⟩ => ⟨S1x128, .f32⟩
  | .local _ .vmem, ⟨6, _⟩ => ⟨S128x129, .f32⟩
  | .local _ .vmem, ⟨7, _⟩ => ⟨S128x128, .f32⟩
  | .local _ .vmem, ⟨8, _⟩ => ⟨S128, .f32⟩
  | .local _ .vmem, ⟨9, _⟩ => ⟨S128, .f32⟩
  | .local _ .vmem, ⟨10, _⟩ => ⟨S128x129, .f32⟩
  | .local _ .vmem, ⟨11, _⟩ => ⟨S128x128, .f32⟩
  | .local _ .vmem, ⟨12, _⟩ => ⟨S128, .f32⟩
  | .local _ .vmem, ⟨13, _⟩ => ⟨S128, .f32⟩
  | .local _ .vmem, ⟨14, _⟩ => ⟨S256x512, .f32⟩
  | .local _ .vmem, ⟨15, _⟩ => ⟨S256, .f32⟩
  | .local _ .vmem, ⟨16, _⟩ => ⟨S128x1, .f32⟩
  | .local _ .vmem, ⟨17, _⟩ => ⟨S128, .f32⟩
  | .local _ .vmem, ⟨18, _⟩ => ⟨S16x256, .f32⟩
  | .local _ .vmem, ⟨19, _⟩ => ⟨S16x256, .f32⟩
  | .local _ .vmem, ⟨20, _⟩ => ⟨S16x256, .f32⟩
  | .local _ .vmem, ⟨21, _⟩ => ⟨S16x256, .f32⟩
  | .local _ .vmem, ⟨22, _⟩ => ⟨S16x128, .f32⟩
  | .local _ .vmem, ⟨23, _⟩ => ⟨S16x128, .f32⟩
  | .local _ .vmem, ⟨24, _⟩ => ⟨S16x128, .f32⟩
  | .local _ .vmem, ⟨25, _⟩ => ⟨S16x128, .f32⟩
  | .local _ .vmem, ⟨26, _⟩ => ⟨S16x128, .f32⟩
  | .local _ .vmem, ⟨27, _⟩ => ⟨S16x128, .f32⟩
  | .local _ .vmem, ⟨28, _⟩ => ⟨S16x128, .f32⟩
  | .local _ .vmem, ⟨29, _⟩ => ⟨S16x128, .f32⟩
  | .local _ .vmem, ⟨30, _⟩ => ⟨S16x128, .f32⟩
  | .local _ .vmem, ⟨31, _⟩ => ⟨S16x128, .f32⟩
  | .local _ .vmem, ⟨32, _⟩ => ⟨S16x128, .f32⟩
  | .local _ .vmem, ⟨33, _⟩ => ⟨S16x128, .f32⟩
  | .local _ .vmem, ⟨34, _⟩ => ⟨S16x128, .f32⟩
  | .local _ .vmem, ⟨35, _⟩ => ⟨S16x128, .f32⟩
  | .local _ .vmem, ⟨36, _⟩ => ⟨S16x1, .f32⟩
  | .local _ .vmem, ⟨37, _⟩ => ⟨S16x1, .f32⟩
  | .local _ .vmem, ⟨38, _⟩ => ⟨S16x1, .f32⟩
  | .local _ .vmem, ⟨39, _⟩ => ⟨S16x128, .f32⟩
  | .local _ .vmem, ⟨40, _⟩ => ⟨S16x128, .f32⟩
  | .local _ .vmem, ⟨41, _⟩ => ⟨S16x128, .f32⟩
  | .local _ .vmem, ⟨42, _⟩ => ⟨S16x128, .f32⟩
  | .local _ .vmem, ⟨43, _⟩ => ⟨S1, .f32⟩
  | .local _ .smem, ⟨0, _⟩ => ⟨S4096, .i32⟩
  | .local _ .smem, ⟨1, _⟩ => ⟨S4096, .i32⟩
  | .local _ .smem, ⟨2, _⟩ => ⟨S4096, .i32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_arg10 : Ref sig .tc := ⟨.hbm, 7, rfl⟩
abbrev main_arg11 : Ref sig .tc := ⟨.hbm, 8, rfl⟩
abbrev main_arg12 : Ref sig .tc := ⟨.hbm, 9, rfl⟩
abbrev main_arg13 : Ref sig .tc := ⟨.hbm, 10, rfl⟩
abbrev main_arg14 : Ref sig .tc := ⟨.hbm, 11, rfl⟩
abbrev main_arg15 : Ref sig .tc := ⟨.hbm, 12, rfl⟩
abbrev main_arg16 : Ref sig .tc := ⟨.hbm, 13, rfl⟩
abbrev main_arg17 : Ref sig .tc := ⟨.hbm, 14, rfl⟩
abbrev main_arg18 : Ref sig .tc := ⟨.hbm, 15, rfl⟩
abbrev main_arg19 : Ref sig .tc := ⟨.hbm, 16, rfl⟩
abbrev main_arg20 : Ref sig .tc := ⟨.hbm, 17, rfl⟩
abbrev main_arg21 : Ref sig .tc := ⟨.hbm, 18, rfl⟩
abbrev main_arg22 : Ref sig .tc := ⟨.hbm, 19, rfl⟩
abbrev main_arg23 : Ref sig .tc := ⟨.hbm, 20, rfl⟩
abbrev main_arg24 : Ref sig .tc := ⟨.hbm, 21, rfl⟩
abbrev main_v0_0 : Ref sig .tc := ⟨.hbm, 22, rfl⟩
abbrev main_v0_1 : Ref sig .tc := ⟨.hbm, 23, rfl⟩
abbrev main_v0_2 : Ref sig .tc := ⟨.hbm, 24, rfl⟩
abbrev main_v0_3 : Ref sig .tc := ⟨.hbm, 25, rfl⟩
abbrev main_v0_4 : Ref sig .tc := ⟨.hbm, 26, rfl⟩
abbrev main_v0_5 : Ref sig .tc := ⟨.hbm, 27, rfl⟩
abbrev main_v1_0 : Ref sig .tc := ⟨.hbm, 28, rfl⟩
abbrev main_v1_1 : Ref sig .tc := ⟨.hbm, 29, rfl⟩
abbrev main_v1_2 : Ref sig .tc := ⟨.hbm, 30, rfl⟩
abbrev main_v1_3 : Ref sig .tc := ⟨.hbm, 31, rfl⟩
abbrev main_arg0 : Ref sig .tc := ⟨.smem, 0, rfl⟩
abbrev main_arg2 : Ref sig .tc := ⟨.smem, 1, rfl⟩
abbrev main_arg1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc1_stg0_0 : Ref sig .tc := ⟨.vmem, 39, rfl⟩
abbrev cc1_stg0_1 : Ref sig .tc := ⟨.vmem, 40, rfl⟩
abbrev cc1_stg1_0 : Ref sig .tc := ⟨.vmem, 41, rfl⟩
abbrev cc1_stg1_1 : Ref sig .tc := ⟨.vmem, 42, rfl⟩
abbrev cc1_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc1_sem0_0 : DmaSem sig := 39
abbrev cc1_sem0_1 : DmaSem sig := 40
abbrev cc1_sem1_0 : DmaSem sig := 41
abbrev cc1_sem1_1 : DmaSem sig := 42

abbrev nD : Nat := 1
abbrev τ : Topo := Topo.v7x

variable {F : FTy → Type} [FloatOps F]

abbrev grid0 : Pipeline.Grid := ⟨1, ![256], ![false]⟩

abbrev pre0 : Pipeline.Prefetch sig := ⟨3, ![main_arg0.idx, main_arg2.idx, main_arg1.idx], fun | 0 => main_arg0.names | 1 => main_arg2.names | 2 => main_arg1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (v5 : BitVec 32) : Fin 2 → Nat :=
  let c0_i32_6 : BitVec 32 := 0#32
  ![v5.toNat, 0]

def k0_off4 (v7 : BitVec 32) : Fin 2 → Nat :=
  let c0_i32_9 : BitVec 32 := 0#32
  ![v7.toNat, 0]

def k0_off5 (v3 : BitVec 32) : Fin 2 → Nat :=
  let c0_i32_12 : BitVec 32 := 0#32
  ![v3.toNat, 0]
def k0_off6 (v5 : BitVec 32) : Fin 2 → Nat :=
  let c0_i32_15 : BitVec 32 := 0#32
  ![v5.toNat, 0]
def k0_off7 (v3 : BitVec 32) : Fin 2 → Nat :=
  let c0_i32_21 : BitVec 32 := 0#32
  ![v3.toNat, 0]

def k0_chk1 (v3 : BitVec 32) : Prop :=
  (∀ a, (k0_off2 v3) a + S1x128.size a ≤ S200000x128.size a) ∧
  (∀ a, (k0_off5 v3) a + S1x128.size a ≤ S200000x128.size a) ∧
  (∀ a, (k0_off7 v3) a + S1x1.size a ≤ S200000x1.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x128.size a ≤ S200000x128.size a := fun v3 k0_hw1 => k0_hw1.1
theorem k0_off5_inb : ∀ (v3 : BitVec 32) (k0_hw1 : k0_chk1 v3), ∀ a, (k0_off5 v3) a + S1x128.size a ≤ S200000x128.size a := fun v3 k0_hw1 => k0_hw1.2.1
theorem k0_off7_inb : ∀ (v3 : BitVec 32) (k0_hw1 : k0_chk1 v3), ∀ a, (k0_off7 v3) a + S1x1.size a ≤ S200000x1.size a := fun v3 k0_hw1 => k0_hw1.2.2

def k0_off8 (v5 : BitVec 32) : Fin 2 → Nat :=
  let c0_i32_24 : BitVec 32 := 0#32
  ![v5.toNat, 0]

def k0_chk2 (v5 : BitVec 32) : Prop :=
  (∀ a, (k0_off3 v5) a + S1x128.size a ≤ S200000x128.size a) ∧
  (∀ a, (k0_off6 v5) a + S1x128.size a ≤ S200000x128.size a) ∧
  (∀ a, (k0_off8 v5) a + S1x1.size a ≤ S200000x1.size a)
instance k0_chk2.dec : ∀ (v5 : BitVec 32), Decidable (k0_chk2 v5) := fun v5 => decidable_of_iff' _ (Iff.of_eq (k0_chk2.eq_1 v5))
theorem k0_off3_inb : ∀ (v5 : BitVec 32) (k0_hw2 : k0_chk2 v5), ∀ a, (k0_off3 v5) a + S1x128.size a ≤ S200000x128.size a := fun v5 k0_hw2 => k0_hw2.1
theorem k0_off6_inb : ∀ (v5 : BitVec 32) (k0_hw2 : k0_chk2 v5), ∀ a, (k0_off6 v5) a + S1x128.size a ≤ S200000x128.size a := fun v5 k0_hw2 => k0_hw2.2.1
theorem k0_off8_inb : ∀ (v5 : BitVec 32) (k0_hw2 : k0_chk2 v5), ∀ a, (k0_off8 v5) a + S1x1.size a ≤ S200000x1.size a := fun v5 k0_hw2 => k0_hw2.2.2

def k0_off9 (v7 : BitVec 32) : Fin 2 → Nat :=
  let c0_i32_27 : BitVec 32 := 0#32
  ![v7.toNat, 0]

def k0_chk3 (v7 : BitVec 32) : Prop :=
  (∀ a, (k0_off4 v7) a + S1x128.size a ≤ S200000x128.size a) ∧
  (∀ a, (k0_off9 v7) a + S1x1.size a ≤ S200000x1.size a)
instance k0_chk3.dec : ∀ (v7 : BitVec 32), Decidable (k0_chk3 v7) := fun v7 => decidable_of_iff' _ (Iff.of_eq (k0_chk3.eq_1 v7))
theorem k0_off4_inb : ∀ (v7 : BitVec 32) (k0_hw3 : k0_chk3 v7), ∀ a, (k0_off4 v7) a + S1x128.size a ≤ S200000x128.size a := fun v7 k0_hw3 => k0_hw3.1
theorem k0_off9_inb : ∀ (v7 : BitVec 32) (k0_hw3 : k0_chk3 v7), ∀ a, (k0_off9 v7) a + S1x1.size a ≤ S200000x1.size a := fun v7 k0_hw3 => k0_hw3.2

def k0_off10 (i : grid0.Coords) : Fin 1 → Nat :=
  let arg0 : BitVec 32 := BitVec.ofNat 32 (i 0).val
  let c16_i32 : BitVec 32 := 16#32
  let v0 : BitVec 32 := Scalar.muli arg0 c16_i32
  let c1_i32_64 : BitVec 32 := 1#32
  let v116 : BitVec 32 := Scalar.addi v0 c1_i32_64
  let v117 : Index := Scalar.indexCast v116
  ![v117.toNat]
def k0_off11 (v118 : BitVec 32) : Fin 2 → Nat :=
  let c0_i32_68 : BitVec 32 := 0#32
  ![v118.toNat, 0]

def k0_off12 (v120 : BitVec 32) : Fin 2 → Nat :=
  let c0_i32_72 : BitVec 32 := 0#32
  ![v120.toNat, 0]

def k0_off13 (v122 : BitVec 32) : Fin 2 → Nat :=
  let c0_i32_76 : BitVec 32 := 0#32
  ![v122.toNat, 0]

def k0_off14 (v118 : BitVec 32) : Fin 2 → Nat :=
  let c0_i32_80 : BitVec 32 := 0#32
  ![v118.toNat, 0]
def k0_off15 (v120 : BitVec 32) : Fin 2 → Nat :=
  let c0_i32_84 : BitVec 32 := 0#32
  ![v120.toNat, 0]
def k0_off16 (v118 : BitVec 32) : Fin 2 → Nat :=
  let c0_i32_92 : BitVec 32 := 0#32
  ![v118.toNat, 0]

def k0_chk4 (v118 : BitVec 32) : Prop :=
  (∀ a, (k0_off11 v118) a + S1x128.size a ≤ S200000x128.size a) ∧
  (∀ a, (k0_off14 v118) a + S1x128.size a ≤ S200000x128.size a) ∧
  (∀ a, (k0_off16 v118) a + S1x1.size a ≤ S200000x1.size a)
instance k0_chk4.dec : ∀ (v118 : BitVec 32), Decidable (k0_chk4 v118) := fun v118 => decidable_of_iff' _ (Iff.of_eq (k0_chk4.eq_1 v118))
theorem k0_off11_inb : ∀ (v118 : BitVec 32) (k0_hw4 : k0_chk4 v118), ∀ a, (k0_off11 v118) a + S1x128.size a ≤ S200000x128.size a := fun v118 k0_hw4 => k0_hw4.1
theorem k0_off14_inb : ∀ (v118 : BitVec 32) (k0_hw4 : k0_chk4 v118), ∀ a, (k0_off14 v118) a + S1x128.size a ≤ S200000x128.size a := fun v118 k0_hw4 => k0_hw4.2.1
theorem k0_off16_inb : ∀ (v118 : BitVec 32) (k0_hw4 : k0_chk4 v118), ∀ a, (k0_off16 v118) a + S1x1.size a ≤ S200000x1.size a := fun v118 k0_hw4 => k0_hw4.2.2

def k0_off17 (v120 : BitVec 32) : Fin 2 → Nat :=
  let c0_i32_96 : BitVec 32 := 0#32
  ![v120.toNat, 0]

def k0_chk5 (v120 : BitVec 32) : Prop :=
  (∀ a, (k0_off12 v120) a + S1x128.size a ≤ S200000x128.size a) ∧
  (∀ a, (k0_off15 v120) a + S1x128.size a ≤ S200000x128.size a) ∧
  (∀ a, (k0_off17 v120) a + S1x1.size a ≤ S200000x1.size a)
instance k0_chk5.dec : ∀ (v120 : BitVec 32), Decidable (k0_chk5 v120) := fun v120 => decidable_of_iff' _ (Iff.of_eq (k0_chk5.eq_1 v120))
theorem k0_off12_inb : ∀ (v120 : BitVec 32) (k0_hw5 : k0_chk5 v120), ∀ a, (k0_off12 v120) a + S1x128.size a ≤ S200000x128.size a := fun v120 k0_hw5 => k0_hw5.1
theorem k0_off15_inb : ∀ (v120 : BitVec 32) (k0_hw5 : k0_chk5 v120), ∀ a, (k0_off15 v120) a + S1x128.size a ≤ S200000x128.size a := fun v120 k0_hw5 => k0_hw5.2.1
theorem k0_off17_inb : ∀ (v120 : BitVec 32) (k0_hw5 : k0_chk5 v120), ∀ a, (k0_off17 v120) a + S1x1.size a ≤ S200000x1.size a := fun v120 k0_hw5 => k0_hw5.2.2

def k0_off18 (v122 : BitVec 32) : Fin 2 → Nat :=
  let c0_i32_100 : BitVec 32 := 0#32
  ![v122.toNat, 0]

def k0_chk6 (v122 : BitVec 32) : Prop :=
  (∀ a, (k0_off13 v122) a + S1x128.size a ≤ S200000x128.size a) ∧
  (∀ a, (k0_off18 v122) a + S1x1.size a ≤ S200000x1.size a)
instance k0_chk6.dec : ∀ (v122 : BitVec 32), Decidable (k0_chk6 v122) := fun v122 => decidable_of_iff' _ (Iff.of_eq (k0_chk6.eq_1 v122))
theorem k0_off13_inb : ∀ (v122 : BitVec 32) (k0_hw6 : k0_chk6 v122), ∀ a, (k0_off13 v122) a + S1x128.size a ≤ S200000x128.size a := fun v122 k0_hw6 => k0_hw6.1
theorem k0_off18_inb : ∀ (v122 : BitVec 32) (k0_hw6 : k0_chk6 v122), ∀ a, (k0_off18 v122) a + S1x1.size a ≤ S200000x1.size a := fun v122 k0_hw6 => k0_hw6.2

def k0_off19 (i : grid0.Coords) : Fin 1 → Nat :=
  let arg0 : BitVec 32 := BitVec.ofNat 32 (i 0).val
  let c16_i32 : BitVec 32 := 16#32
  let v0 : BitVec 32 := Scalar.muli arg0 c16_i32
  let c2_i32_137 : BitVec 32 := 2#32
  let v231 : BitVec 32 := Scalar.addi v0 c2_i32_137
  let v232 : Index := Scalar.indexCast v231
  ![v232.toNat]
def k0_off20 (v233 : BitVec 32) : Fin 2 → Nat :=
  let c0_i32_141 : BitVec 32 := 0#32
  ![v233.toNat, 0]

def k0_off21 (v235 : BitVec 32) : Fin 2 → Nat :=
  let c0_i32_145 : BitVec 32 := 0#32
  ![v235.toNat, 0]

def k0_off22 (v237 : BitVec 32) : Fin 2 → Nat :=
  let c0_i32_149 : BitVec 32 := 0#32
  ![v237.toNat, 0]

def k0_off23 (v233 : BitVec 32) : Fin 2 → Nat :=
  let c0_i32_153 : BitVec 32 := 0#32
  ![v233.toNat, 0]
def k0_off24 (v235 : BitVec 32) : Fin 2 → Nat :=
  let c0_i32_157 : BitVec 32 := 0#32
  ![v235.toNat, 0]
def k0_off25 (v233 : BitVec 32) : Fin 2 → Nat :=
  let c0_i32_165 : BitVec 32 := 0#32
  ![v233.toNat, 0]

def k0_chk7 (v233 : BitVec 32) : Prop :=
  (∀ a, (k0_off20 v233) a + S1x128.size a ≤ S200000x128.size a) ∧
  (∀ a, (k0_off23 v233) a + S1x128.size a ≤ S200000x128.size a) ∧
  (∀ a, (k0_off25 v233) a + S1x1.size a ≤ S200000x1.size a)
instance k0_chk7.dec : ∀ (v233 : BitVec 32), Decidable (k0_chk7 v233) := fun v233 => decidable_of_iff' _ (Iff.of_eq (k0_chk7.eq_1 v233))
theorem k0_off20_inb : ∀ (v233 : BitVec 32) (k0_hw7 : k0_chk7 v233), ∀ a, (k0_off20 v233) a + S1x128.size a ≤ S200000x128.size a := fun v233 k0_hw7 => k0_hw7.1
theorem k0_off23_inb : ∀ (v233 : BitVec 32) (k0_hw7 : k0_chk7 v233), ∀ a, (k0_off23 v233) a + S1x128.size a ≤ S200000x128.size a := fun v233 k0_hw7 => k0_hw7.2.1
theorem k0_off25_inb : ∀ (v233 : BitVec 32) (k0_hw7 : k0_chk7 v233), ∀ a, (k0_off25 v233) a + S1x1.size a ≤ S200000x1.size a := fun v233 k0_hw7 => k0_hw7.2.2

def k0_off26 (v235 : BitVec 32) : Fin 2 → Nat :=
  let c0_i32_169 : BitVec 32 := 0#32
  ![v235.toNat, 0]

def k0_chk8 (v235 : BitVec 32) : Prop :=
  (∀ a, (k0_off21 v235) a + S1x128.size a ≤ S200000x128.size a) ∧
  (∀ a, (k0_off24 v235) a + S1x128.size a ≤ S200000x128.size a) ∧
  (∀ a, (k0_off26 v235) a + S1x1.size a ≤ S200000x1.size a)
instance k0_chk8.dec : ∀ (v235 : BitVec 32), Decidable (k0_chk8 v235) := fun v235 => decidable_of_iff' _ (Iff.of_eq (k0_chk8.eq_1 v235))
theorem k0_off21_inb : ∀ (v235 : BitVec 32) (k0_hw8 : k0_chk8 v235), ∀ a, (k0_off21 v235) a + S1x128.size a ≤ S200000x128.size a := fun v235 k0_hw8 => k0_hw8.1
theorem k0_off24_inb : ∀ (v235 : BitVec 32) (k0_hw8 : k0_chk8 v235), ∀ a, (k0_off24 v235) a + S1x128.size a ≤ S200000x128.size a := fun v235 k0_hw8 => k0_hw8.2.1
theorem k0_off26_inb : ∀ (v235 : BitVec 32) (k0_hw8 : k0_chk8 v235), ∀ a, (k0_off26 v235) a + S1x1.size a ≤ S200000x1.size a := fun v235 k0_hw8 => k0_hw8.2.2

def k0_off27 (v237 : BitVec 32) : Fin 2 → Nat :=
  let c0_i32_173 : BitVec 32 := 0#32
  ![v237.toNat, 0]

def k0_chk9 (v237 : BitVec 32) : Prop :=
  (∀ a, (k0_off22 v237) a + S1x128.size a ≤ S200000x128.size a) ∧
  (∀ a, (k0_off27 v237) a + S1x1.size a ≤ S200000x1.size a)
instance k0_chk9.dec : ∀ (v237 : BitVec 32), Decidable (k0_chk9 v237) := fun v237 => decidable_of_iff' _ (Iff.of_eq (k0_chk9.eq_1 v237))
theorem k0_off22_inb : ∀ (v237 : BitVec 32) (k0_hw9 : k0_chk9 v237), ∀ a, (k0_off22 v237) a + S1x128.size a ≤ S200000x128.size a := fun v237 k0_hw9 => k0_hw9.1
theorem k0_off27_inb : ∀ (v237 : BitVec 32) (k0_hw9 : k0_chk9 v237), ∀ a, (k0_off27 v237) a + S1x1.size a ≤ S200000x1.size a := fun v237 k0_hw9 => k0_hw9.2

def k0_off28 (i : grid0.Coords) : Fin 1 → Nat :=
  let arg0 : BitVec 32 := BitVec.ofNat 32 (i 0).val
  let c16_i32 : BitVec 32 := 16#32
  let v0 : BitVec 32 := Scalar.muli arg0 c16_i32
  let c3_i32_210 : BitVec 32 := 3#32
  let v346 : BitVec 32 := Scalar.addi v0 c3_i32_210
  let v347 : Index := Scalar.indexCast v346
  ![v347.toNat]
def k0_off29 (v348 : BitVec 32) : Fin 2 → Nat :=
  let c0_i32_214 : BitVec 32 := 0#32
  ![v348.toNat, 0]

def k0_off30 (v350 : BitVec 32) : Fin 2 → Nat :=
  let c0_i32_218 : BitVec 32 := 0#32
  ![v350.toNat, 0]

def k0_off31 (v352 : BitVec 32) : Fin 2 → Nat :=
  let c0_i32_222 : BitVec 32 := 0#32
  ![v352.toNat, 0]

def k0_off32 (v348 : BitVec 32) : Fin 2 → Nat :=
  let c0_i32_226 : BitVec 32 := 0#32
  ![v348.toNat, 0]
def k0_off33 (v350 : BitVec 32) : Fin 2 → Nat :=
  let c0_i32_230 : BitVec 32 := 0#32
  ![v350.toNat, 0]
def k0_off34 (v348 : BitVec 32) : Fin 2 → Nat :=
  let c0_i32_238 : BitVec 32 := 0#32
  ![v348.toNat, 0]

def k0_chk10 (v348 : BitVec 32) : Prop :=
  (∀ a, (k0_off29 v348) a + S1x128.size a ≤ S200000x128.size a) ∧
  (∀ a, (k0_off32 v348) a + S1x128.size a ≤ S200000x128.size a) ∧
  (∀ a, (k0_off34 v348) a + S1x1.size a ≤ S200000x1.size a)
instance k0_chk10.dec : ∀ (v348 : BitVec 32), Decidable (k0_chk10 v348) := fun v348 => decidable_of_iff' _ (Iff.of_eq (k0_chk10.eq_1 v348))
theorem k0_off29_inb : ∀ (v348 : BitVec 32) (k0_hw10 : k0_chk10 v348), ∀ a, (k0_off29 v348) a + S1x128.size a ≤ S200000x128.size a := fun v348 k0_hw10 => k0_hw10.1
theorem k0_off32_inb : ∀ (v348 : BitVec 32) (k0_hw10 : k0_chk10 v348), ∀ a, (k0_off32 v348) a + S1x128.size a ≤ S200000x128.size a := fun v348 k0_hw10 => k0_hw10.2.1
theorem k0_off34_inb : ∀ (v348 : BitVec 32) (k0_hw10 : k0_chk10 v348), ∀ a, (k0_off34 v348) a + S1x1.size a ≤ S200000x1.size a := fun v348 k0_hw10 => k0_hw10.2.2

def k0_off35 (v350 : BitVec 32) : Fin 2 → Nat :=
  let c0_i32_242 : BitVec 32 := 0#32
  ![v350.toNat, 0]

def k0_chk11 (v350 : BitVec 32) : Prop :=
  (∀ a, (k0_off30 v350) a + S1x128.size a ≤ S200000x128.size a) ∧
  (∀ a, (k0_off33 v350) a + S1x128.size a ≤ S200000x128.size a) ∧
  (∀ a, (k0_off35 v350) a + S1x1.size a ≤ S200000x1.size a)
instance k0_chk11.dec : ∀ (v350 : BitVec 32), Decidable (k0_chk11 v350) := fun v350 => decidable_of_iff' _ (Iff.of_eq (k0_chk11.eq_1 v350))
theorem k0_off30_inb : ∀ (v350 : BitVec 32) (k0_hw11 : k0_chk11 v350), ∀ a, (k0_off30 v350) a + S1x128.size a ≤ S200000x128.size a := fun v350 k0_hw11 => k0_hw11.1
theorem k0_off33_inb : ∀ (v350 : BitVec 32) (k0_hw11 : k0_chk11 v350), ∀ a, (k0_off33 v350) a + S1x128.size a ≤ S200000x128.size a := fun v350 k0_hw11 => k0_hw11.2.1
theorem k0_off35_inb : ∀ (v350 : BitVec 32) (k0_hw11 : k0_chk11 v350), ∀ a, (k0_off35 v350) a + S1x1.size a ≤ S200000x1.size a := fun v350 k0_hw11 => k0_hw11.2.2

def k0_off36 (v352 : BitVec 32) : Fin 2 → Nat :=
  let c0_i32_246 : BitVec 32 := 0#32
  ![v352.toNat, 0]

def k0_chk12 (v352 : BitVec 32) : Prop :=
  (∀ a, (k0_off31 v352) a + S1x128.size a ≤ S200000x128.size a) ∧
  (∀ a, (k0_off36 v352) a + S1x1.size a ≤ S200000x1.size a)
instance k0_chk12.dec : ∀ (v352 : BitVec 32), Decidable (k0_chk12 v352) := fun v352 => decidable_of_iff' _ (Iff.of_eq (k0_chk12.eq_1 v352))
theorem k0_off31_inb : ∀ (v352 : BitVec 32) (k0_hw12 : k0_chk12 v352), ∀ a, (k0_off31 v352) a + S1x128.size a ≤ S200000x128.size a := fun v352 k0_hw12 => k0_hw12.1
theorem k0_off36_inb : ∀ (v352 : BitVec 32) (k0_hw12 : k0_chk12 v352), ∀ a, (k0_off36 v352) a + S1x1.size a ≤ S200000x1.size a := fun v352 k0_hw12 => k0_hw12.2

def k0_off37 (i : grid0.Coords) : Fin 1 → Nat :=
  let arg0 : BitVec 32 := BitVec.ofNat 32 (i 0).val
  let c16_i32 : BitVec 32 := 16#32
  let v0 : BitVec 32 := Scalar.muli arg0 c16_i32
  let c4_i32_283 : BitVec 32 := 4#32
  let v461 : BitVec 32 := Scalar.addi v0 c4_i32_283
  let v462 : Index := Scalar.indexCast v461
  ![v462.toNat]
def k0_off38 (v463 : BitVec 32) : Fin 2 → Nat :=
  let c0_i32_287 : BitVec 32 := 0#32
  ![v463.toNat, 0]

def k0_off39 (v465 : BitVec 32) : Fin 2 → Nat :=
  let c0_i32_291 : BitVec 32 := 0#32
  ![v465.toNat, 0]

def k0_off40 (v467 : BitVec 32) : Fin 2 → Nat :=
  let c0_i32_295 : BitVec 32 := 0#32
  ![v467.toNat, 0]

def k0_off41 (v463 : BitVec 32) : Fin 2 → Nat :=
  let c0_i32_299 : BitVec 32 := 0#32
  ![v463.toNat, 0]
def k0_off42 (v465 : BitVec 32) : Fin 2 → Nat :=
  let c0_i32_303 : BitVec 32 := 0#32
  ![v465.toNat, 0]
def k0_off43 (v463 : BitVec 32) : Fin 2 → Nat :=
  let c0_i32_311 : BitVec 32 := 0#32
  ![v463.toNat, 0]

def k0_chk13 (v463 : BitVec 32) : Prop :=
  (∀ a, (k0_off38 v463) a + S1x128.size a ≤ S200000x128.size a) ∧
  (∀ a, (k0_off41 v463) a + S1x128.size a ≤ S200000x128.size a) ∧
  (∀ a, (k0_off43 v463) a + S1x1.size a ≤ S200000x1.size a)
instance k0_chk13.dec : ∀ (v463 : BitVec 32), Decidable (k0_chk13 v463) := fun v463 => decidable_of_iff' _ (Iff.of_eq (k0_chk13.eq_1 v463))
theorem k0_off38_inb : ∀ (v463 : BitVec 32) (k0_hw13 : k0_chk13 v463), ∀ a, (k0_off38 v463) a + S1x128.size a ≤ S200000x128.size a := fun v463 k0_hw13 => k0_hw13.1
theorem k0_off41_inb : ∀ (v463 : BitVec 32) (k0_hw13 : k0_chk13 v463), ∀ a, (k0_off41 v463) a + S1x128.size a ≤ S200000x128.size a := fun v463 k0_hw13 => k0_hw13.2.1
theorem k0_off43_inb : ∀ (v463 : BitVec 32) (k0_hw13 : k0_chk13 v463), ∀ a, (k0_off43 v463) a + S1x1.size a ≤ S200000x1.size a := fun v463 k0_hw13 => k0_hw13.2.2

def k0_off44 (v465 : BitVec 32) : Fin 2 → Nat :=
  let c0_i32_315 : BitVec 32 := 0#32
  ![v465.toNat, 0]

def k0_chk14 (v465 : BitVec 32) : Prop :=
  (∀ a, (k0_off39 v465) a + S1x128.size a ≤ S200000x128.size a) ∧
  (∀ a, (k0_off42 v465) a + S1x128.size a ≤ S200000x128.size a) ∧
  (∀ a, (k0_off44 v465) a + S1x1.size a ≤ S200000x1.size a)
instance k0_chk14.dec : ∀ (v465 : BitVec 32), Decidable (k0_chk14 v465) := fun v465 => decidable_of_iff' _ (Iff.of_eq (k0_chk14.eq_1 v465))
theorem k0_off39_inb : ∀ (v465 : BitVec 32) (k0_hw14 : k0_chk14 v465), ∀ a, (k0_off39 v465) a + S1x128.size a ≤ S200000x128.size a := fun v465 k0_hw14 => k0_hw14.1
theorem k0_off42_inb : ∀ (v465 : BitVec 32) (k0_hw14 : k0_chk14 v465), ∀ a, (k0_off42 v465) a + S1x128.size a ≤ S200000x128.size a := fun v465 k0_hw14 => k0_hw14.2.1
theorem k0_off44_inb : ∀ (v465 : BitVec 32) (k0_hw14 : k0_chk14 v465), ∀ a, (k0_off44 v465) a + S1x1.size a ≤ S200000x1.size a := fun v465 k0_hw14 => k0_hw14.2.2

def k0_off45 (v467 : BitVec 32) : Fin 2 → Nat :=
  let c0_i32_319 : BitVec 32 := 0#32
  ![v467.toNat, 0]

def k0_chk15 (v467 : BitVec 32) : Prop :=
  (∀ a, (k0_off40 v467) a + S1x128.size a ≤ S200000x128.size a) ∧
  (∀ a, (k0_off45 v467) a + S1x1.size a ≤ S200000x1.size a)
instance k0_chk15.dec : ∀ (v467 : BitVec 32), Decidable (k0_chk15 v467) := fun v467 => decidable_of_iff' _ (Iff.of_eq (k0_chk15.eq_1 v467))
theorem k0_off40_inb : ∀ (v467 : BitVec 32) (k0_hw15 : k0_chk15 v467), ∀ a, (k0_off40 v467) a + S1x128.size a ≤ S200000x128.size a := fun v467 k0_hw15 => k0_hw15.1
theorem k0_off45_inb : ∀ (v467 : BitVec 32) (k0_hw15 : k0_chk15 v467), ∀ a, (k0_off45 v467) a + S1x1.size a ≤ S200000x1.size a := fun v467 k0_hw15 => k0_hw15.2

def k0_off46 (i : grid0.Coords) : Fin 1 → Nat :=
  let arg0 : BitVec 32 := BitVec.ofNat 32 (i 0).val
  let c16_i32 : BitVec 32 := 16#32
  let v0 : BitVec 32 := Scalar.muli arg0 c16_i32
  let c5_i32_356 : BitVec 32 := 5#32
  let v576 : BitVec 32 := Scalar.addi v0 c5_i32_356
  let v577 : Index := Scalar.indexCast v576
  ![v577.toNat]
def k0_off47 (v578 : BitVec 32) : Fin 2 → Nat :=
  let c0_i32_360 : BitVec 32 := 0#32
  ![v578.toNat, 0]

def k0_off48 (v580 : BitVec 32) : Fin 2 → Nat :=
  let c0_i32_364 : BitVec 32 := 0#32
  ![v580.toNat, 0]

def k0_off49 (v582 : BitVec 32) : Fin 2 → Nat :=
  let c0_i32_368 : BitVec 32 := 0#32
  ![v582.toNat, 0]

def k0_off50 (v578 : BitVec 32) : Fin 2 → Nat :=
  let c0_i32_372 : BitVec 32 := 0#32
  ![v578.toNat, 0]
def k0_off51 (v580 : BitVec 32) : Fin 2 → Nat :=
  let c0_i32_376 : BitVec 32 := 0#32
  ![v580.toNat, 0]
def k0_off52 (v578 : BitVec 32) : Fin 2 → Nat :=
  let c0_i32_384 : BitVec 32 := 0#32
  ![v578.toNat, 0]

def k0_chk16 (v578 : BitVec 32) : Prop :=
  (∀ a, (k0_off47 v578) a + S1x128.size a ≤ S200000x128.size a) ∧
  (∀ a, (k0_off50 v578) a + S1x128.size a ≤ S200000x128.size a) ∧
  (∀ a, (k0_off52 v578) a + S1x1.size a ≤ S200000x1.size a)
instance k0_chk16.dec : ∀ (v578 : BitVec 32), Decidable (k0_chk16 v578) := fun v578 => decidable_of_iff' _ (Iff.of_eq (k0_chk16.eq_1 v578))
theorem k0_off47_inb : ∀ (v578 : BitVec 32) (k0_hw16 : k0_chk16 v578), ∀ a, (k0_off47 v578) a + S1x128.size a ≤ S200000x128.size a := fun v578 k0_hw16 => k0_hw16.1
theorem k0_off50_inb : ∀ (v578 : BitVec 32) (k0_hw16 : k0_chk16 v578), ∀ a, (k0_off50 v578) a + S1x128.size a ≤ S200000x128.size a := fun v578 k0_hw16 => k0_hw16.2.1
theorem k0_off52_inb : ∀ (v578 : BitVec 32) (k0_hw16 : k0_chk16 v578), ∀ a, (k0_off52 v578) a + S1x1.size a ≤ S200000x1.size a := fun v578 k0_hw16 => k0_hw16.2.2

def k0_off53 (v580 : BitVec 32) : Fin 2 → Nat :=
  let c0_i32_388 : BitVec 32 := 0#32
  ![v580.toNat, 0]

def k0_chk17 (v580 : BitVec 32) : Prop :=
  (∀ a, (k0_off48 v580) a + S1x128.size a ≤ S200000x128.size a) ∧
  (∀ a, (k0_off51 v580) a + S1x128.size a ≤ S200000x128.size a) ∧
  (∀ a, (k0_off53 v580) a + S1x1.size a ≤ S200000x1.size a)
instance k0_chk17.dec : ∀ (v580 : BitVec 32), Decidable (k0_chk17 v580) := fun v580 => decidable_of_iff' _ (Iff.of_eq (k0_chk17.eq_1 v580))
theorem k0_off48_inb : ∀ (v580 : BitVec 32) (k0_hw17 : k0_chk17 v580), ∀ a, (k0_off48 v580) a + S1x128.size a ≤ S200000x128.size a := fun v580 k0_hw17 => k0_hw17.1
theorem k0_off51_inb : ∀ (v580 : BitVec 32) (k0_hw17 : k0_chk17 v580), ∀ a, (k0_off51 v580) a + S1x128.size a ≤ S200000x128.size a := fun v580 k0_hw17 => k0_hw17.2.1
theorem k0_off53_inb : ∀ (v580 : BitVec 32) (k0_hw17 : k0_chk17 v580), ∀ a, (k0_off53 v580) a + S1x1.size a ≤ S200000x1.size a := fun v580 k0_hw17 => k0_hw17.2.2

def k0_off54 (v582 : BitVec 32) : Fin 2 → Nat :=
  let c0_i32_392 : BitVec 32 := 0#32
  ![v582.toNat, 0]

def k0_chk18 (v582 : BitVec 32) : Prop :=
  (∀ a, (k0_off49 v582) a + S1x128.size a ≤ S200000x128.size a) ∧
  (∀ a, (k0_off54 v582) a + S1x1.size a ≤ S200000x1.size a)
instance k0_chk18.dec : ∀ (v582 : BitVec 32), Decidable (k0_chk18 v582) := fun v582 => decidable_of_iff' _ (Iff.of_eq (k0_chk18.eq_1 v582))
theorem k0_off49_inb : ∀ (v582 : BitVec 32) (k0_hw18 : k0_chk18 v582), ∀ a, (k0_off49 v582) a + S1x128.size a ≤ S200000x128.size a := fun v582 k0_hw18 => k0_hw18.1
theorem k0_off54_inb : ∀ (v582 : BitVec 32) (k0_hw18 : k0_chk18 v582), ∀ a, (k0_off54 v582) a + S1x1.size a ≤ S200000x1.size a := fun v582 k0_hw18 => k0_hw18.2

def k0_off55 (i : grid0.Coords) : Fin 1 → Nat :=
  let arg0 : BitVec 32 := BitVec.ofNat 32 (i 0).val
  let c16_i32 : BitVec 32 := 16#32
  let v0 : BitVec 32 := Scalar.muli arg0 c16_i32
  let c6_i32_429 : BitVec 32 := 6#32
  let v691 : BitVec 32 := Scalar.addi v0 c6_i32_429
  let v692 : Index := Scalar.indexCast v691
  ![v692.toNat]
def k0_off56 (v693 : BitVec 32) : Fin 2 → Nat :=
  let c0_i32_433 : BitVec 32 := 0#32
  ![v693.toNat, 0]

def k0_off57 (v695 : BitVec 32) : Fin 2 → Nat :=
  let c0_i32_437 : BitVec 32 := 0#32
  ![v695.toNat, 0]

def k0_off58 (v697 : BitVec 32) : Fin 2 → Nat :=
  let c0_i32_441 : BitVec 32 := 0#32
  ![v697.toNat, 0]

def k0_off59 (v693 : BitVec 32) : Fin 2 → Nat :=
  let c0_i32_445 : BitVec 32 := 0#32
  ![v693.toNat, 0]
def k0_off60 (v695 : BitVec 32) : Fin 2 → Nat :=
  let c0_i32_449 : BitVec 32 := 0#32
  ![v695.toNat, 0]
def k0_off61 (v693 : BitVec 32) : Fin 2 → Nat :=
  let c0_i32_457 : BitVec 32 := 0#32
  ![v693.toNat, 0]

def k0_chk19 (v693 : BitVec 32) : Prop :=
  (∀ a, (k0_off56 v693) a + S1x128.size a ≤ S200000x128.size a) ∧
  (∀ a, (k0_off59 v693) a + S1x128.size a ≤ S200000x128.size a) ∧
  (∀ a, (k0_off61 v693) a + S1x1.size a ≤ S200000x1.size a)
instance k0_chk19.dec : ∀ (v693 : BitVec 32), Decidable (k0_chk19 v693) := fun v693 => decidable_of_iff' _ (Iff.of_eq (k0_chk19.eq_1 v693))
theorem k0_off56_inb : ∀ (v693 : BitVec 32) (k0_hw19 : k0_chk19 v693), ∀ a, (k0_off56 v693) a + S1x128.size a ≤ S200000x128.size a := fun v693 k0_hw19 => k0_hw19.1
theorem k0_off59_inb : ∀ (v693 : BitVec 32) (k0_hw19 : k0_chk19 v693), ∀ a, (k0_off59 v693) a + S1x128.size a ≤ S200000x128.size a := fun v693 k0_hw19 => k0_hw19.2.1
theorem k0_off61_inb : ∀ (v693 : BitVec 32) (k0_hw19 : k0_chk19 v693), ∀ a, (k0_off61 v693) a + S1x1.size a ≤ S200000x1.size a := fun v693 k0_hw19 => k0_hw19.2.2

def k0_off62 (v695 : BitVec 32) : Fin 2 → Nat :=
  let c0_i32_461 : BitVec 32 := 0#32
  ![v695.toNat, 0]

def k0_chk20 (v695 : BitVec 32) : Prop :=
  (∀ a, (k0_off57 v695) a + S1x128.size a ≤ S200000x128.size a) ∧
  (∀ a, (k0_off60 v695) a + S1x128.size a ≤ S200000x128.size a) ∧
  (∀ a, (k0_off62 v695) a + S1x1.size a ≤ S200000x1.size a)
instance k0_chk20.dec : ∀ (v695 : BitVec 32), Decidable (k0_chk20 v695) := fun v695 => decidable_of_iff' _ (Iff.of_eq (k0_chk20.eq_1 v695))
theorem k0_off57_inb : ∀ (v695 : BitVec 32) (k0_hw20 : k0_chk20 v695), ∀ a, (k0_off57 v695) a + S1x128.size a ≤ S200000x128.size a := fun v695 k0_hw20 => k0_hw20.1
theorem k0_off60_inb : ∀ (v695 : BitVec 32) (k0_hw20 : k0_chk20 v695), ∀ a, (k0_off60 v695) a + S1x128.size a ≤ S200000x128.size a := fun v695 k0_hw20 => k0_hw20.2.1
theorem k0_off62_inb : ∀ (v695 : BitVec 32) (k0_hw20 : k0_chk20 v695), ∀ a, (k0_off62 v695) a + S1x1.size a ≤ S200000x1.size a := fun v695 k0_hw20 => k0_hw20.2.2

def k0_off63 (v697 : BitVec 32) : Fin 2 → Nat :=
  let c0_i32_465 : BitVec 32 := 0#32
  ![v697.toNat, 0]

def k0_chk21 (v697 : BitVec 32) : Prop :=
  (∀ a, (k0_off58 v697) a + S1x128.size a ≤ S200000x128.size a) ∧
  (∀ a, (k0_off63 v697) a + S1x1.size a ≤ S200000x1.size a)
instance k0_chk21.dec : ∀ (v697 : BitVec 32), Decidable (k0_chk21 v697) := fun v697 => decidable_of_iff' _ (Iff.of_eq (k0_chk21.eq_1 v697))
theorem k0_off58_inb : ∀ (v697 : BitVec 32) (k0_hw21 : k0_chk21 v697), ∀ a, (k0_off58 v697) a + S1x128.size a ≤ S200000x128.size a := fun v697 k0_hw21 => k0_hw21.1
theorem k0_off63_inb : ∀ (v697 : BitVec 32) (k0_hw21 : k0_chk21 v697), ∀ a, (k0_off63 v697) a + S1x1.size a ≤ S200000x1.size a := fun v697 k0_hw21 => k0_hw21.2

def k0_off64 (i : grid0.Coords) : Fin 1 → Nat :=
  let arg0 : BitVec 32 := BitVec.ofNat 32 (i 0).val
  let c16_i32 : BitVec 32 := 16#32
  let v0 : BitVec 32 := Scalar.muli arg0 c16_i32
  let c7_i32_502 : BitVec 32 := 7#32
  let v806 : BitVec 32 := Scalar.addi v0 c7_i32_502
  let v807 : Index := Scalar.indexCast v806
  ![v807.toNat]
def k0_off65 (v808 : BitVec 32) : Fin 2 → Nat :=
  let c0_i32_506 : BitVec 32 := 0#32
  ![v808.toNat, 0]

def k0_off66 (v810 : BitVec 32) : Fin 2 → Nat :=
  let c0_i32_510 : BitVec 32 := 0#32
  ![v810.toNat, 0]

def k0_off67 (v812 : BitVec 32) : Fin 2 → Nat :=
  let c0_i32_514 : BitVec 32 := 0#32
  ![v812.toNat, 0]

def k0_off68 (v808 : BitVec 32) : Fin 2 → Nat :=
  let c0_i32_518 : BitVec 32 := 0#32
  ![v808.toNat, 0]
def k0_off69 (v810 : BitVec 32) : Fin 2 → Nat :=
  let c0_i32_522 : BitVec 32 := 0#32
  ![v810.toNat, 0]
def k0_off70 (v808 : BitVec 32) : Fin 2 → Nat :=
  let c0_i32_530 : BitVec 32 := 0#32
  ![v808.toNat, 0]

def k0_chk22 (v808 : BitVec 32) : Prop :=
  (∀ a, (k0_off65 v808) a + S1x128.size a ≤ S200000x128.size a) ∧
  (∀ a, (k0_off68 v808) a + S1x128.size a ≤ S200000x128.size a) ∧
  (∀ a, (k0_off70 v808) a + S1x1.size a ≤ S200000x1.size a)
instance k0_chk22.dec : ∀ (v808 : BitVec 32), Decidable (k0_chk22 v808) := fun v808 => decidable_of_iff' _ (Iff.of_eq (k0_chk22.eq_1 v808))
theorem k0_off65_inb : ∀ (v808 : BitVec 32) (k0_hw22 : k0_chk22 v808), ∀ a, (k0_off65 v808) a + S1x128.size a ≤ S200000x128.size a := fun v808 k0_hw22 => k0_hw22.1
theorem k0_off68_inb : ∀ (v808 : BitVec 32) (k0_hw22 : k0_chk22 v808), ∀ a, (k0_off68 v808) a + S1x128.size a ≤ S200000x128.size a := fun v808 k0_hw22 => k0_hw22.2.1
theorem k0_off70_inb : ∀ (v808 : BitVec 32) (k0_hw22 : k0_chk22 v808), ∀ a, (k0_off70 v808) a + S1x1.size a ≤ S200000x1.size a := fun v808 k0_hw22 => k0_hw22.2.2

def k0_off71 (v810 : BitVec 32) : Fin 2 → Nat :=
  let c0_i32_534 : BitVec 32 := 0#32
  ![v810.toNat, 0]

def k0_chk23 (v810 : BitVec 32) : Prop :=
  (∀ a, (k0_off66 v810) a + S1x128.size a ≤ S200000x128.size a) ∧
  (∀ a, (k0_off69 v810) a + S1x128.size a ≤ S200000x128.size a) ∧
  (∀ a, (k0_off71 v810) a + S1x1.size a ≤ S200000x1.size a)
instance k0_chk23.dec : ∀ (v810 : BitVec 32), Decidable (k0_chk23 v810) := fun v810 => decidable_of_iff' _ (Iff.of_eq (k0_chk23.eq_1 v810))
theorem k0_off66_inb : ∀ (v810 : BitVec 32) (k0_hw23 : k0_chk23 v810), ∀ a, (k0_off66 v810) a + S1x128.size a ≤ S200000x128.size a := fun v810 k0_hw23 => k0_hw23.1
theorem k0_off69_inb : ∀ (v810 : BitVec 32) (k0_hw23 : k0_chk23 v810), ∀ a, (k0_off69 v810) a + S1x128.size a ≤ S200000x128.size a := fun v810 k0_hw23 => k0_hw23.2.1
theorem k0_off71_inb : ∀ (v810 : BitVec 32) (k0_hw23 : k0_chk23 v810), ∀ a, (k0_off71 v810) a + S1x1.size a ≤ S200000x1.size a := fun v810 k0_hw23 => k0_hw23.2.2

def k0_off72 (v812 : BitVec 32) : Fin 2 → Nat :=
  let c0_i32_538 : BitVec 32 := 0#32
  ![v812.toNat, 0]

def k0_chk24 (v812 : BitVec 32) : Prop :=
  (∀ a, (k0_off67 v812) a + S1x128.size a ≤ S200000x128.size a) ∧
  (∀ a, (k0_off72 v812) a + S1x1.size a ≤ S200000x1.size a)
instance k0_chk24.dec : ∀ (v812 : BitVec 32), Decidable (k0_chk24 v812) := fun v812 => decidable_of_iff' _ (Iff.of_eq (k0_chk24.eq_1 v812))
theorem k0_off67_inb : ∀ (v812 : BitVec 32) (k0_hw24 : k0_chk24 v812), ∀ a, (k0_off67 v812) a + S1x128.size a ≤ S200000x128.size a := fun v812 k0_hw24 => k0_hw24.1
theorem k0_off72_inb : ∀ (v812 : BitVec 32) (k0_hw24 : k0_chk24 v812), ∀ a, (k0_off72 v812) a + S1x1.size a ≤ S200000x1.size a := fun v812 k0_hw24 => k0_hw24.2

def k0_off73 (i : grid0.Coords) : Fin 1 → Nat :=
  let arg0 : BitVec 32 := BitVec.ofNat 32 (i 0).val
  let c16_i32 : BitVec 32 := 16#32
  let v0 : BitVec 32 := Scalar.muli arg0 c16_i32
  let c8_i32_575 : BitVec 32 := 8#32
  let v921 : BitVec 32 := Scalar.addi v0 c8_i32_575
  let v922 : Index := Scalar.indexCast v921
  ![v922.toNat]
def k0_off74 (v923 : BitVec 32) : Fin 2 → Nat :=
  let c0_i32_579 : BitVec 32 := 0#32
  ![v923.toNat, 0]

def k0_off75 (v925 : BitVec 32) : Fin 2 → Nat :=
  let c0_i32_583 : BitVec 32 := 0#32
  ![v925.toNat, 0]

def k0_off76 (v927 : BitVec 32) : Fin 2 → Nat :=
  let c0_i32_587 : BitVec 32 := 0#32
  ![v927.toNat, 0]

def k0_off77 (v923 : BitVec 32) : Fin 2 → Nat :=
  let c0_i32_591 : BitVec 32 := 0#32
  ![v923.toNat, 0]
def k0_off78 (v925 : BitVec 32) : Fin 2 → Nat :=
  let c0_i32_595 : BitVec 32 := 0#32
  ![v925.toNat, 0]
def k0_off79 (v923 : BitVec 32) : Fin 2 → Nat :=
  let c0_i32_603 : BitVec 32 := 0#32
  ![v923.toNat, 0]

def k0_chk25 (v923 : BitVec 32) : Prop :=
  (∀ a, (k0_off74 v923) a + S1x128.size a ≤ S200000x128.size a) ∧
  (∀ a, (k0_off77 v923) a + S1x128.size a ≤ S200000x128.size a) ∧
  (∀ a, (k0_off79 v923) a + S1x1.size a ≤ S200000x1.size a)
instance k0_chk25.dec : ∀ (v923 : BitVec 32), Decidable (k0_chk25 v923) := fun v923 => decidable_of_iff' _ (Iff.of_eq (k0_chk25.eq_1 v923))
theorem k0_off74_inb : ∀ (v923 : BitVec 32) (k0_hw25 : k0_chk25 v923), ∀ a, (k0_off74 v923) a + S1x128.size a ≤ S200000x128.size a := fun v923 k0_hw25 => k0_hw25.1
theorem k0_off77_inb : ∀ (v923 : BitVec 32) (k0_hw25 : k0_chk25 v923), ∀ a, (k0_off77 v923) a + S1x128.size a ≤ S200000x128.size a := fun v923 k0_hw25 => k0_hw25.2.1
theorem k0_off79_inb : ∀ (v923 : BitVec 32) (k0_hw25 : k0_chk25 v923), ∀ a, (k0_off79 v923) a + S1x1.size a ≤ S200000x1.size a := fun v923 k0_hw25 => k0_hw25.2.2

def k0_off80 (v925 : BitVec 32) : Fin 2 → Nat :=
  let c0_i32_607 : BitVec 32 := 0#32
  ![v925.toNat, 0]

def k0_chk26 (v925 : BitVec 32) : Prop :=
  (∀ a, (k0_off75 v925) a + S1x128.size a ≤ S200000x128.size a) ∧
  (∀ a, (k0_off78 v925) a + S1x128.size a ≤ S200000x128.size a) ∧
  (∀ a, (k0_off80 v925) a + S1x1.size a ≤ S200000x1.size a)
instance k0_chk26.dec : ∀ (v925 : BitVec 32), Decidable (k0_chk26 v925) := fun v925 => decidable_of_iff' _ (Iff.of_eq (k0_chk26.eq_1 v925))
theorem k0_off75_inb : ∀ (v925 : BitVec 32) (k0_hw26 : k0_chk26 v925), ∀ a, (k0_off75 v925) a + S1x128.size a ≤ S200000x128.size a := fun v925 k0_hw26 => k0_hw26.1
theorem k0_off78_inb : ∀ (v925 : BitVec 32) (k0_hw26 : k0_chk26 v925), ∀ a, (k0_off78 v925) a + S1x128.size a ≤ S200000x128.size a := fun v925 k0_hw26 => k0_hw26.2.1
theorem k0_off80_inb : ∀ (v925 : BitVec 32) (k0_hw26 : k0_chk26 v925), ∀ a, (k0_off80 v925) a + S1x1.size a ≤ S200000x1.size a := fun v925 k0_hw26 => k0_hw26.2.2

def k0_off81 (v927 : BitVec 32) : Fin 2 → Nat :=
  let c0_i32_611 : BitVec 32 := 0#32
  ![v927.toNat, 0]

def k0_chk27 (v927 : BitVec 32) : Prop :=
  (∀ a, (k0_off76 v927) a + S1x128.size a ≤ S200000x128.size a) ∧
  (∀ a, (k0_off81 v927) a + S1x1.size a ≤ S200000x1.size a)
instance k0_chk27.dec : ∀ (v927 : BitVec 32), Decidable (k0_chk27 v927) := fun v927 => decidable_of_iff' _ (Iff.of_eq (k0_chk27.eq_1 v927))
theorem k0_off76_inb : ∀ (v927 : BitVec 32) (k0_hw27 : k0_chk27 v927), ∀ a, (k0_off76 v927) a + S1x128.size a ≤ S200000x128.size a := fun v927 k0_hw27 => k0_hw27.1
theorem k0_off81_inb : ∀ (v927 : BitVec 32) (k0_hw27 : k0_chk27 v927), ∀ a, (k0_off81 v927) a + S1x1.size a ≤ S200000x1.size a := fun v927 k0_hw27 => k0_hw27.2

def k0_off82 (i : grid0.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v1036 : BitVec 32 := Scalar.addi v0 c9_i32
  let v1037 : Index := Scalar.indexCast v1036
  ![v1037.toNat]
def k0_off83 (v1038 : BitVec 32) : Fin 2 → Nat :=
  let c0_i32_651 : BitVec 32 := 0#32
  ![v1038.toNat, 0]

def k0_off84 (v1040 : BitVec 32) : Fin 2 → Nat :=
  let c0_i32_655 : BitVec 32 := 0#32
  ![v1040.toNat, 0]

def k0_off85 (v1042 : BitVec 32) : Fin 2 → Nat :=
  let c0_i32_659 : BitVec 32 := 0#32
  ![v1042.toNat, 0]

def k0_off86 (v1038 : BitVec 32) : Fin 2 → Nat :=
  let c0_i32_663 : BitVec 32 := 0#32
  ![v1038.toNat, 0]
def k0_off87 (v1040 : BitVec 32) : Fin 2 → Nat :=
  let c0_i32_667 : BitVec 32 := 0#32
  ![v1040.toNat, 0]
def k0_off88 (v1038 : BitVec 32) : Fin 2 → Nat :=
  let c0_i32_675 : BitVec 32 := 0#32
  ![v1038.toNat, 0]

def k0_chk28 (v1038 : BitVec 32) : Prop :=
  (∀ a, (k0_off83 v1038) a + S1x128.size a ≤ S200000x128.size a) ∧
  (∀ a, (k0_off86 v1038) a + S1x128.size a ≤ S200000x128.size a) ∧
  (∀ a, (k0_off88 v1038) a + S1x1.size a ≤ S200000x1.size a)
instance k0_chk28.dec : ∀ (v1038 : BitVec 32), Decidable (k0_chk28 v1038) := fun v1038 => decidable_of_iff' _ (Iff.of_eq (k0_chk28.eq_1 v1038))
theorem k0_off83_inb : ∀ (v1038 : BitVec 32) (k0_hw28 : k0_chk28 v1038), ∀ a, (k0_off83 v1038) a + S1x128.size a ≤ S200000x128.size a := fun v1038 k0_hw28 => k0_hw28.1
theorem k0_off86_inb : ∀ (v1038 : BitVec 32) (k0_hw28 : k0_chk28 v1038), ∀ a, (k0_off86 v1038) a + S1x128.size a ≤ S200000x128.size a := fun v1038 k0_hw28 => k0_hw28.2.1
theorem k0_off88_inb : ∀ (v1038 : BitVec 32) (k0_hw28 : k0_chk28 v1038), ∀ a, (k0_off88 v1038) a + S1x1.size a ≤ S200000x1.size a := fun v1038 k0_hw28 => k0_hw28.2.2

def k0_off89 (v1040 : BitVec 32) : Fin 2 → Nat :=
  let c0_i32_679 : BitVec 32 := 0#32
  ![v1040.toNat, 0]

def k0_chk29 (v1040 : BitVec 32) : Prop :=
  (∀ a, (k0_off84 v1040) a + S1x128.size a ≤ S200000x128.size a) ∧
  (∀ a, (k0_off87 v1040) a + S1x128.size a ≤ S200000x128.size a) ∧
  (∀ a, (k0_off89 v1040) a + S1x1.size a ≤ S200000x1.size a)
instance k0_chk29.dec : ∀ (v1040 : BitVec 32), Decidable (k0_chk29 v1040) := fun v1040 => decidable_of_iff' _ (Iff.of_eq (k0_chk29.eq_1 v1040))
theorem k0_off84_inb : ∀ (v1040 : BitVec 32) (k0_hw29 : k0_chk29 v1040), ∀ a, (k0_off84 v1040) a + S1x128.size a ≤ S200000x128.size a := fun v1040 k0_hw29 => k0_hw29.1
theorem k0_off87_inb : ∀ (v1040 : BitVec 32) (k0_hw29 : k0_chk29 v1040), ∀ a, (k0_off87 v1040) a + S1x128.size a ≤ S200000x128.size a := fun v1040 k0_hw29 => k0_hw29.2.1
theorem k0_off89_inb : ∀ (v1040 : BitVec 32) (k0_hw29 : k0_chk29 v1040), ∀ a, (k0_off89 v1040) a + S1x1.size a ≤ S200000x1.size a := fun v1040 k0_hw29 => k0_hw29.2.2

def k0_off90 (v1042 : BitVec 32) : Fin 2 → Nat :=
  let c0_i32_683 : BitVec 32 := 0#32
  ![v1042.toNat, 0]

def k0_chk30 (v1042 : BitVec 32) : Prop :=
  (∀ a, (k0_off85 v1042) a + S1x128.size a ≤ S200000x128.size a) ∧
  (∀ a, (k0_off90 v1042) a + S1x1.size a ≤ S200000x1.size a)
instance k0_chk30.dec : ∀ (v1042 : BitVec 32), Decidable (k0_chk30 v1042) := fun v1042 => decidable_of_iff' _ (Iff.of_eq (k0_chk30.eq_1 v1042))
theorem k0_off85_inb : ∀ (v1042 : BitVec 32) (k0_hw30 : k0_chk30 v1042), ∀ a, (k0_off85 v1042) a + S1x128.size a ≤ S200000x128.size a := fun v1042 k0_hw30 => k0_hw30.1
theorem k0_off90_inb : ∀ (v1042 : BitVec 32) (k0_hw30 : k0_chk30 v1042), ∀ a, (k0_off90 v1042) a + S1x1.size a ≤ S200000x1.size a := fun v1042 k0_hw30 => k0_hw30.2

def k0_off91 (i : grid0.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v1151 : BitVec 32 := Scalar.addi v0 c10_i32
  let v1152 : Index := Scalar.indexCast v1151
  ![v1152.toNat]
def k0_off92 (v1153 : BitVec 32) : Fin 2 → Nat :=
  let c0_i32_723 : BitVec 32 := 0#32
  ![v1153.toNat, 0]

def k0_off93 (v1155 : BitVec 32) : Fin 2 → Nat :=
  let c0_i32_727 : BitVec 32 := 0#32
  ![v1155.toNat, 0]

def k0_off94 (v1157 : BitVec 32) : Fin 2 → Nat :=
  let c0_i32_731 : BitVec 32 := 0#32
  ![v1157.toNat, 0]

def k0_off95 (v1153 : BitVec 32) : Fin 2 → Nat :=
  let c0_i32_735 : BitVec 32 := 0#32
  ![v1153.toNat, 0]
def k0_off96 (v1155 : BitVec 32) : Fin 2 → Nat :=
  let c0_i32_739 : BitVec 32 := 0#32
  ![v1155.toNat, 0]
def k0_off97 (v1153 : BitVec 32) : Fin 2 → Nat :=
  let c0_i32_747 : BitVec 32 := 0#32
  ![v1153.toNat, 0]

def k0_chk31 (v1153 : BitVec 32) : Prop :=
  (∀ a, (k0_off92 v1153) a + S1x128.size a ≤ S200000x128.size a) ∧
  (∀ a, (k0_off95 v1153) a + S1x128.size a ≤ S200000x128.size a) ∧
  (∀ a, (k0_off97 v1153) a + S1x1.size a ≤ S200000x1.size a)
instance k0_chk31.dec : ∀ (v1153 : BitVec 32), Decidable (k0_chk31 v1153) := fun v1153 => decidable_of_iff' _ (Iff.of_eq (k0_chk31.eq_1 v1153))
theorem k0_off92_inb : ∀ (v1153 : BitVec 32) (k0_hw31 : k0_chk31 v1153), ∀ a, (k0_off92 v1153) a + S1x128.size a ≤ S200000x128.size a := fun v1153 k0_hw31 => k0_hw31.1
theorem k0_off95_inb : ∀ (v1153 : BitVec 32) (k0_hw31 : k0_chk31 v1153), ∀ a, (k0_off95 v1153) a + S1x128.size a ≤ S200000x128.size a := fun v1153 k0_hw31 => k0_hw31.2.1
theorem k0_off97_inb : ∀ (v1153 : BitVec 32) (k0_hw31 : k0_chk31 v1153), ∀ a, (k0_off97 v1153) a + S1x1.size a ≤ S200000x1.size a := fun v1153 k0_hw31 => k0_hw31.2.2

def k0_off98 (v1155 : BitVec 32) : Fin 2 → Nat :=
  let c0_i32_751 : BitVec 32 := 0#32
  ![v1155.toNat, 0]

def k0_chk32 (v1155 : BitVec 32) : Prop :=
  (∀ a, (k0_off93 v1155) a + S1x128.size a ≤ S200000x128.size a) ∧
  (∀ a, (k0_off96 v1155) a + S1x128.size a ≤ S200000x128.size a) ∧
  (∀ a, (k0_off98 v1155) a + S1x1.size a ≤ S200000x1.size a)
instance k0_chk32.dec : ∀ (v1155 : BitVec 32), Decidable (k0_chk32 v1155) := fun v1155 => decidable_of_iff' _ (Iff.of_eq (k0_chk32.eq_1 v1155))
theorem k0_off93_inb : ∀ (v1155 : BitVec 32) (k0_hw32 : k0_chk32 v1155), ∀ a, (k0_off93 v1155) a + S1x128.size a ≤ S200000x128.size a := fun v1155 k0_hw32 => k0_hw32.1
theorem k0_off96_inb : ∀ (v1155 : BitVec 32) (k0_hw32 : k0_chk32 v1155), ∀ a, (k0_off96 v1155) a + S1x128.size a ≤ S200000x128.size a := fun v1155 k0_hw32 => k0_hw32.2.1
theorem k0_off98_inb : ∀ (v1155 : BitVec 32) (k0_hw32 : k0_chk32 v1155), ∀ a, (k0_off98 v1155) a + S1x1.size a ≤ S200000x1.size a := fun v1155 k0_hw32 => k0_hw32.2.2

def k0_off99 (v1157 : BitVec 32) : Fin 2 → Nat :=
  let c0_i32_755 : BitVec 32 := 0#32
  ![v1157.toNat, 0]

def k0_chk33 (v1157 : BitVec 32) : Prop :=
  (∀ a, (k0_off94 v1157) a + S1x128.size a ≤ S200000x128.size a) ∧
  (∀ a, (k0_off99 v1157) a + S1x1.size a ≤ S200000x1.size a)
instance k0_chk33.dec : ∀ (v1157 : BitVec 32), Decidable (k0_chk33 v1157) := fun v1157 => decidable_of_iff' _ (Iff.of_eq (k0_chk33.eq_1 v1157))
theorem k0_off94_inb : ∀ (v1157 : BitVec 32) (k0_hw33 : k0_chk33 v1157), ∀ a, (k0_off94 v1157) a + S1x128.size a ≤ S200000x128.size a := fun v1157 k0_hw33 => k0_hw33.1
theorem k0_off99_inb : ∀ (v1157 : BitVec 32) (k0_hw33 : k0_chk33 v1157), ∀ a, (k0_off99 v1157) a + S1x1.size a ≤ S200000x1.size a := fun v1157 k0_hw33 => k0_hw33.2

def k0_off100 (i : grid0.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v1266 : BitVec 32 := Scalar.addi v0 c11_i32
  let v1267 : Index := Scalar.indexCast v1266
  ![v1267.toNat]
def k0_off101 (v1268 : BitVec 32) : Fin 2 → Nat :=
  let c0_i32_795 : BitVec 32 := 0#32
  ![v1268.toNat, 0]

def k0_off102 (v1270 : BitVec 32) : Fin 2 → Nat :=
  let c0_i32_799 : BitVec 32 := 0#32
  ![v1270.toNat, 0]

def k0_off103 (v1272 : BitVec 32) : Fin 2 → Nat :=
  let c0_i32_803 : BitVec 32 := 0#32
  ![v1272.toNat, 0]

def k0_off104 (v1268 : BitVec 32) : Fin 2 → Nat :=
  let c0_i32_807 : BitVec 32 := 0#32
  ![v1268.toNat, 0]
def k0_off105 (v1270 : BitVec 32) : Fin 2 → Nat :=
  let c0_i32_811 : BitVec 32 := 0#32
  ![v1270.toNat, 0]
def k0_off106 (v1268 : BitVec 32) : Fin 2 → Nat :=
  let c0_i32_819 : BitVec 32 := 0#32
  ![v1268.toNat, 0]

def k0_chk34 (v1268 : BitVec 32) : Prop :=
  (∀ a, (k0_off101 v1268) a + S1x128.size a ≤ S200000x128.size a) ∧
  (∀ a, (k0_off104 v1268) a + S1x128.size a ≤ S200000x128.size a) ∧
  (∀ a, (k0_off106 v1268) a + S1x1.size a ≤ S200000x1.size a)
instance k0_chk34.dec : ∀ (v1268 : BitVec 32), Decidable (k0_chk34 v1268) := fun v1268 => decidable_of_iff' _ (Iff.of_eq (k0_chk34.eq_1 v1268))
theorem k0_off101_inb : ∀ (v1268 : BitVec 32) (k0_hw34 : k0_chk34 v1268), ∀ a, (k0_off101 v1268) a + S1x128.size a ≤ S200000x128.size a := fun v1268 k0_hw34 => k0_hw34.1
theorem k0_off104_inb : ∀ (v1268 : BitVec 32) (k0_hw34 : k0_chk34 v1268), ∀ a, (k0_off104 v1268) a + S1x128.size a ≤ S200000x128.size a := fun v1268 k0_hw34 => k0_hw34.2.1
theorem k0_off106_inb : ∀ (v1268 : BitVec 32) (k0_hw34 : k0_chk34 v1268), ∀ a, (k0_off106 v1268) a + S1x1.size a ≤ S200000x1.size a := fun v1268 k0_hw34 => k0_hw34.2.2

def k0_off107 (v1270 : BitVec 32) : Fin 2 → Nat :=
  let c0_i32_823 : BitVec 32 := 0#32
  ![v1270.toNat, 0]

def k0_chk35 (v1270 : BitVec 32) : Prop :=
  (∀ a, (k0_off102 v1270) a + S1x128.size a ≤ S200000x128.size a) ∧
  (∀ a, (k0_off105 v1270) a + S1x128.size a ≤ S200000x128.size a) ∧
  (∀ a, (k0_off107 v1270) a + S1x1.size a ≤ S200000x1.size a)
instance k0_chk35.dec : ∀ (v1270 : BitVec 32), Decidable (k0_chk35 v1270) := fun v1270 => decidable_of_iff' _ (Iff.of_eq (k0_chk35.eq_1 v1270))
theorem k0_off102_inb : ∀ (v1270 : BitVec 32) (k0_hw35 : k0_chk35 v1270), ∀ a, (k0_off102 v1270) a + S1x128.size a ≤ S200000x128.size a := fun v1270 k0_hw35 => k0_hw35.1
theorem k0_off105_inb : ∀ (v1270 : BitVec 32) (k0_hw35 : k0_chk35 v1270), ∀ a, (k0_off105 v1270) a + S1x128.size a ≤ S200000x128.size a := fun v1270 k0_hw35 => k0_hw35.2.1
theorem k0_off107_inb : ∀ (v1270 : BitVec 32) (k0_hw35 : k0_chk35 v1270), ∀ a, (k0_off107 v1270) a + S1x1.size a ≤ S200000x1.size a := fun v1270 k0_hw35 => k0_hw35.2.2

def k0_off108 (v1272 : BitVec 32) : Fin 2 → Nat :=
  let c0_i32_827 : BitVec 32 := 0#32
  ![v1272.toNat, 0]

def k0_chk36 (v1272 : BitVec 32) : Prop :=
  (∀ a, (k0_off103 v1272) a + S1x128.size a ≤ S200000x128.size a) ∧
  (∀ a, (k0_off108 v1272) a + S1x1.size a ≤ S200000x1.size a)
instance k0_chk36.dec : ∀ (v1272 : BitVec 32), Decidable (k0_chk36 v1272) := fun v1272 => decidable_of_iff' _ (Iff.of_eq (k0_chk36.eq_1 v1272))
theorem k0_off103_inb : ∀ (v1272 : BitVec 32) (k0_hw36 : k0_chk36 v1272), ∀ a, (k0_off103 v1272) a + S1x128.size a ≤ S200000x128.size a := fun v1272 k0_hw36 => k0_hw36.1
theorem k0_off108_inb : ∀ (v1272 : BitVec 32) (k0_hw36 : k0_chk36 v1272), ∀ a, (k0_off108 v1272) a + S1x1.size a ≤ S200000x1.size a := fun v1272 k0_hw36 => k0_hw36.2

def k0_off109 (i : grid0.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v1381 : BitVec 32 := Scalar.addi v0 c12_i32
  let v1382 : Index := Scalar.indexCast v1381
  ![v1382.toNat]
def k0_off110 (v1383 : BitVec 32) : Fin 2 → Nat :=
  let c0_i32_867 : BitVec 32 := 0#32
  ![v1383.toNat, 0]

def k0_off111 (v1385 : BitVec 32) : Fin 2 → Nat :=
  let c0_i32_871 : BitVec 32 := 0#32
  ![v1385.toNat, 0]

def k0_off112 (v1387 : BitVec 32) : Fin 2 → Nat :=
  let c0_i32_875 : BitVec 32 := 0#32
  ![v1387.toNat, 0]

def k0_off113 (v1383 : BitVec 32) : Fin 2 → Nat :=
  let c0_i32_879 : BitVec 32 := 0#32
  ![v1383.toNat, 0]
def k0_off114 (v1385 : BitVec 32) : Fin 2 → Nat :=
  let c0_i32_883 : BitVec 32 := 0#32
  ![v1385.toNat, 0]
def k0_off115 (v1383 : BitVec 32) : Fin 2 → Nat :=
  let c0_i32_891 : BitVec 32 := 0#32
  ![v1383.toNat, 0]

def k0_chk37 (v1383 : BitVec 32) : Prop :=
  (∀ a, (k0_off110 v1383) a + S1x128.size a ≤ S200000x128.size a) ∧
  (∀ a, (k0_off113 v1383) a + S1x128.size a ≤ S200000x128.size a) ∧
  (∀ a, (k0_off115 v1383) a + S1x1.size a ≤ S200000x1.size a)
instance k0_chk37.dec : ∀ (v1383 : BitVec 32), Decidable (k0_chk37 v1383) := fun v1383 => decidable_of_iff' _ (Iff.of_eq (k0_chk37.eq_1 v1383))
theorem k0_off110_inb : ∀ (v1383 : BitVec 32) (k0_hw37 : k0_chk37 v1383), ∀ a, (k0_off110 v1383) a + S1x128.size a ≤ S200000x128.size a := fun v1383 k0_hw37 => k0_hw37.1
theorem k0_off113_inb : ∀ (v1383 : BitVec 32) (k0_hw37 : k0_chk37 v1383), ∀ a, (k0_off113 v1383) a + S1x128.size a ≤ S200000x128.size a := fun v1383 k0_hw37 => k0_hw37.2.1
theorem k0_off115_inb : ∀ (v1383 : BitVec 32) (k0_hw37 : k0_chk37 v1383), ∀ a, (k0_off115 v1383) a + S1x1.size a ≤ S200000x1.size a := fun v1383 k0_hw37 => k0_hw37.2.2

def k0_off116 (v1385 : BitVec 32) : Fin 2 → Nat :=
  let c0_i32_895 : BitVec 32 := 0#32
  ![v1385.toNat, 0]

def k0_chk38 (v1385 : BitVec 32) : Prop :=
  (∀ a, (k0_off111 v1385) a + S1x128.size a ≤ S200000x128.size a) ∧
  (∀ a, (k0_off114 v1385) a + S1x128.size a ≤ S200000x128.size a) ∧
  (∀ a, (k0_off116 v1385) a + S1x1.size a ≤ S200000x1.size a)
instance k0_chk38.dec : ∀ (v1385 : BitVec 32), Decidable (k0_chk38 v1385) := fun v1385 => decidable_of_iff' _ (Iff.of_eq (k0_chk38.eq_1 v1385))
theorem k0_off111_inb : ∀ (v1385 : BitVec 32) (k0_hw38 : k0_chk38 v1385), ∀ a, (k0_off111 v1385) a + S1x128.size a ≤ S200000x128.size a := fun v1385 k0_hw38 => k0_hw38.1
theorem k0_off114_inb : ∀ (v1385 : BitVec 32) (k0_hw38 : k0_chk38 v1385), ∀ a, (k0_off114 v1385) a + S1x128.size a ≤ S200000x128.size a := fun v1385 k0_hw38 => k0_hw38.2.1
theorem k0_off116_inb : ∀ (v1385 : BitVec 32) (k0_hw38 : k0_chk38 v1385), ∀ a, (k0_off116 v1385) a + S1x1.size a ≤ S200000x1.size a := fun v1385 k0_hw38 => k0_hw38.2.2

def k0_off117 (v1387 : BitVec 32) : Fin 2 → Nat :=
  let c0_i32_899 : BitVec 32 := 0#32
  ![v1387.toNat, 0]

def k0_chk39 (v1387 : BitVec 32) : Prop :=
  (∀ a, (k0_off112 v1387) a + S1x128.size a ≤ S200000x128.size a) ∧
  (∀ a, (k0_off117 v1387) a + S1x1.size a ≤ S200000x1.size a)
instance k0_chk39.dec : ∀ (v1387 : BitVec 32), Decidable (k0_chk39 v1387) := fun v1387 => decidable_of_iff' _ (Iff.of_eq (k0_chk39.eq_1 v1387))
theorem k0_off112_inb : ∀ (v1387 : BitVec 32) (k0_hw39 : k0_chk39 v1387), ∀ a, (k0_off112 v1387) a + S1x128.size a ≤ S200000x128.size a := fun v1387 k0_hw39 => k0_hw39.1
theorem k0_off117_inb : ∀ (v1387 : BitVec 32) (k0_hw39 : k0_chk39 v1387), ∀ a, (k0_off117 v1387) a + S1x1.size a ≤ S200000x1.size a := fun v1387 k0_hw39 => k0_hw39.2

def k0_off118 (i : grid0.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v1496 : BitVec 32 := Scalar.addi v0 c13_i32
  let v1497 : Index := Scalar.indexCast v1496
  ![v1497.toNat]
def k0_off119 (v1498 : BitVec 32) : Fin 2 → Nat :=
  let c0_i32_939 : BitVec 32 := 0#32
  ![v1498.toNat, 0]

def k0_off120 (v1500 : BitVec 32) : Fin 2 → Nat :=
  let c0_i32_943 : BitVec 32 := 0#32
  ![v1500.toNat, 0]

def k0_off121 (v1502 : BitVec 32) : Fin 2 → Nat :=
  let c0_i32_947 : BitVec 32 := 0#32
  ![v1502.toNat, 0]

def k0_off122 (v1498 : BitVec 32) : Fin 2 → Nat :=
  let c0_i32_951 : BitVec 32 := 0#32
  ![v1498.toNat, 0]
def k0_off123 (v1500 : BitVec 32) : Fin 2 → Nat :=
  let c0_i32_955 : BitVec 32 := 0#32
  ![v1500.toNat, 0]
def k0_off124 (v1498 : BitVec 32) : Fin 2 → Nat :=
  let c0_i32_963 : BitVec 32 := 0#32
  ![v1498.toNat, 0]

def k0_chk40 (v1498 : BitVec 32) : Prop :=
  (∀ a, (k0_off119 v1498) a + S1x128.size a ≤ S200000x128.size a) ∧
  (∀ a, (k0_off122 v1498) a + S1x128.size a ≤ S200000x128.size a) ∧
  (∀ a, (k0_off124 v1498) a + S1x1.size a ≤ S200000x1.size a)
instance k0_chk40.dec : ∀ (v1498 : BitVec 32), Decidable (k0_chk40 v1498) := fun v1498 => decidable_of_iff' _ (Iff.of_eq (k0_chk40.eq_1 v1498))
theorem k0_off119_inb : ∀ (v1498 : BitVec 32) (k0_hw40 : k0_chk40 v1498), ∀ a, (k0_off119 v1498) a + S1x128.size a ≤ S200000x128.size a := fun v1498 k0_hw40 => k0_hw40.1
theorem k0_off122_inb : ∀ (v1498 : BitVec 32) (k0_hw40 : k0_chk40 v1498), ∀ a, (k0_off122 v1498) a + S1x128.size a ≤ S200000x128.size a := fun v1498 k0_hw40 => k0_hw40.2.1
theorem k0_off124_inb : ∀ (v1498 : BitVec 32) (k0_hw40 : k0_chk40 v1498), ∀ a, (k0_off124 v1498) a + S1x1.size a ≤ S200000x1.size a := fun v1498 k0_hw40 => k0_hw40.2.2

def k0_off125 (v1500 : BitVec 32) : Fin 2 → Nat :=
  let c0_i32_967 : BitVec 32 := 0#32
  ![v1500.toNat, 0]

def k0_chk41 (v1500 : BitVec 32) : Prop :=
  (∀ a, (k0_off120 v1500) a + S1x128.size a ≤ S200000x128.size a) ∧
  (∀ a, (k0_off123 v1500) a + S1x128.size a ≤ S200000x128.size a) ∧
  (∀ a, (k0_off125 v1500) a + S1x1.size a ≤ S200000x1.size a)
instance k0_chk41.dec : ∀ (v1500 : BitVec 32), Decidable (k0_chk41 v1500) := fun v1500 => decidable_of_iff' _ (Iff.of_eq (k0_chk41.eq_1 v1500))
theorem k0_off120_inb : ∀ (v1500 : BitVec 32) (k0_hw41 : k0_chk41 v1500), ∀ a, (k0_off120 v1500) a + S1x128.size a ≤ S200000x128.size a := fun v1500 k0_hw41 => k0_hw41.1
theorem k0_off123_inb : ∀ (v1500 : BitVec 32) (k0_hw41 : k0_chk41 v1500), ∀ a, (k0_off123 v1500) a + S1x128.size a ≤ S200000x128.size a := fun v1500 k0_hw41 => k0_hw41.2.1
theorem k0_off125_inb : ∀ (v1500 : BitVec 32) (k0_hw41 : k0_chk41 v1500), ∀ a, (k0_off125 v1500) a + S1x1.size a ≤ S200000x1.size a := fun v1500 k0_hw41 => k0_hw41.2.2

def k0_off126 (v1502 : BitVec 32) : Fin 2 → Nat :=
  let c0_i32_971 : BitVec 32 := 0#32
  ![v1502.toNat, 0]

def k0_chk42 (v1502 : BitVec 32) : Prop :=
  (∀ a, (k0_off121 v1502) a + S1x128.size a ≤ S200000x128.size a) ∧
  (∀ a, (k0_off126 v1502) a + S1x1.size a ≤ S200000x1.size a)
instance k0_chk42.dec : ∀ (v1502 : BitVec 32), Decidable (k0_chk42 v1502) := fun v1502 => decidable_of_iff' _ (Iff.of_eq (k0_chk42.eq_1 v1502))
theorem k0_off121_inb : ∀ (v1502 : BitVec 32) (k0_hw42 : k0_chk42 v1502), ∀ a, (k0_off121 v1502) a + S1x128.size a ≤ S200000x128.size a := fun v1502 k0_hw42 => k0_hw42.1
theorem k0_off126_inb : ∀ (v1502 : BitVec 32) (k0_hw42 : k0_chk42 v1502), ∀ a, (k0_off126 v1502) a + S1x1.size a ≤ S200000x1.size a := fun v1502 k0_hw42 => k0_hw42.2

def k0_off127 (i : grid0.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v1611 : BitVec 32 := Scalar.addi v0 c14_i32
  let v1612 : Index := Scalar.indexCast v1611
  ![v1612.toNat]
def k0_off128 (v1613 : BitVec 32) : Fin 2 → Nat :=
  let c0_i32_1011 : BitVec 32 := 0#32
  ![v1613.toNat, 0]

def k0_off129 (v1615 : BitVec 32) : Fin 2 → Nat :=
  let c0_i32_1015 : BitVec 32 := 0#32
  ![v1615.toNat, 0]

def k0_off130 (v1617 : BitVec 32) : Fin 2 → Nat :=
  let c0_i32_1019 : BitVec 32 := 0#32
  ![v1617.toNat, 0]

def k0_off131 (v1613 : BitVec 32) : Fin 2 → Nat :=
  let c0_i32_1023 : BitVec 32 := 0#32
  ![v1613.toNat, 0]
def k0_off132 (v1615 : BitVec 32) : Fin 2 → Nat :=
  let c0_i32_1027 : BitVec 32 := 0#32
  ![v1615.toNat, 0]
def k0_off133 (v1613 : BitVec 32) : Fin 2 → Nat :=
  let c0_i32_1035 : BitVec 32 := 0#32
  ![v1613.toNat, 0]

def k0_chk43 (v1613 : BitVec 32) : Prop :=
  (∀ a, (k0_off128 v1613) a + S1x128.size a ≤ S200000x128.size a) ∧
  (∀ a, (k0_off131 v1613) a + S1x128.size a ≤ S200000x128.size a) ∧
  (∀ a, (k0_off133 v1613) a + S1x1.size a ≤ S200000x1.size a)
instance k0_chk43.dec : ∀ (v1613 : BitVec 32), Decidable (k0_chk43 v1613) := fun v1613 => decidable_of_iff' _ (Iff.of_eq (k0_chk43.eq_1 v1613))
theorem k0_off128_inb : ∀ (v1613 : BitVec 32) (k0_hw43 : k0_chk43 v1613), ∀ a, (k0_off128 v1613) a + S1x128.size a ≤ S200000x128.size a := fun v1613 k0_hw43 => k0_hw43.1
theorem k0_off131_inb : ∀ (v1613 : BitVec 32) (k0_hw43 : k0_chk43 v1613), ∀ a, (k0_off131 v1613) a + S1x128.size a ≤ S200000x128.size a := fun v1613 k0_hw43 => k0_hw43.2.1
theorem k0_off133_inb : ∀ (v1613 : BitVec 32) (k0_hw43 : k0_chk43 v1613), ∀ a, (k0_off133 v1613) a + S1x1.size a ≤ S200000x1.size a := fun v1613 k0_hw43 => k0_hw43.2.2

def k0_off134 (v1615 : BitVec 32) : Fin 2 → Nat :=
  let c0_i32_1039 : BitVec 32 := 0#32
  ![v1615.toNat, 0]

def k0_chk44 (v1615 : BitVec 32) : Prop :=
  (∀ a, (k0_off129 v1615) a + S1x128.size a ≤ S200000x128.size a) ∧
  (∀ a, (k0_off132 v1615) a + S1x128.size a ≤ S200000x128.size a) ∧
  (∀ a, (k0_off134 v1615) a + S1x1.size a ≤ S200000x1.size a)
instance k0_chk44.dec : ∀ (v1615 : BitVec 32), Decidable (k0_chk44 v1615) := fun v1615 => decidable_of_iff' _ (Iff.of_eq (k0_chk44.eq_1 v1615))
theorem k0_off129_inb : ∀ (v1615 : BitVec 32) (k0_hw44 : k0_chk44 v1615), ∀ a, (k0_off129 v1615) a + S1x128.size a ≤ S200000x128.size a := fun v1615 k0_hw44 => k0_hw44.1
theorem k0_off132_inb : ∀ (v1615 : BitVec 32) (k0_hw44 : k0_chk44 v1615), ∀ a, (k0_off132 v1615) a + S1x128.size a ≤ S200000x128.size a := fun v1615 k0_hw44 => k0_hw44.2.1
theorem k0_off134_inb : ∀ (v1615 : BitVec 32) (k0_hw44 : k0_chk44 v1615), ∀ a, (k0_off134 v1615) a + S1x1.size a ≤ S200000x1.size a := fun v1615 k0_hw44 => k0_hw44.2.2

def k0_off135 (v1617 : BitVec 32) : Fin 2 → Nat :=
  let c0_i32_1043 : BitVec 32 := 0#32
  ![v1617.toNat, 0]

def k0_chk45 (v1617 : BitVec 32) : Prop :=
  (∀ a, (k0_off130 v1617) a + S1x128.size a ≤ S200000x128.size a) ∧
  (∀ a, (k0_off135 v1617) a + S1x1.size a ≤ S200000x1.size a)
instance k0_chk45.dec : ∀ (v1617 : BitVec 32), Decidable (k0_chk45 v1617) := fun v1617 => decidable_of_iff' _ (Iff.of_eq (k0_chk45.eq_1 v1617))
theorem k0_off130_inb : ∀ (v1617 : BitVec 32) (k0_hw45 : k0_chk45 v1617), ∀ a, (k0_off130 v1617) a + S1x128.size a ≤ S200000x128.size a := fun v1617 k0_hw45 => k0_hw45.1
theorem k0_off135_inb : ∀ (v1617 : BitVec 32) (k0_hw45 : k0_chk45 v1617), ∀ a, (k0_off135 v1617) a + S1x1.size a ≤ S200000x1.size a := fun v1617 k0_hw45 => k0_hw45.2

def k0_off136 (i : grid0.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v1726 : BitVec 32 := Scalar.addi v0 c15_i32
  let v1727 : Index := Scalar.indexCast v1726
  ![v1727.toNat]
def k0_off137 (v1728 : BitVec 32) : Fin 2 → Nat :=
  let c0_i32_1083 : BitVec 32 := 0#32
  ![v1728.toNat, 0]

def k0_off138 (v1730 : BitVec 32) : Fin 2 → Nat :=
  let c0_i32_1087 : BitVec 32 := 0#32
  ![v1730.toNat, 0]

def k0_off139 (v1732 : BitVec 32) : Fin 2 → Nat :=
  let c0_i32_1091 : BitVec 32 := 0#32
  ![v1732.toNat, 0]

def k0_off140 (v1728 : BitVec 32) : Fin 2 → Nat :=
  let c0_i32_1095 : BitVec 32 := 0#32
  ![v1728.toNat, 0]
def k0_off141 (v1730 : BitVec 32) : Fin 2 → Nat :=
  let c0_i32_1099 : BitVec 32 := 0#32
  ![v1730.toNat, 0]
def k0_off142 (v1728 : BitVec 32) : Fin 2 → Nat :=
  let c0_i32_1107 : BitVec 32 := 0#32
  ![v1728.toNat, 0]

def k0_chk46 (v1728 : BitVec 32) : Prop :=
  (∀ a, (k0_off137 v1728) a + S1x128.size a ≤ S200000x128.size a) ∧
  (∀ a, (k0_off140 v1728) a + S1x128.size a ≤ S200000x128.size a) ∧
  (∀ a, (k0_off142 v1728) a + S1x1.size a ≤ S200000x1.size a)
instance k0_chk46.dec : ∀ (v1728 : BitVec 32), Decidable (k0_chk46 v1728) := fun v1728 => decidable_of_iff' _ (Iff.of_eq (k0_chk46.eq_1 v1728))
theorem k0_off137_inb : ∀ (v1728 : BitVec 32) (k0_hw46 : k0_chk46 v1728), ∀ a, (k0_off137 v1728) a + S1x128.size a ≤ S200000x128.size a := fun v1728 k0_hw46 => k0_hw46.1
theorem k0_off140_inb : ∀ (v1728 : BitVec 32) (k0_hw46 : k0_chk46 v1728), ∀ a, (k0_off140 v1728) a + S1x128.size a ≤ S200000x128.size a := fun v1728 k0_hw46 => k0_hw46.2.1
theorem k0_off142_inb : ∀ (v1728 : BitVec 32) (k0_hw46 : k0_chk46 v1728), ∀ a, (k0_off142 v1728) a + S1x1.size a ≤ S200000x1.size a := fun v1728 k0_hw46 => k0_hw46.2.2

def k0_off143 (v1730 : BitVec 32) : Fin 2 → Nat :=
  let c0_i32_1111 : BitVec 32 := 0#32
  ![v1730.toNat, 0]

def k0_chk47 (v1730 : BitVec 32) : Prop :=
  (∀ a, (k0_off138 v1730) a + S1x128.size a ≤ S200000x128.size a) ∧
  (∀ a, (k0_off141 v1730) a + S1x128.size a ≤ S200000x128.size a) ∧
  (∀ a, (k0_off143 v1730) a + S1x1.size a ≤ S200000x1.size a)
instance k0_chk47.dec : ∀ (v1730 : BitVec 32), Decidable (k0_chk47 v1730) := fun v1730 => decidable_of_iff' _ (Iff.of_eq (k0_chk47.eq_1 v1730))
theorem k0_off138_inb : ∀ (v1730 : BitVec 32) (k0_hw47 : k0_chk47 v1730), ∀ a, (k0_off138 v1730) a + S1x128.size a ≤ S200000x128.size a := fun v1730 k0_hw47 => k0_hw47.1
theorem k0_off141_inb : ∀ (v1730 : BitVec 32) (k0_hw47 : k0_chk47 v1730), ∀ a, (k0_off141 v1730) a + S1x128.size a ≤ S200000x128.size a := fun v1730 k0_hw47 => k0_hw47.2.1
theorem k0_off143_inb : ∀ (v1730 : BitVec 32) (k0_hw47 : k0_chk47 v1730), ∀ a, (k0_off143 v1730) a + S1x1.size a ≤ S200000x1.size a := fun v1730 k0_hw47 => k0_hw47.2.2

def k0_off144 (v1732 : BitVec 32) : Fin 2 → Nat :=
  let c0_i32_1115 : BitVec 32 := 0#32
  ![v1732.toNat, 0]

def k0_chk48 (v1732 : BitVec 32) : Prop :=
  (∀ a, (k0_off139 v1732) a + S1x128.size a ≤ S200000x128.size a) ∧
  (∀ a, (k0_off144 v1732) a + S1x1.size a ≤ S200000x1.size a)
instance k0_chk48.dec : ∀ (v1732 : BitVec 32), Decidable (k0_chk48 v1732) := fun v1732 => decidable_of_iff' _ (Iff.of_eq (k0_chk48.eq_1 v1732))
theorem k0_off139_inb : ∀ (v1732 : BitVec 32) (k0_hw48 : k0_chk48 v1732), ∀ a, (k0_off139 v1732) a + S1x128.size a ≤ S200000x128.size a := fun v1732 k0_hw48 => k0_hw48.1
theorem k0_off144_inb : ∀ (v1732 : BitVec 32) (k0_hw48 : k0_chk48 v1732), ∀ a, (k0_off144 v1732) a + S1x1.size a ≤ S200000x1.size a := fun v1732 k0_hw48 => k0_hw48.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x129 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x129 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S16x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev grid1 : Pipeline.Grid := ⟨1, ![256], ![false]⟩

abbrev pre1 : Pipeline.Prefetch sig := ⟨2, ![main_arg0.idx, main_arg2.idx], fun | 0 => main_arg0.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v5 : BitVec 32 := Scalar.addi v0 c0_i32
  let v6 : Index := Scalar.indexCast v5
  ![v6.toNat]
def k1_off2 (v7 : BitVec 32) : Fin 2 → Nat :=
  let c0_i32_2 : BitVec 32 := 0#32
  ![v7.toNat, 0]

def k1_off3 (v9 : BitVec 32) : Fin 2 → Nat :=
  let c0_i32_9 : BitVec 32 := 0#32
  ![v9.toNat, 0]

def k1_off4 (v7 : BitVec 32) : Fin 2 → Nat :=
  let c0_i32_15 : BitVec 32 := 0#32
  ![v7.toNat, 0]

def k1_chk1 (v7 : BitVec 32) : Prop :=
  (∀ a, (k1_off2 v7) a + S1x128.size a ≤ S200000x128.size a) ∧
  (∀ a, (k1_off4 v7) a + S1x1.size a ≤ S200000x1.size a)
instance k1_chk1.dec : ∀ (v7 : BitVec 32), Decidable (k1_chk1 v7) := fun v7 => decidable_of_iff' _ (Iff.of_eq (k1_chk1.eq_1 v7))
theorem k1_off2_inb : ∀ (v7 : BitVec 32) (k1_hw1 : k1_chk1 v7), ∀ a, (k1_off2 v7) a + S1x128.size a ≤ S200000x128.size a := fun v7 k1_hw1 => k1_hw1.1
theorem k1_off4_inb : ∀ (v7 : BitVec 32) (k1_hw1 : k1_chk1 v7), ∀ a, (k1_off4 v7) a + S1x1.size a ≤ S200000x1.size a := fun v7 k1_hw1 => k1_hw1.2

def k1_off5 (v9 : BitVec 32) : Fin 2 → Nat :=
  let c0_i32_18 : BitVec 32 := 0#32
  ![v9.toNat, 0]

def k1_chk2 (v9 : BitVec 32) : Prop :=
  (∀ a, (k1_off3 v9) a + S1x128.size a ≤ S200000x128.size a) ∧
  (∀ a, (k1_off5 v9) a + S1x1.size a ≤ S200000x1.size a)
instance k1_chk2.dec : ∀ (v9 : BitVec 32), Decidable (k1_chk2 v9) := fun v9 => decidable_of_iff' _ (Iff.of_eq (k1_chk2.eq_1 v9))
theorem k1_off3_inb : ∀ (v9 : BitVec 32) (k1_hw2 : k1_chk2 v9), ∀ a, (k1_off3 v9) a + S1x128.size a ≤ S200000x128.size a := fun v9 k1_hw2 => k1_hw2.1
theorem k1_off5_inb : ∀ (v9 : BitVec 32) (k1_hw2 : k1_chk2 v9), ∀ a, (k1_off5 v9) a + S1x1.size a ≤ S200000x1.size a := fun v9 k1_hw2 => k1_hw2.2

def k1_off6 (i : grid1.Coords) : Fin 1 → Nat :=
  let arg0 : BitVec 32 := BitVec.ofNat 32 (i 0).val
  let c16_i32 : BitVec 32 := 16#32
  let v0 : BitVec 32 := Scalar.muli arg0 c16_i32
  let c1_i32_21 : BitVec 32 := 1#32
  let v50 : BitVec 32 := Scalar.addi v0 c1_i32_21
  let v51 : Index := Scalar.indexCast v50
  ![v51.toNat]
def k1_off7 (v52 : BitVec 32) : Fin 2 → Nat :=
  let c0_i32_24 : BitVec 32 := 0#32
  ![v52.toNat, 0]

def k1_off8 (v54 : BitVec 32) : Fin 2 → Nat :=
  let c0_i32_32 : BitVec 32 := 0#32
  ![v54.toNat, 0]

def k1_off9 (v52 : BitVec 32) : Fin 2 → Nat :=
  let c0_i32_39 : BitVec 32 := 0#32
  ![v52.toNat, 0]

def k1_chk3 (v52 : BitVec 32) : Prop :=
  (∀ a, (k1_off7 v52) a + S1x128.size a ≤ S200000x128.size a) ∧
  (∀ a, (k1_off9 v52) a + S1x1.size a ≤ S200000x1.size a)
instance k1_chk3.dec : ∀ (v52 : BitVec 32), Decidable (k1_chk3 v52) := fun v52 => decidable_of_iff' _ (Iff.of_eq (k1_chk3.eq_1 v52))
theorem k1_off7_inb : ∀ (v52 : BitVec 32) (k1_hw3 : k1_chk3 v52), ∀ a, (k1_off7 v52) a + S1x128.size a ≤ S200000x128.size a := fun v52 k1_hw3 => k1_hw3.1
theorem k1_off9_inb : ∀ (v52 : BitVec 32) (k1_hw3 : k1_chk3 v52), ∀ a, (k1_off9 v52) a + S1x1.size a ≤ S200000x1.size a := fun v52 k1_hw3 => k1_hw3.2

def k1_off10 (v54 : BitVec 32) : Fin 2 → Nat :=
  let c0_i32_43 : BitVec 32 := 0#32
  ![v54.toNat, 0]

def k1_chk4 (v54 : BitVec 32) : Prop :=
  (∀ a, (k1_off8 v54) a + S1x128.size a ≤ S200000x128.size a) ∧
  (∀ a, (k1_off10 v54) a + S1x1.size a ≤ S200000x1.size a)
instance k1_chk4.dec : ∀ (v54 : BitVec 32), Decidable (k1_chk4 v54) := fun v54 => decidable_of_iff' _ (Iff.of_eq (k1_chk4.eq_1 v54))
theorem k1_off8_inb : ∀ (v54 : BitVec 32) (k1_hw4 : k1_chk4 v54), ∀ a, (k1_off8 v54) a + S1x128.size a ≤ S200000x128.size a := fun v54 k1_hw4 => k1_hw4.1
theorem k1_off10_inb : ∀ (v54 : BitVec 32) (k1_hw4 : k1_chk4 v54), ∀ a, (k1_off10 v54) a + S1x1.size a ≤ S200000x1.size a := fun v54 k1_hw4 => k1_hw4.2

def k1_off11 (i : grid1.Coords) : Fin 1 → Nat :=
  let arg0 : BitVec 32 := BitVec.ofNat 32 (i 0).val
  let c16_i32 : BitVec 32 := 16#32
  let v0 : BitVec 32 := Scalar.muli arg0 c16_i32
  let c2_i32_46 : BitVec 32 := 2#32
  let v95 : BitVec 32 := Scalar.addi v0 c2_i32_46
  let v96 : Index := Scalar.indexCast v95
  ![v96.toNat]
def k1_off12 (v97 : BitVec 32) : Fin 2 → Nat :=
  let c0_i32_49 : BitVec 32 := 0#32
  ![v97.toNat, 0]

def k1_off13 (v99 : BitVec 32) : Fin 2 → Nat :=
  let c0_i32_57 : BitVec 32 := 0#32
  ![v99.toNat, 0]

def k1_off14 (v97 : BitVec 32) : Fin 2 → Nat :=
  let c0_i32_64 : BitVec 32 := 0#32
  ![v97.toNat, 0]

def k1_chk5 (v97 : BitVec 32) : Prop :=
  (∀ a, (k1_off12 v97) a + S1x128.size a ≤ S200000x128.size a) ∧
  (∀ a, (k1_off14 v97) a + S1x1.size a ≤ S200000x1.size a)
instance k1_chk5.dec : ∀ (v97 : BitVec 32), Decidable (k1_chk5 v97) := fun v97 => decidable_of_iff' _ (Iff.of_eq (k1_chk5.eq_1 v97))
theorem k1_off12_inb : ∀ (v97 : BitVec 32) (k1_hw5 : k1_chk5 v97), ∀ a, (k1_off12 v97) a + S1x128.size a ≤ S200000x128.size a := fun v97 k1_hw5 => k1_hw5.1
theorem k1_off14_inb : ∀ (v97 : BitVec 32) (k1_hw5 : k1_chk5 v97), ∀ a, (k1_off14 v97) a + S1x1.size a ≤ S200000x1.size a := fun v97 k1_hw5 => k1_hw5.2

def k1_off15 (v99 : BitVec 32) : Fin 2 → Nat :=
  let c0_i32_68 : BitVec 32 := 0#32
  ![v99.toNat, 0]

def k1_chk6 (v99 : BitVec 32) : Prop :=
  (∀ a, (k1_off13 v99) a + S1x128.size a ≤ S200000x128.size a) ∧
  (∀ a, (k1_off15 v99) a + S1x1.size a ≤ S200000x1.size a)
instance k1_chk6.dec : ∀ (v99 : BitVec 32), Decidable (k1_chk6 v99) := fun v99 => decidable_of_iff' _ (Iff.of_eq (k1_chk6.eq_1 v99))
theorem k1_off13_inb : ∀ (v99 : BitVec 32) (k1_hw6 : k1_chk6 v99), ∀ a, (k1_off13 v99) a + S1x128.size a ≤ S200000x128.size a := fun v99 k1_hw6 => k1_hw6.1
theorem k1_off15_inb : ∀ (v99 : BitVec 32) (k1_hw6 : k1_chk6 v99), ∀ a, (k1_off15 v99) a + S1x1.size a ≤ S200000x1.size a := fun v99 k1_hw6 => k1_hw6.2

def k1_off16 (i : grid1.Coords) : Fin 1 → Nat :=
  let arg0 : BitVec 32 := BitVec.ofNat 32 (i 0).val
  let c16_i32 : BitVec 32 := 16#32
  let v0 : BitVec 32 := Scalar.muli arg0 c16_i32
  let c3_i32_71 : BitVec 32 := 3#32
  let v140 : BitVec 32 := Scalar.addi v0 c3_i32_71
  let v141 : Index := Scalar.indexCast v140
  ![v141.toNat]
def k1_off17 (v142 : BitVec 32) : Fin 2 → Nat :=
  let c0_i32_74 : BitVec 32 := 0#32
  ![v142.toNat, 0]

def k1_off18 (v144 : BitVec 32) : Fin 2 → Nat :=
  let c0_i32_82 : BitVec 32 := 0#32
  ![v144.toNat, 0]

def k1_off19 (v142 : BitVec 32) : Fin 2 → Nat :=
  let c0_i32_89 : BitVec 32 := 0#32
  ![v142.toNat, 0]

def k1_chk7 (v142 : BitVec 32) : Prop :=
  (∀ a, (k1_off17 v142) a + S1x128.size a ≤ S200000x128.size a) ∧
  (∀ a, (k1_off19 v142) a + S1x1.size a ≤ S200000x1.size a)
instance k1_chk7.dec : ∀ (v142 : BitVec 32), Decidable (k1_chk7 v142) := fun v142 => decidable_of_iff' _ (Iff.of_eq (k1_chk7.eq_1 v142))
theorem k1_off17_inb : ∀ (v142 : BitVec 32) (k1_hw7 : k1_chk7 v142), ∀ a, (k1_off17 v142) a + S1x128.size a ≤ S200000x128.size a := fun v142 k1_hw7 => k1_hw7.1
theorem k1_off19_inb : ∀ (v142 : BitVec 32) (k1_hw7 : k1_chk7 v142), ∀ a, (k1_off19 v142) a + S1x1.size a ≤ S200000x1.size a := fun v142 k1_hw7 => k1_hw7.2

def k1_off20 (v144 : BitVec 32) : Fin 2 → Nat :=
  let c0_i32_93 : BitVec 32 := 0#32
  ![v144.toNat, 0]

def k1_chk8 (v144 : BitVec 32) : Prop :=
  (∀ a, (k1_off18 v144) a + S1x128.size a ≤ S200000x128.size a) ∧
  (∀ a, (k1_off20 v144) a + S1x1.size a ≤ S200000x1.size a)
instance k1_chk8.dec : ∀ (v144 : BitVec 32), Decidable (k1_chk8 v144) := fun v144 => decidable_of_iff' _ (Iff.of_eq (k1_chk8.eq_1 v144))
theorem k1_off18_inb : ∀ (v144 : BitVec 32) (k1_hw8 : k1_chk8 v144), ∀ a, (k1_off18 v144) a + S1x128.size a ≤ S200000x128.size a := fun v144 k1_hw8 => k1_hw8.1
theorem k1_off20_inb : ∀ (v144 : BitVec 32) (k1_hw8 : k1_chk8 v144), ∀ a, (k1_off20 v144) a + S1x1.size a ≤ S200000x1.size a := fun v144 k1_hw8 => k1_hw8.2

def k1_off21 (i : grid1.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v185 : BitVec 32 := Scalar.addi v0 c4_i32
  let v186 : Index := Scalar.indexCast v185
  ![v186.toNat]
def k1_off22 (v187 : BitVec 32) : Fin 2 → Nat :=
  let c0_i32_98 : BitVec 32 := 0#32
  ![v187.toNat, 0]

def k1_off23 (v189 : BitVec 32) : Fin 2 → Nat :=
  let c0_i32_106 : BitVec 32 := 0#32
  ![v189.toNat, 0]

def k1_off24 (v187 : BitVec 32) : Fin 2 → Nat :=
  let c0_i32_113 : BitVec 32 := 0#32
  ![v187.toNat, 0]

def k1_chk9 (v187 : BitVec 32) : Prop :=
  (∀ a, (k1_off22 v187) a + S1x128.size a ≤ S200000x128.size a) ∧
  (∀ a, (k1_off24 v187) a + S1x1.size a ≤ S200000x1.size a)
instance k1_chk9.dec : ∀ (v187 : BitVec 32), Decidable (k1_chk9 v187) := fun v187 => decidable_of_iff' _ (Iff.of_eq (k1_chk9.eq_1 v187))
theorem k1_off22_inb : ∀ (v187 : BitVec 32) (k1_hw9 : k1_chk9 v187), ∀ a, (k1_off22 v187) a + S1x128.size a ≤ S200000x128.size a := fun v187 k1_hw9 => k1_hw9.1
theorem k1_off24_inb : ∀ (v187 : BitVec 32) (k1_hw9 : k1_chk9 v187), ∀ a, (k1_off24 v187) a + S1x1.size a ≤ S200000x1.size a := fun v187 k1_hw9 => k1_hw9.2

def k1_off25 (v189 : BitVec 32) : Fin 2 → Nat :=
  let c0_i32_117 : BitVec 32 := 0#32
  ![v189.toNat, 0]

def k1_chk10 (v189 : BitVec 32) : Prop :=
  (∀ a, (k1_off23 v189) a + S1x128.size a ≤ S200000x128.size a) ∧
  (∀ a, (k1_off25 v189) a + S1x1.size a ≤ S200000x1.size a)
instance k1_chk10.dec : ∀ (v189 : BitVec 32), Decidable (k1_chk10 v189) := fun v189 => decidable_of_iff' _ (Iff.of_eq (k1_chk10.eq_1 v189))
theorem k1_off23_inb : ∀ (v189 : BitVec 32) (k1_hw10 : k1_chk10 v189), ∀ a, (k1_off23 v189) a + S1x128.size a ≤ S200000x128.size a := fun v189 k1_hw10 => k1_hw10.1
theorem k1_off25_inb : ∀ (v189 : BitVec 32) (k1_hw10 : k1_chk10 v189), ∀ a, (k1_off25 v189) a + S1x1.size a ≤ S200000x1.size a := fun v189 k1_hw10 => k1_hw10.2

def k1_off26 (i : grid1.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v230 : BitVec 32 := Scalar.addi v0 c5_i32
  let v231 : Index := Scalar.indexCast v230
  ![v231.toNat]
def k1_off27 (v232 : BitVec 32) : Fin 2 → Nat :=
  let c0_i32_122 : BitVec 32 := 0#32
  ![v232.toNat, 0]

def k1_off28 (v234 : BitVec 32) : Fin 2 → Nat :=
  let c0_i32_130 : BitVec 32 := 0#32
  ![v234.toNat, 0]

def k1_off29 (v232 : BitVec 32) : Fin 2 → Nat :=
  let c0_i32_137 : BitVec 32 := 0#32
  ![v232.toNat, 0]

def k1_chk11 (v232 : BitVec 32) : Prop :=
  (∀ a, (k1_off27 v232) a + S1x128.size a ≤ S200000x128.size a) ∧
  (∀ a, (k1_off29 v232) a + S1x1.size a ≤ S200000x1.size a)
instance k1_chk11.dec : ∀ (v232 : BitVec 32), Decidable (k1_chk11 v232) := fun v232 => decidable_of_iff' _ (Iff.of_eq (k1_chk11.eq_1 v232))
theorem k1_off27_inb : ∀ (v232 : BitVec 32) (k1_hw11 : k1_chk11 v232), ∀ a, (k1_off27 v232) a + S1x128.size a ≤ S200000x128.size a := fun v232 k1_hw11 => k1_hw11.1
theorem k1_off29_inb : ∀ (v232 : BitVec 32) (k1_hw11 : k1_chk11 v232), ∀ a, (k1_off29 v232) a + S1x1.size a ≤ S200000x1.size a := fun v232 k1_hw11 => k1_hw11.2

def k1_off30 (v234 : BitVec 32) : Fin 2 → Nat :=
  let c0_i32_141 : BitVec 32 := 0#32
  ![v234.toNat, 0]

def k1_chk12 (v234 : BitVec 32) : Prop :=
  (∀ a, (k1_off28 v234) a + S1x128.size a ≤ S200000x128.size a) ∧
  (∀ a, (k1_off30 v234) a + S1x1.size a ≤ S200000x1.size a)
instance k1_chk12.dec : ∀ (v234 : BitVec 32), Decidable (k1_chk12 v234) := fun v234 => decidable_of_iff' _ (Iff.of_eq (k1_chk12.eq_1 v234))
theorem k1_off28_inb : ∀ (v234 : BitVec 32) (k1_hw12 : k1_chk12 v234), ∀ a, (k1_off28 v234) a + S1x128.size a ≤ S200000x128.size a := fun v234 k1_hw12 => k1_hw12.1
theorem k1_off30_inb : ∀ (v234 : BitVec 32) (k1_hw12 : k1_chk12 v234), ∀ a, (k1_off30 v234) a + S1x1.size a ≤ S200000x1.size a := fun v234 k1_hw12 => k1_hw12.2

def k1_off31 (i : grid1.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v275 : BitVec 32 := Scalar.addi v0 c6_i32
  let v276 : Index := Scalar.indexCast v275
  ![v276.toNat]
def k1_off32 (v277 : BitVec 32) : Fin 2 → Nat :=
  let c0_i32_146 : BitVec 32 := 0#32
  ![v277.toNat, 0]

def k1_off33 (v279 : BitVec 32) : Fin 2 → Nat :=
  let c0_i32_154 : BitVec 32 := 0#32
  ![v279.toNat, 0]

def k1_off34 (v277 : BitVec 32) : Fin 2 → Nat :=
  let c0_i32_161 : BitVec 32 := 0#32
  ![v277.toNat, 0]

def k1_chk13 (v277 : BitVec 32) : Prop :=
  (∀ a, (k1_off32 v277) a + S1x128.size a ≤ S200000x128.size a) ∧
  (∀ a, (k1_off34 v277) a + S1x1.size a ≤ S200000x1.size a)
instance k1_chk13.dec : ∀ (v277 : BitVec 32), Decidable (k1_chk13 v277) := fun v277 => decidable_of_iff' _ (Iff.of_eq (k1_chk13.eq_1 v277))
theorem k1_off32_inb : ∀ (v277 : BitVec 32) (k1_hw13 : k1_chk13 v277), ∀ a, (k1_off32 v277) a + S1x128.size a ≤ S200000x128.size a := fun v277 k1_hw13 => k1_hw13.1
theorem k1_off34_inb : ∀ (v277 : BitVec 32) (k1_hw13 : k1_chk13 v277), ∀ a, (k1_off34 v277) a + S1x1.size a ≤ S200000x1.size a := fun v277 k1_hw13 => k1_hw13.2

def k1_off35 (v279 : BitVec 32) : Fin 2 → Nat :=
  let c0_i32_165 : BitVec 32 := 0#32
  ![v279.toNat, 0]

def k1_chk14 (v279 : BitVec 32) : Prop :=
  (∀ a, (k1_off33 v279) a + S1x128.size a ≤ S200000x128.size a) ∧
  (∀ a, (k1_off35 v279) a + S1x1.size a ≤ S200000x1.size a)
instance k1_chk14.dec : ∀ (v279 : BitVec 32), Decidable (k1_chk14 v279) := fun v279 => decidable_of_iff' _ (Iff.of_eq (k1_chk14.eq_1 v279))
theorem k1_off33_inb : ∀ (v279 : BitVec 32) (k1_hw14 : k1_chk14 v279), ∀ a, (k1_off33 v279) a + S1x128.size a ≤ S200000x128.size a := fun v279 k1_hw14 => k1_hw14.1
theorem k1_off35_inb : ∀ (v279 : BitVec 32) (k1_hw14 : k1_chk14 v279), ∀ a, (k1_off35 v279) a + S1x1.size a ≤ S200000x1.size a := fun v279 k1_hw14 => k1_hw14.2

def k1_off36 (i : grid1.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v320 : BitVec 32 := Scalar.addi v0 c7_i32
  let v321 : Index := Scalar.indexCast v320
  ![v321.toNat]
def k1_off37 (v322 : BitVec 32) : Fin 2 → Nat :=
  let c0_i32_170 : BitVec 32 := 0#32
  ![v322.toNat, 0]

def k1_off38 (v324 : BitVec 32) : Fin 2 → Nat :=
  let c0_i32_178 : BitVec 32 := 0#32
  ![v324.toNat, 0]

def k1_off39 (v322 : BitVec 32) : Fin 2 → Nat :=
  let c0_i32_185 : BitVec 32 := 0#32
  ![v322.toNat, 0]

def k1_chk15 (v322 : BitVec 32) : Prop :=
  (∀ a, (k1_off37 v322) a + S1x128.size a ≤ S200000x128.size a) ∧
  (∀ a, (k1_off39 v322) a + S1x1.size a ≤ S200000x1.size a)
instance k1_chk15.dec : ∀ (v322 : BitVec 32), Decidable (k1_chk15 v322) := fun v322 => decidable_of_iff' _ (Iff.of_eq (k1_chk15.eq_1 v322))
theorem k1_off37_inb : ∀ (v322 : BitVec 32) (k1_hw15 : k1_chk15 v322), ∀ a, (k1_off37 v322) a + S1x128.size a ≤ S200000x128.size a := fun v322 k1_hw15 => k1_hw15.1
theorem k1_off39_inb : ∀ (v322 : BitVec 32) (k1_hw15 : k1_chk15 v322), ∀ a, (k1_off39 v322) a + S1x1.size a ≤ S200000x1.size a := fun v322 k1_hw15 => k1_hw15.2

def k1_off40 (v324 : BitVec 32) : Fin 2 → Nat :=
  let c0_i32_189 : BitVec 32 := 0#32
  ![v324.toNat, 0]

def k1_chk16 (v324 : BitVec 32) : Prop :=
  (∀ a, (k1_off38 v324) a + S1x128.size a ≤ S200000x128.size a) ∧
  (∀ a, (k1_off40 v324) a + S1x1.size a ≤ S200000x1.size a)
instance k1_chk16.dec : ∀ (v324 : BitVec 32), Decidable (k1_chk16 v324) := fun v324 => decidable_of_iff' _ (Iff.of_eq (k1_chk16.eq_1 v324))
theorem k1_off38_inb : ∀ (v324 : BitVec 32) (k1_hw16 : k1_chk16 v324), ∀ a, (k1_off38 v324) a + S1x128.size a ≤ S200000x128.size a := fun v324 k1_hw16 => k1_hw16.1
theorem k1_off40_inb : ∀ (v324 : BitVec 32) (k1_hw16 : k1_chk16 v324), ∀ a, (k1_off40 v324) a + S1x1.size a ≤ S200000x1.size a := fun v324 k1_hw16 => k1_hw16.2

def k1_off41 (i : grid1.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v365 : BitVec 32 := Scalar.addi v0 c8_i32
  let v366 : Index := Scalar.indexCast v365
  ![v366.toNat]
def k1_off42 (v367 : BitVec 32) : Fin 2 → Nat :=
  let c0_i32_194 : BitVec 32 := 0#32
  ![v367.toNat, 0]

def k1_off43 (v369 : BitVec 32) : Fin 2 → Nat :=
  let c0_i32_202 : BitVec 32 := 0#32
  ![v369.toNat, 0]

def k1_off44 (v367 : BitVec 32) : Fin 2 → Nat :=
  let c0_i32_209 : BitVec 32 := 0#32
  ![v367.toNat, 0]

def k1_chk17 (v367 : BitVec 32) : Prop :=
  (∀ a, (k1_off42 v367) a + S1x128.size a ≤ S200000x128.size a) ∧
  (∀ a, (k1_off44 v367) a + S1x1.size a ≤ S200000x1.size a)
instance k1_chk17.dec : ∀ (v367 : BitVec 32), Decidable (k1_chk17 v367) := fun v367 => decidable_of_iff' _ (Iff.of_eq (k1_chk17.eq_1 v367))
theorem k1_off42_inb : ∀ (v367 : BitVec 32) (k1_hw17 : k1_chk17 v367), ∀ a, (k1_off42 v367) a + S1x128.size a ≤ S200000x128.size a := fun v367 k1_hw17 => k1_hw17.1
theorem k1_off44_inb : ∀ (v367 : BitVec 32) (k1_hw17 : k1_chk17 v367), ∀ a, (k1_off44 v367) a + S1x1.size a ≤ S200000x1.size a := fun v367 k1_hw17 => k1_hw17.2

def k1_off45 (v369 : BitVec 32) : Fin 2 → Nat :=
  let c0_i32_213 : BitVec 32 := 0#32
  ![v369.toNat, 0]

def k1_chk18 (v369 : BitVec 32) : Prop :=
  (∀ a, (k1_off43 v369) a + S1x128.size a ≤ S200000x128.size a) ∧
  (∀ a, (k1_off45 v369) a + S1x1.size a ≤ S200000x1.size a)
instance k1_chk18.dec : ∀ (v369 : BitVec 32), Decidable (k1_chk18 v369) := fun v369 => decidable_of_iff' _ (Iff.of_eq (k1_chk18.eq_1 v369))
theorem k1_off43_inb : ∀ (v369 : BitVec 32) (k1_hw18 : k1_chk18 v369), ∀ a, (k1_off43 v369) a + S1x128.size a ≤ S200000x128.size a := fun v369 k1_hw18 => k1_hw18.1
theorem k1_off45_inb : ∀ (v369 : BitVec 32) (k1_hw18 : k1_chk18 v369), ∀ a, (k1_off45 v369) a + S1x1.size a ≤ S200000x1.size a := fun v369 k1_hw18 => k1_hw18.2

def k1_off46 (i : grid1.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v410 : BitVec 32 := Scalar.addi v0 c9_i32
  let v411 : Index := Scalar.indexCast v410
  ![v411.toNat]
def k1_off47 (v412 : BitVec 32) : Fin 2 → Nat :=
  let c0_i32_218 : BitVec 32 := 0#32
  ![v412.toNat, 0]

def k1_off48 (v414 : BitVec 32) : Fin 2 → Nat :=
  let c0_i32_226 : BitVec 32 := 0#32
  ![v414.toNat, 0]

def k1_off49 (v412 : BitVec 32) : Fin 2 → Nat :=
  let c0_i32_233 : BitVec 32 := 0#32
  ![v412.toNat, 0]

def k1_chk19 (v412 : BitVec 32) : Prop :=
  (∀ a, (k1_off47 v412) a + S1x128.size a ≤ S200000x128.size a) ∧
  (∀ a, (k1_off49 v412) a + S1x1.size a ≤ S200000x1.size a)
instance k1_chk19.dec : ∀ (v412 : BitVec 32), Decidable (k1_chk19 v412) := fun v412 => decidable_of_iff' _ (Iff.of_eq (k1_chk19.eq_1 v412))
theorem k1_off47_inb : ∀ (v412 : BitVec 32) (k1_hw19 : k1_chk19 v412), ∀ a, (k1_off47 v412) a + S1x128.size a ≤ S200000x128.size a := fun v412 k1_hw19 => k1_hw19.1
theorem k1_off49_inb : ∀ (v412 : BitVec 32) (k1_hw19 : k1_chk19 v412), ∀ a, (k1_off49 v412) a + S1x1.size a ≤ S200000x1.size a := fun v412 k1_hw19 => k1_hw19.2

def k1_off50 (v414 : BitVec 32) : Fin 2 → Nat :=
  let c0_i32_237 : BitVec 32 := 0#32
  ![v414.toNat, 0]

def k1_chk20 (v414 : BitVec 32) : Prop :=
  (∀ a, (k1_off48 v414) a + S1x128.size a ≤ S200000x128.size a) ∧
  (∀ a, (k1_off50 v414) a + S1x1.size a ≤ S200000x1.size a)
instance k1_chk20.dec : ∀ (v414 : BitVec 32), Decidable (k1_chk20 v414) := fun v414 => decidable_of_iff' _ (Iff.of_eq (k1_chk20.eq_1 v414))
theorem k1_off48_inb : ∀ (v414 : BitVec 32) (k1_hw20 : k1_chk20 v414), ∀ a, (k1_off48 v414) a + S1x128.size a ≤ S200000x128.size a := fun v414 k1_hw20 => k1_hw20.1
theorem k1_off50_inb : ∀ (v414 : BitVec 32) (k1_hw20 : k1_chk20 v414), ∀ a, (k1_off50 v414) a + S1x1.size a ≤ S200000x1.size a := fun v414 k1_hw20 => k1_hw20.2

def k1_off51 (i : grid1.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v455 : BitVec 32 := Scalar.addi v0 c10_i32
  let v456 : Index := Scalar.indexCast v455
  ![v456.toNat]
def k1_off52 (v457 : BitVec 32) : Fin 2 → Nat :=
  let c0_i32_242 : BitVec 32 := 0#32
  ![v457.toNat, 0]

def k1_off53 (v459 : BitVec 32) : Fin 2 → Nat :=
  let c0_i32_250 : BitVec 32 := 0#32
  ![v459.toNat, 0]

def k1_off54 (v457 : BitVec 32) : Fin 2 → Nat :=
  let c0_i32_257 : BitVec 32 := 0#32
  ![v457.toNat, 0]

def k1_chk21 (v457 : BitVec 32) : Prop :=
  (∀ a, (k1_off52 v457) a + S1x128.size a ≤ S200000x128.size a) ∧
  (∀ a, (k1_off54 v457) a + S1x1.size a ≤ S200000x1.size a)
instance k1_chk21.dec : ∀ (v457 : BitVec 32), Decidable (k1_chk21 v457) := fun v457 => decidable_of_iff' _ (Iff.of_eq (k1_chk21.eq_1 v457))
theorem k1_off52_inb : ∀ (v457 : BitVec 32) (k1_hw21 : k1_chk21 v457), ∀ a, (k1_off52 v457) a + S1x128.size a ≤ S200000x128.size a := fun v457 k1_hw21 => k1_hw21.1
theorem k1_off54_inb : ∀ (v457 : BitVec 32) (k1_hw21 : k1_chk21 v457), ∀ a, (k1_off54 v457) a + S1x1.size a ≤ S200000x1.size a := fun v457 k1_hw21 => k1_hw21.2

def k1_off55 (v459 : BitVec 32) : Fin 2 → Nat :=
  let c0_i32_261 : BitVec 32 := 0#32
  ![v459.toNat, 0]

def k1_chk22 (v459 : BitVec 32) : Prop :=
  (∀ a, (k1_off53 v459) a + S1x128.size a ≤ S200000x128.size a) ∧
  (∀ a, (k1_off55 v459) a + S1x1.size a ≤ S200000x1.size a)
instance k1_chk22.dec : ∀ (v459 : BitVec 32), Decidable (k1_chk22 v459) := fun v459 => decidable_of_iff' _ (Iff.of_eq (k1_chk22.eq_1 v459))
theorem k1_off53_inb : ∀ (v459 : BitVec 32) (k1_hw22 : k1_chk22 v459), ∀ a, (k1_off53 v459) a + S1x128.size a ≤ S200000x128.size a := fun v459 k1_hw22 => k1_hw22.1
theorem k1_off55_inb : ∀ (v459 : BitVec 32) (k1_hw22 : k1_chk22 v459), ∀ a, (k1_off55 v459) a + S1x1.size a ≤ S200000x1.size a := fun v459 k1_hw22 => k1_hw22.2

def k1_off56 (i : grid1.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v500 : BitVec 32 := Scalar.addi v0 c11_i32
  let v501 : Index := Scalar.indexCast v500
  ![v501.toNat]
def k1_off57 (v502 : BitVec 32) : Fin 2 → Nat :=
  let c0_i32_266 : BitVec 32 := 0#32
  ![v502.toNat, 0]

def k1_off58 (v504 : BitVec 32) : Fin 2 → Nat :=
  let c0_i32_274 : BitVec 32 := 0#32
  ![v504.toNat, 0]

def k1_off59 (v502 : BitVec 32) : Fin 2 → Nat :=
  let c0_i32_281 : BitVec 32 := 0#32
  ![v502.toNat, 0]

def k1_chk23 (v502 : BitVec 32) : Prop :=
  (∀ a, (k1_off57 v502) a + S1x128.size a ≤ S200000x128.size a) ∧
  (∀ a, (k1_off59 v502) a + S1x1.size a ≤ S200000x1.size a)
instance k1_chk23.dec : ∀ (v502 : BitVec 32), Decidable (k1_chk23 v502) := fun v502 => decidable_of_iff' _ (Iff.of_eq (k1_chk23.eq_1 v502))
theorem k1_off57_inb : ∀ (v502 : BitVec 32) (k1_hw23 : k1_chk23 v502), ∀ a, (k1_off57 v502) a + S1x128.size a ≤ S200000x128.size a := fun v502 k1_hw23 => k1_hw23.1
theorem k1_off59_inb : ∀ (v502 : BitVec 32) (k1_hw23 : k1_chk23 v502), ∀ a, (k1_off59 v502) a + S1x1.size a ≤ S200000x1.size a := fun v502 k1_hw23 => k1_hw23.2

def k1_off60 (v504 : BitVec 32) : Fin 2 → Nat :=
  let c0_i32_285 : BitVec 32 := 0#32
  ![v504.toNat, 0]

def k1_chk24 (v504 : BitVec 32) : Prop :=
  (∀ a, (k1_off58 v504) a + S1x128.size a ≤ S200000x128.size a) ∧
  (∀ a, (k1_off60 v504) a + S1x1.size a ≤ S200000x1.size a)
instance k1_chk24.dec : ∀ (v504 : BitVec 32), Decidable (k1_chk24 v504) := fun v504 => decidable_of_iff' _ (Iff.of_eq (k1_chk24.eq_1 v504))
theorem k1_off58_inb : ∀ (v504 : BitVec 32) (k1_hw24 : k1_chk24 v504), ∀ a, (k1_off58 v504) a + S1x128.size a ≤ S200000x128.size a := fun v504 k1_hw24 => k1_hw24.1
theorem k1_off60_inb : ∀ (v504 : BitVec 32) (k1_hw24 : k1_chk24 v504), ∀ a, (k1_off60 v504) a + S1x1.size a ≤ S200000x1.size a := fun v504 k1_hw24 => k1_hw24.2

def k1_off61 (i : grid1.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v545 : BitVec 32 := Scalar.addi v0 c12_i32
  let v546 : Index := Scalar.indexCast v545
  ![v546.toNat]
def k1_off62 (v547 : BitVec 32) : Fin 2 → Nat :=
  let c0_i32_290 : BitVec 32 := 0#32
  ![v547.toNat, 0]

def k1_off63 (v549 : BitVec 32) : Fin 2 → Nat :=
  let c0_i32_298 : BitVec 32 := 0#32
  ![v549.toNat, 0]

def k1_off64 (v547 : BitVec 32) : Fin 2 → Nat :=
  let c0_i32_305 : BitVec 32 := 0#32
  ![v547.toNat, 0]

def k1_chk25 (v547 : BitVec 32) : Prop :=
  (∀ a, (k1_off62 v547) a + S1x128.size a ≤ S200000x128.size a) ∧
  (∀ a, (k1_off64 v547) a + S1x1.size a ≤ S200000x1.size a)
instance k1_chk25.dec : ∀ (v547 : BitVec 32), Decidable (k1_chk25 v547) := fun v547 => decidable_of_iff' _ (Iff.of_eq (k1_chk25.eq_1 v547))
theorem k1_off62_inb : ∀ (v547 : BitVec 32) (k1_hw25 : k1_chk25 v547), ∀ a, (k1_off62 v547) a + S1x128.size a ≤ S200000x128.size a := fun v547 k1_hw25 => k1_hw25.1
theorem k1_off64_inb : ∀ (v547 : BitVec 32) (k1_hw25 : k1_chk25 v547), ∀ a, (k1_off64 v547) a + S1x1.size a ≤ S200000x1.size a := fun v547 k1_hw25 => k1_hw25.2

def k1_off65 (v549 : BitVec 32) : Fin 2 → Nat :=
  let c0_i32_309 : BitVec 32 := 0#32
  ![v549.toNat, 0]

def k1_chk26 (v549 : BitVec 32) : Prop :=
  (∀ a, (k1_off63 v549) a + S1x128.size a ≤ S200000x128.size a) ∧
  (∀ a, (k1_off65 v549) a + S1x1.size a ≤ S200000x1.size a)
instance k1_chk26.dec : ∀ (v549 : BitVec 32), Decidable (k1_chk26 v549) := fun v549 => decidable_of_iff' _ (Iff.of_eq (k1_chk26.eq_1 v549))
theorem k1_off63_inb : ∀ (v549 : BitVec 32) (k1_hw26 : k1_chk26 v549), ∀ a, (k1_off63 v549) a + S1x128.size a ≤ S200000x128.size a := fun v549 k1_hw26 => k1_hw26.1
theorem k1_off65_inb : ∀ (v549 : BitVec 32) (k1_hw26 : k1_chk26 v549), ∀ a, (k1_off65 v549) a + S1x1.size a ≤ S200000x1.size a := fun v549 k1_hw26 => k1_hw26.2

def k1_off66 (i : grid1.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v590 : BitVec 32 := Scalar.addi v0 c13_i32
  let v591 : Index := Scalar.indexCast v590
  ![v591.toNat]
def k1_off67 (v592 : BitVec 32) : Fin 2 → Nat :=
  let c0_i32_314 : BitVec 32 := 0#32
  ![v592.toNat, 0]

def k1_off68 (v594 : BitVec 32) : Fin 2 → Nat :=
  let c0_i32_322 : BitVec 32 := 0#32
  ![v594.toNat, 0]

def k1_off69 (v592 : BitVec 32) : Fin 2 → Nat :=
  let c0_i32_329 : BitVec 32 := 0#32
  ![v592.toNat, 0]

def k1_chk27 (v592 : BitVec 32) : Prop :=
  (∀ a, (k1_off67 v592) a + S1x128.size a ≤ S200000x128.size a) ∧
  (∀ a, (k1_off69 v592) a + S1x1.size a ≤ S200000x1.size a)
instance k1_chk27.dec : ∀ (v592 : BitVec 32), Decidable (k1_chk27 v592) := fun v592 => decidable_of_iff' _ (Iff.of_eq (k1_chk27.eq_1 v592))
theorem k1_off67_inb : ∀ (v592 : BitVec 32) (k1_hw27 : k1_chk27 v592), ∀ a, (k1_off67 v592) a + S1x128.size a ≤ S200000x128.size a := fun v592 k1_hw27 => k1_hw27.1
theorem k1_off69_inb : ∀ (v592 : BitVec 32) (k1_hw27 : k1_chk27 v592), ∀ a, (k1_off69 v592) a + S1x1.size a ≤ S200000x1.size a := fun v592 k1_hw27 => k1_hw27.2

def k1_off70 (v594 : BitVec 32) : Fin 2 → Nat :=
  let c0_i32_333 : BitVec 32 := 0#32
  ![v594.toNat, 0]

def k1_chk28 (v594 : BitVec 32) : Prop :=
  (∀ a, (k1_off68 v594) a + S1x128.size a ≤ S200000x128.size a) ∧
  (∀ a, (k1_off70 v594) a + S1x1.size a ≤ S200000x1.size a)
instance k1_chk28.dec : ∀ (v594 : BitVec 32), Decidable (k1_chk28 v594) := fun v594 => decidable_of_iff' _ (Iff.of_eq (k1_chk28.eq_1 v594))
theorem k1_off68_inb : ∀ (v594 : BitVec 32) (k1_hw28 : k1_chk28 v594), ∀ a, (k1_off68 v594) a + S1x128.size a ≤ S200000x128.size a := fun v594 k1_hw28 => k1_hw28.1
theorem k1_off70_inb : ∀ (v594 : BitVec 32) (k1_hw28 : k1_chk28 v594), ∀ a, (k1_off70 v594) a + S1x1.size a ≤ S200000x1.size a := fun v594 k1_hw28 => k1_hw28.2

def k1_off71 (i : grid1.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v635 : BitVec 32 := Scalar.addi v0 c14_i32
  let v636 : Index := Scalar.indexCast v635
  ![v636.toNat]
def k1_off72 (v637 : BitVec 32) : Fin 2 → Nat :=
  let c0_i32_338 : BitVec 32 := 0#32
  ![v637.toNat, 0]

def k1_off73 (v639 : BitVec 32) : Fin 2 → Nat :=
  let c0_i32_346 : BitVec 32 := 0#32
  ![v639.toNat, 0]

def k1_off74 (v637 : BitVec 32) : Fin 2 → Nat :=
  let c0_i32_353 : BitVec 32 := 0#32
  ![v637.toNat, 0]

def k1_chk29 (v637 : BitVec 32) : Prop :=
  (∀ a, (k1_off72 v637) a + S1x128.size a ≤ S200000x128.size a) ∧
  (∀ a, (k1_off74 v637) a + S1x1.size a ≤ S200000x1.size a)
instance k1_chk29.dec : ∀ (v637 : BitVec 32), Decidable (k1_chk29 v637) := fun v637 => decidable_of_iff' _ (Iff.of_eq (k1_chk29.eq_1 v637))
theorem k1_off72_inb : ∀ (v637 : BitVec 32) (k1_hw29 : k1_chk29 v637), ∀ a, (k1_off72 v637) a + S1x128.size a ≤ S200000x128.size a := fun v637 k1_hw29 => k1_hw29.1
theorem k1_off74_inb : ∀ (v637 : BitVec 32) (k1_hw29 : k1_chk29 v637), ∀ a, (k1_off74 v637) a + S1x1.size a ≤ S200000x1.size a := fun v637 k1_hw29 => k1_hw29.2

def k1_off75 (v639 : BitVec 32) : Fin 2 → Nat :=
  let c0_i32_357 : BitVec 32 := 0#32
  ![v639.toNat, 0]

def k1_chk30 (v639 : BitVec 32) : Prop :=
  (∀ a, (k1_off73 v639) a + S1x128.size a ≤ S200000x128.size a) ∧
  (∀ a, (k1_off75 v639) a + S1x1.size a ≤ S200000x1.size a)
instance k1_chk30.dec : ∀ (v639 : BitVec 32), Decidable (k1_chk30 v639) := fun v639 => decidable_of_iff' _ (Iff.of_eq (k1_chk30.eq_1 v639))
theorem k1_off73_inb : ∀ (v639 : BitVec 32) (k1_hw30 : k1_chk30 v639), ∀ a, (k1_off73 v639) a + S1x128.size a ≤ S200000x128.size a := fun v639 k1_hw30 => k1_hw30.1
theorem k1_off75_inb : ∀ (v639 : BitVec 32) (k1_hw30 : k1_chk30 v639), ∀ a, (k1_off75 v639) a + S1x1.size a ≤ S200000x1.size a := fun v639 k1_hw30 => k1_hw30.2

def k1_off76 (i : grid1.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v680 : BitVec 32 := Scalar.addi v0 c15_i32
  let v681 : Index := Scalar.indexCast v680
  ![v681.toNat]
def k1_off77 (v682 : BitVec 32) : Fin 2 → Nat :=
  let c0_i32_362 : BitVec 32 := 0#32
  ![v682.toNat, 0]

def k1_off78 (v684 : BitVec 32) : Fin 2 → Nat :=
  let c0_i32_370 : BitVec 32 := 0#32
  ![v684.toNat, 0]

def k1_off79 (v682 : BitVec 32) : Fin 2 → Nat :=
  let c0_i32_377 : BitVec 32 := 0#32
  ![v682.toNat, 0]

def k1_chk31 (v682 : BitVec 32) : Prop :=
  (∀ a, (k1_off77 v682) a + S1x128.size a ≤ S200000x128.size a) ∧
  (∀ a, (k1_off79 v682) a + S1x1.size a ≤ S200000x1.size a)
instance k1_chk31.dec : ∀ (v682 : BitVec 32), Decidable (k1_chk31 v682) := fun v682 => decidable_of_iff' _ (Iff.of_eq (k1_chk31.eq_1 v682))
theorem k1_off77_inb : ∀ (v682 : BitVec 32) (k1_hw31 : k1_chk31 v682), ∀ a, (k1_off77 v682) a + S1x128.size a ≤ S200000x128.size a := fun v682 k1_hw31 => k1_hw31.1
theorem k1_off79_inb : ∀ (v682 : BitVec 32) (k1_hw31 : k1_chk31 v682), ∀ a, (k1_off79 v682) a + S1x1.size a ≤ S200000x1.size a := fun v682 k1_hw31 => k1_hw31.2

def k1_off80 (v684 : BitVec 32) : Fin 2 → Nat :=
  let c0_i32_381 : BitVec 32 := 0#32
  ![v684.toNat, 0]

def k1_chk32 (v684 : BitVec 32) : Prop :=
  (∀ a, (k1_off78 v684) a + S1x128.size a ≤ S200000x128.size a) ∧
  (∀ a, (k1_off80 v684) a + S1x1.size a ≤ S200000x1.size a)
instance k1_chk32.dec : ∀ (v684 : BitVec 32), Decidable (k1_chk32 v684) := fun v684 => decidable_of_iff' _ (Iff.of_eq (k1_chk32.eq_1 v684))
theorem k1_off78_inb : ∀ (v684 : BitVec 32) (k1_hw32 : k1_chk32 v684), ∀ a, (k1_off78 v684) a + S1x128.size a ≤ S200000x128.size a := fun v684 k1_hw32 => k1_hw32.1
theorem k1_off80_inb : ∀ (v684 : BitVec 32) (k1_hw32 : k1_chk32 v684), ∀ a, (k1_off80 v684) a + S1x1.size a ≤ S200000x1.size a := fun v684 k1_hw32 => k1_hw32.2

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  numel1_S1 : S1.numel = 1
  inb_S9_S1_0 : ∀ a, (![0] : Fin 1 → Nat) a + S1.size a ≤ S9.size a
  squeezes_S1_S_ : S1.Squeezes S_
  inb_S16x128_S1x128_0_0 : ∀ a, (![0, 0] : Fin 2 → Nat) a + S1x128.size a ≤ S16x128.size a
  squeezes_S1x128_S128 : S1x128.Squeezes S128
  inb_S9_S1_1 : ∀ a, (![1] : Fin 1 → Nat) a + S1.size a ≤ S9.size a
  inb_S9_S1_2 : ∀ a, (![2] : Fin 1 → Nat) a + S1.size a ≤ S9.size a
  inb_S9_S1_3 : ∀ a, (![3] : Fin 1 → Nat) a + S1.size a ≤ S9.size a
  inb_S9_S1_4 : ∀ a, (![4] : Fin 1 → Nat) a + S1.size a ≤ S9.size a
  inb_S9_S1_5 : ∀ a, (![5] : Fin 1 → Nat) a + S1.size a ≤ S9.size a
  inb_S9_S1_6 : ∀ a, (![6] : Fin 1 → Nat) a + S1.size a ≤ S9.size a
  inb_S16x1_S1x1_0_0 : ∀ a, (![0, 0] : Fin 2 → Nat) a + S1x1.size a ≤ S16x1.size a
  squeezes_S1x1_S1 : S1x1.Squeezes S1
  inb_S9_S1_7 : ∀ a, (![7] : Fin 1 → Nat) a + S1.size a ≤ S9.size a
  inb_S9_S1_8 : ∀ a, (![8] : Fin 1 → Nat) a + S1.size a ≤ S9.size a
  inb_S16x128_S1x128_1_0 : ∀ a, (![1, 0] : Fin 2 → Nat) a + S1x128.size a ≤ S16x128.size a
  inb_S16x1_S1x1_1_0 : ∀ a, (![1, 0] : Fin 2 → Nat) a + S1x1.size a ≤ S16x1.size a
  inb_S16x128_S1x128_2_0 : ∀ a, (![2, 0] : Fin 2 → Nat) a + S1x128.size a ≤ S16x128.size a
  inb_S16x1_S1x1_2_0 : ∀ a, (![2, 0] : Fin 2 → Nat) a + S1x1.size a ≤ S16x1.size a
  inb_S16x128_S1x128_3_0 : ∀ a, (![3, 0] : Fin 2 → Nat) a + S1x128.size a ≤ S16x128.size a
  inb_S16x1_S1x1_3_0 : ∀ a, (![3, 0] : Fin 2 → Nat) a + S1x1.size a ≤ S16x1.size a
  inb_S16x128_S1x128_4_0 : ∀ a, (![4, 0] : Fin 2 → Nat) a + S1x128.size a ≤ S16x128.size a
  inb_S16x1_S1x1_4_0 : ∀ a, (![4, 0] : Fin 2 → Nat) a + S1x1.size a ≤ S16x1.size a
  inb_S16x128_S1x128_5_0 : ∀ a, (![5, 0] : Fin 2 → Nat) a + S1x128.size a ≤ S16x128.size a
  inb_S16x1_S1x1_5_0 : ∀ a, (![5, 0] : Fin 2 → Nat) a + S1x1.size a ≤ S16x1.size a
  inb_S16x128_S1x128_6_0 : ∀ a, (![6, 0] : Fin 2 → Nat) a + S1x128.size a ≤ S16x128.size a
  inb_S16x1_S1x1_6_0 : ∀ a, (![6, 0] : Fin 2 → Nat) a + S1x1.size a ≤ S16x1.size a
  inb_S16x128_S1x128_7_0 : ∀ a, (![7, 0] : Fin 2 → Nat) a + S1x128.size a ≤ S16x128.size a
  inb_S16x1_S1x1_7_0 : ∀ a, (![7, 0] : Fin 2 → Nat) a + S1x1.size a ≤ S16x1.size a
  inb_S16x128_S1x128_8_0 : ∀ a, (![8, 0] : Fin 2 → Nat) a + S1x128.size a ≤ S16x128.size a
  inb_S16x1_S1x1_8_0 : ∀ a, (![8, 0] : Fin 2 → Nat) a + S1x1.size a ≤ S16x1.size a
  inb_S16x128_S1x128_9_0 : ∀ a, (![9, 0] : Fin 2 → Nat) a + S1x128.size a ≤ S16x128.size a
  inb_S16x1_S1x1_9_0 : ∀ a, (![9, 0] : Fin 2 → Nat) a + S1x1.size a ≤ S16x1.size a
  inb_S16x128_S1x128_10_0 : ∀ a, (![10, 0] : Fin 2 → Nat) a + S1x128.size a ≤ S16x128.size a
  inb_S16x1_S1x1_10_0 : ∀ a, (![10, 0] : Fin 2 → Nat) a + S1x1.size a ≤ S16x1.size a
  inb_S16x128_S1x128_11_0 : ∀ a, (![11, 0] : Fin 2 → Nat) a + S1x128.size a ≤ S16x128.size a
  inb_S16x1_S1x1_11_0 : ∀ a, (![11, 0] : Fin 2 → Nat) a + S1x1.size a ≤ S16x1.size a
  inb_S16x128_S1x128_12_0 : ∀ a, (![12, 0] : Fin 2 → Nat) a + S1x128.size a ≤ S16x128.size a
  inb_S16x1_S1x1_12_0 : ∀ a, (![12, 0] : Fin 2 → Nat) a + S1x1.size a ≤ S16x1.size a
  inb_S16x128_S1x128_13_0 : ∀ a, (![13, 0] : Fin 2 → Nat) a + S1x128.size a ≤ S16x128.size a
  inb_S16x1_S1x1_13_0 : ∀ a, (![13, 0] : Fin 2 → Nat) a + S1x1.size a ≤ S16x1.size a
  inb_S16x128_S1x128_14_0 : ∀ a, (![14, 0] : Fin 2 → Nat) a + S1x128.size a ≤ S16x128.size a
  inb_S16x1_S1x1_14_0 : ∀ a, (![14, 0] : Fin 2 → Nat) a + S1x1.size a ≤ S16x1.size a
  inb_S16x128_S1x128_15_0 : ∀ a, (![15, 0] : Fin 2 → Nat) a + S1x128.size a ≤ S16x128.size a
  inb_S16x1_S1x1_15_0 : ∀ a, (![15, 0] : Fin 2 → Nat) a + S1x1.size a ≤ S16x1.size a
  inb_S16x1_S16x1_0_0 : ∀ a, (![0, 0] : Fin 2 → Nat) a + S16x1.size a ≤ S16x1.size a
  h_S16x1 : 0 < S16x1.numel
  inb_S1x128_S1x128_0_0 : ∀ a, (![0, 0] : Fin 2 → Nat) a + S1x128.size a ≤ S1x128.size a
  h_S1x128 : 0 < S1x128.numel
  broadcasts_S16x1_S16x128 : S16x1.Broadcasts S16x128
  broadcasts_S1x128_S16x128 : S1x128.Broadcasts S16x128
  inb_S16x128_S16x128_0_0 : ∀ a, (![0, 0] : Fin 2 → Nat) a + S16x128.size a ≤ S16x128.size a
  h_S16x128 : 0 < S16x128.numel
  inb_S128x1_S128x1_0_0 : ∀ a, (![0, 0] : Fin 2 → Nat) a + S128x1.size a ≤ S128x1.size a
  h_S128x1 : 0 < S128x1.numel
  inb_S128_S128_0 : ∀ a, (![0] : Fin 1 → Nat) a + S128.size a ≤ S128.size a
  h_S128 : 0 < S128.numel
  transposes_S128x1_p1_0_S1x128 : S128x1.Transposes [1, 0] S1x128
  shapeCasts_S128_S1x128 : S128.ShapeCasts S1x128
  concatenates_S16x128_S16x128_S16x128_S16x128_S16x512_d1 : Shape.Concatenates [S16x128, S16x128, S16x128, S16x128] S16x512 1
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S256_S256_0 : ∀ a, (![0] : Fin 1 → Nat) a + S256.size a ≤ S256.size a
  h_S256 : 0 < S256.numel
  shapeCasts_S256_S1x256 : S256.ShapeCasts S1x256
  broadcasts_S1x256_S16x256 : S1x256.Broadcasts S16x256
  concatenates_S16x128_S16x128_S16x256_d1 : Shape.Concatenates [S16x128, S16x128] S16x256 1
  concatenates_S16x128_S16x1_S16x129_d1 : Shape.Concatenates [S16x128, S16x1] S16x129 1
  inb_S128x129_S128x129_0_0 : ∀ a, (![0, 0] : Fin 2 → Nat) a + S128x129.size a ≤ S128x129.size a
  h_S128x129 : 0 < S128x129.numel
  transposes_S128x129_p1_0_S129x128 : S128x129.Transposes [1, 0] S129x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S16x256_S16x256_0_0 : ∀ a, (![0, 0] : Fin 2 → Nat) a + S16x256.size a ≤ S16x256.size a
  h_S16x256 : 0 < S16x256.numel
  inb_S1_S1_0 : ∀ a, (![0] : Fin 1 → Nat) a + S1.size a ≤ S1.size a
  h_S1 : 0 < S1.numel
  shapeCasts_S1_S1 : S1.ShapeCasts S1
  inb_S4_S1_0 : ∀ a, (![0] : Fin 1 → Nat) a + S1.size a ≤ S4.size a
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  dot_S16x1_S1x128_S16x128_1_0_0_1_n_n_wf : DotDims.WF S16x1 S1x128 S16x128 [1] [0] [0] [1] [] []
  dot_S16x512_S512x256_S16x256_1_0_0_1_n_n_wf : DotDims.WF S16x512 S512x256 S16x256 [1] [0] [0] [1] [] []
  dot_S16x129_S129x128_S16x128_1_0_0_1_n_n_wf : DotDims.WF S16x129 S129x128 S16x128 [1] [0] [0] [1] [] []
  dot_S16x128_S128x128_S16x128_1_0_0_1_n_n_wf : DotDims.WF S16x128 S128x128 S16x128 [1] [0] [0] [1] [] []
  hcc0_scratch9 : 30 + S9.numel ≤ 47
  hcc1_scratch1 : 43 + S4.numel ≤ 47
  hrank0 : 0 < grid0.rank
  k0_off1_inb : ∀ i : grid0.Coords, ∀ a, (k0_off1 i) a + S1.size a ≤ S4096.size a
  k0_off10_inb : ∀ i : grid0.Coords, ∀ a, (k0_off10 i) a + S1.size a ≤ S4096.size a
  k0_off19_inb : ∀ i : grid0.Coords, ∀ a, (k0_off19 i) a + S1.size a ≤ S4096.size a
  k0_off28_inb : ∀ i : grid0.Coords, ∀ a, (k0_off28 i) a + S1.size a ≤ S4096.size a
  k0_off37_inb : ∀ i : grid0.Coords, ∀ a, (k0_off37 i) a + S1.size a ≤ S4096.size a
  k0_off46_inb : ∀ i : grid0.Coords, ∀ a, (k0_off46 i) a + S1.size a ≤ S4096.size a
  k0_off55_inb : ∀ i : grid0.Coords, ∀ a, (k0_off55 i) a + S1.size a ≤ S4096.size a
  k0_off64_inb : ∀ i : grid0.Coords, ∀ a, (k0_off64 i) a + S1.size a ≤ S4096.size a
  k0_off73_inb : ∀ i : grid0.Coords, ∀ a, (k0_off73 i) a + S1.size a ≤ S4096.size a
  k0_off82_inb : ∀ i : grid0.Coords, ∀ a, (k0_off82 i) a + S1.size a ≤ S4096.size a
  k0_off91_inb : ∀ i : grid0.Coords, ∀ a, (k0_off91 i) a + S1.size a ≤ S4096.size a
  k0_off100_inb : ∀ i : grid0.Coords, ∀ a, (k0_off100 i) a + S1.size a ≤ S4096.size a
  k0_off109_inb : ∀ i : grid0.Coords, ∀ a, (k0_off109 i) a + S1.size a ≤ S4096.size a
  k0_off118_inb : ∀ i : grid0.Coords, ∀ a, (k0_off118 i) a + S1.size a ≤ S4096.size a
  k0_off127_inb : ∀ i : grid0.Coords, ∀ a, (k0_off127 i) a + S1.size a ≤ S4096.size a
  k0_off136_inb : ∀ i : grid0.Coords, ∀ a, (k0_off136 i) a + S1.size a ≤ S4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1.size a ≤ S4096x1.size a
  hwx0_0 : ∀ i : grid0.Coords, EltTy.bits .f32 = 32 ∨ (Rect.block (s := S4096x1) S16x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S4096x1.size a
  hwx0_1 : ∀ i : grid0.Coords, EltTy.bits .f32 = 32 ∨ (Rect.block (s := S4096x1) S16x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_8 i = cc0_transform_8 i'
  hinb0_2 : ∀ (i : grid0.Coords) a, (cc0_transform_8 i a + 1) * S1x128.size a ≤ S1x128.size a
  hwx0_2 : ∀ i : grid0.Coords, EltTy.bits .f32 = 32 ∨ (Rect.block (s := S1x128) S1x128.size (cc0_transform_8 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_9 i = cc0_transform_9 i'
  hinb0_3 : ∀ (i : grid0.Coords) a, (cc0_transform_9 i a + 1) * S1x128.size a ≤ S1x128.size a
  hwx0_3 : ∀ i : grid0.Coords, EltTy.bits .f32 = 32 ∨ (Rect.block (s := S1x128) S1x128.size (cc0_transform_9 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_10 i = cc0_transform_10 i'
  hinb0_4 : ∀ (i : grid0.Coords) a, (cc0_transform_10 i a + 1) * S128x129.size a ≤ S128x129.size a
  hwx0_4 : ∀ i : grid0.Coords, EltTy.bits .f32 = 32 ∨ (Rect.block (s := S128x129) S128x129.size (cc0_transform_10 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_11 i = cc0_transform_11 i'
  hinb0_5 : ∀ (i : grid0.Coords) a, (cc0_transform_11 i a + 1) * S128x128.size a ≤ S128x128.size a
  hwx0_5 : ∀ i : grid0.Coords, EltTy.bits .f32 = 32 ∨ (Rect.block (s := S128x128) S128x128.size (cc0_transform_11 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_12 i = cc0_transform_12 i'
  hinb0_6 : ∀ (i : grid0.Coords) a, (cc0_transform_12 i a + 1) * S128.size a ≤ S128.size a
  hwx0_6 : ∀ i : grid0.Coords, EltTy.bits .f32 = 32 ∨ (Rect.block (s := S128) S128.size (cc0_transform_12 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_13 i = cc0_transform_13 i'
  hinb0_7 : ∀ (i : grid0.Coords) a, (cc0_transform_13 i a + 1) * S128.size a ≤ S128.size a
  hwx0_7 : ∀ i : grid0.Coords, EltTy.bits .f32 = 32 ∨ (Rect.block (s := S128) S128.size (cc0_transform_13 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_14 i = cc0_transform_14 i'
  hinb0_8 : ∀ (i : grid0.Coords) a, (cc0_transform_14 i a + 1) * S128x129.size a ≤ S128x129.size a
  hwx0_8 : ∀ i : grid0.Coords, EltTy.bits .f32 = 32 ∨ (Rect.block (s := S128x129) S128x129.size (cc0_transform_14 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_15 i = cc0_transform_15 i'
  hinb0_9 : ∀ (i : grid0.Coords) a, (cc0_transform_15 i a + 1) * S128x128.size a ≤ S128x128.size a
  hwx0_9 : ∀ i : grid0.Coords, EltTy.bits .f32 = 32 ∨ (Rect.block (s := S128x128) S128x128.size (cc0_transform_15 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_16 i = cc0_transform_16 i'
  hinb0_10 : ∀ (i : grid0.Coords) a, (cc0_transform_16 i a + 1) * S128.size a ≤ S128.size a
  hwx0_10 : ∀ i : grid0.Coords, EltTy.bits .f32 = 32 ∨ (Rect.block (s := S128) S128.size (cc0_transform_16 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_17 i = cc0_transform_17 i'
  hinb0_11 : ∀ (i : grid0.Coords) a, (cc0_transform_17 i a + 1) * S128.size a ≤ S128.size a
  hwx0_11 : ∀ i : grid0.Coords, EltTy.bits .f32 = 32 ∨ (Rect.block (s := S128) S128.size (cc0_transform_17 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_18 i = cc0_transform_18 i'
  hinb0_12 : ∀ (i : grid0.Coords) a, (cc0_transform_18 i a + 1) * S256x512.size a ≤ S256x512.size a
  hwx0_12 : ∀ i : grid0.Coords, EltTy.bits .f32 = 32 ∨ (Rect.block (s := S256x512) S256x512.size (cc0_transform_18 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_19 i = cc0_transform_19 i'
  hinb0_13 : ∀ (i : grid0.Coords) a, (cc0_transform_19 i a + 1) * S256.size a ≤ S256.size a
  hwx0_13 : ∀ i : grid0.Coords, EltTy.bits .f32 = 32 ∨ (Rect.block (s := S256) S256.size (cc0_transform_19 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_20 i = cc0_transform_20 i'
  hinb0_14 : ∀ (i : grid0.Coords) a, (cc0_transform_20 i a + 1) * S128x1.size a ≤ S128x1.size a
  hwx0_14 : ∀ i : grid0.Coords, EltTy.bits .f32 = 32 ∨ (Rect.block (s := S128x1) S128x1.size (cc0_transform_20 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_21 i = cc0_transform_21 i'
  hinb0_15 : ∀ (i : grid0.Coords) a, (cc0_transform_21 i a + 1) * S128.size a ≤ S128.size a
  hwx0_15 : ∀ i : grid0.Coords, EltTy.bits .f32 = 32 ∨ (Rect.block (s := S128) S128.size (cc0_transform_21 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_22 i = cc0_transform_22 i'
  hinb0_16 : ∀ (i : grid0.Coords) a, (cc0_transform_22 i a + 1) * S16x256.size a ≤ S4096x256.size a
  hwx0_16 : ∀ i : grid0.Coords, EltTy.bits .f32 = 32 ∨ (Rect.block (s := S4096x256) S16x256.size (cc0_transform_22 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_23 i = cc0_transform_23 i'
  hinb0_17 : ∀ (i : grid0.Coords) a, (cc0_transform_23 i a + 1) * S16x256.size a ≤ S4096x256.size a
  hwx0_17 : ∀ i : grid0.Coords, EltTy.bits .f32 = 32 ∨ (Rect.block (s := S4096x256) S16x256.size (cc0_transform_23 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_24 i = cc0_transform_24 i'
  hinb0_18 : ∀ (i : grid0.Coords) a, (cc0_transform_24 i a + 1) * S16x128.size a ≤ S4096x128.size a
  hwx0_18 : ∀ i : grid0.Coords, EltTy.bits .f32 = 32 ∨ (Rect.block (s := S4096x128) S16x128.size (cc0_transform_24 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_25 i = cc0_transform_25 i'
  hinb0_19 : ∀ (i : grid0.Coords) a, (cc0_transform_25 i a + 1) * S16x128.size a ≤ S4096x128.size a
  hwx0_19 : ∀ i : grid0.Coords, EltTy.bits .f32 = 32 ∨ (Rect.block (s := S4096x128) S16x128.size (cc0_transform_25 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_26 i = cc0_transform_26 i'
  hinb0_20 : ∀ (i : grid0.Coords) a, (cc0_transform_26 i a + 1) * S16x128.size a ≤ S4096x128.size a
  hwx0_20 : ∀ i : grid0.Coords, EltTy.bits .f32 = 32 ∨ (Rect.block (s := S4096x128) S16x128.size (cc0_transform_26 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_27 i = cc0_transform_27 i'
  hinb0_21 : ∀ (i : grid0.Coords) a, (cc0_transform_27 i a + 1) * S16x128.size a ≤ S4096x128.size a
  hwx0_21 : ∀ i : grid0.Coords, EltTy.bits .f32 = 32 ∨ (Rect.block (s := S4096x128) S16x128.size (cc0_transform_27 i) (hinb0_21 i)).WholeWords (EltTy.packing .f32)
  hrank1 : 0 < grid1.rank
  k1_off1_inb : ∀ i : grid1.Coords, ∀ a, (k1_off1 i) a + S1.size a ≤ S4096.size a
  k1_off6_inb : ∀ i : grid1.Coords, ∀ a, (k1_off6 i) a + S1.size a ≤ S4096.size a
  k1_off11_inb : ∀ i : grid1.Coords, ∀ a, (k1_off11 i) a + S1.size a ≤ S4096.size a
  k1_off16_inb : ∀ i : grid1.Coords, ∀ a, (k1_off16 i) a + S1.size a ≤ S4096.size a
  k1_off21_inb : ∀ i : grid1.Coords, ∀ a, (k1_off21 i) a + S1.size a ≤ S4096.size a
  k1_off26_inb : ∀ i : grid1.Coords, ∀ a, (k1_off26 i) a + S1.size a ≤ S4096.size a
  k1_off31_inb : ∀ i : grid1.Coords, ∀ a, (k1_off31 i) a + S1.size a ≤ S4096.size a
  k1_off36_inb : ∀ i : grid1.Coords, ∀ a, (k1_off36 i) a + S1.size a ≤ S4096.size a
  k1_off41_inb : ∀ i : grid1.Coords, ∀ a, (k1_off41 i) a + S1.size a ≤ S4096.size a
  k1_off46_inb : ∀ i : grid1.Coords, ∀ a, (k1_off46 i) a + S1.size a ≤ S4096.size a
  k1_off51_inb : ∀ i : grid1.Coords, ∀ a, (k1_off51 i) a + S1.size a ≤ S4096.size a
  k1_off56_inb : ∀ i : grid1.Coords, ∀ a, (k1_off56 i) a + S1.size a ≤ S4096.size a
  k1_off61_inb : ∀ i : grid1.Coords, ∀ a, (k1_off61 i) a + S1.size a ≤ S4096.size a
  k1_off66_inb : ∀ i : grid1.Coords, ∀ a, (k1_off66 i) a + S1.size a ≤ S4096.size a
  k1_off71_inb : ∀ i : grid1.Coords, ∀ a, (k1_off71 i) a + S1.size a ≤ S4096.size a
  k1_off76_inb : ∀ i : grid1.Coords, ∀ a, (k1_off76 i) a + S1.size a ≤ S4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128.size a ≤ S4096x128.size a
  hwx1_0 : ∀ i : grid1.Coords, EltTy.bits .f32 = 32 ∨ (Rect.block (s := S4096x128) S16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S4096x128.size a
  hwx1_1 : ∀ i : grid1.Coords, EltTy.bits .f32 = 32 ∨ (Rect.block (s := S4096x128) S16x128.size (cc1_transform_1 i) (hinb1_1 i)).WholeWords (EltTy.packing .f32)

variable [Facts₀]

abbrev cc0_scratch9 : DmaSems sig S9 := SemArray.consecutive 30 S9 hcc0_scratch9
abbrev cc1_scratch1 : DmaSems sig S4 := SemArray.consecutive 43 S4 hcc1_scratch1
def dot_S16x1_S1x128_S16x128_1_0_0_1_n_n : DotDims S16x1 S1x128 S16x128 where
  lhsContracting := [1]
  rhsContracting := [0]
  lhsNonContracting := [0]
  rhsNonContracting := [1]
  lhsBatch := []
  rhsBatch := []
  wf := dot_S16x1_S1x128_S16x128_1_0_0_1_n_n_wf
def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf
def dot_S16x129_S129x128_S16x128_1_0_0_1_n_n : DotDims S16x129 S129x128 S16x128 where
  lhsContracting := [1]
  rhsContracting := [0]
  lhsNonContracting := [0]
  rhsNonContracting := [1]
  lhsBatch := []
  rhsBatch := []
  wf := dot_S16x129_S129x128_S16x128_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf

abbrev spec0_0 : Pipeline.WinSpec sig grid0.rank :=
  Pipeline.WinSpec.ofSpec (Memref.whole main_arg3) S16x1.size reads0_0 false false 2 stage0_0 sem0_0 nbuf0_0 hstage0_0

abbrev spec0_1 : Pipeline.WinSpec sig grid0.rank :=
  Pipeline.WinSpec.ofSpec (Memref.whole main_arg4) S16x1.size reads0_1 false false 2 stage0_1 sem0_1 nbuf0_1 hstage0_1

abbrev spec0_2 : Pipeline.WinSpec sig grid0.rank :=
  Pipeline.WinSpec.ofSpec (Memref.whole main_arg11) S1x128.size reads0_2 false true 1 stage0_2 sem0_2 nbuf0_2 hstage0_2

abbrev spec0_3 : Pipeline.WinSpec sig grid0.rank :=
  Pipeline.WinSpec.ofSpec (Memref.whole main_arg12) S1x128.size reads0_3 false true 1 stage0_3 sem0_3 nbuf0_3 hstage0_3

abbrev spec0_4 : Pipeline.WinSpec sig grid0.rank :=
  Pipeline.WinSpec.ofSpec (Memref.whole main_arg13) S128x129.size reads0_4 false true 1 stage0_4 sem0_4 nbuf0_4 hstage0_4

abbrev spec0_5 : Pipeline.WinSpec sig grid0.rank :=
  Pipeline.WinSpec.ofSpec (Memref.whole main_arg14) S128x128.size reads0_5 false true 1 stage0_5 sem0_5 nbuf0_5 hstage0_5

abbrev spec0_6 : Pipeline.WinSpec sig grid0.rank :=
  Pipeline.WinSpec.ofSpec (Memref.whole main_arg15) S128.size reads0_6 false true 1 stage0_6 sem0_6 nbuf0_6 hstage0_6

abbrev spec0_7 : Pipeline.WinSpec sig grid0.rank :=
  Pipeline.WinSpec.ofSpec (Memref.whole main_arg16) S128.size reads0_7 false true 1 stage0_7 sem0_7 nbuf0_7 hstage0_7

abbrev spec0_8 : Pipeline.WinSpec sig grid0.rank :=
  Pipeline.WinSpec.ofSpec (Memref.whole main_arg17) S128x129.size reads0_8 false true 1 stage0_8 sem0_8 nbuf0_8 hstage0_8

abbrev spec0_9 : Pipeline.WinSpec sig grid0.rank :=
  Pipeline.WinSpec.ofSpec (Memref.whole main_arg18) S128x128.size reads0_9 false true 1 stage0_9 sem0_9 nbuf0_9 hstage0_9

abbrev spec0_10 : Pipeline.WinSpec sig grid0.rank :=
  Pipeline.WinSpec.ofSpec (Memref.whole main_arg19) S128.size reads0_10 false true 1 stage0_10 sem0_10 nbuf0_10 hstage0_10

abbrev spec0_11 : Pipeline.WinSpec sig grid0.rank :=
  Pipeline.WinSpec.ofSpec (Memref.whole main_arg20) S128.size reads0_11 false true 1 stage0_11 sem0_11 nbuf0_11 hstage0_11

abbrev spec0_12 : Pipeline.WinSpec sig grid0.rank :=
  Pipeline.WinSpec.ofSpec (Memref.whole main_arg21) S256x512.size reads0_12 false true 1 stage0_12 sem0_12 nbuf0_12 hstage0_12

abbrev spec0_13 : Pipeline.WinSpec sig grid0.rank :=
  Pipeline.WinSpec.ofSpec (Memref.whole main_arg22) S256.size reads0_13 false true 1 stage0_13 sem0_13 nbuf0_13 hstage0_13

abbrev spec0_14 : Pipeline.WinSpec sig grid0.rank :=
  Pipeline.WinSpec.ofSpec (Memref.whole main_arg23) S128x1.size reads0_14 false true 1 stage0_14 sem0_14 nbuf0_14 hstage0_14

abbrev spec0_15 : Pipeline.WinSpec sig grid0.rank :=
  Pipeline.WinSpec.ofSpec (Memref.whole main_arg24) S128.size reads0_15 false true 1 stage0_15 sem0_15 nbuf0_15 hstage0_15

abbrev spec0_16 : Pipeline.WinSpec sig grid0.rank :=
  Pipeline.WinSpec.ofSpec (Memref.whole main_v0_0) S16x256.size reads0_16 true false 2 stage0_16 sem0_16 nbuf0_16 hstage0_16

abbrev spec0_17 : Pipeline.WinSpec sig grid0.rank :=
  Pipeline.WinSpec.ofSpec (Memref.whole main_v0_1) S16x256.size reads0_17 true false 2 stage0_17 sem0_17 nbuf0_17 hstage0_17

abbrev spec0_18 : Pipeline.WinSpec sig grid0.rank :=
  Pipeline.WinSpec.ofSpec (Memref.whole main_v0_2) S16x128.size reads0_18 true false 2 stage0_18 sem0_18 nbuf0_18 hstage0_18

abbrev spec0_19 : Pipeline.WinSpec sig grid0.rank :=
  Pipeline.WinSpec.ofSpec (Memref.whole main_v0_3) S16x128.size reads0_19 true false 2 stage0_19 sem0_19 nbuf0_19 hstage0_19

abbrev spec0_20 : Pipeline.WinSpec sig grid0.rank :=
  Pipeline.WinSpec.ofSpec (Memref.whole main_v0_4) S16x128.size reads0_20 true false 2 stage0_20 sem0_20 nbuf0_20 hstage0_20

abbrev spec0_21 : Pipeline.WinSpec sig grid0.rank :=
  Pipeline.WinSpec.ofSpec (Memref.whole main_v0_5) S16x128.size reads0_21 true false 2 stage0_21 sem0_21 nbuf0_21 hstage0_21

abbrev spec0 : Fin 22 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | 12 => spec0_12 | 13 => spec0_13 | 14 => spec0_14 | 15 => spec0_15 | 16 => spec0_16 | 17 => spec0_17 | 18 => spec0_18 | 19 => spec0_19 | 20 => spec0_20 | 21 => spec0_21 | ⟨_ + 22, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | 12 => nbuf0_12 | 13 => nbuf0_13 | 14 => nbuf0_14 | 15 => nbuf0_15 | 16 => nbuf0_16 | 17 => nbuf0_17 | 18 => nbuf0_18 | 19 => nbuf0_19 | 20 => nbuf0_20 | 21 => nbuf0_21 | ⟨_ + 22, h⟩ => absurd h (Nat.not_lt.2 (Nat.le_add_left _ _))
abbrev ix0 (pf : pre0.Contents (Elt F)) : (w : Fin 22) → grid0.Coords → Fin (spec0 w).shape.rank → Nat := fun | 0 => cc0_transform_0 | 1 => cc0_transform_1 | 2 => cc0_transform_8 | 3 => cc0_transform_9 | 4 => cc0_transform_10 | 5 => cc0_transform_11 | 6 => cc0_transform_12 | 7 => cc0_transform_13 | 8 => cc0_transform_14 | 9 => cc0_transform_15 | 10 => cc0_transform_16 | 11 => cc0_transform_17 | 12 => cc0_transform_18 | 13 => cc0_transform_19 | 14 => cc0_transform_20 | 15 => cc0_transform_21 | 16 => cc0_transform_22 | 17 => cc0_transform_23 | 18 => cc0_transform_24 | 19 => cc0_transform_25 | 20 => cc0_transform_26 | 21 => cc0_transform_27 | ⟨_ + 22, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | 10 => hreads0_10 | 11 => hreads0_11 | 12 => hreads0_12 | 13 => hreads0_13 | 14 => hreads0_14 | 15 => hreads0_15 | 16 => hreads0_16 | 17 => hreads0_17 | 18 => hreads0_18 | 19 => hreads0_19 | 20 => hreads0_20 | 21 => hreads0_21 | ⟨_ + 22, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | 10 => hinb0_10 | 11 => hinb0_11 | 12 => hinb0_12 | 13 => hinb0_13 | 14 => hinb0_14 | 15 => hinb0_15 | 16 => hinb0_16 | 17 => hinb0_17 | 18 => hinb0_18 | 19 => hinb0_19 | 20 => hinb0_20 | 21 => hinb0_21 | ⟨_ + 22, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | 10 => hwx0_10 | 11 => hwx0_11 | 12 => hwx0_12 | 13 => hwx0_13 | 14 => hwx0_14 | 15 => hwx0_15 | 16 => hwx0_16 | 17 => hwx0_17 | 18 => hwx0_18 | 19 => hwx0_19 | 20 => hwx0_20 | 21 => hwx0_21 | ⟨_ + 22, h⟩ => absurd h (Nat.not_lt.2 (Nat.le_add_left _ _))
abbrev spec1_0 : Pipeline.WinSpec sig grid1.rank :=
  Pipeline.WinSpec.ofSpec (Memref.whole main_v0_2) S16x128.size reads1_0 false false 2 stage1_0 sem1_0 nbuf1_0 hstage1_0

abbrev spec1_1 : Pipeline.WinSpec sig grid1.rank :=
  Pipeline.WinSpec.ofSpec (Memref.whole main_v0_4) S16x128.size reads1_1 false false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 | 1 => cc1_transform_1 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S4096 : Shape := ⟨1, ![4096]⟩
abbrev S4096x1 : Shape := ⟨2, ![4096, 1]⟩
abbrev S200000x128 : Shape := ⟨2, ![200000, 128]⟩
abbrev S200000x1 : Shape := ⟨2, ![200000, 1]⟩
abbrev S1x128 : Shape := ⟨2, ![1, 128]⟩
abbrev S128x129 : Shape := ⟨2, ![128, 129]⟩
abbrev S128x128 : Shape := ⟨2, ![128, 128]⟩
abbrev S128 : Shape := ⟨1, ![128]⟩
abbrev S256x512 : Shape := ⟨2, ![256, 512]⟩
abbrev S256 : Shape := ⟨1, ![256]⟩
abbrev S128x1 : Shape := ⟨2, ![128, 1]⟩
abbrev S_ : Shape := ⟨0, ![]⟩
abbrev S4096x128 : Shape := ⟨2, ![4096, 128]⟩
abbrev S4096x512 : Shape := ⟨2, ![4096, 512]⟩
abbrev S512x256 : Shape := ⟨2, ![512, 256]⟩
abbrev S4096x256 : Shape := ⟨2, ![4096, 256]⟩
abbrev S1x256 : Shape := ⟨2, ![1, 256]⟩
abbrev S4096x129 : Shape := ⟨2, ![4096, 129]⟩
abbrev S129x128 : Shape := ⟨2, ![129, 128]⟩

abbrev nBuf : Space → Nat
  | .hbm => 200
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S4096x1, .f32⟩
  | 4 => ⟨S4096x1, .f32⟩
  | 5 => ⟨S200000x128, .f32⟩
  | 6 => ⟨S200000x128, .f32⟩
  | 7 => ⟨S200000x1, .f32⟩
  | 8 => ⟨S200000x1, .f32⟩
  | 9 => ⟨S200000x128, .f32⟩
  | 10 => ⟨S200000x128, .f32⟩
  | 11 => ⟨S1x128, .f32⟩
  | 12 => ⟨S1x128, .f32⟩
  | 13 => ⟨S128x129, .f32⟩
  | 14 => ⟨S128x128, .f32⟩
  | 15 => ⟨S128, .f32⟩
  | 16 => ⟨S128, .f32⟩
  | 17 => ⟨S128x129, .f32⟩
  | 18 => ⟨S128x128, .f32⟩
  | 19 => ⟨S128, .f32⟩
  | 20 => ⟨S128, .f32⟩
  | 21 => ⟨S256x512, .f32⟩
  | 22 => ⟨S256, .f32⟩
  | 23 => ⟨S128x1, .f32⟩
  | 24 => ⟨S128, .f32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S4096x1, .f32⟩
  | 34 => ⟨S4096x128, .f32⟩
  | 35 => ⟨S4096x128, .f32⟩
  | 36 => ⟨S4096x128, .f32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S4096x128, .f32⟩
  | 46 => ⟨S4096x128, .f32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S4096x1, .f32⟩
  | 56 => ⟨S4096x128, .f32⟩
  | 57 => ⟨S4096x128, .f32⟩
  | 58 => ⟨S4096x128, .f32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S4096x128, .f32⟩
  | 68 => ⟨S4096x128, .f32⟩
  | 69 => ⟨S_, .i32⟩
  | 70 => ⟨S4096, .i32⟩
  | 71 => ⟨S4096, .i1⟩
  | 72 => ⟨S_, .i32⟩
  | 73 => ⟨S4096, .i32⟩
  | 74 => ⟨S4096, .i32⟩
  | 75 => ⟨S4096, .i32⟩
  | 76 => ⟨S4096x1, .i32⟩
  | 77 => ⟨S4096x1, .f32⟩
  | 78 => ⟨S4096x128, .f32⟩
  | 79 => ⟨S4096x128, .f32⟩
  | 80 => ⟨S4096x128, .f32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S4096x128, .f32⟩
  | 90 => ⟨S4096x128, .f32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S4096x1, .i32⟩
  | 99 => ⟨S4096x128, .f32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S4096x1, .i32⟩
  | 108 => ⟨S4096x128, .f32⟩
  | 109 => ⟨S_, .i32⟩
  | 110 => ⟨S4096, .i32⟩
  | 111 => ⟨S4096, .i1⟩
  | 112 => ⟨S_, .i32⟩
  | 113 => ⟨S4096, .i32⟩
  | 114 => ⟨S4096, .i32⟩
  | 115 => ⟨S4096, .i32⟩
  | 116 => ⟨S4096x1, .i32⟩
  | 117 => ⟨S4096x128, .f32⟩
  | 118 => ⟨S1x128, .f32⟩
  | 119 => ⟨S4096x128, .f32⟩
  | 120 => ⟨S_, .f32⟩
  | 121 => ⟨S4096x128, .f32⟩
  | 122 => ⟨S4096x128, .f32⟩
  | 123 => ⟨S1x128, .f32⟩
  | 124 => ⟨S4096x128, .f32⟩
  | 125 => ⟨S4096x128, .f32⟩
  | 126 => ⟨S4096x128, .f32⟩
  | 127 => ⟨S4096x512, .f32⟩
  | _ => ⟨S4096, .i32⟩

abbrev hbmTy0_1 (i : Nat) : BufTy := match i % 128 with
  | 0 => ⟨S512x256, .f32⟩
  | 1 => ⟨S4096x256, .f32⟩
  | 2 => ⟨S1x256, .f32⟩
  | 3 => ⟨S4096x256, .f32⟩
  | 4 => ⟨S4096x256, .f32⟩
  | 5 => ⟨S4096x256, .f32⟩
  | 6 => ⟨S4096x129, .f32⟩
  | 7 => ⟨S129x128, .f32⟩
  | 8 => ⟨S4096x128, .f32⟩
  | 9 => ⟨S1x128, .f32⟩
  | 10 => ⟨S4096x128, .f32⟩
  | 11 => ⟨S4096x128, .f32⟩
  | 12 => ⟨S128x128, .f32⟩
  | 13 => ⟨S4096x128, .f32⟩
  | 14 => ⟨S4096x128, .f32⟩
  | 15 => ⟨S1x128, .f32⟩
  | 16 => ⟨S4096x128, .f32⟩
  | 17 => ⟨S4096x128, .f32⟩
  | 18 => ⟨S4096x128, .f32⟩
  | 19 => ⟨S4096x129, .f32⟩
  | 20 => ⟨S129x128, .f32⟩
  | 21 => ⟨S4096x128, .f32⟩
  | 22 => ⟨S1x128, .f32⟩
  | 23 => ⟨S4096x128, .f32⟩
  | 24 => ⟨S4096x128, .f32⟩
  | 25 => ⟨S128x128, .f32⟩
  | 26 => ⟨S4096x128, .f32⟩
  | 27 => ⟨S4096x128, .f32⟩
  | 28 => ⟨S1x128, .f32⟩
  | 29 => ⟨S4096x128, .f32⟩
  | 30 => ⟨S4096x128, .f32⟩
  | 31 => ⟨S4096x128, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S200000x128, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S200000x128, .f32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S_, .f32⟩
  | 59 => ⟨S4096x1, .f32⟩
  | 60 => ⟨S200000x1, .f32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S_, .f32⟩
  | 70 => ⟨S4096x1, .f32⟩
  | 71 => ⟨S200000x1, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_1 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_3 : Ref sig .tc := ⟨.hbm, 47, rfl⟩
abbrev main_v18 : Ref sig .tc := ⟨.hbm, 48, rfl⟩
abbrev main_v19 : Ref sig .tc := ⟨.hbm, 49, rfl⟩
abbrev main_c_4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_5 : Ref sig .tc := ⟨.hbm, 59, rfl⟩
abbrev main_v28 : Ref sig .tc := ⟨.hbm, 60, rfl⟩
abbrev main_v29 : Ref sig .tc := ⟨.hbm, 61, rfl⟩
abbrev main_c_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_7 : Ref sig .tc := ⟨.hbm, 69, rfl⟩
abbrev main_v36 : Ref sig .tc := ⟨.hbm, 70, rfl⟩
abbrev main_v37 : Ref sig .tc := ⟨.hbm, 71, rfl⟩
abbrev main_c_8 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_9 : Ref sig .tc := ⟨.hbm, 81, rfl⟩
abbrev main_v46 : Ref sig .tc := ⟨.hbm, 82, rfl⟩
abbrev main_v47 : Ref sig .tc := ⟨.hbm, 83, rfl⟩
abbrev main_c_10 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_c_12 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_13 : Ref sig .tc := ⟨.hbm, 100, rfl⟩
abbrev main_v61 : Ref sig .tc := ⟨.hbm, 101, rfl⟩
abbrev main_v62 : Ref sig .tc := ⟨.hbm, 102, rfl⟩
abbrev main_c_14 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_15 : Ref sig .tc := ⟨.hbm, 109, rfl⟩
abbrev main_v68 : Ref sig .tc := ⟨.hbm, 110, rfl⟩
abbrev main_v69 : Ref sig .tc := ⟨.hbm, 111, rfl⟩
abbrev main_c_16 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_c_17 : Ref sig .tc := ⟨.hbm, 160, rfl⟩
abbrev main_v116 : Ref sig .tc := ⟨.hbm, 161, rfl⟩
abbrev main_v117 : Ref sig .tc := ⟨.hbm, 162, rfl⟩
abbrev main_c_18 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_19 : Ref sig .tc := ⟨.hbm, 169, rfl⟩
abbrev main_v123 : Ref sig .tc := ⟨.hbm, 170, rfl⟩
abbrev main_v124 : Ref sig .tc := ⟨.hbm, 171, rfl⟩
abbrev main_c_20 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_21 : Ref sig .tc := ⟨.hbm, 178, rfl⟩
abbrev main_v130 : Ref sig .tc := ⟨.hbm, 179, rfl⟩
abbrev main_v131 : Ref sig .tc := ⟨.hbm, 180, rfl⟩
abbrev main_c_22 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_23 : Ref sig .tc := ⟨.hbm, 186, rfl⟩
abbrev main_v136 : Ref sig .tc := ⟨.hbm, 187, rfl⟩
abbrev main_v137 : Ref sig .tc := ⟨.hbm, 188, rfl⟩
abbrev main_c_24 : Ref sig .tc := ⟨.hbm, 189, rfl⟩
abbrev main_v138 : Ref sig .tc := ⟨.hbm, 190, rfl⟩
abbrev main_v139 : Ref sig .tc := ⟨.hbm, 191, rfl⟩
abbrev main_c_25 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_26 : Ref sig .tc := ⟨.hbm, 197, rfl⟩
abbrev main_v144 : Ref sig .tc := ⟨.hbm, 198, rfl⟩
abbrev main_v145 : Ref sig .tc := ⟨.hbm, 199, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  transposes_S128x1_S1x128_1_0 : S128x1.Transposes [1, 0] S1x128
  bcast_S_S4096x128 : S_.BroadcastsInDim S4096x128 (![] : Fin 0 → Fin S4096x128.rank)
  bcast_S128_S1x128_1 : S128.BroadcastsInDim S1x128 (![1] : Fin 1 → Fin S1x128.rank)
  concatenates_S4096x128_S4096x128_S4096x128_S4096x128_S4096x512_d1 : Shape.Concatenates [S4096x128, S4096x128, S4096x128, S4096x128] S4096x512 1
  transposes_S256x512_S512x256_1_0 : S256x512.Transposes [1, 0] S512x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x128_S4096x128_S4096x256_d1 : Shape.Concatenates [S4096x128, S4096x128] S4096x256 1
  concatenates_S4096x128_S4096x1_S4096x129_d1 : Shape.Concatenates [S4096x128, S4096x1] S4096x129 1
  transposes_S128x129_S129x128_1_0 : S128x129.Transposes [1, 0] S129x128
  transposes_S128x128_S128x128_1_0 : S128x128.Transposes [1, 0] S128x128
  bcast_S_S4096x1 : S_.BroadcastsInDim S4096x1 (![] : Fin 0 → Fin S4096x1.rank)
  gather_S200000x1_S4096x1_S4096x1_1_0_n_n_0_1_11_wf : GatherDims.WF S200000x1 S4096x1 S4096x1 [1] [0] [] [0] [] 1 ![1, 1]
  gather_S200000x128_S4096x1_S4096x128_1_0_n_n_0_1_1128_wf : GatherDims.WF S200000x128 S4096x1 S4096x128 [1] [0] [] [0] [] 1 ![1, 128]
  dot_S4096x1_S1x128_S4096x128_1_0_0_1_n_n_wf : DotDims.WF S4096x1 S1x128 S4096x128 [1] [0] [0] [1] [] []
  dot_S4096x512_S512x256_S4096x256_1_0_0_1_n_n_wf : DotDims.WF S4096x512 S512x256 S4096x256 [1] [0] [0] [1] [] []
  dot_S4096x129_S129x128_S4096x128_1_0_0_1_n_n_wf : DotDims.WF S4096x129 S129x128 S4096x128 [1] [0] [0] [1] [] []
  dot_S4096x128_S128x128_S4096x128_1_0_0_1_n_n_wf : DotDims.WF S4096x128 S128x128 S4096x128 [1] [0] [0] [1] [] []
  scatter_S200000x128_S4096x1_S4096x128_1_0_0_1_wf : ScatterDims.WF S200000x128 S4096x1 S4096x128 [1] [0] [0] 1
  scatter_S200000x1_S4096x1_S4096x1_1_0_0_1_wf : ScatterDims.WF S200000x1 S4096x1 S4096x1 [1] [0] [0] 1

variable [Facts₀]

def gather_S200000x1_S4096x1_S4096x1_1_0_n_n_0_1_11 : GatherDims S200000x1 S4096x1 S4096x1 where
  offsetDims := [1]
  collapsedSliceDims := [0]
  operandBatchingDims := []
  startIndicesBatchingDims := []
  startIndexMap := [0]
  indexVectorDim := 1
  sliceSizes := ![1, 1]
  wf := gather_S200000x1_S4096x1_S4096x1_1_0_n_n_0_1_11_wf
def gather_S200000x128_S4096x1_S4096x128_1_0_n_n_0_1_1128 : GatherDims S200000x128 S4096x1 S4096x128 where
  offsetDims := [1]
  collapsedSliceDims := [0]
  operandBatchingDims := []
  startIndicesBatchingDims := []
  startIndexMap := [0]
  indexVectorDim := 1
  sliceSizes := ![1, 128]
  wf := gather_S200000x128_S4096x1_S4096x128_1_0_n_n_0_1_1128_wf
def dot_S4096x1_S1x128_S4096x128_1_0_0_1_n_n : DotDims S4096x1 S1x128 S4096x128 where
  lhsContracting := [1]
  rhsContracting := [0]
  lhsNonContracting := [0]
  rhsNonContracting := [1]
  lhsBatch := []
  rhsBatch := []
  wf := dot_S4096x1_S1x128_S4096x128_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x129_S129x128_S4096x128_1_0_0_1_n_n : DotDims S4096x129 S129x128 S4096x128 where
  lhsContracting := [1]
  rhsContracting := [0]
  lhsNonContracting := [0]
  rhsNonContracting := [1]
  lhsBatch := []
  rhsBatch := []
  wf := dot_S4096x129_S129x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S200000x128_S4096x1_S4096x128_1_0_0_1 : ScatterDims S200000x128 S4096x1 S4096x128 where
  updateWindowDims := [1]
  insertedWindowDims := [0]
  scatterDimsToOperandDims := [0]
  indexVectorDim := 1
  wf := scatter_S200000x128_S4096x1_S4096x128_1_0_0_1_wf
def scatter_S200000x1_S4096x1_S4096x1_1_0_0_1 : ScatterDims S200000x1 S4096x1 S4096x1 where
  updateWindowDims := [1]
  insertedWindowDims := [0]
  scatterDimsToOperandDims := [0]
  indexVectorDim := 1
  wf := scatter_S200000x1_S4096x1_S4096x1_1_0_0_1_wf

class Facts : Prop extends Facts₀ where

variable [Facts]
-- ==== Proof.RefFrame.lean ====
/- The reference's frame: the reference program has no kernel region, so its run is the composition of its host
   operations; every weakly fair execution terminates, nothing faults, and no operation writes an argument array.
   The conjunct is the run's post with its ten result equations dropped. -/
import proofs.«423553_j10307921510829_1_alg».proof.Defs
import proofs.«423553_j10307921510829_1_alg».proof.Proof.Gen.Pre_finite_inputs
import proofs.«423553_j10307921510829_1_alg».proof.Proof.Gen.ReferenceIdeal.Run
import proofs.«423553_j10307921510829_1_alg».proof.Proof.Gen.ReferenceIdeal.Read

noncomputable section

open Idealize.ShloMosaic Idealize.ShloMosaic.TcCoe Idealize.SL.Sem

namespace Cert.Proof.RefSide

/-- Every execution of the reference ends with its argument arrays as launched. -/
theorem frame_ri : Cert.frame_ReferenceIdeal := fun m ρ _ =>
  (θ_run Cert.ReferenceIdeal.defs _ _).mono (fun _ h c => (h c).2.2.2.2.2.2.2.2.2.2) (Cert.ReferenceIdeal.Value.run (F := Ideal) m ρ)

end Cert.Proof.RefSide

end
-- ==== Proof.PreRange.lean ====
/-
  The precondition's six integer conjuncts, read back. The printed predicate is a conjunction of twenty-two
  finiteness tests of float arrays followed by six range tests of the three index arrays: every entry e of each
  array satisfies 0 ≤ e and e < 200000, both read signed. A 32-bit word that is nonnegative when read signed reads
  the same signed and unsigned, so the two tests together say that its unsigned value is below 200000. That is
  the statement delivered here, for either float family (the float conjuncts are split off and never opened).
-/
import proofs.«423553_j10307921510829_1_alg».proof.Pre_finite_inputs
import proofs.«423553_j10307921510829_1_alg».proof.Proof.Gen.Pre_finite_inputs
import Idealize.ShloMosaic.Lib.ReduceAll
import Idealize.ShloMosaic.Lib.ValueIdx

noncomputable section

namespace Cert.Proof.PreRange

open Idealize.ShloMosaic Idealize.ShloMosaic.ValueIdx
open Cert.Pre_finite_inputs Cert.Pre_finite_inputs.Facts

/-- The scalar shape has one index. -/
instance : Subsingleton S_.Idx := ⟨fun a b => funext fun d => d.elim0⟩

/-! ## One word -/

/-- A 32-bit word with 0 ≤ w and w < 200000, both signed, has unsigned value below 200000: a nonnegative signed
    reading has the top bit clear, and then the signed and unsigned readings agree. -/
theorem word_lt (w : BitVec 32) (h0 : IntOp.cmpi .sge w 0#32 = 1#1) (h1 : IntOp.cmpi .slt w 200000#32 = 1#1) :
    w.toNat < 200000 := by
  rw [IntOp.cmpi_sge] at h0
  rw [IntOp.cmpi_slt] at h1
  have e0 : (0#32 : BitVec 32).toInt = 0 := by decide
  have e1 : (200000#32 : BitVec 32).toInt = 200000 := by decide
  rw [e0] at h0
  rw [e1] at h1
  have hc := BitVec.toInt_eq_toNat_cond w
  have h32 := w.isLt
  split at hc <;> omega

/-! ## One array: a universally quantified test that came out true holds at every entry -/

variable [Cert.Pre_finite_inputs.Facts]

/-- The conjunction over all 4096 entries of a bit array being 1 makes every entry 1. -/
theorem all_one (x : IVec S4096 1)
    (e : Host.reduce IntOp.andi x (constantI S_ 1 1#1) reducesTo_S4096_S_d0 h_S_ ix0 = 1#1) (j : S4096.Idx) :
    x j = 1#1 :=
  Host.reduce_andi_all x (constantI S_ 1 1#1) reducesTo_S4096_S_d0 h_S_ ix0 e j

/-- "every entry ≥ 0" read at entry j: the broadcast scalar reads 0 everywhere. -/
theorem ge_at (a : IVec S4096 32)
    (e : Host.reduce IntOp.andi (cmpi .sge a (broadcastInDim S4096 ![] bcast_S_S4096 (constantI S_ 32 0#32)))
      (constantI S_ 1 1#1) reducesTo_S4096_S_d0 h_S_ ix0 = 1#1) (j : S4096.Idx) :
    IntOp.cmpi .sge (a j) 0#32 = 1#1 :=
  all_one _ e j

/-- "every entry < 200000" read at entry j. -/
theorem lt_at (a : IVec S4096 32)
    (e : Host.reduce IntOp.andi (cmpi .slt a (broadcastInDim S4096 ![] bcast_S_S4096 (constantI S_ 32 200000#32)))
      (constantI S_ 1 1#1) reducesTo_S4096_S_d0 h_S_ ix0 = 1#1) (j : S4096.Idx) :
    IntOp.cmpi .slt (a j) 200000#32 = 1#1 :=
  all_one _ e j

/-- Both tests of one array give the unsigned bound at every entry. -/
theorem arr_lt (a : IVec S4096 32)
    (e0 : Host.reduce IntOp.andi (cmpi .sge a (broadcastInDim S4096 ![] bcast_S_S4096 (constantI S_ 32 0#32)))
      (constantI S_ 1 1#1) reducesTo_S4096_S_d0 h_S_ ix0 = 1#1)
    (e1 : Host.reduce IntOp.andi (cmpi .slt a (broadcastInDim S4096 ![] bcast_S_S4096 (constantI S_ 32 200000#32)))
      (constantI S_ 1 1#1) reducesTo_S4096_S_d0 h_S_ ix0 = 1#1) (j : S4096.Idx) :
    (a j).toNat < 200000 :=
  word_lt (a j) (ge_at a e0 j) (lt_at a e1 j)

/-- A pointwise conjunction of two scalar bits that is 1 has both bits 1. -/
theorem and_split (p q : IVec S_ 1) (h : andi p q ix0 = 1#1) : p ix0 = 1#1 ∧ q ix0 = 1#1 :=
  IntOp.andi_eq_one.1 h

/-! ## The chain, from its end

The last part of the printed chain is four nested conjunctions: the accumulated bit, then "every entry of the second
array ≥ 0" (whose bit array is handed in), "< 200000", and the two tests of the third array. -/

variable {F : FTy → Type} [FloatOps F]

theorem part7 (a1 a2 : IVec S4096 32) (v116 : IVec S_ 1) (v118 : IVec S4096 1)
    (h : fn_part7 (F := F) a1 a2 v116 v118 ix0 = 1#1) :
    v116 ix0 = 1#1 ∧ (∀ j : S4096.Idx, v118 j = 1#1) ∧ (∀ j : S4096.Idx, IntOp.cmpi .slt (a1 j) 200000#32 = 1#1)
      ∧ (∀ j : S4096.Idx, (a2 j).toNat < 200000) := by
  unfold fn_part7 at h
  dsimp only at h
  obtain ⟨h128, e131⟩ := and_split _ _ h
  obtain ⟨h124, e127⟩ := and_split _ _ h128
  obtain ⟨h120, e123⟩ := and_split _ _ h124
  obtain ⟨h116, e119⟩ := and_split _ _ h120
  exact ⟨h116, all_one _ e119, lt_at a1 e123, arr_lt a2 e127 e131⟩

/-- The part before it: two float conjuncts (kept closed), the two tests of the first array, and the bit array of
    "second array ≥ 0" that the last part reduces. -/
theorem part6 (a0 a1 a2 : IVec S4096 32) (a24 : FVec F S128 .f32) (v98 : IVec S_ 1) (v101 : IVec S128x1 1) (c39 : IVec S_ 1)
    (h : fn_part6 (F := F) a0 a1 a2 a24 v98 v101 c39 ix0 = 1#1) :
    (∀ j : S4096.Idx, (a0 j).toNat < 200000) ∧ (∀ j : S4096.Idx, (a1 j).toNat < 200000)
      ∧ (∀ j : S4096.Idx, (a2 j).toNat < 200000) := by
  unfold fn_part6 at h
  dsimp only at h
  obtain ⟨h116, h118, h1lt, h2⟩ := part7 _ _ _ _ h
  obtain ⟨h112, e115⟩ := and_split _ _ h116
  obtain ⟨h108, e111⟩ := and_split _ _ h112
  exact ⟨arr_lt a0 e111 e115, fun j => word_lt (a1 j) (h118 j) (h1lt j), h2⟩

/-- Every entry of each of the three index arrays is below 200000, read unsigned. -/
abbrev Below (a0 a1 a2 : IVec S4096 32) : Prop :=
  (∀ j : S4096.Idx, (a0 j).toNat < 200000) ∧ (∀ j : S4096.Idx, (a1 j).toNat < 200000)
    ∧ (∀ j : S4096.Idx, (a2 j).toNat < 200000)

/-! The earlier parts only test float arrays and hand the accumulated bit on: each is the next part at other
arguments, and the three index arrays pass through unchanged. -/

theorem part5 {a0 a1 a2 : IVec S4096 32} {a21 : FVec F S256x512 .f32} {a22 : FVec F S256 .f32}
    {a23 : FVec F S128x1 .f32} {a24 : FVec F S128 .f32} {v83 : IVec S_ 1} {v84 : FVec F S128 .f32}
    {cst32 : FVec F S_ .f32}
    (h : fn_part5 (F := F) a0 a1 a2 a21 a22 a23 a24 v83 v84 cst32 ix0 = 1#1) : Below a0 a1 a2 := by
  unfold fn_part5 at h
  dsimp only at h
  exact part6 _ _ _ _ _ _ _ h

theorem part4 {a0 a1 a2 : IVec S4096 32} {a17 : FVec F S128x129 .f32} {a18 : FVec F S128x128 .f32}
    {a19 a20 : FVec F S128 .f32} {a21 : FVec F S256x512 .f32} {a22 : FVec F S256 .f32}
    {a23 : FVec F S128x1 .f32} {a24 : FVec F S128 .f32} {v63 v67 : IVec S_ 1}
    (h : fn_part4 (F := F) a0 a1 a2 a17 a18 a19 a20 a21 a22 a23 a24 v63 v67 ix0 = 1#1) : Below a0 a1 a2 := by
  unfold fn_part4 at h
  dsimp only at h
  exact part5 h

theorem part3 {a0 a1 a2 : IVec S4096 32} {a14 : FVec F S128x128 .f32} {a15 a16 : FVec F S128 .f32}
    {a17 : FVec F S128x129 .f32} {a18 : FVec F S128x128 .f32}
    {a19 a20 : FVec F S128 .f32} {a21 : FVec F S256x512 .f32} {a22 : FVec F S256 .f32}
    {a23 : FVec F S128x1 .f32} {a24 : FVec F S128 .f32} {v48 : IVec S_ 1} {v49 v50 : FVec F S128x129 .f32}
    (h : fn_part3 (F := F) a0 a1 a2 a14 a15 a16 a17 a18 a19 a20 a21 a22 a23 a24 v48 v49 v50 ix0 = 1#1) :
    Below a0 a1 a2 := by
  unfold fn_part3 at h
  dsimp only at h
  exact part4 h

theorem part2 {a0 a1 a2 : IVec S4096 32} {a10 : FVec F S200000x128 .f32} {a11 a12 : FVec F S1x128 .f32}
    {a13 : FVec F S128x129 .f32} {a14 : FVec F S128x128 .f32} {a15 a16 : FVec F S128 .f32}
    {a17 : FVec F S128x129 .f32} {a18 : FVec F S128x128 .f32}
    {a19 a20 : FVec F S128 .f32} {a21 : FVec F S256x512 .f32} {a22 : FVec F S256 .f32}
    {a23 : FVec F S128x1 .f32} {a24 : FVec F S128 .f32} {v33 : IVec S_ 1}
    (h : fn_part2 (F := F) a0 a1 a2 a10 a11 a12 a13 a14 a15 a16 a17 a18 a19 a20 a21 a22 a23 a24 v33 ix0 = 1#1) :
    Below a0 a1 a2 := by
  unfold fn_part2 at h
  dsimp only at h
  exact part3 h

theorem part1 {a0 a1 a2 : IVec S4096 32} {a7 a8 : FVec F S200000x1 .f32} {a9 a10 : FVec F S200000x128 .f32}
    {a11 a12 : FVec F S1x128 .f32}
    {a13 : FVec F S128x129 .f32} {a14 : FVec F S128x128 .f32} {a15 a16 : FVec F S128 .f32}
    {a17 : FVec F S128x129 .f32} {a18 : FVec F S128x128 .f32}
    {a19 a20 : FVec F S128 .f32} {a21 : FVec F S256x512 .f32} {a22 : FVec F S256 .f32}
    {a23 : FVec F S128x1 .f32} {a24 : FVec F S128 .f32} {v13 : IVec S_ 1} {v16 : IVec S200000x128 1}
    (h : fn_part1 (F := F) a0 a1 a2 a7 a8 a9 a10 a11 a12 a13 a14 a15 a16 a17 a18 a19 a20 a21 a22 a23 a24 v13 v16 ix0
      = 1#1) :
    Below a0 a1 a2 := by
  unfold fn_part1 at h
  dsimp only at h
  exact part2 h

/-! ## The statement -/

/-- If the printed precondition is all ones on the argument arrays, every user id, previous item id and item id is
    below 200000 as an unsigned word. -/
theorem ids_lt (a0 a1 a2 : IVec S4096 32) (a3 a4 : FVec F S4096x1 .f32) (a5 a6 : FVec F S200000x128 .f32)
    (a7 a8 : FVec F S200000x1 .f32) (a9 a10 : FVec F S200000x128 .f32) (a11 a12 : FVec F S1x128 .f32)
    (a13 : FVec F S128x129 .f32) (a14 : FVec F S128x128 .f32) (a15 a16 : FVec F S128 .f32)
    (a17 : FVec F S128x129 .f32) (a18 : FVec F S128x128 .f32) (a19 a20 : FVec F S128 .f32)
    (a21 : FVec F S256x512 .f32) (a22 : FVec F S256 .f32) (a23 : FVec F S128x1 .f32) (a24 : FVec F S128 .f32)
    (h : Cert.Pre_finite_inputs.fn (F := F) a0 a1 a2 a3 a4 a5 a6 a7 a8 a9 a10 a11 a12 a13 a14 a15 a16 a17 a18 a19 a20
      a21 a22 a23 a24 = fun _ => 1#1) :
    (∀ j : S4096.Idx, (a0 j).toNat < 200000) ∧ (∀ j : S4096.Idx, (a1 j).toNat < 200000)
      ∧ (∀ j : S4096.Idx, (a2 j).toNat < 200000) := by
  have h0 : Cert.Pre_finite_inputs.fn (F := F) a0 a1 a2 a3 a4 a5 a6 a7 a8 a9 a10 a11 a12 a13 a14 a15 a16 a17 a18 a19
      a20 a21 a22 a23 a24 ix0 = 1#1 := congrFun h ix0
  unfold Cert.Pre_finite_inputs.fn at h0
  dsimp only at h0
  exact part1 h0

end Cert.Proof.PreRange

end
-- ==== Proof.KI.RunCond.lean ====
/- The run of @main from the two kernel regions' records, with the final memory read whole. The program is: the first kernel
   region, four host copies (each table argument copied into the buffer the second region overwrites), the second kernel
   region. Given, for each region, a record of its obligations entered from and left at the stated buffer contents, every
   weakly fair execution terminates, and in the final memory EVERY buffer that outlives a region holds what the last
   boundary's valuation says: the arguments their launch contents, the first region's six results and the second region's
   four tables what the records say the regions leave. (The frame claim keeps only the arguments of this; the value claim
   reads the ten results.) -/
import proofs.«423553_j10307921510829_1_alg».proof.Proof.Gen.KernelIdeal.Regions

set_option maxRecDepth 3328

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
/-- From the two regions' records to the run: termination, and the whole final memory of the buffers that outlive the
    regions, on every core. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V3 m outs c b) := by
  refine Pipeline.θ_run_regions_kit_dev (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨hpre0 c, hpost0 c, hpre1 c, (hpost1 c).trans (sep_mono .rfl (hE2 c))⟩)
    (hinit := ?_) (QY := fun c s => ∀ b ∈ Pipeline.ucRefs τ sig, s.mem (((c : Thread nD τ)).1, b) = V3 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last valuation read against the final state, buffer by buffer
    unfold StableHlo.held
    iintro ⟨Hh, HSI⟩
    imodintro
    iapply (pointsTo_read_all (Pipeline.ucRefs τ sig) (fun b => (((c : Thread nD τ)).1, b)) (V3 m outs c) s')
    isplitl [Hh] <;> iassumption

end Cert.KernelIdeal.Hand

end
-- ==== Proof.KI.Basics.lean ====
/- Shared vocabulary of the hand frame of the two kernel regions: the resource algebra (the pipeline library's rounds
   copy beside the transfers' counters), a whole buffer held at given contents, and the arithmetic fact behind every
   side condition the kernel bodies assume of a table word: a 32-bit word whose unsigned value is below 200000 names a
   row of a 200000-row table, so the one-row slice at that row lies inside the table. -/
import proofs.«423553_j10307921510829_1_alg».proof.Proof.Gen.KernelIdeal
import proofs.«423553_j10307921510829_1_alg».proof.Proof.Gen.KernelIdeal.Skeleton
import proofs.«423553_j10307921510829_1_alg».proof.Proof.Gen.KernelIdeal.Launch
import Idealize.ShloMosaic.Lib.Transfers
import Idealize.ShloMosaic.Lib.Writes
import Idealize.ShloMosaic.Lib.Pipeline.FrameBody
import Idealize.ShloMosaic.Lib.Pipeline.Frame
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents type of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole, at the full share, at contents `f`. -/
abbrev pt (c : Dev nD) {sp : Space} {S : Shape} {e : EltTy} (M : Memref sig .tc sp S e) (f : Bf (F := F) c M) :
    sProp (MT nD τ sig Unit (Elt F) ℕ (Pipeline.UD sig nD τ) ℕ) :=
  M.view.loc (c : Thread nD τ) ↦{fullShare} f

/-- Every word read from the table held at `tb` is, unsigned, a row number of a 200000-row table. -/
abbrev RowWords (c : Dev nD) (M : Memref sig .tc .smem S4096 .i32) (tb : Bf (F := F) c M) : Prop :=
  ∀ (r : LoadRect S4096) (y : r.shape.Idx), (View.readAt (Elt F) M.view r tb y).toNat < 200000

/-- A row number below 200000: the 1×128 slice and the 1×1 slice at that row lie inside a 200000-row table. -/
theorem rowFits2 (v : BitVec 32) (h : v.toNat < 200000) :
    (∀ a : Fin 2, (![v.toNat, 0] : Fin 2 → ℕ) a + S1x128.size a ≤ S200000x128.size a)
      ∧ (∀ a : Fin 2, (![v.toNat, 0] : Fin 2 → ℕ) a + S1x1.size a ≤ S200000x1.size a) := by
  refine ⟨fun a => ?_, fun a => ?_⟩
  · match a with
    | ⟨0, _⟩ => show v.toNat + 1 ≤ 200000; omega
    | ⟨1, _⟩ => show 0 + 128 ≤ 128; omega
  · match a with
    | ⟨0, _⟩ => show v.toNat + 1 ≤ 200000; omega
    | ⟨1, _⟩ => show 0 + 1 ≤ 1; omega

/-- The same for a word that addresses two 128-wide tables and one 1-wide table. -/
theorem rowFits3 (v : BitVec 32) (h : v.toNat < 200000) :
    (∀ a : Fin 2, (![v.toNat, 0] : Fin 2 → ℕ) a + S1x128.size a ≤ S200000x128.size a)
      ∧ (∀ a : Fin 2, (![v.toNat, 0] : Fin 2 → ℕ) a + S1x128.size a ≤ S200000x128.size a)
      ∧ (∀ a : Fin 2, (![v.toNat, 0] : Fin 2 → ℕ) a + S1x1.size a ≤ S200000x1.size a) :=
  ⟨(rowFits2 v h).1, (rowFits2 v h).1, (rowFits2 v h).2⟩

end Cert.KernelIdeal.Hand

end
-- ==== Proof.KI.Spec.lean ====
/- What the first kernel region computes, as plain functions of the argument arrays. At grid point t (0 ≤ t < 256) the
   kernel gathers, for each of the 16 rows p of the point, row ids[16t + p] of a table into row p of a 16-row block — the
   dynamic and static embedding tables and the "is new" flag columns, by the user ids, the item ids and the previous-item
   ids —, and then computes its six output blocks from those gathered blocks, the point's two blocks of time deltas and
   the whole weight arrays:
     user_emb   = is_user_new[uid] · initial_user + dynamic_user[uid]
     item_emb   = is_item_new[iid] · initial_item + dynamic_item[iid]
     item_pred  = concat(user_emb · (1 + t_pi · td_Wᵀ + td_b), prev_item_emb, static_item[pid], static_user[uid]) · pred_Wᵀ + pred_b
     item_target = concat(item_emb, static_item[iid])
     updated_user = tanh(concat(item_emb, t_pi) · Wihᵀ + bih + user_emb · Whhᵀ + bhh), and the same for the item with the
     roles of user and item exchanged and t_pu for t_pi.
   The arithmetic is the kernel body's own (its named payloads); this module only says which block each payload is fed. -/
import proofs.«423553_j10307921510829_1_alg».proof.Proof.Gen.KernelIdeal.Skeleton
import Idealize.ShloMosaic.Lib.ValueIdx

noncomputable section

namespace Cert.KernelIdeal.Spec

open Cert.KernelIdeal Cert.KernelIdeal.Gen Idealize.ShloMosaic

variable {F : FTy → Type} [FloatOps F]

/-- Row `16t + p` of the batch, as an index below 4096. -/
def batchRow (t : Fin 256) (p : Fin 16) : Fin 4096 := ⟨16 * t.val + p.val, by omega⟩

/-- The 16 rows of a 128-wide table that the ids of point `t` name, as one block. -/
def gather128 (tbl : Vec F S200000x128 .f32) (ids : Fin 4096 → Fin 200000) (t : Fin 256) : Vec F S16x128 .f32 :=
  fun y => tbl (ValueIdx.ix2 (ids (batchRow t (y 0))) (y 1))

/-- The same for a one-column table. -/
def gather1 (tbl : Vec F S200000x1 .f32) (ids : Fin 4096 → Fin 200000) (t : Fin 256) : Vec F S16x1 .f32 :=
  fun y => tbl (ValueIdx.ix2 (ids (batchRow t (y 0))) (y 1))

/-- Block `t` (16 rows) of a batch column. -/
def block1 (x : Vec F S4096x1 .f32) (t : Fin 256) : Vec F S16x1 .f32 :=
  fun y => x (ValueIdx.ix2 (batchRow t (y 0)) (y 1))

/-- The argument arrays the first region reads, bundled: the three id columns as row numbers, and the float arrays. -/
structure Args (F : FTy → Type) [FloatOps F] where
  uid : Fin 4096 → Fin 200000
  iid : Fin 4096 → Fin 200000
  pid : Fin 4096 → Fin 200000
  tpi : Vec F S4096x1 .f32
  tpu : Vec F S4096x1 .f32
  dynU : Vec F S200000x128 .f32
  dynI : Vec F S200000x128 .f32
  statU : Vec F S200000x128 .f32
  statI : Vec F S200000x128 .f32
  isU : Vec F S200000x1 .f32
  isI : Vec F S200000x1 .f32
  initU : Vec F S1x128 .f32
  initI : Vec F S1x128 .f32
  uWih : Vec F S128x129 .f32
  uWhh : Vec F S128x128 .f32
  ubih : Vec F S128 .f32
  ubhh : Vec F S128 .f32
  iWih : Vec F S128x129 .f32
  iWhh : Vec F S128x128 .f32
  ibih : Vec F S128 .f32
  ibhh : Vec F S128 .f32
  predW : Vec F S256x512 .f32
  predb : Vec F S256 .f32
  tdW : Vec F S128x1 .f32
  tdb : Vec F S128 .f32

/-- The bundle read off @main's 25 argument arrays, in @main's order: user_id, prev_item_id, item_id (32-bit words whose
    unsigned values are row numbers), the two time columns, the two dynamic tables, the two flag columns, the two static
    tables, the two initial embeddings, the user cell's and the item cell's weights and biases, the prediction head's, the
    time projection's. -/
def Args.ofMem (a0 a1 a2 : IVec S4096 32)
    (h0 : ∀ j : S4096.Idx, (a0 j).toNat < 200000) (h1 : ∀ j : S4096.Idx, (a1 j).toNat < 200000) (h2 : ∀ j : S4096.Idx, (a2 j).toNat < 200000)
    (a3 a4 : Vec F S4096x1 .f32) (a5 a6 : Vec F S200000x128 .f32) (a7 a8 : Vec F S200000x1 .f32) (a9 a10 : Vec F S200000x128 .f32)
    (a11 a12 : Vec F S1x128 .f32) (a13 : Vec F S128x129 .f32) (a14 : Vec F S128x128 .f32) (a15 a16 : Vec F S128 .f32)
    (a17 : Vec F S128x129 .f32) (a18 : Vec F S128x128 .f32) (a19 a20 : Vec F S128 .f32)
    (a21 : Vec F S256x512 .f32) (a22 : Vec F S256 .f32) (a23 : Vec F S128x1 .f32) (a24 : Vec F S128 .f32) : Args F where
  uid k := ⟨(a0 (ValueIdx.ix1 k)).toNat, h0 _⟩
  pid k := ⟨(a1 (ValueIdx.ix1 k)).toNat, h1 _⟩
  iid k := ⟨(a2 (ValueIdx.ix1 k)).toNat, h2 _⟩
  tpi := a3
  tpu := a4
  dynU := a5
  dynI := a6
  isU := a7
  isI := a8
  statU := a9
  statI := a10
  initU := a11
  initI := a12
  uWih := a13
  uWhh := a14
  ubih := a15
  ubhh := a16
  iWih := a17
  iWhh := a18
  ibih := a19
  ibhh := a20
  predW := a21
  predb := a22
  tdW := a23
  tdb := a24

variable (A : Args F)

/-- The six output blocks at point `t`. -/
def userEmbBlk (t : Fin 256) : Vec F S16x128 .f32 := k0_pay1 (gather1 A.isU A.uid t) A.initU (gather128 A.dynU A.uid t)
def itemEmbBlk (t : Fin 256) : Vec F S16x128 .f32 := k0_pay2 (gather1 A.isI A.iid t) A.initI (gather128 A.dynI A.iid t)
def concatBlk (t : Fin 256) : Vec F S16x512 .f32 :=
  k0_pay3 (userEmbBlk A t) (gather1 A.isI A.pid t) A.initI (gather128 A.dynI A.pid t) (gather128 A.statU A.uid t)
    (gather128 A.statI A.pid t) (block1 A.tpi t) A.tdW A.tdb
def itemPredBlk (t : Fin 256) : Vec F S16x256 .f32 := k0_pay4 (concatBlk A t) A.predW A.predb
def itemTargetBlk (t : Fin 256) : Vec F S16x256 .f32 := k0_pay5 (itemEmbBlk A t) (gather128 A.statI A.iid t)
def updUserBlk (t : Fin 256) : Vec F S16x128 .f32 :=
  k0_pay6 (userEmbBlk A t) (itemEmbBlk A t) (block1 A.tpi t) A.uWih A.ubih A.uWhh A.ubhh
def updItemBlk (t : Fin 256) : Vec F S16x128 .f32 :=
  k0_pay7 (userEmbBlk A t) (itemEmbBlk A t) (block1 A.tpu t) A.iWih A.ibih A.iWhh A.ibhh

/-- A batch array assembled from its 256 blocks of 16 rows: row `i` is row `i % 16` of block `i / 16`. -/
def ofBlocks128 (blk : Fin 256 → Vec F S16x128 .f32) : Vec F S4096x128 .f32 :=
  fun i => blk ⟨(i 0).val / 16, by have h : (i 0).val < 4096 := (i 0).isLt; omega⟩ (ValueIdx.ix2 ⟨(i 0).val % 16, by omega⟩ (i 1))
def ofBlocks256 (blk : Fin 256 → Vec F S16x256 .f32) : Vec F S4096x256 .f32 :=
  fun i => blk ⟨(i 0).val / 16, by have h : (i 0).val < 4096 := (i 0).isLt; omega⟩ (ValueIdx.ix2 ⟨(i 0).val % 16, by omega⟩ (i 1))

/-- The first region's six result arrays. -/
def itemPred : Vec F S4096x256 .f32 := ofBlocks256 (itemPredBlk A)
def itemTarget : Vec F S4096x256 .f32 := ofBlocks256 (itemTargetBlk A)
def updUser : Vec F S4096x128 .f32 := ofBlocks128 (updUserBlk A)
def userEmb : Vec F S4096x128 .f32 := ofBlocks128 (userEmbBlk A)
def updItem : Vec F S4096x128 .f32 := ofBlocks128 (updItemBlk A)
def itemEmb : Vec F S4096x128 .f32 := ofBlocks128 (itemEmbBlk A)

end Cert.KernelIdeal.Spec

end
-- ==== Proof.KI.Data0.lean ====
/- The first kernel region (gather and compute): its invariant and its proof data. The region reads six tables it is
   handed in place (the two dynamic tables, the two static tables, the two flag columns), the three tables of row numbers,
   sixteen staged inputs (the point's two blocks of time deltas; fourteen whole weight arrays) and writes six staged
   output blocks. Nothing is carried from point to point: the invariant is the same at every point, and what the body
   leaves in each output's buffer at point t is the block the specification names. -/
import proofs.«423553_j10307921510829_1_alg».proof.Proof.KI.Basics
import proofs.«423553_j10307921510829_1_alg».proof.Proof.KI.Spec

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region

variable (a0 : (pcfg0 (F := F)).Adm)
variable (V : (c : Dev nD) → (b : Ref sig .tc) → Buf (Elt F) ((c : Thread nD τ).loc b))

/-- A whole buffer's contents as the function of its index. -/
abbrev rd (c : Dev nD) (b : Ref sig .tc) : b.ty.shape.Idx → Elt F b.ty.elt := (Memref.whole b).view.read (Elt F) (V c b)

/-- Every word of the three tables of row numbers, as the region finds them, is below 200000. -/
def IdsOk (c : Dev nD) : Prop :=
  (∀ j : S4096.Idx, (rd V c main_arg0 j).toNat < 200000) ∧ (∀ j : S4096.Idx, (rd V c main_arg1 j).toNat < 200000)
    ∧ (∀ j : S4096.Idx, (rd V c main_arg2 j).toNat < 200000)

/-- The argument arrays as the region finds them, bundled for the specification. -/
def argsAt (c : Dev nD) (h : IdsOk V c) : Spec.Args F :=
  Spec.Args.ofMem (rd V c main_arg0) (rd V c main_arg1) (rd V c main_arg2) h.1 h.2.1 h.2.2
    (rd V c main_arg3) (rd V c main_arg4) (rd V c main_arg5) (rd V c main_arg6) (rd V c main_arg7) (rd V c main_arg8)
    (rd V c main_arg9) (rd V c main_arg10) (rd V c main_arg11) (rd V c main_arg12) (rd V c main_arg13) (rd V c main_arg14)
    (rd V c main_arg15) (rd V c main_arg16) (rd V c main_arg17) (rd V c main_arg18) (rd V c main_arg19) (rd V c main_arg20)
    (rd V c main_arg21) (rd V c main_arg22) (rd V c main_arg23) (rd V c main_arg24)

/-- Window `w`'s block at point `t`, read off its array as the region finds it. -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-- The body's own nine DMA semaphores, one per gathered table. -/
abbrev osem0 : Fin 9 → SemLoc sig := fun j =>
  (![SemLoc.dma 30, SemLoc.dma 31, SemLoc.dma 32, SemLoc.dma 33, SemLoc.dma 34, SemLoc.dma 35, SemLoc.dma 36, SemLoc.dma 37, SemLoc.dma 38] : Fin 9 → SemLoc sig) j

/-- The six tables the body copies rows out of, left where @main put them. -/
def H0 : Finset (Ref sig .tc) := {main_arg5, main_arg6, main_arg9, main_arg10, main_arg7, main_arg8}

/-- The region's invariant, the same at every point: the scoped buffers the pipeline does not stage (the nine gather
    buffers among them) at some contents, the generator register at some state, the body's nine cells at zero, the six
    tables at their entry contents, and the three tables of row numbers held. -/
def Phi0 (c : Dev nD) : sProp 𝕄 :=
  iprop(Pipeline.ΦD osem0 spec0 H0 V c
    ∗ Pipeline.prefHeld (Ix := Unit) (Name := ℕ) (U := Pipeline.UD sig nD τ) (Lvl := ℕ) pre0 c (fun _ => fullShare) a0.1)

/-- What the body leaves in window `w`'s buffer at point `t`: an input's block as it was; an output's the block the
    specification names — item_pred, item_target, updated_user_emb, user_emb, updated_item_emb, item_emb, in the
    order of the kernel's results. -/
def after0 (c : Dev nD) (h : IdsOk V c) (w : Fin (cfg0 a0).W) (t : Fin (cfg0 a0).N) :
    (((cfg0 a0).win w).xblock ((cfg0 a0).grid.coords t)).Idx → Elt F ((cfg0 a0).win w).elt :=
  match w with
  | ⟨16, _⟩ => Spec.itemPredBlk (argsAt V c h) t
  | ⟨17, _⟩ => Spec.itemTargetBlk (argsAt V c h) t
  | ⟨18, _⟩ => Spec.updUserBlk (argsAt V c h) t
  | ⟨19, _⟩ => Spec.userEmbBlk (argsAt V c h) t
  | ⟨20, _⟩ => Spec.updItemBlk (argsAt V c h) t
  | ⟨21, _⟩ => Spec.itemEmbBlk (argsAt V c h) t
  | w => iblk0 a0 V c w t

/-- The proof data of the gather-and-compute region on core `c`. -/
def dat0 (c : Dev nD) (h : IdsOk V c) : Dat τ (Elt F) Unit ℕ (Pipeline.UD sig nD τ) ℕ (cfg0 a0) c where
  A w := V c (Pipeline.arrRef spec0 w)
  after w t := after0 a0 V c h w t
  Φ _ := Phi0 a0 V c
  q _ := fullShare
  owed _ := 0

end Region

end Cert.KernelIdeal.Hand

end
-- ==== Proof.KI.ScatterRun.lean ====
/- The scatter kernel's body, run once at a symbolic grid point. At point t the body zeroes its one-word scratch and
   then, for each of the 16 rows r of the point in turn, reads the two table words u = user_id[16t + r] and
   i = item_id[16t + r] and copies, each copy started and waited for before the next starts: row r of the first input
   block into row u of the first table, row r of the second input block into row i of the second table, the zero word
   into entry u of the first flag column and into entry i of the second. Given that every table word names a row,
   the run goes through; what it leaves in the four tables — sixteen row writes each, in the order of r — is found by the
   run itself and exposed as the value of this definition. -/
import proofs.«423553_j10307921510829_1_alg».proof.Proof.KI.Basics

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- The four tables after the body at point `t`, from their contents `f0 … f3` before it, the two input blocks
    `x0`, `x1`, the two tables of row numbers and the scratch word's contents `g` (which the body overwrites before it reads it); with the proof that the body runs from those holdings to these. -/
noncomputable def scatterRun (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    { R : Bf (F := F) c (Memref.whole main_v1_0) × Bf (F := F) c (Memref.whole main_v1_1)
          × Bf (F := F) c (Memref.whole main_v1_2) × Bf (F := F) c (Memref.whole main_v1_3) //
      ∀ (W : Waits sig Unit) (K : PUnit → sProp 𝕄),
        iprop(owns (c : Thread nD τ) M0 fullShare x0 ∗ owns (c : Thread nD τ) M1 fullShare x1
            ∗ pt c (Memref.whole main_arg0) tb0 ∗ pt c (Memref.whole main_arg2) tb2
            ∗ pt c (Memref.whole main_v1_0) f0 ∗ pt c (Memref.whole main_v1_1) f1
            ∗ pt c (Memref.whole main_v1_2) f2 ∗ pt c (Memref.whole main_v1_3) f3
            ∗ pt c (Memref.whole cc1_scratch0) g
            ∗ semVal ((c : Thread nD τ), SemLoc.dma (43 : DmaSem sig)) 0 ∗ semVal ((c : Thread nD τ), SemLoc.dma (44 : DmaSem sig)) 0
            ∗ semVal ((c : Thread nD τ), SemLoc.dma (45 : DmaSem sig)) 0 ∗ semVal ((c : Thread nD τ), SemLoc.dma (46 : DmaSem sig)) 0
            ∗ owes (c : Thread nD τ) 0 W
            ∗ (iprop(owns (c : Thread nD τ) M0 fullShare x0 ∗ owns (c : Thread nD τ) M1 fullShare x1
                ∗ pt c (Memref.whole main_arg0) tb0 ∗ pt c (Memref.whole main_arg2) tb2
                ∗ pt c (Memref.whole main_v1_0) R.1 ∗ pt c (Memref.whole main_v1_1) R.2.1
                ∗ pt c (Memref.whole main_v1_2) R.2.2.1 ∗ pt c (Memref.whole main_v1_3) R.2.2.2
                ∗ (∃ g, pt c (Memref.whole cc1_scratch0) g)
                ∗ semVal ((c : Thread nD τ), SemLoc.dma (43 : DmaSem sig)) 0 ∗ semVal ((c : Thread nD τ), SemLoc.dma (44 : DmaSem sig)) 0
                ∗ semVal ((c : Thread nD τ), SemLoc.dma (45 : DmaSem sig)) 0 ∗ semVal ((c : Thread nD τ), SemLoc.dma (46 : DmaSem sig)) 0
                ∗ (∃ W', owes (c : Thread nD τ) 0 W')) -∗ K ⟨⟩))
          ⊢ wp frame (wpE (defs₀ (F := F)) Variants.none c none) Set.univ
              (cc1__scatter_kernel (grid1.coords t) (Memref.whole main_arg0) (Memref.isWhole_whole _) (Memref.whole main_arg2) (Memref.isWhole_whole _) M0 h0 M1 h1 (Memref.whole main_v1_0) (Memref.isWhole_whole _) (Memref.whole main_v1_1) (Memref.isWhole_whole _) (Memref.whole main_v1_2) (Memref.isWhole_whole _) (Memref.whole main_v1_3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc1_scratch0) (Memref.isWhole_whole _) cc1_scratch1) K } := by
  refine ⟨(?_, ?_, ?_, ?_), fun W K => ?run⟩
  case run =>
    unfold owns
    iintro ⟨⟨%fx0, %hf0, H0⟩, ⟨%fx1, %hf1, H1⟩, Ht0, Ht2, Hv0, Hv1, Hv2, Hv3, Hg, Hs0, Hs1, Hs2, Hs3, HO, Hk⟩
    obtain rfl := h0.eq_unread hf0
    obtain rfl := h1.eq_unread hf1
    sl_exec_parts! (disch := first | decide | (refine rowFits2 _ ?_; sl_unfold_run_names; first | with_reducible exact hT0 _ _ | with_reducible exact hT2 _ _))
    sl_step
    iapply Hk
    isplitl [H0]
    · iexists _; isplitr; · ipureintro; exact h0.read_unread _
      iexact H0
    isplitl [H1]
    · iexists _; isplitr; · ipureintro; exact h1.read_unread _
      iexact H1
    isplitl [Ht0]; · iexact Ht0
    isplitl [Ht2]; · iexact Ht2
    isplitl [Hv0]; · iexact Hv0
    isplitl [Hv1]; · iexact Hv1
    isplitl [Hv2]; · iexact Hv2
    isplitl [Hv3]; · iexact Hv3
    isplitl [Hg]; · iexists _; iexact Hg
    isplitl [Hs0]; · iexact Hs0
    isplitl [Hs1]; · iexact Hs1
    isplitl [Hs2]; · iexact Hs2
    isplitl [Hs3]; · iexact Hs3
    iexists _; iexact HO

end Cert.KernelIdeal.Hand

end
-- ==== Proof.KI.Data1.lean ====
/- The second kernel region (the scatter): what its four tables hold after each grid point, its invariant and its proof
   data. A point overwrites 16 rows of each table, one after the other; a later write to a row replaces an earlier one.
   After n points the first table is its entry contents with the first 16·n update rows written in order at the rows the
   user ids name; the second likewise by the item ids; the two flag columns have the zero word written at those rows. -/
import proofs.«423553_j10307921510829_1_alg».proof.Proof.KI.ScatterRun
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## Writing rows -/

/-- Table `X` with row `r` replaced by `row`. -/
def setRow128 {α : Type} (X : S200000x128.Idx → α) (r : ℕ) (row : Fin 128 → α) : S200000x128.Idx → α :=
  fun j => if (j 0).val = r then row ⟨(j 1).val, (j 1).isLt⟩ else X j
/-- One-column table `X` with entry `r` replaced by `z`. -/
def setRow1 {α : Type} (X : S200000x1.Idx → α) (r : ℕ) (z : α) : S200000x1.Idx → α :=
  fun j => if (j 0).val = r then z else X j
/-- The 16 rows of block `x` written in the order p = 0, 1, …, 15 at the rows `id p`. -/
def rows16_128 {α : Type} (X : S200000x128.Idx → α) (id : Fin 16 → ℕ) (x : S16x128.Idx → α) : S200000x128.Idx → α :=
  (List.finRange 16).foldl (fun Y p => setRow128 Y (id p) (fun k => x (ValueIdx.ix2 p k))) X
/-- The word `z` written at the 16 entries `id p`. -/
def rowsConst16 {α : Type} (X : S200000x1.Idx → α) (id : Fin 16 → ℕ) (z : α) : S200000x1.Idx → α :=
  (List.finRange 16).foldl (fun Y p => setRow1 Y (id p) z) X

/-! ## The region at entry contents `V` -/

section Region

variable (a1 : (pcfg1 (F := F)).Adm)
variable (V : (c : Dev nD) → (b : Ref sig .tc) → Buf (Elt F) ((c : Thread nD τ).loc b))

/-- Input window `w`'s block at point `t`, read off its array as the region finds it. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The row number the k-th user id names, and the k-th item id, as the region finds the two tables. -/
def idU (c : Dev nD) (k : Fin 4096) : ℕ := ((Memref.whole main_arg0).view.read (Elt F) (V c main_arg0) (ValueIdx.ix1 k)).toNat
def idI (c : Dev nD) (k : Fin 4096) : ℕ := ((Memref.whole main_arg2).view.read (Elt F) (V c main_arg2) (ValueIdx.ix1 k)).toNat

/-- The zero word the body stores into its scratch and copies into the flag columns. -/
def zeroWord : Elt F .f32 := (k1_pay1 (F := F)) (ValueIdx.ix1 (0 : Fin 1))

/-- The row numbers of point `n`'s 16 rows. -/
def idsAt (ids : Fin 4096 → ℕ) (n : ℕ) (p : Fin 16) : ℕ := if h : 16 * n + p.val < 4096 then ids ⟨16 * n + p.val, h⟩ else 0

/-- The four tables after the first `n` points. -/
def tabU (c : Dev nD) : ℕ → Vec F S200000x128 .f32
  | 0 => (Memref.whole main_v1_0).view.read (Elt F) (V c main_v1_0)
  | n + 1 => if h : n < (cfg1 a1).N then rows16_128 (tabU c n) (idsAt (idU V c) n) (iblk1 a1 V c 0 ⟨n, h⟩) else tabU c n
def tabI (c : Dev nD) : ℕ → Vec F S200000x128 .f32
  | 0 => (Memref.whole main_v1_1).view.read (Elt F) (V c main_v1_1)
  | n + 1 => if h : n < (cfg1 a1).N then rows16_128 (tabI c n) (idsAt (idI V c) n) (iblk1 a1 V c 1 ⟨n, h⟩) else tabI c n
def flagU (c : Dev nD) : ℕ → Vec F S200000x1 .f32
  | 0 => (Memref.whole main_v1_2).view.read (Elt F) (V c main_v1_2)
  | n + 1 => rowsConst16 (flagU c n) (idsAt (idU V c) n) (zeroWord (F := F))
def flagI (c : Dev nD) : ℕ → Vec F S200000x1 .f32
  | 0 => (Memref.whole main_v1_3).view.read (Elt F) (V c main_v1_3)
  | n + 1 => rowsConst16 (flagI c n) (idsAt (idI V c) n) (zeroWord (F := F))

/-- The body's own four DMA semaphores. -/
abbrev osem1 : Fin 4 → SemLoc sig := fun j => (![SemLoc.dma 43, SemLoc.dma 44, SemLoc.dma 45, SemLoc.dma 46] : Fin 4 → SemLoc sig) j

/-- The region's invariant before point `n`: the scoped buffers the pipeline does not stage (the scratch word among them)
    at some contents, the generator register at some state, the body's four cells at zero, the two tables of row numbers
    held, and the four tables at what the first `n` points leave. -/
def Phi1 (c : Dev nD) (n : ℕ) : sProp 𝕄 :=
  iprop(Pipeline.scopedRest (Ix := Unit) (Name := ℕ) (U := Pipeline.UD sig nD τ) (Lvl := ℕ) (Val := Elt F) spec1 c
    ∗ (∃ r, prngReg c r)
    ∗ Pipeline.ownSems0 (Ix := Unit) (Name := ℕ) (U := Pipeline.UD sig nD τ) (Lvl := ℕ) (Val := Elt F) (τ := τ) osem1 c
    ∗ Pipeline.prefHeld (Ix := Unit) (Name := ℕ) (U := Pipeline.UD sig nD τ) (Lvl := ℕ) pre1 c (fun _ => fullShare) a1.1
    ∗ owns (c : Thread nD τ) (Memref.whole main_v1_0) fullShare (tabU a1 V c n)
    ∗ owns (c : Thread nD τ) (Memref.whole main_v1_1) fullShare (tabI a1 V c n)
    ∗ owns (c : Thread nD τ) (Memref.whole main_v1_2) fullShare (flagU V c n)
    ∗ owns (c : Thread nD τ) (Memref.whole main_v1_3) fullShare (flagI V c n))

/-- The proof data of the scatter region on core `c`: the two input windows' arrays as the region finds them, each
    input's buffer left at its block, the invariant above, nothing owed, full shares. -/
def dat1 (c : Dev nD) : Dat τ (Elt F) Unit ℕ (Pipeline.UD sig nD τ) ℕ (cfg1 a1) c where
  A w := V c (Pipeline.arrRef spec1 w)
  after w t := iblk1 a1 V c w t
  Φ n := Phi1 a1 V c n.val
  q _ := fullShare
  owed _ := 0

end Region

end Cert.KernelIdeal.Hand

end
-- ==== Proof.KI.Segs.lean ====
/- The two kernel regions as segments of @main, and the run's values. The tables both regions prefetch are @main's
   arguments, so their admissible contents are read off the launch memory. The first region enters from the launch
   contents and leaves its six result arrays at what its pipeline's write-backs fold to; the four host copies put the
   four tables into the buffers the second region overwrites; the second region enters from there and leaves those four
   buffers at what its 256 points write. Each region's record sorts its thread state (every buffer that outlives a
   region, whole, beside the generator register and the core's dues) into the pipeline's arrays, the prefetched tables,
   what enters the region invariant and what bypasses the region, and back. -/
import proofs.«423553_j10307921510829_1_alg».proof.Proof.KI.RunCond
import proofs.«423553_j10307921510829_1_alg».proof.Proof.KI.Data0
import proofs.«423553_j10307921510829_1_alg».proof.Proof.KI.Data1
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The tables' contents, the buffers' contents at the boundaries, the proof data -/

/-- The prefetched tables of both regions are arguments of @main: their admissible contents are the launch memory's
    (on the one core), and the side conditions on them are trivial. -/
def adm : (p : Fin 2) → (pcfgs (F := F) p).Adm
  | ⟨0, _⟩ => ⟨fun k => m (((0 : Dev nD) : Thread nD τ).loc (pre0.ref k)), trivial⟩
  | ⟨1, _⟩ => ⟨fun k => m (((0 : Dev nD) : Thread nD τ).loc (pre1.ref k)), trivial⟩

/-- The first region's tables, and the second's. -/
abbrev adm0 : (pcfg0 (F := F)).Adm := adm m 0
abbrev adm1 : (pcfg1 (F := F)).Adm := adm m 1

/-- Core `c`'s buffers at launch, read at the TensorCore's references: what the first region finds. -/
abbrev U0 (c : Dev nD) (b : Ref sig .tc) : Buf (Elt F) ((c : Thread nD τ).loc b) := V0 m c b

variable (hids : ∀ c, IdsOk (U0 m) c)

/-- After the first region: its arrays at what the pipeline leaves (an input as entered, an output its write-backs
    folded), every other buffer as launched. -/
def W1 (c : Dev nD) : Valuation τ sig (Elt F) :=
  Pipeline.withArrays spec0 c (V0 m c) fun w => (dat0 (adm0 m) (U0 m) c (hids c)).arrAt w (cfg0 (adm0 m)).N

/-- The first region's part of what the regions leave. -/
def outs1 : Outs (F := F) := fun _ r c => W1 m hids c r

/-- Core `c`'s buffers after the four host copies, read at the TensorCore's references: what the second region finds. -/
abbrev U2 (c : Dev nD) (b : Ref sig .tc) : Buf (Elt F) ((c : Thread nD τ).loc b) := V2 m (outs1 m hids) c b

/-- After the second region: the four tables at what its 256 points leave, every other buffer as it found it. -/
def W3 (c : Dev nD) : Valuation τ sig (Elt F) :=
  Function.update (Function.update (Function.update (Function.update (V2 m (outs1 m hids) c)
    main_v1_0 (tabU (adm1 m) (U2 m hids) c 256)) main_v1_1 (tabI (adm1 m) (U2 m hids) c 256))
    main_v1_2 (flagU (U2 m hids) c 256)) main_v1_3 (flagI (U2 m hids) c 256)

/-- What the regions leave: after the first region (boundary 1) its six results, after the second (boundary 3) the
    four tables. -/
def outs : Outs (F := F) := fun J r c =>
  match J with
  | 3 => W3 m hids c r
  | _ => W1 m hids c r

theorem outs_one (r : Ref sig .tc) (c : Dev nD) : outs m hids 1 r c = W1 m hids c r := rfl
theorem outs_three (r : Ref sig .tc) (c : Dev nD) : outs m hids 3 r c = W3 m hids c r := rfl
/-- The first boundary reads the first region's part only. -/
theorem V1_outs (c : Dev nD) : V1 m (outs m hids) c = V1 m (outs1 m hids) c := rfl
theorem V2_outs (c : Dev nD) : V2 m (outs m hids) c = V2 m (outs1 m hids) c := rfl

/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (adm0 m) (U0 m) c (hids c)
  | ⟨1, _⟩ => fun c => dat1 (adm1 m) (U2 m hids) c

/-! ## The buffers a region holds itself -/

/-- The four tables the second region overwrites. -/
def T1 : Finset (Ref sig .tc) := {main_v1_0, main_v1_1, main_v1_2, main_v1_3}
/-- They bypass the second pipeline: unscoped, no window's array, no prefetched table. -/
theorem T1_sub : T1 ⊆ Pipeline.restRefsP sig pre1 spec1 := by decide
/-- So do the six tables the first region gathers rows from. -/
theorem H0_sub : H0 ⊆ Pipeline.restRefsP sig pre0 spec0 := by decide
/-- The four tables one by one. -/
theorem bigSep_T1 {M : Type} [URA M] (Φ : Ref sig .tc → sProp M) :
    bigSep T1 Φ = iprop(Φ main_v1_0 ∗ Φ main_v1_1 ∗ Φ main_v1_2 ∗ Φ main_v1_3) :=
  bigSep_eq_bigSepL_of_eq [main_v1_0, main_v1_1, main_v1_2, main_v1_3] (by decide) (by decide) Φ
/-- The kernels' own DMA semaphores are scoped, distinct, and no staging cell's. -/
theorem ownSemFacts0 : Pipeline.OwnSemFacts spec0 osem0 := by decide
theorem ownSemFacts1 : Pipeline.OwnSemFacts spec1 osem1 := by decide

/-! ## The boundaries' valuations at the buffers the regions change -/

/-- Distinct references are distinct device buffers. -/
private theorem dne {x y : Ref sig .tc} (h : x ≠ y) : (Proc.devRef .tc x : DevRef τ sig) ≠ Proc.devRef .tc y :=
  StableHlo.devRef_ne_of_ne h

section Values

variable (os : Outs (F := F)) (c : Dev nD)

/-- After the first region each of its six results holds what the region is said to leave there. -/
theorem V1_out (r : Ref sig .tc)
    (hr : r ∈ ([main_v0_0, main_v0_1, main_v0_2, main_v0_3, main_v0_4, main_v0_5] : List (Ref sig .tc))) :
    V1 m os c r = os 1 r c := by
  simp only [List.mem_cons, List.not_mem_nil, or_false] at hr
  rcases hr with rfl | rfl | rfl | rfl | rfl | rfl <;>
  simp only [V1, Function.update_self,
    Function.update_of_ne (dne (by decide : main_v0_0 ≠ main_v0_1)), Function.update_of_ne (dne (by decide : main_v0_0 ≠ main_v0_2)),
    Function.update_of_ne (dne (by decide : main_v0_0 ≠ main_v0_3)), Function.update_of_ne (dne (by decide : main_v0_0 ≠ main_v0_4)),
    Function.update_of_ne (dne (by decide : main_v0_0 ≠ main_v0_5)), Function.update_of_ne (dne (by decide : main_v0_1 ≠ main_v0_2)),
    Function.update_of_ne (dne (by decide : main_v0_1 ≠ main_v0_3)), Function.update_of_ne (dne (by decide : main_v0_1 ≠ main_v0_4)),
    Function.update_of_ne (dne (by decide : main_v0_1 ≠ main_v0_5)), Function.update_of_ne (dne (by decide : main_v0_2 ≠ main_v0_3)),
    Function.update_of_ne (dne (by decide : main_v0_2 ≠ main_v0_4)), Function.update_of_ne (dne (by decide : main_v0_2 ≠ main_v0_5)),
    Function.update_of_ne (dne (by decide : main_v0_3 ≠ main_v0_4)), Function.update_of_ne (dne (by decide : main_v0_3 ≠ main_v0_5)),
    Function.update_of_ne (dne (by decide : main_v0_4 ≠ main_v0_5))]

/-- After the second region each of its four tables holds what the region is said to leave there. -/
theorem V3_out (r : Ref sig .tc) (hr : r ∈ ([main_v1_0, main_v1_1, main_v1_2, main_v1_3] : List (Ref sig .tc))) :
    V3 m os c r = os 3 r c := by
  simp only [List.mem_cons, List.not_mem_nil, or_false] at hr
  rcases hr with rfl | rfl | rfl | rfl <;>
  simp only [V3, Function.update_self,
    Function.update_of_ne (dne (by decide : main_v1_0 ≠ main_v1_1)), Function.update_of_ne (dne (by decide : main_v1_0 ≠ main_v1_2)),
    Function.update_of_ne (dne (by decide : main_v1_0 ≠ main_v1_3)), Function.update_of_ne (dne (by decide : main_v1_1 ≠ main_v1_2)),
    Function.update_of_ne (dne (by decide : main_v1_1 ≠ main_v1_3)), Function.update_of_ne (dne (by decide : main_v1_2 ≠ main_v1_3))]

end Values

section Tables

variable (c : Dev nD)

/-- The four tables after the second region, buffer by buffer. -/
theorem W3_v1_0 : W3 m hids c main_v1_0 = tabU (adm1 m) (U2 m hids) c 256 := by
  simp only [W3, Function.update_self,
    Function.update_of_ne (dne (by decide : main_v1_0 ≠ main_v1_1)), Function.update_of_ne (dne (by decide : main_v1_0 ≠ main_v1_2)),
    Function.update_of_ne (dne (by decide : main_v1_0 ≠ main_v1_3))]
theorem W3_v1_1 : W3 m hids c main_v1_1 = tabI (adm1 m) (U2 m hids) c 256 := by
  simp only [W3, Function.update_self,
    Function.update_of_ne (dne (by decide : main_v1_1 ≠ main_v1_2)), Function.update_of_ne (dne (by decide : main_v1_1 ≠ main_v1_3))]
theorem W3_v1_2 : W3 m hids c main_v1_2 = flagU (U2 m hids) c 256 := by
  simp only [W3, Function.update_self, Function.update_of_ne (dne (by decide : main_v1_2 ≠ main_v1_3))]
theorem W3_v1_3 : W3 m hids c main_v1_3 = flagI (U2 m hids) c 256 := by
  simp only [W3, Function.update_self]

theorem V3_v1_0 : V3 m (outs m hids) c main_v1_0 = tabU (adm1 m) (U2 m hids) c 256 :=
  (V3_out m _ c main_v1_0 (by decide)).trans ((outs_three m hids main_v1_0 c).trans (W3_v1_0 m hids c))
theorem V3_v1_1 : V3 m (outs m hids) c main_v1_1 = tabI (adm1 m) (U2 m hids) c 256 :=
  (V3_out m _ c main_v1_1 (by decide)).trans ((outs_three m hids main_v1_1 c).trans (W3_v1_1 m hids c))
theorem V3_v1_2 : V3 m (outs m hids) c main_v1_2 = flagU (U2 m hids) c 256 :=
  (V3_out m _ c main_v1_2 (by decide)).trans ((outs_three m hids main_v1_2 c).trans (W3_v1_2 m hids c))
theorem V3_v1_3 : V3 m (outs m hids) c main_v1_3 = flagI (U2 m hids) c 256 :=
  (V3_out m _ c main_v1_3 (by decide)).trans ((outs_three m hids main_v1_3 c).trans (W3_v1_3 m hids c))

/-- What the first region's pipeline leaves in its arrays is what `W1` holds there. -/
theorem W1_arr (w : Fin 22) :
    W1 m hids c (Proc.devRef .tc (Pipeline.arrRef spec0 w)) = (dat0 (adm0 m) (U0 m) c (hids c)).arrAt w (cfg0 (adm0 m)).N := by
  unfold W1; exact Pipeline.withArrays_arr spec0 winFacts0.arr_inj c _ _ w

/-- An input window's array is never written: at the first region's exit it holds what it held at launch. -/
theorem V1_arr_in (w : Fin 22) (hr : Pipeline.arrRef spec0 w ∉ ([main_v0_0, main_v0_1, main_v0_2, main_v0_3, main_v0_4, main_v0_5] : List (Ref sig .tc)))
    (hin : ((cfg0 (adm0 m)).win w).isOut = false) :
    V1 m (outs m hids) c (Pipeline.arrRef spec0 w) = (dat0 (adm0 m) (U0 m) c (hids c)).arrAt w (cfg0 (adm0 m)).N :=
  (V1_of m _ c _ hr).trans ((dat0 (adm0 m) (U0 m) c (hids c)).arrAt_in w hin _).symm
/-- An output window's array holds its write-backs folded. -/
theorem V1_arr_out (w : Fin 22) (hr : Pipeline.arrRef spec0 w ∈ ([main_v0_0, main_v0_1, main_v0_2, main_v0_3, main_v0_4, main_v0_5] : List (Ref sig .tc))) :
    V1 m (outs m hids) c (Pipeline.arrRef spec0 w) = (dat0 (adm0 m) (U0 m) c (hids c)).arrAt w (cfg0 (adm0 m)).N :=
  (V1_out m _ c _ hr).trans ((outs_one m hids _ c).trans (W1_arr m hids c w))

/-- The first region's arrays at its exit: an input as entered, an output at its write-backs folded. -/
theorem V1_arr : ∀ w : Fin 22,
    V1 m (outs m hids) c (Pipeline.arrRef spec0 w) = (dat0 (adm0 m) (U0 m) c (hids c)).arrAt w (cfg0 (adm0 m)).N
  | 0 => V1_arr_in m hids c 0 (by decide) rfl | 1 => V1_arr_in m hids c 1 (by decide) rfl
  | 2 => V1_arr_in m hids c 2 (by decide) rfl | 3 => V1_arr_in m hids c 3 (by decide) rfl
  | 4 => V1_arr_in m hids c 4 (by decide) rfl | 5 => V1_arr_in m hids c 5 (by decide) rfl
  | 6 => V1_arr_in m hids c 6 (by decide) rfl | 7 => V1_arr_in m hids c 7 (by decide) rfl
  | 8 => V1_arr_in m hids c 8 (by decide) rfl | 9 => V1_arr_in m hids c 9 (by decide) rfl
  | 10 => V1_arr_in m hids c 10 (by decide) rfl | 11 => V1_arr_in m hids c 11 (by decide) rfl
  | 12 => V1_arr_in m hids c 12 (by decide) rfl | 13 => V1_arr_in m hids c 13 (by decide) rfl
  | 14 => V1_arr_in m hids c 14 (by decide) rfl | 15 => V1_arr_in m hids c 15 (by decide) rfl
  | 16 => V1_arr_out m hids c 16 (by decide) | 17 => V1_arr_out m hids c 17 (by decide)
  | 18 => V1_arr_out m hids c 18 (by decide) | 19 => V1_arr_out m hids c 19 (by decide)
  | 20 => V1_arr_out m hids c 20 (by decide) | 21 => V1_arr_out m hids c 21 (by decide)
  | ⟨_ + 22, h⟩ => absurd h (Nat.not_lt.2 (Nat.le_add_left _ _))

/-- Off the first region's arrays nothing has changed. -/
theorem V1_rest (b : Ref sig .tc) (hb : b ∉ Finset.univ.image (Pipeline.arrRef spec0)) : V1 m (outs m hids) c b = V0 m c b :=
  V1_of m _ c b fun h => hb (by
    simp only [List.mem_cons, List.not_mem_nil, or_false] at h
    rcases h with rfl | rfl | rfl | rfl | rfl | rfl
    · exact Finset.mem_image.mpr ⟨16, Finset.mem_univ _, rfl⟩
    · exact Finset.mem_image.mpr ⟨17, Finset.mem_univ _, rfl⟩
    · exact Finset.mem_image.mpr ⟨18, Finset.mem_univ _, rfl⟩
    · exact Finset.mem_image.mpr ⟨19, Finset.mem_univ _, rfl⟩
    · exact Finset.mem_image.mpr ⟨20, Finset.mem_univ _, rfl⟩
    · exact Finset.mem_image.mpr ⟨21, Finset.mem_univ _, rfl⟩)

/-- The second region's two arrays are inputs: at its exit they hold what it found. -/
theorem V3_arr : ∀ w : Fin 2,
    V3 m (outs m hids) c (Pipeline.arrRef spec1 w) = (dat1 (adm1 m) (U2 m hids) c).arrAt w (cfg1 (adm1 m)).N
  | 0 => (V3_of m _ c main_v0_2 (by decide)).trans ((dat1 (adm1 m) (U2 m hids) c).arrAt_in 0 rfl _).symm
  | 1 => (V3_of m _ c main_v0_4 (by decide)).trans ((dat1 (adm1 m) (U2 m hids) c).arrAt_in 1 rfl _).symm
  | ⟨_ + 2, h⟩ => absurd h (Nat.not_lt.2 (Nat.le_add_left _ _))

/-- The second region changes its four tables only. -/
theorem V3_rest (b : Ref sig .tc) (hb : b ∉ T1) : V3 m (outs m hids) c b = U2 m hids c b :=
  V3_of m _ c b fun h => hb (by
    simp only [List.mem_cons, List.not_mem_nil, or_false] at h
    rcases h with rfl | rfl | rfl | rfl <;> decide)

end Tables

/-! ## What rides beside the buffers, and the tables read off the boundaries' contents -/

/-- No core owes another anything: no level is assigned. -/
abbrev noL : GSem nD τ sig → Finset Unit := fun _ => ∅
abbrev noLv : GSem nD τ sig → Unit → ℕ := fun _ _ => 0
/-- What rides beside the buffers through every segment: the core's generator register at some state and its dues, at
    nothing. -/
abbrev Rest (c : Dev nD) : sProp 𝕄 :=
  iprop((∃ r, prngReg c r) ∗ ∃ W, owes (c : Thread nD τ) (0 : CellTallies nD τ sig Unit) W)

/-- There is one core: the first region's tables are what that core's buffers hold at launch, -/
theorem adm0_val (c : Dev nD) : (adm0 m).1 = fun k => U0 m c (pre0.ref k) := by
  obtain rfl : c = 0 := Subsingleton.elim c 0
  rfl
/-- the second region's what they hold when it is entered (no region and no host copy writes an argument), -/
theorem adm1_val2 (c : Dev nD) : (adm1 m).1 = fun k => U2 m hids c (pre1.ref k) := by
  obtain rfl : c = 0 := Subsingleton.elim c 0
  funext k
  match k with
  | ⟨0, _⟩ => exact ((V2_of m _ 0 main_arg0 (by decide)).trans (V1_of m _ 0 main_arg0 (by decide))).symm
  | ⟨1, _⟩ => exact ((V2_of m _ 0 main_arg2 (by decide)).trans (V1_of m _ 0 main_arg2 (by decide))).symm
/-- and when it is left. -/
theorem adm1_val3 (c : Dev nD) : (adm1 m).1 = fun k => (V3 m (outs m hids) c (pre1.ref k) : Buf (Elt F) ((c : Thread nD τ).loc (pre1.ref k))) := by
  obtain rfl : c = 0 := Subsingleton.elim c 0
  funext k
  match k with
  | ⟨0, _⟩ => exact (V3_main_arg0 m _ 0).symm
  | ⟨1, _⟩ => exact (V3_main_arg2 m _ 0).symm

/-- The buffers that bypass the first pipeline, sorted: the three tables of row numbers, the six tables the body gathers
    from, the others. -/
theorem rest0_eq (c : Dev nD) :
    (Pipeline.unscopedRest (Ix := Unit) (Name := ℕ) (U := Pipeline.UD sig nD τ) (Lvl := ℕ) spec0 c (U0 m c) : sProp 𝕄)
      = iprop(Pipeline.prefHeld pre0 c (fun _ => fullShare) (adm0 m).1
          ∗ (bigSep H0 fun b => ((c : Thread nD τ).loc b) ↦{fullShare} U0 m c b)
          ∗ bigSep (Pipeline.restRefsP sig pre0 spec0 \ H0) fun b => ((c : Thread nD τ).loc b) ↦{fullShare} U0 m c b) := by
  rw [Pipeline.unscopedRest_split preFacts0 c (U0 m c), Pipeline.unscopedRestP_sdiff pre0 spec0 H0 H0_sub c (U0 m c), adm0_val m c]

/-! ## The regions as segments -/

set_option backward.isDefEq.respectTransparency.types false in
/-- THE FIRST REGION over the thread state: entered from every buffer at its launch contents, left with its six results at
    what the pipeline's write-backs fold to. Its arrays are split out of the buffers and put back at the exit contents; the
    three tables of row numbers go to the pipeline and the invariant and come back; the six gathered tables, the generator
    register and the body's nine cells enter the invariant and come back; nothing is owed. -/
def reg0 (hbody0 : ∀ c, BodyObligation (dat0 (adm0 m) (U0 m) c (hids c)) (defs₀ (F := F)) Variants.none () Set.univ) :
    Pipeline.RegionSeg (pcfgs (F := F)) (adm m) (pdats m hids) () defs₀ Variants.none noL noLv 0 where
  win := winFacts0.to₀
  block_pos := block_pos0
  stage_whole := stage_whole0
  K := Fin 9
  osem := osem0
  ho := ownSemFacts0
  hbody c := (hbody0 c).loose
  hwaits := Pipeline.hwaits_of_owed_zero _ _ _ _ noL noLv 0 fun _ _ => rfl
  pre c := iprop(StableHlo.held (c : Thread nD τ) (Pipeline.ucRefs τ sig) (V0 m c) ∗ Rest c)
  post c := iprop(StableHlo.held (c : Thread nD τ) (Pipeline.ucRefs τ sig) (V1 m (outs m hids) c) ∗ Rest c)
  X c := iprop((∃ r, prngReg c r)
    ∗ Pipeline.ownSems0 (Ix := Unit) (Name := ℕ) (U := Pipeline.UD sig nD τ) (Lvl := ℕ) (Val := Elt F) (τ := τ) osem0 c
    ∗ bigSep H0 fun b => ((c : Thread nD τ).loc b) ↦{fullShare} U0 m c b)
  Y c := iprop(((∃ r, prngReg c r) ∗ bigSep H0 fun b => ((c : Thread nD τ).loc b) ↦{fullShare} U0 m c b)
    ∗ Pipeline.prefHeld pre0 c (fun _ => fullShare) (adm0 m).1)
  Z c := bigSep (Pipeline.restRefsP sig pre0 spec0 \ H0) fun b => ((c : Thread nD τ).loc b) ↦{fullShare} U0 m c b
  hentry c := by
    have hsplit := Pipeline.arrays_of_unscopedBufs (p := 0) (pcfgs (F := F)) (adm m) (pdats m hids) winFacts0 arr_whole0 c
      ((pdats m hids 0 c).share_full fun _ => rfl) (U0 m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest0_eq m c)) $$ Hrest
    icases H' with ⟨Hpf, HH, HZ⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HZ
  hin c := by
    rw [show (pdats m hids 0 c).Φ 0 = Phi0 (adm0 m) (U0 m) c from rfl]
    unfold Phi0; rw [Pipeline.ΦD_eq]
    iintro ⟨⟨Hp, Ho, HH⟩, Hpf, Hr⟩
    isplitr [Hpf]
    · isplitl [Hr]; · iexact Hr
      isplitl [Hp]; · iexact Hp
      isplitl [Ho]; · iexact Ho
      iexact HH
    iexact Hpf
  hout c := by
    rw [show (pdats m hids 0 c).Φ (Fin.last _) = Phi0 (adm0 m) (U0 m) c from rfl]
    unfold Phi0; rw [Pipeline.ΦD_eq]
    iintro ⟨⟨Hr, Hp, Ho, HH⟩, Hpf⟩
    isplitl [Hp HH Hpf]
    · isplitl [Hp HH]
      · isplitl [Hp]; · iexact Hp
        iexact HH
      iexact Hpf
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      winFacts0 arr_whole0 c (pdats m hids) ((pdats m hids 0 c).share_full fun _ => rfl)
      (U0 m c) (fun b => V1 m (outs m hids) c b) ((pdats m hids 0 c).arrAt · (cfg0 (adm0 m)).N)
      (fun w => (V1_arr m hids c w).symm) (V1_rest m hids c)
    rw [Pipeline.unscopedBufs_held] at hjoin
    iintro ⟨Ha, HO, ⟨⟨Hp, HH⟩, Hpf⟩, HZ⟩
    ihave Hrest := (Entails.of_eq (rest0_eq m c).symm) $$ [Hpf HH HZ]
    · isplitl [Hpf]; · iexact Hpf
      isplitl [HH]; · iexact HH
      iexact HZ
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The four tables the second region overwrites, owned whole at what the first `n` points leave. -/
def tabs (c : Dev nD) (n : ℕ) : sProp 𝕄 :=
  iprop(owns (c : Thread nD τ) (Memref.whole main_v1_0) fullShare (tabU (adm1 m) (U2 m hids) c n)
    ∗ owns (c : Thread nD τ) (Memref.whole main_v1_1) fullShare (tabI (adm1 m) (U2 m hids) c n)
    ∗ owns (c : Thread nD τ) (Memref.whole main_v1_2) fullShare (flagU (U2 m hids) c n)
    ∗ owns (c : Thread nD τ) (Memref.whole main_v1_3) fullShare (flagI (U2 m hids) c n))

/-- The buffers that bypass the second pipeline, sorted, at its entry: the two tables of row numbers, the four tables it
    overwrites (a whole buffer's contents are its index function: before any point they hold what the host copies put
    there), the others. -/
theorem rest1_eq (c : Dev nD) :
    (Pipeline.unscopedRest (Ix := Unit) (Name := ℕ) (U := Pipeline.UD sig nD τ) (Lvl := ℕ) spec1 c (U2 m hids c) : sProp 𝕄)
      = iprop(Pipeline.prefHeld pre1 c (fun _ => fullShare) (adm1 m).1
          ∗ tabs m hids c 0
          ∗ bigSep (Pipeline.restRefsP sig pre1 spec1 \ T1) fun b => ((c : Thread nD τ).loc b) ↦{fullShare} U2 m hids c b) := by
  rw [Pipeline.unscopedRest_split preFacts1 c (U2 m hids c), Pipeline.unscopedRestP_sdiff pre1 spec1 T1 T1_sub c (U2 m hids c),
    bigSep_T1, adm1_val2 m hids c]
  unfold tabs
  rw [owns_whole, owns_whole, owns_whole, owns_whole]
  rfl

/-- The same buffers at its exit, under the last boundary's contents: the four tables at what the 256 points leave, every
    other one as the region found it. -/
theorem exit1_eq (c : Dev nD) :
    (Pipeline.unscopedRest (Ix := Unit) (Name := ℕ) (U := Pipeline.UD sig nD τ) (Lvl := ℕ) spec1 c (fun b => V3 m (outs m hids) c b) : sProp 𝕄)
      = iprop(Pipeline.prefHeld pre1 c (fun _ => fullShare) (adm1 m).1
          ∗ tabs m hids c 256
          ∗ bigSep (Pipeline.restRefsP sig pre1 spec1 \ T1) fun b => ((c : Thread nD τ).loc b) ↦{fullShare} U2 m hids c b) := by
  have hrest : (bigSep (Pipeline.restRefsP sig pre1 spec1 \ T1) fun b => ((c : Thread nD τ).loc b) ↦{fullShare} V3 m (outs m hids) c b : sProp 𝕄)
      = bigSep (Pipeline.restRefsP sig pre1 spec1 \ T1) fun b => ((c : Thread nD τ).loc b) ↦{fullShare} U2 m hids c b :=
    bigSep_congr fun b hb => by rw [V3_rest m hids c b (Finset.mem_sdiff.mp hb).2]
  rw [Pipeline.unscopedRest_split preFacts1 c (fun b => V3 m (outs m hids) c b),
    Pipeline.unscopedRestP_sdiff pre1 spec1 T1 T1_sub c (fun b => V3 m (outs m hids) c b), hrest, bigSep_T1, adm1_val3 m hids c,
    V3_v1_0 m hids c, V3_v1_1 m hids c, V3_v1_2 m hids c, V3_v1_3 m hids c]
  unfold tabs
  rw [owns_whole, owns_whole, owns_whole, owns_whole]

set_option backward.isDefEq.respectTransparency.types false in
/-- THE SECOND REGION over the thread state: entered from every buffer at what the host copies leave, left with its four
    tables at what its 256 points write. Its two arrays (inputs) are split out of the buffers and put back unchanged; the two
    tables of row numbers go to the pipeline and the invariant and come back; the four tables it overwrites, the generator
    register and the body's four cells enter the invariant, the tables at their entry contents, and come back, the tables at
    their final contents; nothing is owed. -/
def reg1 (hbody1 : ∀ c, BodyObligation (dat1 (adm1 m) (U2 m hids) c) (defs₀ (F := F)) Variants.none () Set.univ) :
    Pipeline.RegionSeg (pcfgs (F := F)) (adm m) (pdats m hids) () defs₀ Variants.none noL noLv 1 where
  win := winFacts1.to₀
  block_pos := block_pos1
  stage_whole := stage_whole1
  K := Fin 4
  osem := osem1
  ho := ownSemFacts1
  hbody c := (hbody1 c).loose
  hwaits := Pipeline.hwaits_of_owed_zero _ _ _ _ noL noLv 1 fun _ _ => rfl
  pre c := iprop(StableHlo.held (c : Thread nD τ) (Pipeline.ucRefs τ sig) (V2 m (outs m hids) c) ∗ Rest c)
  post c := iprop(StableHlo.held (c : Thread nD τ) (Pipeline.ucRefs τ sig) (V3 m (outs m hids) c) ∗ Rest c)
  X c := iprop((∃ r, prngReg c r)
    ∗ Pipeline.ownSems0 (Ix := Unit) (Name := ℕ) (U := Pipeline.UD sig nD τ) (Lvl := ℕ) (Val := Elt F) (τ := τ) osem1 c
    ∗ tabs m hids c 0)
  Y c := iprop(((∃ r, prngReg c r) ∗ tabs m hids c 256) ∗ Pipeline.prefHeld pre1 c (fun _ => fullShare) (adm1 m).1)
  Z c := bigSep (Pipeline.restRefsP sig pre1 spec1 \ T1) fun b => ((c : Thread nD τ).loc b) ↦{fullShare} U2 m hids c b
  hentry c := by
    have hsplit := Pipeline.arrays_of_unscopedBufs (p := 1) (pcfgs (F := F)) (adm m) (pdats m hids) winFacts1 arr_whole1 c
      ((pdats m hids 1 c).share_full fun _ => rfl) (U2 m hids c) fun _ => rfl
    rw [Pipeline.unscopedBufs_held, ← V2_outs m hids c] at hsplit
    iintro ⟨⟨Hub, Hp, HO⟩, Hos, -⟩
    ihave H := hsplit $$ Hub
    icases H with ⟨Ha, Hrest⟩
    ihave H' := (Entails.of_eq (rest1_eq m hids c)) $$ Hrest
    icases H' with ⟨Hpf, HT, HZ⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp Hos HT]
    · isplitl [Hp]; · iexact Hp
      isplitl [Hos]; · iexact Hos
      iexact HT
    iexact HZ
  hin c := by
    rw [show (pdats m hids 1 c).Φ 0 = Phi1 (adm1 m) (U2 m hids) c 0 from rfl]
    unfold Phi1 tabs
    iintro ⟨⟨Hp, Ho, Ht⟩, Hpf, Hr⟩
    isplitl [Hr]; · iexact Hr
    isplitl [Hp]; · iexact Hp
    isplitl [Ho]; · iexact Ho
    isplitl [Hpf]; · iexact Hpf
    iexact Ht
  hout c := by
    rw [show (pdats m hids 1 c).Φ (Fin.last _) = Phi1 (adm1 m) (U2 m hids) c 256 from rfl]
    unfold Phi1 tabs
    iintro ⟨Hr, Hp, Ho, Hpf, Ht⟩
    isplitl [Hp Ht Hpf]
    · isplitl [Hp Ht]
      · isplitl [Hp]; · iexact Hp
        iexact Ht
      iexact Hpf
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      winFacts1 arr_whole1 c (pdats m hids) ((pdats m hids 1 c).share_full fun _ => rfl)
      (fun b => V3 m (outs m hids) c b) (fun b => V3 m (outs m hids) c b) ((pdats m hids 1 c).arrAt · (cfg1 (adm1 m)).N)
      (fun w => (V3_arr m hids c w).symm) (fun _ _ => rfl)
    rw [Pipeline.unscopedBufs_held] at hjoin
    iintro ⟨Ha, HO, ⟨⟨Hp, Ht⟩, Hpf⟩, HZ⟩
    ihave Hrest := (Entails.of_eq (exit1_eq m hids c).symm) $$ [Hpf Ht HZ]
    · isplitl [Hpf]; · iexact Hpf
      isplitl [Ht]; · iexact Ht
      iexact HZ
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The run -/

set_option backward.isDefEq.respectTransparency.types false in
/-- THE RUN'S VALUES. Given the two kernel bodies' obligations (each at its region's entry contents) and the row numbers
    in range, every weakly fair execution of @main from memory `m` with zero counters terminates, and in the final memory
    every buffer that outlives a region holds what the last boundary's valuation says: the arguments their launch contents,
    the first region's six results what its pipeline's write-backs fold to, the four tables what the second region's 256
    points leave. -/
theorem run_values (ρ : Dev nD → PrngReg)
    (hbody0 : ∀ c, BodyObligation (dat0 (adm0 m) (U0 m) c (hids c)) (defs₀ (F := F)) Variants.none () Set.univ)
    (hbody1 : ∀ c, BodyObligation (dat1 (adm1 m) (U2 m hids) c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = V3 m (outs m hids) c b) :=
  run_cond m (Ix := Unit) (U := Pipeline.UD sig nD τ) (Lvl := ℕ) embL () Variants.none noL noLv (fun _ _ => rfl) ρ (outs m hids) (adm m)
    (pdats m hids) (O₀ := 0) (G := fun _ => iprop(emp))
    (u₀ := (initOf (Pipeline.cells (Pipeline.pin (pcfgs (F := F)) (adm m)) (cellOf_inj (adm m)))
      (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ => Rest)
    (hE0 := by
      refine Pipeline.initEach noL noLv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m hids hbody0) (hpre0 := fun _ => .rfl) (hpost0 := fun _ => .rfl)
    (R1 := reg1 m hids hbody1) (hpre1 := fun _ => .rfl) (hpost1 := fun _ => .rfl)

/-- info: 'Cert.KernelIdeal.Hand.run_values' depends on axioms: [propext, Classical.choice, Quot.sound] -/
#guard_msgs in #print axioms run_values

end Cert.KernelIdeal.Hand

end
-- ==== Proof.KI.GatherRun.lean ====
/- The gather-and-compute kernel's body, run once at a symbolic grid point. At point t the body, for each of the 16
   rows r of the point in turn, reads the three table words u = user_id[16t + r], i = item_id[16t + r],
   p = prev_item_id[16t + r] and copies nine table rows into row r of nine gather buffers — all nine copies started, then
   all nine waited for, each on a cell of its own: the dynamic user row u, the dynamic item rows i and p, the static user
   row u, the static item rows i and p, the user flag u, the item flags i and p. Two of the tables are read by two
   copies in flight at once (rows i and p, which may be the same row): each is held as a remainder and two read tokens,
   one per reader, and made whole again at the end. Then it loads the nine gather buffers, the point's two time blocks
   and the weights, and stores its six output blocks. Given that every table word names a row, the run goes through; the
   pieces it leaves in the six output buffers are found by the run and are the value of this definition. -/
import proofs.«423553_j10307921510829_1_alg».proof.Proof.KI.Basics

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Whole buffer `b` held at share `q`. -/
abbrev heldAt (c : Dev nD) (b : Ref sig .tc) (q : PosShare TreeShare) (f : Bf (F := F) c (Memref.whole b)) : sProp 𝕄 :=
  (Memref.whole b).view.loc (c : Thread nD τ) ↦{q} f

/-- A whole buffer held at the full share is a remainder and two read tokens, -/
theorem toks2_split (c : Dev nD) (b : Ref sig .tc) (f : Bf (F := F) c (Memref.whole b)) :
    heldAt c b fullShare f ⊢ iprop(heldAt c b (Transfers.shareDrop fullShare 2) f ∗ heldAt c b (Transfers.shareTok fullShare 2 0) f
      ∗ heldAt c b (Transfers.shareTok fullShare 2 1) f) :=
  (Transfers.pointsTo_toks_split (Ix := Unit) (Name := ℕ) (U := Pipeline.UD sig nD τ) (Lvl := ℕ) fullShare 2).trans
    (Entails.of_eq (by rw [BI.bigSep_fin_two]; rfl))
/-- and back. -/
theorem toks2_join (c : Dev nD) (b : Ref sig .tc) (f : Bf (F := F) c (Memref.whole b)) :
    iprop(heldAt c b (Transfers.shareDrop fullShare 2) f ∗ heldAt c b (Transfers.shareTok fullShare 2 0) f
      ∗ heldAt c b (Transfers.shareTok fullShare 2 1) f) ⊢ heldAt c b fullShare f :=
  (show _ ⊢ _ from Entails.of_eq (by rw [BI.bigSep_fin_two]; rfl)).trans
    (Transfers.pointsTo_toks_join (Ix := Unit) (Name := ℕ) (U := Pipeline.UD sig nD τ) (Lvl := ℕ) fullShare 2)

set_option maxHeartbeats 40000000 in
/-- The pieces the body leaves in its six output buffers at point `t`, from the staged inputs, the three tables of row
    numbers, the six tables it gathers from and the gather buffers' contents before (each overwritten before it is
    read); with the proof that the body runs from those holdings to these. -/
noncomputable def gatherRun
    (c : Dev nD) (t : Fin grid0.N)
    (I0 : Memref sig .tc .vmem S16x1 .f32) (hI0 : I0.IsWhole) (x0 : Vec F S16x1 .f32)
    (I1 : Memref sig .tc .vmem S16x1 .f32) (hI1 : I1.IsWhole) (x1 : Vec F S16x1 .f32)
    (I2 : Memref sig .tc .vmem S1x128 .f32) (hI2 : I2.IsWhole) (x2 : Vec F S1x128 .f32)
    (I3 : Memref sig .tc .vmem S1x128 .f32) (hI3 : I3.IsWhole) (x3 : Vec F S1x128 .f32)
    (I4 : Memref sig .tc .vmem S128x129 .f32) (hI4 : I4.IsWhole) (x4 : Vec F S128x129 .f32)
    (I5 : Memref sig .tc .vmem S128x128 .f32) (hI5 : I5.IsWhole) (x5 : Vec F S128x128 .f32)
    (I6 : Memref sig .tc .vmem S128 .f32) (hI6 : I6.IsWhole) (x6 : Vec F S128 .f32)
    (I7 : Memref sig .tc .vmem S128 .f32) (hI7 : I7.IsWhole) (x7 : Vec F S128 .f32)
    (I8 : Memref sig .tc .vmem S128x129 .f32) (hI8 : I8.IsWhole) (x8 : Vec F S128x129 .f32)
    (I9 : Memref sig .tc .vmem S128x128 .f32) (hI9 : I9.IsWhole) (x9 : Vec F S128x128 .f32)
    (I10 : Memref sig .tc .vmem S128 .f32) (hI10 : I10.IsWhole) (x10 : Vec F S128 .f32)
    (I11 : Memref sig .tc .vmem S128 .f32) (hI11 : I11.IsWhole) (x11 : Vec F S128 .f32)
    (I12 : Memref sig .tc .vmem S256x512 .f32) (hI12 : I12.IsWhole) (x12 : Vec F S256x512 .f32)
    (I13 : Memref sig .tc .vmem S256 .f32) (hI13 : I13.IsWhole) (x13 : Vec F S256 .f32)
    (I14 : Memref sig .tc .vmem S128x1 .f32) (hI14 : I14.IsWhole) (x14 : Vec F S128x1 .f32)
    (I15 : Memref sig .tc .vmem S128 .f32) (hI15 : I15.IsWhole) (x15 : Vec F S128 .f32)
    (O0 : Memref sig .tc .vmem S16x256 .f32) (hO0 : O0.IsWhole)
    (O1 : Memref sig .tc .vmem S16x256 .f32) (hO1 : O1.IsWhole)
    (O2 : Memref sig .tc .vmem S16x128 .f32) (hO2 : O2.IsWhole)
    (O3 : Memref sig .tc .vmem S16x128 .f32) (hO3 : O3.IsWhole)
    (O4 : Memref sig .tc .vmem S16x128 .f32) (hO4 : O4.IsWhole)
    (O5 : Memref sig .tc .vmem S16x128 .f32) (hO5 : O5.IsWhole)
    (tb0 : Bf (F := F) c (Memref.whole main_arg0))
    (tb1 : Bf (F := F) c (Memref.whole main_arg2))
    (tb2 : Bf (F := F) c (Memref.whole main_arg1))
    (fh0 : Bf (F := F) c (Memref.whole main_arg5))
    (fh1 : Bf (F := F) c (Memref.whole main_arg6))
    (fh2 : Bf (F := F) c (Memref.whole main_arg9))
    (fh3 : Bf (F := F) c (Memref.whole main_arg10))
    (fh4 : Bf (F := F) c (Memref.whole main_arg7))
    (fh5 : Bf (F := F) c (Memref.whole main_arg8))
    (g0 : Bf (F := F) c (Memref.whole cc0_scratch0))
    (g1 : Bf (F := F) c (Memref.whole cc0_scratch1))
    (g2 : Bf (F := F) c (Memref.whole cc0_scratch2))
    (g3 : Bf (F := F) c (Memref.whole cc0_scratch3))
    (g4 : Bf (F := F) c (Memref.whole cc0_scratch4))
    (g5 : Bf (F := F) c (Memref.whole cc0_scratch5))
    (g6 : Bf (F := F) c (Memref.whole cc0_scratch6))
    (g7 : Bf (F := F) c (Memref.whole cc0_scratch7))
    (g8 : Bf (F := F) c (Memref.whole cc0_scratch8))
    (hT0 : RowWords c (Memref.whole main_arg0) tb0)
    (hT1 : RowWords c (Memref.whole main_arg2) tb1)
    (hT2 : RowWords c (Memref.whole main_arg1) tb2)
    : { L : List (View.Piece (Elt F) S16x256 .f32) × List (View.Piece (Elt F) S16x256 .f32) × List (View.Piece (Elt F) S16x128 .f32) × List (View.Piece (Elt F) S16x128 .f32) × List (View.Piece (Elt F) S16x128 .f32) × List (View.Piece (Elt F) S16x128 .f32) //
      ∀ (W : Waits sig Unit) (K : PUnit → sProp 𝕄),
        iprop(owns (c : Thread nD τ) I0 fullShare x0
            ∗ owns (c : Thread nD τ) I1 fullShare x1
            ∗ owns (c : Thread nD τ) I2 fullShare x2
            ∗ owns (c : Thread nD τ) I3 fullShare x3
            ∗ owns (c : Thread nD τ) I4 fullShare x4
            ∗ owns (c : Thread nD τ) I5 fullShare x5
            ∗ owns (c : Thread nD τ) I6 fullShare x6
            ∗ owns (c : Thread nD τ) I7 fullShare x7
            ∗ owns (c : Thread nD τ) I8 fullShare x8
            ∗ owns (c : Thread nD τ) I9 fullShare x9
            ∗ owns (c : Thread nD τ) I10 fullShare x10
            ∗ owns (c : Thread nD τ) I11 fullShare x11
            ∗ owns (c : Thread nD τ) I12 fullShare x12
            ∗ owns (c : Thread nD τ) I13 fullShare x13
            ∗ owns (c : Thread nD τ) I14 fullShare x14
            ∗ owns (c : Thread nD τ) I15 fullShare x15
            ∗ (∃ d, owns (c : Thread nD τ) O0 fullShare d)
            ∗ (∃ d, owns (c : Thread nD τ) O1 fullShare d)
            ∗ (∃ d, owns (c : Thread nD τ) O2 fullShare d)
            ∗ (∃ d, owns (c : Thread nD τ) O3 fullShare d)
            ∗ (∃ d, owns (c : Thread nD τ) O4 fullShare d)
            ∗ (∃ d, owns (c : Thread nD τ) O5 fullShare d)
            ∗ pt c (Memref.whole main_arg0) tb0
            ∗ pt c (Memref.whole main_arg2) tb1
            ∗ pt c (Memref.whole main_arg1) tb2
            ∗ pt c (Memref.whole main_arg5) fh0
            ∗ pt c (Memref.whole main_arg6) fh1
            ∗ pt c (Memref.whole main_arg9) fh2
            ∗ pt c (Memref.whole main_arg10) fh3
            ∗ pt c (Memref.whole main_arg7) fh4
            ∗ pt c (Memref.whole main_arg8) fh5
            ∗ pt c (Memref.whole cc0_scratch0) g0
            ∗ pt c (Memref.whole cc0_scratch1) g1
            ∗ pt c (Memref.whole cc0_scratch2) g2
            ∗ pt c (Memref.whole cc0_scratch3) g3
            ∗ pt c (Memref.whole cc0_scratch4) g4
            ∗ pt c (Memref.whole cc0_scratch5) g5
            ∗ pt c (Memref.whole cc0_scratch6) g6
            ∗ pt c (Memref.whole cc0_scratch7) g7
            ∗ pt c (Memref.whole cc0_scratch8) g8
            ∗ semVal ((c : Thread nD τ), SemLoc.dma (30 : DmaSem sig)) 0
            ∗ semVal ((c : Thread nD τ), SemLoc.dma (31 : DmaSem sig)) 0
            ∗ semVal ((c : Thread nD τ), SemLoc.dma (32 : DmaSem sig)) 0
            ∗ semVal ((c : Thread nD τ), SemLoc.dma (33 : DmaSem sig)) 0
            ∗ semVal ((c : Thread nD τ), SemLoc.dma (34 : DmaSem sig)) 0
            ∗ semVal ((c : Thread nD τ), SemLoc.dma (35 : DmaSem sig)) 0
            ∗ semVal ((c : Thread nD τ), SemLoc.dma (36 : DmaSem sig)) 0
            ∗ semVal ((c : Thread nD τ), SemLoc.dma (37 : DmaSem sig)) 0
            ∗ semVal ((c : Thread nD τ), SemLoc.dma (38 : DmaSem sig)) 0
            ∗ owes (c : Thread nD τ) 0 W
            ∗ (iprop(owns (c : Thread nD τ) I0 fullShare x0
                ∗ owns (c : Thread nD τ) I1 fullShare x1
                ∗ owns (c : Thread nD τ) I2 fullShare x2
                ∗ owns (c : Thread nD τ) I3 fullShare x3
                ∗ owns (c : Thread nD τ) I4 fullShare x4
                ∗ owns (c : Thread nD τ) I5 fullShare x5
                ∗ owns (c : Thread nD τ) I6 fullShare x6
                ∗ owns (c : Thread nD τ) I7 fullShare x7
                ∗ owns (c : Thread nD τ) I8 fullShare x8
                ∗ owns (c : Thread nD τ) I9 fullShare x9
                ∗ owns (c : Thread nD τ) I10 fullShare x10
                ∗ owns (c : Thread nD τ) I11 fullShare x11
                ∗ owns (c : Thread nD τ) I12 fullShare x12
                ∗ owns (c : Thread nD τ) I13 fullShare x13
                ∗ owns (c : Thread nD τ) I14 fullShare x14
                ∗ owns (c : Thread nD τ) I15 fullShare x15
                ∗ (O0.view.loc (c : Thread nD τ) ↦[O0.view.set]{fullShare} O0.view.writes (Elt F) O0.view.junk L.1)
                ∗ (O1.view.loc (c : Thread nD τ) ↦[O1.view.set]{fullShare} O1.view.writes (Elt F) O1.view.junk L.2.1)
                ∗ (O2.view.loc (c : Thread nD τ) ↦[O2.view.set]{fullShare} O2.view.writes (Elt F) O2.view.junk L.2.2.1)
                ∗ (O3.view.loc (c : Thread nD τ) ↦[O3.view.set]{fullShare} O3.view.writes (Elt F) O3.view.junk L.2.2.2.1)
                ∗ (O4.view.loc (c : Thread nD τ) ↦[O4.view.set]{fullShare} O4.view.writes (Elt F) O4.view.junk L.2.2.2.2.1)
                ∗ (O5.view.loc (c : Thread nD τ) ↦[O5.view.set]{fullShare} O5.view.writes (Elt F) O5.view.junk L.2.2.2.2.2)
                ∗ pt c (Memref.whole main_arg0) tb0
                ∗ pt c (Memref.whole main_arg2) tb1
                ∗ pt c (Memref.whole main_arg1) tb2
                ∗ pt c (Memref.whole main_arg5) fh0
                ∗ pt c (Memref.whole main_arg6) fh1
                ∗ pt c (Memref.whole main_arg9) fh2
                ∗ pt c (Memref.whole main_arg10) fh3
                ∗ pt c (Memref.whole main_arg7) fh4
                ∗ pt c (Memref.whole main_arg8) fh5
                ∗ (∃ g, pt c (Memref.whole cc0_scratch0) g)
                ∗ (∃ g, pt c (Memref.whole cc0_scratch1) g)
                ∗ (∃ g, pt c (Memref.whole cc0_scratch2) g)
                ∗ (∃ g, pt c (Memref.whole cc0_scratch3) g)
                ∗ (∃ g, pt c (Memref.whole cc0_scratch4) g)
                ∗ (∃ g, pt c (Memref.whole cc0_scratch5) g)
                ∗ (∃ g, pt c (Memref.whole cc0_scratch6) g)
                ∗ (∃ g, pt c (Memref.whole cc0_scratch7) g)
                ∗ (∃ g, pt c (Memref.whole cc0_scratch8) g)
                ∗ semVal ((c : Thread nD τ), SemLoc.dma (30 : DmaSem sig)) 0
                ∗ semVal ((c : Thread nD τ), SemLoc.dma (31 : DmaSem sig)) 0
                ∗ semVal ((c : Thread nD τ), SemLoc.dma (32 : DmaSem sig)) 0
                ∗ semVal ((c : Thread nD τ), SemLoc.dma (33 : DmaSem sig)) 0
                ∗ semVal ((c : Thread nD τ), SemLoc.dma (34 : DmaSem sig)) 0
                ∗ semVal ((c : Thread nD τ), SemLoc.dma (35 : DmaSem sig)) 0
                ∗ semVal ((c : Thread nD τ), SemLoc.dma (36 : DmaSem sig)) 0
                ∗ semVal ((c : Thread nD τ), SemLoc.dma (37 : DmaSem sig)) 0
                ∗ semVal ((c : Thread nD τ), SemLoc.dma (38 : DmaSem sig)) 0
                ∗ (∃ W', owes (c : Thread nD τ) 0 W')) -∗ K ⟨⟩))
          ⊢ wp frame (wpE (defs₀ (F := F)) Variants.none c none) Set.univ
              (cc0__gather_compute_kernel (grid0.coords t) (Memref.whole main_arg0) (Memref.isWhole_whole _) (Memref.whole main_arg2) (Memref.isWhole_whole _) (Memref.whole main_arg1) (Memref.isWhole_whole _) I0 hI0 I1 hI1 (Memref.whole main_arg5) (Memref.isWhole_whole _) (Memref.whole main_arg6) (Memref.isWhole_whole _) (Memref.whole main_arg9) (Memref.isWhole_whole _) (Memref.whole main_arg10) (Memref.isWhole_whole _) (Memref.whole main_arg7) (Memref.isWhole_whole _) (Memref.whole main_arg8) (Memref.isWhole_whole _) I2 hI2 I3 hI3 I4 hI4 I5 hI5 I6 hI6 I7 hI7 I8 hI8 I9 hI9 I10 hI10 I11 hI11 I12 hI12 I13 hI13 I14 hI14 I15 hI15 O0 hO0 O1 hO1 O2 hO2 O3 hO3 O4 hO4 O5 hO5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9) K } := by
  refine ⟨(?_, ?_, ?_, ?_, ?_, ?_), fun W K => ?run⟩
  case run =>
    unfold owns
    iintro ⟨⟨%fi0, %hfi0, HI0⟩, ⟨%fi1, %hfi1, HI1⟩, ⟨%fi2, %hfi2, HI2⟩, ⟨%fi3, %hfi3, HI3⟩, ⟨%fi4, %hfi4, HI4⟩, ⟨%fi5, %hfi5, HI5⟩, ⟨%fi6, %hfi6, HI6⟩, ⟨%fi7, %hfi7, HI7⟩, ⟨%fi8, %hfi8, HI8⟩, ⟨%fi9, %hfi9, HI9⟩, ⟨%fi10, %hfi10, HI10⟩, ⟨%fi11, %hfi11, HI11⟩, ⟨%fi12, %hfi12, HI12⟩, ⟨%fi13, %hfi13, HI13⟩, ⟨%fi14, %hfi14, HI14⟩, ⟨%fi15, %hfi15, HI15⟩, ⟨%dO0, %fo0, -, HO0⟩, ⟨%dO1, %fo1, -, HO1⟩, ⟨%dO2, %fo2, -, HO2⟩, ⟨%dO3, %fo3, -, HO3⟩, ⟨%dO4, %fo4, -, HO4⟩, ⟨%dO5, %fo5, -, HO5⟩, Ht0, Ht1, Ht2, Hh0, Hh1, Hh2, Hh3, Hh4, Hh5, Hg0, Hg1, Hg2, Hg3, Hg4, Hg5, Hg6, Hg7, Hg8, Hs0, Hs1, Hs2, Hs3, Hs4, Hs5, Hs6, Hs7, Hs8, HW, Hk⟩
    obtain rfl := hI0.eq_unread hfi0
    obtain rfl := hI1.eq_unread hfi1
    obtain rfl := hI2.eq_unread hfi2
    obtain rfl := hI3.eq_unread hfi3
    obtain rfl := hI4.eq_unread hfi4
    obtain rfl := hI5.eq_unread hfi5
    obtain rfl := hI6.eq_unread hfi6
    obtain rfl := hI7.eq_unread hfi7
    obtain rfl := hI8.eq_unread hfi8
    obtain rfl := hI9.eq_unread hfi9
    obtain rfl := hI10.eq_unread hfi10
    obtain rfl := hI11.eq_unread hfi11
    obtain rfl := hI12.eq_unread hfi12
    obtain rfl := hI13.eq_unread hfi13
    obtain rfl := hI14.eq_unread hfi14
    obtain rfl := hI15.eq_unread hfi15
    ihave Hh1' := (toks2_split c main_arg6 fh1) $$ Hh1
    icases Hh1' with ⟨Hh1r, Hh1a, Hh1b⟩
    ihave Hh3' := (toks2_split c main_arg10 fh3) $$ Hh3
    icases Hh3' with ⟨Hh3r, Hh3a, Hh3b⟩
    ihave Hh5' := (toks2_split c main_arg8 fh5) $$ Hh5
    icases Hh5' with ⟨Hh5r, Hh5a, Hh5b⟩
    sl_exec_parts! (disch := first | decide | (refine rowFits3 _ ?_; sl_unfold_run_names; first | with_reducible exact hT0 _ _ | with_reducible exact hT1 _ _ | with_reducible exact hT2 _ _) | (refine rowFits2 _ ?_; sl_unfold_run_names; first | with_reducible exact hT0 _ _ | with_reducible exact hT1 _ _ | with_reducible exact hT2 _ _))
    sl_step
    iapply Hk
    isplitl [HI0]
    · iexists _; isplitr; · ipureintro; exact hI0.read_unread _
      iexact HI0
    isplitl [HI1]
    · iexists _; isplitr; · ipureintro; exact hI1.read_unread _
      iexact HI1
    isplitl [HI2]
    · iexists _; isplitr; · ipureintro; exact hI2.read_unread _
      iexact HI2
    isplitl [HI3]
    · iexists _; isplitr; · ipureintro; exact hI3.read_unread _
      iexact HI3
    isplitl [HI4]
    · iexists _; isplitr; · ipureintro; exact hI4.read_unread _
      iexact HI4
    isplitl [HI5]
    · iexists _; isplitr; · ipureintro; exact hI5.read_unread _
      iexact HI5
    isplitl [HI6]
    · iexists _; isplitr; · ipureintro; exact hI6.read_unread _
      iexact HI6
    isplitl [HI7]
    · iexists _; isplitr; · ipureintro; exact hI7.read_unread _
      iexact HI7
    isplitl [HI8]
    · iexists _; isplitr; · ipureintro; exact hI8.read_unread _
      iexact HI8
    isplitl [HI9]
    · iexists _; isplitr; · ipureintro; exact hI9.read_unread _
      iexact HI9
    isplitl [HI10]
    · iexists _; isplitr; · ipureintro; exact hI10.read_unread _
      iexact HI10
    isplitl [HI11]
    · iexists _; isplitr; · ipureintro; exact hI11.read_unread _
      iexact HI11
    isplitl [HI12]
    · iexists _; isplitr; · ipureintro; exact hI12.read_unread _
      iexact HI12
    isplitl [HI13]
    · iexists _; isplitr; · ipureintro; exact hI13.read_unread _
      iexact HI13
    isplitl [HI14]
    · iexists _; isplitr; · ipureintro; exact hI14.read_unread _
      iexact HI14
    isplitl [HI15]
    · iexists _; isplitr; · ipureintro; exact hI15.read_unread _
      iexact HI15
    isplitl [HO0]; · iexact HO0
    isplitl [HO1]; · iexact HO1
    isplitl [HO2]; · iexact HO2
    isplitl [HO3]; · iexact HO3
    isplitl [HO4]; · iexact HO4
    isplitl [HO5]; · iexact HO5
    isplitl [Ht0]; · iexact Ht0
    isplitl [Ht1]; · iexact Ht1
    isplitl [Ht2]; · iexact Ht2
    isplitl [Hh0]; · iexact Hh0
    isplitl [Hh1r Hh1a Hh1b]
    · iapply (toks2_join c main_arg6 fh1)
      isplitl [Hh1r]; · iexact Hh1r
      isplitl [Hh1a]; · iexact Hh1a
      iexact Hh1b
    isplitl [Hh2]; · iexact Hh2
    isplitl [Hh3r Hh3a Hh3b]
    · iapply (toks2_join c main_arg10 fh3)
      isplitl [Hh3r]; · iexact Hh3r
      isplitl [Hh3a]; · iexact Hh3a
      iexact Hh3b
    isplitl [Hh4]; · iexact Hh4
    isplitl [Hh5r Hh5a Hh5b]
    · iapply (toks2_join c main_arg8 fh5)
      isplitl [Hh5r]; · iexact Hh5r
      isplitl [Hh5a]; · iexact Hh5a
      iexact Hh5b
    isplitl [Hg0]; · iexists _; iexact Hg0
    isplitl [Hg1]; · iexists _; iexact Hg1
    isplitl [Hg2]; · iexists _; iexact Hg2
    isplitl [Hg3]; · iexists _; iexact Hg3
    isplitl [Hg4]; · iexists _; iexact Hg4
    isplitl [Hg5]; · iexists _; iexact Hg5
    isplitl [Hg6]; · iexists _; iexact Hg6
    isplitl [Hg7]; · iexists _; iexact Hg7
    isplitl [Hg8]; · iexists _; iexact Hg8
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexists _; iexact HW

end Cert.KernelIdeal.Hand

end
-- ==== Proof.KI.Region0.lean ====
/- The gather-and-compute region's body obligation: at every grid point, from the invariant and the windows' staging
   buffers (the inputs at their blocks, the outputs at anything), the body runs and leaves the invariant as it was, the
   inputs as they were and each output's buffer at the block the specification names. The invariant hands the body its
   nine gather buffers, its nine cells at zero, the six tables and the three tables of row numbers, and takes them back. -/
import proofs.«423553_j10307921510829_1_alg».proof.Proof.KI.Data0
import proofs.«423553_j10307921510829_1_alg».proof.Proof.KI.GatherRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region

variable (a0 : (pcfg0 (F := F)).Adm)
variable (V : (c : Dev nD) → (b : Ref sig .tc) → Buf (Elt F) ((c : Thread nD τ).loc b))

/-- Each window's current staging memref at point `t`, as the pipeline passes it to the body, and its wholeness. -/
abbrev ms0_0 (t : Fin (cfg0 a0).N) : Memref sig .tc .vmem S16x1 .f32 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S16x1 .f32 := spec0_1.stage ((cfg0 a0).slots t 1)
abbrev hs0_1 (t : Fin (cfg0 a0).N) : (ms0_1 a0 t).IsWhole := hstage0_1 (((cfg0 a0).slots t 1).cast nbuf0_1)
abbrev ms0_2 (t : Fin (cfg0 a0).N) : Memref sig .tc .vmem S1x128 .f32 := spec0_2.stage ((cfg0 a0).slots t 2)
abbrev hs0_2 (t : Fin (cfg0 a0).N) : (ms0_2 a0 t).IsWhole := hstage0_2 (((cfg0 a0).slots t 2).cast nbuf0_2)
abbrev ms0_3 (t : Fin (cfg0 a0).N) : Memref sig .tc .vmem S1x128 .f32 := spec0_3.stage ((cfg0 a0).slots t 3)
abbrev hs0_3 (t : Fin (cfg0 a0).N) : (ms0_3 a0 t).IsWhole := hstage0_3 (((cfg0 a0).slots t 3).cast nbuf0_3)
abbrev ms0_4 (t : Fin (cfg0 a0).N) : Memref sig .tc .vmem S128x129 .f32 := spec0_4.stage ((cfg0 a0).slots t 4)
abbrev hs0_4 (t : Fin (cfg0 a0).N) : (ms0_4 a0 t).IsWhole := hstage0_4 (((cfg0 a0).slots t 4).cast nbuf0_4)
abbrev ms0_5 (t : Fin (cfg0 a0).N) : Memref sig .tc .vmem S128x128 .f32 := spec0_5.stage ((cfg0 a0).slots t 5)
abbrev hs0_5 (t : Fin (cfg0 a0).N) : (ms0_5 a0 t).IsWhole := hstage0_5 (((cfg0 a0).slots t 5).cast nbuf0_5)
abbrev ms0_6 (t : Fin (cfg0 a0).N) : Memref sig .tc .vmem S128 .f32 := spec0_6.stage ((cfg0 a0).slots t 6)
abbrev hs0_6 (t : Fin (cfg0 a0).N) : (ms0_6 a0 t).IsWhole := hstage0_6 (((cfg0 a0).slots t 6).cast nbuf0_6)
abbrev ms0_7 (t : Fin (cfg0 a0).N) : Memref sig .tc .vmem S128 .f32 := spec0_7.stage ((cfg0 a0).slots t 7)
abbrev hs0_7 (t : Fin (cfg0 a0).N) : (ms0_7 a0 t).IsWhole := hstage0_7 (((cfg0 a0).slots t 7).cast nbuf0_7)
abbrev ms0_8 (t : Fin (cfg0 a0).N) : Memref sig .tc .vmem S128x129 .f32 := spec0_8.stage ((cfg0 a0).slots t 8)
abbrev hs0_8 (t : Fin (cfg0 a0).N) : (ms0_8 a0 t).IsWhole := hstage0_8 (((cfg0 a0).slots t 8).cast nbuf0_8)
abbrev ms0_9 (t : Fin (cfg0 a0).N) : Memref sig .tc .vmem S128x128 .f32 := spec0_9.stage ((cfg0 a0).slots t 9)
abbrev hs0_9 (t : Fin (cfg0 a0).N) : (ms0_9 a0 t).IsWhole := hstage0_9 (((cfg0 a0).slots t 9).cast nbuf0_9)
abbrev ms0_10 (t : Fin (cfg0 a0).N) : Memref sig .tc .vmem S128 .f32 := spec0_10.stage ((cfg0 a0).slots t 10)
abbrev hs0_10 (t : Fin (cfg0 a0).N) : (ms0_10 a0 t).IsWhole := hstage0_10 (((cfg0 a0).slots t 10).cast nbuf0_10)
abbrev ms0_11 (t : Fin (cfg0 a0).N) : Memref sig .tc .vmem S128 .f32 := spec0_11.stage ((cfg0 a0).slots t 11)
abbrev hs0_11 (t : Fin (cfg0 a0).N) : (ms0_11 a0 t).IsWhole := hstage0_11 (((cfg0 a0).slots t 11).cast nbuf0_11)
abbrev ms0_12 (t : Fin (cfg0 a0).N) : Memref sig .tc .vmem S256x512 .f32 := spec0_12.stage ((cfg0 a0).slots t 12)
abbrev hs0_12 (t : Fin (cfg0 a0).N) : (ms0_12 a0 t).IsWhole := hstage0_12 (((cfg0 a0).slots t 12).cast nbuf0_12)
abbrev ms0_13 (t : Fin (cfg0 a0).N) : Memref sig .tc .vmem S256 .f32 := spec0_13.stage ((cfg0 a0).slots t 13)
abbrev hs0_13 (t : Fin (cfg0 a0).N) : (ms0_13 a0 t).IsWhole := hstage0_13 (((cfg0 a0).slots t 13).cast nbuf0_13)
abbrev ms0_14 (t : Fin (cfg0 a0).N) : Memref sig .tc .vmem S128x1 .f32 := spec0_14.stage ((cfg0 a0).slots t 14)
abbrev hs0_14 (t : Fin (cfg0 a0).N) : (ms0_14 a0 t).IsWhole := hstage0_14 (((cfg0 a0).slots t 14).cast nbuf0_14)
abbrev ms0_15 (t : Fin (cfg0 a0).N) : Memref sig .tc .vmem S128 .f32 := spec0_15.stage ((cfg0 a0).slots t 15)
abbrev hs0_15 (t : Fin (cfg0 a0).N) : (ms0_15 a0 t).IsWhole := hstage0_15 (((cfg0 a0).slots t 15).cast nbuf0_15)
abbrev ms0_16 (t : Fin (cfg0 a0).N) : Memref sig .tc .vmem S16x256 .f32 := spec0_16.stage ((cfg0 a0).slots t 16)
abbrev hs0_16 (t : Fin (cfg0 a0).N) : (ms0_16 a0 t).IsWhole := hstage0_16 (((cfg0 a0).slots t 16).cast nbuf0_16)
abbrev ms0_17 (t : Fin (cfg0 a0).N) : Memref sig .tc .vmem S16x256 .f32 := spec0_17.stage ((cfg0 a0).slots t 17)
abbrev hs0_17 (t : Fin (cfg0 a0).N) : (ms0_17 a0 t).IsWhole := hstage0_17 (((cfg0 a0).slots t 17).cast nbuf0_17)
abbrev ms0_18 (t : Fin (cfg0 a0).N) : Memref sig .tc .vmem S16x128 .f32 := spec0_18.stage ((cfg0 a0).slots t 18)
abbrev hs0_18 (t : Fin (cfg0 a0).N) : (ms0_18 a0 t).IsWhole := hstage0_18 (((cfg0 a0).slots t 18).cast nbuf0_18)
abbrev ms0_19 (t : Fin (cfg0 a0).N) : Memref sig .tc .vmem S16x128 .f32 := spec0_19.stage ((cfg0 a0).slots t 19)
abbrev hs0_19 (t : Fin (cfg0 a0).N) : (ms0_19 a0 t).IsWhole := hstage0_19 (((cfg0 a0).slots t 19).cast nbuf0_19)
abbrev ms0_20 (t : Fin (cfg0 a0).N) : Memref sig .tc .vmem S16x128 .f32 := spec0_20.stage ((cfg0 a0).slots t 20)
abbrev hs0_20 (t : Fin (cfg0 a0).N) : (ms0_20 a0 t).IsWhole := hstage0_20 (((cfg0 a0).slots t 20).cast nbuf0_20)
abbrev ms0_21 (t : Fin (cfg0 a0).N) : Memref sig .tc .vmem S16x128 .f32 := spec0_21.stage ((cfg0 a0).slots t 21)
abbrev hs0_21 (t : Fin (cfg0 a0).N) : (ms0_21 a0 t).IsWhole := hstage0_21 (((cfg0 a0).slots t 21).cast nbuf0_21)

/-- The body's call at point `t`. -/
abbrev bodyAt0 (t : Fin (cfg0 a0).N) : Prog (TpuEff nD τ sig (Elt F) Λ₀ .tc) PUnit :=
  cc0__gather_compute_kernel (grid0.coords t) (Memref.whole main_arg0) (Memref.isWhole_whole _) (Memref.whole main_arg2) (Memref.isWhole_whole _) (Memref.whole main_arg1) (Memref.isWhole_whole _) (ms0_0 a0 t) (hs0_0 a0 t) (ms0_1 a0 t) (hs0_1 a0 t) (Memref.whole main_arg5) (Memref.isWhole_whole _) (Memref.whole main_arg6) (Memref.isWhole_whole _) (Memref.whole main_arg9) (Memref.isWhole_whole _) (Memref.whole main_arg10) (Memref.isWhole_whole _) (Memref.whole main_arg7) (Memref.isWhole_whole _) (Memref.whole main_arg8) (Memref.isWhole_whole _) (ms0_2 a0 t) (hs0_2 a0 t) (ms0_3 a0 t) (hs0_3 a0 t) (ms0_4 a0 t) (hs0_4 a0 t) (ms0_5 a0 t) (hs0_5 a0 t) (ms0_6 a0 t) (hs0_6 a0 t) (ms0_7 a0 t) (hs0_7 a0 t) (ms0_8 a0 t) (hs0_8 a0 t) (ms0_9 a0 t) (hs0_9 a0 t) (ms0_10 a0 t) (hs0_10 a0 t) (ms0_11 a0 t) (hs0_11 a0 t) (ms0_12 a0 t) (hs0_12 a0 t) (ms0_13 a0 t) (hs0_13 a0 t) (ms0_14 a0 t) (hs0_14 a0 t) (ms0_15 a0 t) (hs0_15 a0 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9

/-- Each input's current staging buffer holds its block at every point, fetched there or not. -/
theorem before0_0 (c : Dev nD) (h : IdsOk V c) (t : Fin (cfg0 a0).N) (d) : (dat0 a0 V c h).before 0 t d = iblk0 a0 V c 0 t :=
  ((dat0 a0 V c h).before_in_eq_fetched 0 rfl (fun _ => rfl) (fun _ _ _ => rfl)
      (fun t => by show iblk0 a0 V c 0 t = _; unfold Dat.blockOf iblk0; rfl) t d).trans
    (by unfold Dat.fetched Dat.blockOf iblk0; rfl)
theorem before0_1 (c : Dev nD) (h : IdsOk V c) (t : Fin (cfg0 a0).N) (d) : (dat0 a0 V c h).before 1 t d = iblk0 a0 V c 1 t :=
  ((dat0 a0 V c h).before_in_eq_fetched 1 rfl (fun _ => rfl) (fun _ _ _ => rfl)
      (fun t => by show iblk0 a0 V c 1 t = _; unfold Dat.blockOf iblk0; rfl) t d).trans
    (by unfold Dat.fetched Dat.blockOf iblk0; rfl)
theorem before0_2 (c : Dev nD) (h : IdsOk V c) (t : Fin (cfg0 a0).N) (d) : (dat0 a0 V c h).before 2 t d = iblk0 a0 V c 2 t :=
  ((dat0 a0 V c h).before_in_eq_fetched 2 rfl (fun _ => rfl) (fun _ _ _ => rfl)
      (fun t => by show iblk0 a0 V c 2 t = _; unfold Dat.blockOf iblk0; rfl) t d).trans
    (by unfold Dat.fetched Dat.blockOf iblk0; rfl)
theorem before0_3 (c : Dev nD) (h : IdsOk V c) (t : Fin (cfg0 a0).N) (d) : (dat0 a0 V c h).before 3 t d = iblk0 a0 V c 3 t :=
  ((dat0 a0 V c h).before_in_eq_fetched 3 rfl (fun _ => rfl) (fun _ _ _ => rfl)
      (fun t => by show iblk0 a0 V c 3 t = _; unfold Dat.blockOf iblk0; rfl) t d).trans
    (by unfold Dat.fetched Dat.blockOf iblk0; rfl)
theorem before0_4 (c : Dev nD) (h : IdsOk V c) (t : Fin (cfg0 a0).N) (d) : (dat0 a0 V c h).before 4 t d = iblk0 a0 V c 4 t :=
  ((dat0 a0 V c h).before_in_eq_fetched 4 rfl (fun _ => rfl) (fun _ _ _ => rfl)
      (fun t => by show iblk0 a0 V c 4 t = _; unfold Dat.blockOf iblk0; rfl) t d).trans
    (by unfold Dat.fetched Dat.blockOf iblk0; rfl)
theorem before0_5 (c : Dev nD) (h : IdsOk V c) (t : Fin (cfg0 a0).N) (d) : (dat0 a0 V c h).before 5 t d = iblk0 a0 V c 5 t :=
  ((dat0 a0 V c h).before_in_eq_fetched 5 rfl (fun _ => rfl) (fun _ _ _ => rfl)
      (fun t => by show iblk0 a0 V c 5 t = _; unfold Dat.blockOf iblk0; rfl) t d).trans
    (by unfold Dat.fetched Dat.blockOf iblk0; rfl)
theorem before0_6 (c : Dev nD) (h : IdsOk V c) (t : Fin (cfg0 a0).N) (d) : (dat0 a0 V c h).before 6 t d = iblk0 a0 V c 6 t :=
  ((dat0 a0 V c h).before_in_eq_fetched 6 rfl (fun _ => rfl) (fun _ _ _ => rfl)
      (fun t => by show iblk0 a0 V c 6 t = _; unfold Dat.blockOf iblk0; rfl) t d).trans
    (by unfold Dat.fetched Dat.blockOf iblk0; rfl)
theorem before0_7 (c : Dev nD) (h : IdsOk V c) (t : Fin (cfg0 a0).N) (d) : (dat0 a0 V c h).before 7 t d = iblk0 a0 V c 7 t :=
  ((dat0 a0 V c h).before_in_eq_fetched 7 rfl (fun _ => rfl) (fun _ _ _ => rfl)
      (fun t => by show iblk0 a0 V c 7 t = _; unfold Dat.blockOf iblk0; rfl) t d).trans
    (by unfold Dat.fetched Dat.blockOf iblk0; rfl)
theorem before0_8 (c : Dev nD) (h : IdsOk V c) (t : Fin (cfg0 a0).N) (d) : (dat0 a0 V c h).before 8 t d = iblk0 a0 V c 8 t :=
  ((dat0 a0 V c h).before_in_eq_fetched 8 rfl (fun _ => rfl) (fun _ _ _ => rfl)
      (fun t => by show iblk0 a0 V c 8 t = _; unfold Dat.blockOf iblk0; rfl) t d).trans
    (by unfold Dat.fetched Dat.blockOf iblk0; rfl)
theorem before0_9 (c : Dev nD) (h : IdsOk V c) (t : Fin (cfg0 a0).N) (d) : (dat0 a0 V c h).before 9 t d = iblk0 a0 V c 9 t :=
  ((dat0 a0 V c h).before_in_eq_fetched 9 rfl (fun _ => rfl) (fun _ _ _ => rfl)
      (fun t => by show iblk0 a0 V c 9 t = _; unfold Dat.blockOf iblk0; rfl) t d).trans
    (by unfold Dat.fetched Dat.blockOf iblk0; rfl)
theorem before0_10 (c : Dev nD) (h : IdsOk V c) (t : Fin (cfg0 a0).N) (d) : (dat0 a0 V c h).before 10 t d = iblk0 a0 V c 10 t :=
  ((dat0 a0 V c h).before_in_eq_fetched 10 rfl (fun _ => rfl) (fun _ _ _ => rfl)
      (fun t => by show iblk0 a0 V c 10 t = _; unfold Dat.blockOf iblk0; rfl) t d).trans
    (by unfold Dat.fetched Dat.blockOf iblk0; rfl)
theorem before0_11 (c : Dev nD) (h : IdsOk V c) (t : Fin (cfg0 a0).N) (d) : (dat0 a0 V c h).before 11 t d = iblk0 a0 V c 11 t :=
  ((dat0 a0 V c h).before_in_eq_fetched 11 rfl (fun _ => rfl) (fun _ _ _ => rfl)
      (fun t => by show iblk0 a0 V c 11 t = _; unfold Dat.blockOf iblk0; rfl) t d).trans
    (by unfold Dat.fetched Dat.blockOf iblk0; rfl)
theorem before0_12 (c : Dev nD) (h : IdsOk V c) (t : Fin (cfg0 a0).N) (d) : (dat0 a0 V c h).before 12 t d = iblk0 a0 V c 12 t :=
  ((dat0 a0 V c h).before_in_eq_fetched 12 rfl (fun _ => rfl) (fun _ _ _ => rfl)
      (fun t => by show iblk0 a0 V c 12 t = _; unfold Dat.blockOf iblk0; rfl) t d).trans
    (by unfold Dat.fetched Dat.blockOf iblk0; rfl)
theorem before0_13 (c : Dev nD) (h : IdsOk V c) (t : Fin (cfg0 a0).N) (d) : (dat0 a0 V c h).before 13 t d = iblk0 a0 V c 13 t :=
  ((dat0 a0 V c h).before_in_eq_fetched 13 rfl (fun _ => rfl) (fun _ _ _ => rfl)
      (fun t => by show iblk0 a0 V c 13 t = _; unfold Dat.blockOf iblk0; rfl) t d).trans
    (by unfold Dat.fetched Dat.blockOf iblk0; rfl)
theorem before0_14 (c : Dev nD) (h : IdsOk V c) (t : Fin (cfg0 a0).N) (d) : (dat0 a0 V c h).before 14 t d = iblk0 a0 V c 14 t :=
  ((dat0 a0 V c h).before_in_eq_fetched 14 rfl (fun _ => rfl) (fun _ _ _ => rfl)
      (fun t => by show iblk0 a0 V c 14 t = _; unfold Dat.blockOf iblk0; rfl) t d).trans
    (by unfold Dat.fetched Dat.blockOf iblk0; rfl)
theorem before0_15 (c : Dev nD) (h : IdsOk V c) (t : Fin (cfg0 a0).N) (d) : (dat0 a0 V c h).before 15 t d = iblk0 a0 V c 15 t :=
  ((dat0 a0 V c h).before_in_eq_fetched 15 rfl (fun _ => rfl) (fun _ _ _ => rfl)
      (fun t => by show iblk0 a0 V c 15 t = _; unfold Dat.blockOf iblk0; rfl) t d).trans
    (by unfold Dat.fetched Dat.blockOf iblk0; rfl)

/-- The nine cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) := by
  rw [Pipeline.ownSems0_eq_of_list c osem0 [0, 1, 2, 3, 4, 5, 6, 7, 8] (by decide) (by decide)]; rfl

/-- The six tables at their entry contents, listed. -/
theorem hbmPts0_eq (c : Dev nD) :
    (bigSep H0 (fun b => ((c : Thread nD τ).loc b) ↦{fullShare} V c b) : sProp 𝕄)
      = iprop(pt c (Memref.whole main_arg5) (V c main_arg5) ∗ pt c (Memref.whole main_arg6) (V c main_arg6) ∗ pt c (Memref.whole main_arg9) (V c main_arg9) ∗ pt c (Memref.whole main_arg10) (V c main_arg10) ∗ pt c (Memref.whole main_arg7) (V c main_arg7) ∗ pt c (Memref.whole main_arg8) (V c main_arg8)) := by
  rw [BI.bigSep_eq_bigSepL_of_eq [main_arg5, main_arg6, main_arg9, main_arg10, main_arg7, main_arg8] (by decide) (by decide)]; rfl

/-- The three tables of row numbers held, listed. -/
theorem prefHeld0_eq (c : Dev nD) :
    (Pipeline.prefHeld (Ix := Unit) (Name := ℕ) (U := Pipeline.UD sig nD τ) (Lvl := ℕ) pre0 c (fun _ => fullShare) a0.1 : sProp 𝕄)
      = iprop(pt c (Memref.whole main_arg0) (a0.1 0) ∗ pt c (Memref.whole main_arg2) (a0.1 1) ∗ pt c (Memref.whole main_arg1) (a0.1 2)) := by
  unfold Pipeline.prefHeld
  rw [BI.bigSep_univ_eq_bigSepL [(0 : Fin 3), (1 : Fin 3), (2 : Fin 3)] (by decide) (by decide)]; rfl

/-- What the body is called with at point `t`, -/
def bodyPre0 (c : Dev nD) (h : IdsOk V c) (t : Fin (cfg0 a0).N) : sProp 𝕄 :=
  iprop((dat0 a0 V c h).Φ t.castSucc ∗ (dat0 a0 V c h).owesAt () t.castSucc
    ∗ (∃ d, owns (c : Thread nD τ) (ms0_0 a0 t) fullShare ((dat0 a0 V c h).before 0 t d))
    ∗ (∃ d, owns (c : Thread nD τ) (ms0_1 a0 t) fullShare ((dat0 a0 V c h).before 1 t d))
    ∗ (∃ d, owns (c : Thread nD τ) (ms0_2 a0 t) fullShare ((dat0 a0 V c h).before 2 t d))
    ∗ (∃ d, owns (c : Thread nD τ) (ms0_3 a0 t) fullShare ((dat0 a0 V c h).before 3 t d))
    ∗ (∃ d, owns (c : Thread nD τ) (ms0_4 a0 t) fullShare ((dat0 a0 V c h).before 4 t d))
    ∗ (∃ d, owns (c : Thread nD τ) (ms0_5 a0 t) fullShare ((dat0 a0 V c h).before 5 t d))
    ∗ (∃ d, owns (c : Thread nD τ) (ms0_6 a0 t) fullShare ((dat0 a0 V c h).before 6 t d))
    ∗ (∃ d, owns (c : Thread nD τ) (ms0_7 a0 t) fullShare ((dat0 a0 V c h).before 7 t d))
    ∗ (∃ d, owns (c : Thread nD τ) (ms0_8 a0 t) fullShare ((dat0 a0 V c h).before 8 t d))
    ∗ (∃ d, owns (c : Thread nD τ) (ms0_9 a0 t) fullShare ((dat0 a0 V c h).before 9 t d))
    ∗ (∃ d, owns (c : Thread nD τ) (ms0_10 a0 t) fullShare ((dat0 a0 V c h).before 10 t d))
    ∗ (∃ d, owns (c : Thread nD τ) (ms0_11 a0 t) fullShare ((dat0 a0 V c h).before 11 t d))
    ∗ (∃ d, owns (c : Thread nD τ) (ms0_12 a0 t) fullShare ((dat0 a0 V c h).before 12 t d))
    ∗ (∃ d, owns (c : Thread nD τ) (ms0_13 a0 t) fullShare ((dat0 a0 V c h).before 13 t d))
    ∗ (∃ d, owns (c : Thread nD τ) (ms0_14 a0 t) fullShare ((dat0 a0 V c h).before 14 t d))
    ∗ (∃ d, owns (c : Thread nD τ) (ms0_15 a0 t) fullShare ((dat0 a0 V c h).before 15 t d))
    ∗ (∃ d, owns (c : Thread nD τ) (ms0_16 a0 t) fullShare ((dat0 a0 V c h).before 16 t d))
    ∗ (∃ d, owns (c : Thread nD τ) (ms0_17 a0 t) fullShare ((dat0 a0 V c h).before 17 t d))
    ∗ (∃ d, owns (c : Thread nD τ) (ms0_18 a0 t) fullShare ((dat0 a0 V c h).before 18 t d))
    ∗ (∃ d, owns (c : Thread nD τ) (ms0_19 a0 t) fullShare ((dat0 a0 V c h).before 19 t d))
    ∗ (∃ d, owns (c : Thread nD τ) (ms0_20 a0 t) fullShare ((dat0 a0 V c h).before 20 t d))
    ∗ (∃ d, owns (c : Thread nD τ) (ms0_21 a0 t) fullShare ((dat0 a0 V c h).before 21 t d)))
/-- and what it returns. -/
def bodyPost0 (c : Dev nD) (h : IdsOk V c) (t : Fin (cfg0 a0).N) : sProp 𝕄 :=
  iprop((dat0 a0 V c h).Φ t.succ ∗ (dat0 a0 V c h).owesAt () t.succ
    ∗ owns (c : Thread nD τ) (ms0_0 a0 t) fullShare ((dat0 a0 V c h).after 0 t)
    ∗ owns (c : Thread nD τ) (ms0_1 a0 t) fullShare ((dat0 a0 V c h).after 1 t)
    ∗ owns (c : Thread nD τ) (ms0_2 a0 t) fullShare ((dat0 a0 V c h).after 2 t)
    ∗ owns (c : Thread nD τ) (ms0_3 a0 t) fullShare ((dat0 a0 V c h).after 3 t)
    ∗ owns (c : Thread nD τ) (ms0_4 a0 t) fullShare ((dat0 a0 V c h).after 4 t)
    ∗ owns (c : Thread nD τ) (ms0_5 a0 t) fullShare ((dat0 a0 V c h).after 5 t)
    ∗ owns (c : Thread nD τ) (ms0_6 a0 t) fullShare ((dat0 a0 V c h).after 6 t)
    ∗ owns (c : Thread nD τ) (ms0_7 a0 t) fullShare ((dat0 a0 V c h).after 7 t)
    ∗ owns (c : Thread nD τ) (ms0_8 a0 t) fullShare ((dat0 a0 V c h).after 8 t)
    ∗ owns (c : Thread nD τ) (ms0_9 a0 t) fullShare ((dat0 a0 V c h).after 9 t)
    ∗ owns (c : Thread nD τ) (ms0_10 a0 t) fullShare ((dat0 a0 V c h).after 10 t)
    ∗ owns (c : Thread nD τ) (ms0_11 a0 t) fullShare ((dat0 a0 V c h).after 11 t)
    ∗ owns (c : Thread nD τ) (ms0_12 a0 t) fullShare ((dat0 a0 V c h).after 12 t)
    ∗ owns (c : Thread nD τ) (ms0_13 a0 t) fullShare ((dat0 a0 V c h).after 13 t)
    ∗ owns (c : Thread nD τ) (ms0_14 a0 t) fullShare ((dat0 a0 V c h).after 14 t)
    ∗ owns (c : Thread nD τ) (ms0_15 a0 t) fullShare ((dat0 a0 V c h).after 15 t)
    ∗ owns (c : Thread nD τ) (ms0_16 a0 t) fullShare ((dat0 a0 V c h).after 16 t)
    ∗ owns (c : Thread nD τ) (ms0_17 a0 t) fullShare ((dat0 a0 V c h).after 17 t)
    ∗ owns (c : Thread nD τ) (ms0_18 a0 t) fullShare ((dat0 a0 V c h).after 18 t)
    ∗ owns (c : Thread nD τ) (ms0_19 a0 t) fullShare ((dat0 a0 V c h).after 19 t)
    ∗ owns (c : Thread nD τ) (ms0_20 a0 t) fullShare ((dat0 a0 V c h).after 20 t)
    ∗ owns (c : Thread nD τ) (ms0_21 a0 t) fullShare ((dat0 a0 V c h).after 21 t))

set_option maxHeartbeats 40000000 in
/-- The body at any point. What the run leaves in each output's buffer, read back, is the block the specification
    names (`hblk`). -/
theorem sound_body0
    (hids : ∀ c : Dev nD, IdsOk V c)
    (hT0 : ∀ c : Dev nD, RowWords c (Memref.whole main_arg0) (a0.1 0)) (hT1 : ∀ c : Dev nD, RowWords c (Memref.whole main_arg2) (a0.1 1))
    (hT2 : ∀ c : Dev nD, RowWords c (Memref.whole main_arg1) (a0.1 2))
    (hblk : ∀ (c : Dev nD) (t : Fin (cfg0 a0).N) (g0 : Bf (F := F) c (Memref.whole cc0_scratch0)) (g1 : Bf (F := F) c (Memref.whole cc0_scratch1)) (g2 : Bf (F := F) c (Memref.whole cc0_scratch2)) (g3 : Bf (F := F) c (Memref.whole cc0_scratch3)) (g4 : Bf (F := F) c (Memref.whole cc0_scratch4)) (g5 : Bf (F := F) c (Memref.whole cc0_scratch5)) (g6 : Bf (F := F) c (Memref.whole cc0_scratch6)) (g7 : Bf (F := F) c (Memref.whole cc0_scratch7)) (g8 : Bf (F := F) c (Memref.whole cc0_scratch8)),
        (ms0_16 a0 t).view.read (Elt F) ((ms0_16 a0 t).view.writes (Elt F) (ms0_16 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.1) = after0 a0 V c (hids c) 16 t
        ∧ (ms0_17 a0 t).view.read (Elt F) ((ms0_17 a0 t).view.writes (Elt F) (ms0_17 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.1) = after0 a0 V c (hids c) 17 t
        ∧ (ms0_18 a0 t).view.read (Elt F) ((ms0_18 a0 t).view.writes (Elt F) (ms0_18 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.1) = after0 a0 V c (hids c) 18 t
        ∧ (ms0_19 a0 t).view.read (Elt F) ((ms0_19 a0 t).view.writes (Elt F) (ms0_19 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.1) = after0 a0 V c (hids c) 19 t
        ∧ (ms0_20 a0 t).view.read (Elt F) ((ms0_20 a0 t).view.writes (Elt F) (ms0_20 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.2.1) = after0 a0 V c (hids c) 20 t
        ∧ (ms0_21 a0 t).view.read (Elt F) ((ms0_21 a0 t).view.writes (Elt F) (ms0_21 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.2.2) = after0 a0 V c (hids c) 21 t)
    (c : Dev nD) (t : Fin (cfg0 a0).N) :
    bodyPre0 a0 V c (hids c) t ⊢ wp frame (wpE (defs₀ (F := F)) Variants.none c none) Set.univ (bodyAt0 a0 t) (fun _ => bodyPost0 a0 V c (hids c) t) := by
  unfold bodyPre0 bodyPost0 bodyAt0
  simp only [before0_0, before0_1, before0_2, before0_3, before0_4, before0_5, before0_6, before0_7, before0_8, before0_9, before0_10, before0_11, before0_12, before0_13, before0_14, before0_15]
  rw [show (dat0 a0 V c (hids c)).Φ t.castSucc = Phi0 a0 V c from rfl, show (dat0 a0 V c (hids c)).Φ t.succ = Phi0 a0 V c from rfl]
  simp only [show ∀ w, (dat0 a0 V c (hids c)).after w t = after0 a0 V c (hids c) w t from fun _ => rfl]
  unfold Phi0
  rw [Pipeline.ΦD_eq, scopedRest0_eq, ownSems00_eq, hbmPts0_eq, prefHeld0_eq]
  unfold Dat.owesAt Pipeline.owesWithin
  rw [show (dat0 a0 V c (hids c)).owed t.castSucc = 0 from rfl, show (dat0 a0 V c (hids c)).owed t.succ = 0 from rfl]
  iintro ⟨⟨⟨⟨⟨%g0, Hg0⟩, ⟨%g1, Hg1⟩, ⟨%g2, Hg2⟩, ⟨%g3, Hg3⟩, ⟨%g4, Hg4⟩, ⟨%g5, Hg5⟩, ⟨%g6, Hg6⟩, ⟨%g7, Hg7⟩, ⟨%g8, Hg8⟩, HR9, HR10, HR11, HR12, HR13⟩, Hreg, ⟨Hs0, Hs1, Hs2, Hs3, Hs4, Hs5, Hs6, Hs7, Hs8⟩, ⟨Hh0, Hh1, Hh2, Hh3, Hh4, Hh5⟩⟩, ⟨Ht0, Ht1, Ht2⟩⟩, ⟨%W, -, HO⟩, ⟨%d0, HW0⟩, ⟨%d1, HW1⟩, ⟨%d2, HW2⟩, ⟨%d3, HW3⟩, ⟨%d4, HW4⟩, ⟨%d5, HW5⟩, ⟨%d6, HW6⟩, ⟨%d7, HW7⟩, ⟨%d8, HW8⟩, ⟨%d9, HW9⟩, ⟨%d10, HW10⟩, ⟨%d11, HW11⟩, ⟨%d12, HW12⟩, ⟨%d13, HW13⟩, ⟨%d14, HW14⟩, ⟨%d15, HW15⟩, ⟨%d16, HW16⟩, ⟨%d17, HW17⟩, ⟨%d18, HW18⟩, ⟨%d19, HW19⟩, ⟨%d20, HW20⟩, ⟨%d21, HW21⟩⟩
  have e := hblk c t g0 g1 g2 g3 g4 g5 g6 g7 g8
  iapply ((gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).2 W _)
  isplitl [HW0]; · iexact HW0
  isplitl [HW1]; · iexact HW1
  isplitl [HW2]; · iexact HW2
  isplitl [HW3]; · iexact HW3
  isplitl [HW4]; · iexact HW4
  isplitl [HW5]; · iexact HW5
  isplitl [HW6]; · iexact HW6
  isplitl [HW7]; · iexact HW7
  isplitl [HW8]; · iexact HW8
  isplitl [HW9]; · iexact HW9
  isplitl [HW10]; · iexact HW10
  isplitl [HW11]; · iexact HW11
  isplitl [HW12]; · iexact HW12
  isplitl [HW13]; · iexact HW13
  isplitl [HW14]; · iexact HW14
  isplitl [HW15]; · iexact HW15
  isplitl [HW16]; · iexists _; iexact HW16
  isplitl [HW17]; · iexists _; iexact HW17
  isplitl [HW18]; · iexists _; iexact HW18
  isplitl [HW19]; · iexists _; iexact HW19
  isplitl [HW20]; · iexists _; iexact HW20
  isplitl [HW21]; · iexists _; iexact HW21
  isplitl [Ht0]; · iexact Ht0
  isplitl [Ht1]; · iexact Ht1
  isplitl [Ht2]; · iexact Ht2
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hg6]; · iexact Hg6
  isplitl [Hg7]; · iexact Hg7
  isplitl [Hg8]; · iexact Hg8
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [HO]; · iexact HO
  iintro ⟨HW0, HW1, HW2, HW3, HW4, HW5, HW6, HW7, HW8, HW9, HW10, HW11, HW12, HW13, HW14, HW15, HW16, HW17, HW18, HW19, HW20, HW21, Ht0, Ht1, Ht2, Hh0, Hh1, Hh2, Hh3, Hh4, Hh5, ⟨%g0', Hg0⟩, ⟨%g1', Hg1⟩, ⟨%g2', Hg2⟩, ⟨%g3', Hg3⟩, ⟨%g4', Hg4⟩, ⟨%g5', Hg5⟩, ⟨%g6', Hg6⟩, ⟨%g7', Hg7⟩, ⟨%g8', Hg8⟩, Hs0, Hs1, Hs2, Hs3, Hs4, Hs5, Hs6, Hs7, Hs8, ⟨%W', HO'⟩⟩
  isplitl [Hg0 Hg1 Hg2 Hg3 Hg4 Hg5 Hg6 Hg7 Hg8 HR9 HR10 HR11 HR12 HR13 Hreg Hs0 Hs1 Hs2 Hs3 Hs4 Hs5 Hs6 Hs7 Hs8 Hh0 Hh1 Hh2 Hh3 Hh4 Hh5 Ht0 Ht1 Ht2]
  · isplitl [Hg0 Hg1 Hg2 Hg3 Hg4 Hg5 Hg6 Hg7 Hg8 HR9 HR10 HR11 HR12 HR13 Hreg Hs0 Hs1 Hs2 Hs3 Hs4 Hs5 Hs6 Hs7 Hs8 Hh0 Hh1 Hh2 Hh3 Hh4 Hh5]
    · isplitl [Hg0 Hg1 Hg2 Hg3 Hg4 Hg5 Hg6 Hg7 Hg8 HR9 HR10 HR11 HR12 HR13]
      · isplitl [Hg0]; · iexists g0'; iexact Hg0
        isplitl [Hg1]; · iexists g1'; iexact Hg1
        isplitl [Hg2]; · iexists g2'; iexact Hg2
        isplitl [Hg3]; · iexists g3'; iexact Hg3
        isplitl [Hg4]; · iexists g4'; iexact Hg4
        isplitl [Hg5]; · iexists g5'; iexact Hg5
        isplitl [Hg6]; · iexists g6'; iexact Hg6
        isplitl [Hg7]; · iexists g7'; iexact Hg7
        isplitl [Hg8]; · iexists g8'; iexact Hg8
        isplitl [HR9]; · iexact HR9
        isplitl [HR10]; · iexact HR10
        isplitl [HR11]; · iexact HR11
        isplitl [HR12]; · iexact HR12
        iexact HR13
      isplitl [Hreg]; · iexact Hreg
      isplitl [Hs0 Hs1 Hs2 Hs3 Hs4 Hs5 Hs6 Hs7 Hs8]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        isplitl [Hs7]; · iexact Hs7
        iexact Hs8
      isplitl [Hh0]; · iexact Hh0
      isplitl [Hh1]; · iexact Hh1
      isplitl [Hh2]; · iexact Hh2
      isplitl [Hh3]; · iexact Hh3
      isplitl [Hh4]; · iexact Hh4
      iexact Hh5
    isplitl [Ht0]; · iexact Ht0
    isplitl [Ht1]; · iexact Ht1
    iexact Ht2
  isplitl [HO']
  · iexists W'; isplitr; · ipureintro; exact fun _ _ => Or.inl trivial
    iexact HO'
  isplitl [HW0]; · iexact HW0
  isplitl [HW1]; · iexact HW1
  isplitl [HW2]; · iexact HW2
  isplitl [HW3]; · iexact HW3
  isplitl [HW4]; · iexact HW4
  isplitl [HW5]; · iexact HW5
  isplitl [HW6]; · iexact HW6
  isplitl [HW7]; · iexact HW7
  isplitl [HW8]; · iexact HW8
  isplitl [HW9]; · iexact HW9
  isplitl [HW10]; · iexact HW10
  isplitl [HW11]; · iexact HW11
  isplitl [HW12]; · iexact HW12
  isplitl [HW13]; · iexact HW13
  isplitl [HW14]; · iexact HW14
  isplitl [HW15]; · iexact HW15
  isplitl [HW16]
  · unfold owns; iexists _; isplitr
    swap; · iexact HW16
    ipureintro; exact e.1
  isplitl [HW17]
  · unfold owns; iexists _; isplitr
    swap; · iexact HW17
    ipureintro; exact e.2.1
  isplitl [HW18]
  · unfold owns; iexists _; isplitr
    swap; · iexact HW18
    ipureintro; exact e.2.2.1
  isplitl [HW19]
  · unfold owns; iexists _; isplitr
    swap; · iexact HW19
    ipureintro; exact e.2.2.2.1
  isplitl [HW20]
  · unfold owns; iexists _; isplitr
    swap; · iexact HW20
    ipureintro; exact e.2.2.2.2.1
  unfold owns; iexists _; isplitr
  swap; · iexact HW21
  ipureintro; exact e.2.2.2.2.2

set_option maxRecDepth 131072 in
set_option maxHeartbeats 4000000 in
/-- The library's body obligation, at every point. -/
theorem body_obligation0
    (hids : ∀ c : Dev nD, IdsOk V c)
    (hT0 : ∀ c : Dev nD, RowWords c (Memref.whole main_arg0) (a0.1 0)) (hT1 : ∀ c : Dev nD, RowWords c (Memref.whole main_arg2) (a0.1 1))
    (hT2 : ∀ c : Dev nD, RowWords c (Memref.whole main_arg1) (a0.1 2))
    (hblk : ∀ (c : Dev nD) (t : Fin (cfg0 a0).N) (g0 : Bf (F := F) c (Memref.whole cc0_scratch0)) (g1 : Bf (F := F) c (Memref.whole cc0_scratch1)) (g2 : Bf (F := F) c (Memref.whole cc0_scratch2)) (g3 : Bf (F := F) c (Memref.whole cc0_scratch3)) (g4 : Bf (F := F) c (Memref.whole cc0_scratch4)) (g5 : Bf (F := F) c (Memref.whole cc0_scratch5)) (g6 : Bf (F := F) c (Memref.whole cc0_scratch6)) (g7 : Bf (F := F) c (Memref.whole cc0_scratch7)) (g8 : Bf (F := F) c (Memref.whole cc0_scratch8)),
        (ms0_16 a0 t).view.read (Elt F) ((ms0_16 a0 t).view.writes (Elt F) (ms0_16 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.1) = after0 a0 V c (hids c) 16 t
        ∧ (ms0_17 a0 t).view.read (Elt F) ((ms0_17 a0 t).view.writes (Elt F) (ms0_17 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.1) = after0 a0 V c (hids c) 17 t
        ∧ (ms0_18 a0 t).view.read (Elt F) ((ms0_18 a0 t).view.writes (Elt F) (ms0_18 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.1) = after0 a0 V c (hids c) 18 t
        ∧ (ms0_19 a0 t).view.read (Elt F) ((ms0_19 a0 t).view.writes (Elt F) (ms0_19 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.1) = after0 a0 V c (hids c) 19 t
        ∧ (ms0_20 a0 t).view.read (Elt F) ((ms0_20 a0 t).view.writes (Elt F) (ms0_20 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.2.1) = after0 a0 V c (hids c) 20 t
        ∧ (ms0_21 a0 t).view.read (Elt F) ((ms0_21 a0 t).view.writes (Elt F) (ms0_21 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.2.2) = after0 a0 V c (hids c) 21 t)
    (c : Dev nD) : BodyObligation (dat0 (F := F) a0 V c (hids c)) (defs₀ (F := F)) Variants.none () Set.univ := fun t => by
  rw [bigSep_W0, bigSep_W0]
  exact sound_body0 a0 V hids hT0 hT1 hT2 hblk c t

end Region

end Cert.KernelIdeal.Hand

end
-- ==== Proof.KI.Region1.lean ====
/- The scatter region's body obligation: at every grid point, from the invariant before the point and the two input
   blocks staged, the body runs and leaves the invariant after the point and the two staging buffers as they were. The
   invariant hands the body the scratch word, its four cells at zero, the two tables of row numbers and the four tables
   at what the earlier points left; the run overwrites 16 rows of each table; read back, that is one more step of the
   tables' recursion. -/
import proofs.«423553_j10307921510829_1_alg».proof.Proof.KI.Data1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region

variable (a1 : (pcfg1 (F := F)).Adm)
variable (V : (c : Dev nD) → (b : Ref sig .tc) → Buf (Elt F) ((c : Thread nD τ).loc b))

/-- Each input window's current staging memref at point `t`, as the pipeline passes it to the body, and its wholeness. -/
abbrev ms1_0 (t : Fin (cfg1 a1).N) : Memref sig .tc .vmem S16x128 .f32 := spec1_0.stage ((cfg1 a1).slots t 0)
abbrev hs1_0 (t : Fin (cfg1 a1).N) : (ms1_0 a1 t).IsWhole := hstage1_0 (((cfg1 a1).slots t 0).cast nbuf1_0)
abbrev ms1_1 (t : Fin (cfg1 a1).N) : Memref sig .tc .vmem S16x128 .f32 := spec1_1.stage ((cfg1 a1).slots t 1)
abbrev hs1_1 (t : Fin (cfg1 a1).N) : (ms1_1 a1 t).IsWhole := hstage1_1 (((cfg1 a1).slots t 1).cast nbuf1_1)

/-- The body's call at point `t`. -/
abbrev bodyAt1 (t : Fin (cfg1 a1).N) : Prog (TpuEff nD τ sig (Elt F) Λ₀ .tc) PUnit :=
  cc1__scatter_kernel (grid1.coords t) (Memref.whole main_arg0) (Memref.isWhole_whole _) (Memref.whole main_arg2) (Memref.isWhole_whole _)
    (ms1_0 a1 t) (hs1_0 a1 t) (ms1_1 a1 t) (hs1_1 a1 t)
    (Memref.whole main_v1_0) (Memref.isWhole_whole _) (Memref.whole main_v1_1) (Memref.isWhole_whole _)
    (Memref.whole main_v1_2) (Memref.isWhole_whole _) (Memref.whole main_v1_3) (Memref.isWhole_whole _)
    (Memref.whole main_v1_0) (Memref.isWhole_whole _) (Memref.whole main_v1_1) (Memref.isWhole_whole _)
    (Memref.whole main_v1_2) (Memref.isWhole_whole _) (Memref.whole main_v1_3) (Memref.isWhole_whole _)
    (Memref.whole cc1_scratch0) (Memref.isWhole_whole _) cc1_scratch1

/-- Each input's current staging buffer holds its block at every point, fetched there or not. -/
theorem before1_0 (c : Dev nD) (t : Fin (cfg1 a1).N) (d) : (dat1 a1 V c).before 0 t d = iblk1 a1 V c 0 t :=
  ((dat1 a1 V c).before_in_eq_fetched 0 rfl (fun _ => rfl) (fun _ _ _ => rfl)
      (fun t => by show iblk1 a1 V c 0 t = _; unfold Dat.blockOf iblk1; rfl) t d).trans
    (by unfold Dat.fetched Dat.blockOf iblk1; rfl)
theorem before1_1 (c : Dev nD) (t : Fin (cfg1 a1).N) (d) : (dat1 a1 V c).before 1 t d = iblk1 a1 V c 1 t :=
  ((dat1 a1 V c).before_in_eq_fetched 1 rfl (fun _ => rfl) (fun _ _ _ => rfl)
      (fun t => by show iblk1 a1 V c 1 t = _; unfold Dat.blockOf iblk1; rfl) t d).trans
    (by unfold Dat.fetched Dat.blockOf iblk1; rfl)

/-- The cells at zero, listed. -/
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 43) 0 ∗ semVal ((c : Thread nD τ), SemLoc.dma 44) 0
          ∗ semVal ((c : Thread nD τ), SemLoc.dma 45) 0 ∗ semVal ((c : Thread nD τ), SemLoc.dma 46) 0) := by
  rw [Pipeline.ownSems0_eq_of_list c osem1 [0, 1, 2, 3] (by decide) (by decide)]; rfl

/-- The two tables of row numbers held, listed. -/
theorem prefHeld1_eq (c : Dev nD) :
    (Pipeline.prefHeld (Ix := Unit) (Name := ℕ) (U := Pipeline.UD sig nD τ) (Lvl := ℕ) pre1 c (fun _ => fullShare) a1.1 : sProp 𝕄)
      = iprop(pt c (Memref.whole main_arg0) (a1.1 0) ∗ pt c (Memref.whole main_arg2) (a1.1 1)) := by
  unfold Pipeline.prefHeld
  rw [BI.bigSep_univ_eq_bigSepL [(0 : Fin 2), (1 : Fin 2)] (by decide) (by decide)]; rfl

/-- What the body is called with at point `t`, -/
def bodyPre1 (c : Dev nD) (t : Fin (cfg1 a1).N) : sProp 𝕄 :=
  iprop((dat1 a1 V c).Φ t.castSucc ∗ (dat1 a1 V c).owesAt () t.castSucc
    ∗ (∃ d, owns (c : Thread nD τ) (ms1_0 a1 t) fullShare ((dat1 a1 V c).before 0 t d))
    ∗ (∃ d, owns (c : Thread nD τ) (ms1_1 a1 t) fullShare ((dat1 a1 V c).before 1 t d)))
/-- and what it returns. -/
def bodyPost1 (c : Dev nD) (t : Fin (cfg1 a1).N) : sProp 𝕄 :=
  iprop((dat1 a1 V c).Φ t.succ ∗ (dat1 a1 V c).owesAt () t.succ
    ∗ owns (c : Thread nD τ) (ms1_0 a1 t) fullShare ((dat1 a1 V c).after 0 t)
    ∗ owns (c : Thread nD τ) (ms1_1 a1 t) fullShare ((dat1 a1 V c).after 1 t))

end Region

section Region

variable (a1 : (pcfg1 (F := F)).Adm)
variable (V : (c : Dev nD) → (b : Ref sig .tc) → Buf (Elt F) ((c : Thread nD τ).loc b))

set_option maxHeartbeats 4000000 in
/-- The body at any point. The invariant hands the body the scratch word, its four cells at zero, the two tables of
    row numbers and the four tables as the earlier points left them; the run overwrites 16 rows of each; what it leaves is
    the tables' next step (`hstep`); the core's record of waits goes in at whatever the points before recorded and
    comes back longer. -/
theorem sound_body1
    (hU : ∀ c : Dev nD, RowWords c (Memref.whole main_arg0) (a1.1 0)) (hI : ∀ c : Dev nD, RowWords c (Memref.whole main_arg2) (a1.1 1))
    (hstep : ∀ (c : Dev nD) (t : Fin (cfg1 a1).N) (g : Bf (F := F) c (Memref.whole cc1_scratch0)),
      (scatterRun c t (ms1_0 a1 t) (hs1_0 a1 t) (ms1_1 a1 t) (hs1_1 a1 t) (iblk1 a1 V c 0 t) (iblk1 a1 V c 1 t) (a1.1 0) (a1.1 1)
          (tabU a1 V c t.val) (tabI a1 V c t.val) (flagU V c t.val) (flagI V c t.val) g (hU c) (hI c)).1
        = (tabU a1 V c (t.val + 1), tabI a1 V c (t.val + 1), flagU V c (t.val + 1), flagI V c (t.val + 1)))
    (c : Dev nD) (t : Fin (cfg1 a1).N) :
    bodyPre1 a1 V c t ⊢ wp frame (wpE (defs₀ (F := F)) Variants.none c none) Set.univ (bodyAt1 a1 t) (fun _ => bodyPost1 a1 V c t) := by
  unfold bodyPre1 bodyPost1 bodyAt1
  simp only [before1_0, before1_1]
  rw [show (dat1 a1 V c).Φ t.castSucc = Phi1 a1 V c t.val from rfl, show (dat1 a1 V c).Φ t.succ = Phi1 a1 V c (t.val + 1) from rfl,
    show (dat1 a1 V c).after 0 t = iblk1 a1 V c 0 t from rfl, show (dat1 a1 V c).after 1 t = iblk1 a1 V c 1 t from rfl]
  unfold Phi1
  rw [scopedRest1_split, ownSems01_eq, prefHeld1_eq]
  simp only [owns_whole]
  unfold Dat.owesAt Pipeline.owesWithin
  rw [show (dat1 a1 V c).owed t.castSucc = 0 from rfl, show (dat1 a1 V c).owed t.succ = 0 from rfl]
  iintro ⟨⟨⟨⟨%g, Hg⟩, Hrest⟩, Hreg, ⟨Hs0, Hs1, Hs2, Hs3⟩, ⟨Ht0, Ht2⟩, HU, HI, HFU, HFI⟩, ⟨%W, -, HW⟩, ⟨%d0, H0⟩, ⟨%d1, H1⟩⟩
  have e := hstep c t g
  iapply ((scatterRun c t (ms1_0 a1 t) (hs1_0 a1 t) (ms1_1 a1 t) (hs1_1 a1 t) (iblk1 a1 V c 0 t) (iblk1 a1 V c 1 t) (a1.1 0) (a1.1 1)
      (tabU a1 V c t.val) (tabI a1 V c t.val) (flagU V c t.val) (flagI V c t.val) g (hU c) (hI c)).2 W _)
  rw [e]
  isplitl [H0]; · iexact H0
  isplitl [H1]; · iexact H1
  isplitl [Ht0]; · iexact Ht0
  isplitl [Ht2]; · iexact Ht2
  isplitl [HU]; · iexact HU
  isplitl [HI]; · iexact HI
  isplitl [HFU]; · iexact HFU
  isplitl [HFI]; · iexact HFI
  isplitl [Hg]; · iexact Hg
  isplitl [Hs0]; · iexact Hs0
  isplitl [Hs1]; · iexact Hs1
  isplitl [Hs2]; · iexact Hs2
  isplitl [Hs3]; · iexact Hs3
  isplitl [HW]; · iexact HW
  iintro ⟨H0, H1, Ht0, Ht2, HU, HI, HFU, HFI, ⟨%g', Hg⟩, Hs0, Hs1, Hs2, Hs3, ⟨%W', HW'⟩⟩
  isplitl [Hg Hrest Hreg Hs0 Hs1 Hs2 Hs3 Ht0 Ht2 HU HI HFU HFI]
  · isplitl [Hg Hrest]
    · isplitl [Hg]; · iexists g'; iexact Hg
      iexact Hrest
    isplitl [Hreg]; · iexact Hreg
    isplitl [Hs0 Hs1 Hs2 Hs3]
    · isplitl [Hs0]; · iexact Hs0
      isplitl [Hs1]; · iexact Hs1
      isplitl [Hs2]; · iexact Hs2
      iexact Hs3
    isplitl [Ht0 Ht2]
    · isplitl [Ht0]; · iexact Ht0
      iexact Ht2
    isplitl [HU]; · iexact HU
    isplitl [HI]; · iexact HI
    isplitl [HFU]; · iexact HFU
    iexact HFI
  isplitl [HW']
  · iexists W'; isplitr; · ipureintro; exact fun _ _ => Or.inl trivial
    iexact HW'
  isplitl [H0]; · iexact H0
  iexact H1

/-- The library's body obligation, at every point. -/
theorem body_obligation1
    (hU : ∀ c : Dev nD, RowWords c (Memref.whole main_arg0) (a1.1 0)) (hI : ∀ c : Dev nD, RowWords c (Memref.whole main_arg2) (a1.1 1))
    (hstep : ∀ (c : Dev nD) (t : Fin (cfg1 a1).N) (g : Bf (F := F) c (Memref.whole cc1_scratch0)),
      (scatterRun c t (ms1_0 a1 t) (hs1_0 a1 t) (ms1_1 a1 t) (hs1_1 a1 t) (iblk1 a1 V c 0 t) (iblk1 a1 V c 1 t) (a1.1 0) (a1.1 1)
          (tabU a1 V c t.val) (tabI a1 V c t.val) (flagU V c t.val) (flagI V c t.val) g (hU c) (hI c)).1
        = (tabU a1 V c (t.val + 1), tabI a1 V c (t.val + 1), flagU V c (t.val + 1), flagI V c (t.val + 1)))
    (c : Dev nD) : BodyObligation (dat1 (F := F) a1 V c) (defs₀ (F := F)) Variants.none () Set.univ := fun t => by
  rw [bigSep_W1, bigSep_W1]
  exact sound_body1 a1 V hU hI hstep c t

end Region

end Cert.KernelIdeal.Hand

end
-- ==== Proof.KI.RowViews.lean ====
/- Reading and writing one row of a two-axis table through the view that cuts the row out and drops its axis of
   size one. A table with n rows and c columns is cut by the unit-stride rectangle of sizes 1 × c at offsets (r, 0), and
   the 1 × c result is re-indexed by the c multi-indices of rank one. Row-major position matches index k of rank one
   with (0, k) of the rectangle, and the rectangle places (0, k) at (r, k) of the table. So the view reads the table's
   row r, and a write through it replaces row r by the payload and leaves every other row as it was. Nothing here
   depends on n beyond r < n, which the rectangle's in-bounds evidence gives. -/
import proofs.«423553_j10307921510829_1_alg».proof.KernelIdeal
import Idealize.ShloMosaic.Lib.ValueIdx

noncomputable section

namespace Cert.KernelIdeal.RowViews

open Idealize.ShloMosaic Idealize.ShloMosaic.ValueIdx
open Cert.KernelIdeal

/-! ## Any table of two axes -/

section General

variable {sg : RefSig} {κ : Kind} {sp : Space} {e : EltTy} {Val : EltTy → Type} {n c r : ℕ}

/-- The row offset of a one-row rectangle inside an n-row table is a row number of the table. -/
theorem row_lt (off : Fin 2 → ℕ)
    (inb : ∀ a, off a + (⟨2, ![1, c]⟩ : Shape).size a ≤ (⟨2, ![n, c]⟩ : Shape).size a) (h0 : off 0 = r) : r < n := by
  have h : off 0 + 1 ≤ n := inb 0
  omega

/-- Index k of rank one, matched by row-major position with the 1 × c rectangle at offsets (r, 0) and placed by the
    rectangle in the table, is (r, k). -/
theorem emb_row (off : Fin 2 → ℕ)
    (inb : ∀ a, off a + (⟨2, ![1, c]⟩ : Shape).size a ≤ (⟨2, ![n, c]⟩ : Shape).size a)
    (h0 : off 0 = r) (h1 : off 1 = 0) (hr : r < n)
    (hn : (⟨1, ![c]⟩ : Shape).numel = (⟨2, ![1, c]⟩ : Shape).numel) (k : (⟨1, ![c]⟩ : Shape).Idx) :
    (Rect.unit (s := ⟨2, ![n, c]⟩) off (⟨2, ![1, c]⟩ : Shape).size inb).emb (Shape.reshapeEquiv hn k)
      = (ValueIdx.ix2 (⟨r, hr⟩ : Fin n) (k 0 : Fin c) : (⟨2, ![n, c]⟩ : Shape).Idx) := by
  have hk := Shape.reshapeEquiv_cons_one (n := 1) (d := ![c]) hn k
  funext a
  apply Fin.ext
  match a with
  | ⟨0, _⟩ =>
    show off 0 + 1 * ((Shape.reshapeEquiv hn k) 0).val = r
    rw [hk]
    show off 0 + 1 * 0 = r
    omega
  | ⟨1, _⟩ =>
    show off 1 + 1 * ((Shape.reshapeEquiv hn k) 1).val = (k 0).val
    rw [hk]
    show off 1 + 1 * (k 0).val = (k 0).val
    omega

variable (M : Memref sg κ sp ⟨2, ![n, c]⟩ e) (off : Fin 2 → ℕ)
  (inb : ∀ a, off a + (⟨2, ![1, c]⟩ : Shape).size a ≤ (⟨2, ![n, c]⟩ : Shape).size a)
  (hsq : (⟨2, ![1, c]⟩ : Shape).Squeezes ⟨1, ![c]⟩)

/-- The row view reads the table's row r. -/
theorem read_row_apply (h0 : off 0 = r) (h1 : off 1 = 0) (hr : r < n) (f : M.view.ty.Contents Val)
    (k : (⟨1, ![c]⟩ : Shape).Idx) :
    ((M.slice (Rect.unit (s := ⟨2, ![n, c]⟩) off (⟨2, ![1, c]⟩ : Shape).size inb) (fun _ => rfl)).squeeze
        ⟨1, ![c]⟩ hsq).view.read Val f k
      = M.view.read Val f (ValueIdx.ix2 (⟨r, hr⟩ : Fin n) (k 0 : Fin c)) :=
  (congrArg (M.view.read Val f) (emb_row off inb h0 h1 hr hsq.numel_eq k) :)

/-- The table read after a write through the row view: row r is the payload, every other row is unchanged. -/
theorem read_write_row_apply (h0 : off 0 = r) (h1 : off 1 = 0) (hr : r < n) (f : M.view.ty.Contents Val)
    (w : (⟨1, ![c]⟩ : Shape).Idx → Val e) (j : (⟨2, ![n, c]⟩ : Shape).Idx) :
    M.view.read Val (((M.slice (Rect.unit (s := ⟨2, ![n, c]⟩) off (⟨2, ![1, c]⟩ : Shape).size inb) (fun _ => rfl)).squeeze
        ⟨1, ![c]⟩ hsq).view.write Val f w Finset.univ) j
      = if (j 0).val = r then w (ValueIdx.ix1 (j 1 : Fin c)) else M.view.read Val f j := by
  by_cases h : (j 0).val = r
  · rw [if_pos h]
    have hj : j = (Rect.unit (s := ⟨2, ![n, c]⟩) off (⟨2, ![1, c]⟩ : Shape).size inb).emb
        (Shape.reshapeEquiv hsq.numel_eq (ValueIdx.ix1 (j 1 : Fin c))) := by
      rw [emb_row off inb h0 h1 hr hsq.numel_eq]
      funext a
      apply Fin.ext
      match a with
      | ⟨0, _⟩ => exact h
      | ⟨1, _⟩ => rfl
    exact (congrArg (M.view.read Val _) hj).trans
      (View.read_write_of_mem (v := ((M.slice (Rect.unit (s := ⟨2, ![n, c]⟩) off (⟨2, ![1, c]⟩ : Shape).size inb)
        (fun _ => rfl)).squeeze ⟨1, ![c]⟩ hsq).view) f w (Finset.mem_univ (ValueIdx.ix1 (j 1 : Fin c))))
  · rw [if_neg h]
    have hnm : M.view.emb j ∉ ((M.slice (Rect.unit (s := ⟨2, ![n, c]⟩) off (⟨2, ![1, c]⟩ : Shape).size inb)
        (fun _ => rfl)).squeeze ⟨1, ![c]⟩ hsq).view.setOn Finset.univ := by
      intro hm
      obtain ⟨x, -, hx⟩ := Finset.mem_map.mp hm
      have hx' : (Rect.unit (s := ⟨2, ![n, c]⟩) off (⟨2, ![1, c]⟩ : Shape).size inb).emb
          (Shape.reshapeEquiv hsq.numel_eq x) = j := M.view.emb.injective hx
      apply h
      rw [← hx', emb_row off inb h0 h1 hr hsq.numel_eq]
      rfl
    rw [View.read_apply, View.read_apply, View.write_of_not_mem _ _ _ hnm]

end General

/-! ## The kernels' tables and blocks -/

section Tables

variable [Facts]
open Facts₀ Facts

variable {Val : EltTy → Type} {r : ℕ}

/-- A one-row slice of a 200000 × 128 table starts at a row of the table. -/
theorem row_lt128 (off : Fin 2 → ℕ) (inb : ∀ a, off a + S1x128.size a ≤ S200000x128.size a) (h0 : off 0 = r) :
    r < 200000 := row_lt off inb h0

/-- A one-row slice of a 200000 × 1 table starts at a row of the table. -/
theorem row_lt1 (off : Fin 2 → ℕ) (inb : ∀ a, off a + S1x1.size a ≤ S200000x1.size a) (h0 : off 0 = r) :
    r < 200000 := row_lt off inb h0

/-- The row view of a 200000 × 128 table at row r reads row r of the table. -/
theorem read_row128 {sp : Space} (M : Memref sig .tc sp S200000x128 .f32) (hM : M.IsWhole) (off : Fin 2 → ℕ)
    (inb : ∀ a, off a + S1x128.size a ≤ S200000x128.size a) (h0 : off 0 = r) (h1 : off 1 = 0)
    (f : M.view.ty.Contents Val) :
    ((M.slice (Rect.unit (s := S200000x128) off S1x128.size inb) (fun _ => rfl)).squeeze S128
        squeezes_S1x128_S128).view.read Val f
      = fun k : S128.Idx =>
          M.view.read Val f (ValueIdx.ix2 (⟨r, row_lt128 off inb h0⟩ : Fin 200000) (k 0 : Fin 128)) :=
  funext fun k => read_row_apply M off inb squeezes_S1x128_S128 h0 h1 (row_lt128 off inb h0) f k

/-- A write through the row view of a 200000 × 128 table at row r replaces row r by the payload and nothing else. -/
theorem read_write_row128 {sp : Space} (M : Memref sig .tc sp S200000x128 .f32) (hM : M.IsWhole) (off : Fin 2 → ℕ)
    (inb : ∀ a, off a + S1x128.size a ≤ S200000x128.size a) (h0 : off 0 = r) (h1 : off 1 = 0)
    (f : M.view.ty.Contents Val) (w : S128.Idx → Val .f32) :
    M.view.read Val (((M.slice (Rect.unit (s := S200000x128) off S1x128.size inb) (fun _ => rfl)).squeeze S128
        squeezes_S1x128_S128).view.write Val f w Finset.univ)
      = fun j : S200000x128.Idx =>
          if (j 0).val = r then w (ValueIdx.ix1 (j 1 : Fin 128)) else M.view.read Val f j :=
  funext fun j => read_write_row_apply M off inb squeezes_S1x128_S128 h0 h1 (row_lt128 off inb h0) f w j

/-- The row view of a 200000 × 1 table at row r reads row r of the table. -/
theorem read_row1 {sp : Space} (M : Memref sig .tc sp S200000x1 .f32) (hM : M.IsWhole) (off : Fin 2 → ℕ)
    (inb : ∀ a, off a + S1x1.size a ≤ S200000x1.size a) (h0 : off 0 = r) (h1 : off 1 = 0)
    (f : M.view.ty.Contents Val) :
    ((M.slice (Rect.unit (s := S200000x1) off S1x1.size inb) (fun _ => rfl)).squeeze S1
        squeezes_S1x1_S1).view.read Val f
      = fun k : S1.Idx =>
          M.view.read Val f (ValueIdx.ix2 (⟨r, row_lt1 off inb h0⟩ : Fin 200000) (k 0 : Fin 1)) :=
  funext fun k => read_row_apply M off inb squeezes_S1x1_S1 h0 h1 (row_lt1 off inb h0) f k

/-- A write through the row view of a 200000 × 1 table at row r replaces row r by the payload and nothing else. -/
theorem read_write_row1 {sp : Space} (M : Memref sig .tc sp S200000x1 .f32) (hM : M.IsWhole) (off : Fin 2 → ℕ)
    (inb : ∀ a, off a + S1x1.size a ≤ S200000x1.size a) (h0 : off 0 = r) (h1 : off 1 = 0)
    (f : M.view.ty.Contents Val) (w : S1.Idx → Val .f32) :
    M.view.read Val (((M.slice (Rect.unit (s := S200000x1) off S1x1.size inb) (fun _ => rfl)).squeeze S1
        squeezes_S1x1_S1).view.write Val f w Finset.univ)
      = fun j : S200000x1.Idx =>
          if (j 0).val = r then w (ValueIdx.ix1 (j 1 : Fin 1)) else M.view.read Val f j :=
  funext fun j => read_write_row_apply M off inb squeezes_S1x1_S1 h0 h1 (row_lt1 off inb h0) f w j

/-- The row view of a 16 × 128 block at row p reads row p of the block. -/
theorem read_blockrow128 {sp : Space} (B : Memref sig .tc sp S16x128 .f32) (hB : B.IsWhole) (p : Fin 16)
    (off : Fin 2 → ℕ) (inb : ∀ a, off a + S1x128.size a ≤ S16x128.size a) (h0 : off 0 = p.val) (h1 : off 1 = 0)
    (g : B.view.ty.Contents Val) :
    ((B.slice (Rect.unit (s := S16x128) off S1x128.size inb) (fun _ => rfl)).squeeze S128
        squeezes_S1x128_S128).view.read Val g
      = fun k : S128.Idx => B.view.read Val g (ValueIdx.ix2 p (k 0 : Fin 128)) :=
  funext fun k => read_row_apply B off inb squeezes_S1x128_S128 h0 h1 p.isLt g k

/-- A write through the row view of a 16 × 128 block at row p replaces row p by the payload and nothing else. -/
theorem read_write_blockrow128 {sp : Space} (B : Memref sig .tc sp S16x128 .f32) (hB : B.IsWhole) (p : Fin 16)
    (off : Fin 2 → ℕ) (inb : ∀ a, off a + S1x128.size a ≤ S16x128.size a) (h0 : off 0 = p.val) (h1 : off 1 = 0)
    (g : B.view.ty.Contents Val) (w : S128.Idx → Val .f32) :
    B.view.read Val (((B.slice (Rect.unit (s := S16x128) off S1x128.size inb) (fun _ => rfl)).squeeze S128
        squeezes_S1x128_S128).view.write Val g w Finset.univ)
      = fun j : S16x128.Idx =>
          if (j 0).val = p.val then w (ValueIdx.ix1 (j 1 : Fin 128)) else B.view.read Val g j :=
  funext fun j => read_write_row_apply B off inb squeezes_S1x128_S128 h0 h1 p.isLt g w j

/-- The row view of a 16 × 1 block at row p reads row p of the block. -/
theorem read_blockrow1 {sp : Space} (B : Memref sig .tc sp S16x1 .f32) (hB : B.IsWhole) (p : Fin 16)
    (off : Fin 2 → ℕ) (inb : ∀ a, off a + S1x1.size a ≤ S16x1.size a) (h0 : off 0 = p.val) (h1 : off 1 = 0)
    (g : B.view.ty.Contents Val) :
    ((B.slice (Rect.unit (s := S16x1) off S1x1.size inb) (fun _ => rfl)).squeeze S1
        squeezes_S1x1_S1).view.read Val g
      = fun k : S1.Idx => B.view.read Val g (ValueIdx.ix2 p (k 0 : Fin 1)) :=
  funext fun k => read_row_apply B off inb squeezes_S1x1_S1 h0 h1 p.isLt g k

/-- A write through the row view of a 16 × 1 block at row p replaces row p by the payload and nothing else. -/
theorem read_write_blockrow1 {sp : Space} (B : Memref sig .tc sp S16x1 .f32) (hB : B.IsWhole) (p : Fin 16)
    (off : Fin 2 → ℕ) (inb : ∀ a, off a + S1x1.size a ≤ S16x1.size a) (h0 : off 0 = p.val) (h1 : off 1 = 0)
    (g : B.view.ty.Contents Val) (w : S1.Idx → Val .f32) :
    B.view.read Val (((B.slice (Rect.unit (s := S16x1) off S1x1.size inb) (fun _ => rfl)).squeeze S1
        squeezes_S1x1_S1).view.write Val g w Finset.univ)
      = fun j : S16x1.Idx =>
          if (j 0).val = p.val then w (ValueIdx.ix1 (j 1 : Fin 1)) else B.view.read Val g j :=
  funext fun j => read_write_row_apply B off inb squeezes_S1x1_S1 h0 h1 p.isLt g w j

end Tables

end Cert.KernelIdeal.RowViews
-- ==== Proof.ScatterRows.lean ====
/- Overwriting rows of a table by a scatter whose body returns the update (`x.at[ids].set(rows)`) is the same
   function as writing the rows of the update one after the other, row `k` into table row `ids k`, in the order
   `k = 0, 1, …`: a later write to a row replaces an earlier one. The scatter is a left fold over the update
   positions in row-major order; the fold over a prefix of the positions is characterised position by position for
   any dimension numbers, then computed row by row for the dimension numbers of a row scatter (window axis 1,
   inserted axis 0, one signed index per row, every index inside the table). -/
import proofs.«423553_j10307921510829_1_alg».proof.ReferenceIdeal
import Idealize.ShloMosaic.Lib.ValueIdx

noncomputable section

open Idealize.ShloMosaic Idealize.ShloMosaic.ValueIdx

namespace Cert.Proof.ScatterRows

variable {α : Type}

/-! ## A scatter whose body returns the update, as a fold over prefixes of the update positions -/

section General
variable {s si u : Shape} {w : Nat} (d : ScatterDims s si u)

/-- One step of the scatter's fold when its body returns the update: the update at row-major position `n`
    replaces the element at its result index, and is dropped when it has none. -/
def setStep (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The fold over the first `m` update positions in row-major order. -/
def setPrefix (x : s.Idx → α) (idx : IVec si w) (upd : u.Idx → α) (m : Nat) : s.Idx → α :=
  ((List.finRange u.numel).take m).foldl (setStep d idx upd) x

/-- The scatter is the fold over all the update positions. -/
theorem scatter_eq_setPrefix (x : s.Idx → α) (idx : IVec si w) (upd : u.Idx → α) :
    Host.scatter d (fun _ b => b) x idx upd = setPrefix d x idx upd u.numel := by
  unfold Host.scatter setPrefix
  rw [List.take_of_length_le (by simp)]
  rfl

theorem setPrefix_zero (x : s.Idx → α) (idx : IVec si w) (upd : u.Idx → α) : setPrefix d x idx upd 0 = x := rfl

/-- GENERAL LEMMA (any dimension numbers): one more update position. At an index `i` the fold over the first
    `m + 1` positions is the update at position `m` when that position's result index is `i`, and the fold over
    the first `m` positions otherwise. Hence the scatter at `i` is the update at the LAST position whose result
    index is `i`, and the operand at `i` when there is none. -/
theorem setPrefix_succ (x : s.Idx → α) (idx : IVec si w) (upd : u.Idx → α) (m : Nat) (hm : m < u.numel) (i : s.Idx) :
    setPrefix d x idx upd (m + 1) i
      = if d.resultIdx? (u.rowMajor.symm ⟨m, hm⟩) idx = some i then upd (u.rowMajor.symm ⟨m, hm⟩)
        else setPrefix d x idx upd m i := by
  unfold setPrefix
  rw [List.take_succ_eq_append_getElem (by simpa using hm), List.foldl_append]
  simp only [List.foldl_cons, List.foldl_nil, List.getElem_finRange, Fin.cast_mk]
  generalize List.foldl (setStep d idx upd) x (List.take m (List.finRange u.numel)) = r
  unfold setStep
  cases h : d.resultIdx? (u.rowMajor.symm ⟨m, hm⟩) idx with
  | none => simp
  | some i0 =>
    simp only [Option.some.injEq]
    by_cases hi : i = i0
    · subst hi; simp
    · rw [if_neg hi, if_neg (fun e => hi e.symm)]

/-- No later position lands on `i`: the fold at `i` does not change. -/
theorem setPrefix_of_no_hit (x : s.Idx → α) (idx : IVec si w) (upd : u.Idx → α) (i : s.Idx) (m : Nat) :
    ∀ k, m + k ≤ u.numel → (∀ n : Fin u.numel, m ≤ n.val → n.val < m + k → d.resultIdx? (u.rowMajor.symm n) idx ≠ some i) →
      setPrefix d x idx upd (m + k) i = setPrefix d x idx upd m i
  | 0, _, _ => rfl
  | k + 1, hk, hno => by
    have hlt : m + k < u.numel := by omega
    rw [← Nat.add_assoc, setPrefix_succ d x idx upd (m + k) hlt i,
      if_neg (hno ⟨m + k, hlt⟩ (Nat.le_add_right m k) (by show m + k < m + (k + 1); omega))]
    exact setPrefix_of_no_hit x idx upd i m k (by omega) fun n h1 h2 => hno n h1 (by omega)

/-- GENERAL LEMMA, closed form: the scatter at `i` is the update at a position whose result index is `i` and after
    which no position's result index is `i`. -/
theorem scatter_apply_of_last (x : s.Idx → α) (idx : IVec si w) (upd : u.Idx → α) (i : s.Idx) (n : Fin u.numel)
    (hn : d.resultIdx? (u.rowMajor.symm n) idx = some i)
    (hlast : ∀ n' : Fin u.numel, n.val < n'.val → d.resultIdx? (u.rowMajor.symm n') idx ≠ some i) :
    Host.scatter d (fun _ b => b) x idx upd i = upd (u.rowMajor.symm n) := by
  have hlt := n.isLt
  have key := setPrefix_of_no_hit d x idx upd i (n.val + 1) (u.numel - (n.val + 1)) (by omega)
    (fun n' h1 _ => hlast n' (by omega))
  have e : n.val + 1 + (u.numel - (n.val + 1)) = u.numel := by omega
  rw [e] at key
  rw [scatter_eq_setPrefix, key, setPrefix_succ d x idx upd n.val n.isLt i, if_pos hn]

/-- GENERAL LEMMA, closed form: where no position's result index is `i` the scatter leaves the operand. -/
theorem scatter_apply_of_none (x : s.Idx → α) (idx : IVec si w) (upd : u.Idx → α) (i : s.Idx)
    (hno : ∀ n : Fin u.numel, d.resultIdx? (u.rowMajor.symm n) idx ≠ some i) :
    Host.scatter d (fun _ b => b) x idx upd i = x i := by
  rw [scatter_eq_setPrefix]
  have := setPrefix_of_no_hit d x idx upd i 0 u.numel (by omega) (fun n _ _ => hno n)
  rw [Nat.zero_add] at this
  exact this

end General

/-! ## The row scatter `x.at[ids].set(rows)`: update window axis 1, inserted axis 0, one index per row -/

section Rows
variable {R N C w : Nat}

/-- The table after the first `n` rows of the update have been written one after the other, row `k` of the update
    into table row `ids k`. -/
def rowsAfter (x : Shape.Idx ⟨2, ![R, C]⟩ → α) (ids : Fin N → Nat) (upd : Shape.Idx ⟨2, ![N, C]⟩ → α) :
    Nat → Shape.Idx ⟨2, ![R, C]⟩ → α
  | 0 => x
  | n + 1 => fun i =>
    if h : n < N then (if (i 0).val = ids ⟨n, h⟩ then upd (ix2 ⟨n, h⟩ (i 1)) else rowsAfter x ids upd n i)
    else rowsAfter x ids upd n i

theorem rowsAfter_of_ge (x : Shape.Idx ⟨2, ![R, C]⟩ → α) (ids : Fin N → Nat) (upd : Shape.Idx ⟨2, ![N, C]⟩ → α) :
    ∀ k, rowsAfter x ids upd (N + k) = rowsAfter x ids upd N
  | 0 => rfl
  | k + 1 => by
    funext i
    show (if h : N + k < N then _ else rowsAfter x ids upd (N + k) i) = _
    rw [dif_neg (by omega), rowsAfter_of_ge x ids upd k]

variable (d : ScatterDims ⟨2, ![R, C]⟩ ⟨2, ![N, 1]⟩ ⟨2, ![N, C]⟩)

/-- On the scattered axis the start is the row's index, read signed. -/
theorem rowDims_start0 (huw : d.updateWindowDims = [1]) (hiw : d.insertedWindowDims = [0])
    (hsd : d.scatterDimsToOperandDims = [0]) (hiv : d.indexVectorDim = 1) (idx : IVec ⟨2, ![N, 1]⟩ w)
    (k : Fin N) (c : Fin C) :
    d.start (ix2 k c) idx 0 = (idx (ix2 k (0 : Fin 1))).toInt := by
  obtain ⟨uw, iw, sd, iv, wf⟩ := d
  simp only at huw hiw hsd hiv
  subst huw hiw hsd hiv
  unfold ScatterDims.start
  rw [dif_pos (by simp)]
  congr 2
  funext b
  match b with
  | ⟨0, _⟩ => rfl
  | ⟨1, _⟩ => rfl

/-- On the window axis the start is zero. -/
theorem rowDims_start1 (hsd : d.scatterDimsToOperandDims = [0]) (idx : IVec ⟨2, ![N, 1]⟩ w)
    (j : Shape.Idx ⟨2, ![N, C]⟩) : d.start j idx 1 = 0 := by
  unfold ScatterDims.start
  rw [dif_neg (by rw [hsd]; show (1 : Fin 2) ∉ ([0] : List (Fin 2)); decide)]

/-- The scattered axis is inserted: no window coordinate. -/
theorem rowDims_window0 (hiw : d.insertedWindowDims = [0]) (j : Shape.Idx ⟨2, ![N, C]⟩) : d.window j 0 = 0 := by
  unfold ScatterDims.window
  rw [dif_neg (by
    rw [ScatterDims.sKept, hiw]
    show (0 : Fin 2) ∉ (List.finRange 2).filter (fun a => decide (a ∉ ([0] : List (Fin 2))))
    decide)]

/-- The window coordinate on axis 1 is the update's column. -/
theorem rowDims_window1 (huw : d.updateWindowDims = [1]) (hiw : d.insertedWindowDims = [0])
    (j : Shape.Idx ⟨2, ![N, C]⟩) : d.window j 1 = (j 1).val := by
  obtain ⟨uw, iw, sd, iv, wf⟩ := d
  simp only at huw hiw
  subst huw hiw
  unfold ScatterDims.window
  split
  · rfl
  · rename_i ha
    exact absurd (show (1 : Fin 2) ∈ (List.finRange 2).filter (fun a => decide (a ∉ ([0] : List (Fin 2)))) by decide) ha

/-- The update index `(k, c)` lands at `(row index of k, c)` when that row is inside the table. -/
theorem rowDims_resultIdx (huw : d.updateWindowDims = [1]) (hiw : d.insertedWindowDims = [0])
    (hsd : d.scatterDimsToOperandDims = [0]) (hiv : d.indexVectorDim = 1) (idx : IVec ⟨2, ![N, 1]⟩ w)
    (k : Fin N) (c : Fin C) (hlo : 0 ≤ (idx (ix2 k (0 : Fin 1))).toInt) (hhi : (idx (ix2 k (0 : Fin 1))).toInt < R) :
    d.resultIdx? (ix2 k c) idx
      = some (ix2 (⟨(idx (ix2 k (0 : Fin 1))).toInt.toNat, by omega⟩ : Fin R) c) := by
  have h0 := rowDims_start0 d huw hiw hsd hiv idx k c
  have h1 := rowDims_start1 d hsd idx (ix2 k c)
  have w0 := rowDims_window0 d hiw (ix2 k c)
  have w1 := rowDims_window1 d huw hiw (ix2 k c)
  have hc : (c.val : Int) < C := by exact_mod_cast c.isLt
  unfold ScatterDims.resultIdx?
  rw [dif_pos (fun a => by
    match a with
    | ⟨0, _⟩ =>
      show 0 ≤ d.start (ix2 k c) idx 0 + (d.window (ix2 k c) 0 : Int)
        ∧ d.start (ix2 k c) idx 0 + (d.window (ix2 k c) 0 : Int) < (R : Int)
      rw [h0, w0]; omega
    | ⟨1, _⟩ =>
      show 0 ≤ d.start (ix2 k c) idx 1 + (d.window (ix2 k c) 1 : Int)
        ∧ d.start (ix2 k c) idx 1 + (d.window (ix2 k c) 1 : Int) < (C : Int)
      rw [h1, w1]; show 0 ≤ 0 + (c.val : Int) ∧ 0 + (c.val : Int) < (C : Int); omega)]
  congr 1
  funext a
  match a with
  | ⟨0, _⟩ =>
    apply Fin.ext
    show (d.start (ix2 k c) idx 0 + (d.window (ix2 k c) 0 : Int)).toNat = (idx (ix2 k (0 : Fin 1))).toInt.toNat
    rw [h0, w0]; omega
  | ⟨1, _⟩ =>
    apply Fin.ext
    show (d.start (ix2 k c) idx 1 + (d.window (ix2 k c) 1 : Int)).toNat = c.val
    rw [h1, w1]; show (0 + (c.val : Int)).toNat = c.val; omega

/-- The update has `N * C` positions. -/
theorem numel_NC : (⟨2, ![N, C]⟩ : Shape).numel = N * C := by
  simp [Shape.numel, Fin.prod_univ_two]

/-- Position `n * C + c` of the update is row `n`, column `c`. -/
theorem rowMajor_symm_ix2 (n c : Nat) (hn : n < N) (hc : c < C) (h : n * C + c < (⟨2, ![N, C]⟩ : Shape).numel) :
    (⟨2, ![N, C]⟩ : Shape).rowMajor.symm ⟨n * C + c, h⟩ = ix2 (⟨n, hn⟩ : Fin N) (⟨c, hc⟩ : Fin C) := by
  rw [Equiv.symm_apply_eq]
  apply Fin.ext
  rw [Shape.rowMajor_val_two]
  rfl

theorem pos_lt_numel {n c : Nat} (hn : n < N) (hc : c < C) : n * C + c < (⟨2, ![N, C]⟩ : Shape).numel := by
  rw [numel_NC]
  calc n * C + c < n * C + C := by omega
    _ = (n + 1) * C := (Nat.succ_mul n C).symm
    _ ≤ N * C := Nat.mul_le_mul_right C hn

/-- An index is `(a, b)` exactly when its coordinates are `a` and `b`. -/
theorem some_ix2_eq_iff {n0 n1 : Nat} (a : Fin n0) (b : Fin n1) (i : Shape.Idx ⟨2, ![n0, n1]⟩) :
    some (ix2 a b) = some i ↔ (i 0).val = a.val ∧ (i 1).val = b.val := by
  rw [Option.some.injEq]
  constructor
  · intro h; rw [← h]; exact ⟨rfl, rfl⟩
  · intro h
    funext a'
    match a' with
    | ⟨0, _⟩ => exact Fin.ext h.1.symm
    | ⟨1, _⟩ => exact Fin.ext h.2.symm

variable (huw : d.updateWindowDims = [1]) (hiw : d.insertedWindowDims = [0])
  (hsd : d.scatterDimsToOperandDims = [0]) (hiv : d.indexVectorDim = 1)
  (x : Shape.Idx ⟨2, ![R, C]⟩ → α) (idx : IVec ⟨2, ![N, 1]⟩ w) (upd : Shape.Idx ⟨2, ![N, C]⟩ → α)
  (hin : ∀ k : Fin N, 0 ≤ (idx (ix2 k (0 : Fin 1))).toInt ∧ (idx (ix2 k (0 : Fin 1))).toInt < R)

include huw hiw hsd hiv hin in
/-- Within row `n` of the update: after its first `c` columns, the table's row `ids n` holds the update's row in
    the columns below `c`, and everything else is as before the row. -/
theorem setPrefix_row (n : Nat) (hn : n < N) (i : Shape.Idx ⟨2, ![R, C]⟩) :
    ∀ c, c ≤ C → setPrefix d x idx upd (n * C + c) i
      = if (i 0).val = (idx (ix2 (⟨n, hn⟩ : Fin N) (0 : Fin 1))).toInt.toNat ∧ (i 1).val < c
        then upd (ix2 (⟨n, hn⟩ : Fin N) (i 1)) else setPrefix d x idx upd (n * C) i
  | 0, _ => by rw [if_neg (fun h => Nat.not_lt_zero _ h.2)]; rfl
  | c + 1, hc => by
    have hc' : c < C := hc
    have hpos := pos_lt_numel (N := N) hn hc'
    rw [← Nat.add_assoc, setPrefix_succ d x idx upd (n * C + c) hpos i, rowMajor_symm_ix2 n c hn hc' hpos,
      rowDims_resultIdx d huw hiw hsd hiv idx ⟨n, hn⟩ ⟨c, hc'⟩ (hin ⟨n, hn⟩).1 (hin ⟨n, hn⟩).2,
      setPrefix_row n hn i c (Nat.le_of_lt hc')]
    by_cases h0 : (i 0).val = (idx (ix2 (⟨n, hn⟩ : Fin N) (0 : Fin 1))).toInt.toNat
    · by_cases h1 : (i 1).val = c
      · have e1 : (⟨c, hc'⟩ : Fin C) = i 1 := Fin.ext h1.symm
        rw [if_pos ((some_ix2_eq_iff _ _ i).2 ⟨h0, h1⟩), if_pos ⟨h0, by omega⟩, e1]
      · rw [if_neg (fun h => h1 ((some_ix2_eq_iff _ _ i).1 h).2)]
        by_cases h2 : (i 1).val < c
        · rw [if_pos ⟨h0, h2⟩, if_pos ⟨h0, by omega⟩]
        · rw [if_neg (fun h => h2 h.2), if_neg (fun h => by have := h.2; omega)]
    · rw [if_neg (fun h => h0 ((some_ix2_eq_iff _ _ i).1 h).1), if_neg (fun h => h0 h.1), if_neg (fun h => h0 h.1)]

include huw hiw hsd hiv hin in
/-- The fold over the first `n` rows of the update is the table after `n` row writes. -/
theorem setPrefix_rows : ∀ n, n ≤ N →
    setPrefix d x idx upd (n * C) = rowsAfter x (fun k => (idx (ix2 k (0 : Fin 1))).toInt.toNat) upd n
  | 0, _ => by rw [Nat.zero_mul]; rfl
  | n + 1, hn => by
    have hn' : n < N := hn
    funext i
    rw [Nat.succ_mul, setPrefix_row d huw hiw hsd hiv x idx upd hin n hn' i C (Nat.le_refl C),
      setPrefix_rows n (Nat.le_of_lt hn')]
    show _ = (if h : n < N then _ else _)
    rw [dif_pos hn']
    by_cases h0 : (i 0).val = (idx (ix2 (⟨n, hn'⟩ : Fin N) (0 : Fin 1))).toInt.toNat
    · rw [if_pos ⟨h0, idx2_lt1 i⟩, if_pos h0]
    · rw [if_neg (fun h => h0 h.1), if_neg h0]

include huw hiw hsd hiv hin in
/-- The row scatter is the table after all `N` row writes, in the order of the rows. -/
theorem scatter_eq_rowsAfter :
    Host.scatter d (fun _ b => b) x idx upd
      = rowsAfter x (fun k => (idx (ix2 k (0 : Fin 1))).toInt.toNat) upd N := by
  rw [scatter_eq_setPrefix, numel_NC, setPrefix_rows d huw hiw hsd hiv x idx upd hin N (Nat.le_refl N)]

end Rows

/-! ## The two scatters of the reference program -/

section Literal
open Cert.ReferenceIdeal

/-- The 128-column table after the first `n` of the 4096 rows of the update have been written one after the other,
    row `k` of the update into table row `ids k`; a later write to a row replaces an earlier one. -/
def rowsAfter128 (x : S200000x128.Idx → α) (ids : Fin 4096 → Nat) (upd : S4096x128.Idx → α) :
    Nat → S200000x128.Idx → α
  | 0 => x
  | n + 1 => fun i =>
    if h : n < 4096 then (if (i 0).val = ids ⟨n, h⟩ then upd (ix2 ⟨n, h⟩ (i 1)) else rowsAfter128 x ids upd n i)
    else rowsAfter128 x ids upd n i

/-- The same for the one-column table. -/
def rowsAfter1 (x : S200000x1.Idx → α) (ids : Fin 4096 → Nat) (upd : S4096x1.Idx → α) :
    Nat → S200000x1.Idx → α
  | 0 => x
  | n + 1 => fun i =>
    if h : n < 4096 then (if (i 0).val = ids ⟨n, h⟩ then upd (ix2 ⟨n, h⟩ (i 1)) else rowsAfter1 x ids upd n i)
    else rowsAfter1 x ids upd n i

theorem rowsAfter128_zero (x : S200000x128.Idx → α) (ids : Fin 4096 → Nat) (upd : S4096x128.Idx → α) :
    rowsAfter128 x ids upd 0 = x := rfl

/-- Row write `n`: table row `ids n` takes row `n` of the update, every other row stays. -/
theorem rowsAfter128_succ (x : S200000x128.Idx → α) (ids : Fin 4096 → Nat) (upd : S4096x128.Idx → α) (n : Nat)
    (i : S200000x128.Idx) :
    rowsAfter128 x ids upd (n + 1) i
      = if h : n < 4096 then (if (i 0).val = ids ⟨n, h⟩ then upd (ix2 ⟨n, h⟩ (i 1)) else rowsAfter128 x ids upd n i)
        else rowsAfter128 x ids upd n i := rfl

theorem rowsAfter1_zero (x : S200000x1.Idx → α) (ids : Fin 4096 → Nat) (upd : S4096x1.Idx → α) :
    rowsAfter1 x ids upd 0 = x := rfl

theorem rowsAfter1_succ (x : S200000x1.Idx → α) (ids : Fin 4096 → Nat) (upd : S4096x1.Idx → α) (n : Nat)
    (i : S200000x1.Idx) :
    rowsAfter1 x ids upd (n + 1) i
      = if h : n < 4096 then (if (i 0).val = ids ⟨n, h⟩ then upd (ix2 ⟨n, h⟩ (i 1)) else rowsAfter1 x ids upd n i)
        else rowsAfter1 x ids upd n i := rfl

theorem rowsAfter128_eq (x : S200000x128.Idx → α) (ids : Fin 4096 → Nat) (upd : S4096x128.Idx → α) :
    ∀ n, rowsAfter128 x ids upd n = rowsAfter (R := 200000) (N := 4096) (C := 128) x ids upd n
  | 0 => rfl
  | n + 1 => by
    funext i
    rw [rowsAfter128_succ, rowsAfter128_eq x ids upd n]
    rfl

theorem rowsAfter1_eq (x : S200000x1.Idx → α) (ids : Fin 4096 → Nat) (upd : S4096x1.Idx → α) :
    ∀ n, rowsAfter1 x ids upd n = rowsAfter (R := 200000) (N := 4096) (C := 1) x ids upd n
  | 0 => rfl
  | n + 1 => by
    funext i
    rw [rowsAfter1_succ, rowsAfter1_eq x ids upd n]
    rfl

/-- After the last row nothing more is written. -/
theorem rowsAfter128_of_ge (x : S200000x128.Idx → α) (ids : Fin 4096 → Nat) (upd : S4096x128.Idx → α) (n : Nat)
    (hn : 4096 ≤ n) : rowsAfter128 x ids upd n = rowsAfter128 x ids upd 4096 := by
  obtain ⟨k, rfl⟩ := Nat.exists_eq_add_of_le hn
  rw [rowsAfter128_eq, rowsAfter128_eq, rowsAfter_of_ge]

theorem rowsAfter1_of_ge (x : S200000x1.Idx → α) (ids : Fin 4096 → Nat) (upd : S4096x1.Idx → α) (n : Nat)
    (hn : 4096 ≤ n) : rowsAfter1 x ids upd n = rowsAfter1 x ids upd 4096 := by
  obtain ⟨k, rfl⟩ := Nat.exists_eq_add_of_le hn
  rw [rowsAfter1_eq, rowsAfter1_eq, rowsAfter_of_ge]

/-- A 32-bit word below 200000 reads the same signed and unsigned. -/
theorem toInt_of_lt (v : BitVec 32) (h : v.toNat < 200000) : v.toInt = (v.toNat : Int) :=
  BitVec.toInt_eq_toNat_of_lt (by omega)

/-- The reference's scatter into the 128-column table is the 4096 row writes in the order of the rows. -/
theorem scatter128_eq_rows [Facts₀] (x : S200000x128.Idx → α) (idx : IVec S4096x1 32) (upd : S4096x128.Idx → α)
    (hin : ∀ k : Fin 4096, (idx (ix2 k (0 : Fin 1))).toNat < 200000) :
    Host.scatter scatter_S200000x128_S4096x1_S4096x128_1_0_0_1 (fun _ b => b) x idx upd
      = rowsAfter128 x (fun k => (idx (ix2 k (0 : Fin 1))).toNat) upd 4096 := by
  have hids : (fun k : Fin 4096 => (idx (ix2 k (0 : Fin 1))).toInt.toNat) = fun k => (idx (ix2 k (0 : Fin 1))).toNat :=
    funext fun k => by have := toInt_of_lt _ (hin k); omega
  rw [rowsAfter128_eq, ← hids]
  exact scatter_eq_rowsAfter (R := 200000) (N := 4096) (C := 128) scatter_S200000x128_S4096x1_S4096x128_1_0_0_1
    rfl rfl rfl rfl x idx upd (fun k => by have := toInt_of_lt _ (hin k); have := hin k; omega)

/-- The reference's scatter into the one-column table is the 4096 row writes in the order of the rows. -/
theorem scatter1_eq_rows [Facts₀] (x : S200000x1.Idx → α) (idx : IVec S4096x1 32) (upd : S4096x1.Idx → α)
    (hin : ∀ k : Fin 4096, (idx (ix2 k (0 : Fin 1))).toNat < 200000) :
    Host.scatter scatter_S200000x1_S4096x1_S4096x1_1_0_0_1 (fun _ b => b) x idx upd
      = rowsAfter1 x (fun k => (idx (ix2 k (0 : Fin 1))).toNat) upd 4096 := by
  have hids : (fun k : Fin 4096 => (idx (ix2 k (0 : Fin 1))).toInt.toNat) = fun k => (idx (ix2 k (0 : Fin 1))).toNat :=
    funext fun k => by have := toInt_of_lt _ (hin k); omega
  rw [rowsAfter1_eq, ← hids]
  exact scatter_eq_rowsAfter (R := 200000) (N := 4096) (C := 1) scatter_S200000x1_S4096x1_S4096x1_1_0_0_1
    rfl rfl rfl rfl x idx upd (fun k => by have := toInt_of_lt _ (hin k); have := hin k; omega)

end Literal

end Cert.Proof.ScatterRows

end
-- ==== Proof.KI.ScatterStep.lean ====
/- The scatter kernel's body at one grid point, read as a function on the four tables. The run of the body leaves each
   table as sixteen nested row writes; here each write is read as "row r of the table replaced": r is the unsigned value
   of the table word at position 16·t + p (the 32-bit computation of that position does not wrap, t being below 256 and p
   below 16), and the new row is row p of the point's input block, or the zero word for the two flag columns. So a point
   is one block of 16 ordered row writes, and sixteen steps of a row-by-row recurrence over all 4096 update rows are one
   such block: the fold over the grid. -/
import proofs.«423553_j10307921510829_1_alg».proof.Proof.KI.Data1
import proofs.«423553_j10307921510829_1_alg».proof.Proof.KI.RowViews
import proofs.«423553_j10307921510829_1_alg».proof.Proof.ScatterRows

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Sixteen row writes as one fold -/

/-- A left fold over 0, 1, …, n-1 whose m-th step takes g m to g (m+1) ends at g n. -/
theorem foldl_finRange_eq {β : Type} : ∀ (n : ℕ) (f : β → Fin n → β) (g : ℕ → β),
    (∀ (m : ℕ) (h : m < n), f (g m) ⟨m, h⟩ = g (m + 1)) → (List.finRange n).foldl f (g 0) = g n
  | 0, _, _, _ => rfl
  | n + 1, f, g, hstep => by
    rw [List.finRange_succ_last, List.foldl_append, List.foldl_map]
    rw [foldl_finRange_eq n (fun b i => f b i.castSucc) g (fun m h => hstep m (Nat.lt_succ_of_lt h))]
    exact hstep n (Nat.lt_succ_self n)

section Pure

variable {α : Type}

/-- Sixteen steps of a row-by-row recurrence over 4096 update rows are one block of 16 rows: if step m writes update
    row m at the row ids m names, then the 16 rows of block t, written in order over the state after 16·t steps, give the
    state after 16·(t+1) steps. -/
theorem rows16_128_eq_of_succ (R : ℕ → S200000x128.Idx → α) (ids : Fin 4096 → ℕ) (upd : S4096x128.Idx → α)
    (hsucc : ∀ (m : ℕ) (h : m < 4096),
      R (m + 1) = setRow128 (R m) (ids ⟨m, h⟩) (fun k => upd (ValueIdx.ix2 (⟨m, h⟩ : Fin 4096) k)))
    (t : ℕ) (ht : t < 256) :
    rows16_128 (R (16 * t)) (fun p => ids ⟨16 * t + p.val, by omega⟩)
        (fun q => upd (ValueIdx.ix2 (⟨16 * t + (q 0).val, by have : (q 0).val < 16 := (q 0).isLt; omega⟩ : Fin 4096)
          (q 1 : Fin 128)))
      = R (16 * (t + 1)) := by
  unfold rows16_128
  exact foldl_finRange_eq 16 _ (fun m => R (16 * t + m)) (fun m h => (hsucc (16 * t + m) (by omega)).symm)

/-- The same for a one-column table and a constant word. -/
theorem rowsConst16_eq_of_succ (R : ℕ → S200000x1.Idx → α) (ids : Fin 4096 → ℕ) (z : α)
    (hsucc : ∀ (m : ℕ) (h : m < 4096), R (m + 1) = setRow1 (R m) (ids ⟨m, h⟩) z)
    (t : ℕ) (ht : t < 256) :
    rowsConst16 (R (16 * t)) (fun p => ids ⟨16 * t + p.val, by omega⟩) z = R (16 * (t + 1)) := by
  unfold rowsConst16
  exact foldl_finRange_eq 16 _ (fun m => R (16 * t + m)) (fun m h => (hsucc (16 * t + m) (by omega)).symm)

/-- The 16 rows of a block written in order, as sixteen nested single-row writes. -/
theorem rows16_128_nest (X : S200000x128.Idx → α) (id : Fin 16 → ℕ) (x : S16x128.Idx → α) :
    rows16_128 X id x =
      setRow128 (setRow128 (setRow128 (setRow128 (setRow128 (setRow128 (setRow128 (setRow128 (setRow128 (setRow128
      (setRow128 (setRow128 (setRow128 (setRow128 (setRow128 (setRow128 X
        (id 0) (fun k => x (ValueIdx.ix2 0 k))) (id 1) (fun k => x (ValueIdx.ix2 1 k)))
        (id 2) (fun k => x (ValueIdx.ix2 2 k))) (id 3) (fun k => x (ValueIdx.ix2 3 k)))
        (id 4) (fun k => x (ValueIdx.ix2 4 k))) (id 5) (fun k => x (ValueIdx.ix2 5 k)))
        (id 6) (fun k => x (ValueIdx.ix2 6 k))) (id 7) (fun k => x (ValueIdx.ix2 7 k)))
        (id 8) (fun k => x (ValueIdx.ix2 8 k))) (id 9) (fun k => x (ValueIdx.ix2 9 k)))
        (id 10) (fun k => x (ValueIdx.ix2 10 k))) (id 11) (fun k => x (ValueIdx.ix2 11 k)))
        (id 12) (fun k => x (ValueIdx.ix2 12 k))) (id 13) (fun k => x (ValueIdx.ix2 13 k)))
        (id 14) (fun k => x (ValueIdx.ix2 14 k))) (id 15) (fun k => x (ValueIdx.ix2 15 k)) := by
  unfold rows16_128
  simp only [List.finRange_succ_last, List.finRange_zero, List.map_nil, List.nil_append, List.map_append, List.map_cons,
    List.foldl_append, List.foldl_cons, List.foldl_nil, List.map_map]
  rfl

/-- The same word written at 16 rows in order, as sixteen nested single-entry writes. -/
theorem rowsConst16_nest (X : S200000x1.Idx → α) (id : Fin 16 → ℕ) (z : α) :
    rowsConst16 X id z =
      setRow1 (setRow1 (setRow1 (setRow1 (setRow1 (setRow1 (setRow1 (setRow1 (setRow1 (setRow1 (setRow1 (setRow1
      (setRow1 (setRow1 (setRow1 (setRow1 X
        (id 0) z) (id 1) z) (id 2) z) (id 3) z) (id 4) z) (id 5) z) (id 6) z) (id 7) z)
        (id 8) z) (id 9) z) (id 10) z) (id 11) z) (id 12) z) (id 13) z) (id 14) z) (id 15) z := by
  unfold rowsConst16
  simp only [List.finRange_succ_last, List.finRange_zero, List.map_nil, List.nil_append, List.map_append, List.map_cons,
    List.foldl_append, List.foldl_cons, List.foldl_nil, List.map_map]
  rfl

end Pure

/-! ## The table words a point reads -/

/-- On the grid of 256 points along one axis, point t's coordinate is t. -/
theorem coords1_val (t : Fin grid1.N) : ((grid1.coords t) 0).val = t.val := by
  have hN : grid1.N = 256 := Gen.N_1
  have ht : t.val < 256 := hN ▸ t.isLt
  have hs : grid1.stride 0 = 1 := by decide
  show t.val / grid1.stride 0 % 256 = t.val
  rw [hs, Nat.div_one, Nat.mod_eq_of_lt ht]

/-- The word position 16·t + p, computed in 32-bit arithmetic from the point's coordinate, does not wrap: t is below 256
    and p below 16, so the product and the sum stay below 4096. -/
theorem wordOff (t : Fin grid1.N) (p : ℕ) (hp : p < 16) :
    (Scalar.indexCast (Scalar.addi (Scalar.muli (BitVec.ofNat 32 ((grid1.coords t) 0).val) 16#32) (BitVec.ofNat 32 p))).toNat
      = 16 * t.val + p := by
  have hN : grid1.N = 256 := Gen.N_1
  have ht : t.val < 256 := hN ▸ t.isLt
  rw [coords1_val]
  simp only [Scalar.indexCast, Scalar.addi, Scalar.muli, IntOp.addi, IntOp.muli, BitVec.toNat_add, BitVec.toNat_mul,
    BitVec.toNat_ofNat]
  omega

/-- The position, among the 4096 table words, of row p of point t. -/
def wordIx (t : Fin grid1.N) (p : Fin 16) : Fin 4096 :=
  ⟨16 * t.val + p.val, by have h : t.val < 256 := Gen.N_1 ▸ t.isLt; omega⟩

@[simp] theorem wordIx_val (t : Fin grid1.N) (p : Fin 16) : (wordIx t p).val = 16 * t.val + p.val := rfl

/-- The row numbers of point t's 16 rows, read off a function of the word position. -/
theorem idsAt_wordIx (ids : Fin 4096 → ℕ) (t : Fin grid1.N) : (fun p => ids (wordIx t p)) = idsAt ids t.val := by
  funext p
  have h : 16 * t.val + p.val < 4096 := (wordIx t p).isLt
  unfold idsAt
  rw [dif_pos h]
  rfl

/-- The one word a load reads through the one-element rectangle at offset k of a table of 4096 words is the table's
    word k. -/
theorem word_read {sp : Space} (M : Memref sig .tc sp S4096 .i32) (tb : M.view.ty.Contents (Elt F))
    (off : Fin 1 → ℕ) (inb : ∀ a, off a + S1.size a ≤ S4096.size a)
    (hpos : 0 < (Rect.unit (s := S4096) off S1.size inb).shape.numel) (k : Fin 4096) (hoff : off 0 = k.val) :
    View.readAt (Elt F) M.view (Rect.unit (s := S4096) off S1.size inb).toLoadRect tb (Shape.Idx.first hpos)
      = M.view.read (Elt F) tb (ValueIdx.ix1 k) := by
  rw [View.readAt_apply]
  congr 1
  funext a
  apply Fin.ext
  match a with
  | ⟨0, _⟩ =>
    show off 0 + 1 * 0 = k.val
    omega

/-- The row a slice offset names, when the offset is the unsigned value of the word a point reads at position k of a table:
    the unsigned value of the table's word k. -/
theorem row_of_word {sp : Space} (M : Memref sig .tc sp S4096 .i32) (tb : M.view.ty.Contents (Elt F))
    (off : Fin 1 → ℕ) (inb : ∀ a, off a + S1.size a ≤ S4096.size a)
    (hpos : 0 < (Rect.unit (s := S4096) off S1.size inb).shape.numel) (k : Fin 4096) (hoff : off 0 = k.val)
    (off2 : BitVec 32 → Fin 2 → ℕ) (hoff2 : ∀ w, off2 w 0 = w.toNat) :
    off2 (View.readAt (Elt F) M.view (Rect.unit (s := S4096) off S1.size inb).toLoadRect tb (Shape.Idx.first hpos)) 0
      = (M.view.read (Elt F) tb (ValueIdx.ix1 k)).toNat :=
  (hoff2 _).trans (congrArg BitVec.toNat (word_read M tb off inb hpos k hoff))

/-! ## One row copy -/

/-- One row copy into a 128-wide table: the table read afterwards is the table read before with row r replaced by row p
    of the block the source buffer holds. -/
theorem step128 {sp : Space} (M : Memref sig .tc sp S200000x128 .f32) (hM : M.IsWhole)
    {spB : Space} (B : Memref sig .tc spB S16x128 .f32) (hB : B.IsWhole) (x : S16x128.Idx → Elt F .f32)
    (off : Fin 2 → ℕ) (inb : ∀ a, off a + S1x128.size a ≤ S200000x128.size a)
    (offB : Fin 2 → ℕ) (inbB : ∀ a, offB a + S1x128.size a ≤ S16x128.size a) (p : Fin 16) (r : ℕ)
    (f : M.view.ty.Contents (Elt F)) (X : S200000x128.Idx → Elt F .f32)
    (hX : M.view.read (Elt F) f = X) (h0 : off 0 = r) (h1 : off 1 = 0) (hB0 : offB 0 = p.val) (hB1 : offB 1 = 0) :
    M.view.read (Elt F) (((M.slice (Rect.unit (s := S200000x128) off S1x128.size inb) (fun _ => rfl)).squeeze S128
        squeezes_S1x128_S128).view.write (Elt F) f
          (ReadAs.same.apply (((B.slice (Rect.unit (s := S16x128) offB S1x128.size inbB) (fun _ => rfl)).squeeze S128
            squeezes_S1x128_S128).view.read (Elt F) (hB.unread x))) Finset.univ)
      = setRow128 X r (fun k => x (ValueIdx.ix2 p k)) := by
  rw [RowViews.read_write_row128 M hM off inb h0 h1, RowViews.read_blockrow128 B hB p offB inbB hB0 hB1, hB.read_unread, hX]
  rfl

/-- One word copy into a one-column table: entry r becomes the word copied, every other entry stays. -/
theorem step1 {sp : Space} (M : Memref sig .tc sp S200000x1 .f32) (hM : M.IsWhole)
    (off : Fin 2 → ℕ) (inb : ∀ a, off a + S1x1.size a ≤ S200000x1.size a) (r : ℕ)
    (f : M.view.ty.Contents (Elt F)) (X : S200000x1.Idx → Elt F .f32) (w : S1.Idx → Elt F .f32) (z : Elt F .f32)
    (hX : M.view.read (Elt F) f = X) (h0 : off 0 = r) (h1 : off 1 = 0) (hw : w (ValueIdx.ix1 (0 : Fin 1)) = z) :
    M.view.read (Elt F) (((M.slice (Rect.unit (s := S200000x1) off S1x1.size inb) (fun _ => rfl)).squeeze S1
        squeezes_S1x1_S1).view.write (Elt F) f w Finset.univ)
      = setRow1 X r z := by
  rw [RowViews.read_write_row1 M hM off inb h0 h1, hX]
  funext j
  show (if (j 0).val = r then w (ValueIdx.ix1 (j 1 : Fin 1)) else X j) = if (j 0).val = r then z else X j
  have hj : (ValueIdx.ix1 (j 1 : Fin 1) : S1.Idx) = ValueIdx.ix1 (0 : Fin 1) :=
    congrArg ValueIdx.ix1 (Subsingleton.elim (α := Fin 1) _ _)
  rw [hj, hw]

/-- The scratch word after the body's store of the zero vector over it reads the zero word, whatever it held before. -/
theorem scratch_word (c : Dev nD) (g : Bf (F := F) c (Memref.whole cc1_scratch0)) :
    (ReadAs.same.apply ((Memref.whole cc1_scratch0).view.read (Elt F)
        ((Memref.whole cc1_scratch0).view.writes (Elt F) g
          [⟨Rect.unit (s := S1) ![0] S1.size inb_S1_S1_0, (k1_pay1 (F := F))⟩]))) (ValueIdx.ix1 (0 : Fin 1))
      = zeroWord (F := F) := by
  have e : (ValueIdx.ix1 (0 : Fin 1) : S1.Idx)
      = (Rect.unit (s := S1) ![0] S1.size inb_S1_S1_0).emb (ValueIdx.ix1 (0 : Fin 1)) := by
    funext a
    apply Fin.ext
    match a with
    | ⟨0, _⟩ => rfl
  exact (congrArg ((Memref.whole cc1_scratch0).view.read (Elt F) _) e).trans
    (View.read_writes_cons_emb (Memref.whole cc1_scratch0).view g (Rect.unit (s := S1) ![0] S1.size inb_S1_S1_0)
      (k1_pay1 (F := F)) [] (ValueIdx.ix1 (0 : Fin 1)))

/-! ## What the four tables read after the body at point t

The run leaves each table as sixteen nested row writes over its contents before, outermost the last row's. Each write
is undone from the outside in: the row its offset names is the unsigned value of the table word at position 16·t + p,
and what it writes is row p of the input block (first two tables) or the zero word the scratch holds (the two flag
columns). -/

/-- The first table after the body at point t: the 16 rows of the first input block written, in order, at the rows the
    point's 16 user ids name. -/
theorem scatterRun_read0 (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_0).view.read (Elt F) (scatterRun c t M0 h0 M1 h1 x0 x1 tb0 tb2 f0 f1 f2 f3 g hT0 hT2).1.1
      = rows16_128 ((Memref.whole main_v1_0).view.read (Elt F) f0)
          (fun p => ((Memref.whole main_arg0).view.read (Elt F) tb0 (ValueIdx.ix1 (wordIx t p))).toNat) x0 := by
  rw [rows16_128_nest]
  unfold scatterRun
  dsimp only
  sl_unfold_run_names
  refine step128 _ (Memref.isWhole_whole _) M0 h0 x0 _ _ _ _ (15 : Fin 16) _ _ _ ?_ ?_ rfl rfl rfl
  case refine_2 => exact row_of_word (Memref.whole main_arg0) tb0 (k1_off76 (grid1.coords t)) _ _ (wordIx t 15) (wordOff t 15 (by omega)) k1_off77 (fun _ => rfl)
  refine step128 _ (Memref.isWhole_whole _) M0 h0 x0 _ _ _ _ (14 : Fin 16) _ _ _ ?_ ?_ rfl rfl rfl
  case refine_2 => exact row_of_word (Memref.whole main_arg0) tb0 (k1_off71 (grid1.coords t)) _ _ (wordIx t 14) (wordOff t 14 (by omega)) k1_off72 (fun _ => rfl)
  refine step128 _ (Memref.isWhole_whole _) M0 h0 x0 _ _ _ _ (13 : Fin 16) _ _ _ ?_ ?_ rfl rfl rfl
  case refine_2 => exact row_of_word (Memref.whole main_arg0) tb0 (k1_off66 (grid1.coords t)) _ _ (wordIx t 13) (wordOff t 13 (by omega)) k1_off67 (fun _ => rfl)
  refine step128 _ (Memref.isWhole_whole _) M0 h0 x0 _ _ _ _ (12 : Fin 16) _ _ _ ?_ ?_ rfl rfl rfl
  case refine_2 => exact row_of_word (Memref.whole main_arg0) tb0 (k1_off61 (grid1.coords t)) _ _ (wordIx t 12) (wordOff t 12 (by omega)) k1_off62 (fun _ => rfl)
  refine step128 _ (Memref.isWhole_whole _) M0 h0 x0 _ _ _ _ (11 : Fin 16) _ _ _ ?_ ?_ rfl rfl rfl
  case refine_2 => exact row_of_word (Memref.whole main_arg0) tb0 (k1_off56 (grid1.coords t)) _ _ (wordIx t 11) (wordOff t 11 (by omega)) k1_off57 (fun _ => rfl)
  refine step128 _ (Memref.isWhole_whole _) M0 h0 x0 _ _ _ _ (10 : Fin 16) _ _ _ ?_ ?_ rfl rfl rfl
  case refine_2 => exact row_of_word (Memref.whole main_arg0) tb0 (k1_off51 (grid1.coords t)) _ _ (wordIx t 10) (wordOff t 10 (by omega)) k1_off52 (fun _ => rfl)
  refine step128 _ (Memref.isWhole_whole _) M0 h0 x0 _ _ _ _ (9 : Fin 16) _ _ _ ?_ ?_ rfl rfl rfl
  case refine_2 => exact row_of_word (Memref.whole main_arg0) tb0 (k1_off46 (grid1.coords t)) _ _ (wordIx t 9) (wordOff t 9 (by omega)) k1_off47 (fun _ => rfl)
  refine step128 _ (Memref.isWhole_whole _) M0 h0 x0 _ _ _ _ (8 : Fin 16) _ _ _ ?_ ?_ rfl rfl rfl
  case refine_2 => exact row_of_word (Memref.whole main_arg0) tb0 (k1_off41 (grid1.coords t)) _ _ (wordIx t 8) (wordOff t 8 (by omega)) k1_off42 (fun _ => rfl)
  refine step128 _ (Memref.isWhole_whole _) M0 h0 x0 _ _ _ _ (7 : Fin 16) _ _ _ ?_ ?_ rfl rfl rfl
  case refine_2 => exact row_of_word (Memref.whole main_arg0) tb0 (k1_off36 (grid1.coords t)) _ _ (wordIx t 7) (wordOff t 7 (by omega)) k1_off37 (fun _ => rfl)
  refine step128 _ (Memref.isWhole_whole _) M0 h0 x0 _ _ _ _ (6 : Fin 16) _ _ _ ?_ ?_ rfl rfl rfl
  case refine_2 => exact row_of_word (Memref.whole main_arg0) tb0 (k1_off31 (grid1.coords t)) _ _ (wordIx t 6) (wordOff t 6 (by omega)) k1_off32 (fun _ => rfl)
  refine step128 _ (Memref.isWhole_whole _) M0 h0 x0 _ _ _ _ (5 : Fin 16) _ _ _ ?_ ?_ rfl rfl rfl
  case refine_2 => exact row_of_word (Memref.whole main_arg0) tb0 (k1_off26 (grid1.coords t)) _ _ (wordIx t 5) (wordOff t 5 (by omega)) k1_off27 (fun _ => rfl)
  refine step128 _ (Memref.isWhole_whole _) M0 h0 x0 _ _ _ _ (4 : Fin 16) _ _ _ ?_ ?_ rfl rfl rfl
  case refine_2 => exact row_of_word (Memref.whole main_arg0) tb0 (k1_off21 (grid1.coords t)) _ _ (wordIx t 4) (wordOff t 4 (by omega)) k1_off22 (fun _ => rfl)
  refine step128 _ (Memref.isWhole_whole _) M0 h0 x0 _ _ _ _ (3 : Fin 16) _ _ _ ?_ ?_ rfl rfl rfl
  case refine_2 => exact row_of_word (Memref.whole main_arg0) tb0 (k1_off16 (grid1.coords t)) _ _ (wordIx t 3) (wordOff t 3 (by omega)) k1_off17 (fun _ => rfl)
  refine step128 _ (Memref.isWhole_whole _) M0 h0 x0 _ _ _ _ (2 : Fin 16) _ _ _ ?_ ?_ rfl rfl rfl
  case refine_2 => exact row_of_word (Memref.whole main_arg0) tb0 (k1_off11 (grid1.coords t)) _ _ (wordIx t 2) (wordOff t 2 (by omega)) k1_off12 (fun _ => rfl)
  refine step128 _ (Memref.isWhole_whole _) M0 h0 x0 _ _ _ _ (1 : Fin 16) _ _ _ ?_ ?_ rfl rfl rfl
  case refine_2 => exact row_of_word (Memref.whole main_arg0) tb0 (k1_off6 (grid1.coords t)) _ _ (wordIx t 1) (wordOff t 1 (by omega)) k1_off7 (fun _ => rfl)
  refine step128 _ (Memref.isWhole_whole _) M0 h0 x0 _ _ _ _ (0 : Fin 16) _ _ _ ?_ ?_ rfl rfl rfl
  case refine_2 => exact row_of_word (Memref.whole main_arg0) tb0 (k1_off1 (grid1.coords t)) _ _ (wordIx t 0) (wordOff t 0 (by omega)) k1_off2 (fun _ => rfl)
  rfl

/-- The second table after the body at point t: the 16 rows of the second input block written, in order, at the rows
    the point's 16 item ids name. -/
theorem scatterRun_read1 (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_1).view.read (Elt F) (scatterRun c t M0 h0 M1 h1 x0 x1 tb0 tb2 f0 f1 f2 f3 g hT0 hT2).1.2.1
      = rows16_128 ((Memref.whole main_v1_1).view.read (Elt F) f1)
          (fun p => ((Memref.whole main_arg2).view.read (Elt F) tb2 (ValueIdx.ix1 (wordIx t p))).toNat) x1 := by
  rw [rows16_128_nest]
  unfold scatterRun
  dsimp only
  sl_unfold_run_names
  refine step128 _ (Memref.isWhole_whole _) M1 h1 x1 _ _ _ _ (15 : Fin 16) _ _ _ ?_ ?_ rfl rfl rfl
  case refine_2 => exact row_of_word (Memref.whole main_arg2) tb2 (k1_off76 (grid1.coords t)) _ _ (wordIx t 15) (wordOff t 15 (by omega)) k1_off78 (fun _ => rfl)
  refine step128 _ (Memref.isWhole_whole _) M1 h1 x1 _ _ _ _ (14 : Fin 16) _ _ _ ?_ ?_ rfl rfl rfl
  case refine_2 => exact row_of_word (Memref.whole main_arg2) tb2 (k1_off71 (grid1.coords t)) _ _ (wordIx t 14) (wordOff t 14 (by omega)) k1_off73 (fun _ => rfl)
  refine step128 _ (Memref.isWhole_whole _) M1 h1 x1 _ _ _ _ (13 : Fin 16) _ _ _ ?_ ?_ rfl rfl rfl
  case refine_2 => exact row_of_word (Memref.whole main_arg2) tb2 (k1_off66 (grid1.coords t)) _ _ (wordIx t 13) (wordOff t 13 (by omega)) k1_off68 (fun _ => rfl)
  refine step128 _ (Memref.isWhole_whole _) M1 h1 x1 _ _ _ _ (12 : Fin 16) _ _ _ ?_ ?_ rfl rfl rfl
  case refine_2 => exact row_of_word (Memref.whole main_arg2) tb2 (k1_off61 (grid1.coords t)) _ _ (wordIx t 12) (wordOff t 12 (by omega)) k1_off63 (fun _ => rfl)
  refine step128 _ (Memref.isWhole_whole _) M1 h1 x1 _ _ _ _ (11 : Fin 16) _ _ _ ?_ ?_ rfl rfl rfl
  case refine_2 => exact row_of_word (Memref.whole main_arg2) tb2 (k1_off56 (grid1.coords t)) _ _ (wordIx t 11) (wordOff t 11 (by omega)) k1_off58 (fun _ => rfl)
  refine step128 _ (Memref.isWhole_whole _) M1 h1 x1 _ _ _ _ (10 : Fin 16) _ _ _ ?_ ?_ rfl rfl rfl
  case refine_2 => exact row_of_word (Memref.whole main_arg2) tb2 (k1_off51 (grid1.coords t)) _ _ (wordIx t 10) (wordOff t 10 (by omega)) k1_off53 (fun _ => rfl)
  refine step128 _ (Memref.isWhole_whole _) M1 h1 x1 _ _ _ _ (9 : Fin 16) _ _ _ ?_ ?_ rfl rfl rfl
  case refine_2 => exact row_of_word (Memref.whole main_arg2) tb2 (k1_off46 (grid1.coords t)) _ _ (wordIx t 9) (wordOff t 9 (by omega)) k1_off48 (fun _ => rfl)
  refine step128 _ (Memref.isWhole_whole _) M1 h1 x1 _ _ _ _ (8 : Fin 16) _ _ _ ?_ ?_ rfl rfl rfl
  case refine_2 => exact row_of_word (Memref.whole main_arg2) tb2 (k1_off41 (grid1.coords t)) _ _ (wordIx t 8) (wordOff t 8 (by omega)) k1_off43 (fun _ => rfl)
  refine step128 _ (Memref.isWhole_whole _) M1 h1 x1 _ _ _ _ (7 : Fin 16) _ _ _ ?_ ?_ rfl rfl rfl
  case refine_2 => exact row_of_word (Memref.whole main_arg2) tb2 (k1_off36 (grid1.coords t)) _ _ (wordIx t 7) (wordOff t 7 (by omega)) k1_off38 (fun _ => rfl)
  refine step128 _ (Memref.isWhole_whole _) M1 h1 x1 _ _ _ _ (6 : Fin 16) _ _ _ ?_ ?_ rfl rfl rfl
  case refine_2 => exact row_of_word (Memref.whole main_arg2) tb2 (k1_off31 (grid1.coords t)) _ _ (wordIx t 6) (wordOff t 6 (by omega)) k1_off33 (fun _ => rfl)
  refine step128 _ (Memref.isWhole_whole _) M1 h1 x1 _ _ _ _ (5 : Fin 16) _ _ _ ?_ ?_ rfl rfl rfl
  case refine_2 => exact row_of_word (Memref.whole main_arg2) tb2 (k1_off26 (grid1.coords t)) _ _ (wordIx t 5) (wordOff t 5 (by omega)) k1_off28 (fun _ => rfl)
  refine step128 _ (Memref.isWhole_whole _) M1 h1 x1 _ _ _ _ (4 : Fin 16) _ _ _ ?_ ?_ rfl rfl rfl
  case refine_2 => exact row_of_word (Memref.whole main_arg2) tb2 (k1_off21 (grid1.coords t)) _ _ (wordIx t 4) (wordOff t 4 (by omega)) k1_off23 (fun _ => rfl)
  refine step128 _ (Memref.isWhole_whole _) M1 h1 x1 _ _ _ _ (3 : Fin 16) _ _ _ ?_ ?_ rfl rfl rfl
  case refine_2 => exact row_of_word (Memref.whole main_arg2) tb2 (k1_off16 (grid1.coords t)) _ _ (wordIx t 3) (wordOff t 3 (by omega)) k1_off18 (fun _ => rfl)
  refine step128 _ (Memref.isWhole_whole _) M1 h1 x1 _ _ _ _ (2 : Fin 16) _ _ _ ?_ ?_ rfl rfl rfl
  case refine_2 => exact row_of_word (Memref.whole main_arg2) tb2 (k1_off11 (grid1.coords t)) _ _ (wordIx t 2) (wordOff t 2 (by omega)) k1_off13 (fun _ => rfl)
  refine step128 _ (Memref.isWhole_whole _) M1 h1 x1 _ _ _ _ (1 : Fin 16) _ _ _ ?_ ?_ rfl rfl rfl
  case refine_2 => exact row_of_word (Memref.whole main_arg2) tb2 (k1_off6 (grid1.coords t)) _ _ (wordIx t 1) (wordOff t 1 (by omega)) k1_off8 (fun _ => rfl)
  refine step128 _ (Memref.isWhole_whole _) M1 h1 x1 _ _ _ _ (0 : Fin 16) _ _ _ ?_ ?_ rfl rfl rfl
  case refine_2 => exact row_of_word (Memref.whole main_arg2) tb2 (k1_off1 (grid1.coords t)) _ _ (wordIx t 0) (wordOff t 0 (by omega)) k1_off3 (fun _ => rfl)
  rfl

/-- The first flag column after the body at point t: the zero word written at the entries the point's 16 user ids
    name. -/
theorem scatterRun_read2 (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_2).view.read (Elt F) (scatterRun c t M0 h0 M1 h1 x0 x1 tb0 tb2 f0 f1 f2 f3 g hT0 hT2).1.2.2.1
      = rowsConst16 ((Memref.whole main_v1_2).view.read (Elt F) f2)
          (fun p => ((Memref.whole main_arg0).view.read (Elt F) tb0 (ValueIdx.ix1 (wordIx t p))).toNat) (zeroWord (F := F)) := by
  rw [rowsConst16_nest]
  unfold scatterRun
  dsimp only
  sl_unfold_run_names
  refine step1 _ (Memref.isWhole_whole _) _ _ _ _ _ _ _ ?_ ?_ rfl (scratch_word c g)
  case refine_2 => exact row_of_word (Memref.whole main_arg0) tb0 (k1_off76 (grid1.coords t)) _ _ (wordIx t 15) (wordOff t 15 (by omega)) k1_off79 (fun _ => rfl)
  refine step1 _ (Memref.isWhole_whole _) _ _ _ _ _ _ _ ?_ ?_ rfl (scratch_word c g)
  case refine_2 => exact row_of_word (Memref.whole main_arg0) tb0 (k1_off71 (grid1.coords t)) _ _ (wordIx t 14) (wordOff t 14 (by omega)) k1_off74 (fun _ => rfl)
  refine step1 _ (Memref.isWhole_whole _) _ _ _ _ _ _ _ ?_ ?_ rfl (scratch_word c g)
  case refine_2 => exact row_of_word (Memref.whole main_arg0) tb0 (k1_off66 (grid1.coords t)) _ _ (wordIx t 13) (wordOff t 13 (by omega)) k1_off69 (fun _ => rfl)
  refine step1 _ (Memref.isWhole_whole _) _ _ _ _ _ _ _ ?_ ?_ rfl (scratch_word c g)
  case refine_2 => exact row_of_word (Memref.whole main_arg0) tb0 (k1_off61 (grid1.coords t)) _ _ (wordIx t 12) (wordOff t 12 (by omega)) k1_off64 (fun _ => rfl)
  refine step1 _ (Memref.isWhole_whole _) _ _ _ _ _ _ _ ?_ ?_ rfl (scratch_word c g)
  case refine_2 => exact row_of_word (Memref.whole main_arg0) tb0 (k1_off56 (grid1.coords t)) _ _ (wordIx t 11) (wordOff t 11 (by omega)) k1_off59 (fun _ => rfl)
  refine step1 _ (Memref.isWhole_whole _) _ _ _ _ _ _ _ ?_ ?_ rfl (scratch_word c g)
  case refine_2 => exact row_of_word (Memref.whole main_arg0) tb0 (k1_off51 (grid1.coords t)) _ _ (wordIx t 10) (wordOff t 10 (by omega)) k1_off54 (fun _ => rfl)
  refine step1 _ (Memref.isWhole_whole _) _ _ _ _ _ _ _ ?_ ?_ rfl (scratch_word c g)
  case refine_2 => exact row_of_word (Memref.whole main_arg0) tb0 (k1_off46 (grid1.coords t)) _ _ (wordIx t 9) (wordOff t 9 (by omega)) k1_off49 (fun _ => rfl)
  refine step1 _ (Memref.isWhole_whole _) _ _ _ _ _ _ _ ?_ ?_ rfl (scratch_word c g)
  case refine_2 => exact row_of_word (Memref.whole main_arg0) tb0 (k1_off41 (grid1.coords t)) _ _ (wordIx t 8) (wordOff t 8 (by omega)) k1_off44 (fun _ => rfl)
  refine step1 _ (Memref.isWhole_whole _) _ _ _ _ _ _ _ ?_ ?_ rfl (scratch_word c g)
  case refine_2 => exact row_of_word (Memref.whole main_arg0) tb0 (k1_off36 (grid1.coords t)) _ _ (wordIx t 7) (wordOff t 7 (by omega)) k1_off39 (fun _ => rfl)
  refine step1 _ (Memref.isWhole_whole _) _ _ _ _ _ _ _ ?_ ?_ rfl (scratch_word c g)
  case refine_2 => exact row_of_word (Memref.whole main_arg0) tb0 (k1_off31 (grid1.coords t)) _ _ (wordIx t 6) (wordOff t 6 (by omega)) k1_off34 (fun _ => rfl)
  refine step1 _ (Memref.isWhole_whole _) _ _ _ _ _ _ _ ?_ ?_ rfl (scratch_word c g)
  case refine_2 => exact row_of_word (Memref.whole main_arg0) tb0 (k1_off26 (grid1.coords t)) _ _ (wordIx t 5) (wordOff t 5 (by omega)) k1_off29 (fun _ => rfl)
  refine step1 _ (Memref.isWhole_whole _) _ _ _ _ _ _ _ ?_ ?_ rfl (scratch_word c g)
  case refine_2 => exact row_of_word (Memref.whole main_arg0) tb0 (k1_off21 (grid1.coords t)) _ _ (wordIx t 4) (wordOff t 4 (by omega)) k1_off24 (fun _ => rfl)
  refine step1 _ (Memref.isWhole_whole _) _ _ _ _ _ _ _ ?_ ?_ rfl (scratch_word c g)
  case refine_2 => exact row_of_word (Memref.whole main_arg0) tb0 (k1_off16 (grid1.coords t)) _ _ (wordIx t 3) (wordOff t 3 (by omega)) k1_off19 (fun _ => rfl)
  refine step1 _ (Memref.isWhole_whole _) _ _ _ _ _ _ _ ?_ ?_ rfl (scratch_word c g)
  case refine_2 => exact row_of_word (Memref.whole main_arg0) tb0 (k1_off11 (grid1.coords t)) _ _ (wordIx t 2) (wordOff t 2 (by omega)) k1_off14 (fun _ => rfl)
  refine step1 _ (Memref.isWhole_whole _) _ _ _ _ _ _ _ ?_ ?_ rfl (scratch_word c g)
  case refine_2 => exact row_of_word (Memref.whole main_arg0) tb0 (k1_off6 (grid1.coords t)) _ _ (wordIx t 1) (wordOff t 1 (by omega)) k1_off9 (fun _ => rfl)
  refine step1 _ (Memref.isWhole_whole _) _ _ _ _ _ _ _ ?_ ?_ rfl (scratch_word c g)
  case refine_2 => exact row_of_word (Memref.whole main_arg0) tb0 (k1_off1 (grid1.coords t)) _ _ (wordIx t 0) (wordOff t 0 (by omega)) k1_off4 (fun _ => rfl)
  rfl

/-- The second flag column after the body at point t: the zero word written at the entries the point's 16 item ids
    name. -/
theorem scatterRun_read3 (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_3).view.read (Elt F) (scatterRun c t M0 h0 M1 h1 x0 x1 tb0 tb2 f0 f1 f2 f3 g hT0 hT2).1.2.2.2
      = rowsConst16 ((Memref.whole main_v1_3).view.read (Elt F) f3)
          (fun p => ((Memref.whole main_arg2).view.read (Elt F) tb2 (ValueIdx.ix1 (wordIx t p))).toNat) (zeroWord (F := F)) := by
  rw [rowsConst16_nest]
  unfold scatterRun
  dsimp only
  sl_unfold_run_names
  refine step1 _ (Memref.isWhole_whole _) _ _ _ _ _ _ _ ?_ ?_ rfl (scratch_word c g)
  case refine_2 => exact row_of_word (Memref.whole main_arg2) tb2 (k1_off76 (grid1.coords t)) _ _ (wordIx t 15) (wordOff t 15 (by omega)) k1_off80 (fun _ => rfl)
  refine step1 _ (Memref.isWhole_whole _) _ _ _ _ _ _ _ ?_ ?_ rfl (scratch_word c g)
  case refine_2 => exact row_of_word (Memref.whole main_arg2) tb2 (k1_off71 (grid1.coords t)) _ _ (wordIx t 14) (wordOff t 14 (by omega)) k1_off75 (fun _ => rfl)
  refine step1 _ (Memref.isWhole_whole _) _ _ _ _ _ _ _ ?_ ?_ rfl (scratch_word c g)
  case refine_2 => exact row_of_word (Memref.whole main_arg2) tb2 (k1_off66 (grid1.coords t)) _ _ (wordIx t 13) (wordOff t 13 (by omega)) k1_off70 (fun _ => rfl)
  refine step1 _ (Memref.isWhole_whole _) _ _ _ _ _ _ _ ?_ ?_ rfl (scratch_word c g)
  case refine_2 => exact row_of_word (Memref.whole main_arg2) tb2 (k1_off61 (grid1.coords t)) _ _ (wordIx t 12) (wordOff t 12 (by omega)) k1_off65 (fun _ => rfl)
  refine step1 _ (Memref.isWhole_whole _) _ _ _ _ _ _ _ ?_ ?_ rfl (scratch_word c g)
  case refine_2 => exact row_of_word (Memref.whole main_arg2) tb2 (k1_off56 (grid1.coords t)) _ _ (wordIx t 11) (wordOff t 11 (by omega)) k1_off60 (fun _ => rfl)
  refine step1 _ (Memref.isWhole_whole _) _ _ _ _ _ _ _ ?_ ?_ rfl (scratch_word c g)
  case refine_2 => exact row_of_word (Memref.whole main_arg2) tb2 (k1_off51 (grid1.coords t)) _ _ (wordIx t 10) (wordOff t 10 (by omega)) k1_off55 (fun _ => rfl)
  refine step1 _ (Memref.isWhole_whole _) _ _ _ _ _ _ _ ?_ ?_ rfl (scratch_word c g)
  case refine_2 => exact row_of_word (Memref.whole main_arg2) tb2 (k1_off46 (grid1.coords t)) _ _ (wordIx t 9) (wordOff t 9 (by omega)) k1_off50 (fun _ => rfl)
  refine step1 _ (Memref.isWhole_whole _) _ _ _ _ _ _ _ ?_ ?_ rfl (scratch_word c g)
  case refine_2 => exact row_of_word (Memref.whole main_arg2) tb2 (k1_off41 (grid1.coords t)) _ _ (wordIx t 8) (wordOff t 8 (by omega)) k1_off45 (fun _ => rfl)
  refine step1 _ (Memref.isWhole_whole _) _ _ _ _ _ _ _ ?_ ?_ rfl (scratch_word c g)
  case refine_2 => exact row_of_word (Memref.whole main_arg2) tb2 (k1_off36 (grid1.coords t)) _ _ (wordIx t 7) (wordOff t 7 (by omega)) k1_off40 (fun _ => rfl)
  refine step1 _ (Memref.isWhole_whole _) _ _ _ _ _ _ _ ?_ ?_ rfl (scratch_word c g)
  case refine_2 => exact row_of_word (Memref.whole main_arg2) tb2 (k1_off31 (grid1.coords t)) _ _ (wordIx t 6) (wordOff t 6 (by omega)) k1_off35 (fun _ => rfl)
  refine step1 _ (Memref.isWhole_whole _) _ _ _ _ _ _ _ ?_ ?_ rfl (scratch_word c g)
  case refine_2 => exact row_of_word (Memref.whole main_arg2) tb2 (k1_off26 (grid1.coords t)) _ _ (wordIx t 5) (wordOff t 5 (by omega)) k1_off30 (fun _ => rfl)
  refine step1 _ (Memref.isWhole_whole _) _ _ _ _ _ _ _ ?_ ?_ rfl (scratch_word c g)
  case refine_2 => exact row_of_word (Memref.whole main_arg2) tb2 (k1_off21 (grid1.coords t)) _ _ (wordIx t 4) (wordOff t 4 (by omega)) k1_off25 (fun _ => rfl)
  refine step1 _ (Memref.isWhole_whole _) _ _ _ _ _ _ _ ?_ ?_ rfl (scratch_word c g)
  case refine_2 => exact row_of_word (Memref.whole main_arg2) tb2 (k1_off16 (grid1.coords t)) _ _ (wordIx t 3) (wordOff t 3 (by omega)) k1_off20 (fun _ => rfl)
  refine step1 _ (Memref.isWhole_whole _) _ _ _ _ _ _ _ ?_ ?_ rfl (scratch_word c g)
  case refine_2 => exact row_of_word (Memref.whole main_arg2) tb2 (k1_off11 (grid1.coords t)) _ _ (wordIx t 2) (wordOff t 2 (by omega)) k1_off15 (fun _ => rfl)
  refine step1 _ (Memref.isWhole_whole _) _ _ _ _ _ _ _ ?_ ?_ rfl (scratch_word c g)
  case refine_2 => exact row_of_word (Memref.whole main_arg2) tb2 (k1_off6 (grid1.coords t)) _ _ (wordIx t 1) (wordOff t 1 (by omega)) k1_off10 (fun _ => rfl)
  refine step1 _ (Memref.isWhole_whole _) _ _ _ _ _ _ _ ?_ ?_ rfl (scratch_word c g)
  case refine_2 => exact row_of_word (Memref.whole main_arg2) tb2 (k1_off1 (grid1.coords t)) _ _ (wordIx t 0) (wordOff t 0 (by omega)) k1_off5 (fun _ => rfl)
  rfl

/-! ### The same four, with the row numbers spelt as the 16 entries of point t of a function of the word position -/

theorem scatterRun_read0_idsAt (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_0).view.read (Elt F) (scatterRun c t M0 h0 M1 h1 x0 x1 tb0 tb2 f0 f1 f2 f3 g hT0 hT2).1.1
      = rows16_128 ((Memref.whole main_v1_0).view.read (Elt F) f0)
          (idsAt (fun k => ((Memref.whole main_arg0).view.read (Elt F) tb0 (ValueIdx.ix1 k)).toNat) t.val) x0 :=
  (scatterRun_read0 c t M0 h0 M1 h1 x0 x1 tb0 tb2 f0 f1 f2 f3 g hT0 hT2).trans
    (congrArg (fun ids => rows16_128 ((Memref.whole main_v1_0).view.read (Elt F) f0) ids x0)
      (idsAt_wordIx (fun k => ((Memref.whole main_arg0).view.read (Elt F) tb0 (ValueIdx.ix1 k)).toNat) t))

theorem scatterRun_read1_idsAt (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_1).view.read (Elt F) (scatterRun c t M0 h0 M1 h1 x0 x1 tb0 tb2 f0 f1 f2 f3 g hT0 hT2).1.2.1
      = rows16_128 ((Memref.whole main_v1_1).view.read (Elt F) f1)
          (idsAt (fun k => ((Memref.whole main_arg2).view.read (Elt F) tb2 (ValueIdx.ix1 k)).toNat) t.val) x1 :=
  (scatterRun_read1 c t M0 h0 M1 h1 x0 x1 tb0 tb2 f0 f1 f2 f3 g hT0 hT2).trans
    (congrArg (fun ids => rows16_128 ((Memref.whole main_v1_1).view.read (Elt F) f1) ids x1)
      (idsAt_wordIx (fun k => ((Memref.whole main_arg2).view.read (Elt F) tb2 (ValueIdx.ix1 k)).toNat) t))

theorem scatterRun_read2_idsAt (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_2).view.read (Elt F) (scatterRun c t M0 h0 M1 h1 x0 x1 tb0 tb2 f0 f1 f2 f3 g hT0 hT2).1.2.2.1
      = rowsConst16 ((Memref.whole main_v1_2).view.read (Elt F) f2)
          (idsAt (fun k => ((Memref.whole main_arg0).view.read (Elt F) tb0 (ValueIdx.ix1 k)).toNat) t.val) (zeroWord (F := F)) :=
  (scatterRun_read2 c t M0 h0 M1 h1 x0 x1 tb0 tb2 f0 f1 f2 f3 g hT0 hT2).trans
    (congrArg (fun ids => rowsConst16 ((Memref.whole main_v1_2).view.read (Elt F) f2) ids (zeroWord (F := F)))
      (idsAt_wordIx (fun k => ((Memref.whole main_arg0).view.read (Elt F) tb0 (ValueIdx.ix1 k)).toNat) t))

theorem scatterRun_read3_idsAt (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_3).view.read (Elt F) (scatterRun c t M0 h0 M1 h1 x0 x1 tb0 tb2 f0 f1 f2 f3 g hT0 hT2).1.2.2.2
      = rowsConst16 ((Memref.whole main_v1_3).view.read (Elt F) f3)
          (idsAt (fun k => ((Memref.whole main_arg2).view.read (Elt F) tb2 (ValueIdx.ix1 k)).toNat) t.val) (zeroWord (F := F)) :=
  (scatterRun_read3 c t M0 h0 M1 h1 x0 x1 tb0 tb2 f0 f1 f2 f3 g hT0 hT2).trans
    (congrArg (fun ids => rowsConst16 ((Memref.whole main_v1_3).view.read (Elt F) f3) ids (zeroWord (F := F)))
      (idsAt_wordIx (fun k => ((Memref.whole main_arg2).view.read (Elt F) tb2 (ValueIdx.ix1 k)).toNat) t))

/-! ## The fold over the grid: a point is sixteen steps of the row-by-row recurrence -/

section Fold

open Cert.Proof.ScatterRows

variable {α : Type}

/-- One step of the row-by-row recurrence on the 128-column table is one row write. -/
theorem rowsAfter128_succ_setRow (X0 : S200000x128.Idx → α) (ids : Fin 4096 → ℕ) (upd : S4096x128.Idx → α)
    (m : ℕ) (h : m < 4096) :
    rowsAfter128 X0 ids upd (m + 1)
      = setRow128 (rowsAfter128 X0 ids upd m) (ids ⟨m, h⟩) (fun k => upd (ValueIdx.ix2 (⟨m, h⟩ : Fin 4096) k)) := by
  funext i
  rw [rowsAfter128_succ, dif_pos h]
  rfl

/-- One step of the row-by-row recurrence on the one-column table, when every update entry is the word z, is one entry
    write of z. -/
theorem rowsAfter1_succ_setRow (X0 : S200000x1.Idx → α) (ids : Fin 4096 → ℕ) (upd : S4096x1.Idx → α) (z : α)
    (hz : ∀ q, upd q = z) (m : ℕ) (h : m < 4096) :
    rowsAfter1 X0 ids upd (m + 1) = setRow1 (rowsAfter1 X0 ids upd m) (ids ⟨m, h⟩) z := by
  funext i
  rw [rowsAfter1_succ, dif_pos h, hz]
  rfl

/-- The 16 rows of block t of the update, written in order over the table after 16·t row writes, give the table after
    16·(t+1) row writes. -/
theorem rows16_128_eq_rowsAfter (X0 : S200000x128.Idx → α) (ids : Fin 4096 → ℕ) (upd : S4096x128.Idx → α)
    (t : ℕ) (ht : t < 256) :
    rows16_128 (rowsAfter128 X0 ids upd (16 * t)) (fun p => ids ⟨16 * t + p.val, by omega⟩)
        (fun q => upd (ValueIdx.ix2 (⟨16 * t + (q 0).val, by have : (q 0).val < 16 := (q 0).isLt; omega⟩ : Fin 4096)
          (q 1 : Fin 128)))
      = rowsAfter128 X0 ids upd (16 * (t + 1)) :=
  rows16_128_eq_of_succ (rowsAfter128 X0 ids upd) ids upd (rowsAfter128_succ_setRow X0 ids upd) t ht

/-- The word z written at the 16 entries block t names, over the one-column table after 16·t row writes of an update
    whose every entry is z, gives the table after 16·(t+1) row writes. -/
theorem rowsConst16_eq_rowsAfter (X0 : S200000x1.Idx → α) (ids : Fin 4096 → ℕ) (upd : S4096x1.Idx → α) (z : α)
    (hz : ∀ q, upd q = z) (t : ℕ) (ht : t < 256) :
    rowsConst16 (rowsAfter1 X0 ids upd (16 * t)) (fun p => ids ⟨16 * t + p.val, by omega⟩) z
      = rowsAfter1 X0 ids upd (16 * (t + 1)) :=
  rowsConst16_eq_of_succ (rowsAfter1 X0 ids upd) ids z (rowsAfter1_succ_setRow X0 ids upd z hz) t ht

end Fold

end Cert.KernelIdeal.Hand

end
-- ==== Proof.KI.Step1.lean ====
/- The scatter region's step, closed: what the body's run leaves in the four tables at point t, read back, is the tables'
   recursion one step on. The run's sixteen row writes per table are sixteen row replacements in the order of the rows
   (the read-back lemmas); the recursion's step at n is exactly those sixteen replacements at the rows the ids of point
   n name. -/
import proofs.«423553_j10307921510829_1_alg».proof.Proof.KI.Region1
import proofs.«423553_j10307921510829_1_alg».proof.Proof.KI.ScatterStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

section Region

variable (a1 : (pcfg1 (F := F)).Adm)
variable (V : (c : Dev nD) → (b : Ref sig .tc) → Buf (Elt F) ((c : Thread nD τ).loc b))

/-- One step of each table's recursion, at a point of the grid. -/
theorem tabU_succ (c : Dev nD) (t : Fin (cfg1 a1).N) :
    tabU a1 V c (t.val + 1) = rows16_128 (tabU a1 V c t.val) (idsAt (idU V c) t.val) (iblk1 a1 V c 0 t) := by
  show (if h : t.val < (cfg1 a1).N then rows16_128 (tabU a1 V c t.val) (idsAt (idU V c) t.val) (iblk1 a1 V c 0 ⟨t.val, h⟩) else tabU a1 V c t.val) = _
  rw [dif_pos t.isLt]
theorem tabI_succ (c : Dev nD) (t : Fin (cfg1 a1).N) :
    tabI a1 V c (t.val + 1) = rows16_128 (tabI a1 V c t.val) (idsAt (idI V c) t.val) (iblk1 a1 V c 1 t) := by
  show (if h : t.val < (cfg1 a1).N then rows16_128 (tabI a1 V c t.val) (idsAt (idI V c) t.val) (iblk1 a1 V c 1 ⟨t.val, h⟩) else tabI a1 V c t.val) = _
  rw [dif_pos t.isLt]

set_option maxHeartbeats 4000000 in
/-- The step fact the body obligation takes: with the two tables of row numbers the region's own, the run's four results
    at point `t` are the four tables after `t + 1` points. -/
theorem scatter_step
    (ha0 : ∀ c : Dev nD, a1.1 0 = V c main_arg0) (ha1 : ∀ c : Dev nD, a1.1 1 = V c main_arg2)
    (hU : ∀ c : Dev nD, RowWords c (Memref.whole main_arg0) (a1.1 0)) (hI : ∀ c : Dev nD, RowWords c (Memref.whole main_arg2) (a1.1 1))
    (c : Dev nD) (t : Fin (cfg1 a1).N) (g : Bf (F := F) c (Memref.whole cc1_scratch0)) :
    (scatterRun c t (ms1_0 a1 t) (hs1_0 a1 t) (ms1_1 a1 t) (hs1_1 a1 t) (iblk1 a1 V c 0 t) (iblk1 a1 V c 1 t) (a1.1 0) (a1.1 1)
        (tabU a1 V c t.val) (tabI a1 V c t.val) (flagU V c t.val) (flagI V c t.val) g (hU c) (hI c)).1
      = (tabU a1 V c (t.val + 1), tabI a1 V c (t.val + 1), flagU V c (t.val + 1), flagI V c (t.val + 1)) := by
  have e0 := scatterRun_read0_idsAt c t (ms1_0 a1 t) (hs1_0 a1 t) (ms1_1 a1 t) (hs1_1 a1 t) (iblk1 a1 V c 0 t) (iblk1 a1 V c 1 t) (a1.1 0) (a1.1 1)
    (tabU a1 V c t.val) (tabI a1 V c t.val) (flagU V c t.val) (flagI V c t.val) g (hU c) (hI c)
  have e1 := scatterRun_read1_idsAt c t (ms1_0 a1 t) (hs1_0 a1 t) (ms1_1 a1 t) (hs1_1 a1 t) (iblk1 a1 V c 0 t) (iblk1 a1 V c 1 t) (a1.1 0) (a1.1 1)
    (tabU a1 V c t.val) (tabI a1 V c t.val) (flagU V c t.val) (flagI V c t.val) g (hU c) (hI c)
  have e2 := scatterRun_read2_idsAt c t (ms1_0 a1 t) (hs1_0 a1 t) (ms1_1 a1 t) (hs1_1 a1 t) (iblk1 a1 V c 0 t) (iblk1 a1 V c 1 t) (a1.1 0) (a1.1 1)
    (tabU a1 V c t.val) (tabI a1 V c t.val) (flagU V c t.val) (flagI V c t.val) g (hU c) (hI c)
  have e3 := scatterRun_read3_idsAt c t (ms1_0 a1 t) (hs1_0 a1 t) (ms1_1 a1 t) (hs1_1 a1 t) (iblk1 a1 V c 0 t) (iblk1 a1 V c 1 t) (a1.1 0) (a1.1 1)
    (tabU a1 V c t.val) (tabI a1 V c t.val) (flagU V c t.val) (flagI V c t.val) g (hU c) (hI c)
  simp only [Memref.view_whole, View.read_whole] at e0 e1 e2 e3
  have hidU : (fun k : Fin 4096 => BitVec.toNat (View.read (Elt F) (View.whole main_arg0) (a1.1 0) (ValueIdx.ix1 k))) = idU V c := by
    funext k; simp only [idU, Memref.view_whole, View.read_whole, ha0 c]
  have hidI : (fun k : Fin 4096 => BitVec.toNat (View.read (Elt F) (View.whole main_arg2) (a1.1 1) (ValueIdx.ix1 k))) = idI V c := by
    funext k; simp only [idI, Memref.view_whole, View.read_whole, ha1 c]
  refine Prod.ext ?_ (Prod.ext ?_ (Prod.ext ?_ ?_))
  · exact e0.trans ((congrArg (fun ids => rows16_128 (tabU a1 V c t.val) (idsAt ids t.val) (iblk1 a1 V c 0 t)) hidU).trans
      (tabU_succ a1 V c t).symm)
  · exact e1.trans ((congrArg (fun ids => rows16_128 (tabI a1 V c t.val) (idsAt ids t.val) (iblk1 a1 V c 1 t)) hidI).trans
      (tabI_succ a1 V c t).symm)
  · exact e2.trans (congrArg (fun ids => rowsConst16 (flagU V c t.val) (idsAt ids t.val) (zeroWord (F := F))) hidU)
  · exact e3.trans (congrArg (fun ids => rowsConst16 (flagI V c t.val) (idsAt ids t.val) (zeroWord (F := F))) hidI)

end Region

end Cert.KernelIdeal.Hand

end
-- ==== Proof.KI.RowWordsOf.lean ====
/- From a bound on the entries of an index table to a bound on every word a scalar load can read from it. A load at
   coordinates r reads, at position y, the table's view at the index r names for y; so a bound that holds at every index
   of the view holds for every word of every load. For a whole argument buffer the view reads the buffer's contents
   themselves, so the bound on the launch memory's three index arrays (which the precondition gives) is the bound on
   every word the kernel bodies read from their three tables. -/
import proofs.«423553_j10307921510829_1_alg».proof.Proof.KI.Basics

noncomputable section

namespace Cert.KernelIdeal.Hand

open Cert.KernelIdeal Cert.KernelIdeal.Gen
open Idealize.ShloMosaic Idealize.ShloMosaic.TcCoe
open Idealize.SL.Sem

variable {F : FTy → Type} [FloatOps F]

/-- A table whose view reads a row number at every index yields a row number at every position of every load. -/
theorem rowWords_of_lt (c : Dev nD) (M : Memref sig .tc .smem S4096 .i32) (tb : Bf (F := F) c M)
    (h : ∀ j : S4096.Idx, (M.view.read (Elt F) tb j).toNat < 200000) : RowWords c M tb :=
  fun r y => h (r.idx y)

/-- The three index tables are whole argument buffers: their views read the contents as they are. -/
theorem rowWords_arg0 (c : Dev nD) (tb : Bf (F := F) c (Memref.whole main_arg0))
    (h : ∀ j : S4096.Idx, (tb j).toNat < 200000) : RowWords c (Memref.whole main_arg0) tb :=
  rowWords_of_lt c (Memref.whole main_arg0) tb h

theorem rowWords_arg1 (c : Dev nD) (tb : Bf (F := F) c (Memref.whole main_arg1))
    (h : ∀ j : S4096.Idx, (tb j).toNat < 200000) : RowWords c (Memref.whole main_arg1) tb :=
  rowWords_of_lt c (Memref.whole main_arg1) tb h

theorem rowWords_arg2 (c : Dev nD) (tb : Bf (F := F) c (Memref.whole main_arg2))
    (h : ∀ j : S4096.Idx, (tb j).toNat < 200000) : RowWords c (Memref.whole main_arg2) tb :=
  rowWords_of_lt c (Memref.whole main_arg2) tb h

/-- The launch memory's three index arrays have every entry below 200000 (the precondition's integer conjuncts):
    then every word read from each of the three tables, as the memory holds them on core c, is a row number. -/
theorem idsOk_of_pre (c : Dev nD) (m : (ℓ : Loc nD τ sig) → Buf (Elt F) ℓ)
    (h : (∀ j : S4096.Idx, (m ((c : Thread nD τ).loc main_arg0) j).toNat < 200000)
      ∧ (∀ j : S4096.Idx, (m ((c : Thread nD τ).loc main_arg1) j).toNat < 200000)
      ∧ (∀ j : S4096.Idx, (m ((c : Thread nD τ).loc main_arg2) j).toNat < 200000)) :
    RowWords c (Memref.whole main_arg0) (m ((c : Thread nD τ).loc main_arg0))
      ∧ RowWords c (Memref.whole main_arg1) (m ((c : Thread nD τ).loc main_arg1))
      ∧ RowWords c (Memref.whole main_arg2) (m ((c : Thread nD τ).loc main_arg2)) :=
  ⟨rowWords_arg0 c _ h.1, rowWords_arg1 c _ h.2.1, rowWords_arg2 c _ h.2.2⟩

end Cert.KernelIdeal.Hand

end
-- ==== Proof.KI.Final.lean ====
/- The two kernel regions put together at the launch memory. Under the precondition every word of the three id columns
   is, unsigned, below 200000; so every table word names a row, each region's body obligation holds, and @main runs: every
   weakly fair execution terminates and the final memory holds, at every buffer that outlives a region, what the last
   boundary's valuation says. Read at the arguments, that is the frame: each argument array ends as launched. -/
import proofs.«423553_j10307921510829_1_alg».proof.Proof.KI.Segs
import proofs.«423553_j10307921510829_1_alg».proof.Proof.KI.Region0
import proofs.«423553_j10307921510829_1_alg».proof.Proof.KI.Step1
import proofs.«423553_j10307921510829_1_alg».proof.Proof.KI.RowWordsOf

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-- On every core, every word of the three id columns of the launch memory is, unsigned, below 200000. -/
abbrev IdsLt : Prop := ∀ c : Dev nD,
  (∀ j : S4096.Idx, (m ((c : Thread nD τ).loc main_arg0) j).toNat < 200000)
    ∧ (∀ j : S4096.Idx, (m ((c : Thread nD τ).loc main_arg1) j).toNat < 200000)
    ∧ (∀ j : S4096.Idx, (m ((c : Thread nD τ).loc main_arg2) j).toNat < 200000)

/-- The region's own form of the same facts. -/
theorem hids_of (h3 : IdsLt m) : ∀ c, IdsOk (U0 m) c := fun c => ⟨(h3 c).1, (h3 c).2.1, (h3 c).2.2⟩

/-- Every word a scalar load reads from a table of row numbers names a row (the tables are the launch memory's id
    columns on the one core). -/
theorem hT0_of (h3 : IdsLt m) (c : Dev nD) : RowWords c (Memref.whole main_arg0) ((adm0 m).1 0) := rowWords_arg0 c _ (h3 0).1
theorem hT1_of (h3 : IdsLt m) (c : Dev nD) : RowWords c (Memref.whole main_arg2) ((adm0 m).1 1) := rowWords_arg2 c _ (h3 0).2.2
theorem hT2_of (h3 : IdsLt m) (c : Dev nD) : RowWords c (Memref.whole main_arg1) ((adm0 m).1 2) := rowWords_arg1 c _ (h3 0).2.1
theorem hU1_of (h3 : IdsLt m) (c : Dev nD) : RowWords c (Memref.whole main_arg0) ((adm1 m).1 0) := rowWords_arg0 c _ (h3 0).1
theorem hI1_of (h3 : IdsLt m) (c : Dev nD) : RowWords c (Memref.whole main_arg2) ((adm1 m).1 1) := rowWords_arg2 c _ (h3 0).2.2

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the first region's run leaves in its output buffers, read back, is the specification's blocks: the fact the
    gather step supplies. -/
abbrev GatherBlocks (h3 : IdsLt m) : Prop :=
  ∀ (c : Dev nD) (t : Fin (cfg0 (adm0 m)).N) (g0 : Bf (F := F) c (Memref.whole cc0_scratch0)) (g1 : Bf (F := F) c (Memref.whole cc0_scratch1)) (g2 : Bf (F := F) c (Memref.whole cc0_scratch2)) (g3 : Bf (F := F) c (Memref.whole cc0_scratch3)) (g4 : Bf (F := F) c (Memref.whole cc0_scratch4)) (g5 : Bf (F := F) c (Memref.whole cc0_scratch5)) (g6 : Bf (F := F) c (Memref.whole cc0_scratch6)) (g7 : Bf (F := F) c (Memref.whole cc0_scratch7)) (g8 : Bf (F := F) c (Memref.whole cc0_scratch8)),
        (ms0_16 (adm0 m) t).view.read (Elt F) ((ms0_16 (adm0 m) t).view.writes (Elt F) (ms0_16 (adm0 m) t).view.junk (gatherRun c t (ms0_0 (adm0 m) t) (hs0_0 (adm0 m) t) (iblk0 (adm0 m) (U0 m) c 0 t) (ms0_1 (adm0 m) t) (hs0_1 (adm0 m) t) (iblk0 (adm0 m) (U0 m) c 1 t) (ms0_2 (adm0 m) t) (hs0_2 (adm0 m) t) (iblk0 (adm0 m) (U0 m) c 2 t) (ms0_3 (adm0 m) t) (hs0_3 (adm0 m) t) (iblk0 (adm0 m) (U0 m) c 3 t) (ms0_4 (adm0 m) t) (hs0_4 (adm0 m) t) (iblk0 (adm0 m) (U0 m) c 4 t) (ms0_5 (adm0 m) t) (hs0_5 (adm0 m) t) (iblk0 (adm0 m) (U0 m) c 5 t) (ms0_6 (adm0 m) t) (hs0_6 (adm0 m) t) (iblk0 (adm0 m) (U0 m) c 6 t) (ms0_7 (adm0 m) t) (hs0_7 (adm0 m) t) (iblk0 (adm0 m) (U0 m) c 7 t) (ms0_8 (adm0 m) t) (hs0_8 (adm0 m) t) (iblk0 (adm0 m) (U0 m) c 8 t) (ms0_9 (adm0 m) t) (hs0_9 (adm0 m) t) (iblk0 (adm0 m) (U0 m) c 9 t) (ms0_10 (adm0 m) t) (hs0_10 (adm0 m) t) (iblk0 (adm0 m) (U0 m) c 10 t) (ms0_11 (adm0 m) t) (hs0_11 (adm0 m) t) (iblk0 (adm0 m) (U0 m) c 11 t) (ms0_12 (adm0 m) t) (hs0_12 (adm0 m) t) (iblk0 (adm0 m) (U0 m) c 12 t) (ms0_13 (adm0 m) t) (hs0_13 (adm0 m) t) (iblk0 (adm0 m) (U0 m) c 13 t) (ms0_14 (adm0 m) t) (hs0_14 (adm0 m) t) (iblk0 (adm0 m) (U0 m) c 14 t) (ms0_15 (adm0 m) t) (hs0_15 (adm0 m) t) (iblk0 (adm0 m) (U0 m) c 15 t) (ms0_16 (adm0 m) t) (hs0_16 (adm0 m) t) (ms0_17 (adm0 m) t) (hs0_17 (adm0 m) t) (ms0_18 (adm0 m) t) (hs0_18 (adm0 m) t) (ms0_19 (adm0 m) t) (hs0_19 (adm0 m) t) (ms0_20 (adm0 m) t) (hs0_20 (adm0 m) t) (ms0_21 (adm0 m) t) (hs0_21 (adm0 m) t) ((adm0 m).1 0) ((adm0 m).1 1) ((adm0 m).1 2) (U0 m c main_arg5) (U0 m c main_arg6) (U0 m c main_arg9) (U0 m c main_arg10) (U0 m c main_arg7) (U0 m c main_arg8) g0 g1 g2 g3 g4 g5 g6 g7 g8 (hT0_of m h3 c) (hT1_of m h3 c) (hT2_of m h3 c)).1.1) = after0 (adm0 m) (U0 m) c (hids_of m h3 c) 16 t
        ∧ (ms0_17 (adm0 m) t).view.read (Elt F) ((ms0_17 (adm0 m) t).view.writes (Elt F) (ms0_17 (adm0 m) t).view.junk (gatherRun c t (ms0_0 (adm0 m) t) (hs0_0 (adm0 m) t) (iblk0 (adm0 m) (U0 m) c 0 t) (ms0_1 (adm0 m) t) (hs0_1 (adm0 m) t) (iblk0 (adm0 m) (U0 m) c 1 t) (ms0_2 (adm0 m) t) (hs0_2 (adm0 m) t) (iblk0 (adm0 m) (U0 m) c 2 t) (ms0_3 (adm0 m) t) (hs0_3 (adm0 m) t) (iblk0 (adm0 m) (U0 m) c 3 t) (ms0_4 (adm0 m) t) (hs0_4 (adm0 m) t) (iblk0 (adm0 m) (U0 m) c 4 t) (ms0_5 (adm0 m) t) (hs0_5 (adm0 m) t) (iblk0 (adm0 m) (U0 m) c 5 t) (ms0_6 (adm0 m) t) (hs0_6 (adm0 m) t) (iblk0 (adm0 m) (U0 m) c 6 t) (ms0_7 (adm0 m) t) (hs0_7 (adm0 m) t) (iblk0 (adm0 m) (U0 m) c 7 t) (ms0_8 (adm0 m) t) (hs0_8 (adm0 m) t) (iblk0 (adm0 m) (U0 m) c 8 t) (ms0_9 (adm0 m) t) (hs0_9 (adm0 m) t) (iblk0 (adm0 m) (U0 m) c 9 t) (ms0_10 (adm0 m) t) (hs0_10 (adm0 m) t) (iblk0 (adm0 m) (U0 m) c 10 t) (ms0_11 (adm0 m) t) (hs0_11 (adm0 m) t) (iblk0 (adm0 m) (U0 m) c 11 t) (ms0_12 (adm0 m) t) (hs0_12 (adm0 m) t) (iblk0 (adm0 m) (U0 m) c 12 t) (ms0_13 (adm0 m) t) (hs0_13 (adm0 m) t) (iblk0 (adm0 m) (U0 m) c 13 t) (ms0_14 (adm0 m) t) (hs0_14 (adm0 m) t) (iblk0 (adm0 m) (U0 m) c 14 t) (ms0_15 (adm0 m) t) (hs0_15 (adm0 m) t) (iblk0 (adm0 m) (U0 m) c 15 t) (ms0_16 (adm0 m) t) (hs0_16 (adm0 m) t) (ms0_17 (adm0 m) t) (hs0_17 (adm0 m) t) (ms0_18 (adm0 m) t) (hs0_18 (adm0 m) t) (ms0_19 (adm0 m) t) (hs0_19 (adm0 m) t) (ms0_20 (adm0 m) t) (hs0_20 (adm0 m) t) (ms0_21 (adm0 m) t) (hs0_21 (adm0 m) t) ((adm0 m).1 0) ((adm0 m).1 1) ((adm0 m).1 2) (U0 m c main_arg5) (U0 m c main_arg6) (U0 m c main_arg9) (U0 m c main_arg10) (U0 m c main_arg7) (U0 m c main_arg8) g0 g1 g2 g3 g4 g5 g6 g7 g8 (hT0_of m h3 c) (hT1_of m h3 c) (hT2_of m h3 c)).1.2.1) = after0 (adm0 m) (U0 m) c (hids_of m h3 c) 17 t
        ∧ (ms0_18 (adm0 m) t).view.read (Elt F) ((ms0_18 (adm0 m) t).view.writes (Elt F) (ms0_18 (adm0 m) t).view.junk (gatherRun c t (ms0_0 (adm0 m) t) (hs0_0 (adm0 m) t) (iblk0 (adm0 m) (U0 m) c 0 t) (ms0_1 (adm0 m) t) (hs0_1 (adm0 m) t) (iblk0 (adm0 m) (U0 m) c 1 t) (ms0_2 (adm0 m) t) (hs0_2 (adm0 m) t) (iblk0 (adm0 m) (U0 m) c 2 t) (ms0_3 (adm0 m) t) (hs0_3 (adm0 m) t) (iblk0 (adm0 m) (U0 m) c 3 t) (ms0_4 (adm0 m) t) (hs0_4 (adm0 m) t) (iblk0 (adm0 m) (U0 m) c 4 t) (ms0_5 (adm0 m) t) (hs0_5 (adm0 m) t) (iblk0 (adm0 m) (U0 m) c 5 t) (ms0_6 (adm0 m) t) (hs0_6 (adm0 m) t) (iblk0 (adm0 m) (U0 m) c 6 t) (ms0_7 (adm0 m) t) (hs0_7 (adm0 m) t) (iblk0 (adm0 m) (U0 m) c 7 t) (ms0_8 (adm0 m) t) (hs0_8 (adm0 m) t) (iblk0 (adm0 m) (U0 m) c 8 t) (ms0_9 (adm0 m) t) (hs0_9 (adm0 m) t) (iblk0 (adm0 m) (U0 m) c 9 t) (ms0_10 (adm0 m) t) (hs0_10 (adm0 m) t) (iblk0 (adm0 m) (U0 m) c 10 t) (ms0_11 (adm0 m) t) (hs0_11 (adm0 m) t) (iblk0 (adm0 m) (U0 m) c 11 t) (ms0_12 (adm0 m) t) (hs0_12 (adm0 m) t) (iblk0 (adm0 m) (U0 m) c 12 t) (ms0_13 (adm0 m) t) (hs0_13 (adm0 m) t) (iblk0 (adm0 m) (U0 m) c 13 t) (ms0_14 (adm0 m) t) (hs0_14 (adm0 m) t) (iblk0 (adm0 m) (U0 m) c 14 t) (ms0_15 (adm0 m) t) (hs0_15 (adm0 m) t) (iblk0 (adm0 m) (U0 m) c 15 t) (ms0_16 (adm0 m) t) (hs0_16 (adm0 m) t) (ms0_17 (adm0 m) t) (hs0_17 (adm0 m) t) (ms0_18 (adm0 m) t) (hs0_18 (adm0 m) t) (ms0_19 (adm0 m) t) (hs0_19 (adm0 m) t) (ms0_20 (adm0 m) t) (hs0_20 (adm0 m) t) (ms0_21 (adm0 m) t) (hs0_21 (adm0 m) t) ((adm0 m).1 0) ((adm0 m).1 1) ((adm0 m).1 2) (U0 m c main_arg5) (U0 m c main_arg6) (U0 m c main_arg9) (U0 m c main_arg10) (U0 m c main_arg7) (U0 m c main_arg8) g0 g1 g2 g3 g4 g5 g6 g7 g8 (hT0_of m h3 c) (hT1_of m h3 c) (hT2_of m h3 c)).1.2.2.1) = after0 (adm0 m) (U0 m) c (hids_of m h3 c) 18 t
        ∧ (ms0_19 (adm0 m) t).view.read (Elt F) ((ms0_19 (adm0 m) t).view.writes (Elt F) (ms0_19 (adm0 m) t).view.junk (gatherRun c t (ms0_0 (adm0 m) t) (hs0_0 (adm0 m) t) (iblk0 (adm0 m) (U0 m) c 0 t) (ms0_1 (adm0 m) t) (hs0_1 (adm0 m) t) (iblk0 (adm0 m) (U0 m) c 1 t) (ms0_2 (adm0 m) t) (hs0_2 (adm0 m) t) (iblk0 (adm0 m) (U0 m) c 2 t) (ms0_3 (adm0 m) t) (hs0_3 (adm0 m) t) (iblk0 (adm0 m) (U0 m) c 3 t) (ms0_4 (adm0 m) t) (hs0_4 (adm0 m) t) (iblk0 (adm0 m) (U0 m) c 4 t) (ms0_5 (adm0 m) t) (hs0_5 (adm0 m) t) (iblk0 (adm0 m) (U0 m) c 5 t) (ms0_6 (adm0 m) t) (hs0_6 (adm0 m) t) (iblk0 (adm0 m) (U0 m) c 6 t) (ms0_7 (adm0 m) t) (hs0_7 (adm0 m) t) (iblk0 (adm0 m) (U0 m) c 7 t) (ms0_8 (adm0 m) t) (hs0_8 (adm0 m) t) (iblk0 (adm0 m) (U0 m) c 8 t) (ms0_9 (adm0 m) t) (hs0_9 (adm0 m) t) (iblk0 (adm0 m) (U0 m) c 9 t) (ms0_10 (adm0 m) t) (hs0_10 (adm0 m) t) (iblk0 (adm0 m) (U0 m) c 10 t) (ms0_11 (adm0 m) t) (hs0_11 (adm0 m) t) (iblk0 (adm0 m) (U0 m) c 11 t) (ms0_12 (adm0 m) t) (hs0_12 (adm0 m) t) (iblk0 (adm0 m) (U0 m) c 12 t) (ms0_13 (adm0 m) t) (hs0_13 (adm0 m) t) (iblk0 (adm0 m) (U0 m) c 13 t) (ms0_14 (adm0 m) t) (hs0_14 (adm0 m) t) (iblk0 (adm0 m) (U0 m) c 14 t) (ms0_15 (adm0 m) t) (hs0_15 (adm0 m) t) (iblk0 (adm0 m) (U0 m) c 15 t) (ms0_16 (adm0 m) t) (hs0_16 (adm0 m) t) (ms0_17 (adm0 m) t) (hs0_17 (adm0 m) t) (ms0_18 (adm0 m) t) (hs0_18 (adm0 m) t) (ms0_19 (adm0 m) t) (hs0_19 (adm0 m) t) (ms0_20 (adm0 m) t) (hs0_20 (adm0 m) t) (ms0_21 (adm0 m) t) (hs0_21 (adm0 m) t) ((adm0 m).1 0) ((adm0 m).1 1) ((adm0 m).1 2) (U0 m c main_arg5) (U0 m c main_arg6) (U0 m c main_arg9) (U0 m c main_arg10) (U0 m c main_arg7) (U0 m c main_arg8) g0 g1 g2 g3 g4 g5 g6 g7 g8 (hT0_of m h3 c) (hT1_of m h3 c) (hT2_of m h3 c)).1.2.2.2.1) = after0 (adm0 m) (U0 m) c (hids_of m h3 c) 19 t
        ∧ (ms0_20 (adm0 m) t).view.read (Elt F) ((ms0_20 (adm0 m) t).view.writes (Elt F) (ms0_20 (adm0 m) t).view.junk (gatherRun c t (ms0_0 (adm0 m) t) (hs0_0 (adm0 m) t) (iblk0 (adm0 m) (U0 m) c 0 t) (ms0_1 (adm0 m) t) (hs0_1 (adm0 m) t) (iblk0 (adm0 m) (U0 m) c 1 t) (ms0_2 (adm0 m) t) (hs0_2 (adm0 m) t) (iblk0 (adm0 m) (U0 m) c 2 t) (ms0_3 (adm0 m) t) (hs0_3 (adm0 m) t) (iblk0 (adm0 m) (U0 m) c 3 t) (ms0_4 (adm0 m) t) (hs0_4 (adm0 m) t) (iblk0 (adm0 m) (U0 m) c 4 t) (ms0_5 (adm0 m) t) (hs0_5 (adm0 m) t) (iblk0 (adm0 m) (U0 m) c 5 t) (ms0_6 (adm0 m) t) (hs0_6 (adm0 m) t) (iblk0 (adm0 m) (U0 m) c 6 t) (ms0_7 (adm0 m) t) (hs0_7 (adm0 m) t) (iblk0 (adm0 m) (U0 m) c 7 t) (ms0_8 (adm0 m) t) (hs0_8 (adm0 m) t) (iblk0 (adm0 m) (U0 m) c 8 t) (ms0_9 (adm0 m) t) (hs0_9 (adm0 m) t) (iblk0 (adm0 m) (U0 m) c 9 t) (ms0_10 (adm0 m) t) (hs0_10 (adm0 m) t) (iblk0 (adm0 m) (U0 m) c 10 t) (ms0_11 (adm0 m) t) (hs0_11 (adm0 m) t) (iblk0 (adm0 m) (U0 m) c 11 t) (ms0_12 (adm0 m) t) (hs0_12 (adm0 m) t) (iblk0 (adm0 m) (U0 m) c 12 t) (ms0_13 (adm0 m) t) (hs0_13 (adm0 m) t) (iblk0 (adm0 m) (U0 m) c 13 t) (ms0_14 (adm0 m) t) (hs0_14 (adm0 m) t) (iblk0 (adm0 m) (U0 m) c 14 t) (ms0_15 (adm0 m) t) (hs0_15 (adm0 m) t) (iblk0 (adm0 m) (U0 m) c 15 t) (ms0_16 (adm0 m) t) (hs0_16 (adm0 m) t) (ms0_17 (adm0 m) t) (hs0_17 (adm0 m) t) (ms0_18 (adm0 m) t) (hs0_18 (adm0 m) t) (ms0_19 (adm0 m) t) (hs0_19 (adm0 m) t) (ms0_20 (adm0 m) t) (hs0_20 (adm0 m) t) (ms0_21 (adm0 m) t) (hs0_21 (adm0 m) t) ((adm0 m).1 0) ((adm0 m).1 1) ((adm0 m).1 2) (U0 m c main_arg5) (U0 m c main_arg6) (U0 m c main_arg9) (U0 m c main_arg10) (U0 m c main_arg7) (U0 m c main_arg8) g0 g1 g2 g3 g4 g5 g6 g7 g8 (hT0_of m h3 c) (hT1_of m h3 c) (hT2_of m h3 c)).1.2.2.2.2.1) = after0 (adm0 m) (U0 m) c (hids_of m h3 c) 20 t
        ∧ (ms0_21 (adm0 m) t).view.read (Elt F) ((ms0_21 (adm0 m) t).view.writes (Elt F) (ms0_21 (adm0 m) t).view.junk (gatherRun c t (ms0_0 (adm0 m) t) (hs0_0 (adm0 m) t) (iblk0 (adm0 m) (U0 m) c 0 t) (ms0_1 (adm0 m) t) (hs0_1 (adm0 m) t) (iblk0 (adm0 m) (U0 m) c 1 t) (ms0_2 (adm0 m) t) (hs0_2 (adm0 m) t) (iblk0 (adm0 m) (U0 m) c 2 t) (ms0_3 (adm0 m) t) (hs0_3 (adm0 m) t) (iblk0 (adm0 m) (U0 m) c 3 t) (ms0_4 (adm0 m) t) (hs0_4 (adm0 m) t) (iblk0 (adm0 m) (U0 m) c 4 t) (ms0_5 (adm0 m) t) (hs0_5 (adm0 m) t) (iblk0 (adm0 m) (U0 m) c 5 t) (ms0_6 (adm0 m) t) (hs0_6 (adm0 m) t) (iblk0 (adm0 m) (U0 m) c 6 t) (ms0_7 (adm0 m) t) (hs0_7 (adm0 m) t) (iblk0 (adm0 m) (U0 m) c 7 t) (ms0_8 (adm0 m) t) (hs0_8 (adm0 m) t) (iblk0 (adm0 m) (U0 m) c 8 t) (ms0_9 (adm0 m) t) (hs0_9 (adm0 m) t) (iblk0 (adm0 m) (U0 m) c 9 t) (ms0_10 (adm0 m) t) (hs0_10 (adm0 m) t) (iblk0 (adm0 m) (U0 m) c 10 t) (ms0_11 (adm0 m) t) (hs0_11 (adm0 m) t) (iblk0 (adm0 m) (U0 m) c 11 t) (ms0_12 (adm0 m) t) (hs0_12 (adm0 m) t) (iblk0 (adm0 m) (U0 m) c 12 t) (ms0_13 (adm0 m) t) (hs0_13 (adm0 m) t) (iblk0 (adm0 m) (U0 m) c 13 t) (ms0_14 (adm0 m) t) (hs0_14 (adm0 m) t) (iblk0 (adm0 m) (U0 m) c 14 t) (ms0_15 (adm0 m) t) (hs0_15 (adm0 m) t) (iblk0 (adm0 m) (U0 m) c 15 t) (ms0_16 (adm0 m) t) (hs0_16 (adm0 m) t) (ms0_17 (adm0 m) t) (hs0_17 (adm0 m) t) (ms0_18 (adm0 m) t) (hs0_18 (adm0 m) t) (ms0_19 (adm0 m) t) (hs0_19 (adm0 m) t) (ms0_20 (adm0 m) t) (hs0_20 (adm0 m) t) (ms0_21 (adm0 m) t) (hs0_21 (adm0 m) t) ((adm0 m).1 0) ((adm0 m).1 1) ((adm0 m).1 2) (U0 m c main_arg5) (U0 m c main_arg6) (U0 m c main_arg9) (U0 m c main_arg10) (U0 m c main_arg7) (U0 m c main_arg8) g0 g1 g2 g3 g4 g5 g6 g7 g8 (hT0_of m h3 c) (hT1_of m h3 c) (hT2_of m h3 c)).1.2.2.2.2.2) = after0 (adm0 m) (U0 m) c (hids_of m h3 c) 21 t

/-- THE RUN: termination, and the whole final memory of the buffers that outlive the regions. -/
theorem final_run (h3 : IdsLt m) (ρ : Dev nD → PrngReg) (hblk : GatherBlocks m h3) :
    θ_run defs (onTc (τ := τ) (main (F := F))) ⟨m, fun _ => 0, ρ⟩ (fun r => ∀ c : Dev nD,
      ∀ b ∈ Pipeline.ucRefs τ sig, r.2.mem (((c : Thread nD τ)).1, b) = V3 m (outs m (hids_of m h3)) c b) :=
  run_values m (hids_of m h3) ρ
    (fun c => body_obligation0 (adm0 m) (U0 m) (hids_of m h3) (hT0_of m h3) (hT1_of m h3) (hT2_of m h3) hblk c)
    (fun c => body_obligation1 (adm1 m) (U2 m (hids_of m h3)) (hU1_of m h3) (hI1_of m h3)
      (scatter_step (adm1 m) (U2 m (hids_of m h3))
        (fun c => congrFun (adm1_val2 m (hids_of m h3) c) 0) (fun c => congrFun (adm1_val2 m (hids_of m h3) c) 1)
        (hU1_of m h3) (hI1_of m h3)) c)

/-- THE FRAME: every argument array ends as launched. -/
theorem final_frame (h3 : IdsLt m) (ρ : Dev nD → PrngReg) (hblk : GatherBlocks m h3) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (V3_main_arg0 m _ c),
      (h c _ (mem_uc main_arg1 (by decide))).trans (V3_main_arg1 m _ c),
      (h c _ (mem_uc main_arg2 (by decide))).trans (V3_main_arg2 m _ c),
      (h c _ (mem_uc main_arg3 (by decide))).trans (V3_main_arg3 m _ c),
      (h c _ (mem_uc main_arg4 (by decide))).trans (V3_main_arg4 m _ c),
      (h c _ (mem_uc main_arg5 (by decide))).trans (V3_main_arg5 m _ c),
      (h c _ (mem_uc main_arg6 (by decide))).trans (V3_main_arg6 m _ c),
      (h c _ (mem_uc main_arg7 (by decide))).trans (V3_main_arg7 m _ c),
      (h c _ (mem_uc main_arg8 (by decide))).trans (V3_main_arg8 m _ c),
      (h c _ (mem_uc main_arg9 (by decide))).trans (V3_main_arg9 m _ c),
      (h c _ (mem_uc main_arg10 (by decide))).trans (V3_main_arg10 m _ c),
      (h c _ (mem_uc main_arg11 (by decide))).trans (V3_main_arg11 m _ c),
      (h c _ (mem_uc main_arg12 (by decide))).trans (V3_main_arg12 m _ c),
      (h c _ (mem_uc main_arg13 (by decide))).trans (V3_main_arg13 m _ c),
      (h c _ (mem_uc main_arg14 (by decide))).trans (V3_main_arg14 m _ c),
      (h c _ (mem_uc main_arg15 (by decide))).trans (V3_main_arg15 m _ c),
      (h c _ (mem_uc main_arg16 (by decide))).trans (V3_main_arg16 m _ c),
      (h c _ (mem_uc main_arg17 (by decide))).trans (V3_main_arg17 m _ c),
      (h c _ (mem_uc main_arg18 (by decide))).trans (V3_main_arg18 m _ c),
      (h c _ (mem_uc main_arg19 (by decide))).trans (V3_main_arg19 m _ c),
      (h c _ (mem_uc main_arg20 (by decide))).trans (V3_main_arg20 m _ c),
      (h c _ (mem_uc main_arg21 (by decide))).trans (V3_main_arg21 m _ c),
      (h c _ (mem_uc main_arg22 (by decide))).trans (V3_main_arg22 m _ c),
      (h c _ (mem_uc main_arg23 (by decide))).trans (V3_main_arg23 m _ c),
      (h c _ (mem_uc main_arg24 (by decide))).trans (V3_main_arg24 m _ c)⟩)
    (final_run m h3 ρ hblk)

end Cert.KernelIdeal.Hand

end
-- ==== Proof.KI.GatherStep.lean ====
/- What the gather-and-compute body leaves in its six output buffers at one grid point, identified. The run of the body
   leaves, in each output buffer, one whole-block store of a vector computed from loads: of the nine gather buffers, of the
   point's two staged time blocks and of the fourteen staged weight arrays. A gather buffer is loaded after sixteen row
   deliveries; delivery p writes, into row p of the buffer, the row of a table whose number is the unsigned value of a
   table word at position 16·t + p (the 32-bit computation of that position does not wrap, t being below 256 and p below
   16). Sixteen deliveries into the sixteen rows overwrite the whole buffer, so the load reads row (ids (16·t + p)) of the
   table at row p: the gathered block of the specification, whatever the buffer held before. A staged input is held at
   its block and loaded whole. So each stored vector is the block the specification names, and reading an output buffer
   back after its one whole-block store gives that block. -/
import proofs.«423553_j10307921510829_1_alg».proof.Proof.KI.Region0
import proofs.«423553_j10307921510829_1_alg».proof.Proof.KI.RowViews
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-! ## Sixteen rows of a block, delivered one by one -/

section Pure

variable {α : Type} {c : ℕ}

/-- A 16-row block with row p replaced by w. -/
def gatherSet (X : (⟨2, ![16, c]⟩ : Shape).Idx → α) (p : Fin 16) (w : Fin c → α) : (⟨2, ![16, c]⟩ : Shape).Idx → α :=
  fun j => if (j 0).val = p.val then w (j 1 : Fin c) else X j

/-- The first n rows of a block replaced, in order, by the rows w names. -/
def gatherUpTo (X : (⟨2, ![16, c]⟩ : Shape).Idx → α) (w : Fin 16 → Fin c → α) :
    (n : ℕ) → n ≤ 16 → (⟨2, ![16, c]⟩ : Shape).Idx → α
  | 0, _ => X
  | n + 1, h => gatherSet (gatherUpTo X w n (Nat.le_of_succ_le h)) ⟨n, h⟩ (w ⟨n, h⟩)

/-- After the first n rows are replaced, a row below n reads its replacement and any other row what it held. -/
theorem gatherUpTo_apply (X : (⟨2, ![16, c]⟩ : Shape).Idx → α) (w : Fin 16 → Fin c → α) :
    ∀ (n : ℕ) (h : n ≤ 16) (j : (⟨2, ![16, c]⟩ : Shape).Idx),
      gatherUpTo X w n h j = if (j 0).val < n then w (j 0 : Fin 16) (j 1 : Fin c) else X j
  | 0, _, j => by simp [gatherUpTo]
  | n + 1, h, j => by
    show (if (j 0).val = n then w ⟨n, h⟩ (j 1 : Fin c) else gatherUpTo X w n (Nat.le_of_succ_le h) j) = _
    rw [gatherUpTo_apply X w n (Nat.le_of_succ_le h) j]
    by_cases h1 : (j 0).val = n
    · have e : (j 0 : Fin 16) = ⟨n, h⟩ := Fin.ext h1
      rw [if_pos h1, if_pos (by omega)]
      exact (congrArg (fun q : Fin 16 => w q (j 1 : Fin c)) e).symm
    · rw [if_neg h1]
      by_cases h2 : (j 0).val < n
      · rw [if_pos h2, if_pos (by omega)]
      · rw [if_neg h2, if_neg (by omega)]

/-- All sixteen rows replaced: the block reads row (y 0) of the replacement at column (y 1), whatever it held. -/
theorem gatherSet_nest (X : (⟨2, ![16, c]⟩ : Shape).Idx → α) (w : Fin 16 → Fin c → α) :
    gatherSet (gatherSet (gatherSet (gatherSet (gatherSet (gatherSet (gatherSet (gatherSet (gatherSet (gatherSet
      (gatherSet (gatherSet (gatherSet (gatherSet (gatherSet (gatherSet X
        0 (w 0)) 1 (w 1)) 2 (w 2)) 3 (w 3)) 4 (w 4)) 5 (w 5)) 6 (w 6)) 7 (w 7)) 8 (w 8)) 9 (w 9)) 10 (w 10)) 11 (w 11))
        12 (w 12)) 13 (w 13)) 14 (w 14)) 15 (w 15)
      = fun y => w (y 0 : Fin 16) (y 1 : Fin c) := by
  funext y
  have h := gatherUpTo_apply X w 16 (Nat.le_refl 16) y
  have hy : (y 0).val < 16 := (y 0).isLt
  rw [if_pos hy] at h
  exact h

end Pure

/-- The 16 rows of a 128-wide table that the ids of point t name, as sixteen row deliveries over any block. -/
theorem gather128_nest (X : S16x128.Idx → Elt F .f32) (tbl : Vec F S200000x128 .f32) (ids : Fin 4096 → Fin 200000) (t : Fin 256) :
    Spec.gather128 tbl ids t
      = gatherSet (gatherSet (gatherSet (gatherSet (gatherSet (gatherSet (gatherSet (gatherSet (gatherSet (gatherSet
      (gatherSet (gatherSet (gatherSet (gatherSet (gatherSet (gatherSet X
        0 (fun k => tbl (ValueIdx.ix2 (ids (Spec.batchRow t 0)) k)))
        1 (fun k => tbl (ValueIdx.ix2 (ids (Spec.batchRow t 1)) k)))
        2 (fun k => tbl (ValueIdx.ix2 (ids (Spec.batchRow t 2)) k)))
        3 (fun k => tbl (ValueIdx.ix2 (ids (Spec.batchRow t 3)) k)))
        4 (fun k => tbl (ValueIdx.ix2 (ids (Spec.batchRow t 4)) k)))
        5 (fun k => tbl (ValueIdx.ix2 (ids (Spec.batchRow t 5)) k)))
        6 (fun k => tbl (ValueIdx.ix2 (ids (Spec.batchRow t 6)) k)))
        7 (fun k => tbl (ValueIdx.ix2 (ids (Spec.batchRow t 7)) k)))
        8 (fun k => tbl (ValueIdx.ix2 (ids (Spec.batchRow t 8)) k)))
        9 (fun k => tbl (ValueIdx.ix2 (ids (Spec.batchRow t 9)) k)))
        10 (fun k => tbl (ValueIdx.ix2 (ids (Spec.batchRow t 10)) k)))
        11 (fun k => tbl (ValueIdx.ix2 (ids (Spec.batchRow t 11)) k)))
        12 (fun k => tbl (ValueIdx.ix2 (ids (Spec.batchRow t 12)) k)))
        13 (fun k => tbl (ValueIdx.ix2 (ids (Spec.batchRow t 13)) k)))
        14 (fun k => tbl (ValueIdx.ix2 (ids (Spec.batchRow t 14)) k)))
        15 (fun k => tbl (ValueIdx.ix2 (ids (Spec.batchRow t 15)) k)) :=
  (gatherSet_nest X (fun p k => tbl (ValueIdx.ix2 (ids (Spec.batchRow t p)) k))).symm

/-- The same for a one-column table. -/
theorem gather1_nest (X : S16x1.Idx → Elt F .f32) (tbl : Vec F S200000x1 .f32) (ids : Fin 4096 → Fin 200000) (t : Fin 256) :
    Spec.gather1 tbl ids t
      = gatherSet (gatherSet (gatherSet (gatherSet (gatherSet (gatherSet (gatherSet (gatherSet (gatherSet (gatherSet
      (gatherSet (gatherSet (gatherSet (gatherSet (gatherSet (gatherSet X
        0 (fun k => tbl (ValueIdx.ix2 (ids (Spec.batchRow t 0)) k)))
        1 (fun k => tbl (ValueIdx.ix2 (ids (Spec.batchRow t 1)) k)))
        2 (fun k => tbl (ValueIdx.ix2 (ids (Spec.batchRow t 2)) k)))
        3 (fun k => tbl (ValueIdx.ix2 (ids (Spec.batchRow t 3)) k)))
        4 (fun k => tbl (ValueIdx.ix2 (ids (Spec.batchRow t 4)) k)))
        5 (fun k => tbl (ValueIdx.ix2 (ids (Spec.batchRow t 5)) k)))
        6 (fun k => tbl (ValueIdx.ix2 (ids (Spec.batchRow t 6)) k)))
        7 (fun k => tbl (ValueIdx.ix2 (ids (Spec.batchRow t 7)) k)))
        8 (fun k => tbl (ValueIdx.ix2 (ids (Spec.batchRow t 8)) k)))
        9 (fun k => tbl (ValueIdx.ix2 (ids (Spec.batchRow t 9)) k)))
        10 (fun k => tbl (ValueIdx.ix2 (ids (Spec.batchRow t 10)) k)))
        11 (fun k => tbl (ValueIdx.ix2 (ids (Spec.batchRow t 11)) k)))
        12 (fun k => tbl (ValueIdx.ix2 (ids (Spec.batchRow t 12)) k)))
        13 (fun k => tbl (ValueIdx.ix2 (ids (Spec.batchRow t 13)) k)))
        14 (fun k => tbl (ValueIdx.ix2 (ids (Spec.batchRow t 14)) k)))
        15 (fun k => tbl (ValueIdx.ix2 (ids (Spec.batchRow t 15)) k)) :=
  (gatherSet_nest X (fun p k => tbl (ValueIdx.ix2 (ids (Spec.batchRow t p)) k))).symm

/-! ## The table words a point reads -/

/-- On the grid of 256 points along one axis, point t's coordinate is t. -/
theorem gather_coords0_val (t : Fin grid0.N) : ((grid0.coords t) 0).val = t.val := by
  have ht : t.val < 256 := t.isLt
  have hs : grid0.stride 0 = 1 := by decide
  show t.val / grid0.stride 0 % 256 = t.val
  rw [hs, Nat.div_one, Nat.mod_eq_of_lt ht]

/-- The word position 16·t + p, computed in 32-bit arithmetic from the point's coordinate, does not wrap: t is below 256
    and p below 16, so the product and the sum stay below 4096. -/
theorem gather_wordOff (t : Fin grid0.N) (p : ℕ) (hp : p < 16) :
    (Scalar.indexCast (Scalar.addi (Scalar.muli (BitVec.ofNat 32 ((grid0.coords t) 0).val) 16#32) (BitVec.ofNat 32 p))).toNat
      = 16 * t.val + p := by
  have ht : t.val < 256 := t.isLt
  rw [gather_coords0_val]
  simp only [Scalar.indexCast, Scalar.addi, Scalar.muli, IntOp.addi, IntOp.muli, BitVec.toNat_add, BitVec.toNat_mul,
    BitVec.toNat_ofNat]
  omega

/-- The one word a load reads through the one-element rectangle at offset k of a table of 4096 words is the table's
    word k. -/
theorem gather_word_read {sp : Space} (M : Memref sig .tc sp S4096 .i32) (tb : M.view.ty.Contents (Elt F))
    (off : Fin 1 → ℕ) (inb : ∀ a, off a + S1.size a ≤ S4096.size a)
    (hpos : 0 < (Rect.unit (s := S4096) off S1.size inb).shape.numel) (k : Fin 4096) (hoff : off 0 = k.val) :
    View.readAt (Elt F) M.view (Rect.unit (s := S4096) off S1.size inb).toLoadRect tb (Shape.Idx.first hpos)
      = M.view.read (Elt F) tb (ValueIdx.ix1 k) := by
  rw [View.readAt_apply]
  congr 1
  funext a
  apply Fin.ext
  match a with
  | ⟨0, _⟩ =>
    show off 0 + 1 * 0 = k.val
    omega

/-- The row a slice offset names, when the offset is the unsigned value of the word a point reads at position k of a
    table: the unsigned value of the table's word k. -/
theorem gather_row_of_word {sp : Space} (M : Memref sig .tc sp S4096 .i32) (tb : M.view.ty.Contents (Elt F))
    (off : Fin 1 → ℕ) (inb : ∀ a, off a + S1.size a ≤ S4096.size a)
    (hpos : 0 < (Rect.unit (s := S4096) off S1.size inb).shape.numel) (k : Fin 4096) (hoff : off 0 = k.val)
    (off2 : BitVec 32 → Fin 2 → ℕ) (hoff2 : ∀ w, off2 w 0 = w.toNat) :
    off2 (View.readAt (Elt F) M.view (Rect.unit (s := S4096) off S1.size inb).toLoadRect tb (Shape.Idx.first hpos)) 0
      = (M.view.read (Elt F) tb (ValueIdx.ix1 k)).toNat :=
  (hoff2 _).trans (congrArg BitVec.toNat (gather_word_read M tb off inb hpos k hoff))

/-! ## One row delivery -/

/-- One row copied from a 128-wide table into row p of a 16-row block: the block read afterwards is the block read
    before with row p replaced by the table's row r. -/
theorem gather_step128 {spB : Space} (B : Memref sig .tc spB S16x128 .f32) (hB : B.IsWhole)
    {sp : Space} (M : Memref sig .tc sp S200000x128 .f32) (hM : M.IsWhole) (fh : M.view.ty.Contents (Elt F))
    (offB : Fin 2 → ℕ) (inbB : ∀ a, offB a + S1x128.size a ≤ S16x128.size a)
    (off : Fin 2 → ℕ) (inb : ∀ a, off a + S1x128.size a ≤ S200000x128.size a) (p : Fin 16) (r : Fin 200000)
    (f : B.view.ty.Contents (Elt F)) (X : S16x128.Idx → Elt F .f32)
    (hX : B.view.read (Elt F) f = X) (h0 : off 0 = r.val) (h1 : off 1 = 0) (hB0 : offB 0 = p.val) (hB1 : offB 1 = 0) :
    B.view.read (Elt F) (((B.slice (Rect.unit (s := S16x128) offB S1x128.size inbB) (fun _ => rfl)).squeeze S128
        squeezes_S1x128_S128).view.write (Elt F) f
          (ReadAs.same.apply (((M.slice (Rect.unit (s := S200000x128) off S1x128.size inb) (fun _ => rfl)).squeeze S128
            squeezes_S1x128_S128).view.read (Elt F) fh)) Finset.univ)
      = gatherSet X p (fun k => M.view.read (Elt F) fh (ValueIdx.ix2 r k)) := by
  rw [RowViews.read_write_blockrow128 B hB p offB inbB hB0 hB1, RowViews.read_row128 M hM off inb h0 h1, hX]
  rfl

/-- The same for a one-column table and a 16 × 1 block. -/
theorem gather_step1 {spB : Space} (B : Memref sig .tc spB S16x1 .f32) (hB : B.IsWhole)
    {sp : Space} (M : Memref sig .tc sp S200000x1 .f32) (hM : M.IsWhole) (fh : M.view.ty.Contents (Elt F))
    (offB : Fin 2 → ℕ) (inbB : ∀ a, offB a + S1x1.size a ≤ S16x1.size a)
    (off : Fin 2 → ℕ) (inb : ∀ a, off a + S1x1.size a ≤ S200000x1.size a) (p : Fin 16) (r : Fin 200000)
    (f : B.view.ty.Contents (Elt F)) (X : S16x1.Idx → Elt F .f32)
    (hX : B.view.read (Elt F) f = X) (h0 : off 0 = r.val) (h1 : off 1 = 0) (hB0 : offB 0 = p.val) (hB1 : offB 1 = 0) :
    B.view.read (Elt F) (((B.slice (Rect.unit (s := S16x1) offB S1x1.size inbB) (fun _ => rfl)).squeeze S1
        squeezes_S1x1_S1).view.write (Elt F) f
          (ReadAs.same.apply (((M.slice (Rect.unit (s := S200000x1) off S1x1.size inb) (fun _ => rfl)).squeeze S1
            squeezes_S1x1_S1).view.read (Elt F) fh)) Finset.univ)
      = gatherSet X p (fun k => M.view.read (Elt F) fh (ValueIdx.ix2 r k)) := by
  rw [RowViews.read_write_blockrow1 B hB p offB inbB hB0 hB1, RowViews.read_row1 M hM off inb h0 h1, hX]
  rfl

/-! ## Whole-block loads and stores -/

/-- A buffer after one store through the rectangle of its own sizes at zero offsets reads the stored vector. -/
theorem gather_read_whole_piece {sg : RefSig} {κ : Kind} {sp : Space} {s : Shape} {e : EltTy} {Val : EltTy → Type}
    (v : View sg κ sp s e) (f : v.ty.Contents Val) {off : Fin s.rank → ℕ} (h : ∀ a, off a = 0)
    (inb : ∀ a, off a + s.size a ≤ s.size a) (w : (Rect.unit off s.size inb).shape.Idx → Val e) :
    v.read Val (v.writes Val f [⟨Rect.unit off s.size inb, w⟩]) = w := by
  obtain rfl : off = fun _ => 0 := funext h
  funext y
  have e := View.read_writes_cons_emb v f (Rect.whole s) w [] y
  rw [Rect.emb_whole_apply] at e
  exact e

/-- A load through the rectangle of a view's own sizes at zero offsets reads what the view reads. -/
theorem gather_readAt_whole {sg : RefSig} {κ : Kind} {sp : Space} {s : Shape} {e : EltTy} {Val : EltTy → Type}
    (v : View sg κ sp s e) (f : v.ty.Contents Val) {off : Fin s.rank → ℕ} (h : ∀ a, off a = 0)
    (inb : ∀ a, off a + s.size a ≤ s.size a) :
    v.readAt Val (Rect.unit off s.size inb).toLoadRect f = v.read Val f := by
  obtain rfl : off = fun _ => 0 := funext h
  funext y
  rw [View.readAt_apply]
  congr 1
  exact Rect.emb_whole_apply s y

/-- A load through the rectangle of a whole memref's own sizes at zero offsets, the memref held at the contents that
    read X, reads X. -/
theorem gather_readAt_whole_unread {sg : RefSig} {κ : Kind} {sp : Space} {s : Shape} {e : EltTy} {Val : EltTy → Type}
    {m : Memref sg κ sp s e} (hm : m.IsWhole) (X : s.Idx → Val e) {off : Fin s.rank → ℕ} (h : ∀ a, off a = 0)
    (inb : ∀ a, off a + s.size a ≤ s.size a) :
    View.readAt Val m.view (Rect.unit off s.size inb).toLoadRect (hm.unread X) = X :=
  (gather_readAt_whole m.view (hm.unread X) h inb).trans (hm.read_unread X)

/-- Offsets written as literal zeros are zero on every axis. -/
theorem gather_zero1 : ∀ a : Fin 1, (![0] : Fin 1 → ℕ) a = 0 := by decide
theorem gather_zero2 : ∀ a : Fin 2, (![0, 0] : Fin 2 → ℕ) a = 0 := by decide

section Region

variable (a0 : (pcfg0 (F := F)).Adm)
variable (V : (c : Dev nD) → (b : Ref sig .tc) → Buf (Elt F) ((c : Thread nD τ).loc b))

/-! ## The staged inputs' blocks -/

/-- Window 0's block index at point t is (t, 0). -/
theorem gather_idx0 : ∀ t : Fin (cfg0 a0).N, ((cfg0 a0).win 0).index t (0 : Fin 2) = t.val ∧ ((cfg0 a0).win 0).index t (1 : Fin 2) = 0 :=
  (by decide +kernel : ∀ t : Fin grid0.N, cc0_transform_0 (grid0.coords t) (0 : Fin 2) = t.val ∧ cc0_transform_0 (grid0.coords t) (1 : Fin 2) = 0)

/-- Window 0's block at point t is block t of the first time column. -/
theorem gather_iblk0_0 (c : Dev nD) (t : Fin (cfg0 a0).N) : iblk0 a0 V c 0 t = Spec.block1 (rd V c main_arg3) t := by
  obtain ⟨e0, e1⟩ := gather_idx0 a0 t
  funext j
  show V c main_arg3 ((((cfg0 a0).win 0).rect t).emb j) = V c main_arg3 (ValueIdx.ix2 (Spec.batchRow t (j (0 : Fin 2))) (j (1 : Fin 2)))
  congr 1
  funext a
  apply Fin.ext
  match a with
  | ⟨0, _⟩ =>
    show ((cfg0 a0).win 0).index t (0 : Fin 2) * 16 + 1 * (j (0 : Fin 2)).val = 16 * t.val + (j (0 : Fin 2)).val
    rw [e0]; omega
  | ⟨1, _⟩ =>
    show ((cfg0 a0).win 0).index t (1 : Fin 2) * 1 + 1 * (j (1 : Fin 2)).val = (j (1 : Fin 2)).val
    rw [e1]; omega

/-- Window 1's block index at point t is (t, 0). -/
theorem gather_idx1 : ∀ t : Fin (cfg0 a0).N, ((cfg0 a0).win 1).index t (0 : Fin 2) = t.val ∧ ((cfg0 a0).win 1).index t (1 : Fin 2) = 0 :=
  (by decide +kernel : ∀ t : Fin grid0.N, cc0_transform_1 (grid0.coords t) (0 : Fin 2) = t.val ∧ cc0_transform_1 (grid0.coords t) (1 : Fin 2) = 0)

/-- Window 1's block at point t is block t of the second time column. -/
theorem gather_iblk0_1 (c : Dev nD) (t : Fin (cfg0 a0).N) : iblk0 a0 V c 1 t = Spec.block1 (rd V c main_arg4) t := by
  obtain ⟨e0, e1⟩ := gather_idx1 a0 t
  funext j
  show V c main_arg4 ((((cfg0 a0).win 1).rect t).emb j) = V c main_arg4 (ValueIdx.ix2 (Spec.batchRow t (j (0 : Fin 2))) (j (1 : Fin 2)))
  congr 1
  funext a
  apply Fin.ext
  match a with
  | ⟨0, _⟩ =>
    show ((cfg0 a0).win 1).index t (0 : Fin 2) * 16 + 1 * (j (0 : Fin 2)).val = 16 * t.val + (j (0 : Fin 2)).val
    rw [e0]; omega
  | ⟨1, _⟩ =>
    show ((cfg0 a0).win 1).index t (1 : Fin 2) * 1 + 1 * (j (1 : Fin 2)).val = (j (1 : Fin 2)).val
    rw [e1]; omega

/-- Window 2's block at every point is its whole array. -/
theorem gather_iblk0_2 (c : Dev nD) (t : Fin (cfg0 a0).N) : iblk0 a0 V c 2 t = rd V c main_arg11 := by
  funext j
  show V c main_arg11 ((((cfg0 a0).win 2).rect t).emb j) = V c main_arg11 j
  congr 1
  funext a
  apply Fin.ext
  match a with
  | ⟨0, _⟩ =>
    show ((cfg0 a0).win 2).index t (0 : Fin 2) * 1 + 1 * (j (0 : Fin 2)).val = (j (0 : Fin 2)).val
    have e : ((cfg0 a0).win 2).index t (0 : Fin 2) = 0 := rfl
    rw [e]; omega
  | ⟨1, _⟩ =>
    show ((cfg0 a0).win 2).index t (1 : Fin 2) * 128 + 1 * (j (1 : Fin 2)).val = (j (1 : Fin 2)).val
    have e : ((cfg0 a0).win 2).index t (1 : Fin 2) = 0 := rfl
    rw [e]; omega

/-- Window 3's block at every point is its whole array. -/
theorem gather_iblk0_3 (c : Dev nD) (t : Fin (cfg0 a0).N) : iblk0 a0 V c 3 t = rd V c main_arg12 := by
  funext j
  show V c main_arg12 ((((cfg0 a0).win 3).rect t).emb j) = V c main_arg12 j
  congr 1
  funext a
  apply Fin.ext
  match a with
  | ⟨0, _⟩ =>
    show ((cfg0 a0).win 3).index t (0 : Fin 2) * 1 + 1 * (j (0 : Fin 2)).val = (j (0 : Fin 2)).val
    have e : ((cfg0 a0).win 3).index t (0 : Fin 2) = 0 := rfl
    rw [e]; omega
  | ⟨1, _⟩ =>
    show ((cfg0 a0).win 3).index t (1 : Fin 2) * 128 + 1 * (j (1 : Fin 2)).val = (j (1 : Fin 2)).val
    have e : ((cfg0 a0).win 3).index t (1 : Fin 2) = 0 := rfl
    rw [e]; omega

/-- Window 4's block at every point is its whole array. -/
theorem gather_iblk0_4 (c : Dev nD) (t : Fin (cfg0 a0).N) : iblk0 a0 V c 4 t = rd V c main_arg13 := by
  funext j
  show V c main_arg13 ((((cfg0 a0).win 4).rect t).emb j) = V c main_arg13 j
  congr 1
  funext a
  apply Fin.ext
  match a with
  | ⟨0, _⟩ =>
    show ((cfg0 a0).win 4).index t (0 : Fin 2) * 128 + 1 * (j (0 : Fin 2)).val = (j (0 : Fin 2)).val
    have e : ((cfg0 a0).win 4).index t (0 : Fin 2) = 0 := rfl
    rw [e]; omega
  | ⟨1, _⟩ =>
    show ((cfg0 a0).win 4).index t (1 : Fin 2) * 129 + 1 * (j (1 : Fin 2)).val = (j (1 : Fin 2)).val
    have e : ((cfg0 a0).win 4).index t (1 : Fin 2) = 0 := rfl
    rw [e]; omega

/-- Window 5's block at every point is its whole array. -/
theorem gather_iblk0_5 (c : Dev nD) (t : Fin (cfg0 a0).N) : iblk0 a0 V c 5 t = rd V c main_arg14 := by
  funext j
  show V c main_arg14 ((((cfg0 a0).win 5).rect t).emb j) = V c main_arg14 j
  congr 1
  funext a
  apply Fin.ext
  match a with
  | ⟨0, _⟩ =>
    show ((cfg0 a0).win 5).index t (0 : Fin 2) * 128 + 1 * (j (0 : Fin 2)).val = (j (0 : Fin 2)).val
    have e : ((cfg0 a0).win 5).index t (0 : Fin 2) = 0 := rfl
    rw [e]; omega
  | ⟨1, _⟩ =>
    show ((cfg0 a0).win 5).index t (1 : Fin 2) * 128 + 1 * (j (1 : Fin 2)).val = (j (1 : Fin 2)).val
    have e : ((cfg0 a0).win 5).index t (1 : Fin 2) = 0 := rfl
    rw [e]; omega

/-- Window 6's block at every point is its whole array. -/
theorem gather_iblk0_6 (c : Dev nD) (t : Fin (cfg0 a0).N) : iblk0 a0 V c 6 t = rd V c main_arg15 := by
  funext j
  show V c main_arg15 ((((cfg0 a0).win 6).rect t).emb j) = V c main_arg15 j
  congr 1
  funext a
  apply Fin.ext
  match a with
  | ⟨0, _⟩ =>
    show ((cfg0 a0).win 6).index t (0 : Fin 1) * 128 + 1 * (j (0 : Fin 1)).val = (j (0 : Fin 1)).val
    have e : ((cfg0 a0).win 6).index t (0 : Fin 1) = 0 := rfl
    rw [e]; omega

/-- Window 7's block at every point is its whole array. -/
theorem gather_iblk0_7 (c : Dev nD) (t : Fin (cfg0 a0).N) : iblk0 a0 V c 7 t = rd V c main_arg16 := by
  funext j
  show V c main_arg16 ((((cfg0 a0).win 7).rect t).emb j) = V c main_arg16 j
  congr 1
  funext a
  apply Fin.ext
  match a with
  | ⟨0, _⟩ =>
    show ((cfg0 a0).win 7).index t (0 : Fin 1) * 128 + 1 * (j (0 : Fin 1)).val = (j (0 : Fin 1)).val
    have e : ((cfg0 a0).win 7).index t (0 : Fin 1) = 0 := rfl
    rw [e]; omega

/-- Window 8's block at every point is its whole array. -/
theorem gather_iblk0_8 (c : Dev nD) (t : Fin (cfg0 a0).N) : iblk0 a0 V c 8 t = rd V c main_arg17 := by
  funext j
  show V c main_arg17 ((((cfg0 a0).win 8).rect t).emb j) = V c main_arg17 j
  congr 1
  funext a
  apply Fin.ext
  match a with
  | ⟨0, _⟩ =>
    show ((cfg0 a0).win 8).index t (0 : Fin 2) * 128 + 1 * (j (0 : Fin 2)).val = (j (0 : Fin 2)).val
    have e : ((cfg0 a0).win 8).index t (0 : Fin 2) = 0 := rfl
    rw [e]; omega
  | ⟨1, _⟩ =>
    show ((cfg0 a0).win 8).index t (1 : Fin 2) * 129 + 1 * (j (1 : Fin 2)).val = (j (1 : Fin 2)).val
    have e : ((cfg0 a0).win 8).index t (1 : Fin 2) = 0 := rfl
    rw [e]; omega

/-- Window 9's block at every point is its whole array. -/
theorem gather_iblk0_9 (c : Dev nD) (t : Fin (cfg0 a0).N) : iblk0 a0 V c 9 t = rd V c main_arg18 := by
  funext j
  show V c main_arg18 ((((cfg0 a0).win 9).rect t).emb j) = V c main_arg18 j
  congr 1
  funext a
  apply Fin.ext
  match a with
  | ⟨0, _⟩ =>
    show ((cfg0 a0).win 9).index t (0 : Fin 2) * 128 + 1 * (j (0 : Fin 2)).val = (j (0 : Fin 2)).val
    have e : ((cfg0 a0).win 9).index t (0 : Fin 2) = 0 := rfl
    rw [e]; omega
  | ⟨1, _⟩ =>
    show ((cfg0 a0).win 9).index t (1 : Fin 2) * 128 + 1 * (j (1 : Fin 2)).val = (j (1 : Fin 2)).val
    have e : ((cfg0 a0).win 9).index t (1 : Fin 2) = 0 := rfl
    rw [e]; omega

/-- Window 10's block at every point is its whole array. -/
theorem gather_iblk0_10 (c : Dev nD) (t : Fin (cfg0 a0).N) : iblk0 a0 V c 10 t = rd V c main_arg19 := by
  funext j
  show V c main_arg19 ((((cfg0 a0).win 10).rect t).emb j) = V c main_arg19 j
  congr 1
  funext a
  apply Fin.ext
  match a with
  | ⟨0, _⟩ =>
    show ((cfg0 a0).win 10).index t (0 : Fin 1) * 128 + 1 * (j (0 : Fin 1)).val = (j (0 : Fin 1)).val
    have e : ((cfg0 a0).win 10).index t (0 : Fin 1) = 0 := rfl
    rw [e]; omega

/-- Window 11's block at every point is its whole array. -/
theorem gather_iblk0_11 (c : Dev nD) (t : Fin (cfg0 a0).N) : iblk0 a0 V c 11 t = rd V c main_arg20 := by
  funext j
  show V c main_arg20 ((((cfg0 a0).win 11).rect t).emb j) = V c main_arg20 j
  congr 1
  funext a
  apply Fin.ext
  match a with
  | ⟨0, _⟩ =>
    show ((cfg0 a0).win 11).index t (0 : Fin 1) * 128 + 1 * (j (0 : Fin 1)).val = (j (0 : Fin 1)).val
    have e : ((cfg0 a0).win 11).index t (0 : Fin 1) = 0 := rfl
    rw [e]; omega

/-- Window 12's block at every point is its whole array. -/
theorem gather_iblk0_12 (c : Dev nD) (t : Fin (cfg0 a0).N) : iblk0 a0 V c 12 t = rd V c main_arg21 := by
  funext j
  show V c main_arg21 ((((cfg0 a0).win 12).rect t).emb j) = V c main_arg21 j
  congr 1
  funext a
  apply Fin.ext
  match a with
  | ⟨0, _⟩ =>
    show ((cfg0 a0).win 12).index t (0 : Fin 2) * 256 + 1 * (j (0 : Fin 2)).val = (j (0 : Fin 2)).val
    have e : ((cfg0 a0).win 12).index t (0 : Fin 2) = 0 := rfl
    rw [e]; omega
  | ⟨1, _⟩ =>
    show ((cfg0 a0).win 12).index t (1 : Fin 2) * 512 + 1 * (j (1 : Fin 2)).val = (j (1 : Fin 2)).val
    have e : ((cfg0 a0).win 12).index t (1 : Fin 2) = 0 := rfl
    rw [e]; omega

/-- Window 13's block at every point is its whole array. -/
theorem gather_iblk0_13 (c : Dev nD) (t : Fin (cfg0 a0).N) : iblk0 a0 V c 13 t = rd V c main_arg22 := by
  funext j
  show V c main_arg22 ((((cfg0 a0).win 13).rect t).emb j) = V c main_arg22 j
  congr 1
  funext a
  apply Fin.ext
  match a with
  | ⟨0, _⟩ =>
    show ((cfg0 a0).win 13).index t (0 : Fin 1) * 256 + 1 * (j (0 : Fin 1)).val = (j (0 : Fin 1)).val
    have e : ((cfg0 a0).win 13).index t (0 : Fin 1) = 0 := rfl
    rw [e]; omega

/-- Window 14's block at every point is its whole array. -/
theorem gather_iblk0_14 (c : Dev nD) (t : Fin (cfg0 a0).N) : iblk0 a0 V c 14 t = rd V c main_arg23 := by
  funext j
  show V c main_arg23 ((((cfg0 a0).win 14).rect t).emb j) = V c main_arg23 j
  congr 1
  funext a
  apply Fin.ext
  match a with
  | ⟨0, _⟩ =>
    show ((cfg0 a0).win 14).index t (0 : Fin 2) * 128 + 1 * (j (0 : Fin 2)).val = (j (0 : Fin 2)).val
    have e : ((cfg0 a0).win 14).index t (0 : Fin 2) = 0 := rfl
    rw [e]; omega
  | ⟨1, _⟩ =>
    show ((cfg0 a0).win 14).index t (1 : Fin 2) * 1 + 1 * (j (1 : Fin 2)).val = (j (1 : Fin 2)).val
    have e : ((cfg0 a0).win 14).index t (1 : Fin 2) = 0 := rfl
    rw [e]; omega

/-- Window 15's block at every point is its whole array. -/
theorem gather_iblk0_15 (c : Dev nD) (t : Fin (cfg0 a0).N) : iblk0 a0 V c 15 t = rd V c main_arg24 := by
  funext j
  show V c main_arg24 ((((cfg0 a0).win 15).rect t).emb j) = V c main_arg24 j
  congr 1
  funext a
  apply Fin.ext
  match a with
  | ⟨0, _⟩ =>
    show ((cfg0 a0).win 15).index t (0 : Fin 1) * 128 + 1 * (j (0 : Fin 1)).val = (j (0 : Fin 1)).val
    have e : ((cfg0 a0).win 15).index t (0 : Fin 1) = 0 := rfl
    rw [e]; omega

/-! ## The six output buffers -/

/-- The six output buffers read back. Each is filled by one store of a whole block, so what it reads afterwards is the
    stored vector, whatever it held before; and when the nine gather buffers were loaded at the blocks of table rows the
    point's ids name, the two time inputs at the point's blocks and the fourteen weight inputs at their arrays, the six
    stored vectors are the six blocks the specification names. -/
theorem gather_read_back (c : Dev nD) (h : IdsOk V c) (t : Fin (cfg0 a0).N)
    (L0 L1 L2 L3 L4 L5 : Vec F S16x128 .f32) (L6 L7 L8 : Vec F S16x1 .f32)
    (X0 X1 : Vec F S16x1 .f32) (X2 X3 : Vec F S1x128 .f32) (X4 : Vec F S128x129 .f32) (X5 : Vec F S128x128 .f32)
    (X6 X7 : Vec F S128 .f32) (X8 : Vec F S128x129 .f32) (X9 : Vec F S128x128 .f32) (X10 X11 : Vec F S128 .f32)
    (X12 : Vec F S256x512 .f32) (X13 : Vec F S256 .f32) (X14 : Vec F S128x1 .f32) (X15 : Vec F S128 .f32)
    (e0 : L0 = Spec.gather128 (argsAt V c h).dynU (argsAt V c h).uid t)
    (e1 : L1 = Spec.gather128 (argsAt V c h).dynI (argsAt V c h).iid t)
    (e2 : L2 = Spec.gather128 (argsAt V c h).dynI (argsAt V c h).pid t)
    (e3 : L3 = Spec.gather128 (argsAt V c h).statU (argsAt V c h).uid t)
    (e4 : L4 = Spec.gather128 (argsAt V c h).statI (argsAt V c h).iid t)
    (e5 : L5 = Spec.gather128 (argsAt V c h).statI (argsAt V c h).pid t)
    (e6 : L6 = Spec.gather1 (argsAt V c h).isU (argsAt V c h).uid t)
    (e7 : L7 = Spec.gather1 (argsAt V c h).isI (argsAt V c h).iid t)
    (e8 : L8 = Spec.gather1 (argsAt V c h).isI (argsAt V c h).pid t)
    (i0 : X0 = Spec.block1 (argsAt V c h).tpi t)
    (i1 : X1 = Spec.block1 (argsAt V c h).tpu t)
    (i2 : X2 = (argsAt V c h).initU)
    (i3 : X3 = (argsAt V c h).initI)
    (i4 : X4 = (argsAt V c h).uWih)
    (i5 : X5 = (argsAt V c h).uWhh)
    (i6 : X6 = (argsAt V c h).ubih)
    (i7 : X7 = (argsAt V c h).ubhh)
    (i8 : X8 = (argsAt V c h).iWih)
    (i9 : X9 = (argsAt V c h).iWhh)
    (i10 : X10 = (argsAt V c h).ibih)
    (i11 : X11 = (argsAt V c h).ibhh)
    (i12 : X12 = (argsAt V c h).predW)
    (i13 : X13 = (argsAt V c h).predb)
    (i14 : X14 = (argsAt V c h).tdW)
    (i15 : X15 = (argsAt V c h).tdb)
    (p16 p17 : ∀ a, (![0, 0] : Fin 2 → ℕ) a + S16x256.size a ≤ S16x256.size a)
    (p18 p19 p20 p21 : ∀ a, (![0, 0] : Fin 2 → ℕ) a + S16x128.size a ≤ S16x128.size a) :
    (ms0_16 a0 t).view.read (Elt F) ((ms0_16 a0 t).view.writes (Elt F) (ms0_16 a0 t).view.junk
        [(⟨Rect.unit (s := S16x256) ![0, 0] S16x256.size p16, k0_pay4 (k0_pay3 (k0_pay1 L6 X2 L0) L8 X3 L2 L3 L5 X0 X14 X15) X12 X13⟩ : View.Piece (Elt F) S16x256 .f32)]) = after0 a0 V c h 16 t
    ∧ (ms0_17 a0 t).view.read (Elt F) ((ms0_17 a0 t).view.writes (Elt F) (ms0_17 a0 t).view.junk
        [(⟨Rect.unit (s := S16x256) ![0, 0] S16x256.size p17, k0_pay5 (k0_pay2 L7 X3 L1) L4⟩ : View.Piece (Elt F) S16x256 .f32)]) = after0 a0 V c h 17 t
    ∧ (ms0_18 a0 t).view.read (Elt F) ((ms0_18 a0 t).view.writes (Elt F) (ms0_18 a0 t).view.junk
        [(⟨Rect.unit (s := S16x128) ![0, 0] S16x128.size p18, k0_pay6 (k0_pay1 L6 X2 L0) (k0_pay2 L7 X3 L1) X0 X4 X6 X5 X7⟩ : View.Piece (Elt F) S16x128 .f32)]) = after0 a0 V c h 18 t
    ∧ (ms0_19 a0 t).view.read (Elt F) ((ms0_19 a0 t).view.writes (Elt F) (ms0_19 a0 t).view.junk
        [(⟨Rect.unit (s := S16x128) ![0, 0] S16x128.size p19, k0_pay1 L6 X2 L0⟩ : View.Piece (Elt F) S16x128 .f32)]) = after0 a0 V c h 19 t
    ∧ (ms0_20 a0 t).view.read (Elt F) ((ms0_20 a0 t).view.writes (Elt F) (ms0_20 a0 t).view.junk
        [(⟨Rect.unit (s := S16x128) ![0, 0] S16x128.size p20, k0_pay7 (k0_pay1 L6 X2 L0) (k0_pay2 L7 X3 L1) X1 X8 X10 X9 X11⟩ : View.Piece (Elt F) S16x128 .f32)]) = after0 a0 V c h 20 t
    ∧ (ms0_21 a0 t).view.read (Elt F) ((ms0_21 a0 t).view.writes (Elt F) (ms0_21 a0 t).view.junk
        [(⟨Rect.unit (s := S16x128) ![0, 0] S16x128.size p21, k0_pay2 L7 X3 L1⟩ : View.Piece (Elt F) S16x128 .f32)]) = after0 a0 V c h 21 t := by
  subst e0 e1 e2 e3 e4 e5 e6 e7 e8 i0 i1 i2 i3 i4 i5 i6 i7 i8 i9 i10 i11 i12 i13 i14 i15
  exact ⟨gather_read_whole_piece _ _ gather_zero2 _ _, gather_read_whole_piece _ _ gather_zero2 _ _,
    gather_read_whole_piece _ _ gather_zero2 _ _, gather_read_whole_piece _ _ gather_zero2 _ _,
    gather_read_whole_piece _ _ gather_zero2 _ _, gather_read_whole_piece _ _ gather_zero2 _ _⟩

set_option maxHeartbeats 40000000 in
/-- What the body's run leaves in the six output buffers at point t, read back, is the six blocks the specification
    names. Each gather buffer is loaded after sixteen row deliveries, the one into row p copying the table row that the
    table word at position 16·t + p names: so it is loaded at the sixteen table rows the point's ids name. Each staged
    input is loaded as it stands: the point's block of a time column, or a whole weight array. -/
theorem gather_blocks
    (hids : ∀ c : Dev nD, IdsOk V c)
    (hT0 : ∀ c : Dev nD, RowWords c (Memref.whole main_arg0) (a0.1 0)) (hT1 : ∀ c : Dev nD, RowWords c (Memref.whole main_arg2) (a0.1 1))
    (hT2 : ∀ c : Dev nD, RowWords c (Memref.whole main_arg1) (a0.1 2))
    (ha : ∀ c : Dev nD, a0.1 0 = V c main_arg0 ∧ a0.1 1 = V c main_arg2 ∧ a0.1 2 = V c main_arg1) :
    ∀ (c : Dev nD) (t : Fin (cfg0 a0).N) (g0 : Bf (F := F) c (Memref.whole cc0_scratch0)) (g1 : Bf (F := F) c (Memref.whole cc0_scratch1)) (g2 : Bf (F := F) c (Memref.whole cc0_scratch2)) (g3 : Bf (F := F) c (Memref.whole cc0_scratch3)) (g4 : Bf (F := F) c (Memref.whole cc0_scratch4)) (g5 : Bf (F := F) c (Memref.whole cc0_scratch5)) (g6 : Bf (F := F) c (Memref.whole cc0_scratch6)) (g7 : Bf (F := F) c (Memref.whole cc0_scratch7)) (g8 : Bf (F := F) c (Memref.whole cc0_scratch8)),
        (ms0_16 a0 t).view.read (Elt F) ((ms0_16 a0 t).view.writes (Elt F) (ms0_16 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.1) = after0 a0 V c (hids c) 16 t
        ∧ (ms0_17 a0 t).view.read (Elt F) ((ms0_17 a0 t).view.writes (Elt F) (ms0_17 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.1) = after0 a0 V c (hids c) 17 t
        ∧ (ms0_18 a0 t).view.read (Elt F) ((ms0_18 a0 t).view.writes (Elt F) (ms0_18 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.1) = after0 a0 V c (hids c) 18 t
        ∧ (ms0_19 a0 t).view.read (Elt F) ((ms0_19 a0 t).view.writes (Elt F) (ms0_19 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.1) = after0 a0 V c (hids c) 19 t
        ∧ (ms0_20 a0 t).view.read (Elt F) ((ms0_20 a0 t).view.writes (Elt F) (ms0_20 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.2.1) = after0 a0 V c (hids c) 20 t
        ∧ (ms0_21 a0 t).view.read (Elt F) ((ms0_21 a0 t).view.writes (Elt F) (ms0_21 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.2.2) = after0 a0 V c (hids c) 21 t := by
  intro c t g0 g1 g2 g3 g4 g5 g6 g7 g8
  obtain ⟨hA0, hA1, hA2⟩ := ha c
  have hw0 : ∀ p : Fin 16, ((Memref.whole main_arg0).view.read (Elt F) (a0.1 0) (ValueIdx.ix1 (Spec.batchRow t p))).toNat
      = ((argsAt V c (hids c)).uid (Spec.batchRow t p)).val := fun p => by rw [hA0]; rfl
  have hw1 : ∀ p : Fin 16, ((Memref.whole main_arg2).view.read (Elt F) (a0.1 1) (ValueIdx.ix1 (Spec.batchRow t p))).toNat
      = ((argsAt V c (hids c)).iid (Spec.batchRow t p)).val := fun p => by rw [hA1]; rfl
  have hw2 : ∀ p : Fin 16, ((Memref.whole main_arg1).view.read (Elt F) (a0.1 2) (ValueIdx.ix1 (Spec.batchRow t p))).toNat
      = ((argsAt V c (hids c)).pid (Spec.batchRow t p)).val := fun p => by rw [hA2]; rfl
  unfold gatherRun
  dsimp only
  sl_unfold_run_names
  refine gather_read_back a0 V c (hids c) t _ _ _ _ _ _ _ _ _ _ _ _ _ _ _ _ _ _ _ _ _ _ _ _ _
    ?e0 ?e1 ?e2 ?e3 ?e4 ?e5 ?e6 ?e7 ?e8 ?i0 ?i1 ?i2 ?i3 ?i4 ?i5 ?i6 ?i7 ?i8 ?i9 ?i10 ?i11 ?i12 ?i13 ?i14 ?i15 _ _ _ _ _ _
  case e0 =>
    -- the dynamic user rows
    refine (gather_readAt_whole _ _ gather_zero2 _).trans ?_
    refine Eq.trans ?_ (gather128_nest ((Memref.whole cc0_scratch0).view.read (Elt F) g0) _ _ _).symm
    refine gather_step128 _ (Memref.isWhole_whole _) _ (Memref.isWhole_whole _) _ _ _ _ _ (15 : Fin 16) _ _ _ ?_ ?_ rfl rfl rfl
    case refine_2 => exact (gather_row_of_word (Memref.whole main_arg0) (a0.1 0) (k0_off136 (grid0.coords t)) _ _ (Spec.batchRow t 15) (gather_wordOff t 15 (by omega)) k0_off137 (fun _ => rfl)).trans (hw0 15)
    refine gather_step128 _ (Memref.isWhole_whole _) _ (Memref.isWhole_whole _) _ _ _ _ _ (14 : Fin 16) _ _ _ ?_ ?_ rfl rfl rfl
    case refine_2 => exact (gather_row_of_word (Memref.whole main_arg0) (a0.1 0) (k0_off127 (grid0.coords t)) _ _ (Spec.batchRow t 14) (gather_wordOff t 14 (by omega)) k0_off128 (fun _ => rfl)).trans (hw0 14)
    refine gather_step128 _ (Memref.isWhole_whole _) _ (Memref.isWhole_whole _) _ _ _ _ _ (13 : Fin 16) _ _ _ ?_ ?_ rfl rfl rfl
    case refine_2 => exact (gather_row_of_word (Memref.whole main_arg0) (a0.1 0) (k0_off118 (grid0.coords t)) _ _ (Spec.batchRow t 13) (gather_wordOff t 13 (by omega)) k0_off119 (fun _ => rfl)).trans (hw0 13)
    refine gather_step128 _ (Memref.isWhole_whole _) _ (Memref.isWhole_whole _) _ _ _ _ _ (12 : Fin 16) _ _ _ ?_ ?_ rfl rfl rfl
    case refine_2 => exact (gather_row_of_word (Memref.whole main_arg0) (a0.1 0) (k0_off109 (grid0.coords t)) _ _ (Spec.batchRow t 12) (gather_wordOff t 12 (by omega)) k0_off110 (fun _ => rfl)).trans (hw0 12)
    refine gather_step128 _ (Memref.isWhole_whole _) _ (Memref.isWhole_whole _) _ _ _ _ _ (11 : Fin 16) _ _ _ ?_ ?_ rfl rfl rfl
    case refine_2 => exact (gather_row_of_word (Memref.whole main_arg0) (a0.1 0) (k0_off100 (grid0.coords t)) _ _ (Spec.batchRow t 11) (gather_wordOff t 11 (by omega)) k0_off101 (fun _ => rfl)).trans (hw0 11)
    refine gather_step128 _ (Memref.isWhole_whole _) _ (Memref.isWhole_whole _) _ _ _ _ _ (10 : Fin 16) _ _ _ ?_ ?_ rfl rfl rfl
    case refine_2 => exact (gather_row_of_word (Memref.whole main_arg0) (a0.1 0) (k0_off91 (grid0.coords t)) _ _ (Spec.batchRow t 10) (gather_wordOff t 10 (by omega)) k0_off92 (fun _ => rfl)).trans (hw0 10)
    refine gather_step128 _ (Memref.isWhole_whole _) _ (Memref.isWhole_whole _) _ _ _ _ _ (9 : Fin 16) _ _ _ ?_ ?_ rfl rfl rfl
    case refine_2 => exact (gather_row_of_word (Memref.whole main_arg0) (a0.1 0) (k0_off82 (grid0.coords t)) _ _ (Spec.batchRow t 9) (gather_wordOff t 9 (by omega)) k0_off83 (fun _ => rfl)).trans (hw0 9)
    refine gather_step128 _ (Memref.isWhole_whole _) _ (Memref.isWhole_whole _) _ _ _ _ _ (8 : Fin 16) _ _ _ ?_ ?_ rfl rfl rfl
    case refine_2 => exact (gather_row_of_word (Memref.whole main_arg0) (a0.1 0) (k0_off73 (grid0.coords t)) _ _ (Spec.batchRow t 8) (gather_wordOff t 8 (by omega)) k0_off74 (fun _ => rfl)).trans (hw0 8)
    refine gather_step128 _ (Memref.isWhole_whole _) _ (Memref.isWhole_whole _) _ _ _ _ _ (7 : Fin 16) _ _ _ ?_ ?_ rfl rfl rfl
    case refine_2 => exact (gather_row_of_word (Memref.whole main_arg0) (a0.1 0) (k0_off64 (grid0.coords t)) _ _ (Spec.batchRow t 7) (gather_wordOff t 7 (by omega)) k0_off65 (fun _ => rfl)).trans (hw0 7)
    refine gather_step128 _ (Memref.isWhole_whole _) _ (Memref.isWhole_whole _) _ _ _ _ _ (6 : Fin 16) _ _ _ ?_ ?_ rfl rfl rfl
    case refine_2 => exact (gather_row_of_word (Memref.whole main_arg0) (a0.1 0) (k0_off55 (grid0.coords t)) _ _ (Spec.batchRow t 6) (gather_wordOff t 6 (by omega)) k0_off56 (fun _ => rfl)).trans (hw0 6)
    refine gather_step128 _ (Memref.isWhole_whole _) _ (Memref.isWhole_whole _) _ _ _ _ _ (5 : Fin 16) _ _ _ ?_ ?_ rfl rfl rfl
    case refine_2 => exact (gather_row_of_word (Memref.whole main_arg0) (a0.1 0) (k0_off46 (grid0.coords t)) _ _ (Spec.batchRow t 5) (gather_wordOff t 5 (by omega)) k0_off47 (fun _ => rfl)).trans (hw0 5)
    refine gather_step128 _ (Memref.isWhole_whole _) _ (Memref.isWhole_whole _) _ _ _ _ _ (4 : Fin 16) _ _ _ ?_ ?_ rfl rfl rfl
    case refine_2 => exact (gather_row_of_word (Memref.whole main_arg0) (a0.1 0) (k0_off37 (grid0.coords t)) _ _ (Spec.batchRow t 4) (gather_wordOff t 4 (by omega)) k0_off38 (fun _ => rfl)).trans (hw0 4)
    refine gather_step128 _ (Memref.isWhole_whole _) _ (Memref.isWhole_whole _) _ _ _ _ _ (3 : Fin 16) _ _ _ ?_ ?_ rfl rfl rfl
    case refine_2 => exact (gather_row_of_word (Memref.whole main_arg0) (a0.1 0) (k0_off28 (grid0.coords t)) _ _ (Spec.batchRow t 3) (gather_wordOff t 3 (by omega)) k0_off29 (fun _ => rfl)).trans (hw0 3)
    refine gather_step128 _ (Memref.isWhole_whole _) _ (Memref.isWhole_whole _) _ _ _ _ _ (2 : Fin 16) _ _ _ ?_ ?_ rfl rfl rfl
    case refine_2 => exact (gather_row_of_word (Memref.whole main_arg0) (a0.1 0) (k0_off19 (grid0.coords t)) _ _ (Spec.batchRow t 2) (gather_wordOff t 2 (by omega)) k0_off20 (fun _ => rfl)).trans (hw0 2)
    refine gather_step128 _ (Memref.isWhole_whole _) _ (Memref.isWhole_whole _) _ _ _ _ _ (1 : Fin 16) _ _ _ ?_ ?_ rfl rfl rfl
    case refine_2 => exact (gather_row_of_word (Memref.whole main_arg0) (a0.1 0) (k0_off10 (grid0.coords t)) _ _ (Spec.batchRow t 1) (gather_wordOff t 1 (by omega)) k0_off11 (fun _ => rfl)).trans (hw0 1)
    refine gather_step128 _ (Memref.isWhole_whole _) _ (Memref.isWhole_whole _) _ _ _ _ _ (0 : Fin 16) _ _ _ ?_ ?_ rfl rfl rfl
    case refine_2 => exact (gather_row_of_word (Memref.whole main_arg0) (a0.1 0) (k0_off1 (grid0.coords t)) _ _ (Spec.batchRow t 0) (gather_wordOff t 0 (by omega)) k0_off2 (fun _ => rfl)).trans (hw0 0)
    rfl
  case e1 =>
    -- the dynamic item rows
    refine (gather_readAt_whole _ _ gather_zero2 _).trans ?_
    refine Eq.trans ?_ (gather128_nest ((Memref.whole cc0_scratch1).view.read (Elt F) g1) _ _ _).symm
    refine gather_step128 _ (Memref.isWhole_whole _) _ (Memref.isWhole_whole _) _ _ _ _ _ (15 : Fin 16) _ _ _ ?_ ?_ rfl rfl rfl
    case refine_2 => exact (gather_row_of_word (Memref.whole main_arg2) (a0.1 1) (k0_off136 (grid0.coords t)) _ _ (Spec.batchRow t 15) (gather_wordOff t 15 (by omega)) k0_off138 (fun _ => rfl)).trans (hw1 15)
    refine gather_step128 _ (Memref.isWhole_whole _) _ (Memref.isWhole_whole _) _ _ _ _ _ (14 : Fin 16) _ _ _ ?_ ?_ rfl rfl rfl
    case refine_2 => exact (gather_row_of_word (Memref.whole main_arg2) (a0.1 1) (k0_off127 (grid0.coords t)) _ _ (Spec.batchRow t 14) (gather_wordOff t 14 (by omega)) k0_off129 (fun _ => rfl)).trans (hw1 14)
    refine gather_step128 _ (Memref.isWhole_whole _) _ (Memref.isWhole_whole _) _ _ _ _ _ (13 : Fin 16) _ _ _ ?_ ?_ rfl rfl rfl
    case refine_2 => exact (gather_row_of_word (Memref.whole main_arg2) (a0.1 1) (k0_off118 (grid0.coords t)) _ _ (Spec.batchRow t 13) (gather_wordOff t 13 (by omega)) k0_off120 (fun _ => rfl)).trans (hw1 13)
    refine gather_step128 _ (Memref.isWhole_whole _) _ (Memref.isWhole_whole _) _ _ _ _ _ (12 : Fin 16) _ _ _ ?_ ?_ rfl rfl rfl
    case refine_2 => exact (gather_row_of_word (Memref.whole main_arg2) (a0.1 1) (k0_off109 (grid0.coords t)) _ _ (Spec.batchRow t 12) (gather_wordOff t 12 (by omega)) k0_off111 (fun _ => rfl)).trans (hw1 12)
    refine gather_step128 _ (Memref.isWhole_whole _) _ (Memref.isWhole_whole _) _ _ _ _ _ (11 : Fin 16) _ _ _ ?_ ?_ rfl rfl rfl
    case refine_2 => exact (gather_row_of_word (Memref.whole main_arg2) (a0.1 1) (k0_off100 (grid0.coords t)) _ _ (Spec.batchRow t 11) (gather_wordOff t 11 (by omega)) k0_off102 (fun _ => rfl)).trans (hw1 11)
    refine gather_step128 _ (Memref.isWhole_whole _) _ (Memref.isWhole_whole _) _ _ _ _ _ (10 : Fin 16) _ _ _ ?_ ?_ rfl rfl rfl
    case refine_2 => exact (gather_row_of_word (Memref.whole main_arg2) (a0.1 1) (k0_off91 (grid0.coords t)) _ _ (Spec.batchRow t 10) (gather_wordOff t 10 (by omega)) k0_off93 (fun _ => rfl)).trans (hw1 10)
    refine gather_step128 _ (Memref.isWhole_whole _) _ (Memref.isWhole_whole _) _ _ _ _ _ (9 : Fin 16) _ _ _ ?_ ?_ rfl rfl rfl
    case refine_2 => exact (gather_row_of_word (Memref.whole main_arg2) (a0.1 1) (k0_off82 (grid0.coords t)) _ _ (Spec.batchRow t 9) (gather_wordOff t 9 (by omega)) k0_off84 (fun _ => rfl)).trans (hw1 9)
    refine gather_step128 _ (Memref.isWhole_whole _) _ (Memref.isWhole_whole _) _ _ _ _ _ (8 : Fin 16) _ _ _ ?_ ?_ rfl rfl rfl
    case refine_2 => exact (gather_row_of_word (Memref.whole main_arg2) (a0.1 1) (k0_off73 (grid0.coords t)) _ _ (Spec.batchRow t 8) (gather_wordOff t 8 (by omega)) k0_off75 (fun _ => rfl)).trans (hw1 8)
    refine gather_step128 _ (Memref.isWhole_whole _) _ (Memref.isWhole_whole _) _ _ _ _ _ (7 : Fin 16) _ _ _ ?_ ?_ rfl rfl rfl
    case refine_2 => exact (gather_row_of_word (Memref.whole main_arg2) (a0.1 1) (k0_off64 (grid0.coords t)) _ _ (Spec.batchRow t 7) (gather_wordOff t 7 (by omega)) k0_off66 (fun _ => rfl)).trans (hw1 7)
    refine gather_step128 _ (Memref.isWhole_whole _) _ (Memref.isWhole_whole _) _ _ _ _ _ (6 : Fin 16) _ _ _ ?_ ?_ rfl rfl rfl
    case refine_2 => exact (gather_row_of_word (Memref.whole main_arg2) (a0.1 1) (k0_off55 (grid0.coords t)) _ _ (Spec.batchRow t 6) (gather_wordOff t 6 (by omega)) k0_off57 (fun _ => rfl)).trans (hw1 6)
    refine gather_step128 _ (Memref.isWhole_whole _) _ (Memref.isWhole_whole _) _ _ _ _ _ (5 : Fin 16) _ _ _ ?_ ?_ rfl rfl rfl
    case refine_2 => exact (gather_row_of_word (Memref.whole main_arg2) (a0.1 1) (k0_off46 (grid0.coords t)) _ _ (Spec.batchRow t 5) (gather_wordOff t 5 (by omega)) k0_off48 (fun _ => rfl)).trans (hw1 5)
    refine gather_step128 _ (Memref.isWhole_whole _) _ (Memref.isWhole_whole _) _ _ _ _ _ (4 : Fin 16) _ _ _ ?_ ?_ rfl rfl rfl
    case refine_2 => exact (gather_row_of_word (Memref.whole main_arg2) (a0.1 1) (k0_off37 (grid0.coords t)) _ _ (Spec.batchRow t 4) (gather_wordOff t 4 (by omega)) k0_off39 (fun _ => rfl)).trans (hw1 4)
    refine gather_step128 _ (Memref.isWhole_whole _) _ (Memref.isWhole_whole _) _ _ _ _ _ (3 : Fin 16) _ _ _ ?_ ?_ rfl rfl rfl
    case refine_2 => exact (gather_row_of_word (Memref.whole main_arg2) (a0.1 1) (k0_off28 (grid0.coords t)) _ _ (Spec.batchRow t 3) (gather_wordOff t 3 (by omega)) k0_off30 (fun _ => rfl)).trans (hw1 3)
    refine gather_step128 _ (Memref.isWhole_whole _) _ (Memref.isWhole_whole _) _ _ _ _ _ (2 : Fin 16) _ _ _ ?_ ?_ rfl rfl rfl
    case refine_2 => exact (gather_row_of_word (Memref.whole main_arg2) (a0.1 1) (k0_off19 (grid0.coords t)) _ _ (Spec.batchRow t 2) (gather_wordOff t 2 (by omega)) k0_off21 (fun _ => rfl)).trans (hw1 2)
    refine gather_step128 _ (Memref.isWhole_whole _) _ (Memref.isWhole_whole _) _ _ _ _ _ (1 : Fin 16) _ _ _ ?_ ?_ rfl rfl rfl
    case refine_2 => exact (gather_row_of_word (Memref.whole main_arg2) (a0.1 1) (k0_off10 (grid0.coords t)) _ _ (Spec.batchRow t 1) (gather_wordOff t 1 (by omega)) k0_off12 (fun _ => rfl)).trans (hw1 1)
    refine gather_step128 _ (Memref.isWhole_whole _) _ (Memref.isWhole_whole _) _ _ _ _ _ (0 : Fin 16) _ _ _ ?_ ?_ rfl rfl rfl
    case refine_2 => exact (gather_row_of_word (Memref.whole main_arg2) (a0.1 1) (k0_off1 (grid0.coords t)) _ _ (Spec.batchRow t 0) (gather_wordOff t 0 (by omega)) k0_off3 (fun _ => rfl)).trans (hw1 0)
    rfl
  case e2 =>
    -- the dynamic rows of the previous items
    refine (gather_readAt_whole _ _ gather_zero2 _).trans ?_
    refine Eq.trans ?_ (gather128_nest ((Memref.whole cc0_scratch2).view.read (Elt F) g2) _ _ _).symm
    refine gather_step128 _ (Memref.isWhole_whole _) _ (Memref.isWhole_whole _) _ _ _ _ _ (15 : Fin 16) _ _ _ ?_ ?_ rfl rfl rfl
    case refine_2 => exact (gather_row_of_word (Memref.whole main_arg1) (a0.1 2) (k0_off136 (grid0.coords t)) _ _ (Spec.batchRow t 15) (gather_wordOff t 15 (by omega)) k0_off139 (fun _ => rfl)).trans (hw2 15)
    refine gather_step128 _ (Memref.isWhole_whole _) _ (Memref.isWhole_whole _) _ _ _ _ _ (14 : Fin 16) _ _ _ ?_ ?_ rfl rfl rfl
    case refine_2 => exact (gather_row_of_word (Memref.whole main_arg1) (a0.1 2) (k0_off127 (grid0.coords t)) _ _ (Spec.batchRow t 14) (gather_wordOff t 14 (by omega)) k0_off130 (fun _ => rfl)).trans (hw2 14)
    refine gather_step128 _ (Memref.isWhole_whole _) _ (Memref.isWhole_whole _) _ _ _ _ _ (13 : Fin 16) _ _ _ ?_ ?_ rfl rfl rfl
    case refine_2 => exact (gather_row_of_word (Memref.whole main_arg1) (a0.1 2) (k0_off118 (grid0.coords t)) _ _ (Spec.batchRow t 13) (gather_wordOff t 13 (by omega)) k0_off121 (fun _ => rfl)).trans (hw2 13)
    refine gather_step128 _ (Memref.isWhole_whole _) _ (Memref.isWhole_whole _) _ _ _ _ _ (12 : Fin 16) _ _ _ ?_ ?_ rfl rfl rfl
    case refine_2 => exact (gather_row_of_word (Memref.whole main_arg1) (a0.1 2) (k0_off109 (grid0.coords t)) _ _ (Spec.batchRow t 12) (gather_wordOff t 12 (by omega)) k0_off112 (fun _ => rfl)).trans (hw2 12)
    refine gather_step128 _ (Memref.isWhole_whole _) _ (Memref.isWhole_whole _) _ _ _ _ _ (11 : Fin 16) _ _ _ ?_ ?_ rfl rfl rfl
    case refine_2 => exact (gather_row_of_word (Memref.whole main_arg1) (a0.1 2) (k0_off100 (grid0.coords t)) _ _ (Spec.batchRow t 11) (gather_wordOff t 11 (by omega)) k0_off103 (fun _ => rfl)).trans (hw2 11)
    refine gather_step128 _ (Memref.isWhole_whole _) _ (Memref.isWhole_whole _) _ _ _ _ _ (10 : Fin 16) _ _ _ ?_ ?_ rfl rfl rfl
    case refine_2 => exact (gather_row_of_word (Memref.whole main_arg1) (a0.1 2) (k0_off91 (grid0.coords t)) _ _ (Spec.batchRow t 10) (gather_wordOff t 10 (by omega)) k0_off94 (fun _ => rfl)).trans (hw2 10)
    refine gather_step128 _ (Memref.isWhole_whole _) _ (Memref.isWhole_whole _) _ _ _ _ _ (9 : Fin 16) _ _ _ ?_ ?_ rfl rfl rfl
    case refine_2 => exact (gather_row_of_word (Memref.whole main_arg1) (a0.1 2) (k0_off82 (grid0.coords t)) _ _ (Spec.batchRow t 9) (gather_wordOff t 9 (by omega)) k0_off85 (fun _ => rfl)).trans (hw2 9)
    refine gather_step128 _ (Memref.isWhole_whole _) _ (Memref.isWhole_whole _) _ _ _ _ _ (8 : Fin 16) _ _ _ ?_ ?_ rfl rfl rfl
    case refine_2 => exact (gather_row_of_word (Memref.whole main_arg1) (a0.1 2) (k0_off73 (grid0.coords t)) _ _ (Spec.batchRow t 8) (gather_wordOff t 8 (by omega)) k0_off76 (fun _ => rfl)).trans (hw2 8)
    refine gather_step128 _ (Memref.isWhole_whole _) _ (Memref.isWhole_whole _) _ _ _ _ _ (7 : Fin 16) _ _ _ ?_ ?_ rfl rfl rfl
    case refine_2 => exact (gather_row_of_word (Memref.whole main_arg1) (a0.1 2) (k0_off64 (grid0.coords t)) _ _ (Spec.batchRow t 7) (gather_wordOff t 7 (by omega)) k0_off67 (fun _ => rfl)).trans (hw2 7)
    refine gather_step128 _ (Memref.isWhole_whole _) _ (Memref.isWhole_whole _) _ _ _ _ _ (6 : Fin 16) _ _ _ ?_ ?_ rfl rfl rfl
    case refine_2 => exact (gather_row_of_word (Memref.whole main_arg1) (a0.1 2) (k0_off55 (grid0.coords t)) _ _ (Spec.batchRow t 6) (gather_wordOff t 6 (by omega)) k0_off58 (fun _ => rfl)).trans (hw2 6)
    refine gather_step128 _ (Memref.isWhole_whole _) _ (Memref.isWhole_whole _) _ _ _ _ _ (5 : Fin 16) _ _ _ ?_ ?_ rfl rfl rfl
    case refine_2 => exact (gather_row_of_word (Memref.whole main_arg1) (a0.1 2) (k0_off46 (grid0.coords t)) _ _ (Spec.batchRow t 5) (gather_wordOff t 5 (by omega)) k0_off49 (fun _ => rfl)).trans (hw2 5)
    refine gather_step128 _ (Memref.isWhole_whole _) _ (Memref.isWhole_whole _) _ _ _ _ _ (4 : Fin 16) _ _ _ ?_ ?_ rfl rfl rfl
    case refine_2 => exact (gather_row_of_word (Memref.whole main_arg1) (a0.1 2) (k0_off37 (grid0.coords t)) _ _ (Spec.batchRow t 4) (gather_wordOff t 4 (by omega)) k0_off40 (fun _ => rfl)).trans (hw2 4)
    refine gather_step128 _ (Memref.isWhole_whole _) _ (Memref.isWhole_whole _) _ _ _ _ _ (3 : Fin 16) _ _ _ ?_ ?_ rfl rfl rfl
    case refine_2 => exact (gather_row_of_word (Memref.whole main_arg1) (a0.1 2) (k0_off28 (grid0.coords t)) _ _ (Spec.batchRow t 3) (gather_wordOff t 3 (by omega)) k0_off31 (fun _ => rfl)).trans (hw2 3)
    refine gather_step128 _ (Memref.isWhole_whole _) _ (Memref.isWhole_whole _) _ _ _ _ _ (2 : Fin 16) _ _ _ ?_ ?_ rfl rfl rfl
    case refine_2 => exact (gather_row_of_word (Memref.whole main_arg1) (a0.1 2) (k0_off19 (grid0.coords t)) _ _ (Spec.batchRow t 2) (gather_wordOff t 2 (by omega)) k0_off22 (fun _ => rfl)).trans (hw2 2)
    refine gather_step128 _ (Memref.isWhole_whole _) _ (Memref.isWhole_whole _) _ _ _ _ _ (1 : Fin 16) _ _ _ ?_ ?_ rfl rfl rfl
    case refine_2 => exact (gather_row_of_word (Memref.whole main_arg1) (a0.1 2) (k0_off10 (grid0.coords t)) _ _ (Spec.batchRow t 1) (gather_wordOff t 1 (by omega)) k0_off13 (fun _ => rfl)).trans (hw2 1)
    refine gather_step128 _ (Memref.isWhole_whole _) _ (Memref.isWhole_whole _) _ _ _ _ _ (0 : Fin 16) _ _ _ ?_ ?_ rfl rfl rfl
    case refine_2 => exact (gather_row_of_word (Memref.whole main_arg1) (a0.1 2) (k0_off1 (grid0.coords t)) _ _ (Spec.batchRow t 0) (gather_wordOff t 0 (by omega)) k0_off4 (fun _ => rfl)).trans (hw2 0)
    rfl
  case e3 =>
    -- the static user rows
    refine (gather_readAt_whole _ _ gather_zero2 _).trans ?_
    refine Eq.trans ?_ (gather128_nest ((Memref.whole cc0_scratch3).view.read (Elt F) g3) _ _ _).symm
    refine gather_step128 _ (Memref.isWhole_whole _) _ (Memref.isWhole_whole _) _ _ _ _ _ (15 : Fin 16) _ _ _ ?_ ?_ rfl rfl rfl
    case refine_2 => exact (gather_row_of_word (Memref.whole main_arg0) (a0.1 0) (k0_off136 (grid0.coords t)) _ _ (Spec.batchRow t 15) (gather_wordOff t 15 (by omega)) k0_off140 (fun _ => rfl)).trans (hw0 15)
    refine gather_step128 _ (Memref.isWhole_whole _) _ (Memref.isWhole_whole _) _ _ _ _ _ (14 : Fin 16) _ _ _ ?_ ?_ rfl rfl rfl
    case refine_2 => exact (gather_row_of_word (Memref.whole main_arg0) (a0.1 0) (k0_off127 (grid0.coords t)) _ _ (Spec.batchRow t 14) (gather_wordOff t 14 (by omega)) k0_off131 (fun _ => rfl)).trans (hw0 14)
    refine gather_step128 _ (Memref.isWhole_whole _) _ (Memref.isWhole_whole _) _ _ _ _ _ (13 : Fin 16) _ _ _ ?_ ?_ rfl rfl rfl
    case refine_2 => exact (gather_row_of_word (Memref.whole main_arg0) (a0.1 0) (k0_off118 (grid0.coords t)) _ _ (Spec.batchRow t 13) (gather_wordOff t 13 (by omega)) k0_off122 (fun _ => rfl)).trans (hw0 13)
    refine gather_step128 _ (Memref.isWhole_whole _) _ (Memref.isWhole_whole _) _ _ _ _ _ (12 : Fin 16) _ _ _ ?_ ?_ rfl rfl rfl
    case refine_2 => exact (gather_row_of_word (Memref.whole main_arg0) (a0.1 0) (k0_off109 (grid0.coords t)) _ _ (Spec.batchRow t 12) (gather_wordOff t 12 (by omega)) k0_off113 (fun _ => rfl)).trans (hw0 12)
    refine gather_step128 _ (Memref.isWhole_whole _) _ (Memref.isWhole_whole _) _ _ _ _ _ (11 : Fin 16) _ _ _ ?_ ?_ rfl rfl rfl
    case refine_2 => exact (gather_row_of_word (Memref.whole main_arg0) (a0.1 0) (k0_off100 (grid0.coords t)) _ _ (Spec.batchRow t 11) (gather_wordOff t 11 (by omega)) k0_off104 (fun _ => rfl)).trans (hw0 11)
    refine gather_step128 _ (Memref.isWhole_whole _) _ (Memref.isWhole_whole _) _ _ _ _ _ (10 : Fin 16) _ _ _ ?_ ?_ rfl rfl rfl
    case refine_2 => exact (gather_row_of_word (Memref.whole main_arg0) (a0.1 0) (k0_off91 (grid0.coords t)) _ _ (Spec.batchRow t 10) (gather_wordOff t 10 (by omega)) k0_off95 (fun _ => rfl)).trans (hw0 10)
    refine gather_step128 _ (Memref.isWhole_whole _) _ (Memref.isWhole_whole _) _ _ _ _ _ (9 : Fin 16) _ _ _ ?_ ?_ rfl rfl rfl
    case refine_2 => exact (gather_row_of_word (Memref.whole main_arg0) (a0.1 0) (k0_off82 (grid0.coords t)) _ _ (Spec.batchRow t 9) (gather_wordOff t 9 (by omega)) k0_off86 (fun _ => rfl)).trans (hw0 9)
    refine gather_step128 _ (Memref.isWhole_whole _) _ (Memref.isWhole_whole _) _ _ _ _ _ (8 : Fin 16) _ _ _ ?_ ?_ rfl rfl rfl
    case refine_2 => exact (gather_row_of_word (Memref.whole main_arg0) (a0.1 0) (k0_off73 (grid0.coords t)) _ _ (Spec.batchRow t 8) (gather_wordOff t 8 (by omega)) k0_off77 (fun _ => rfl)).trans (hw0 8)
    refine gather_step128 _ (Memref.isWhole_whole _) _ (Memref.isWhole_whole _) _ _ _ _ _ (7 : Fin 16) _ _ _ ?_ ?_ rfl rfl rfl
    case refine_2 => exact (gather_row_of_word (Memref.whole main_arg0) (a0.1 0) (k0_off64 (grid0.coords t)) _ _ (Spec.batchRow t 7) (gather_wordOff t 7 (by omega)) k0_off68 (fun _ => rfl)).trans (hw0 7)
    refine gather_step128 _ (Memref.isWhole_whole _) _ (Memref.isWhole_whole _) _ _ _ _ _ (6 : Fin 16) _ _ _ ?_ ?_ rfl rfl rfl
    case refine_2 => exact (gather_row_of_word (Memref.whole main_arg0) (a0.1 0) (k0_off55 (grid0.coords t)) _ _ (Spec.batchRow t 6) (gather_wordOff t 6 (by omega)) k0_off59 (fun _ => rfl)).trans (hw0 6)
    refine gather_step128 _ (Memref.isWhole_whole _) _ (Memref.isWhole_whole _) _ _ _ _ _ (5 : Fin 16) _ _ _ ?_ ?_ rfl rfl rfl
    case refine_2 => exact (gather_row_of_word (Memref.whole main_arg0) (a0.1 0) (k0_off46 (grid0.coords t)) _ _ (Spec.batchRow t 5) (gather_wordOff t 5 (by omega)) k0_off50 (fun _ => rfl)).trans (hw0 5)
    refine gather_step128 _ (Memref.isWhole_whole _) _ (Memref.isWhole_whole _) _ _ _ _ _ (4 : Fin 16) _ _ _ ?_ ?_ rfl rfl rfl
    case refine_2 => exact (gather_row_of_word (Memref.whole main_arg0) (a0.1 0) (k0_off37 (grid0.coords t)) _ _ (Spec.batchRow t 4) (gather_wordOff t 4 (by omega)) k0_off41 (fun _ => rfl)).trans (hw0 4)
    refine gather_step128 _ (Memref.isWhole_whole _) _ (Memref.isWhole_whole _) _ _ _ _ _ (3 : Fin 16) _ _ _ ?_ ?_ rfl rfl rfl
    case refine_2 => exact (gather_row_of_word (Memref.whole main_arg0) (a0.1 0) (k0_off28 (grid0.coords t)) _ _ (Spec.batchRow t 3) (gather_wordOff t 3 (by omega)) k0_off32 (fun _ => rfl)).trans (hw0 3)
    refine gather_step128 _ (Memref.isWhole_whole _) _ (Memref.isWhole_whole _) _ _ _ _ _ (2 : Fin 16) _ _ _ ?_ ?_ rfl rfl rfl
    case refine_2 => exact (gather_row_of_word (Memref.whole main_arg0) (a0.1 0) (k0_off19 (grid0.coords t)) _ _ (Spec.batchRow t 2) (gather_wordOff t 2 (by omega)) k0_off23 (fun _ => rfl)).trans (hw0 2)
    refine gather_step128 _ (Memref.isWhole_whole _) _ (Memref.isWhole_whole _) _ _ _ _ _ (1 : Fin 16) _ _ _ ?_ ?_ rfl rfl rfl
    case refine_2 => exact (gather_row_of_word (Memref.whole main_arg0) (a0.1 0) (k0_off10 (grid0.coords t)) _ _ (Spec.batchRow t 1) (gather_wordOff t 1 (by omega)) k0_off14 (fun _ => rfl)).trans (hw0 1)
    refine gather_step128 _ (Memref.isWhole_whole _) _ (Memref.isWhole_whole _) _ _ _ _ _ (0 : Fin 16) _ _ _ ?_ ?_ rfl rfl rfl
    case refine_2 => exact (gather_row_of_word (Memref.whole main_arg0) (a0.1 0) (k0_off1 (grid0.coords t)) _ _ (Spec.batchRow t 0) (gather_wordOff t 0 (by omega)) k0_off5 (fun _ => rfl)).trans (hw0 0)
    rfl
  case e4 =>
    -- the static item rows
    refine (gather_readAt_whole _ _ gather_zero2 _).trans ?_
    refine Eq.trans ?_ (gather128_nest ((Memref.whole cc0_scratch4).view.read (Elt F) g4) _ _ _).symm
    refine gather_step128 _ (Memref.isWhole_whole _) _ (Memref.isWhole_whole _) _ _ _ _ _ (15 : Fin 16) _ _ _ ?_ ?_ rfl rfl rfl
    case refine_2 => exact (gather_row_of_word (Memref.whole main_arg2) (a0.1 1) (k0_off136 (grid0.coords t)) _ _ (Spec.batchRow t 15) (gather_wordOff t 15 (by omega)) k0_off141 (fun _ => rfl)).trans (hw1 15)
    refine gather_step128 _ (Memref.isWhole_whole _) _ (Memref.isWhole_whole _) _ _ _ _ _ (14 : Fin 16) _ _ _ ?_ ?_ rfl rfl rfl
    case refine_2 => exact (gather_row_of_word (Memref.whole main_arg2) (a0.1 1) (k0_off127 (grid0.coords t)) _ _ (Spec.batchRow t 14) (gather_wordOff t 14 (by omega)) k0_off132 (fun _ => rfl)).trans (hw1 14)
    refine gather_step128 _ (Memref.isWhole_whole _) _ (Memref.isWhole_whole _) _ _ _ _ _ (13 : Fin 16) _ _ _ ?_ ?_ rfl rfl rfl
    case refine_2 => exact (gather_row_of_word (Memref.whole main_arg2) (a0.1 1) (k0_off118 (grid0.coords t)) _ _ (Spec.batchRow t 13) (gather_wordOff t 13 (by omega)) k0_off123 (fun _ => rfl)).trans (hw1 13)
    refine gather_step128 _ (Memref.isWhole_whole _) _ (Memref.isWhole_whole _) _ _ _ _ _ (12 : Fin 16) _ _ _ ?_ ?_ rfl rfl rfl
    case refine_2 => exact (gather_row_of_word (Memref.whole main_arg2) (a0.1 1) (k0_off109 (grid0.coords t)) _ _ (Spec.batchRow t 12) (gather_wordOff t 12 (by omega)) k0_off114 (fun _ => rfl)).trans (hw1 12)
    refine gather_step128 _ (Memref.isWhole_whole _) _ (Memref.isWhole_whole _) _ _ _ _ _ (11 : Fin 16) _ _ _ ?_ ?_ rfl rfl rfl
    case refine_2 => exact (gather_row_of_word (Memref.whole main_arg2) (a0.1 1) (k0_off100 (grid0.coords t)) _ _ (Spec.batchRow t 11) (gather_wordOff t 11 (by omega)) k0_off105 (fun _ => rfl)).trans (hw1 11)
    refine gather_step128 _ (Memref.isWhole_whole _) _ (Memref.isWhole_whole _) _ _ _ _ _ (10 : Fin 16) _ _ _ ?_ ?_ rfl rfl rfl
    case refine_2 => exact (gather_row_of_word (Memref.whole main_arg2) (a0.1 1) (k0_off91 (grid0.coords t)) _ _ (Spec.batchRow t 10) (gather_wordOff t 10 (by omega)) k0_off96 (fun _ => rfl)).trans (hw1 10)
    refine gather_step128 _ (Memref.isWhole_whole _) _ (Memref.isWhole_whole _) _ _ _ _ _ (9 : Fin 16) _ _ _ ?_ ?_ rfl rfl rfl
    case refine_2 => exact (gather_row_of_word (Memref.whole main_arg2) (a0.1 1) (k0_off82 (grid0.coords t)) _ _ (Spec.batchRow t 9) (gather_wordOff t 9 (by omega)) k0_off87 (fun _ => rfl)).trans (hw1 9)
    refine gather_step128 _ (Memref.isWhole_whole _) _ (Memref.isWhole_whole _) _ _ _ _ _ (8 : Fin 16) _ _ _ ?_ ?_ rfl rfl rfl
    case refine_2 => exact (gather_row_of_word (Memref.whole main_arg2) (a0.1 1) (k0_off73 (grid0.coords t)) _ _ (Spec.batchRow t 8) (gather_wordOff t 8 (by omega)) k0_off78 (fun _ => rfl)).trans (hw1 8)
    refine gather_step128 _ (Memref.isWhole_whole _) _ (Memref.isWhole_whole _) _ _ _ _ _ (7 : Fin 16) _ _ _ ?_ ?_ rfl rfl rfl
    case refine_2 => exact (gather_row_of_word (Memref.whole main_arg2) (a0.1 1) (k0_off64 (grid0.coords t)) _ _ (Spec.batchRow t 7) (gather_wordOff t 7 (by omega)) k0_off69 (fun _ => rfl)).trans (hw1 7)
    refine gather_step128 _ (Memref.isWhole_whole _) _ (Memref.isWhole_whole _) _ _ _ _ _ (6 : Fin 16) _ _ _ ?_ ?_ rfl rfl rfl
    case refine_2 => exact (gather_row_of_word (Memref.whole main_arg2) (a0.1 1) (k0_off55 (grid0.coords t)) _ _ (Spec.batchRow t 6) (gather_wordOff t 6 (by omega)) k0_off60 (fun _ => rfl)).trans (hw1 6)
    refine gather_step128 _ (Memref.isWhole_whole _) _ (Memref.isWhole_whole _) _ _ _ _ _ (5 : Fin 16) _ _ _ ?_ ?_ rfl rfl rfl
    case refine_2 => exact (gather_row_of_word (Memref.whole main_arg2) (a0.1 1) (k0_off46 (grid0.coords t)) _ _ (Spec.batchRow t 5) (gather_wordOff t 5 (by omega)) k0_off51 (fun _ => rfl)).trans (hw1 5)
    refine gather_step128 _ (Memref.isWhole_whole _) _ (Memref.isWhole_whole _) _ _ _ _ _ (4 : Fin 16) _ _ _ ?_ ?_ rfl rfl rfl
    case refine_2 => exact (gather_row_of_word (Memref.whole main_arg2) (a0.1 1) (k0_off37 (grid0.coords t)) _ _ (Spec.batchRow t 4) (gather_wordOff t 4 (by omega)) k0_off42 (fun _ => rfl)).trans (hw1 4)
    refine gather_step128 _ (Memref.isWhole_whole _) _ (Memref.isWhole_whole _) _ _ _ _ _ (3 : Fin 16) _ _ _ ?_ ?_ rfl rfl rfl
    case refine_2 => exact (gather_row_of_word (Memref.whole main_arg2) (a0.1 1) (k0_off28 (grid0.coords t)) _ _ (Spec.batchRow t 3) (gather_wordOff t 3 (by omega)) k0_off33 (fun _ => rfl)).trans (hw1 3)
    refine gather_step128 _ (Memref.isWhole_whole _) _ (Memref.isWhole_whole _) _ _ _ _ _ (2 : Fin 16) _ _ _ ?_ ?_ rfl rfl rfl
    case refine_2 => exact (gather_row_of_word (Memref.whole main_arg2) (a0.1 1) (k0_off19 (grid0.coords t)) _ _ (Spec.batchRow t 2) (gather_wordOff t 2 (by omega)) k0_off24 (fun _ => rfl)).trans (hw1 2)
    refine gather_step128 _ (Memref.isWhole_whole _) _ (Memref.isWhole_whole _) _ _ _ _ _ (1 : Fin 16) _ _ _ ?_ ?_ rfl rfl rfl
    case refine_2 => exact (gather_row_of_word (Memref.whole main_arg2) (a0.1 1) (k0_off10 (grid0.coords t)) _ _ (Spec.batchRow t 1) (gather_wordOff t 1 (by omega)) k0_off15 (fun _ => rfl)).trans (hw1 1)
    refine gather_step128 _ (Memref.isWhole_whole _) _ (Memref.isWhole_whole _) _ _ _ _ _ (0 : Fin 16) _ _ _ ?_ ?_ rfl rfl rfl
    case refine_2 => exact (gather_row_of_word (Memref.whole main_arg2) (a0.1 1) (k0_off1 (grid0.coords t)) _ _ (Spec.batchRow t 0) (gather_wordOff t 0 (by omega)) k0_off6 (fun _ => rfl)).trans (hw1 0)
    rfl
  case e5 =>
    -- the static rows of the previous items
    refine (gather_readAt_whole _ _ gather_zero2 _).trans ?_
    refine Eq.trans ?_ (gather128_nest ((Memref.whole cc0_scratch5).view.read (Elt F) g5) _ _ _).symm
    refine gather_step128 _ (Memref.isWhole_whole _) _ (Memref.isWhole_whole _) _ _ _ _ _ (15 : Fin 16) _ _ _ ?_ ?_ rfl rfl rfl
    case refine_2 => exact (gather_row_of_word (Memref.whole main_arg1) (a0.1 2) (k0_off136 (grid0.coords t)) _ _ (Spec.batchRow t 15) (gather_wordOff t 15 (by omega)) k0_off139 (fun _ => rfl)).trans (hw2 15)
    refine gather_step128 _ (Memref.isWhole_whole _) _ (Memref.isWhole_whole _) _ _ _ _ _ (14 : Fin 16) _ _ _ ?_ ?_ rfl rfl rfl
    case refine_2 => exact (gather_row_of_word (Memref.whole main_arg1) (a0.1 2) (k0_off127 (grid0.coords t)) _ _ (Spec.batchRow t 14) (gather_wordOff t 14 (by omega)) k0_off130 (fun _ => rfl)).trans (hw2 14)
    refine gather_step128 _ (Memref.isWhole_whole _) _ (Memref.isWhole_whole _) _ _ _ _ _ (13 : Fin 16) _ _ _ ?_ ?_ rfl rfl rfl
    case refine_2 => exact (gather_row_of_word (Memref.whole main_arg1) (a0.1 2) (k0_off118 (grid0.coords t)) _ _ (Spec.batchRow t 13) (gather_wordOff t 13 (by omega)) k0_off121 (fun _ => rfl)).trans (hw2 13)
    refine gather_step128 _ (Memref.isWhole_whole _) _ (Memref.isWhole_whole _) _ _ _ _ _ (12 : Fin 16) _ _ _ ?_ ?_ rfl rfl rfl
    case refine_2 => exact (gather_row_of_word (Memref.whole main_arg1) (a0.1 2) (k0_off109 (grid0.coords t)) _ _ (Spec.batchRow t 12) (gather_wordOff t 12 (by omega)) k0_off112 (fun _ => rfl)).trans (hw2 12)
    refine gather_step128 _ (Memref.isWhole_whole _) _ (Memref.isWhole_whole _) _ _ _ _ _ (11 : Fin 16) _ _ _ ?_ ?_ rfl rfl rfl
    case refine_2 => exact (gather_row_of_word (Memref.whole main_arg1) (a0.1 2) (k0_off100 (grid0.coords t)) _ _ (Spec.batchRow t 11) (gather_wordOff t 11 (by omega)) k0_off103 (fun _ => rfl)).trans (hw2 11)
    refine gather_step128 _ (Memref.isWhole_whole _) _ (Memref.isWhole_whole _) _ _ _ _ _ (10 : Fin 16) _ _ _ ?_ ?_ rfl rfl rfl
    case refine_2 => exact (gather_row_of_word (Memref.whole main_arg1) (a0.1 2) (k0_off91 (grid0.coords t)) _ _ (Spec.batchRow t 10) (gather_wordOff t 10 (by omega)) k0_off94 (fun _ => rfl)).trans (hw2 10)
    refine gather_step128 _ (Memref.isWhole_whole _) _ (Memref.isWhole_whole _) _ _ _ _ _ (9 : Fin 16) _ _ _ ?_ ?_ rfl rfl rfl
    case refine_2 => exact (gather_row_of_word (Memref.whole main_arg1) (a0.1 2) (k0_off82 (grid0.coords t)) _ _ (Spec.batchRow t 9) (gather_wordOff t 9 (by omega)) k0_off85 (fun _ => rfl)).trans (hw2 9)
    refine gather_step128 _ (Memref.isWhole_whole _) _ (Memref.isWhole_whole _) _ _ _ _ _ (8 : Fin 16) _ _ _ ?_ ?_ rfl rfl rfl
    case refine_2 => exact (gather_row_of_word (Memref.whole main_arg1) (a0.1 2) (k0_off73 (grid0.coords t)) _ _ (Spec.batchRow t 8) (gather_wordOff t 8 (by omega)) k0_off76 (fun _ => rfl)).trans (hw2 8)
    refine gather_step128 _ (Memref.isWhole_whole _) _ (Memref.isWhole_whole _) _ _ _ _ _ (7 : Fin 16) _ _ _ ?_ ?_ rfl rfl rfl
    case refine_2 => exact (gather_row_of_word (Memref.whole main_arg1) (a0.1 2) (k0_off64 (grid0.coords t)) _ _ (Spec.batchRow t 7) (gather_wordOff t 7 (by omega)) k0_off67 (fun _ => rfl)).trans (hw2 7)
    refine gather_step128 _ (Memref.isWhole_whole _) _ (Memref.isWhole_whole _) _ _ _ _ _ (6 : Fin 16) _ _ _ ?_ ?_ rfl rfl rfl
    case refine_2 => exact (gather_row_of_word (Memref.whole main_arg1) (a0.1 2) (k0_off55 (grid0.coords t)) _ _ (Spec.batchRow t 6) (gather_wordOff t 6 (by omega)) k0_off58 (fun _ => rfl)).trans (hw2 6)
    refine gather_step128 _ (Memref.isWhole_whole _) _ (Memref.isWhole_whole _) _ _ _ _ _ (5 : Fin 16) _ _ _ ?_ ?_ rfl rfl rfl
    case refine_2 => exact (gather_row_of_word (Memref.whole main_arg1) (a0.1 2) (k0_off46 (grid0.coords t)) _ _ (Spec.batchRow t 5) (gather_wordOff t 5 (by omega)) k0_off49 (fun _ => rfl)).trans (hw2 5)
    refine gather_step128 _ (Memref.isWhole_whole _) _ (Memref.isWhole_whole _) _ _ _ _ _ (4 : Fin 16) _ _ _ ?_ ?_ rfl rfl rfl
    case refine_2 => exact (gather_row_of_word (Memref.whole main_arg1) (a0.1 2) (k0_off37 (grid0.coords t)) _ _ (Spec.batchRow t 4) (gather_wordOff t 4 (by omega)) k0_off40 (fun _ => rfl)).trans (hw2 4)
    refine gather_step128 _ (Memref.isWhole_whole _) _ (Memref.isWhole_whole _) _ _ _ _ _ (3 : Fin 16) _ _ _ ?_ ?_ rfl rfl rfl
    case refine_2 => exact (gather_row_of_word (Memref.whole main_arg1) (a0.1 2) (k0_off28 (grid0.coords t)) _ _ (Spec.batchRow t 3) (gather_wordOff t 3 (by omega)) k0_off31 (fun _ => rfl)).trans (hw2 3)
    refine gather_step128 _ (Memref.isWhole_whole _) _ (Memref.isWhole_whole _) _ _ _ _ _ (2 : Fin 16) _ _ _ ?_ ?_ rfl rfl rfl
    case refine_2 => exact (gather_row_of_word (Memref.whole main_arg1) (a0.1 2) (k0_off19 (grid0.coords t)) _ _ (Spec.batchRow t 2) (gather_wordOff t 2 (by omega)) k0_off22 (fun _ => rfl)).trans (hw2 2)
    refine gather_step128 _ (Memref.isWhole_whole _) _ (Memref.isWhole_whole _) _ _ _ _ _ (1 : Fin 16) _ _ _ ?_ ?_ rfl rfl rfl
    case refine_2 => exact (gather_row_of_word (Memref.whole main_arg1) (a0.1 2) (k0_off10 (grid0.coords t)) _ _ (Spec.batchRow t 1) (gather_wordOff t 1 (by omega)) k0_off13 (fun _ => rfl)).trans (hw2 1)
    refine gather_step128 _ (Memref.isWhole_whole _) _ (Memref.isWhole_whole _) _ _ _ _ _ (0 : Fin 16) _ _ _ ?_ ?_ rfl rfl rfl
    case refine_2 => exact (gather_row_of_word (Memref.whole main_arg1) (a0.1 2) (k0_off1 (grid0.coords t)) _ _ (Spec.batchRow t 0) (gather_wordOff t 0 (by omega)) k0_off4 (fun _ => rfl)).trans (hw2 0)
    rfl
  case e6 =>
    -- the user flags
    refine (gather_readAt_whole _ _ gather_zero2 _).trans ?_
    refine Eq.trans ?_ (gather1_nest ((Memref.whole cc0_scratch6).view.read (Elt F) g6) _ _ _).symm
    refine gather_step1 _ (Memref.isWhole_whole _) _ (Memref.isWhole_whole _) _ _ _ _ _ (15 : Fin 16) _ _ _ ?_ ?_ rfl rfl rfl
    case refine_2 => exact (gather_row_of_word (Memref.whole main_arg0) (a0.1 0) (k0_off136 (grid0.coords t)) _ _ (Spec.batchRow t 15) (gather_wordOff t 15 (by omega)) k0_off142 (fun _ => rfl)).trans (hw0 15)
    refine gather_step1 _ (Memref.isWhole_whole _) _ (Memref.isWhole_whole _) _ _ _ _ _ (14 : Fin 16) _ _ _ ?_ ?_ rfl rfl rfl
    case refine_2 => exact (gather_row_of_word (Memref.whole main_arg0) (a0.1 0) (k0_off127 (grid0.coords t)) _ _ (Spec.batchRow t 14) (gather_wordOff t 14 (by omega)) k0_off133 (fun _ => rfl)).trans (hw0 14)
    refine gather_step1 _ (Memref.isWhole_whole _) _ (Memref.isWhole_whole _) _ _ _ _ _ (13 : Fin 16) _ _ _ ?_ ?_ rfl rfl rfl
    case refine_2 => exact (gather_row_of_word (Memref.whole main_arg0) (a0.1 0) (k0_off118 (grid0.coords t)) _ _ (Spec.batchRow t 13) (gather_wordOff t 13 (by omega)) k0_off124 (fun _ => rfl)).trans (hw0 13)
    refine gather_step1 _ (Memref.isWhole_whole _) _ (Memref.isWhole_whole _) _ _ _ _ _ (12 : Fin 16) _ _ _ ?_ ?_ rfl rfl rfl
    case refine_2 => exact (gather_row_of_word (Memref.whole main_arg0) (a0.1 0) (k0_off109 (grid0.coords t)) _ _ (Spec.batchRow t 12) (gather_wordOff t 12 (by omega)) k0_off115 (fun _ => rfl)).trans (hw0 12)
    refine gather_step1 _ (Memref.isWhole_whole _) _ (Memref.isWhole_whole _) _ _ _ _ _ (11 : Fin 16) _ _ _ ?_ ?_ rfl rfl rfl
    case refine_2 => exact (gather_row_of_word (Memref.whole main_arg0) (a0.1 0) (k0_off100 (grid0.coords t)) _ _ (Spec.batchRow t 11) (gather_wordOff t 11 (by omega)) k0_off106 (fun _ => rfl)).trans (hw0 11)
    refine gather_step1 _ (Memref.isWhole_whole _) _ (Memref.isWhole_whole _) _ _ _ _ _ (10 : Fin 16) _ _ _ ?_ ?_ rfl rfl rfl
    case refine_2 => exact (gather_row_of_word (Memref.whole main_arg0) (a0.1 0) (k0_off91 (grid0.coords t)) _ _ (Spec.batchRow t 10) (gather_wordOff t 10 (by omega)) k0_off97 (fun _ => rfl)).trans (hw0 10)
    refine gather_step1 _ (Memref.isWhole_whole _) _ (Memref.isWhole_whole _) _ _ _ _ _ (9 : Fin 16) _ _ _ ?_ ?_ rfl rfl rfl
    case refine_2 => exact (gather_row_of_word (Memref.whole main_arg0) (a0.1 0) (k0_off82 (grid0.coords t)) _ _ (Spec.batchRow t 9) (gather_wordOff t 9 (by omega)) k0_off88 (fun _ => rfl)).trans (hw0 9)
    refine gather_step1 _ (Memref.isWhole_whole _) _ (Memref.isWhole_whole _) _ _ _ _ _ (8 : Fin 16) _ _ _ ?_ ?_ rfl rfl rfl
    case refine_2 => exact (gather_row_of_word (Memref.whole main_arg0) (a0.1 0) (k0_off73 (grid0.coords t)) _ _ (Spec.batchRow t 8) (gather_wordOff t 8 (by omega)) k0_off79 (fun _ => rfl)).trans (hw0 8)
    refine gather_step1 _ (Memref.isWhole_whole _) _ (Memref.isWhole_whole _) _ _ _ _ _ (7 : Fin 16) _ _ _ ?_ ?_ rfl rfl rfl
    case refine_2 => exact (gather_row_of_word (Memref.whole main_arg0) (a0.1 0) (k0_off64 (grid0.coords t)) _ _ (Spec.batchRow t 7) (gather_wordOff t 7 (by omega)) k0_off70 (fun _ => rfl)).trans (hw0 7)
    refine gather_step1 _ (Memref.isWhole_whole _) _ (Memref.isWhole_whole _) _ _ _ _ _ (6 : Fin 16) _ _ _ ?_ ?_ rfl rfl rfl
    case refine_2 => exact (gather_row_of_word (Memref.whole main_arg0) (a0.1 0) (k0_off55 (grid0.coords t)) _ _ (Spec.batchRow t 6) (gather_wordOff t 6 (by omega)) k0_off61 (fun _ => rfl)).trans (hw0 6)
    refine gather_step1 _ (Memref.isWhole_whole _) _ (Memref.isWhole_whole _) _ _ _ _ _ (5 : Fin 16) _ _ _ ?_ ?_ rfl rfl rfl
    case refine_2 => exact (gather_row_of_word (Memref.whole main_arg0) (a0.1 0) (k0_off46 (grid0.coords t)) _ _ (Spec.batchRow t 5) (gather_wordOff t 5 (by omega)) k0_off52 (fun _ => rfl)).trans (hw0 5)
    refine gather_step1 _ (Memref.isWhole_whole _) _ (Memref.isWhole_whole _) _ _ _ _ _ (4 : Fin 16) _ _ _ ?_ ?_ rfl rfl rfl
    case refine_2 => exact (gather_row_of_word (Memref.whole main_arg0) (a0.1 0) (k0_off37 (grid0.coords t)) _ _ (Spec.batchRow t 4) (gather_wordOff t 4 (by omega)) k0_off43 (fun _ => rfl)).trans (hw0 4)
    refine gather_step1 _ (Memref.isWhole_whole _) _ (Memref.isWhole_whole _) _ _ _ _ _ (3 : Fin 16) _ _ _ ?_ ?_ rfl rfl rfl
    case refine_2 => exact (gather_row_of_word (Memref.whole main_arg0) (a0.1 0) (k0_off28 (grid0.coords t)) _ _ (Spec.batchRow t 3) (gather_wordOff t 3 (by omega)) k0_off34 (fun _ => rfl)).trans (hw0 3)
    refine gather_step1 _ (Memref.isWhole_whole _) _ (Memref.isWhole_whole _) _ _ _ _ _ (2 : Fin 16) _ _ _ ?_ ?_ rfl rfl rfl
    case refine_2 => exact (gather_row_of_word (Memref.whole main_arg0) (a0.1 0) (k0_off19 (grid0.coords t)) _ _ (Spec.batchRow t 2) (gather_wordOff t 2 (by omega)) k0_off25 (fun _ => rfl)).trans (hw0 2)
    refine gather_step1 _ (Memref.isWhole_whole _) _ (Memref.isWhole_whole _) _ _ _ _ _ (1 : Fin 16) _ _ _ ?_ ?_ rfl rfl rfl
    case refine_2 => exact (gather_row_of_word (Memref.whole main_arg0) (a0.1 0) (k0_off10 (grid0.coords t)) _ _ (Spec.batchRow t 1) (gather_wordOff t 1 (by omega)) k0_off16 (fun _ => rfl)).trans (hw0 1)
    refine gather_step1 _ (Memref.isWhole_whole _) _ (Memref.isWhole_whole _) _ _ _ _ _ (0 : Fin 16) _ _ _ ?_ ?_ rfl rfl rfl
    case refine_2 => exact (gather_row_of_word (Memref.whole main_arg0) (a0.1 0) (k0_off1 (grid0.coords t)) _ _ (Spec.batchRow t 0) (gather_wordOff t 0 (by omega)) k0_off7 (fun _ => rfl)).trans (hw0 0)
    rfl
  case e7 =>
    -- the item flags
    refine (gather_readAt_whole _ _ gather_zero2 _).trans ?_
    refine Eq.trans ?_ (gather1_nest ((Memref.whole cc0_scratch7).view.read (Elt F) g7) _ _ _).symm
    refine gather_step1 _ (Memref.isWhole_whole _) _ (Memref.isWhole_whole _) _ _ _ _ _ (15 : Fin 16) _ _ _ ?_ ?_ rfl rfl rfl
    case refine_2 => exact (gather_row_of_word (Memref.whole main_arg2) (a0.1 1) (k0_off136 (grid0.coords t)) _ _ (Spec.batchRow t 15) (gather_wordOff t 15 (by omega)) k0_off143 (fun _ => rfl)).trans (hw1 15)
    refine gather_step1 _ (Memref.isWhole_whole _) _ (Memref.isWhole_whole _) _ _ _ _ _ (14 : Fin 16) _ _ _ ?_ ?_ rfl rfl rfl
    case refine_2 => exact (gather_row_of_word (Memref.whole main_arg2) (a0.1 1) (k0_off127 (grid0.coords t)) _ _ (Spec.batchRow t 14) (gather_wordOff t 14 (by omega)) k0_off134 (fun _ => rfl)).trans (hw1 14)
    refine gather_step1 _ (Memref.isWhole_whole _) _ (Memref.isWhole_whole _) _ _ _ _ _ (13 : Fin 16) _ _ _ ?_ ?_ rfl rfl rfl
    case refine_2 => exact (gather_row_of_word (Memref.whole main_arg2) (a0.1 1) (k0_off118 (grid0.coords t)) _ _ (Spec.batchRow t 13) (gather_wordOff t 13 (by omega)) k0_off125 (fun _ => rfl)).trans (hw1 13)
    refine gather_step1 _ (Memref.isWhole_whole _) _ (Memref.isWhole_whole _) _ _ _ _ _ (12 : Fin 16) _ _ _ ?_ ?_ rfl rfl rfl
    case refine_2 => exact (gather_row_of_word (Memref.whole main_arg2) (a0.1 1) (k0_off109 (grid0.coords t)) _ _ (Spec.batchRow t 12) (gather_wordOff t 12 (by omega)) k0_off116 (fun _ => rfl)).trans (hw1 12)
    refine gather_step1 _ (Memref.isWhole_whole _) _ (Memref.isWhole_whole _) _ _ _ _ _ (11 : Fin 16) _ _ _ ?_ ?_ rfl rfl rfl
    case refine_2 => exact (gather_row_of_word (Memref.whole main_arg2) (a0.1 1) (k0_off100 (grid0.coords t)) _ _ (Spec.batchRow t 11) (gather_wordOff t 11 (by omega)) k0_off107 (fun _ => rfl)).trans (hw1 11)
    refine gather_step1 _ (Memref.isWhole_whole _) _ (Memref.isWhole_whole _) _ _ _ _ _ (10 : Fin 16) _ _ _ ?_ ?_ rfl rfl rfl
    case refine_2 => exact (gather_row_of_word (Memref.whole main_arg2) (a0.1 1) (k0_off91 (grid0.coords t)) _ _ (Spec.batchRow t 10) (gather_wordOff t 10 (by omega)) k0_off98 (fun _ => rfl)).trans (hw1 10)
    refine gather_step1 _ (Memref.isWhole_whole _) _ (Memref.isWhole_whole _) _ _ _ _ _ (9 : Fin 16) _ _ _ ?_ ?_ rfl rfl rfl
    case refine_2 => exact (gather_row_of_word (Memref.whole main_arg2) (a0.1 1) (k0_off82 (grid0.coords t)) _ _ (Spec.batchRow t 9) (gather_wordOff t 9 (by omega)) k0_off89 (fun _ => rfl)).trans (hw1 9)
    refine gather_step1 _ (Memref.isWhole_whole _) _ (Memref.isWhole_whole _) _ _ _ _ _ (8 : Fin 16) _ _ _ ?_ ?_ rfl rfl rfl
    case refine_2 => exact (gather_row_of_word (Memref.whole main_arg2) (a0.1 1) (k0_off73 (grid0.coords t)) _ _ (Spec.batchRow t 8) (gather_wordOff t 8 (by omega)) k0_off80 (fun _ => rfl)).trans (hw1 8)
    refine gather_step1 _ (Memref.isWhole_whole _) _ (Memref.isWhole_whole _) _ _ _ _ _ (7 : Fin 16) _ _ _ ?_ ?_ rfl rfl rfl
    case refine_2 => exact (gather_row_of_word (Memref.whole main_arg2) (a0.1 1) (k0_off64 (grid0.coords t)) _ _ (Spec.batchRow t 7) (gather_wordOff t 7 (by omega)) k0_off71 (fun _ => rfl)).trans (hw1 7)
    refine gather_step1 _ (Memref.isWhole_whole _) _ (Memref.isWhole_whole _) _ _ _ _ _ (6 : Fin 16) _ _ _ ?_ ?_ rfl rfl rfl
    case refine_2 => exact (gather_row_of_word (Memref.whole main_arg2) (a0.1 1) (k0_off55 (grid0.coords t)) _ _ (Spec.batchRow t 6) (gather_wordOff t 6 (by omega)) k0_off62 (fun _ => rfl)).trans (hw1 6)
    refine gather_step1 _ (Memref.isWhole_whole _) _ (Memref.isWhole_whole _) _ _ _ _ _ (5 : Fin 16) _ _ _ ?_ ?_ rfl rfl rfl
    case refine_2 => exact (gather_row_of_word (Memref.whole main_arg2) (a0.1 1) (k0_off46 (grid0.coords t)) _ _ (Spec.batchRow t 5) (gather_wordOff t 5 (by omega)) k0_off53 (fun _ => rfl)).trans (hw1 5)
    refine gather_step1 _ (Memref.isWhole_whole _) _ (Memref.isWhole_whole _) _ _ _ _ _ (4 : Fin 16) _ _ _ ?_ ?_ rfl rfl rfl
    case refine_2 => exact (gather_row_of_word (Memref.whole main_arg2) (a0.1 1) (k0_off37 (grid0.coords t)) _ _ (Spec.batchRow t 4) (gather_wordOff t 4 (by omega)) k0_off44 (fun _ => rfl)).trans (hw1 4)
    refine gather_step1 _ (Memref.isWhole_whole _) _ (Memref.isWhole_whole _) _ _ _ _ _ (3 : Fin 16) _ _ _ ?_ ?_ rfl rfl rfl
    case refine_2 => exact (gather_row_of_word (Memref.whole main_arg2) (a0.1 1) (k0_off28 (grid0.coords t)) _ _ (Spec.batchRow t 3) (gather_wordOff t 3 (by omega)) k0_off35 (fun _ => rfl)).trans (hw1 3)
    refine gather_step1 _ (Memref.isWhole_whole _) _ (Memref.isWhole_whole _) _ _ _ _ _ (2 : Fin 16) _ _ _ ?_ ?_ rfl rfl rfl
    case refine_2 => exact (gather_row_of_word (Memref.whole main_arg2) (a0.1 1) (k0_off19 (grid0.coords t)) _ _ (Spec.batchRow t 2) (gather_wordOff t 2 (by omega)) k0_off26 (fun _ => rfl)).trans (hw1 2)
    refine gather_step1 _ (Memref.isWhole_whole _) _ (Memref.isWhole_whole _) _ _ _ _ _ (1 : Fin 16) _ _ _ ?_ ?_ rfl rfl rfl
    case refine_2 => exact (gather_row_of_word (Memref.whole main_arg2) (a0.1 1) (k0_off10 (grid0.coords t)) _ _ (Spec.batchRow t 1) (gather_wordOff t 1 (by omega)) k0_off17 (fun _ => rfl)).trans (hw1 1)
    refine gather_step1 _ (Memref.isWhole_whole _) _ (Memref.isWhole_whole _) _ _ _ _ _ (0 : Fin 16) _ _ _ ?_ ?_ rfl rfl rfl
    case refine_2 => exact (gather_row_of_word (Memref.whole main_arg2) (a0.1 1) (k0_off1 (grid0.coords t)) _ _ (Spec.batchRow t 0) (gather_wordOff t 0 (by omega)) k0_off8 (fun _ => rfl)).trans (hw1 0)
    rfl
  case e8 =>
    -- the flags of the previous items
    refine (gather_readAt_whole _ _ gather_zero2 _).trans ?_
    refine Eq.trans ?_ (gather1_nest ((Memref.whole cc0_scratch8).view.read (Elt F) g8) _ _ _).symm
    refine gather_step1 _ (Memref.isWhole_whole _) _ (Memref.isWhole_whole _) _ _ _ _ _ (15 : Fin 16) _ _ _ ?_ ?_ rfl rfl rfl
    case refine_2 => exact (gather_row_of_word (Memref.whole main_arg1) (a0.1 2) (k0_off136 (grid0.coords t)) _ _ (Spec.batchRow t 15) (gather_wordOff t 15 (by omega)) k0_off144 (fun _ => rfl)).trans (hw2 15)
    refine gather_step1 _ (Memref.isWhole_whole _) _ (Memref.isWhole_whole _) _ _ _ _ _ (14 : Fin 16) _ _ _ ?_ ?_ rfl rfl rfl
    case refine_2 => exact (gather_row_of_word (Memref.whole main_arg1) (a0.1 2) (k0_off127 (grid0.coords t)) _ _ (Spec.batchRow t 14) (gather_wordOff t 14 (by omega)) k0_off135 (fun _ => rfl)).trans (hw2 14)
    refine gather_step1 _ (Memref.isWhole_whole _) _ (Memref.isWhole_whole _) _ _ _ _ _ (13 : Fin 16) _ _ _ ?_ ?_ rfl rfl rfl
    case refine_2 => exact (gather_row_of_word (Memref.whole main_arg1) (a0.1 2) (k0_off118 (grid0.coords t)) _ _ (Spec.batchRow t 13) (gather_wordOff t 13 (by omega)) k0_off126 (fun _ => rfl)).trans (hw2 13)
    refine gather_step1 _ (Memref.isWhole_whole _) _ (Memref.isWhole_whole _) _ _ _ _ _ (12 : Fin 16) _ _ _ ?_ ?_ rfl rfl rfl
    case refine_2 => exact (gather_row_of_word (Memref.whole main_arg1) (a0.1 2) (k0_off109 (grid0.coords t)) _ _ (Spec.batchRow t 12) (gather_wordOff t 12 (by omega)) k0_off117 (fun _ => rfl)).trans (hw2 12)
    refine gather_step1 _ (Memref.isWhole_whole _) _ (Memref.isWhole_whole _) _ _ _ _ _ (11 : Fin 16) _ _ _ ?_ ?_ rfl rfl rfl
    case refine_2 => exact (gather_row_of_word (Memref.whole main_arg1) (a0.1 2) (k0_off100 (grid0.coords t)) _ _ (Spec.batchRow t 11) (gather_wordOff t 11 (by omega)) k0_off108 (fun _ => rfl)).trans (hw2 11)
    refine gather_step1 _ (Memref.isWhole_whole _) _ (Memref.isWhole_whole _) _ _ _ _ _ (10 : Fin 16) _ _ _ ?_ ?_ rfl rfl rfl
    case refine_2 => exact (gather_row_of_word (Memref.whole main_arg1) (a0.1 2) (k0_off91 (grid0.coords t)) _ _ (Spec.batchRow t 10) (gather_wordOff t 10 (by omega)) k0_off99 (fun _ => rfl)).trans (hw2 10)
    refine gather_step1 _ (Memref.isWhole_whole _) _ (Memref.isWhole_whole _) _ _ _ _ _ (9 : Fin 16) _ _ _ ?_ ?_ rfl rfl rfl
    case refine_2 => exact (gather_row_of_word (Memref.whole main_arg1) (a0.1 2) (k0_off82 (grid0.coords t)) _ _ (Spec.batchRow t 9) (gather_wordOff t 9 (by omega)) k0_off90 (fun _ => rfl)).trans (hw2 9)
    refine gather_step1 _ (Memref.isWhole_whole _) _ (Memref.isWhole_whole _) _ _ _ _ _ (8 : Fin 16) _ _ _ ?_ ?_ rfl rfl rfl
    case refine_2 => exact (gather_row_of_word (Memref.whole main_arg1) (a0.1 2) (k0_off73 (grid0.coords t)) _ _ (Spec.batchRow t 8) (gather_wordOff t 8 (by omega)) k0_off81 (fun _ => rfl)).trans (hw2 8)
    refine gather_step1 _ (Memref.isWhole_whole _) _ (Memref.isWhole_whole _) _ _ _ _ _ (7 : Fin 16) _ _ _ ?_ ?_ rfl rfl rfl
    case refine_2 => exact (gather_row_of_word (Memref.whole main_arg1) (a0.1 2) (k0_off64 (grid0.coords t)) _ _ (Spec.batchRow t 7) (gather_wordOff t 7 (by omega)) k0_off72 (fun _ => rfl)).trans (hw2 7)
    refine gather_step1 _ (Memref.isWhole_whole _) _ (Memref.isWhole_whole _) _ _ _ _ _ (6 : Fin 16) _ _ _ ?_ ?_ rfl rfl rfl
    case refine_2 => exact (gather_row_of_word (Memref.whole main_arg1) (a0.1 2) (k0_off55 (grid0.coords t)) _ _ (Spec.batchRow t 6) (gather_wordOff t 6 (by omega)) k0_off63 (fun _ => rfl)).trans (hw2 6)
    refine gather_step1 _ (Memref.isWhole_whole _) _ (Memref.isWhole_whole _) _ _ _ _ _ (5 : Fin 16) _ _ _ ?_ ?_ rfl rfl rfl
    case refine_2 => exact (gather_row_of_word (Memref.whole main_arg1) (a0.1 2) (k0_off46 (grid0.coords t)) _ _ (Spec.batchRow t 5) (gather_wordOff t 5 (by omega)) k0_off54 (fun _ => rfl)).trans (hw2 5)
    refine gather_step1 _ (Memref.isWhole_whole _) _ (Memref.isWhole_whole _) _ _ _ _ _ (4 : Fin 16) _ _ _ ?_ ?_ rfl rfl rfl
    case refine_2 => exact (gather_row_of_word (Memref.whole main_arg1) (a0.1 2) (k0_off37 (grid0.coords t)) _ _ (Spec.batchRow t 4) (gather_wordOff t 4 (by omega)) k0_off45 (fun _ => rfl)).trans (hw2 4)
    refine gather_step1 _ (Memref.isWhole_whole _) _ (Memref.isWhole_whole _) _ _ _ _ _ (3 : Fin 16) _ _ _ ?_ ?_ rfl rfl rfl
    case refine_2 => exact (gather_row_of_word (Memref.whole main_arg1) (a0.1 2) (k0_off28 (grid0.coords t)) _ _ (Spec.batchRow t 3) (gather_wordOff t 3 (by omega)) k0_off36 (fun _ => rfl)).trans (hw2 3)
    refine gather_step1 _ (Memref.isWhole_whole _) _ (Memref.isWhole_whole _) _ _ _ _ _ (2 : Fin 16) _ _ _ ?_ ?_ rfl rfl rfl
    case refine_2 => exact (gather_row_of_word (Memref.whole main_arg1) (a0.1 2) (k0_off19 (grid0.coords t)) _ _ (Spec.batchRow t 2) (gather_wordOff t 2 (by omega)) k0_off27 (fun _ => rfl)).trans (hw2 2)
    refine gather_step1 _ (Memref.isWhole_whole _) _ (Memref.isWhole_whole _) _ _ _ _ _ (1 : Fin 16) _ _ _ ?_ ?_ rfl rfl rfl
    case refine_2 => exact (gather_row_of_word (Memref.whole main_arg1) (a0.1 2) (k0_off10 (grid0.coords t)) _ _ (Spec.batchRow t 1) (gather_wordOff t 1 (by omega)) k0_off18 (fun _ => rfl)).trans (hw2 1)
    refine gather_step1 _ (Memref.isWhole_whole _) _ (Memref.isWhole_whole _) _ _ _ _ _ (0 : Fin 16) _ _ _ ?_ ?_ rfl rfl rfl
    case refine_2 => exact (gather_row_of_word (Memref.whole main_arg1) (a0.1 2) (k0_off1 (grid0.coords t)) _ _ (Spec.batchRow t 0) (gather_wordOff t 0 (by omega)) k0_off9 (fun _ => rfl)).trans (hw2 0)
    rfl
  case i0 => exact (gather_readAt_whole_unread (hs0_0 a0 t) _ gather_zero2 _).trans (gather_iblk0_0 a0 V c t)
  case i1 => exact (gather_readAt_whole_unread (hs0_1 a0 t) _ gather_zero2 _).trans (gather_iblk0_1 a0 V c t)
  case i2 => exact (gather_readAt_whole_unread (hs0_2 a0 t) _ gather_zero2 _).trans (gather_iblk0_2 a0 V c t)
  case i3 => exact (gather_readAt_whole_unread (hs0_3 a0 t) _ gather_zero2 _).trans (gather_iblk0_3 a0 V c t)
  case i4 => exact (gather_readAt_whole_unread (hs0_4 a0 t) _ gather_zero2 _).trans (gather_iblk0_4 a0 V c t)
  case i5 => exact (gather_readAt_whole_unread (hs0_5 a0 t) _ gather_zero2 _).trans (gather_iblk0_5 a0 V c t)
  case i6 => exact (gather_readAt_whole_unread (hs0_6 a0 t) _ gather_zero1 _).trans (gather_iblk0_6 a0 V c t)
  case i7 => exact (gather_readAt_whole_unread (hs0_7 a0 t) _ gather_zero1 _).trans (gather_iblk0_7 a0 V c t)
  case i8 => exact (gather_readAt_whole_unread (hs0_8 a0 t) _ gather_zero2 _).trans (gather_iblk0_8 a0 V c t)
  case i9 => exact (gather_readAt_whole_unread (hs0_9 a0 t) _ gather_zero2 _).trans (gather_iblk0_9 a0 V c t)
  case i10 => exact (gather_readAt_whole_unread (hs0_10 a0 t) _ gather_zero1 _).trans (gather_iblk0_10 a0 V c t)
  case i11 => exact (gather_readAt_whole_unread (hs0_11 a0 t) _ gather_zero1 _).trans (gather_iblk0_11 a0 V c t)
  case i12 => exact (gather_readAt_whole_unread (hs0_12 a0 t) _ gather_zero2 _).trans (gather_iblk0_12 a0 V c t)
  case i13 => exact (gather_readAt_whole_unread (hs0_13 a0 t) _ gather_zero1 _).trans (gather_iblk0_13 a0 V c t)
  case i14 => exact (gather_readAt_whole_unread (hs0_14 a0 t) _ gather_zero2 _).trans (gather_iblk0_14 a0 V c t)
  case i15 => exact (gather_readAt_whole_unread (hs0_15 a0 t) _ gather_zero1 _).trans (gather_iblk0_15 a0 V c t)

end Region

end Cert.KernelIdeal.Hand

end
-- ==== Proof.KI.Blocks.lean ====
/- The gather step at the launch memory: with the three tables of row numbers the launch memory's id columns, what the
   first region's run leaves in its six output buffers, read back, is the specification's blocks. -/
import proofs.«423553_j10307921510829_1_alg».proof.Proof.KI.Final
import proofs.«423553_j10307921510829_1_alg».proof.Proof.KI.GatherStep

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- The gather step's fact, at the launch memory `m`. -/
theorem gather_blocks_at (m : (ℓ : Loc nD τ sig) → Buf (Elt F) ℓ) (h3 : IdsLt m) : GatherBlocks m h3 :=
  gather_blocks (adm0 m) (U0 m) (hids_of m h3) (hT0_of m h3) (hT1_of m h3) (hT2_of m h3)
    (fun c => ⟨congrFun (adm0_val m c) 0, congrFun (adm0_val m c) 1, congrFun (adm0_val m c) 2⟩)

end Cert.KernelIdeal.Hand

end
-- ==== Proof.KI.Arrays0.lean ====
/- The first kernel region's six result arrays after the region, each as one function of the argument arrays.
   The region runs over 256 grid points; at point t each output window's block is the 16 rows 16t .. 16t + 15 of its
   array, all columns (block index (t, 0), whatever the tables of row numbers hold), and every point writes its block
   back. What the body leaves in an output's buffer at point t is the specification's block t; the specification's
   whole array has, in row r, row r % 16 of block r / 16. So what point t writes back is block t of the whole array read
   through the window's rectangle, every row r lies in the rectangle of point r / 16, and the array ends holding the
   specification's whole array. -/
import proofs.«423553_j10307921510829_1_alg».proof.Proof.KI.Data0
import Idealize.ShloMosaic.Lib.Pipeline.Value
import Idealize.ShloMosaic.Lib.Pipeline.Kit

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]

/-! ## Blocks of sixteen rows -/

/-- An array of 128 columns assembled from 256 blocks of 16 rows, read at row `16 t + p`: row `p` of block `t`. -/
theorem ofBlocks128_at (blk : Fin 256 → Vec F S16x128 .f32) (t : Fin 256) (y : S16x128.Idx) (i : S4096x128.Idx)
    (h0 : (i 0).val = t.val * 16 + (y 0).val) (h1 : (i 1).val = (y 1).val) : Spec.ofBlocks128 blk i = blk t y := by
  have hy : (y 0).val < 16 := (y 0).isLt
  unfold Spec.ofBlocks128
  have ht : (⟨(i 0).val / 16, by have h : (i 0).val < 4096 := (i 0).isLt; omega⟩ : Fin 256) = t :=
    Fin.ext (by show (i 0).val / 16 = t.val; omega)
  rw [ht]
  refine congrArg (blk t) ?_
  funext a
  apply Fin.ext
  match a with
  | ⟨0, _⟩ => show (i 0).val % 16 = (y 0).val; omega
  | ⟨1, _⟩ => show (i 1).val = (y 1).val; exact h1

/-- The same for an array of 256 columns. -/
theorem ofBlocks256_at (blk : Fin 256 → Vec F S16x256 .f32) (t : Fin 256) (y : S16x256.Idx) (i : S4096x256.Idx)
    (h0 : (i 0).val = t.val * 16 + (y 0).val) (h1 : (i 1).val = (y 1).val) : Spec.ofBlocks256 blk i = blk t y := by
  have hy : (y 0).val < 16 := (y 0).isLt
  unfold Spec.ofBlocks256
  have ht : (⟨(i 0).val / 16, by have h : (i 0).val < 4096 := (i 0).isLt; omega⟩ : Fin 256) = t :=
    Fin.ext (by show (i 0).val / 16 = t.val; omega)
  rw [ht]
  refine congrArg (blk t) ?_
  funext a
  apply Fin.ext
  match a with
  | ⟨0, _⟩ => show (i 0).val % 16 = (y 0).val; omega
  | ⟨1, _⟩ => show (i 1).val = (y 1).val; exact h1

section Region

variable (a0 : (pcfg0 (F := F)).Adm)
variable (V : (c : Dev nD) → (b : Ref sig .tc) → Buf (Elt F) ((c : Thread nD τ).loc b))

/-! ## Output window 16: the item predictions (256 columns) -/

/-- Window 16's block index at point `t` is `(t, 0)`, whatever the tables hold. -/
theorem idx16 : ∀ t : Fin (cfg0 a0).N, ((cfg0 a0).win 16).index t (0 : Fin 2) = t.val ∧ ((cfg0 a0).win 16).index t (1 : Fin 2) = 0 :=
  (by decide +kernel : ∀ t : Fin grid0.N, cc0_transform_22 (grid0.coords t) (0 : Fin 2) = t.val ∧ cc0_transform_22 (grid0.coords t) (1 : Fin 2) = 0)

/-- Window 16 is written back at every point. -/
theorem flush16 : ∀ t : Fin (cfg0 a0).N, ((cfg0 a0).win 16).flush t = true :=
  (by decide +kernel : ∀ t : Fin grid0.N, Pipeline.Window.flushOf grid0 true cc0_transform_22 t = true)

/-- What the body leaves in window 16's buffer at point `t`. -/
theorem after16 (c : Dev nD) (h : IdsOk V c) (t : Fin (cfg0 a0).N) :
    (dat0 a0 V c h).after 16 t = Spec.itemPredBlk (argsAt V c h) t := rfl

/-- What point `t` writes back is block `t` of the array of item predictions. -/
theorem flushed16_eq (c : Dev nD) (h : IdsOk V c) (t : Fin (cfg0 a0).N) :
    (dat0 a0 V c h).flushed 16 t = (((cfg0 a0).win 16).blk t).view.read (Elt F) (Spec.itemPred (argsAt V c h)) := by
  show ((cfg0 a0).win 16).cut ((cfg0 a0).grid.coords t) ((dat0 a0 V c h).after 16 t) = _
  rw [after16]
  obtain ⟨e0, e1⟩ := idx16 a0 t
  funext j
  show Spec.itemPredBlk (argsAt V c h) t (((cfg0 a0).win 16).xinj ((cfg0 a0).grid.coords t) j)
    = Spec.ofBlocks256 (Spec.itemPredBlk (argsAt V c h)) ((((cfg0 a0).win 16).blk t).view.emb j)
  refine (ofBlocks256_at (Spec.itemPredBlk (argsAt V c h)) t _ _ ?_ ?_).symm
  · show ((cfg0 a0).win 16).index t (0 : Fin 2) * 16 + 1 * (j (0 : Fin 2)).val = t.val * 16 + (j (0 : Fin 2)).val
    rw [e0]; omega
  · show ((cfg0 a0).win 16).index t (1 : Fin 2) * 256 + 1 * (j (1 : Fin 2)).val = (j (1 : Fin 2)).val
    rw [e1]; omega

/-- An index of the array is in point `t`'s block iff each coordinate is in the block's range on its axis. -/
theorem mem_blk16 (t : Fin (cfg0 a0).N) (i : S4096x256.Idx) :
    i ∈ (((cfg0 a0).win 16).blk t).view.set ↔ ∀ a : Fin 2, ((cfg0 a0).win 16).index t a * S16x256.size a ≤ (i a).val
      ∧ (i a).val < ((cfg0 a0).win 16).index t a * S16x256.size a + S16x256.size a := by
  exact (Finset.ext_iff.mp (View.set_slice_whole main_v0_0 (((cfg0 a0).win 16).rect t)) i).trans Rect.mem_set_unit

/-- Row `r` of the array lies in the block of point `r / 16`, which is written back. -/
theorem cover16 (i : S4096x256.Idx) :
    ∃ t : Fin (cfg0 a0).N, ((cfg0 a0).win 16).flush t = true ∧ i ∈ (((cfg0 a0).win 16).blk t).view.set := by
  have hi0 : (i 0).val < 4096 := (i 0).isLt
  have hi1 : (i 1).val < 256 := (i 1).isLt
  have hN : (cfg0 a0).N = 256 := N_0
  have ht : (i 0).val / 16 < (cfg0 a0).N := by rw [hN]; omega
  obtain ⟨e0, e1⟩ := idx16 a0 ⟨(i 0).val / 16, ht⟩
  have e0' : ((cfg0 a0).win 16).index ⟨(i 0).val / 16, ht⟩ (0 : Fin 2) = (i 0).val / 16 := e0
  refine ⟨⟨(i 0).val / 16, ht⟩, flush16 a0 _, ?_⟩
  rw [mem_blk16]
  intro a
  match a with
  | ⟨0, _⟩ =>
    show ((cfg0 a0).win 16).index ⟨(i 0).val / 16, ht⟩ (0 : Fin 2) * 16 ≤ (i 0).val
      ∧ (i 0).val < ((cfg0 a0).win 16).index ⟨(i 0).val / 16, ht⟩ (0 : Fin 2) * 16 + 16
    rw [e0']; omega
  | ⟨1, _⟩ =>
    show ((cfg0 a0).win 16).index ⟨(i 0).val / 16, ht⟩ (1 : Fin 2) * 256 ≤ (i 1).val
      ∧ (i 1).val < ((cfg0 a0).win 16).index ⟨(i 0).val / 16, ht⟩ (1 : Fin 2) * 256 + 256
    rw [e1]; omega

/-- After the region the first result array holds the item predictions, row by row. -/
theorem arr0_16 (c : Dev nD) (h : IdsOk V c) :
    (dat0 a0 V c h).arrAt 16 (cfg0 a0).N = Spec.itemPred (argsAt V c h) :=
  (dat0 a0 V c h).arrAt_eq_of_cover 16 (Spec.itemPred (argsAt V c h)) (fun t _ => flushed16_eq a0 V c h t) (cover16 a0)

/-! ## Output window 17: the item targets (256 columns) -/

/-- Window 17's block index at point `t` is `(t, 0)`, whatever the tables hold. -/
theorem idx17 : ∀ t : Fin (cfg0 a0).N, ((cfg0 a0).win 17).index t (0 : Fin 2) = t.val ∧ ((cfg0 a0).win 17).index t (1 : Fin 2) = 0 :=
  (by decide +kernel : ∀ t : Fin grid0.N, cc0_transform_23 (grid0.coords t) (0 : Fin 2) = t.val ∧ cc0_transform_23 (grid0.coords t) (1 : Fin 2) = 0)

/-- Window 17 is written back at every point. -/
theorem flush17 : ∀ t : Fin (cfg0 a0).N, ((cfg0 a0).win 17).flush t = true :=
  (by decide +kernel : ∀ t : Fin grid0.N, Pipeline.Window.flushOf grid0 true cc0_transform_23 t = true)

/-- What the body leaves in window 17's buffer at point `t`. -/
theorem after17 (c : Dev nD) (h : IdsOk V c) (t : Fin (cfg0 a0).N) :
    (dat0 a0 V c h).after 17 t = Spec.itemTargetBlk (argsAt V c h) t := rfl

/-- What point `t` writes back is block `t` of the array of item targets. -/
theorem flushed17_eq (c : Dev nD) (h : IdsOk V c) (t : Fin (cfg0 a0).N) :
    (dat0 a0 V c h).flushed 17 t = (((cfg0 a0).win 17).blk t).view.read (Elt F) (Spec.itemTarget (argsAt V c h)) := by
  show ((cfg0 a0).win 17).cut ((cfg0 a0).grid.coords t) ((dat0 a0 V c h).after 17 t) = _
  rw [after17]
  obtain ⟨e0, e1⟩ := idx17 a0 t
  funext j
  show Spec.itemTargetBlk (argsAt V c h) t (((cfg0 a0).win 17).xinj ((cfg0 a0).grid.coords t) j)
    = Spec.ofBlocks256 (Spec.itemTargetBlk (argsAt V c h)) ((((cfg0 a0).win 17).blk t).view.emb j)
  refine (ofBlocks256_at (Spec.itemTargetBlk (argsAt V c h)) t _ _ ?_ ?_).symm
  · show ((cfg0 a0).win 17).index t (0 : Fin 2) * 16 + 1 * (j (0 : Fin 2)).val = t.val * 16 + (j (0 : Fin 2)).val
    rw [e0]; omega
  · show ((cfg0 a0).win 17).index t (1 : Fin 2) * 256 + 1 * (j (1 : Fin 2)).val = (j (1 : Fin 2)).val
    rw [e1]; omega

/-- An index of the array is in point `t`'s block iff each coordinate is in the block's range on its axis. -/
theorem mem_blk17 (t : Fin (cfg0 a0).N) (i : S4096x256.Idx) :
    i ∈ (((cfg0 a0).win 17).blk t).view.set ↔ ∀ a : Fin 2, ((cfg0 a0).win 17).index t a * S16x256.size a ≤ (i a).val
      ∧ (i a).val < ((cfg0 a0).win 17).index t a * S16x256.size a + S16x256.size a := by
  exact (Finset.ext_iff.mp (View.set_slice_whole main_v0_1 (((cfg0 a0).win 17).rect t)) i).trans Rect.mem_set_unit

/-- Row `r` of the array lies in the block of point `r / 16`, which is written back. -/
theorem cover17 (i : S4096x256.Idx) :
    ∃ t : Fin (cfg0 a0).N, ((cfg0 a0).win 17).flush t = true ∧ i ∈ (((cfg0 a0).win 17).blk t).view.set := by
  have hi0 : (i 0).val < 4096 := (i 0).isLt
  have hi1 : (i 1).val < 256 := (i 1).isLt
  have hN : (cfg0 a0).N = 256 := N_0
  have ht : (i 0).val / 16 < (cfg0 a0).N := by rw [hN]; omega
  obtain ⟨e0, e1⟩ := idx17 a0 ⟨(i 0).val / 16, ht⟩
  have e0' : ((cfg0 a0).win 17).index ⟨(i 0).val / 16, ht⟩ (0 : Fin 2) = (i 0).val / 16 := e0
  refine ⟨⟨(i 0).val / 16, ht⟩, flush17 a0 _, ?_⟩
  rw [mem_blk17]
  intro a
  match a with
  | ⟨0, _⟩ =>
    show ((cfg0 a0).win 17).index ⟨(i 0).val / 16, ht⟩ (0 : Fin 2) * 16 ≤ (i 0).val
      ∧ (i 0).val < ((cfg0 a0).win 17).index ⟨(i 0).val / 16, ht⟩ (0 : Fin 2) * 16 + 16
    rw [e0']; omega
  | ⟨1, _⟩ =>
    show ((cfg0 a0).win 17).index ⟨(i 0).val / 16, ht⟩ (1 : Fin 2) * 256 ≤ (i 1).val
      ∧ (i 1).val < ((cfg0 a0).win 17).index ⟨(i 0).val / 16, ht⟩ (1 : Fin 2) * 256 + 256
    rw [e1]; omega

/-- After the region the second result array holds the item targets, row by row. -/
theorem arr0_17 (c : Dev nD) (h : IdsOk V c) :
    (dat0 a0 V c h).arrAt 17 (cfg0 a0).N = Spec.itemTarget (argsAt V c h) :=
  (dat0 a0 V c h).arrAt_eq_of_cover 17 (Spec.itemTarget (argsAt V c h)) (fun t _ => flushed17_eq a0 V c h t) (cover17 a0)

/-! ## Output window 18: the updated user embeddings (128 columns) -/

/-- Window 18's block index at point `t` is `(t, 0)`, whatever the tables hold. -/
theorem idx18 : ∀ t : Fin (cfg0 a0).N, ((cfg0 a0).win 18).index t (0 : Fin 2) = t.val ∧ ((cfg0 a0).win 18).index t (1 : Fin 2) = 0 :=
  (by decide +kernel : ∀ t : Fin grid0.N, cc0_transform_24 (grid0.coords t) (0 : Fin 2) = t.val ∧ cc0_transform_24 (grid0.coords t) (1 : Fin 2) = 0)

/-- Window 18 is written back at every point. -/
theorem flush18 : ∀ t : Fin (cfg0 a0).N, ((cfg0 a0).win 18).flush t = true :=
  (by decide +kernel : ∀ t : Fin grid0.N, Pipeline.Window.flushOf grid0 true cc0_transform_24 t = true)

/-- What the body leaves in window 18's buffer at point `t`. -/
theorem after18 (c : Dev nD) (h : IdsOk V c) (t : Fin (cfg0 a0).N) :
    (dat0 a0 V c h).after 18 t = Spec.updUserBlk (argsAt V c h) t := rfl

/-- What point `t` writes back is block `t` of the array of updated user embeddings. -/
theorem flushed18_eq (c : Dev nD) (h : IdsOk V c) (t : Fin (cfg0 a0).N) :
    (dat0 a0 V c h).flushed 18 t = (((cfg0 a0).win 18).blk t).view.read (Elt F) (Spec.updUser (argsAt V c h)) := by
  show ((cfg0 a0).win 18).cut ((cfg0 a0).grid.coords t) ((dat0 a0 V c h).after 18 t) = _
  rw [after18]
  obtain ⟨e0, e1⟩ := idx18 a0 t
  funext j
  show Spec.updUserBlk (argsAt V c h) t (((cfg0 a0).win 18).xinj ((cfg0 a0).grid.coords t) j)
    = Spec.ofBlocks128 (Spec.updUserBlk (argsAt V c h)) ((((cfg0 a0).win 18).blk t).view.emb j)
  refine (ofBlocks128_at (Spec.updUserBlk (argsAt V c h)) t _ _ ?_ ?_).symm
  · show ((cfg0 a0).win 18).index t (0 : Fin 2) * 16 + 1 * (j (0 : Fin 2)).val = t.val * 16 + (j (0 : Fin 2)).val
    rw [e0]; omega
  · show ((cfg0 a0).win 18).index t (1 : Fin 2) * 128 + 1 * (j (1 : Fin 2)).val = (j (1 : Fin 2)).val
    rw [e1]; omega

/-- An index of the array is in point `t`'s block iff each coordinate is in the block's range on its axis. -/
theorem mem_blk18 (t : Fin (cfg0 a0).N) (i : S4096x128.Idx) :
    i ∈ (((cfg0 a0).win 18).blk t).view.set ↔ ∀ a : Fin 2, ((cfg0 a0).win 18).index t a * S16x128.size a ≤ (i a).val
      ∧ (i a).val < ((cfg0 a0).win 18).index t a * S16x128.size a + S16x128.size a := by
  exact (Finset.ext_iff.mp (View.set_slice_whole main_v0_2 (((cfg0 a0).win 18).rect t)) i).trans Rect.mem_set_unit

/-- Row `r` of the array lies in the block of point `r / 16`, which is written back. -/
theorem cover18 (i : S4096x128.Idx) :
    ∃ t : Fin (cfg0 a0).N, ((cfg0 a0).win 18).flush t = true ∧ i ∈ (((cfg0 a0).win 18).blk t).view.set := by
  have hi0 : (i 0).val < 4096 := (i 0).isLt
  have hi1 : (i 1).val < 128 := (i 1).isLt
  have hN : (cfg0 a0).N = 256 := N_0
  have ht : (i 0).val / 16 < (cfg0 a0).N := by rw [hN]; omega
  obtain ⟨e0, e1⟩ := idx18 a0 ⟨(i 0).val / 16, ht⟩
  have e0' : ((cfg0 a0).win 18).index ⟨(i 0).val / 16, ht⟩ (0 : Fin 2) = (i 0).val / 16 := e0
  refine ⟨⟨(i 0).val / 16, ht⟩, flush18 a0 _, ?_⟩
  rw [mem_blk18]
  intro a
  match a with
  | ⟨0, _⟩ =>
    show ((cfg0 a0).win 18).index ⟨(i 0).val / 16, ht⟩ (0 : Fin 2) * 16 ≤ (i 0).val
      ∧ (i 0).val < ((cfg0 a0).win 18).index ⟨(i 0).val / 16, ht⟩ (0 : Fin 2) * 16 + 16
    rw [e0']; omega
  | ⟨1, _⟩ =>
    show ((cfg0 a0).win 18).index ⟨(i 0).val / 16, ht⟩ (1 : Fin 2) * 128 ≤ (i 1).val
      ∧ (i 1).val < ((cfg0 a0).win 18).index ⟨(i 0).val / 16, ht⟩ (1 : Fin 2) * 128 + 128
    rw [e1]; omega

/-- After the region the third result array holds the updated user embeddings, row by row. -/
theorem arr0_18 (c : Dev nD) (h : IdsOk V c) :
    (dat0 a0 V c h).arrAt 18 (cfg0 a0).N = Spec.updUser (argsAt V c h) :=
  (dat0 a0 V c h).arrAt_eq_of_cover 18 (Spec.updUser (argsAt V c h)) (fun t _ => flushed18_eq a0 V c h t) (cover18 a0)

/-! ## Output window 19: the user embeddings (128 columns) -/

/-- Window 19's block index at point `t` is `(t, 0)`, whatever the tables hold. -/
theorem idx19 : ∀ t : Fin (cfg0 a0).N, ((cfg0 a0).win 19).index t (0 : Fin 2) = t.val ∧ ((cfg0 a0).win 19).index t (1 : Fin 2) = 0 :=
  (by decide +kernel : ∀ t : Fin grid0.N, cc0_transform_25 (grid0.coords t) (0 : Fin 2) = t.val ∧ cc0_transform_25 (grid0.coords t) (1 : Fin 2) = 0)

/-- Window 19 is written back at every point. -/
theorem flush19 : ∀ t : Fin (cfg0 a0).N, ((cfg0 a0).win 19).flush t = true :=
  (by decide +kernel : ∀ t : Fin grid0.N, Pipeline.Window.flushOf grid0 true cc0_transform_25 t = true)

/-- What the body leaves in window 19's buffer at point `t`. -/
theorem after19 (c : Dev nD) (h : IdsOk V c) (t : Fin (cfg0 a0).N) :
    (dat0 a0 V c h).after 19 t = Spec.userEmbBlk (argsAt V c h) t := rfl

/-- What point `t` writes back is block `t` of the array of user embeddings. -/
theorem flushed19_eq (c : Dev nD) (h : IdsOk V c) (t : Fin (cfg0 a0).N) :
    (dat0 a0 V c h).flushed 19 t = (((cfg0 a0).win 19).blk t).view.read (Elt F) (Spec.userEmb (argsAt V c h)) := by
  show ((cfg0 a0).win 19).cut ((cfg0 a0).grid.coords t) ((dat0 a0 V c h).after 19 t) = _
  rw [after19]
  obtain ⟨e0, e1⟩ := idx19 a0 t
  funext j
  show Spec.userEmbBlk (argsAt V c h) t (((cfg0 a0).win 19).xinj ((cfg0 a0).grid.coords t) j)
    = Spec.ofBlocks128 (Spec.userEmbBlk (argsAt V c h)) ((((cfg0 a0).win 19).blk t).view.emb j)
  refine (ofBlocks128_at (Spec.userEmbBlk (argsAt V c h)) t _ _ ?_ ?_).symm
  · show ((cfg0 a0).win 19).index t (0 : Fin 2) * 16 + 1 * (j (0 : Fin 2)).val = t.val * 16 + (j (0 : Fin 2)).val
    rw [e0]; omega
  · show ((cfg0 a0).win 19).index t (1 : Fin 2) * 128 + 1 * (j (1 : Fin 2)).val = (j (1 : Fin 2)).val
    rw [e1]; omega

/-- An index of the array is in point `t`'s block iff each coordinate is in the block's range on its axis. -/
theorem mem_blk19 (t : Fin (cfg0 a0).N) (i : S4096x128.Idx) :
    i ∈ (((cfg0 a0).win 19).blk t).view.set ↔ ∀ a : Fin 2, ((cfg0 a0).win 19).index t a * S16x128.size a ≤ (i a).val
      ∧ (i a).val < ((cfg0 a0).win 19).index t a * S16x128.size a + S16x128.size a := by
  exact (Finset.ext_iff.mp (View.set_slice_whole main_v0_3 (((cfg0 a0).win 19).rect t)) i).trans Rect.mem_set_unit

/-- Row `r` of the array lies in the block of point `r / 16`, which is written back. -/
theorem cover19 (i : S4096x128.Idx) :
    ∃ t : Fin (cfg0 a0).N, ((cfg0 a0).win 19).flush t = true ∧ i ∈ (((cfg0 a0).win 19).blk t).view.set := by
  have hi0 : (i 0).val < 4096 := (i 0).isLt
  have hi1 : (i 1).val < 128 := (i 1).isLt
  have hN : (cfg0 a0).N = 256 := N_0
  have ht : (i 0).val / 16 < (cfg0 a0).N := by rw [hN]; omega
  obtain ⟨e0, e1⟩ := idx19 a0 ⟨(i 0).val / 16, ht⟩
  have e0' : ((cfg0 a0).win 19).index ⟨(i 0).val / 16, ht⟩ (0 : Fin 2) = (i 0).val / 16 := e0
  refine ⟨⟨(i 0).val / 16, ht⟩, flush19 a0 _, ?_⟩
  rw [mem_blk19]
  intro a
  match a with
  | ⟨0, _⟩ =>
    show ((cfg0 a0).win 19).index ⟨(i 0).val / 16, ht⟩ (0 : Fin 2) * 16 ≤ (i 0).val
      ∧ (i 0).val < ((cfg0 a0).win 19).index ⟨(i 0).val / 16, ht⟩ (0 : Fin 2) * 16 + 16
    rw [e0']; omega
  | ⟨1, _⟩ =>
    show ((cfg0 a0).win 19).index ⟨(i 0).val / 16, ht⟩ (1 : Fin 2) * 128 ≤ (i 1).val
      ∧ (i 1).val < ((cfg0 a0).win 19).index ⟨(i 0).val / 16, ht⟩ (1 : Fin 2) * 128 + 128
    rw [e1]; omega

/-- After the region the fourth result array holds the user embeddings, row by row. -/
theorem arr0_19 (c : Dev nD) (h : IdsOk V c) :
    (dat0 a0 V c h).arrAt 19 (cfg0 a0).N = Spec.userEmb (argsAt V c h) :=
  (dat0 a0 V c h).arrAt_eq_of_cover 19 (Spec.userEmb (argsAt V c h)) (fun t _ => flushed19_eq a0 V c h t) (cover19 a0)

/-! ## Output window 20: the updated item embeddings (128 columns) -/

/-- Window 20's block index at point `t` is `(t, 0)`, whatever the tables hold. -/
theorem idx20 : ∀ t : Fin (cfg0 a0).N, ((cfg0 a0).win 20).index t (0 : Fin 2) = t.val ∧ ((cfg0 a0).win 20).index t (1 : Fin 2) = 0 :=
  (by decide +kernel : ∀ t : Fin grid0.N, cc0_transform_26 (grid0.coords t) (0 : Fin 2) = t.val ∧ cc0_transform_26 (grid0.coords t) (1 : Fin 2) = 0)

/-- Window 20 is written back at every point. -/
theorem flush20 : ∀ t : Fin (cfg0 a0).N, ((cfg0 a0).win 20).flush t = true :=
  (by decide +kernel : ∀ t : Fin grid0.N, Pipeline.Window.flushOf grid0 true cc0_transform_26 t = true)

/-- What the body leaves in window 20's buffer at point `t`. -/
theorem after20 (c : Dev nD) (h : IdsOk V c) (t : Fin (cfg0 a0).N) :
    (dat0 a0 V c h).after 20 t = Spec.updItemBlk (argsAt V c h) t := rfl

/-- What point `t` writes back is block `t` of the array of updated item embeddings. -/
theorem flushed20_eq (c : Dev nD) (h : IdsOk V c) (t : Fin (cfg0 a0).N) :
    (dat0 a0 V c h).flushed 20 t = (((cfg0 a0).win 20).blk t).view.read (Elt F) (Spec.updItem (argsAt V c h)) := by
  show ((cfg0 a0).win 20).cut ((cfg0 a0).grid.coords t) ((dat0 a0 V c h).after 20 t) = _
  rw [after20]
  obtain ⟨e0, e1⟩ := idx20 a0 t
  funext j
  show Spec.updItemBlk (argsAt V c h) t (((cfg0 a0).win 20).xinj ((cfg0 a0).grid.coords t) j)
    = Spec.ofBlocks128 (Spec.updItemBlk (argsAt V c h)) ((((cfg0 a0).win 20).blk t).view.emb j)
  refine (ofBlocks128_at (Spec.updItemBlk (argsAt V c h)) t _ _ ?_ ?_).symm
  · show ((cfg0 a0).win 20).index t (0 : Fin 2) * 16 + 1 * (j (0 : Fin 2)).val = t.val * 16 + (j (0 : Fin 2)).val
    rw [e0]; omega
  · show ((cfg0 a0).win 20).index t (1 : Fin 2) * 128 + 1 * (j (1 : Fin 2)).val = (j (1 : Fin 2)).val
    rw [e1]; omega

/-- An index of the array is in point `t`'s block iff each coordinate is in the block's range on its axis. -/
theorem mem_blk20 (t : Fin (cfg0 a0).N) (i : S4096x128.Idx) :
    i ∈ (((cfg0 a0).win 20).blk t).view.set ↔ ∀ a : Fin 2, ((cfg0 a0).win 20).index t a * S16x128.size a ≤ (i a).val
      ∧ (i a).val < ((cfg0 a0).win 20).index t a * S16x128.size a + S16x128.size a := by
  exact (Finset.ext_iff.mp (View.set_slice_whole main_v0_4 (((cfg0 a0).win 20).rect t)) i).trans Rect.mem_set_unit

/-- Row `r` of the array lies in the block of point `r / 16`, which is written back. -/
theorem cover20 (i : S4096x128.Idx) :
    ∃ t : Fin (cfg0 a0).N, ((cfg0 a0).win 20).flush t = true ∧ i ∈ (((cfg0 a0).win 20).blk t).view.set := by
  have hi0 : (i 0).val < 4096 := (i 0).isLt
  have hi1 : (i 1).val < 128 := (i 1).isLt
  have hN : (cfg0 a0).N = 256 := N_0
  have ht : (i 0).val / 16 < (cfg0 a0).N := by rw [hN]; omega
  obtain ⟨e0, e1⟩ := idx20 a0 ⟨(i 0).val / 16, ht⟩
  have e0' : ((cfg0 a0).win 20).index ⟨(i 0).val / 16, ht⟩ (0 : Fin 2) = (i 0).val / 16 := e0
  refine ⟨⟨(i 0).val / 16, ht⟩, flush20 a0 _, ?_⟩
  rw [mem_blk20]
  intro a
  match a with
  | ⟨0, _⟩ =>
    show ((cfg0 a0).win 20).index ⟨(i 0).val / 16, ht⟩ (0 : Fin 2) * 16 ≤ (i 0).val
      ∧ (i 0).val < ((cfg0 a0).win 20).index ⟨(i 0).val / 16, ht⟩ (0 : Fin 2) * 16 + 16
    rw [e0']; omega
  | ⟨1, _⟩ =>
    show ((cfg0 a0).win 20).index ⟨(i 0).val / 16, ht⟩ (1 : Fin 2) * 128 ≤ (i 1).val
      ∧ (i 1).val < ((cfg0 a0).win 20).index ⟨(i 0).val / 16, ht⟩ (1 : Fin 2) * 128 + 128
    rw [e1]; omega

/-- After the region the fifth result array holds the updated item embeddings, row by row. -/
theorem arr0_20 (c : Dev nD) (h : IdsOk V c) :
    (dat0 a0 V c h).arrAt 20 (cfg0 a0).N = Spec.updItem (argsAt V c h) :=
  (dat0 a0 V c h).arrAt_eq_of_cover 20 (Spec.updItem (argsAt V c h)) (fun t _ => flushed20_eq a0 V c h t) (cover20 a0)

/-! ## Output window 21: the item embeddings (128 columns) -/

/-- Window 21's block index at point `t` is `(t, 0)`, whatever the tables hold. -/
theorem idx21 : ∀ t : Fin (cfg0 a0).N, ((cfg0 a0).win 21).index t (0 : Fin 2) = t.val ∧ ((cfg0 a0).win 21).index t (1 : Fin 2) = 0 :=
  (by decide +kernel : ∀ t : Fin grid0.N, cc0_transform_27 (grid0.coords t) (0 : Fin 2) = t.val ∧ cc0_transform_27 (grid0.coords t) (1 : Fin 2) = 0)

/-- Window 21 is written back at every point. -/
theorem flush21 : ∀ t : Fin (cfg0 a0).N, ((cfg0 a0).win 21).flush t = true :=
  (by decide +kernel : ∀ t : Fin grid0.N, Pipeline.Window.flushOf grid0 true cc0_transform_27 t = true)

/-- What the body leaves in window 21's buffer at point `t`. -/
theorem after21 (c : Dev nD) (h : IdsOk V c) (t : Fin (cfg0 a0).N) :
    (dat0 a0 V c h).after 21 t = Spec.itemEmbBlk (argsAt V c h) t := rfl

/-- What point `t` writes back is block `t` of the array of item embeddings. -/
theorem flushed21_eq (c : Dev nD) (h : IdsOk V c) (t : Fin (cfg0 a0).N) :
    (dat0 a0 V c h).flushed 21 t = (((cfg0 a0).win 21).blk t).view.read (Elt F) (Spec.itemEmb (argsAt V c h)) := by
  show ((cfg0 a0).win 21).cut ((cfg0 a0).grid.coords t) ((dat0 a0 V c h).after 21 t) = _
  rw [after21]
  obtain ⟨e0, e1⟩ := idx21 a0 t
  funext j
  show Spec.itemEmbBlk (argsAt V c h) t (((cfg0 a0).win 21).xinj ((cfg0 a0).grid.coords t) j)
    = Spec.ofBlocks128 (Spec.itemEmbBlk (argsAt V c h)) ((((cfg0 a0).win 21).blk t).view.emb j)
  refine (ofBlocks128_at (Spec.itemEmbBlk (argsAt V c h)) t _ _ ?_ ?_).symm
  · show ((cfg0 a0).win 21).index t (0 : Fin 2) * 16 + 1 * (j (0 : Fin 2)).val = t.val * 16 + (j (0 : Fin 2)).val
    rw [e0]; omega
  · show ((cfg0 a0).win 21).index t (1 : Fin 2) * 128 + 1 * (j (1 : Fin 2)).val = (j (1 : Fin 2)).val
    rw [e1]; omega

/-- An index of the array is in point `t`'s block iff each coordinate is in the block's range on its axis. -/
theorem mem_blk21 (t : Fin (cfg0 a0).N) (i : S4096x128.Idx) :
    i ∈ (((cfg0 a0).win 21).blk t).view.set ↔ ∀ a : Fin 2, ((cfg0 a0).win 21).index t a * S16x128.size a ≤ (i a).val
      ∧ (i a).val < ((cfg0 a0).win 21).index t a * S16x128.size a + S16x128.size a := by
  exact (Finset.ext_iff.mp (View.set_slice_whole main_v0_5 (((cfg0 a0).win 21).rect t)) i).trans Rect.mem_set_unit

/-- Row `r` of the array lies in the block of point `r / 16`, which is written back. -/
theorem cover21 (i : S4096x128.Idx) :
    ∃ t : Fin (cfg0 a0).N, ((cfg0 a0).win 21).flush t = true ∧ i ∈ (((cfg0 a0).win 21).blk t).view.set := by
  have hi0 : (i 0).val < 4096 := (i 0).isLt
  have hi1 : (i 1).val < 128 := (i 1).isLt
  have hN : (cfg0 a0).N = 256 := N_0
  have ht : (i 0).val / 16 < (cfg0 a0).N := by rw [hN]; omega
  obtain ⟨e0, e1⟩ := idx21 a0 ⟨(i 0).val / 16, ht⟩
  have e0' : ((cfg0 a0).win 21).index ⟨(i 0).val / 16, ht⟩ (0 : Fin 2) = (i 0).val / 16 := e0
  refine ⟨⟨(i 0).val / 16, ht⟩, flush21 a0 _, ?_⟩
  rw [mem_blk21]
  intro a
  match a with
  | ⟨0, _⟩ =>
    show ((cfg0 a0).win 21).index ⟨(i 0).val / 16, ht⟩ (0 : Fin 2) * 16 ≤ (i 0).val
      ∧ (i 0).val < ((cfg0 a0).win 21).index ⟨(i 0).val / 16, ht⟩ (0 : Fin 2) * 16 + 16
    rw [e0']; omega
  | ⟨1, _⟩ =>
    show ((cfg0 a0).win 21).index ⟨(i 0).val / 16, ht⟩ (1 : Fin 2) * 128 ≤ (i 1).val
      ∧ (i 1).val < ((cfg0 a0).win 21).index ⟨(i 0).val / 16, ht⟩ (1 : Fin 2) * 128 + 128
    rw [e1]; omega

/-- After the region the sixth result array holds the item embeddings, row by row. -/
theorem arr0_21 (c : Dev nD) (h : IdsOk V c) :
    (dat0 a0 V c h).arrAt 21 (cfg0 a0).N = Spec.itemEmb (argsAt V c h) :=
  (dat0 a0 V c h).arrAt_eq_of_cover 21 (Spec.itemEmb (argsAt V c h)) (fun t _ => flushed21_eq a0 V c h t) (cover21 a0)

end Region

end Cert.KernelIdeal.Hand

end
-- ==== Proof.KI.ScatterFold.lean ====
/- The scatter region's four tables after its last grid point, in closed form. The input windows' blocks tile the two
   update arrays sixteen rows at a time: the block at point t is rows 16·t … 16·t + 15 of the array (the index map sends
   point t to block (t, 0), and a block's element sits at block index × block size + its own coordinate). So a point's
   16 ordered row writes are the next 16 steps of the row-by-row recurrence over all 4096 update rows, and after the 256
   points each table is the recurrence's result after 4096 steps. -/
import proofs.«423553_j10307921510829_1_alg».proof.Proof.KI.ScatterStep
import proofs.«423553_j10307921510829_1_alg».proof.Proof.ScatterRows

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Proof.ScatterRows (rowsAfter128 rowsAfter1 rowsAfter128_succ rowsAfter1_succ)

variable {F : FTy → Type} [FloatOps F]

section Region

variable (a1 : (pcfg1 (F := F)).Adm)
variable (V : (c : Dev nD) → (b : Ref sig .tc) → Buf (Elt F) ((c : Thread nD τ).loc b))

/-- The scatter region's grid has 256 points. -/
theorem cfg1_N : (cfg1 a1).N = 256 := Gen.N_1

/-- Either input window's block index at point t is (t, 0). -/
theorem win1_0_index (t : Fin (cfg1 a1).N) :
    ((cfg1 a1).win 0).index t (0 : Fin 2) = t.val ∧ ((cfg1 a1).win 0).index t (1 : Fin 2) = 0 := by
  have ht : t.val < 256 := (cfg1_N a1) ▸ t.isLt
  refine ⟨?_, rfl⟩
  show (BitVec.ofNat 32 ((grid1.coords t) 0).val).toNat = t.val
  rw [coords1_val, BitVec.toNat_ofNat]
  omega

theorem win1_1_index (t : Fin (cfg1 a1).N) :
    ((cfg1 a1).win 1).index t (0 : Fin 2) = t.val ∧ ((cfg1 a1).win 1).index t (1 : Fin 2) = 0 := by
  have ht : t.val < 256 := (cfg1_N a1) ▸ t.isLt
  refine ⟨?_, rfl⟩
  show (BitVec.ofNat 32 ((grid1.coords t) 0).val).toNat = t.val
  rw [coords1_val, BitVec.toNat_ofNat]
  omega

/-- The first input window's block at point t is rows 16·t … 16·t + 15 of the first update array. -/
theorem iblk1_0 (c : Dev nD) (t : Fin (cfg1 a1).N) :
    iblk1 a1 V c 0 t = fun q : S16x128.Idx =>
      (Memref.whole main_v0_2).view.read (Elt F) (V c main_v0_2)
        (ValueIdx.ix2 (⟨16 * t.val + (q 0).val, by
          have ht : t.val < 256 := (cfg1_N a1) ▸ t.isLt
          have hq : (q 0).val < 16 := (q 0).isLt
          omega⟩ : Fin 4096) (q 1 : Fin 128)) := by
  obtain ⟨e0, e1⟩ := win1_0_index a1 t
  refine funext fun (q : S16x128.Idx) => ?_
  show (Memref.whole main_v0_2).view.read (Elt F) (V c main_v0_2) ((((cfg1 a1).win 0).rect t).emb q) = _
  congr 1
  funext a
  apply Fin.ext
  match a with
  | ⟨0, _⟩ =>
    show ((cfg1 a1).win 0).index t (0 : Fin 2) * 16 + 1 * (q 0).val = 16 * t.val + (q 0).val
    rw [e0]; omega
  | ⟨1, _⟩ =>
    show ((cfg1 a1).win 0).index t (1 : Fin 2) * 128 + 1 * (q 1).val = (q 1).val
    rw [e1]; omega

/-- The second input window's block at point t is rows 16·t … 16·t + 15 of the second update array. -/
theorem iblk1_1 (c : Dev nD) (t : Fin (cfg1 a1).N) :
    iblk1 a1 V c 1 t = fun q : S16x128.Idx =>
      (Memref.whole main_v0_4).view.read (Elt F) (V c main_v0_4)
        (ValueIdx.ix2 (⟨16 * t.val + (q 0).val, by
          have ht : t.val < 256 := (cfg1_N a1) ▸ t.isLt
          have hq : (q 0).val < 16 := (q 0).isLt
          omega⟩ : Fin 4096) (q 1 : Fin 128)) := by
  obtain ⟨e0, e1⟩ := win1_1_index a1 t
  refine funext fun (q : S16x128.Idx) => ?_
  show (Memref.whole main_v0_4).view.read (Elt F) (V c main_v0_4) ((((cfg1 a1).win 1).rect t).emb q) = _
  congr 1
  funext a
  apply Fin.ext
  match a with
  | ⟨0, _⟩ =>
    show ((cfg1 a1).win 1).index t (0 : Fin 2) * 16 + 1 * (q 0).val = 16 * t.val + (q 0).val
    rw [e0]; omega
  | ⟨1, _⟩ =>
    show ((cfg1 a1).win 1).index t (1 : Fin 2) * 128 + 1 * (q 1).val = (q 1).val
    rw [e1]; omega

/-! ## The tables after n points are the row-by-row recurrence after 16·n rows -/

/-- The row numbers of point n's 16 rows, as the 16 table entries at positions 16·n, …, 16·n + 15. -/
theorem idsAt_eq (ids : Fin 4096 → ℕ) (n : ℕ) (hn : n < 256) :
    idsAt ids n = fun p : Fin 16 => ids ⟨16 * n + p.val, by omega⟩ := by
  funext p
  have h : 16 * n + p.val < 4096 := by omega
  unfold idsAt
  rw [dif_pos h]

/-- The first table after n points: the first update array's first 16·n rows written one after the other at the rows the
    user ids name. -/
theorem tabU_eq_rowsAfter (c : Dev nD) : ∀ n : ℕ, n ≤ 256 →
    tabU a1 V c n
      = rowsAfter128 ((Memref.whole main_v1_0).view.read (Elt F) (V c main_v1_0)) (idU V c)
          ((Memref.whole main_v0_2).view.read (Elt F) (V c main_v0_2)) (16 * n)
  | 0, _ => rfl
  | n + 1, hn => by
    have h : n < (cfg1 a1).N := by rw [cfg1_N]; omega
    have hstep : tabU a1 V c (n + 1)
        = rows16_128 (tabU a1 V c n) (idsAt (idU V c) n) (iblk1 a1 V c 0 ⟨n, h⟩) := by
      show (if h' : n < (cfg1 a1).N then rows16_128 (tabU a1 V c n) (idsAt (idU V c) n) (iblk1 a1 V c 0 ⟨n, h'⟩)
        else tabU a1 V c n) = _
      rw [dif_pos h]
    rw [hstep, tabU_eq_rowsAfter c n (by omega), iblk1_0, idsAt_eq (idU V c) n (by omega)]
    exact rows16_128_eq_of_succ
      (rowsAfter128 ((Memref.whole main_v1_0).view.read (Elt F) (V c main_v1_0)) (idU V c)
        ((Memref.whole main_v0_2).view.read (Elt F) (V c main_v0_2)))
      (idU V c) ((Memref.whole main_v0_2).view.read (Elt F) (V c main_v0_2))
      (fun m hm => by funext i; rw [rowsAfter128_succ, dif_pos hm]; rfl) n (by omega)

/-- The second table after n points, likewise by the item ids and the second update array. -/
theorem tabI_eq_rowsAfter (c : Dev nD) : ∀ n : ℕ, n ≤ 256 →
    tabI a1 V c n
      = rowsAfter128 ((Memref.whole main_v1_1).view.read (Elt F) (V c main_v1_1)) (idI V c)
          ((Memref.whole main_v0_4).view.read (Elt F) (V c main_v0_4)) (16 * n)
  | 0, _ => rfl
  | n + 1, hn => by
    have h : n < (cfg1 a1).N := by rw [cfg1_N]; omega
    have hstep : tabI a1 V c (n + 1)
        = rows16_128 (tabI a1 V c n) (idsAt (idI V c) n) (iblk1 a1 V c 1 ⟨n, h⟩) := by
      show (if h' : n < (cfg1 a1).N then rows16_128 (tabI a1 V c n) (idsAt (idI V c) n) (iblk1 a1 V c 1 ⟨n, h'⟩)
        else tabI a1 V c n) = _
      rw [dif_pos h]
    rw [hstep, tabI_eq_rowsAfter c n (by omega), iblk1_1, idsAt_eq (idI V c) n (by omega)]
    exact rows16_128_eq_of_succ
      (rowsAfter128 ((Memref.whole main_v1_1).view.read (Elt F) (V c main_v1_1)) (idI V c)
        ((Memref.whole main_v0_4).view.read (Elt F) (V c main_v0_4)))
      (idI V c) ((Memref.whole main_v0_4).view.read (Elt F) (V c main_v0_4))
      (fun m hm => by funext i; rw [rowsAfter128_succ, dif_pos hm]; rfl) n (by omega)

/-- The first flag column after n points: the zero word written at the first 16·n entries the user ids name. -/
theorem flagU_eq_rowsAfter (c : Dev nD) : ∀ n : ℕ, n ≤ 256 →
    flagU V c n
      = rowsAfter1 ((Memref.whole main_v1_2).view.read (Elt F) (V c main_v1_2)) (idU V c)
          (fun _ => zeroWord (F := F)) (16 * n)
  | 0, _ => rfl
  | n + 1, hn => by
    show rowsConst16 (flagU V c n) (idsAt (idU V c) n) (zeroWord (F := F)) = _
    rw [flagU_eq_rowsAfter c n (by omega), idsAt_eq (idU V c) n (by omega)]
    exact rowsConst16_eq_of_succ
      (rowsAfter1 ((Memref.whole main_v1_2).view.read (Elt F) (V c main_v1_2)) (idU V c) (fun _ => zeroWord (F := F)))
      (idU V c) (zeroWord (F := F))
      (fun m hm => by funext i; rw [rowsAfter1_succ, dif_pos hm]; rfl) n (by omega)

/-- The second flag column after n points, likewise by the item ids. -/
theorem flagI_eq_rowsAfter (c : Dev nD) : ∀ n : ℕ, n ≤ 256 →
    flagI V c n
      = rowsAfter1 ((Memref.whole main_v1_3).view.read (Elt F) (V c main_v1_3)) (idI V c)
          (fun _ => zeroWord (F := F)) (16 * n)
  | 0, _ => rfl
  | n + 1, hn => by
    show rowsConst16 (flagI V c n) (idsAt (idI V c) n) (zeroWord (F := F)) = _
    rw [flagI_eq_rowsAfter c n (by omega), idsAt_eq (idI V c) n (by omega)]
    exact rowsConst16_eq_of_succ
      (rowsAfter1 ((Memref.whole main_v1_3).view.read (Elt F) (V c main_v1_3)) (idI V c) (fun _ => zeroWord (F := F)))
      (idI V c) (zeroWord (F := F))
      (fun m hm => by funext i; rw [rowsAfter1_succ, dif_pos hm]; rfl) n (by omega)

/-! ## After the last point -/

/-- The first table after all 256 points: all 4096 rows of the first update array written one after the other at the rows
    the user ids name. -/
theorem tabU_last (c : Dev nD) :
    tabU a1 V c 256
      = rowsAfter128 ((Memref.whole main_v1_0).view.read (Elt F) (V c main_v1_0)) (idU V c)
          ((Memref.whole main_v0_2).view.read (Elt F) (V c main_v0_2)) 4096 :=
  tabU_eq_rowsAfter a1 V c 256 (Nat.le_refl 256)

theorem tabI_last (c : Dev nD) :
    tabI a1 V c 256
      = rowsAfter128 ((Memref.whole main_v1_1).view.read (Elt F) (V c main_v1_1)) (idI V c)
          ((Memref.whole main_v0_4).view.read (Elt F) (V c main_v0_4)) 4096 :=
  tabI_eq_rowsAfter a1 V c 256 (Nat.le_refl 256)

/-- The first flag column after all 256 points: the zero word written at the 4096 entries the user ids name. -/
theorem flagU_last (c : Dev nD) :
    flagU V c 256
      = rowsAfter1 ((Memref.whole main_v1_2).view.read (Elt F) (V c main_v1_2)) (idU V c)
          (fun _ => zeroWord (F := F)) 4096 :=
  flagU_eq_rowsAfter V c 256 (Nat.le_refl 256)

theorem flagI_last (c : Dev nD) :
    flagI V c 256
      = rowsAfter1 ((Memref.whole main_v1_3).view.read (Elt F) (V c main_v1_3)) (idI V c)
          (fun _ => zeroWord (F := F)) 4096 :=
  flagI_eq_rowsAfter V c 256 (Nat.le_refl 256)

end Region

end Cert.KernelIdeal.Hand

end
-- ==== Proof.KI.Values.lean ====
/- The ten result buffers of the final memory, walked back to the launch memory. The first region's six result arrays
   are written by nothing after it: the second region changes only its four tables and the host copies write only those
   four buffers, so at the end each of the six holds what the first region's write-backs fold to, which is the
   specification's array over the launch arguments. Each of the second region's four tables holds the row-by-row
   recurrence over all 4096 update rows, started from what the host copy put there — the launch contents of the
   argument it copies — with the row numbers read off the launch id columns (no region and no copy writes an argument)
   and, for the two embedding tables, the update rows the first region left in its third and fifth result arrays. -/
import proofs.«423553_j10307921510829_1_alg».proof.Proof.KI.Segs
import proofs.«423553_j10307921510829_1_alg».proof.Proof.KI.Arrays0
import proofs.«423553_j10307921510829_1_alg».proof.Proof.KI.ScatterFold

set_option maxRecDepth 16384

noncomputable section

namespace Cert.KernelIdeal.Hand

open Cert.KernelIdeal Cert.KernelIdeal.Gen
open Idealize.ShloMosaic Idealize.ShloMosaic.TcCoe
open Cert.Proof.ScatterRows (rowsAfter128 rowsAfter1)

variable {F : FTy → Type} [FloatOps F]

variable (m : (ℓ : Loc nD τ sig) → Buf (Elt F) ℓ) (hids : ∀ c, IdsOk (U0 m) c)

section Values

variable (c : Dev nD)

/-! ## The first region's six results at the end -/

/-- The item predictions. -/
theorem val_v0_0 : V3 m (outs m hids) c main_v0_0 = Spec.itemPred (argsAt (U0 m) c (hids c)) :=
  (V3_of m _ c main_v0_0 (by decide)).trans <| (V2_of m _ c main_v0_0 (by decide)).trans <|
    (V1_arr m hids c 16).trans (arr0_16 (adm0 m) (U0 m) c (hids c))

/-- The item targets. -/
theorem val_v0_1 : V3 m (outs m hids) c main_v0_1 = Spec.itemTarget (argsAt (U0 m) c (hids c)) :=
  (V3_of m _ c main_v0_1 (by decide)).trans <| (V2_of m _ c main_v0_1 (by decide)).trans <|
    (V1_arr m hids c 17).trans (arr0_17 (adm0 m) (U0 m) c (hids c))

/-- The updated user embeddings. -/
theorem val_v0_2 : V3 m (outs m hids) c main_v0_2 = Spec.updUser (argsAt (U0 m) c (hids c)) :=
  (V3_of m _ c main_v0_2 (by decide)).trans <| (V2_of m _ c main_v0_2 (by decide)).trans <|
    (V1_arr m hids c 18).trans (arr0_18 (adm0 m) (U0 m) c (hids c))

/-- The user embeddings. -/
theorem val_v0_3 : V3 m (outs m hids) c main_v0_3 = Spec.userEmb (argsAt (U0 m) c (hids c)) :=
  (V3_of m _ c main_v0_3 (by decide)).trans <| (V2_of m _ c main_v0_3 (by decide)).trans <|
    (V1_arr m hids c 19).trans (arr0_19 (adm0 m) (U0 m) c (hids c))

/-- The updated item embeddings. -/
theorem val_v0_4 : V3 m (outs m hids) c main_v0_4 = Spec.updItem (argsAt (U0 m) c (hids c)) :=
  (V3_of m _ c main_v0_4 (by decide)).trans <| (V2_of m _ c main_v0_4 (by decide)).trans <|
    (V1_arr m hids c 20).trans (arr0_20 (adm0 m) (U0 m) c (hids c))

/-- The item embeddings. -/
theorem val_v0_5 : V3 m (outs m hids) c main_v0_5 = Spec.itemEmb (argsAt (U0 m) c (hids c)) :=
  (V3_of m _ c main_v0_5 (by decide)).trans <| (V2_of m _ c main_v0_5 (by decide)).trans <|
    (V1_arr m hids c 21).trans (arr0_21 (adm0 m) (U0 m) c (hids c))

/-! ## What the second region finds -/

/-- A buffer that neither the first region nor a host copy writes is, when the second region is entered, as launched. -/
theorem U2_arg (r : Ref sig .tc) (h2 : r ∉ hostOps1_W)
    (h1 : r ∉ ([main_v0_0, main_v0_1, main_v0_2, main_v0_3, main_v0_4, main_v0_5] : List (Ref sig .tc))) :
    U2 m hids c r = m ((c : Thread nD τ).loc r) :=
  (V2_of m _ c r h2).trans <| (V1_of m _ c r h1).trans rfl

/-- The first host copy puts the launch contents of the dynamic user table into the first table. -/
theorem U2_v1_0 : U2 m hids c main_v1_0 = m ((c : Thread nD τ).loc main_arg5) := by
  show StableHlo.after hostOps1 (V1 m (outs1 m hids) c) (Proc.devRef .tc main_v1_0) = _
  simp only [hostOps1]
  after_results
  exact (V1_of m _ c main_arg5 (by decide)).trans rfl

/-- The second puts the dynamic item table into the second table. -/
theorem U2_v1_1 : U2 m hids c main_v1_1 = m ((c : Thread nD τ).loc main_arg6) := by
  show StableHlo.after hostOps1 (V1 m (outs1 m hids) c) (Proc.devRef .tc main_v1_1) = _
  simp only [hostOps1]
  after_results
  exact (V1_of m _ c main_arg6 (by decide)).trans rfl

/-- The third puts the users' flag column into the first flag column. -/
theorem U2_v1_2 : U2 m hids c main_v1_2 = m ((c : Thread nD τ).loc main_arg7) := by
  show StableHlo.after hostOps1 (V1 m (outs1 m hids) c) (Proc.devRef .tc main_v1_2) = _
  simp only [hostOps1]
  after_results
  exact (V1_of m _ c main_arg7 (by decide)).trans rfl

/-- The fourth puts the items' flag column into the second flag column. -/
theorem U2_v1_3 : U2 m hids c main_v1_3 = m ((c : Thread nD τ).loc main_arg8) := by
  show StableHlo.after hostOps1 (V1 m (outs1 m hids) c) (Proc.devRef .tc main_v1_3) = _
  simp only [hostOps1]
  after_results
  exact (V1_of m _ c main_arg8 (by decide)).trans rfl

/-- The row numbers the second region scatters by are the launch user ids, -/
theorem idU_U2 : idU (U2 m hids) c = fun k => (m ((c : Thread nD τ).loc main_arg0) (ValueIdx.ix1 k)).toNat := by
  funext k
  show (U2 m hids c main_arg0 (ValueIdx.ix1 k)).toNat = _
  rw [U2_arg m hids c main_arg0 (by decide) (by decide)]

/-- and the launch item ids. -/
theorem idI_U2 : idI (U2 m hids) c = fun k => (m ((c : Thread nD τ).loc main_arg2) (ValueIdx.ix1 k)).toNat := by
  funext k
  show (U2 m hids c main_arg2 (ValueIdx.ix1 k)).toNat = _
  rw [U2_arg m hids c main_arg2 (by decide) (by decide)]

/-- The first update array is the first region's third result: the updated user embeddings. -/
theorem U2_v0_2 : U2 m hids c main_v0_2 = Spec.updUser (argsAt (U0 m) c (hids c)) :=
  (V2_of m _ c main_v0_2 (by decide)).trans <| (congrFun (V1_outs m hids c) (Proc.devRef .tc main_v0_2)).symm.trans <|
    (V1_arr m hids c 18).trans (arr0_18 (adm0 m) (U0 m) c (hids c))

/-- The second update array is the first region's fifth result: the updated item embeddings. -/
theorem U2_v0_4 : U2 m hids c main_v0_4 = Spec.updItem (argsAt (U0 m) c (hids c)) :=
  (V2_of m _ c main_v0_4 (by decide)).trans <| (congrFun (V1_outs m hids c) (Proc.devRef .tc main_v0_4)).symm.trans <|
    (V1_arr m hids c 20).trans (arr0_20 (adm0 m) (U0 m) c (hids c))

/-! ## The second region's four tables at the end -/

/-- The first table at the end: the dynamic user table as launched, with the 4096 rows of updated user embeddings written
    one after the other at the rows the launch user ids name. -/
theorem val_v1_0 : V3 m (outs m hids) c main_v1_0
    = rowsAfter128 (m ((c : Thread nD τ).loc main_arg5)) (fun k => (m ((c : Thread nD τ).loc main_arg0) (ValueIdx.ix1 k)).toNat)
        (Spec.updUser (argsAt (U0 m) c (hids c))) 4096 :=
  (V3_v1_0 m hids c).trans <| (tabU_last (adm1 m) (U2 m hids) c).trans <| by
    simp only [Memref.view_whole, View.read_whole]
    rw [U2_v1_0 m hids c, idU_U2 m hids c, U2_v0_2 m hids c]

/-- The second table at the end: the dynamic item table as launched, with the 4096 rows of updated item embeddings written
    one after the other at the rows the launch item ids name. -/
theorem val_v1_1 : V3 m (outs m hids) c main_v1_1
    = rowsAfter128 (m ((c : Thread nD τ).loc main_arg6)) (fun k => (m ((c : Thread nD τ).loc main_arg2) (ValueIdx.ix1 k)).toNat)
        (Spec.updItem (argsAt (U0 m) c (hids c))) 4096 :=
  (V3_v1_1 m hids c).trans <| (tabI_last (adm1 m) (U2 m hids) c).trans <| by
    simp only [Memref.view_whole, View.read_whole]
    rw [U2_v1_1 m hids c, idI_U2 m hids c, U2_v0_4 m hids c]

/-- The first flag column at the end: the users' flag column as launched, with the zero word written at the 4096 entries
    the launch user ids name. -/
theorem val_v1_2 : V3 m (outs m hids) c main_v1_2
    = rowsAfter1 (m ((c : Thread nD τ).loc main_arg7)) (fun k => (m ((c : Thread nD τ).loc main_arg0) (ValueIdx.ix1 k)).toNat)
        (fun _ => zeroWord (F := F)) 4096 :=
  (V3_v1_2 m hids c).trans <| (flagU_last (U2 m hids) c).trans <| by
    simp only [Memref.view_whole, View.read_whole]
    rw [U2_v1_2 m hids c, idU_U2 m hids c]

/-- The second flag column at the end: the items' flag column as launched, with the zero word written at the 4096
    entries the launch item ids name. -/
theorem val_v1_3 : V3 m (outs m hids) c main_v1_3
    = rowsAfter1 (m ((c : Thread nD τ).loc main_arg8)) (fun k => (m ((c : Thread nD τ).loc main_arg2) (ValueIdx.ix1 k)).toNat)
        (fun _ => zeroWord (F := F)) 4096 :=
  (V3_v1_3 m hids c).trans <| (flagI_last (U2 m hids) c).trans <| by
    simp only [Memref.view_whole, View.read_whole]
    rw [U2_v1_3 m hids c, idI_U2 m hids c]

end Values

end Cert.KernelIdeal.Hand

end
-- ==== Proof.K.RunCond.lean ====
/- The run of @main from the two kernel regions' records, with the final memory read whole. The program is: the first kernel
   region, four host copies (each table argument copied into the buffer the second region overwrites), the second kernel
   region. Given, for each region, a record of its obligations entered from and left at the stated buffer contents, every
   weakly fair execution terminates, and in the final memory EVERY buffer that outlives a region holds what the last
   boundary's valuation says: the arguments their launch contents, the first region's six results and the second region's
   four tables what the records say the regions leave. (The frame claim keeps only the arguments of this; the value claim
   reads the ten results.) -/
import proofs.«423553_j10307921510829_1_alg».proof.Proof.Gen.Kernel.Regions

set_option maxRecDepth 3328

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
/-- From the two regions' records to the run: termination, and the whole final memory of the buffers that outlive the
    regions, on every core. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V3 m outs c b) := by
  refine Pipeline.θ_run_regions_kit_dev (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨hpre0 c, hpost0 c, hpre1 c, (hpost1 c).trans (sep_mono .rfl (hE2 c))⟩)
    (hinit := ?_) (QY := fun c s => ∀ b ∈ Pipeline.ucRefs τ sig, s.mem (((c : Thread nD τ)).1, b) = V3 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last valuation read against the final state, buffer by buffer
    unfold StableHlo.held
    iintro ⟨Hh, HSI⟩
    imodintro
    iapply (pointsTo_read_all (Pipeline.ucRefs τ sig) (fun b => (((c : Thread nD τ)).1, b)) (V3 m outs c) s')
    isplitl [Hh] <;> iassumption

end Cert.Kernel.Hand

end
-- ==== Proof.K.Basics.lean ====
/- Shared vocabulary of the hand frame of the two kernel regions: the resource algebra (the pipeline library's rounds
   copy beside the transfers' counters), a whole buffer held at given contents, and the arithmetic fact behind every
   side condition the kernel bodies assume of a table word: a 32-bit word whose unsigned value is below 200000 names a
   row of a 200000-row table, so the one-row slice at that row lies inside the table. -/
import proofs.«423553_j10307921510829_1_alg».proof.Proof.Gen.Kernel
import proofs.«423553_j10307921510829_1_alg».proof.Proof.Gen.Kernel.Skeleton
import proofs.«423553_j10307921510829_1_alg».proof.Proof.Gen.Kernel.Launch
import Idealize.ShloMosaic.Lib.Transfers
import Idealize.ShloMosaic.Lib.Writes
import Idealize.ShloMosaic.Lib.Pipeline.FrameBody
import Idealize.ShloMosaic.Lib.Pipeline.Frame
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents type of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole, at the full share, at contents `f`. -/
abbrev pt (c : Dev nD) {sp : Space} {S : Shape} {e : EltTy} (M : Memref sig .tc sp S e) (f : Bf (F := F) c M) :
    sProp (MT nD τ sig Unit (Elt F) ℕ (Pipeline.UD sig nD τ) ℕ) :=
  M.view.loc (c : Thread nD τ) ↦{fullShare} f

/-- Every word read from the table held at `tb` is, unsigned, a row number of a 200000-row table. -/
abbrev RowWords (c : Dev nD) (M : Memref sig .tc .smem S4096 .i32) (tb : Bf (F := F) c M) : Prop :=
  ∀ (r : LoadRect S4096) (y : r.shape.Idx), (View.readAt (Elt F) M.view r tb y).toNat < 200000

/-- A row number below 200000: the 1×128 slice and the 1×1 slice at that row lie inside a 200000-row table. -/
theorem rowFits2 (v : BitVec 32) (h : v.toNat < 200000) :
    (∀ a : Fin 2, (![v.toNat, 0] : Fin 2 → ℕ) a + S1x128.size a ≤ S200000x128.size a)
      ∧ (∀ a : Fin 2, (![v.toNat, 0] : Fin 2 → ℕ) a + S1x1.size a ≤ S200000x1.size a) := by
  refine ⟨fun a => ?_, fun a => ?_⟩
  · match a with
    | ⟨0, _⟩ => show v.toNat + 1 ≤ 200000; omega
    | ⟨1, _⟩ => show 0 + 128 ≤ 128; omega
  · match a with
    | ⟨0, _⟩ => show v.toNat + 1 ≤ 200000; omega
    | ⟨1, _⟩ => show 0 + 1 ≤ 1; omega

/-- The same for a word that addresses two 128-wide tables and one 1-wide table. -/
theorem rowFits3 (v : BitVec 32) (h : v.toNat < 200000) :
    (∀ a : Fin 2, (![v.toNat, 0] : Fin 2 → ℕ) a + S1x128.size a ≤ S200000x128.size a)
      ∧ (∀ a : Fin 2, (![v.toNat, 0] : Fin 2 → ℕ) a + S1x128.size a ≤ S200000x128.size a)
      ∧ (∀ a : Fin 2, (![v.toNat, 0] : Fin 2 → ℕ) a + S1x1.size a ≤ S200000x1.size a) :=
  ⟨(rowFits2 v h).1, (rowFits2 v h).1, (rowFits2 v h).2⟩

end Cert.Kernel.Hand

end
-- ==== Proof.K.Spec.lean ====
/- What the first kernel region computes, as plain functions of the argument arrays. At grid point t (0 ≤ t < 256) the
   kernel gathers, for each of the 16 rows p of the point, row ids[16t + p] of a table into row p of a 16-row block — the
   dynamic and static embedding tables and the "is new" flag columns, by the user ids, the item ids and the previous-item
   ids —, and then computes its six output blocks from those gathered blocks, the point's two blocks of time deltas and
   the whole weight arrays:
     user_emb   = is_user_new[uid] · initial_user + dynamic_user[uid]
     item_emb   = is_item_new[iid] · initial_item + dynamic_item[iid]
     item_pred  = concat(user_emb · (1 + t_pi · td_Wᵀ + td_b), prev_item_emb, static_item[pid], static_user[uid]) · pred_Wᵀ + pred_b
     item_target = concat(item_emb, static_item[iid])
     updated_user = tanh(concat(item_emb, t_pi) · Wihᵀ + bih + user_emb · Whhᵀ + bhh), and the same for the item with the
     roles of user and item exchanged and t_pu for t_pi.
   The arithmetic is the kernel body's own (its named payloads); this module only says which block each payload is fed. -/
import proofs.«423553_j10307921510829_1_alg».proof.Proof.Gen.Kernel.Skeleton
import Idealize.ShloMosaic.Lib.ValueIdx

noncomputable section

namespace Cert.Kernel.Spec

open Cert.Kernel Cert.Kernel.Gen Idealize.ShloMosaic

variable {F : FTy → Type} [FloatOps F]

/-- Row `16t + p` of the batch, as an index below 4096. -/
def batchRow (t : Fin 256) (p : Fin 16) : Fin 4096 := ⟨16 * t.val + p.val, by omega⟩

/-- The 16 rows of a 128-wide table that the ids of point `t` name, as one block. -/
def gather128 (tbl : Vec F S200000x128 .f32) (ids : Fin 4096 → Fin 200000) (t : Fin 256) : Vec F S16x128 .f32 :=
  fun y => tbl (ValueIdx.ix2 (ids (batchRow t (y 0))) (y 1))

/-- The same for a one-column table. -/
def gather1 (tbl : Vec F S200000x1 .f32) (ids : Fin 4096 → Fin 200000) (t : Fin 256) : Vec F S16x1 .f32 :=
  fun y => tbl (ValueIdx.ix2 (ids (batchRow t (y 0))) (y 1))

/-- Block `t` (16 rows) of a batch column. -/
def block1 (x : Vec F S4096x1 .f32) (t : Fin 256) : Vec F S16x1 .f32 :=
  fun y => x (ValueIdx.ix2 (batchRow t (y 0)) (y 1))

/-- The argument arrays the first region reads, bundled: the three id columns as row numbers, and the float arrays. -/
structure Args (F : FTy → Type) [FloatOps F] where
  uid : Fin 4096 → Fin 200000
  iid : Fin 4096 → Fin 200000
  pid : Fin 4096 → Fin 200000
  tpi : Vec F S4096x1 .f32
  tpu : Vec F S4096x1 .f32
  dynU : Vec F S200000x128 .f32
  dynI : Vec F S200000x128 .f32
  statU : Vec F S200000x128 .f32
  statI : Vec F S200000x128 .f32
  isU : Vec F S200000x1 .f32
  isI : Vec F S200000x1 .f32
  initU : Vec F S1x128 .f32
  initI : Vec F S1x128 .f32
  uWih : Vec F S128x129 .f32
  uWhh : Vec F S128x128 .f32
  ubih : Vec F S128 .f32
  ubhh : Vec F S128 .f32
  iWih : Vec F S128x129 .f32
  iWhh : Vec F S128x128 .f32
  ibih : Vec F S128 .f32
  ibhh : Vec F S128 .f32
  predW : Vec F S256x512 .f32
  predb : Vec F S256 .f32
  tdW : Vec F S128x1 .f32
  tdb : Vec F S128 .f32

/-- The bundle read off @main's 25 argument arrays, in @main's order: user_id, prev_item_id, item_id (32-bit words whose
    unsigned values are row numbers), the two time columns, the two dynamic tables, the two flag columns, the two static
    tables, the two initial embeddings, the user cell's and the item cell's weights and biases, the prediction head's, the
    time projection's. -/
def Args.ofMem (a0 a1 a2 : IVec S4096 32)
    (h0 : ∀ j : S4096.Idx, (a0 j).toNat < 200000) (h1 : ∀ j : S4096.Idx, (a1 j).toNat < 200000) (h2 : ∀ j : S4096.Idx, (a2 j).toNat < 200000)
    (a3 a4 : Vec F S4096x1 .f32) (a5 a6 : Vec F S200000x128 .f32) (a7 a8 : Vec F S200000x1 .f32) (a9 a10 : Vec F S200000x128 .f32)
    (a11 a12 : Vec F S1x128 .f32) (a13 : Vec F S128x129 .f32) (a14 : Vec F S128x128 .f32) (a15 a16 : Vec F S128 .f32)
    (a17 : Vec F S128x129 .f32) (a18 : Vec F S128x128 .f32) (a19 a20 : Vec F S128 .f32)
    (a21 : Vec F S256x512 .f32) (a22 : Vec F S256 .f32) (a23 : Vec F S128x1 .f32) (a24 : Vec F S128 .f32) : Args F where
  uid k := ⟨(a0 (ValueIdx.ix1 k)).toNat, h0 _⟩
  pid k := ⟨(a1 (ValueIdx.ix1 k)).toNat, h1 _⟩
  iid k := ⟨(a2 (ValueIdx.ix1 k)).toNat, h2 _⟩
  tpi := a3
  tpu := a4
  dynU := a5
  dynI := a6
  isU := a7
  isI := a8
  statU := a9
  statI := a10
  initU := a11
  initI := a12
  uWih := a13
  uWhh := a14
  ubih := a15
  ubhh := a16
  iWih := a17
  iWhh := a18
  ibih := a19
  ibhh := a20
  predW := a21
  predb := a22
  tdW := a23
  tdb := a24

variable (A : Args F)

/-- The six output blocks at point `t`. -/
def userEmbBlk (t : Fin 256) : Vec F S16x128 .f32 := k0_pay1 (gather1 A.isU A.uid t) A.initU (gather128 A.dynU A.uid t)
def itemEmbBlk (t : Fin 256) : Vec F S16x128 .f32 := k0_pay2 (gather1 A.isI A.iid t) A.initI (gather128 A.dynI A.iid t)
def concatBlk (t : Fin 256) : Vec F S16x512 .f32 :=
  k0_pay3 (userEmbBlk A t) (gather1 A.isI A.pid t) A.initI (gather128 A.dynI A.pid t) (gather128 A.statU A.uid t)
    (gather128 A.statI A.pid t) (block1 A.tpi t) A.tdW A.tdb
def itemPredBlk (t : Fin 256) : Vec F S16x256 .f32 := k0_pay4 (concatBlk A t) A.predW A.predb
def itemTargetBlk (t : Fin 256) : Vec F S16x256 .f32 := k0_pay5 (itemEmbBlk A t) (gather128 A.statI A.iid t)
def updUserBlk (t : Fin 256) : Vec F S16x128 .f32 :=
  k0_pay6 (userEmbBlk A t) (itemEmbBlk A t) (block1 A.tpi t) A.uWih A.ubih A.uWhh A.ubhh
def updItemBlk (t : Fin 256) : Vec F S16x128 .f32 :=
  k0_pay7 (userEmbBlk A t) (itemEmbBlk A t) (block1 A.tpu t) A.iWih A.ibih A.iWhh A.ibhh

/-- A batch array assembled from its 256 blocks of 16 rows: row `i` is row `i % 16` of block `i / 16`. -/
def ofBlocks128 (blk : Fin 256 → Vec F S16x128 .f32) : Vec F S4096x128 .f32 :=
  fun i => blk ⟨(i 0).val / 16, by have h : (i 0).val < 4096 := (i 0).isLt; omega⟩ (ValueIdx.ix2 ⟨(i 0).val % 16, by omega⟩ (i 1))
def ofBlocks256 (blk : Fin 256 → Vec F S16x256 .f32) : Vec F S4096x256 .f32 :=
  fun i => blk ⟨(i 0).val / 16, by have h : (i 0).val < 4096 := (i 0).isLt; omega⟩ (ValueIdx.ix2 ⟨(i 0).val % 16, by omega⟩ (i 1))

/-- The first region's six result arrays. -/
def itemPred : Vec F S4096x256 .f32 := ofBlocks256 (itemPredBlk A)
def itemTarget : Vec F S4096x256 .f32 := ofBlocks256 (itemTargetBlk A)
def updUser : Vec F S4096x128 .f32 := ofBlocks128 (updUserBlk A)
def userEmb : Vec F S4096x128 .f32 := ofBlocks128 (userEmbBlk A)
def updItem : Vec F S4096x128 .f32 := ofBlocks128 (updItemBlk A)
def itemEmb : Vec F S4096x128 .f32 := ofBlocks128 (itemEmbBlk A)

end Cert.Kernel.Spec

end
-- ==== Proof.K.Data0.lean ====
/- The first kernel region (gather and compute): its invariant and its proof data. The region reads six tables it is
   handed in place (the two dynamic tables, the two static tables, the two flag columns), the three tables of row numbers,
   sixteen staged inputs (the point's two blocks of time deltas; fourteen whole weight arrays) and writes six staged
   output blocks. Nothing is carried from point to point: the invariant is the same at every point, and what the body
   leaves in each output's buffer at point t is the block the specification names. -/
import proofs.«423553_j10307921510829_1_alg».proof.Proof.K.Basics
import proofs.«423553_j10307921510829_1_alg».proof.Proof.K.Spec

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region

variable (a0 : (pcfg0 (F := F)).Adm)
variable (V : (c : Dev nD) → (b : Ref sig .tc) → Buf (Elt F) ((c : Thread nD τ).loc b))

/-- A whole buffer's contents as the function of its index. -/
abbrev rd (c : Dev nD) (b : Ref sig .tc) : b.ty.shape.Idx → Elt F b.ty.elt := (Memref.whole b).view.read (Elt F) (V c b)

/-- Every word of the three tables of row numbers, as the region finds them, is below 200000. -/
def IdsOk (c : Dev nD) : Prop :=
  (∀ j : S4096.Idx, (rd V c main_arg0 j).toNat < 200000) ∧ (∀ j : S4096.Idx, (rd V c main_arg1 j).toNat < 200000)
    ∧ (∀ j : S4096.Idx, (rd V c main_arg2 j).toNat < 200000)

/-- The argument arrays as the region finds them, bundled for the specification. -/
def argsAt (c : Dev nD) (h : IdsOk V c) : Spec.Args F :=
  Spec.Args.ofMem (rd V c main_arg0) (rd V c main_arg1) (rd V c main_arg2) h.1 h.2.1 h.2.2
    (rd V c main_arg3) (rd V c main_arg4) (rd V c main_arg5) (rd V c main_arg6) (rd V c main_arg7) (rd V c main_arg8)
    (rd V c main_arg9) (rd V c main_arg10) (rd V c main_arg11) (rd V c main_arg12) (rd V c main_arg13) (rd V c main_arg14)
    (rd V c main_arg15) (rd V c main_arg16) (rd V c main_arg17) (rd V c main_arg18) (rd V c main_arg19) (rd V c main_arg20)
    (rd V c main_arg21) (rd V c main_arg22) (rd V c main_arg23) (rd V c main_arg24)

/-- Window `w`'s block at point `t`, read off its array as the region finds it. -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-- The body's own nine DMA semaphores, one per gathered table. -/
abbrev osem0 : Fin 9 → SemLoc sig := fun j =>
  (![SemLoc.dma 30, SemLoc.dma 31, SemLoc.dma 32, SemLoc.dma 33, SemLoc.dma 34, SemLoc.dma 35, SemLoc.dma 36, SemLoc.dma 37, SemLoc.dma 38] : Fin 9 → SemLoc sig) j

/-- The six tables the body copies rows out of, left where @main put them. -/
def H0 : Finset (Ref sig .tc) := {main_arg5, main_arg6, main_arg9, main_arg10, main_arg7, main_arg8}

/-- The region's invariant, the same at every point: the scoped buffers the pipeline does not stage (the nine gather
    buffers among them) at some contents, the generator register at some state, the body's nine cells at zero, the six
    tables at their entry contents, and the three tables of row numbers held. -/
def Phi0 (c : Dev nD) : sProp 𝕄 :=
  iprop(Pipeline.ΦD osem0 spec0 H0 V c
    ∗ Pipeline.prefHeld (Ix := Unit) (Name := ℕ) (U := Pipeline.UD sig nD τ) (Lvl := ℕ) pre0 c (fun _ => fullShare) a0.1)

/-- What the body leaves in window `w`'s buffer at point `t`: an input's block as it was; an output's the block the
    specification names — item_pred, item_target, updated_user_emb, user_emb, updated_item_emb, item_emb, in the
    order of the kernel's results. -/
def after0 (c : Dev nD) (h : IdsOk V c) (w : Fin (cfg0 a0).W) (t : Fin (cfg0 a0).N) :
    (((cfg0 a0).win w).xblock ((cfg0 a0).grid.coords t)).Idx → Elt F ((cfg0 a0).win w).elt :=
  match w with
  | ⟨16, _⟩ => Spec.itemPredBlk (argsAt V c h) t
  | ⟨17, _⟩ => Spec.itemTargetBlk (argsAt V c h) t
  | ⟨18, _⟩ => Spec.updUserBlk (argsAt V c h) t
  | ⟨19, _⟩ => Spec.userEmbBlk (argsAt V c h) t
  | ⟨20, _⟩ => Spec.updItemBlk (argsAt V c h) t
  | ⟨21, _⟩ => Spec.itemEmbBlk (argsAt V c h) t
  | w => iblk0 a0 V c w t

/-- The proof data of the gather-and-compute region on core `c`. -/
def dat0 (c : Dev nD) (h : IdsOk V c) : Dat τ (Elt F) Unit ℕ (Pipeline.UD sig nD τ) ℕ (cfg0 a0) c where
  A w := V c (Pipeline.arrRef spec0 w)
  after w t := after0 a0 V c h w t
  Φ _ := Phi0 a0 V c
  q _ := fullShare
  owed _ := 0

end Region

end Cert.Kernel.Hand

end
-- ==== Proof.K.ScatterRun.lean ====
/- The scatter kernel's body, run once at a symbolic grid point. At point t the body zeroes its one-word scratch and
   then, for each of the 16 rows r of the point in turn, reads the two table words u = user_id[16t + r] and
   i = item_id[16t + r] and copies, each copy started and waited for before the next starts: row r of the first input
   block into row u of the first table, row r of the second input block into row i of the second table, the zero word
   into entry u of the first flag column and into entry i of the second. Given that every table word names a row,
   the run goes through; what it leaves in the four tables — sixteen row writes each, in the order of r — is found by the
   run itself and exposed as the value of this definition. -/
import proofs.«423553_j10307921510829_1_alg».proof.Proof.K.Basics

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- The four tables after the body at point `t`, from their contents `f0 … f3` before it, the two input blocks
    `x0`, `x1`, the two tables of row numbers and the scratch word's contents `g` (which the body overwrites before it reads it); with the proof that the body runs from those holdings to these. -/
noncomputable def scatterRun (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    { R : Bf (F := F) c (Memref.whole main_v1_0) × Bf (F := F) c (Memref.whole main_v1_1)
          × Bf (F := F) c (Memref.whole main_v1_2) × Bf (F := F) c (Memref.whole main_v1_3) //
      ∀ (W : Waits sig Unit) (K : PUnit → sProp 𝕄),
        iprop(owns (c : Thread nD τ) M0 fullShare x0 ∗ owns (c : Thread nD τ) M1 fullShare x1
            ∗ pt c (Memref.whole main_arg0) tb0 ∗ pt c (Memref.whole main_arg2) tb2
            ∗ pt c (Memref.whole main_v1_0) f0 ∗ pt c (Memref.whole main_v1_1) f1
            ∗ pt c (Memref.whole main_v1_2) f2 ∗ pt c (Memref.whole main_v1_3) f3
            ∗ pt c (Memref.whole cc1_scratch0) g
            ∗ semVal ((c : Thread nD τ), SemLoc.dma (43 : DmaSem sig)) 0 ∗ semVal ((c : Thread nD τ), SemLoc.dma (44 : DmaSem sig)) 0
            ∗ semVal ((c : Thread nD τ), SemLoc.dma (45 : DmaSem sig)) 0 ∗ semVal ((c : Thread nD τ), SemLoc.dma (46 : DmaSem sig)) 0
            ∗ owes (c : Thread nD τ) 0 W
            ∗ (iprop(owns (c : Thread nD τ) M0 fullShare x0 ∗ owns (c : Thread nD τ) M1 fullShare x1
                ∗ pt c (Memref.whole main_arg0) tb0 ∗ pt c (Memref.whole main_arg2) tb2
                ∗ pt c (Memref.whole main_v1_0) R.1 ∗ pt c (Memref.whole main_v1_1) R.2.1
                ∗ pt c (Memref.whole main_v1_2) R.2.2.1 ∗ pt c (Memref.whole main_v1_3) R.2.2.2
                ∗ (∃ g, pt c (Memref.whole cc1_scratch0) g)
                ∗ semVal ((c : Thread nD τ), SemLoc.dma (43 : DmaSem sig)) 0 ∗ semVal ((c : Thread nD τ), SemLoc.dma (44 : DmaSem sig)) 0
                ∗ semVal ((c : Thread nD τ), SemLoc.dma (45 : DmaSem sig)) 0 ∗ semVal ((c : Thread nD τ), SemLoc.dma (46 : DmaSem sig)) 0
                ∗ (∃ W', owes (c : Thread nD τ) 0 W')) -∗ K ⟨⟩))
          ⊢ wp frame (wpE (defs₀ (F := F)) Variants.none c none) Set.univ
              (cc1__scatter_kernel (grid1.coords t) (Memref.whole main_arg0) (Memref.isWhole_whole _) (Memref.whole main_arg2) (Memref.isWhole_whole _) M0 h0 M1 h1 (Memref.whole main_v1_0) (Memref.isWhole_whole _) (Memref.whole main_v1_1) (Memref.isWhole_whole _) (Memref.whole main_v1_2) (Memref.isWhole_whole _) (Memref.whole main_v1_3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc1_scratch0) (Memref.isWhole_whole _) cc1_scratch1) K } := by
  refine ⟨(?_, ?_, ?_, ?_), fun W K => ?run⟩
  case run =>
    unfold owns
    iintro ⟨⟨%fx0, %hf0, H0⟩, ⟨%fx1, %hf1, H1⟩, Ht0, Ht2, Hv0, Hv1, Hv2, Hv3, Hg, Hs0, Hs1, Hs2, Hs3, HO, Hk⟩
    obtain rfl := h0.eq_unread hf0
    obtain rfl := h1.eq_unread hf1
    sl_exec_parts! (disch := first | decide | (refine rowFits2 _ ?_; sl_unfold_run_names; first | with_reducible exact hT0 _ _ | with_reducible exact hT2 _ _))
    sl_step
    iapply Hk
    isplitl [H0]
    · iexists _; isplitr; · ipureintro; exact h0.read_unread _
      iexact H0
    isplitl [H1]
    · iexists _; isplitr; · ipureintro; exact h1.read_unread _
      iexact H1
    isplitl [Ht0]; · iexact Ht0
    isplitl [Ht2]; · iexact Ht2
    isplitl [Hv0]; · iexact Hv0
    isplitl [Hv1]; · iexact Hv1
    isplitl [Hv2]; · iexact Hv2
    isplitl [Hv3]; · iexact Hv3
    isplitl [Hg]; · iexists _; iexact Hg
    isplitl [Hs0]; · iexact Hs0
    isplitl [Hs1]; · iexact Hs1
    isplitl [Hs2]; · iexact Hs2
    isplitl [Hs3]; · iexact Hs3
    iexists _; iexact HO

end Cert.Kernel.Hand

end
-- ==== Proof.K.Data1.lean ====
/- The second kernel region (the scatter): what its four tables hold after each grid point, its invariant and its proof
   data. A point overwrites 16 rows of each table, one after the other; a later write to a row replaces an earlier one.
   After n points the first table is its entry contents with the first 16·n update rows written in order at the rows the
   user ids name; the second likewise by the item ids; the two flag columns have the zero word written at those rows. -/
import proofs.«423553_j10307921510829_1_alg».proof.Proof.K.ScatterRun
import Idealize.ShloMosaic.Lib.ValueIdx

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## Writing rows -/

/-- Table `X` with row `r` replaced by `row`. -/
def setRow128 {α : Type} (X : S200000x128.Idx → α) (r : ℕ) (row : Fin 128 → α) : S200000x128.Idx → α :=
  fun j => if (j 0).val = r then row ⟨(j 1).val, (j 1).isLt⟩ else X j
/-- One-column table `X` with entry `r` replaced by `z`. -/
def setRow1 {α : Type} (X : S200000x1.Idx → α) (r : ℕ) (z : α) : S200000x1.Idx → α :=
  fun j => if (j 0).val = r then z else X j
/-- The 16 rows of block `x` written in the order p = 0, 1, …, 15 at the rows `id p`. -/
def rows16_128 {α : Type} (X : S200000x128.Idx → α) (id : Fin 16 → ℕ) (x : S16x128.Idx → α) : S200000x128.Idx → α :=
  (List.finRange 16).foldl (fun Y p => setRow128 Y (id p) (fun k => x (ValueIdx.ix2 p k))) X
/-- The word `z` written at the 16 entries `id p`. -/
def rowsConst16 {α : Type} (X : S200000x1.Idx → α) (id : Fin 16 → ℕ) (z : α) : S200000x1.Idx → α :=
  (List.finRange 16).foldl (fun Y p => setRow1 Y (id p) z) X

/-! ## The region at entry contents `V` -/

section Region

variable (a1 : (pcfg1 (F := F)).Adm)
variable (V : (c : Dev nD) → (b : Ref sig .tc) → Buf (Elt F) ((c : Thread nD τ).loc b))

/-- Input window `w`'s block at point `t`, read off its array as the region finds it. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The row number the k-th user id names, and the k-th item id, as the region finds the two tables. -/
def idU (c : Dev nD) (k : Fin 4096) : ℕ := ((Memref.whole main_arg0).view.read (Elt F) (V c main_arg0) (ValueIdx.ix1 k)).toNat
def idI (c : Dev nD) (k : Fin 4096) : ℕ := ((Memref.whole main_arg2).view.read (Elt F) (V c main_arg2) (ValueIdx.ix1 k)).toNat

/-- The zero word the body stores into its scratch and copies into the flag columns. -/
def zeroWord : Elt F .f32 := (k1_pay1 (F := F)) (ValueIdx.ix1 (0 : Fin 1))

/-- The row numbers of point `n`'s 16 rows. -/
def idsAt (ids : Fin 4096 → ℕ) (n : ℕ) (p : Fin 16) : ℕ := if h : 16 * n + p.val < 4096 then ids ⟨16 * n + p.val, h⟩ else 0

/-- The four tables after the first `n` points. -/
def tabU (c : Dev nD) : ℕ → Vec F S200000x128 .f32
  | 0 => (Memref.whole main_v1_0).view.read (Elt F) (V c main_v1_0)
  | n + 1 => if h : n < (cfg1 a1).N then rows16_128 (tabU c n) (idsAt (idU V c) n) (iblk1 a1 V c 0 ⟨n, h⟩) else tabU c n
def tabI (c : Dev nD) : ℕ → Vec F S200000x128 .f32
  | 0 => (Memref.whole main_v1_1).view.read (Elt F) (V c main_v1_1)
  | n + 1 => if h : n < (cfg1 a1).N then rows16_128 (tabI c n) (idsAt (idI V c) n) (iblk1 a1 V c 1 ⟨n, h⟩) else tabI c n
def flagU (c : Dev nD) : ℕ → Vec F S200000x1 .f32
  | 0 => (Memref.whole main_v1_2).view.read (Elt F) (V c main_v1_2)
  | n + 1 => rowsConst16 (flagU c n) (idsAt (idU V c) n) (zeroWord (F := F))
def flagI (c : Dev nD) : ℕ → Vec F S200000x1 .f32
  | 0 => (Memref.whole main_v1_3).view.read (Elt F) (V c main_v1_3)
  | n + 1 => rowsConst16 (flagI c n) (idsAt (idI V c) n) (zeroWord (F := F))

/-- The body's own four DMA semaphores. -/
abbrev osem1 : Fin 4 → SemLoc sig := fun j => (![SemLoc.dma 43, SemLoc.dma 44, SemLoc.dma 45, SemLoc.dma 46] : Fin 4 → SemLoc sig) j

/-- The region's invariant before point `n`: the scoped buffers the pipeline does not stage (the scratch word among them)
    at some contents, the generator register at some state, the body's four cells at zero, the two tables of row numbers
    held, and the four tables at what the first `n` points leave. -/
def Phi1 (c : Dev nD) (n : ℕ) : sProp 𝕄 :=
  iprop(Pipeline.scopedRest (Ix := Unit) (Name := ℕ) (U := Pipeline.UD sig nD τ) (Lvl := ℕ) (Val := Elt F) spec1 c
    ∗ (∃ r, prngReg c r)
    ∗ Pipeline.ownSems0 (Ix := Unit) (Name := ℕ) (U := Pipeline.UD sig nD τ) (Lvl := ℕ) (Val := Elt F) (τ := τ) osem1 c
    ∗ Pipeline.prefHeld (Ix := Unit) (Name := ℕ) (U := Pipeline.UD sig nD τ) (Lvl := ℕ) pre1 c (fun _ => fullShare) a1.1
    ∗ owns (c : Thread nD τ) (Memref.whole main_v1_0) fullShare (tabU a1 V c n)
    ∗ owns (c : Thread nD τ) (Memref.whole main_v1_1) fullShare (tabI a1 V c n)
    ∗ owns (c : Thread nD τ) (Memref.whole main_v1_2) fullShare (flagU V c n)
    ∗ owns (c : Thread nD τ) (Memref.whole main_v1_3) fullShare (flagI V c n))

/-- The proof data of the scatter region on core `c`: the two input windows' arrays as the region finds them, each
    input's buffer left at its block, the invariant above, nothing owed, full shares. -/
def dat1 (c : Dev nD) : Dat τ (Elt F) Unit ℕ (Pipeline.UD sig nD τ) ℕ (cfg1 a1) c where
  A w := V c (Pipeline.arrRef spec1 w)
  after w t := iblk1 a1 V c w t
  Φ n := Phi1 a1 V c n.val
  q _ := fullShare
  owed _ := 0

end Region

end Cert.Kernel.Hand

end
-- ==== Proof.K.Segs.lean ====
/- The two kernel regions as segments of @main, and the run's values. The tables both regions prefetch are @main's
   arguments, so their admissible contents are read off the launch memory. The first region enters from the launch
   contents and leaves its six result arrays at what its pipeline's write-backs fold to; the four host copies put the
   four tables into the buffers the second region overwrites; the second region enters from there and leaves those four
   buffers at what its 256 points write. Each region's record sorts its thread state (every buffer that outlives a
   region, whole, beside the generator register and the core's dues) into the pipeline's arrays, the prefetched tables,
   what enters the region invariant and what bypasses the region, and back. -/
import proofs.«423553_j10307921510829_1_alg».proof.Proof.K.RunCond
import proofs.«423553_j10307921510829_1_alg».proof.Proof.K.Data0
import proofs.«423553_j10307921510829_1_alg».proof.Proof.K.Data1
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The tables' contents, the buffers' contents at the boundaries, the proof data -/

/-- The prefetched tables of both regions are arguments of @main: their admissible contents are the launch memory's
    (on the one core), and the side conditions on them are trivial. -/
def adm : (p : Fin 2) → (pcfgs (F := F) p).Adm
  | ⟨0, _⟩ => ⟨fun k => m (((0 : Dev nD) : Thread nD τ).loc (pre0.ref k)), trivial⟩
  | ⟨1, _⟩ => ⟨fun k => m (((0 : Dev nD) : Thread nD τ).loc (pre1.ref k)), trivial⟩

/-- The first region's tables, and the second's. -/
abbrev adm0 : (pcfg0 (F := F)).Adm := adm m 0
abbrev adm1 : (pcfg1 (F := F)).Adm := adm m 1

/-- Core `c`'s buffers at launch, read at the TensorCore's references: what the first region finds. -/
abbrev U0 (c : Dev nD) (b : Ref sig .tc) : Buf (Elt F) ((c : Thread nD τ).loc b) := V0 m c b

variable (hids : ∀ c, IdsOk (U0 m) c)

/-- After the first region: its arrays at what the pipeline leaves (an input as entered, an output its write-backs
    folded), every other buffer as launched. -/
def W1 (c : Dev nD) : Valuation τ sig (Elt F) :=
  Pipeline.withArrays spec0 c (V0 m c) fun w => (dat0 (adm0 m) (U0 m) c (hids c)).arrAt w (cfg0 (adm0 m)).N

/-- The first region's part of what the regions leave. -/
def outs1 : Outs (F := F) := fun _ r c => W1 m hids c r

/-- Core `c`'s buffers after the four host copies, read at the TensorCore's references: what the second region finds. -/
abbrev U2 (c : Dev nD) (b : Ref sig .tc) : Buf (Elt F) ((c : Thread nD τ).loc b) := V2 m (outs1 m hids) c b

/-- After the second region: the four tables at what its 256 points leave, every other buffer as it found it. -/
def W3 (c : Dev nD) : Valuation τ sig (Elt F) :=
  Function.update (Function.update (Function.update (Function.update (V2 m (outs1 m hids) c)
    main_v1_0 (tabU (adm1 m) (U2 m hids) c 256)) main_v1_1 (tabI (adm1 m) (U2 m hids) c 256))
    main_v1_2 (flagU (U2 m hids) c 256)) main_v1_3 (flagI (U2 m hids) c 256)

/-- What the regions leave: after the first region (boundary 1) its six results, after the second (boundary 3) the
    four tables. -/
def outs : Outs (F := F) := fun J r c =>
  match J with
  | 3 => W3 m hids c r
  | _ => W1 m hids c r

theorem outs_one (r : Ref sig .tc) (c : Dev nD) : outs m hids 1 r c = W1 m hids c r := rfl
theorem outs_three (r : Ref sig .tc) (c : Dev nD) : outs m hids 3 r c = W3 m hids c r := rfl
/-- The first boundary reads the first region's part only. -/
theorem V1_outs (c : Dev nD) : V1 m (outs m hids) c = V1 m (outs1 m hids) c := rfl
theorem V2_outs (c : Dev nD) : V2 m (outs m hids) c = V2 m (outs1 m hids) c := rfl

/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (adm0 m) (U0 m) c (hids c)
  | ⟨1, _⟩ => fun c => dat1 (adm1 m) (U2 m hids) c

/-! ## The buffers a region holds itself -/

/-- The four tables the second region overwrites. -/
def T1 : Finset (Ref sig .tc) := {main_v1_0, main_v1_1, main_v1_2, main_v1_3}
/-- They bypass the second pipeline: unscoped, no window's array, no prefetched table. -/
theorem T1_sub : T1 ⊆ Pipeline.restRefsP sig pre1 spec1 := by decide
/-- So do the six tables the first region gathers rows from. -/
theorem H0_sub : H0 ⊆ Pipeline.restRefsP sig pre0 spec0 := by decide
/-- The four tables one by one. -/
theorem bigSep_T1 {M : Type} [URA M] (Φ : Ref sig .tc → sProp M) :
    bigSep T1 Φ = iprop(Φ main_v1_0 ∗ Φ main_v1_1 ∗ Φ main_v1_2 ∗ Φ main_v1_3) :=
  bigSep_eq_bigSepL_of_eq [main_v1_0, main_v1_1, main_v1_2, main_v1_3] (by decide) (by decide) Φ
/-- The kernels' own DMA semaphores are scoped, distinct, and no staging cell's. -/
theorem ownSemFacts0 : Pipeline.OwnSemFacts spec0 osem0 := by decide
theorem ownSemFacts1 : Pipeline.OwnSemFacts spec1 osem1 := by decide

/-! ## The boundaries' valuations at the buffers the regions change -/

/-- Distinct references are distinct device buffers. -/
private theorem dne {x y : Ref sig .tc} (h : x ≠ y) : (Proc.devRef .tc x : DevRef τ sig) ≠ Proc.devRef .tc y :=
  StableHlo.devRef_ne_of_ne h

section Values

variable (os : Outs (F := F)) (c : Dev nD)

/-- After the first region each of its six results holds what the region is said to leave there. -/
theorem V1_out (r : Ref sig .tc)
    (hr : r ∈ ([main_v0_0, main_v0_1, main_v0_2, main_v0_3, main_v0_4, main_v0_5] : List (Ref sig .tc))) :
    V1 m os c r = os 1 r c := by
  simp only [List.mem_cons, List.not_mem_nil, or_false] at hr
  rcases hr with rfl | rfl | rfl | rfl | rfl | rfl <;>
  simp only [V1, Function.update_self,
    Function.update_of_ne (dne (by decide : main_v0_0 ≠ main_v0_1)), Function.update_of_ne (dne (by decide : main_v0_0 ≠ main_v0_2)),
    Function.update_of_ne (dne (by decide : main_v0_0 ≠ main_v0_3)), Function.update_of_ne (dne (by decide : main_v0_0 ≠ main_v0_4)),
    Function.update_of_ne (dne (by decide : main_v0_0 ≠ main_v0_5)), Function.update_of_ne (dne (by decide : main_v0_1 ≠ main_v0_2)),
    Function.update_of_ne (dne (by decide : main_v0_1 ≠ main_v0_3)), Function.update_of_ne (dne (by decide : main_v0_1 ≠ main_v0_4)),
    Function.update_of_ne (dne (by decide : main_v0_1 ≠ main_v0_5)), Function.update_of_ne (dne (by decide : main_v0_2 ≠ main_v0_3)),
    Function.update_of_ne (dne (by decide : main_v0_2 ≠ main_v0_4)), Function.update_of_ne (dne (by decide : main_v0_2 ≠ main_v0_5)),
    Function.update_of_ne (dne (by decide : main_v0_3 ≠ main_v0_4)), Function.update_of_ne (dne (by decide : main_v0_3 ≠ main_v0_5)),
    Function.update_of_ne (dne (by decide : main_v0_4 ≠ main_v0_5))]

/-- After the second region each of its four tables holds what the region is said to leave there. -/
theorem V3_out (r : Ref sig .tc) (hr : r ∈ ([main_v1_0, main_v1_1, main_v1_2, main_v1_3] : List (Ref sig .tc))) :
    V3 m os c r = os 3 r c := by
  simp only [List.mem_cons, List.not_mem_nil, or_false] at hr
  rcases hr with rfl | rfl | rfl | rfl <;>
  simp only [V3, Function.update_self,
    Function.update_of_ne (dne (by decide : main_v1_0 ≠ main_v1_1)), Function.update_of_ne (dne (by decide : main_v1_0 ≠ main_v1_2)),
    Function.update_of_ne (dne (by decide : main_v1_0 ≠ main_v1_3)), Function.update_of_ne (dne (by decide : main_v1_1 ≠ main_v1_2)),
    Function.update_of_ne (dne (by decide : main_v1_1 ≠ main_v1_3)), Function.update_of_ne (dne (by decide : main_v1_2 ≠ main_v1_3))]

end Values

section Tables

variable (c : Dev nD)

/-- The four tables after the second region, buffer by buffer. -/
theorem W3_v1_0 : W3 m hids c main_v1_0 = tabU (adm1 m) (U2 m hids) c 256 := by
  simp only [W3, Function.update_self,
    Function.update_of_ne (dne (by decide : main_v1_0 ≠ main_v1_1)), Function.update_of_ne (dne (by decide : main_v1_0 ≠ main_v1_2)),
    Function.update_of_ne (dne (by decide : main_v1_0 ≠ main_v1_3))]
theorem W3_v1_1 : W3 m hids c main_v1_1 = tabI (adm1 m) (U2 m hids) c 256 := by
  simp only [W3, Function.update_self,
    Function.update_of_ne (dne (by decide : main_v1_1 ≠ main_v1_2)), Function.update_of_ne (dne (by decide : main_v1_1 ≠ main_v1_3))]
theorem W3_v1_2 : W3 m hids c main_v1_2 = flagU (U2 m hids) c 256 := by
  simp only [W3, Function.update_self, Function.update_of_ne (dne (by decide : main_v1_2 ≠ main_v1_3))]
theorem W3_v1_3 : W3 m hids c main_v1_3 = flagI (U2 m hids) c 256 := by
  simp only [W3, Function.update_self]

theorem V3_v1_0 : V3 m (outs m hids) c main_v1_0 = tabU (adm1 m) (U2 m hids) c 256 :=
  (V3_out m _ c main_v1_0 (by decide)).trans ((outs_three m hids main_v1_0 c).trans (W3_v1_0 m hids c))
theorem V3_v1_1 : V3 m (outs m hids) c main_v1_1 = tabI (adm1 m) (U2 m hids) c 256 :=
  (V3_out m _ c main_v1_1 (by decide)).trans ((outs_three m hids main_v1_1 c).trans (W3_v1_1 m hids c))
theorem V3_v1_2 : V3 m (outs m hids) c main_v1_2 = flagU (U2 m hids) c 256 :=
  (V3_out m _ c main_v1_2 (by decide)).trans ((outs_three m hids main_v1_2 c).trans (W3_v1_2 m hids c))
theorem V3_v1_3 : V3 m (outs m hids) c main_v1_3 = flagI (U2 m hids) c 256 :=
  (V3_out m _ c main_v1_3 (by decide)).trans ((outs_three m hids main_v1_3 c).trans (W3_v1_3 m hids c))

/-- What the first region's pipeline leaves in its arrays is what `W1` holds there. -/
theorem W1_arr (w : Fin 22) :
    W1 m hids c (Proc.devRef .tc (Pipeline.arrRef spec0 w)) = (dat0 (adm0 m) (U0 m) c (hids c)).arrAt w (cfg0 (adm0 m)).N := by
  unfold W1; exact Pipeline.withArrays_arr spec0 winFacts0.arr_inj c _ _ w

/-- An input window's array is never written: at the first region's exit it holds what it held at launch. -/
theorem V1_arr_in (w : Fin 22) (hr : Pipeline.arrRef spec0 w ∉ ([main_v0_0, main_v0_1, main_v0_2, main_v0_3, main_v0_4, main_v0_5] : List (Ref sig .tc)))
    (hin : ((cfg0 (adm0 m)).win w).isOut = false) :
    V1 m (outs m hids) c (Pipeline.arrRef spec0 w) = (dat0 (adm0 m) (U0 m) c (hids c)).arrAt w (cfg0 (adm0 m)).N :=
  (V1_of m _ c _ hr).trans ((dat0 (adm0 m) (U0 m) c (hids c)).arrAt_in w hin _).symm
/-- An output window's array holds its write-backs folded. -/
theorem V1_arr_out (w : Fin 22) (hr : Pipeline.arrRef spec0 w ∈ ([main_v0_0, main_v0_1, main_v0_2, main_v0_3, main_v0_4, main_v0_5] : List (Ref sig .tc))) :
    V1 m (outs m hids) c (Pipeline.arrRef spec0 w) = (dat0 (adm0 m) (U0 m) c (hids c)).arrAt w (cfg0 (adm0 m)).N :=
  (V1_out m _ c _ hr).trans ((outs_one m hids _ c).trans (W1_arr m hids c w))

/-- The first region's arrays at its exit: an input as entered, an output at its write-backs folded. -/
theorem V1_arr : ∀ w : Fin 22,
    V1 m (outs m hids) c (Pipeline.arrRef spec0 w) = (dat0 (adm0 m) (U0 m) c (hids c)).arrAt w (cfg0 (adm0 m)).N
  | 0 => V1_arr_in m hids c 0 (by decide) rfl | 1 => V1_arr_in m hids c 1 (by decide) rfl
  | 2 => V1_arr_in m hids c 2 (by decide) rfl | 3 => V1_arr_in m hids c 3 (by decide) rfl
  | 4 => V1_arr_in m hids c 4 (by decide) rfl | 5 => V1_arr_in m hids c 5 (by decide) rfl
  | 6 => V1_arr_in m hids c 6 (by decide) rfl | 7 => V1_arr_in m hids c 7 (by decide) rfl
  | 8 => V1_arr_in m hids c 8 (by decide) rfl | 9 => V1_arr_in m hids c 9 (by decide) rfl
  | 10 => V1_arr_in m hids c 10 (by decide) rfl | 11 => V1_arr_in m hids c 11 (by decide) rfl
  | 12 => V1_arr_in m hids c 12 (by decide) rfl | 13 => V1_arr_in m hids c 13 (by decide) rfl
  | 14 => V1_arr_in m hids c 14 (by decide) rfl | 15 => V1_arr_in m hids c 15 (by decide) rfl
  | 16 => V1_arr_out m hids c 16 (by decide) | 17 => V1_arr_out m hids c 17 (by decide)
  | 18 => V1_arr_out m hids c 18 (by decide) | 19 => V1_arr_out m hids c 19 (by decide)
  | 20 => V1_arr_out m hids c 20 (by decide) | 21 => V1_arr_out m hids c 21 (by decide)
  | ⟨_ + 22, h⟩ => absurd h (Nat.not_lt.2 (Nat.le_add_left _ _))

/-- Off the first region's arrays nothing has changed. -/
theorem V1_rest (b : Ref sig .tc) (hb : b ∉ Finset.univ.image (Pipeline.arrRef spec0)) : V1 m (outs m hids) c b = V0 m c b :=
  V1_of m _ c b fun h => hb (by
    simp only [List.mem_cons, List.not_mem_nil, or_false] at h
    rcases h with rfl | rfl | rfl | rfl | rfl | rfl
    · exact Finset.mem_image.mpr ⟨16, Finset.mem_univ _, rfl⟩
    · exact Finset.mem_image.mpr ⟨17, Finset.mem_univ _, rfl⟩
    · exact Finset.mem_image.mpr ⟨18, Finset.mem_univ _, rfl⟩
    · exact Finset.mem_image.mpr ⟨19, Finset.mem_univ _, rfl⟩
    · exact Finset.mem_image.mpr ⟨20, Finset.mem_univ _, rfl⟩
    · exact Finset.mem_image.mpr ⟨21, Finset.mem_univ _, rfl⟩)

/-- The second region's two arrays are inputs: at its exit they hold what it found. -/
theorem V3_arr : ∀ w : Fin 2,
    V3 m (outs m hids) c (Pipeline.arrRef spec1 w) = (dat1 (adm1 m) (U2 m hids) c).arrAt w (cfg1 (adm1 m)).N
  | 0 => (V3_of m _ c main_v0_2 (by decide)).trans ((dat1 (adm1 m) (U2 m hids) c).arrAt_in 0 rfl _).symm
  | 1 => (V3_of m _ c main_v0_4 (by decide)).trans ((dat1 (adm1 m) (U2 m hids) c).arrAt_in 1 rfl _).symm
  | ⟨_ + 2, h⟩ => absurd h (Nat.not_lt.2 (Nat.le_add_left _ _))

/-- The second region changes its four tables only. -/
theorem V3_rest (b : Ref sig .tc) (hb : b ∉ T1) : V3 m (outs m hids) c b = U2 m hids c b :=
  V3_of m _ c b fun h => hb (by
    simp only [List.mem_cons, List.not_mem_nil, or_false] at h
    rcases h with rfl | rfl | rfl | rfl <;> decide)

end Tables

/-! ## What rides beside the buffers, and the tables read off the boundaries' contents -/

/-- No core owes another anything: no level is assigned. -/
abbrev noL : GSem nD τ sig → Finset Unit := fun _ => ∅
abbrev noLv : GSem nD τ sig → Unit → ℕ := fun _ _ => 0
/-- What rides beside the buffers through every segment: the core's generator register at some state and its dues, at
    nothing. -/
abbrev Rest (c : Dev nD) : sProp 𝕄 :=
  iprop((∃ r, prngReg c r) ∗ ∃ W, owes (c : Thread nD τ) (0 : CellTallies nD τ sig Unit) W)

/-- There is one core: the first region's tables are what that core's buffers hold at launch, -/
theorem adm0_val (c : Dev nD) : (adm0 m).1 = fun k => U0 m c (pre0.ref k) := by
  obtain rfl : c = 0 := Subsingleton.elim c 0
  rfl
/-- the second region's what they hold when it is entered (no region and no host copy writes an argument), -/
theorem adm1_val2 (c : Dev nD) : (adm1 m).1 = fun k => U2 m hids c (pre1.ref k) := by
  obtain rfl : c = 0 := Subsingleton.elim c 0
  funext k
  match k with
  | ⟨0, _⟩ => exact ((V2_of m _ 0 main_arg0 (by decide)).trans (V1_of m _ 0 main_arg0 (by decide))).symm
  | ⟨1, _⟩ => exact ((V2_of m _ 0 main_arg2 (by decide)).trans (V1_of m _ 0 main_arg2 (by decide))).symm
/-- and when it is left. -/
theorem adm1_val3 (c : Dev nD) : (adm1 m).1 = fun k => (V3 m (outs m hids) c (pre1.ref k) : Buf (Elt F) ((c : Thread nD τ).loc (pre1.ref k))) := by
  obtain rfl : c = 0 := Subsingleton.elim c 0
  funext k
  match k with
  | ⟨0, _⟩ => exact (V3_main_arg0 m _ 0).symm
  | ⟨1, _⟩ => exact (V3_main_arg2 m _ 0).symm

/-- The buffers that bypass the first pipeline, sorted: the three tables of row numbers, the six tables the body gathers
    from, the others. -/
theorem rest0_eq (c : Dev nD) :
    (Pipeline.unscopedRest (Ix := Unit) (Name := ℕ) (U := Pipeline.UD sig nD τ) (Lvl := ℕ) spec0 c (U0 m c) : sProp 𝕄)
      = iprop(Pipeline.prefHeld pre0 c (fun _ => fullShare) (adm0 m).1
          ∗ (bigSep H0 fun b => ((c : Thread nD τ).loc b) ↦{fullShare} U0 m c b)
          ∗ bigSep (Pipeline.restRefsP sig pre0 spec0 \ H0) fun b => ((c : Thread nD τ).loc b) ↦{fullShare} U0 m c b) := by
  rw [Pipeline.unscopedRest_split preFacts0 c (U0 m c), Pipeline.unscopedRestP_sdiff pre0 spec0 H0 H0_sub c (U0 m c), adm0_val m c]

/-! ## The regions as segments -/

set_option backward.isDefEq.respectTransparency.types false in
/-- THE FIRST REGION over the thread state: entered from every buffer at its launch contents, left with its six results at
    what the pipeline's write-backs fold to. Its arrays are split out of the buffers and put back at the exit contents; the
    three tables of row numbers go to the pipeline and the invariant and come back; the six gathered tables, the generator
    register and the body's nine cells enter the invariant and come back; nothing is owed. -/
def reg0 (hbody0 : ∀ c, BodyObligation (dat0 (adm0 m) (U0 m) c (hids c)) (defs₀ (F := F)) Variants.none () Set.univ) :
    Pipeline.RegionSeg (pcfgs (F := F)) (adm m) (pdats m hids) () defs₀ Variants.none noL noLv 0 where
  win := winFacts0.to₀
  block_pos := block_pos0
  stage_whole := stage_whole0
  K := Fin 9
  osem := osem0
  ho := ownSemFacts0
  hbody c := (hbody0 c).loose
  hwaits := Pipeline.hwaits_of_owed_zero _ _ _ _ noL noLv 0 fun _ _ => rfl
  pre c := iprop(StableHlo.held (c : Thread nD τ) (Pipeline.ucRefs τ sig) (V0 m c) ∗ Rest c)
  post c := iprop(StableHlo.held (c : Thread nD τ) (Pipeline.ucRefs τ sig) (V1 m (outs m hids) c) ∗ Rest c)
  X c := iprop((∃ r, prngReg c r)
    ∗ Pipeline.ownSems0 (Ix := Unit) (Name := ℕ) (U := Pipeline.UD sig nD τ) (Lvl := ℕ) (Val := Elt F) (τ := τ) osem0 c
    ∗ bigSep H0 fun b => ((c : Thread nD τ).loc b) ↦{fullShare} U0 m c b)
  Y c := iprop(((∃ r, prngReg c r) ∗ bigSep H0 fun b => ((c : Thread nD τ).loc b) ↦{fullShare} U0 m c b)
    ∗ Pipeline.prefHeld pre0 c (fun _ => fullShare) (adm0 m).1)
  Z c := bigSep (Pipeline.restRefsP sig pre0 spec0 \ H0) fun b => ((c : Thread nD τ).loc b) ↦{fullShare} U0 m c b
  hentry c := by
    have hsplit := Pipeline.arrays_of_unscopedBufs (p := 0) (pcfgs (F := F)) (adm m) (pdats m hids) winFacts0 arr_whole0 c
      ((pdats m hids 0 c).share_full fun _ => rfl) (U0 m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest0_eq m c)) $$ Hrest
    icases H' with ⟨Hpf, HH, HZ⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HZ
  hin c := by
    rw [show (pdats m hids 0 c).Φ 0 = Phi0 (adm0 m) (U0 m) c from rfl]
    unfold Phi0; rw [Pipeline.ΦD_eq]
    iintro ⟨⟨Hp, Ho, HH⟩, Hpf, Hr⟩
    isplitr [Hpf]
    · isplitl [Hr]; · iexact Hr
      isplitl [Hp]; · iexact Hp
      isplitl [Ho]; · iexact Ho
      iexact HH
    iexact Hpf
  hout c := by
    rw [show (pdats m hids 0 c).Φ (Fin.last _) = Phi0 (adm0 m) (U0 m) c from rfl]
    unfold Phi0; rw [Pipeline.ΦD_eq]
    iintro ⟨⟨Hr, Hp, Ho, HH⟩, Hpf⟩
    isplitl [Hp HH Hpf]
    · isplitl [Hp HH]
      · isplitl [Hp]; · iexact Hp
        iexact HH
      iexact Hpf
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      winFacts0 arr_whole0 c (pdats m hids) ((pdats m hids 0 c).share_full fun _ => rfl)
      (U0 m c) (fun b => V1 m (outs m hids) c b) ((pdats m hids 0 c).arrAt · (cfg0 (adm0 m)).N)
      (fun w => (V1_arr m hids c w).symm) (V1_rest m hids c)
    rw [Pipeline.unscopedBufs_held] at hjoin
    iintro ⟨Ha, HO, ⟨⟨Hp, HH⟩, Hpf⟩, HZ⟩
    ihave Hrest := (Entails.of_eq (rest0_eq m c).symm) $$ [Hpf HH HZ]
    · isplitl [Hpf]; · iexact Hpf
      isplitl [HH]; · iexact HH
      iexact HZ
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The four tables the second region overwrites, owned whole at what the first `n` points leave. -/
def tabs (c : Dev nD) (n : ℕ) : sProp 𝕄 :=
  iprop(owns (c : Thread nD τ) (Memref.whole main_v1_0) fullShare (tabU (adm1 m) (U2 m hids) c n)
    ∗ owns (c : Thread nD τ) (Memref.whole main_v1_1) fullShare (tabI (adm1 m) (U2 m hids) c n)
    ∗ owns (c : Thread nD τ) (Memref.whole main_v1_2) fullShare (flagU (U2 m hids) c n)
    ∗ owns (c : Thread nD τ) (Memref.whole main_v1_3) fullShare (flagI (U2 m hids) c n))

/-- The buffers that bypass the second pipeline, sorted, at its entry: the two tables of row numbers, the four tables it
    overwrites (a whole buffer's contents are its index function: before any point they hold what the host copies put
    there), the others. -/
theorem rest1_eq (c : Dev nD) :
    (Pipeline.unscopedRest (Ix := Unit) (Name := ℕ) (U := Pipeline.UD sig nD τ) (Lvl := ℕ) spec1 c (U2 m hids c) : sProp 𝕄)
      = iprop(Pipeline.prefHeld pre1 c (fun _ => fullShare) (adm1 m).1
          ∗ tabs m hids c 0
          ∗ bigSep (Pipeline.restRefsP sig pre1 spec1 \ T1) fun b => ((c : Thread nD τ).loc b) ↦{fullShare} U2 m hids c b) := by
  rw [Pipeline.unscopedRest_split preFacts1 c (U2 m hids c), Pipeline.unscopedRestP_sdiff pre1 spec1 T1 T1_sub c (U2 m hids c),
    bigSep_T1, adm1_val2 m hids c]
  unfold tabs
  rw [owns_whole, owns_whole, owns_whole, owns_whole]
  rfl

/-- The same buffers at its exit, under the last boundary's contents: the four tables at what the 256 points leave, every
    other one as the region found it. -/
theorem exit1_eq (c : Dev nD) :
    (Pipeline.unscopedRest (Ix := Unit) (Name := ℕ) (U := Pipeline.UD sig nD τ) (Lvl := ℕ) spec1 c (fun b => V3 m (outs m hids) c b) : sProp 𝕄)
      = iprop(Pipeline.prefHeld pre1 c (fun _ => fullShare) (adm1 m).1
          ∗ tabs m hids c 256
          ∗ bigSep (Pipeline.restRefsP sig pre1 spec1 \ T1) fun b => ((c : Thread nD τ).loc b) ↦{fullShare} U2 m hids c b) := by
  have hrest : (bigSep (Pipeline.restRefsP sig pre1 spec1 \ T1) fun b => ((c : Thread nD τ).loc b) ↦{fullShare} V3 m (outs m hids) c b : sProp 𝕄)
      = bigSep (Pipeline.restRefsP sig pre1 spec1 \ T1) fun b => ((c : Thread nD τ).loc b) ↦{fullShare} U2 m hids c b :=
    bigSep_congr fun b hb => by rw [V3_rest m hids c b (Finset.mem_sdiff.mp hb).2]
  rw [Pipeline.unscopedRest_split preFacts1 c (fun b => V3 m (outs m hids) c b),
    Pipeline.unscopedRestP_sdiff pre1 spec1 T1 T1_sub c (fun b => V3 m (outs m hids) c b), hrest, bigSep_T1, adm1_val3 m hids c,
    V3_v1_0 m hids c, V3_v1_1 m hids c, V3_v1_2 m hids c, V3_v1_3 m hids c]
  unfold tabs
  rw [owns_whole, owns_whole, owns_whole, owns_whole]

set_option backward.isDefEq.respectTransparency.types false in
/-- THE SECOND REGION over the thread state: entered from every buffer at what the host copies leave, left with its four
    tables at what its 256 points write. Its two arrays (inputs) are split out of the buffers and put back unchanged; the two
    tables of row numbers go to the pipeline and the invariant and come back; the four tables it overwrites, the generator
    register and the body's four cells enter the invariant, the tables at their entry contents, and come back, the tables at
    their final contents; nothing is owed. -/
def reg1 (hbody1 : ∀ c, BodyObligation (dat1 (adm1 m) (U2 m hids) c) (defs₀ (F := F)) Variants.none () Set.univ) :
    Pipeline.RegionSeg (pcfgs (F := F)) (adm m) (pdats m hids) () defs₀ Variants.none noL noLv 1 where
  win := winFacts1.to₀
  block_pos := block_pos1
  stage_whole := stage_whole1
  K := Fin 4
  osem := osem1
  ho := ownSemFacts1
  hbody c := (hbody1 c).loose
  hwaits := Pipeline.hwaits_of_owed_zero _ _ _ _ noL noLv 1 fun _ _ => rfl
  pre c := iprop(StableHlo.held (c : Thread nD τ) (Pipeline.ucRefs τ sig) (V2 m (outs m hids) c) ∗ Rest c)
  post c := iprop(StableHlo.held (c : Thread nD τ) (Pipeline.ucRefs τ sig) (V3 m (outs m hids) c) ∗ Rest c)
  X c := iprop((∃ r, prngReg c r)
    ∗ Pipeline.ownSems0 (Ix := Unit) (Name := ℕ) (U := Pipeline.UD sig nD τ) (Lvl := ℕ) (Val := Elt F) (τ := τ) osem1 c
    ∗ tabs m hids c 0)
  Y c := iprop(((∃ r, prngReg c r) ∗ tabs m hids c 256) ∗ Pipeline.prefHeld pre1 c (fun _ => fullShare) (adm1 m).1)
  Z c := bigSep (Pipeline.restRefsP sig pre1 spec1 \ T1) fun b => ((c : Thread nD τ).loc b) ↦{fullShare} U2 m hids c b
  hentry c := by
    have hsplit := Pipeline.arrays_of_unscopedBufs (p := 1) (pcfgs (F := F)) (adm m) (pdats m hids) winFacts1 arr_whole1 c
      ((pdats m hids 1 c).share_full fun _ => rfl) (U2 m hids c) fun _ => rfl
    rw [Pipeline.unscopedBufs_held, ← V2_outs m hids c] at hsplit
    iintro ⟨⟨Hub, Hp, HO⟩, Hos, -⟩
    ihave H := hsplit $$ Hub
    icases H with ⟨Ha, Hrest⟩
    ihave H' := (Entails.of_eq (rest1_eq m hids c)) $$ Hrest
    icases H' with ⟨Hpf, HT, HZ⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp Hos HT]
    · isplitl [Hp]; · iexact Hp
      isplitl [Hos]; · iexact Hos
      iexact HT
    iexact HZ
  hin c := by
    rw [show (pdats m hids 1 c).Φ 0 = Phi1 (adm1 m) (U2 m hids) c 0 from rfl]
    unfold Phi1 tabs
    iintro ⟨⟨Hp, Ho, Ht⟩, Hpf, Hr⟩
    isplitl [Hr]; · iexact Hr
    isplitl [Hp]; · iexact Hp
    isplitl [Ho]; · iexact Ho
    isplitl [Hpf]; · iexact Hpf
    iexact Ht
  hout c := by
    rw [show (pdats m hids 1 c).Φ (Fin.last _) = Phi1 (adm1 m) (U2 m hids) c 256 from rfl]
    unfold Phi1 tabs
    iintro ⟨Hr, Hp, Ho, Hpf, Ht⟩
    isplitl [Hp Ht Hpf]
    · isplitl [Hp Ht]
      · isplitl [Hp]; · iexact Hp
        iexact Ht
      iexact Hpf
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      winFacts1 arr_whole1 c (pdats m hids) ((pdats m hids 1 c).share_full fun _ => rfl)
      (fun b => V3 m (outs m hids) c b) (fun b => V3 m (outs m hids) c b) ((pdats m hids 1 c).arrAt · (cfg1 (adm1 m)).N)
      (fun w => (V3_arr m hids c w).symm) (fun _ _ => rfl)
    rw [Pipeline.unscopedBufs_held] at hjoin
    iintro ⟨Ha, HO, ⟨⟨Hp, Ht⟩, Hpf⟩, HZ⟩
    ihave Hrest := (Entails.of_eq (exit1_eq m hids c).symm) $$ [Hpf Ht HZ]
    · isplitl [Hpf]; · iexact Hpf
      isplitl [Ht]; · iexact Ht
      iexact HZ
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The run -/

set_option backward.isDefEq.respectTransparency.types false in
/-- THE RUN'S VALUES. Given the two kernel bodies' obligations (each at its region's entry contents) and the row numbers
    in range, every weakly fair execution of @main from memory `m` with zero counters terminates, and in the final memory
    every buffer that outlives a region holds what the last boundary's valuation says: the arguments their launch contents,
    the first region's six results what its pipeline's write-backs fold to, the four tables what the second region's 256
    points leave. -/
theorem run_values (ρ : Dev nD → PrngReg)
    (hbody0 : ∀ c, BodyObligation (dat0 (adm0 m) (U0 m) c (hids c)) (defs₀ (F := F)) Variants.none () Set.univ)
    (hbody1 : ∀ c, BodyObligation (dat1 (adm1 m) (U2 m hids) c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = V3 m (outs m hids) c b) :=
  run_cond m (Ix := Unit) (U := Pipeline.UD sig nD τ) (Lvl := ℕ) embL () Variants.none noL noLv (fun _ _ => rfl) ρ (outs m hids) (adm m)
    (pdats m hids) (O₀ := 0) (G := fun _ => iprop(emp))
    (u₀ := (initOf (Pipeline.cells (Pipeline.pin (pcfgs (F := F)) (adm m)) (cellOf_inj (adm m)))
      (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ => Rest)
    (hE0 := by
      refine Pipeline.initEach noL noLv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m hids hbody0) (hpre0 := fun _ => .rfl) (hpost0 := fun _ => .rfl)
    (R1 := reg1 m hids hbody1) (hpre1 := fun _ => .rfl) (hpost1 := fun _ => .rfl)

/-- info: 'Cert.Kernel.Hand.run_values' depends on axioms: [propext, Classical.choice, Quot.sound] -/
#guard_msgs in #print axioms run_values

end Cert.Kernel.Hand

end
-- ==== Proof.K.GatherRun.lean ====
/- The gather-and-compute kernel's body, run once at a symbolic grid point. At point t the body, for each of the 16
   rows r of the point in turn, reads the three table words u = user_id[16t + r], i = item_id[16t + r],
   p = prev_item_id[16t + r] and copies nine table rows into row r of nine gather buffers — all nine copies started, then
   all nine waited for, each on a cell of its own: the dynamic user row u, the dynamic item rows i and p, the static user
   row u, the static item rows i and p, the user flag u, the item flags i and p. Two of the tables are read by two
   copies in flight at once (rows i and p, which may be the same row): each is held as a remainder and two read tokens,
   one per reader, and made whole again at the end. Then it loads the nine gather buffers, the point's two time blocks
   and the weights, and stores its six output blocks. Given that every table word names a row, the run goes through; the
   pieces it leaves in the six output buffers are found by the run and are the value of this definition. -/
import proofs.«423553_j10307921510829_1_alg».proof.Proof.K.Basics

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Whole buffer `b` held at share `q`. -/
abbrev heldAt (c : Dev nD) (b : Ref sig .tc) (q : PosShare TreeShare) (f : Bf (F := F) c (Memref.whole b)) : sProp 𝕄 :=
  (Memref.whole b).view.loc (c : Thread nD τ) ↦{q} f

/-- A whole buffer held at the full share is a remainder and two read tokens, -/
theorem toks2_split (c : Dev nD) (b : Ref sig .tc) (f : Bf (F := F) c (Memref.whole b)) :
    heldAt c b fullShare f ⊢ iprop(heldAt c b (Transfers.shareDrop fullShare 2) f ∗ heldAt c b (Transfers.shareTok fullShare 2 0) f
      ∗ heldAt c b (Transfers.shareTok fullShare 2 1) f) :=
  (Transfers.pointsTo_toks_split (Ix := Unit) (Name := ℕ) (U := Pipeline.UD sig nD τ) (Lvl := ℕ) fullShare 2).trans
    (Entails.of_eq (by rw [BI.bigSep_fin_two]; rfl))
/-- and back. -/
theorem toks2_join (c : Dev nD) (b : Ref sig .tc) (f : Bf (F := F) c (Memref.whole b)) :
    iprop(heldAt c b (Transfers.shareDrop fullShare 2) f ∗ heldAt c b (Transfers.shareTok fullShare 2 0) f
      ∗ heldAt c b (Transfers.shareTok fullShare 2 1) f) ⊢ heldAt c b fullShare f :=
  (show _ ⊢ _ from Entails.of_eq (by rw [BI.bigSep_fin_two]; rfl)).trans
    (Transfers.pointsTo_toks_join (Ix := Unit) (Name := ℕ) (U := Pipeline.UD sig nD τ) (Lvl := ℕ) fullShare 2)

set_option maxHeartbeats 40000000 in
/-- The pieces the body leaves in its six output buffers at point `t`, from the staged inputs, the three tables of row
    numbers, the six tables it gathers from and the gather buffers' contents before (each overwritten before it is
    read); with the proof that the body runs from those holdings to these. -/
noncomputable def gatherRun
    (c : Dev nD) (t : Fin grid0.N)
    (I0 : Memref sig .tc .vmem S16x1 .f32) (hI0 : I0.IsWhole) (x0 : Vec F S16x1 .f32)
    (I1 : Memref sig .tc .vmem S16x1 .f32) (hI1 : I1.IsWhole) (x1 : Vec F S16x1 .f32)
    (I2 : Memref sig .tc .vmem S1x128 .f32) (hI2 : I2.IsWhole) (x2 : Vec F S1x128 .f32)
    (I3 : Memref sig .tc .vmem S1x128 .f32) (hI3 : I3.IsWhole) (x3 : Vec F S1x128 .f32)
    (I4 : Memref sig .tc .vmem S128x129 .f32) (hI4 : I4.IsWhole) (x4 : Vec F S128x129 .f32)
    (I5 : Memref sig .tc .vmem S128x128 .f32) (hI5 : I5.IsWhole) (x5 : Vec F S128x128 .f32)
    (I6 : Memref sig .tc .vmem S128 .f32) (hI6 : I6.IsWhole) (x6 : Vec F S128 .f32)
    (I7 : Memref sig .tc .vmem S128 .f32) (hI7 : I7.IsWhole) (x7 : Vec F S128 .f32)
    (I8 : Memref sig .tc .vmem S128x129 .f32) (hI8 : I8.IsWhole) (x8 : Vec F S128x129 .f32)
    (I9 : Memref sig .tc .vmem S128x128 .f32) (hI9 : I9.IsWhole) (x9 : Vec F S128x128 .f32)
    (I10 : Memref sig .tc .vmem S128 .f32) (hI10 : I10.IsWhole) (x10 : Vec F S128 .f32)
    (I11 : Memref sig .tc .vmem S128 .f32) (hI11 : I11.IsWhole) (x11 : Vec F S128 .f32)
    (I12 : Memref sig .tc .vmem S256x512 .f32) (hI12 : I12.IsWhole) (x12 : Vec F S256x512 .f32)
    (I13 : Memref sig .tc .vmem S256 .f32) (hI13 : I13.IsWhole) (x13 : Vec F S256 .f32)
    (I14 : Memref sig .tc .vmem S128x1 .f32) (hI14 : I14.IsWhole) (x14 : Vec F S128x1 .f32)
    (I15 : Memref sig .tc .vmem S128 .f32) (hI15 : I15.IsWhole) (x15 : Vec F S128 .f32)
    (O0 : Memref sig .tc .vmem S16x256 .f32) (hO0 : O0.IsWhole)
    (O1 : Memref sig .tc .vmem S16x256 .f32) (hO1 : O1.IsWhole)
    (O2 : Memref sig .tc .vmem S16x128 .f32) (hO2 : O2.IsWhole)
    (O3 : Memref sig .tc .vmem S16x128 .f32) (hO3 : O3.IsWhole)
    (O4 : Memref sig .tc .vmem S16x128 .f32) (hO4 : O4.IsWhole)
    (O5 : Memref sig .tc .vmem S16x128 .f32) (hO5 : O5.IsWhole)
    (tb0 : Bf (F := F) c (Memref.whole main_arg0))
    (tb1 : Bf (F := F) c (Memref.whole main_arg2))
    (tb2 : Bf (F := F) c (Memref.whole main_arg1))
    (fh0 : Bf (F := F) c (Memref.whole main_arg5))
    (fh1 : Bf (F := F) c (Memref.whole main_arg6))
    (fh2 : Bf (F := F) c (Memref.whole main_arg9))
    (fh3 : Bf (F := F) c (Memref.whole main_arg10))
    (fh4 : Bf (F := F) c (Memref.whole main_arg7))
    (fh5 : Bf (F := F) c (Memref.whole main_arg8))
    (g0 : Bf (F := F) c (Memref.whole cc0_scratch0))
    (g1 : Bf (F := F) c (Memref.whole cc0_scratch1))
    (g2 : Bf (F := F) c (Memref.whole cc0_scratch2))
    (g3 : Bf (F := F) c (Memref.whole cc0_scratch3))
    (g4 : Bf (F := F) c (Memref.whole cc0_scratch4))
    (g5 : Bf (F := F) c (Memref.whole cc0_scratch5))
    (g6 : Bf (F := F) c (Memref.whole cc0_scratch6))
    (g7 : Bf (F := F) c (Memref.whole cc0_scratch7))
    (g8 : Bf (F := F) c (Memref.whole cc0_scratch8))
    (hT0 : RowWords c (Memref.whole main_arg0) tb0)
    (hT1 : RowWords c (Memref.whole main_arg2) tb1)
    (hT2 : RowWords c (Memref.whole main_arg1) tb2)
    : { L : List (View.Piece (Elt F) S16x256 .f32) × List (View.Piece (Elt F) S16x256 .f32) × List (View.Piece (Elt F) S16x128 .f32) × List (View.Piece (Elt F) S16x128 .f32) × List (View.Piece (Elt F) S16x128 .f32) × List (View.Piece (Elt F) S16x128 .f32) //
      ∀ (W : Waits sig Unit) (K : PUnit → sProp 𝕄),
        iprop(owns (c : Thread nD τ) I0 fullShare x0
            ∗ owns (c : Thread nD τ) I1 fullShare x1
            ∗ owns (c : Thread nD τ) I2 fullShare x2
            ∗ owns (c : Thread nD τ) I3 fullShare x3
            ∗ owns (c : Thread nD τ) I4 fullShare x4
            ∗ owns (c : Thread nD τ) I5 fullShare x5
            ∗ owns (c : Thread nD τ) I6 fullShare x6
            ∗ owns (c : Thread nD τ) I7 fullShare x7
            ∗ owns (c : Thread nD τ) I8 fullShare x8
            ∗ owns (c : Thread nD τ) I9 fullShare x9
            ∗ owns (c : Thread nD τ) I10 fullShare x10
            ∗ owns (c : Thread nD τ) I11 fullShare x11
            ∗ owns (c : Thread nD τ) I12 fullShare x12
            ∗ owns (c : Thread nD τ) I13 fullShare x13
            ∗ owns (c : Thread nD τ) I14 fullShare x14
            ∗ owns (c : Thread nD τ) I15 fullShare x15
            ∗ (∃ d, owns (c : Thread nD τ) O0 fullShare d)
            ∗ (∃ d, owns (c : Thread nD τ) O1 fullShare d)
            ∗ (∃ d, owns (c : Thread nD τ) O2 fullShare d)
            ∗ (∃ d, owns (c : Thread nD τ) O3 fullShare d)
            ∗ (∃ d, owns (c : Thread nD τ) O4 fullShare d)
            ∗ (∃ d, owns (c : Thread nD τ) O5 fullShare d)
            ∗ pt c (Memref.whole main_arg0) tb0
            ∗ pt c (Memref.whole main_arg2) tb1
            ∗ pt c (Memref.whole main_arg1) tb2
            ∗ pt c (Memref.whole main_arg5) fh0
            ∗ pt c (Memref.whole main_arg6) fh1
            ∗ pt c (Memref.whole main_arg9) fh2
            ∗ pt c (Memref.whole main_arg10) fh3
            ∗ pt c (Memref.whole main_arg7) fh4
            ∗ pt c (Memref.whole main_arg8) fh5
            ∗ pt c (Memref.whole cc0_scratch0) g0
            ∗ pt c (Memref.whole cc0_scratch1) g1
            ∗ pt c (Memref.whole cc0_scratch2) g2
            ∗ pt c (Memref.whole cc0_scratch3) g3
            ∗ pt c (Memref.whole cc0_scratch4) g4
            ∗ pt c (Memref.whole cc0_scratch5) g5
            ∗ pt c (Memref.whole cc0_scratch6) g6
            ∗ pt c (Memref.whole cc0_scratch7) g7
            ∗ pt c (Memref.whole cc0_scratch8) g8
            ∗ semVal ((c : Thread nD τ), SemLoc.dma (30 : DmaSem sig)) 0
            ∗ semVal ((c : Thread nD τ), SemLoc.dma (31 : DmaSem sig)) 0
            ∗ semVal ((c : Thread nD τ), SemLoc.dma (32 : DmaSem sig)) 0
            ∗ semVal ((c : Thread nD τ), SemLoc.dma (33 : DmaSem sig)) 0
            ∗ semVal ((c : Thread nD τ), SemLoc.dma (34 : DmaSem sig)) 0
            ∗ semVal ((c : Thread nD τ), SemLoc.dma (35 : DmaSem sig)) 0
            ∗ semVal ((c : Thread nD τ), SemLoc.dma (36 : DmaSem sig)) 0
            ∗ semVal ((c : Thread nD τ), SemLoc.dma (37 : DmaSem sig)) 0
            ∗ semVal ((c : Thread nD τ), SemLoc.dma (38 : DmaSem sig)) 0
            ∗ owes (c : Thread nD τ) 0 W
            ∗ (iprop(owns (c : Thread nD τ) I0 fullShare x0
                ∗ owns (c : Thread nD τ) I1 fullShare x1
                ∗ owns (c : Thread nD τ) I2 fullShare x2
                ∗ owns (c : Thread nD τ) I3 fullShare x3
                ∗ owns (c : Thread nD τ) I4 fullShare x4
                ∗ owns (c : Thread nD τ) I5 fullShare x5
                ∗ owns (c : Thread nD τ) I6 fullShare x6
                ∗ owns (c : Thread nD τ) I7 fullShare x7
                ∗ owns (c : Thread nD τ) I8 fullShare x8
                ∗ owns (c : Thread nD τ) I9 fullShare x9
                ∗ owns (c : Thread nD τ) I10 fullShare x10
                ∗ owns (c : Thread nD τ) I11 fullShare x11
                ∗ owns (c : Thread nD τ) I12 fullShare x12
                ∗ owns (c : Thread nD τ) I13 fullShare x13
                ∗ owns (c : Thread nD τ) I14 fullShare x14
                ∗ owns (c : Thread nD τ) I15 fullShare x15
                ∗ (O0.view.loc (c : Thread nD τ) ↦[O0.view.set]{fullShare} O0.view.writes (Elt F) O0.view.junk L.1)
                ∗ (O1.view.loc (c : Thread nD τ) ↦[O1.view.set]{fullShare} O1.view.writes (Elt F) O1.view.junk L.2.1)
                ∗ (O2.view.loc (c : Thread nD τ) ↦[O2.view.set]{fullShare} O2.view.writes (Elt F) O2.view.junk L.2.2.1)
                ∗ (O3.view.loc (c : Thread nD τ) ↦[O3.view.set]{fullShare} O3.view.writes (Elt F) O3.view.junk L.2.2.2.1)
                ∗ (O4.view.loc (c : Thread nD τ) ↦[O4.view.set]{fullShare} O4.view.writes (Elt F) O4.view.junk L.2.2.2.2.1)
                ∗ (O5.view.loc (c : Thread nD τ) ↦[O5.view.set]{fullShare} O5.view.writes (Elt F) O5.view.junk L.2.2.2.2.2)
                ∗ pt c (Memref.whole main_arg0) tb0
                ∗ pt c (Memref.whole main_arg2) tb1
                ∗ pt c (Memref.whole main_arg1) tb2
                ∗ pt c (Memref.whole main_arg5) fh0
                ∗ pt c (Memref.whole main_arg6) fh1
                ∗ pt c (Memref.whole main_arg9) fh2
                ∗ pt c (Memref.whole main_arg10) fh3
                ∗ pt c (Memref.whole main_arg7) fh4
                ∗ pt c (Memref.whole main_arg8) fh5
                ∗ (∃ g, pt c (Memref.whole cc0_scratch0) g)
                ∗ (∃ g, pt c (Memref.whole cc0_scratch1) g)
                ∗ (∃ g, pt c (Memref.whole cc0_scratch2) g)
                ∗ (∃ g, pt c (Memref.whole cc0_scratch3) g)
                ∗ (∃ g, pt c (Memref.whole cc0_scratch4) g)
                ∗ (∃ g, pt c (Memref.whole cc0_scratch5) g)
                ∗ (∃ g, pt c (Memref.whole cc0_scratch6) g)
                ∗ (∃ g, pt c (Memref.whole cc0_scratch7) g)
                ∗ (∃ g, pt c (Memref.whole cc0_scratch8) g)
                ∗ semVal ((c : Thread nD τ), SemLoc.dma (30 : DmaSem sig)) 0
                ∗ semVal ((c : Thread nD τ), SemLoc.dma (31 : DmaSem sig)) 0
                ∗ semVal ((c : Thread nD τ), SemLoc.dma (32 : DmaSem sig)) 0
                ∗ semVal ((c : Thread nD τ), SemLoc.dma (33 : DmaSem sig)) 0
                ∗ semVal ((c : Thread nD τ), SemLoc.dma (34 : DmaSem sig)) 0
                ∗ semVal ((c : Thread nD τ), SemLoc.dma (35 : DmaSem sig)) 0
                ∗ semVal ((c : Thread nD τ), SemLoc.dma (36 : DmaSem sig)) 0
                ∗ semVal ((c : Thread nD τ), SemLoc.dma (37 : DmaSem sig)) 0
                ∗ semVal ((c : Thread nD τ), SemLoc.dma (38 : DmaSem sig)) 0
                ∗ (∃ W', owes (c : Thread nD τ) 0 W')) -∗ K ⟨⟩))
          ⊢ wp frame (wpE (defs₀ (F := F)) Variants.none c none) Set.univ
              (cc0__gather_compute_kernel (grid0.coords t) (Memref.whole main_arg0) (Memref.isWhole_whole _) (Memref.whole main_arg2) (Memref.isWhole_whole _) (Memref.whole main_arg1) (Memref.isWhole_whole _) I0 hI0 I1 hI1 (Memref.whole main_arg5) (Memref.isWhole_whole _) (Memref.whole main_arg6) (Memref.isWhole_whole _) (Memref.whole main_arg9) (Memref.isWhole_whole _) (Memref.whole main_arg10) (Memref.isWhole_whole _) (Memref.whole main_arg7) (Memref.isWhole_whole _) (Memref.whole main_arg8) (Memref.isWhole_whole _) I2 hI2 I3 hI3 I4 hI4 I5 hI5 I6 hI6 I7 hI7 I8 hI8 I9 hI9 I10 hI10 I11 hI11 I12 hI12 I13 hI13 I14 hI14 I15 hI15 O0 hO0 O1 hO1 O2 hO2 O3 hO3 O4 hO4 O5 hO5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9) K } := by
  refine ⟨(?_, ?_, ?_, ?_, ?_, ?_), fun W K => ?run⟩
  case run =>
    unfold owns
    iintro ⟨⟨%fi0, %hfi0, HI0⟩, ⟨%fi1, %hfi1, HI1⟩, ⟨%fi2, %hfi2, HI2⟩, ⟨%fi3, %hfi3, HI3⟩, ⟨%fi4, %hfi4, HI4⟩, ⟨%fi5, %hfi5, HI5⟩, ⟨%fi6, %hfi6, HI6⟩, ⟨%fi7, %hfi7, HI7⟩, ⟨%fi8, %hfi8, HI8⟩, ⟨%fi9, %hfi9, HI9⟩, ⟨%fi10, %hfi10, HI10⟩, ⟨%fi11, %hfi11, HI11⟩, ⟨%fi12, %hfi12, HI12⟩, ⟨%fi13, %hfi13, HI13⟩, ⟨%fi14, %hfi14, HI14⟩, ⟨%fi15, %hfi15, HI15⟩, ⟨%dO0, %fo0, -, HO0⟩, ⟨%dO1, %fo1, -, HO1⟩, ⟨%dO2, %fo2, -, HO2⟩, ⟨%dO3, %fo3, -, HO3⟩, ⟨%dO4, %fo4, -, HO4⟩, ⟨%dO5, %fo5, -, HO5⟩, Ht0, Ht1, Ht2, Hh0, Hh1, Hh2, Hh3, Hh4, Hh5, Hg0, Hg1, Hg2, Hg3, Hg4, Hg5, Hg6, Hg7, Hg8, Hs0, Hs1, Hs2, Hs3, Hs4, Hs5, Hs6, Hs7, Hs8, HW, Hk⟩
    obtain rfl := hI0.eq_unread hfi0
    obtain rfl := hI1.eq_unread hfi1
    obtain rfl := hI2.eq_unread hfi2
    obtain rfl := hI3.eq_unread hfi3
    obtain rfl := hI4.eq_unread hfi4
    obtain rfl := hI5.eq_unread hfi5
    obtain rfl := hI6.eq_unread hfi6
    obtain rfl := hI7.eq_unread hfi7
    obtain rfl := hI8.eq_unread hfi8
    obtain rfl := hI9.eq_unread hfi9
    obtain rfl := hI10.eq_unread hfi10
    obtain rfl := hI11.eq_unread hfi11
    obtain rfl := hI12.eq_unread hfi12
    obtain rfl := hI13.eq_unread hfi13
    obtain rfl := hI14.eq_unread hfi14
    obtain rfl := hI15.eq_unread hfi15
    ihave Hh1' := (toks2_split c main_arg6 fh1) $$ Hh1
    icases Hh1' with ⟨Hh1r, Hh1a, Hh1b⟩
    ihave Hh3' := (toks2_split c main_arg10 fh3) $$ Hh3
    icases Hh3' with ⟨Hh3r, Hh3a, Hh3b⟩
    ihave Hh5' := (toks2_split c main_arg8 fh5) $$ Hh5
    icases Hh5' with ⟨Hh5r, Hh5a, Hh5b⟩
    sl_exec_parts! (disch := first | decide | (refine rowFits3 _ ?_; sl_unfold_run_names; first | with_reducible exact hT0 _ _ | with_reducible exact hT1 _ _ | with_reducible exact hT2 _ _) | (refine rowFits2 _ ?_; sl_unfold_run_names; first | with_reducible exact hT0 _ _ | with_reducible exact hT1 _ _ | with_reducible exact hT2 _ _))
    sl_step
    iapply Hk
    isplitl [HI0]
    · iexists _; isplitr; · ipureintro; exact hI0.read_unread _
      iexact HI0
    isplitl [HI1]
    · iexists _; isplitr; · ipureintro; exact hI1.read_unread _
      iexact HI1
    isplitl [HI2]
    · iexists _; isplitr; · ipureintro; exact hI2.read_unread _
      iexact HI2
    isplitl [HI3]
    · iexists _; isplitr; · ipureintro; exact hI3.read_unread _
      iexact HI3
    isplitl [HI4]
    · iexists _; isplitr; · ipureintro; exact hI4.read_unread _
      iexact HI4
    isplitl [HI5]
    · iexists _; isplitr; · ipureintro; exact hI5.read_unread _
      iexact HI5
    isplitl [HI6]
    · iexists _; isplitr; · ipureintro; exact hI6.read_unread _
      iexact HI6
    isplitl [HI7]
    · iexists _; isplitr; · ipureintro; exact hI7.read_unread _
      iexact HI7
    isplitl [HI8]
    · iexists _; isplitr; · ipureintro; exact hI8.read_unread _
      iexact HI8
    isplitl [HI9]
    · iexists _; isplitr; · ipureintro; exact hI9.read_unread _
      iexact HI9
    isplitl [HI10]
    · iexists _; isplitr; · ipureintro; exact hI10.read_unread _
      iexact HI10
    isplitl [HI11]
    · iexists _; isplitr; · ipureintro; exact hI11.read_unread _
      iexact HI11
    isplitl [HI12]
    · iexists _; isplitr; · ipureintro; exact hI12.read_unread _
      iexact HI12
    isplitl [HI13]
    · iexists _; isplitr; · ipureintro; exact hI13.read_unread _
      iexact HI13
    isplitl [HI14]
    · iexists _; isplitr; · ipureintro; exact hI14.read_unread _
      iexact HI14
    isplitl [HI15]
    · iexists _; isplitr; · ipureintro; exact hI15.read_unread _
      iexact HI15
    isplitl [HO0]; · iexact HO0
    isplitl [HO1]; · iexact HO1
    isplitl [HO2]; · iexact HO2
    isplitl [HO3]; · iexact HO3
    isplitl [HO4]; · iexact HO4
    isplitl [HO5]; · iexact HO5
    isplitl [Ht0]; · iexact Ht0
    isplitl [Ht1]; · iexact Ht1
    isplitl [Ht2]; · iexact Ht2
    isplitl [Hh0]; · iexact Hh0
    isplitl [Hh1r Hh1a Hh1b]
    · iapply (toks2_join c main_arg6 fh1)
      isplitl [Hh1r]; · iexact Hh1r
      isplitl [Hh1a]; · iexact Hh1a
      iexact Hh1b
    isplitl [Hh2]; · iexact Hh2
    isplitl [Hh3r Hh3a Hh3b]
    · iapply (toks2_join c main_arg10 fh3)
      isplitl [Hh3r]; · iexact Hh3r
      isplitl [Hh3a]; · iexact Hh3a
      iexact Hh3b
    isplitl [Hh4]; · iexact Hh4
    isplitl [Hh5r Hh5a Hh5b]
    · iapply (toks2_join c main_arg8 fh5)
      isplitl [Hh5r]; · iexact Hh5r
      isplitl [Hh5a]; · iexact Hh5a
      iexact Hh5b
    isplitl [Hg0]; · iexists _; iexact Hg0
    isplitl [Hg1]; · iexists _; iexact Hg1
    isplitl [Hg2]; · iexists _; iexact Hg2
    isplitl [Hg3]; · iexists _; iexact Hg3
    isplitl [Hg4]; · iexists _; iexact Hg4
    isplitl [Hg5]; · iexists _; iexact Hg5
    isplitl [Hg6]; · iexists _; iexact Hg6
    isplitl [Hg7]; · iexists _; iexact Hg7
    isplitl [Hg8]; · iexists _; iexact Hg8
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexists _; iexact HW

end Cert.Kernel.Hand

end
-- ==== Proof.K.Region0.lean ====
/- The gather-and-compute region's body obligation: at every grid point, from the invariant and the windows' staging
   buffers (the inputs at their blocks, the outputs at anything), the body runs and leaves the invariant as it was, the
   inputs as they were and each output's buffer at the block the specification names. The invariant hands the body its
   nine gather buffers, its nine cells at zero, the six tables and the three tables of row numbers, and takes them back. -/
import proofs.«423553_j10307921510829_1_alg».proof.Proof.K.Data0
import proofs.«423553_j10307921510829_1_alg».proof.Proof.K.GatherRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region

variable (a0 : (pcfg0 (F := F)).Adm)
variable (V : (c : Dev nD) → (b : Ref sig .tc) → Buf (Elt F) ((c : Thread nD τ).loc b))

/-- Each window's current staging memref at point `t`, as the pipeline passes it to the body, and its wholeness. -/
abbrev ms0_0 (t : Fin (cfg0 a0).N) : Memref sig .tc .vmem S16x1 .f32 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S16x1 .f32 := spec0_1.stage ((cfg0 a0).slots t 1)
abbrev hs0_1 (t : Fin (cfg0 a0).N) : (ms0_1 a0 t).IsWhole := hstage0_1 (((cfg0 a0).slots t 1).cast nbuf0_1)
abbrev ms0_2 (t : Fin (cfg0 a0).N) : Memref sig .tc .vmem S1x128 .f32 := spec0_2.stage ((cfg0 a0).slots t 2)
abbrev hs0_2 (t : Fin (cfg0 a0).N) : (ms0_2 a0 t).IsWhole := hstage0_2 (((cfg0 a0).slots t 2).cast nbuf0_2)
abbrev ms0_3 (t : Fin (cfg0 a0).N) : Memref sig .tc .vmem S1x128 .f32 := spec0_3.stage ((cfg0 a0).slots t 3)
abbrev hs0_3 (t : Fin (cfg0 a0).N) : (ms0_3 a0 t).IsWhole := hstage0_3 (((cfg0 a0).slots t 3).cast nbuf0_3)
abbrev ms0_4 (t : Fin (cfg0 a0).N) : Memref sig .tc .vmem S128x129 .f32 := spec0_4.stage ((cfg0 a0).slots t 4)
abbrev hs0_4 (t : Fin (cfg0 a0).N) : (ms0_4 a0 t).IsWhole := hstage0_4 (((cfg0 a0).slots t 4).cast nbuf0_4)
abbrev ms0_5 (t : Fin (cfg0 a0).N) : Memref sig .tc .vmem S128x128 .f32 := spec0_5.stage ((cfg0 a0).slots t 5)
abbrev hs0_5 (t : Fin (cfg0 a0).N) : (ms0_5 a0 t).IsWhole := hstage0_5 (((cfg0 a0).slots t 5).cast nbuf0_5)
abbrev ms0_6 (t : Fin (cfg0 a0).N) : Memref sig .tc .vmem S128 .f32 := spec0_6.stage ((cfg0 a0).slots t 6)
abbrev hs0_6 (t : Fin (cfg0 a0).N) : (ms0_6 a0 t).IsWhole := hstage0_6 (((cfg0 a0).slots t 6).cast nbuf0_6)
abbrev ms0_7 (t : Fin (cfg0 a0).N) : Memref sig .tc .vmem S128 .f32 := spec0_7.stage ((cfg0 a0).slots t 7)
abbrev hs0_7 (t : Fin (cfg0 a0).N) : (ms0_7 a0 t).IsWhole := hstage0_7 (((cfg0 a0).slots t 7).cast nbuf0_7)
abbrev ms0_8 (t : Fin (cfg0 a0).N) : Memref sig .tc .vmem S128x129 .f32 := spec0_8.stage ((cfg0 a0).slots t 8)
abbrev hs0_8 (t : Fin (cfg0 a0).N) : (ms0_8 a0 t).IsWhole := hstage0_8 (((cfg0 a0).slots t 8).cast nbuf0_8)
abbrev ms0_9 (t : Fin (cfg0 a0).N) : Memref sig .tc .vmem S128x128 .f32 := spec0_9.stage ((cfg0 a0).slots t 9)
abbrev hs0_9 (t : Fin (cfg0 a0).N) : (ms0_9 a0 t).IsWhole := hstage0_9 (((cfg0 a0).slots t 9).cast nbuf0_9)
abbrev ms0_10 (t : Fin (cfg0 a0).N) : Memref sig .tc .vmem S128 .f32 := spec0_10.stage ((cfg0 a0).slots t 10)
abbrev hs0_10 (t : Fin (cfg0 a0).N) : (ms0_10 a0 t).IsWhole := hstage0_10 (((cfg0 a0).slots t 10).cast nbuf0_10)
abbrev ms0_11 (t : Fin (cfg0 a0).N) : Memref sig .tc .vmem S128 .f32 := spec0_11.stage ((cfg0 a0).slots t 11)
abbrev hs0_11 (t : Fin (cfg0 a0).N) : (ms0_11 a0 t).IsWhole := hstage0_11 (((cfg0 a0).slots t 11).cast nbuf0_11)
abbrev ms0_12 (t : Fin (cfg0 a0).N) : Memref sig .tc .vmem S256x512 .f32 := spec0_12.stage ((cfg0 a0).slots t 12)
abbrev hs0_12 (t : Fin (cfg0 a0).N) : (ms0_12 a0 t).IsWhole := hstage0_12 (((cfg0 a0).slots t 12).cast nbuf0_12)
abbrev ms0_13 (t : Fin (cfg0 a0).N) : Memref sig .tc .vmem S256 .f32 := spec0_13.stage ((cfg0 a0).slots t 13)
abbrev hs0_13 (t : Fin (cfg0 a0).N) : (ms0_13 a0 t).IsWhole := hstage0_13 (((cfg0 a0).slots t 13).cast nbuf0_13)
abbrev ms0_14 (t : Fin (cfg0 a0).N) : Memref sig .tc .vmem S128x1 .f32 := spec0_14.stage ((cfg0 a0).slots t 14)
abbrev hs0_14 (t : Fin (cfg0 a0).N) : (ms0_14 a0 t).IsWhole := hstage0_14 (((cfg0 a0).slots t 14).cast nbuf0_14)
abbrev ms0_15 (t : Fin (cfg0 a0).N) : Memref sig .tc .vmem S128 .f32 := spec0_15.stage ((cfg0 a0).slots t 15)
abbrev hs0_15 (t : Fin (cfg0 a0).N) : (ms0_15 a0 t).IsWhole := hstage0_15 (((cfg0 a0).slots t 15).cast nbuf0_15)
abbrev ms0_16 (t : Fin (cfg0 a0).N) : Memref sig .tc .vmem S16x256 .f32 := spec0_16.stage ((cfg0 a0).slots t 16)
abbrev hs0_16 (t : Fin (cfg0 a0).N) : (ms0_16 a0 t).IsWhole := hstage0_16 (((cfg0 a0).slots t 16).cast nbuf0_16)
abbrev ms0_17 (t : Fin (cfg0 a0).N) : Memref sig .tc .vmem S16x256 .f32 := spec0_17.stage ((cfg0 a0).slots t 17)
abbrev hs0_17 (t : Fin (cfg0 a0).N) : (ms0_17 a0 t).IsWhole := hstage0_17 (((cfg0 a0).slots t 17).cast nbuf0_17)
abbrev ms0_18 (t : Fin (cfg0 a0).N) : Memref sig .tc .vmem S16x128 .f32 := spec0_18.stage ((cfg0 a0).slots t 18)
abbrev hs0_18 (t : Fin (cfg0 a0).N) : (ms0_18 a0 t).IsWhole := hstage0_18 (((cfg0 a0).slots t 18).cast nbuf0_18)
abbrev ms0_19 (t : Fin (cfg0 a0).N) : Memref sig .tc .vmem S16x128 .f32 := spec0_19.stage ((cfg0 a0).slots t 19)
abbrev hs0_19 (t : Fin (cfg0 a0).N) : (ms0_19 a0 t).IsWhole := hstage0_19 (((cfg0 a0).slots t 19).cast nbuf0_19)
abbrev ms0_20 (t : Fin (cfg0 a0).N) : Memref sig .tc .vmem S16x128 .f32 := spec0_20.stage ((cfg0 a0).slots t 20)
abbrev hs0_20 (t : Fin (cfg0 a0).N) : (ms0_20 a0 t).IsWhole := hstage0_20 (((cfg0 a0).slots t 20).cast nbuf0_20)
abbrev ms0_21 (t : Fin (cfg0 a0).N) : Memref sig .tc .vmem S16x128 .f32 := spec0_21.stage ((cfg0 a0).slots t 21)
abbrev hs0_21 (t : Fin (cfg0 a0).N) : (ms0_21 a0 t).IsWhole := hstage0_21 (((cfg0 a0).slots t 21).cast nbuf0_21)

/-- The body's call at point `t`. -/
abbrev bodyAt0 (t : Fin (cfg0 a0).N) : Prog (TpuEff nD τ sig (Elt F) Λ₀ .tc) PUnit :=
  cc0__gather_compute_kernel (grid0.coords t) (Memref.whole main_arg0) (Memref.isWhole_whole _) (Memref.whole main_arg2) (Memref.isWhole_whole _) (Memref.whole main_arg1) (Memref.isWhole_whole _) (ms0_0 a0 t) (hs0_0 a0 t) (ms0_1 a0 t) (hs0_1 a0 t) (Memref.whole main_arg5) (Memref.isWhole_whole _) (Memref.whole main_arg6) (Memref.isWhole_whole _) (Memref.whole main_arg9) (Memref.isWhole_whole _) (Memref.whole main_arg10) (Memref.isWhole_whole _) (Memref.whole main_arg7) (Memref.isWhole_whole _) (Memref.whole main_arg8) (Memref.isWhole_whole _) (ms0_2 a0 t) (hs0_2 a0 t) (ms0_3 a0 t) (hs0_3 a0 t) (ms0_4 a0 t) (hs0_4 a0 t) (ms0_5 a0 t) (hs0_5 a0 t) (ms0_6 a0 t) (hs0_6 a0 t) (ms0_7 a0 t) (hs0_7 a0 t) (ms0_8 a0 t) (hs0_8 a0 t) (ms0_9 a0 t) (hs0_9 a0 t) (ms0_10 a0 t) (hs0_10 a0 t) (ms0_11 a0 t) (hs0_11 a0 t) (ms0_12 a0 t) (hs0_12 a0 t) (ms0_13 a0 t) (hs0_13 a0 t) (ms0_14 a0 t) (hs0_14 a0 t) (ms0_15 a0 t) (hs0_15 a0 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9

/-- Each input's current staging buffer holds its block at every point, fetched there or not. -/
theorem before0_0 (c : Dev nD) (h : IdsOk V c) (t : Fin (cfg0 a0).N) (d) : (dat0 a0 V c h).before 0 t d = iblk0 a0 V c 0 t :=
  ((dat0 a0 V c h).before_in_eq_fetched 0 rfl (fun _ => rfl) (fun _ _ _ => rfl)
      (fun t => by show iblk0 a0 V c 0 t = _; unfold Dat.blockOf iblk0; rfl) t d).trans
    (by unfold Dat.fetched Dat.blockOf iblk0; rfl)
theorem before0_1 (c : Dev nD) (h : IdsOk V c) (t : Fin (cfg0 a0).N) (d) : (dat0 a0 V c h).before 1 t d = iblk0 a0 V c 1 t :=
  ((dat0 a0 V c h).before_in_eq_fetched 1 rfl (fun _ => rfl) (fun _ _ _ => rfl)
      (fun t => by show iblk0 a0 V c 1 t = _; unfold Dat.blockOf iblk0; rfl) t d).trans
    (by unfold Dat.fetched Dat.blockOf iblk0; rfl)
theorem before0_2 (c : Dev nD) (h : IdsOk V c) (t : Fin (cfg0 a0).N) (d) : (dat0 a0 V c h).before 2 t d = iblk0 a0 V c 2 t :=
  ((dat0 a0 V c h).before_in_eq_fetched 2 rfl (fun _ => rfl) (fun _ _ _ => rfl)
      (fun t => by show iblk0 a0 V c 2 t = _; unfold Dat.blockOf iblk0; rfl) t d).trans
    (by unfold Dat.fetched Dat.blockOf iblk0; rfl)
theorem before0_3 (c : Dev nD) (h : IdsOk V c) (t : Fin (cfg0 a0).N) (d) : (dat0 a0 V c h).before 3 t d = iblk0 a0 V c 3 t :=
  ((dat0 a0 V c h).before_in_eq_fetched 3 rfl (fun _ => rfl) (fun _ _ _ => rfl)
      (fun t => by show iblk0 a0 V c 3 t = _; unfold Dat.blockOf iblk0; rfl) t d).trans
    (by unfold Dat.fetched Dat.blockOf iblk0; rfl)
theorem before0_4 (c : Dev nD) (h : IdsOk V c) (t : Fin (cfg0 a0).N) (d) : (dat0 a0 V c h).before 4 t d = iblk0 a0 V c 4 t :=
  ((dat0 a0 V c h).before_in_eq_fetched 4 rfl (fun _ => rfl) (fun _ _ _ => rfl)
      (fun t => by show iblk0 a0 V c 4 t = _; unfold Dat.blockOf iblk0; rfl) t d).trans
    (by unfold Dat.fetched Dat.blockOf iblk0; rfl)
theorem before0_5 (c : Dev nD) (h : IdsOk V c) (t : Fin (cfg0 a0).N) (d) : (dat0 a0 V c h).before 5 t d = iblk0 a0 V c 5 t :=
  ((dat0 a0 V c h).before_in_eq_fetched 5 rfl (fun _ => rfl) (fun _ _ _ => rfl)
      (fun t => by show iblk0 a0 V c 5 t = _; unfold Dat.blockOf iblk0; rfl) t d).trans
    (by unfold Dat.fetched Dat.blockOf iblk0; rfl)
theorem before0_6 (c : Dev nD) (h : IdsOk V c) (t : Fin (cfg0 a0).N) (d) : (dat0 a0 V c h).before 6 t d = iblk0 a0 V c 6 t :=
  ((dat0 a0 V c h).before_in_eq_fetched 6 rfl (fun _ => rfl) (fun _ _ _ => rfl)
      (fun t => by show iblk0 a0 V c 6 t = _; unfold Dat.blockOf iblk0; rfl) t d).trans
    (by unfold Dat.fetched Dat.blockOf iblk0; rfl)
theorem before0_7 (c : Dev nD) (h : IdsOk V c) (t : Fin (cfg0 a0).N) (d) : (dat0 a0 V c h).before 7 t d = iblk0 a0 V c 7 t :=
  ((dat0 a0 V c h).before_in_eq_fetched 7 rfl (fun _ => rfl) (fun _ _ _ => rfl)
      (fun t => by show iblk0 a0 V c 7 t = _; unfold Dat.blockOf iblk0; rfl) t d).trans
    (by unfold Dat.fetched Dat.blockOf iblk0; rfl)
theorem before0_8 (c : Dev nD) (h : IdsOk V c) (t : Fin (cfg0 a0).N) (d) : (dat0 a0 V c h).before 8 t d = iblk0 a0 V c 8 t :=
  ((dat0 a0 V c h).before_in_eq_fetched 8 rfl (fun _ => rfl) (fun _ _ _ => rfl)
      (fun t => by show iblk0 a0 V c 8 t = _; unfold Dat.blockOf iblk0; rfl) t d).trans
    (by unfold Dat.fetched Dat.blockOf iblk0; rfl)
theorem before0_9 (c : Dev nD) (h : IdsOk V c) (t : Fin (cfg0 a0).N) (d) : (dat0 a0 V c h).before 9 t d = iblk0 a0 V c 9 t :=
  ((dat0 a0 V c h).before_in_eq_fetched 9 rfl (fun _ => rfl) (fun _ _ _ => rfl)
      (fun t => by show iblk0 a0 V c 9 t = _; unfold Dat.blockOf iblk0; rfl) t d).trans
    (by unfold Dat.fetched Dat.blockOf iblk0; rfl)
theorem before0_10 (c : Dev nD) (h : IdsOk V c) (t : Fin (cfg0 a0).N) (d) : (dat0 a0 V c h).before 10 t d = iblk0 a0 V c 10 t :=
  ((dat0 a0 V c h).before_in_eq_fetched 10 rfl (fun _ => rfl) (fun _ _ _ => rfl)
      (fun t => by show iblk0 a0 V c 10 t = _; unfold Dat.blockOf iblk0; rfl) t d).trans
    (by unfold Dat.fetched Dat.blockOf iblk0; rfl)
theorem before0_11 (c : Dev nD) (h : IdsOk V c) (t : Fin (cfg0 a0).N) (d) : (dat0 a0 V c h).before 11 t d = iblk0 a0 V c 11 t :=
  ((dat0 a0 V c h).before_in_eq_fetched 11 rfl (fun _ => rfl) (fun _ _ _ => rfl)
      (fun t => by show iblk0 a0 V c 11 t = _; unfold Dat.blockOf iblk0; rfl) t d).trans
    (by unfold Dat.fetched Dat.blockOf iblk0; rfl)
theorem before0_12 (c : Dev nD) (h : IdsOk V c) (t : Fin (cfg0 a0).N) (d) : (dat0 a0 V c h).before 12 t d = iblk0 a0 V c 12 t :=
  ((dat0 a0 V c h).before_in_eq_fetched 12 rfl (fun _ => rfl) (fun _ _ _ => rfl)
      (fun t => by show iblk0 a0 V c 12 t = _; unfold Dat.blockOf iblk0; rfl) t d).trans
    (by unfold Dat.fetched Dat.blockOf iblk0; rfl)
theorem before0_13 (c : Dev nD) (h : IdsOk V c) (t : Fin (cfg0 a0).N) (d) : (dat0 a0 V c h).before 13 t d = iblk0 a0 V c 13 t :=
  ((dat0 a0 V c h).before_in_eq_fetched 13 rfl (fun _ => rfl) (fun _ _ _ => rfl)
      (fun t => by show iblk0 a0 V c 13 t = _; unfold Dat.blockOf iblk0; rfl) t d).trans
    (by unfold Dat.fetched Dat.blockOf iblk0; rfl)
theorem before0_14 (c : Dev nD) (h : IdsOk V c) (t : Fin (cfg0 a0).N) (d) : (dat0 a0 V c h).before 14 t d = iblk0 a0 V c 14 t :=
  ((dat0 a0 V c h).before_in_eq_fetched 14 rfl (fun _ => rfl) (fun _ _ _ => rfl)
      (fun t => by show iblk0 a0 V c 14 t = _; unfold Dat.blockOf iblk0; rfl) t d).trans
    (by unfold Dat.fetched Dat.blockOf iblk0; rfl)
theorem before0_15 (c : Dev nD) (h : IdsOk V c) (t : Fin (cfg0 a0).N) (d) : (dat0 a0 V c h).before 15 t d = iblk0 a0 V c 15 t :=
  ((dat0 a0 V c h).before_in_eq_fetched 15 rfl (fun _ => rfl) (fun _ _ _ => rfl)
      (fun t => by show iblk0 a0 V c 15 t = _; unfold Dat.blockOf iblk0; rfl) t d).trans
    (by unfold Dat.fetched Dat.blockOf iblk0; rfl)

/-- The nine cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) := by
  rw [Pipeline.ownSems0_eq_of_list c osem0 [0, 1, 2, 3, 4, 5, 6, 7, 8] (by decide) (by decide)]; rfl

/-- The six tables at their entry contents, listed. -/
theorem hbmPts0_eq (c : Dev nD) :
    (bigSep H0 (fun b => ((c : Thread nD τ).loc b) ↦{fullShare} V c b) : sProp 𝕄)
      = iprop(pt c (Memref.whole main_arg5) (V c main_arg5) ∗ pt c (Memref.whole main_arg6) (V c main_arg6) ∗ pt c (Memref.whole main_arg9) (V c main_arg9) ∗ pt c (Memref.whole main_arg10) (V c main_arg10) ∗ pt c (Memref.whole main_arg7) (V c main_arg7) ∗ pt c (Memref.whole main_arg8) (V c main_arg8)) := by
  rw [BI.bigSep_eq_bigSepL_of_eq [main_arg5, main_arg6, main_arg9, main_arg10, main_arg7, main_arg8] (by decide) (by decide)]; rfl

/-- The three tables of row numbers held, listed. -/
theorem prefHeld0_eq (c : Dev nD) :
    (Pipeline.prefHeld (Ix := Unit) (Name := ℕ) (U := Pipeline.UD sig nD τ) (Lvl := ℕ) pre0 c (fun _ => fullShare) a0.1 : sProp 𝕄)
      = iprop(pt c (Memref.whole main_arg0) (a0.1 0) ∗ pt c (Memref.whole main_arg2) (a0.1 1) ∗ pt c (Memref.whole main_arg1) (a0.1 2)) := by
  unfold Pipeline.prefHeld
  rw [BI.bigSep_univ_eq_bigSepL [(0 : Fin 3), (1 : Fin 3), (2 : Fin 3)] (by decide) (by decide)]; rfl

/-- What the body is called with at point `t`, -/
def bodyPre0 (c : Dev nD) (h : IdsOk V c) (t : Fin (cfg0 a0).N) : sProp 𝕄 :=
  iprop((dat0 a0 V c h).Φ t.castSucc ∗ (dat0 a0 V c h).owesAt () t.castSucc
    ∗ (∃ d, owns (c : Thread nD τ) (ms0_0 a0 t) fullShare ((dat0 a0 V c h).before 0 t d))
    ∗ (∃ d, owns (c : Thread nD τ) (ms0_1 a0 t) fullShare ((dat0 a0 V c h).before 1 t d))
    ∗ (∃ d, owns (c : Thread nD τ) (ms0_2 a0 t) fullShare ((dat0 a0 V c h).before 2 t d))
    ∗ (∃ d, owns (c : Thread nD τ) (ms0_3 a0 t) fullShare ((dat0 a0 V c h).before 3 t d))
    ∗ (∃ d, owns (c : Thread nD τ) (ms0_4 a0 t) fullShare ((dat0 a0 V c h).before 4 t d))
    ∗ (∃ d, owns (c : Thread nD τ) (ms0_5 a0 t) fullShare ((dat0 a0 V c h).before 5 t d))
    ∗ (∃ d, owns (c : Thread nD τ) (ms0_6 a0 t) fullShare ((dat0 a0 V c h).before 6 t d))
    ∗ (∃ d, owns (c : Thread nD τ) (ms0_7 a0 t) fullShare ((dat0 a0 V c h).before 7 t d))
    ∗ (∃ d, owns (c : Thread nD τ) (ms0_8 a0 t) fullShare ((dat0 a0 V c h).before 8 t d))
    ∗ (∃ d, owns (c : Thread nD τ) (ms0_9 a0 t) fullShare ((dat0 a0 V c h).before 9 t d))
    ∗ (∃ d, owns (c : Thread nD τ) (ms0_10 a0 t) fullShare ((dat0 a0 V c h).before 10 t d))
    ∗ (∃ d, owns (c : Thread nD τ) (ms0_11 a0 t) fullShare ((dat0 a0 V c h).before 11 t d))
    ∗ (∃ d, owns (c : Thread nD τ) (ms0_12 a0 t) fullShare ((dat0 a0 V c h).before 12 t d))
    ∗ (∃ d, owns (c : Thread nD τ) (ms0_13 a0 t) fullShare ((dat0 a0 V c h).before 13 t d))
    ∗ (∃ d, owns (c : Thread nD τ) (ms0_14 a0 t) fullShare ((dat0 a0 V c h).before 14 t d))
    ∗ (∃ d, owns (c : Thread nD τ) (ms0_15 a0 t) fullShare ((dat0 a0 V c h).before 15 t d))
    ∗ (∃ d, owns (c : Thread nD τ) (ms0_16 a0 t) fullShare ((dat0 a0 V c h).before 16 t d))
    ∗ (∃ d, owns (c : Thread nD τ) (ms0_17 a0 t) fullShare ((dat0 a0 V c h).before 17 t d))
    ∗ (∃ d, owns (c : Thread nD τ) (ms0_18 a0 t) fullShare ((dat0 a0 V c h).before 18 t d))
    ∗ (∃ d, owns (c : Thread nD τ) (ms0_19 a0 t) fullShare ((dat0 a0 V c h).before 19 t d))
    ∗ (∃ d, owns (c : Thread nD τ) (ms0_20 a0 t) fullShare ((dat0 a0 V c h).before 20 t d))
    ∗ (∃ d, owns (c : Thread nD τ) (ms0_21 a0 t) fullShare ((dat0 a0 V c h).before 21 t d)))
/-- and what it returns. -/
def bodyPost0 (c : Dev nD) (h : IdsOk V c) (t : Fin (cfg0 a0).N) : sProp 𝕄 :=
  iprop((dat0 a0 V c h).Φ t.succ ∗ (dat0 a0 V c h).owesAt () t.succ
    ∗ owns (c : Thread nD τ) (ms0_0 a0 t) fullShare ((dat0 a0 V c h).after 0 t)
    ∗ owns (c : Thread nD τ) (ms0_1 a0 t) fullShare ((dat0 a0 V c h).after 1 t)
    ∗ owns (c : Thread nD τ) (ms0_2 a0 t) fullShare ((dat0 a0 V c h).after 2 t)
    ∗ owns (c : Thread nD τ) (ms0_3 a0 t) fullShare ((dat0 a0 V c h).after 3 t)
    ∗ owns (c : Thread nD τ) (ms0_4 a0 t) fullShare ((dat0 a0 V c h).after 4 t)
    ∗ owns (c : Thread nD τ) (ms0_5 a0 t) fullShare ((dat0 a0 V c h).after 5 t)
    ∗ owns (c : Thread nD τ) (ms0_6 a0 t) fullShare ((dat0 a0 V c h).after 6 t)
    ∗ owns (c : Thread nD τ) (ms0_7 a0 t) fullShare ((dat0 a0 V c h).after 7 t)
    ∗ owns (c : Thread nD τ) (ms0_8 a0 t) fullShare ((dat0 a0 V c h).after 8 t)
    ∗ owns (c : Thread nD τ) (ms0_9 a0 t) fullShare ((dat0 a0 V c h).after 9 t)
    ∗ owns (c : Thread nD τ) (ms0_10 a0 t) fullShare ((dat0 a0 V c h).after 10 t)
    ∗ owns (c : Thread nD τ) (ms0_11 a0 t) fullShare ((dat0 a0 V c h).after 11 t)
    ∗ owns (c : Thread nD τ) (ms0_12 a0 t) fullShare ((dat0 a0 V c h).after 12 t)
    ∗ owns (c : Thread nD τ) (ms0_13 a0 t) fullShare ((dat0 a0 V c h).after 13 t)
    ∗ owns (c : Thread nD τ) (ms0_14 a0 t) fullShare ((dat0 a0 V c h).after 14 t)
    ∗ owns (c : Thread nD τ) (ms0_15 a0 t) fullShare ((dat0 a0 V c h).after 15 t)
    ∗ owns (c : Thread nD τ) (ms0_16 a0 t) fullShare ((dat0 a0 V c h).after 16 t)
    ∗ owns (c : Thread nD τ) (ms0_17 a0 t) fullShare ((dat0 a0 V c h).after 17 t)
    ∗ owns (c : Thread nD τ) (ms0_18 a0 t) fullShare ((dat0 a0 V c h).after 18 t)
    ∗ owns (c : Thread nD τ) (ms0_19 a0 t) fullShare ((dat0 a0 V c h).after 19 t)
    ∗ owns (c : Thread nD τ) (ms0_20 a0 t) fullShare ((dat0 a0 V c h).after 20 t)
    ∗ owns (c : Thread nD τ) (ms0_21 a0 t) fullShare ((dat0 a0 V c h).after 21 t))

set_option maxHeartbeats 40000000 in
/-- The body at any point. What the run leaves in each output's buffer, read back, is the block the specification
    names (`hblk`). -/
theorem sound_body0
    (hids : ∀ c : Dev nD, IdsOk V c)
    (hT0 : ∀ c : Dev nD, RowWords c (Memref.whole main_arg0) (a0.1 0)) (hT1 : ∀ c : Dev nD, RowWords c (Memref.whole main_arg2) (a0.1 1))
    (hT2 : ∀ c : Dev nD, RowWords c (Memref.whole main_arg1) (a0.1 2))
    (hblk : ∀ (c : Dev nD) (t : Fin (cfg0 a0).N) (g0 : Bf (F := F) c (Memref.whole cc0_scratch0)) (g1 : Bf (F := F) c (Memref.whole cc0_scratch1)) (g2 : Bf (F := F) c (Memref.whole cc0_scratch2)) (g3 : Bf (F := F) c (Memref.whole cc0_scratch3)) (g4 : Bf (F := F) c (Memref.whole cc0_scratch4)) (g5 : Bf (F := F) c (Memref.whole cc0_scratch5)) (g6 : Bf (F := F) c (Memref.whole cc0_scratch6)) (g7 : Bf (F := F) c (Memref.whole cc0_scratch7)) (g8 : Bf (F := F) c (Memref.whole cc0_scratch8)),
        (ms0_16 a0 t).view.read (Elt F) ((ms0_16 a0 t).view.writes (Elt F) (ms0_16 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.1) = after0 a0 V c (hids c) 16 t
        ∧ (ms0_17 a0 t).view.read (Elt F) ((ms0_17 a0 t).view.writes (Elt F) (ms0_17 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.1) = after0 a0 V c (hids c) 17 t
        ∧ (ms0_18 a0 t).view.read (Elt F) ((ms0_18 a0 t).view.writes (Elt F) (ms0_18 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.1) = after0 a0 V c (hids c) 18 t
        ∧ (ms0_19 a0 t).view.read (Elt F) ((ms0_19 a0 t).view.writes (Elt F) (ms0_19 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.1) = after0 a0 V c (hids c) 19 t
        ∧ (ms0_20 a0 t).view.read (Elt F) ((ms0_20 a0 t).view.writes (Elt F) (ms0_20 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.2.1) = after0 a0 V c (hids c) 20 t
        ∧ (ms0_21 a0 t).view.read (Elt F) ((ms0_21 a0 t).view.writes (Elt F) (ms0_21 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.2.2) = after0 a0 V c (hids c) 21 t)
    (c : Dev nD) (t : Fin (cfg0 a0).N) :
    bodyPre0 a0 V c (hids c) t ⊢ wp frame (wpE (defs₀ (F := F)) Variants.none c none) Set.univ (bodyAt0 a0 t) (fun _ => bodyPost0 a0 V c (hids c) t) := by
  unfold bodyPre0 bodyPost0 bodyAt0
  simp only [before0_0, before0_1, before0_2, before0_3, before0_4, before0_5, before0_6, before0_7, before0_8, before0_9, before0_10, before0_11, before0_12, before0_13, before0_14, before0_15]
  rw [show (dat0 a0 V c (hids c)).Φ t.castSucc = Phi0 a0 V c from rfl, show (dat0 a0 V c (hids c)).Φ t.succ = Phi0 a0 V c from rfl]
  simp only [show ∀ w, (dat0 a0 V c (hids c)).after w t = after0 a0 V c (hids c) w t from fun _ => rfl]
  unfold Phi0
  rw [Pipeline.ΦD_eq, scopedRest0_eq, ownSems00_eq, hbmPts0_eq, prefHeld0_eq]
  unfold Dat.owesAt Pipeline.owesWithin
  rw [show (dat0 a0 V c (hids c)).owed t.castSucc = 0 from rfl, show (dat0 a0 V c (hids c)).owed t.succ = 0 from rfl]
  iintro ⟨⟨⟨⟨⟨%g0, Hg0⟩, ⟨%g1, Hg1⟩, ⟨%g2, Hg2⟩, ⟨%g3, Hg3⟩, ⟨%g4, Hg4⟩, ⟨%g5, Hg5⟩, ⟨%g6, Hg6⟩, ⟨%g7, Hg7⟩, ⟨%g8, Hg8⟩, HR9, HR10, HR11, HR12, HR13⟩, Hreg, ⟨Hs0, Hs1, Hs2, Hs3, Hs4, Hs5, Hs6, Hs7, Hs8⟩, ⟨Hh0, Hh1, Hh2, Hh3, Hh4, Hh5⟩⟩, ⟨Ht0, Ht1, Ht2⟩⟩, ⟨%W, -, HO⟩, ⟨%d0, HW0⟩, ⟨%d1, HW1⟩, ⟨%d2, HW2⟩, ⟨%d3, HW3⟩, ⟨%d4, HW4⟩, ⟨%d5, HW5⟩, ⟨%d6, HW6⟩, ⟨%d7, HW7⟩, ⟨%d8, HW8⟩, ⟨%d9, HW9⟩, ⟨%d10, HW10⟩, ⟨%d11, HW11⟩, ⟨%d12, HW12⟩, ⟨%d13, HW13⟩, ⟨%d14, HW14⟩, ⟨%d15, HW15⟩, ⟨%d16, HW16⟩, ⟨%d17, HW17⟩, ⟨%d18, HW18⟩, ⟨%d19, HW19⟩, ⟨%d20, HW20⟩, ⟨%d21, HW21⟩⟩
  have e := hblk c t g0 g1 g2 g3 g4 g5 g6 g7 g8
  iapply ((gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).2 W _)
  isplitl [HW0]; · iexact HW0
  isplitl [HW1]; · iexact HW1
  isplitl [HW2]; · iexact HW2
  isplitl [HW3]; · iexact HW3
  isplitl [HW4]; · iexact HW4
  isplitl [HW5]; · iexact HW5
  isplitl [HW6]; · iexact HW6
  isplitl [HW7]; · iexact HW7
  isplitl [HW8]; · iexact HW8
  isplitl [HW9]; · iexact HW9
  isplitl [HW10]; · iexact HW10
  isplitl [HW11]; · iexact HW11
  isplitl [HW12]; · iexact HW12
  isplitl [HW13]; · iexact HW13
  isplitl [HW14]; · iexact HW14
  isplitl [HW15]; · iexact HW15
  isplitl [HW16]; · iexists _; iexact HW16
  isplitl [HW17]; · iexists _; iexact HW17
  isplitl [HW18]; · iexists _; iexact HW18
  isplitl [HW19]; · iexists _; iexact HW19
  isplitl [HW20]; · iexists _; iexact HW20
  isplitl [HW21]; · iexists _; iexact HW21
  isplitl [Ht0]; · iexact Ht0
  isplitl [Ht1]; · iexact Ht1
  isplitl [Ht2]; · iexact Ht2
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hg6]; · iexact Hg6
  isplitl [Hg7]; · iexact Hg7
  isplitl [Hg8]; · iexact Hg8
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [HO]; · iexact HO
  iintro ⟨HW0, HW1, HW2, HW3, HW4, HW5, HW6, HW7, HW8, HW9, HW10, HW11, HW12, HW13, HW14, HW15, HW16, HW17, HW18, HW19, HW20, HW21, Ht0, Ht1, Ht2, Hh0, Hh1, Hh2, Hh3, Hh4, Hh5, ⟨%g0', Hg0⟩, ⟨%g1', Hg1⟩, ⟨%g2', Hg2⟩, ⟨%g3', Hg3⟩, ⟨%g4', Hg4⟩, ⟨%g5', Hg5⟩, ⟨%g6', Hg6⟩, ⟨%g7', Hg7⟩, ⟨%g8', Hg8⟩, Hs0, Hs1, Hs2, Hs3, Hs4, Hs5, Hs6, Hs7, Hs8, ⟨%W', HO'⟩⟩
  isplitl [Hg0 Hg1 Hg2 Hg3 Hg4 Hg5 Hg6 Hg7 Hg8 HR9 HR10 HR11 HR12 HR13 Hreg Hs0 Hs1 Hs2 Hs3 Hs4 Hs5 Hs6 Hs7 Hs8 Hh0 Hh1 Hh2 Hh3 Hh4 Hh5 Ht0 Ht1 Ht2]
  · isplitl [Hg0 Hg1 Hg2 Hg3 Hg4 Hg5 Hg6 Hg7 Hg8 HR9 HR10 HR11 HR12 HR13 Hreg Hs0 Hs1 Hs2 Hs3 Hs4 Hs5 Hs6 Hs7 Hs8 Hh0 Hh1 Hh2 Hh3 Hh4 Hh5]
    · isplitl [Hg0 Hg1 Hg2 Hg3 Hg4 Hg5 Hg6 Hg7 Hg8 HR9 HR10 HR11 HR12 HR13]
      · isplitl [Hg0]; · iexists g0'; iexact Hg0
        isplitl [Hg1]; · iexists g1'; iexact Hg1
        isplitl [Hg2]; · iexists g2'; iexact Hg2
        isplitl [Hg3]; · iexists g3'; iexact Hg3
        isplitl [Hg4]; · iexists g4'; iexact Hg4
        isplitl [Hg5]; · iexists g5'; iexact Hg5
        isplitl [Hg6]; · iexists g6'; iexact Hg6
        isplitl [Hg7]; · iexists g7'; iexact Hg7
        isplitl [Hg8]; · iexists g8'; iexact Hg8
        isplitl [HR9]; · iexact HR9
        isplitl [HR10]; · iexact HR10
        isplitl [HR11]; · iexact HR11
        isplitl [HR12]; · iexact HR12
        iexact HR13
      isplitl [Hreg]; · iexact Hreg
      isplitl [Hs0 Hs1 Hs2 Hs3 Hs4 Hs5 Hs6 Hs7 Hs8]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        isplitl [Hs7]; · iexact Hs7
        iexact Hs8
      isplitl [Hh0]; · iexact Hh0
      isplitl [Hh1]; · iexact Hh1
      isplitl [Hh2]; · iexact Hh2
      isplitl [Hh3]; · iexact Hh3
      isplitl [Hh4]; · iexact Hh4
      iexact Hh5
    isplitl [Ht0]; · iexact Ht0
    isplitl [Ht1]; · iexact Ht1
    iexact Ht2
  isplitl [HO']
  · iexists W'; isplitr; · ipureintro; exact fun _ _ => Or.inl trivial
    iexact HO'
  isplitl [HW0]; · iexact HW0
  isplitl [HW1]; · iexact HW1
  isplitl [HW2]; · iexact HW2
  isplitl [HW3]; · iexact HW3
  isplitl [HW4]; · iexact HW4
  isplitl [HW5]; · iexact HW5
  isplitl [HW6]; · iexact HW6
  isplitl [HW7]; · iexact HW7
  isplitl [HW8]; · iexact HW8
  isplitl [HW9]; · iexact HW9
  isplitl [HW10]; · iexact HW10
  isplitl [HW11]; · iexact HW11
  isplitl [HW12]; · iexact HW12
  isplitl [HW13]; · iexact HW13
  isplitl [HW14]; · iexact HW14
  isplitl [HW15]; · iexact HW15
  isplitl [HW16]
  · unfold owns; iexists _; isplitr
    swap; · iexact HW16
    ipureintro; exact e.1
  isplitl [HW17]
  · unfold owns; iexists _; isplitr
    swap; · iexact HW17
    ipureintro; exact e.2.1
  isplitl [HW18]
  · unfold owns; iexists _; isplitr
    swap; · iexact HW18
    ipureintro; exact e.2.2.1
  isplitl [HW19]
  · unfold owns; iexists _; isplitr
    swap; · iexact HW19
    ipureintro; exact e.2.2.2.1
  isplitl [HW20]
  · unfold owns; iexists _; isplitr
    swap; · iexact HW20
    ipureintro; exact e.2.2.2.2.1
  unfold owns; iexists _; isplitr
  swap; · iexact HW21
  ipureintro; exact e.2.2.2.2.2

set_option maxRecDepth 131072 in
set_option maxHeartbeats 4000000 in
/-- The library's body obligation, at every point. -/
theorem body_obligation0
    (hids : ∀ c : Dev nD, IdsOk V c)
    (hT0 : ∀ c : Dev nD, RowWords c (Memref.whole main_arg0) (a0.1 0)) (hT1 : ∀ c : Dev nD, RowWords c (Memref.whole main_arg2) (a0.1 1))
    (hT2 : ∀ c : Dev nD, RowWords c (Memref.whole main_arg1) (a0.1 2))
    (hblk : ∀ (c : Dev nD) (t : Fin (cfg0 a0).N) (g0 : Bf (F := F) c (Memref.whole cc0_scratch0)) (g1 : Bf (F := F) c (Memref.whole cc0_scratch1)) (g2 : Bf (F := F) c (Memref.whole cc0_scratch2)) (g3 : Bf (F := F) c (Memref.whole cc0_scratch3)) (g4 : Bf (F := F) c (Memref.whole cc0_scratch4)) (g5 : Bf (F := F) c (Memref.whole cc0_scratch5)) (g6 : Bf (F := F) c (Memref.whole cc0_scratch6)) (g7 : Bf (F := F) c (Memref.whole cc0_scratch7)) (g8 : Bf (F := F) c (Memref.whole cc0_scratch8)),
        (ms0_16 a0 t).view.read (Elt F) ((ms0_16 a0 t).view.writes (Elt F) (ms0_16 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.1) = after0 a0 V c (hids c) 16 t
        ∧ (ms0_17 a0 t).view.read (Elt F) ((ms0_17 a0 t).view.writes (Elt F) (ms0_17 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.1) = after0 a0 V c (hids c) 17 t
        ∧ (ms0_18 a0 t).view.read (Elt F) ((ms0_18 a0 t).view.writes (Elt F) (ms0_18 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.1) = after0 a0 V c (hids c) 18 t
        ∧ (ms0_19 a0 t).view.read (Elt F) ((ms0_19 a0 t).view.writes (Elt F) (ms0_19 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.1) = after0 a0 V c (hids c) 19 t
        ∧ (ms0_20 a0 t).view.read (Elt F) ((ms0_20 a0 t).view.writes (Elt F) (ms0_20 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.2.1) = after0 a0 V c (hids c) 20 t
        ∧ (ms0_21 a0 t).view.read (Elt F) ((ms0_21 a0 t).view.writes (Elt F) (ms0_21 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.2.2) = after0 a0 V c (hids c) 21 t)
    (c : Dev nD) : BodyObligation (dat0 (F := F) a0 V c (hids c)) (defs₀ (F := F)) Variants.none () Set.univ := fun t => by
  rw [bigSep_W0, bigSep_W0]
  exact sound_body0 a0 V hids hT0 hT1 hT2 hblk c t

end Region

end Cert.Kernel.Hand

end
-- ==== Proof.K.Region1.lean ====
/- The scatter region's body obligation: at every grid point, from the invariant before the point and the two input
   blocks staged, the body runs and leaves the invariant after the point and the two staging buffers as they were. The
   invariant hands the body the scratch word, its four cells at zero, the two tables of row numbers and the four tables
   at what the earlier points left; the run overwrites 16 rows of each table; read back, that is one more step of the
   tables' recursion. -/
import proofs.«423553_j10307921510829_1_alg».proof.Proof.K.Data1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region

variable (a1 : (pcfg1 (F := F)).Adm)
variable (V : (c : Dev nD) → (b : Ref sig .tc) → Buf (Elt F) ((c : Thread nD τ).loc b))

/-- Each input window's current staging memref at point `t`, as the pipeline passes it to the body, and its wholeness. -/
abbrev ms1_0 (t : Fin (cfg1 a1).N) : Memref sig .tc .vmem S16x128 .f32 := spec1_0.stage ((cfg1 a1).slots t 0)
abbrev hs1_0 (t : Fin (cfg1 a1).N) : (ms1_0 a1 t).IsWhole := hstage1_0 (((cfg1 a1).slots t 0).cast nbuf1_0)
abbrev ms1_1 (t : Fin (cfg1 a1).N) : Memref sig .tc .vmem S16x128 .f32 := spec1_1.stage ((cfg1 a1).slots t 1)
abbrev hs1_1 (t : Fin (cfg1 a1).N) : (ms1_1 a1 t).IsWhole := hstage1_1 (((cfg1 a1).slots t 1).cast nbuf1_1)

/-- The body's call at point `t`. -/
abbrev bodyAt1 (t : Fin (cfg1 a1).N) : Prog (TpuEff nD τ sig (Elt F) Λ₀ .tc) PUnit :=
  cc1__scatter_kernel (grid1.coords t) (Memref.whole main_arg0) (Memref.isWhole_whole _) (Memref.whole main_arg2) (Memref.isWhole_whole _)
    (ms1_0 a1 t) (hs1_0 a1 t) (ms1_1 a1 t) (hs1_1 a1 t)
    (Memref.whole main_v1_0) (Memref.isWhole_whole _) (Memref.whole main_v1_1) (Memref.isWhole_whole _)
    (Memref.whole main_v1_2) (Memref.isWhole_whole _) (Memref.whole main_v1_3) (Memref.isWhole_whole _)
    (Memref.whole main_v1_0) (Memref.isWhole_whole _) (Memref.whole main_v1_1) (Memref.isWhole_whole _)
    (Memref.whole main_v1_2) (Memref.isWhole_whole _) (Memref.whole main_v1_3) (Memref.isWhole_whole _)
    (Memref.whole cc1_scratch0) (Memref.isWhole_whole _) cc1_scratch1

/-- Each input's current staging buffer holds its block at every point, fetched there or not. -/
theorem before1_0 (c : Dev nD) (t : Fin (cfg1 a1).N) (d) : (dat1 a1 V c).before 0 t d = iblk1 a1 V c 0 t :=
  ((dat1 a1 V c).before_in_eq_fetched 0 rfl (fun _ => rfl) (fun _ _ _ => rfl)
      (fun t => by show iblk1 a1 V c 0 t = _; unfold Dat.blockOf iblk1; rfl) t d).trans
    (by unfold Dat.fetched Dat.blockOf iblk1; rfl)
theorem before1_1 (c : Dev nD) (t : Fin (cfg1 a1).N) (d) : (dat1 a1 V c).before 1 t d = iblk1 a1 V c 1 t :=
  ((dat1 a1 V c).before_in_eq_fetched 1 rfl (fun _ => rfl) (fun _ _ _ => rfl)
      (fun t => by show iblk1 a1 V c 1 t = _; unfold Dat.blockOf iblk1; rfl) t d).trans
    (by unfold Dat.fetched Dat.blockOf iblk1; rfl)

/-- The cells at zero, listed. -/
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 43) 0 ∗ semVal ((c : Thread nD τ), SemLoc.dma 44) 0
          ∗ semVal ((c : Thread nD τ), SemLoc.dma 45) 0 ∗ semVal ((c : Thread nD τ), SemLoc.dma 46) 0) := by
  rw [Pipeline.ownSems0_eq_of_list c osem1 [0, 1, 2, 3] (by decide) (by decide)]; rfl

/-- The two tables of row numbers held, listed. -/
theorem prefHeld1_eq (c : Dev nD) :
    (Pipeline.prefHeld (Ix := Unit) (Name := ℕ) (U := Pipeline.UD sig nD τ) (Lvl := ℕ) pre1 c (fun _ => fullShare) a1.1 : sProp 𝕄)
      = iprop(pt c (Memref.whole main_arg0) (a1.1 0) ∗ pt c (Memref.whole main_arg2) (a1.1 1)) := by
  unfold Pipeline.prefHeld
  rw [BI.bigSep_univ_eq_bigSepL [(0 : Fin 2), (1 : Fin 2)] (by decide) (by decide)]; rfl

/-- What the body is called with at point `t`, -/
def bodyPre1 (c : Dev nD) (t : Fin (cfg1 a1).N) : sProp 𝕄 :=
  iprop((dat1 a1 V c).Φ t.castSucc ∗ (dat1 a1 V c).owesAt () t.castSucc
    ∗ (∃ d, owns (c : Thread nD τ) (ms1_0 a1 t) fullShare ((dat1 a1 V c).before 0 t d))
    ∗ (∃ d, owns (c : Thread nD τ) (ms1_1 a1 t) fullShare ((dat1 a1 V c).before 1 t d)))
/-- and what it returns. -/
def bodyPost1 (c : Dev nD) (t : Fin (cfg1 a1).N) : sProp 𝕄 :=
  iprop((dat1 a1 V c).Φ t.succ ∗ (dat1 a1 V c).owesAt () t.succ
    ∗ owns (c : Thread nD τ) (ms1_0 a1 t) fullShare ((dat1 a1 V c).after 0 t)
    ∗ owns (c : Thread nD τ) (ms1_1 a1 t) fullShare ((dat1 a1 V c).after 1 t))

end Region

section Region

variable (a1 : (pcfg1 (F := F)).Adm)
variable (V : (c : Dev nD) → (b : Ref sig .tc) → Buf (Elt F) ((c : Thread nD τ).loc b))

set_option maxHeartbeats 4000000 in
/-- The body at any point. The invariant hands the body the scratch word, its four cells at zero, the two tables of
    row numbers and the four tables as the earlier points left them; the run overwrites 16 rows of each; what it leaves is
    the tables' next step (`hstep`); the core's record of waits goes in at whatever the points before recorded and
    comes back longer. -/
theorem sound_body1
    (hU : ∀ c : Dev nD, RowWords c (Memref.whole main_arg0) (a1.1 0)) (hI : ∀ c : Dev nD, RowWords c (Memref.whole main_arg2) (a1.1 1))
    (hstep : ∀ (c : Dev nD) (t : Fin (cfg1 a1).N) (g : Bf (F := F) c (Memref.whole cc1_scratch0)),
      (scatterRun c t (ms1_0 a1 t) (hs1_0 a1 t) (ms1_1 a1 t) (hs1_1 a1 t) (iblk1 a1 V c 0 t) (iblk1 a1 V c 1 t) (a1.1 0) (a1.1 1)
          (tabU a1 V c t.val) (tabI a1 V c t.val) (flagU V c t.val) (flagI V c t.val) g (hU c) (hI c)).1
        = (tabU a1 V c (t.val + 1), tabI a1 V c (t.val + 1), flagU V c (t.val + 1), flagI V c (t.val + 1)))
    (c : Dev nD) (t : Fin (cfg1 a1).N) :
    bodyPre1 a1 V c t ⊢ wp frame (wpE (defs₀ (F := F)) Variants.none c none) Set.univ (bodyAt1 a1 t) (fun _ => bodyPost1 a1 V c t) := by
  unfold bodyPre1 bodyPost1 bodyAt1
  simp only [before1_0, before1_1]
  rw [show (dat1 a1 V c).Φ t.castSucc = Phi1 a1 V c t.val from rfl, show (dat1 a1 V c).Φ t.succ = Phi1 a1 V c (t.val + 1) from rfl,
    show (dat1 a1 V c).after 0 t = iblk1 a1 V c 0 t from rfl, show (dat1 a1 V c).after 1 t = iblk1 a1 V c 1 t from rfl]
  unfold Phi1
  rw [scopedRest1_split, ownSems01_eq, prefHeld1_eq]
  simp only [owns_whole]
  unfold Dat.owesAt Pipeline.owesWithin
  rw [show (dat1 a1 V c).owed t.castSucc = 0 from rfl, show (dat1 a1 V c).owed t.succ = 0 from rfl]
  iintro ⟨⟨⟨⟨%g, Hg⟩, Hrest⟩, Hreg, ⟨Hs0, Hs1, Hs2, Hs3⟩, ⟨Ht0, Ht2⟩, HU, HI, HFU, HFI⟩, ⟨%W, -, HW⟩, ⟨%d0, H0⟩, ⟨%d1, H1⟩⟩
  have e := hstep c t g
  iapply ((scatterRun c t (ms1_0 a1 t) (hs1_0 a1 t) (ms1_1 a1 t) (hs1_1 a1 t) (iblk1 a1 V c 0 t) (iblk1 a1 V c 1 t) (a1.1 0) (a1.1 1)
      (tabU a1 V c t.val) (tabI a1 V c t.val) (flagU V c t.val) (flagI V c t.val) g (hU c) (hI c)).2 W _)
  rw [e]
  isplitl [H0]; · iexact H0
  isplitl [H1]; · iexact H1
  isplitl [Ht0]; · iexact Ht0
  isplitl [Ht2]; · iexact Ht2
  isplitl [HU]; · iexact HU
  isplitl [HI]; · iexact HI
  isplitl [HFU]; · iexact HFU
  isplitl [HFI]; · iexact HFI
  isplitl [Hg]; · iexact Hg
  isplitl [Hs0]; · iexact Hs0
  isplitl [Hs1]; · iexact Hs1
  isplitl [Hs2]; · iexact Hs2
  isplitl [Hs3]; · iexact Hs3
  isplitl [HW]; · iexact HW
  iintro ⟨H0, H1, Ht0, Ht2, HU, HI, HFU, HFI, ⟨%g', Hg⟩, Hs0, Hs1, Hs2, Hs3, ⟨%W', HW'⟩⟩
  isplitl [Hg Hrest Hreg Hs0 Hs1 Hs2 Hs3 Ht0 Ht2 HU HI HFU HFI]
  · isplitl [Hg Hrest]
    · isplitl [Hg]; · iexists g'; iexact Hg
      iexact Hrest
    isplitl [Hreg]; · iexact Hreg
    isplitl [Hs0 Hs1 Hs2 Hs3]
    · isplitl [Hs0]; · iexact Hs0
      isplitl [Hs1]; · iexact Hs1
      isplitl [Hs2]; · iexact Hs2
      iexact Hs3
    isplitl [Ht0 Ht2]
    · isplitl [Ht0]; · iexact Ht0
      iexact Ht2
    isplitl [HU]; · iexact HU
    isplitl [HI]; · iexact HI
    isplitl [HFU]; · iexact HFU
    iexact HFI
  isplitl [HW']
  · iexists W'; isplitr; · ipureintro; exact fun _ _ => Or.inl trivial
    iexact HW'
  isplitl [H0]; · iexact H0
  iexact H1

/-- The library's body obligation, at every point. -/
theorem body_obligation1
    (hU : ∀ c : Dev nD, RowWords c (Memref.whole main_arg0) (a1.1 0)) (hI : ∀ c : Dev nD, RowWords c (Memref.whole main_arg2) (a1.1 1))
    (hstep : ∀ (c : Dev nD) (t : Fin (cfg1 a1).N) (g : Bf (F := F) c (Memref.whole cc1_scratch0)),
      (scatterRun c t (ms1_0 a1 t) (hs1_0 a1 t) (ms1_1 a1 t) (hs1_1 a1 t) (iblk1 a1 V c 0 t) (iblk1 a1 V c 1 t) (a1.1 0) (a1.1 1)
          (tabU a1 V c t.val) (tabI a1 V c t.val) (flagU V c t.val) (flagI V c t.val) g (hU c) (hI c)).1
        = (tabU a1 V c (t.val + 1), tabI a1 V c (t.val + 1), flagU V c (t.val + 1), flagI V c (t.val + 1)))
    (c : Dev nD) : BodyObligation (dat1 (F := F) a1 V c) (defs₀ (F := F)) Variants.none () Set.univ := fun t => by
  rw [bigSep_W1, bigSep_W1]
  exact sound_body1 a1 V hU hI hstep c t

end Region

end Cert.Kernel.Hand

end
-- ==== Proof.K.RowViews.lean ====
/- Reading and writing one row of a two-axis table through the view that cuts the row out and drops its axis of
   size one. A table with n rows and c columns is cut by the unit-stride rectangle of sizes 1 × c at offsets (r, 0), and
   the 1 × c result is re-indexed by the c multi-indices of rank one. Row-major position matches index k of rank one
   with (0, k) of the rectangle, and the rectangle places (0, k) at (r, k) of the table. So the view reads the table's
   row r, and a write through it replaces row r by the payload and leaves every other row as it was. Nothing here
   depends on n beyond r < n, which the rectangle's in-bounds evidence gives. -/
import proofs.«423553_j10307921510829_1_alg».proof.Kernel
import Idealize.ShloMosaic.Lib.ValueIdx

noncomputable section

namespace Cert.Kernel.RowViews

open Idealize.ShloMosaic Idealize.ShloMosaic.ValueIdx
open Cert.Kernel

/-! ## Any table of two axes -/

section General

variable {sg : RefSig} {κ : Kind} {sp : Space} {e : EltTy} {Val : EltTy → Type} {n c r : ℕ}

/-- The row offset of a one-row rectangle inside an n-row table is a row number of the table. -/
theorem row_lt (off : Fin 2 → ℕ)
    (inb : ∀ a, off a + (⟨2, ![1, c]⟩ : Shape).size a ≤ (⟨2, ![n, c]⟩ : Shape).size a) (h0 : off 0 = r) : r < n := by
  have h : off 0 + 1 ≤ n := inb 0
  omega

/-- Index k of rank one, matched by row-major position with the 1 × c rectangle at offsets (r, 0) and placed by the
    rectangle in the table, is (r, k). -/
theorem emb_row (off : Fin 2 → ℕ)
    (inb : ∀ a, off a + (⟨2, ![1, c]⟩ : Shape).size a ≤ (⟨2, ![n, c]⟩ : Shape).size a)
    (h0 : off 0 = r) (h1 : off 1 = 0) (hr : r < n)
    (hn : (⟨1, ![c]⟩ : Shape).numel = (⟨2, ![1, c]⟩ : Shape).numel) (k : (⟨1, ![c]⟩ : Shape).Idx) :
    (Rect.unit (s := ⟨2, ![n, c]⟩) off (⟨2, ![1, c]⟩ : Shape).size inb).emb (Shape.reshapeEquiv hn k)
      = (ValueIdx.ix2 (⟨r, hr⟩ : Fin n) (k 0 : Fin c) : (⟨2, ![n, c]⟩ : Shape).Idx) := by
  have hk := Shape.reshapeEquiv_cons_one (n := 1) (d := ![c]) hn k
  funext a
  apply Fin.ext
  match a with
  | ⟨0, _⟩ =>
    show off 0 + 1 * ((Shape.reshapeEquiv hn k) 0).val = r
    rw [hk]
    show off 0 + 1 * 0 = r
    omega
  | ⟨1, _⟩ =>
    show off 1 + 1 * ((Shape.reshapeEquiv hn k) 1).val = (k 0).val
    rw [hk]
    show off 1 + 1 * (k 0).val = (k 0).val
    omega

variable (M : Memref sg κ sp ⟨2, ![n, c]⟩ e) (off : Fin 2 → ℕ)
  (inb : ∀ a, off a + (⟨2, ![1, c]⟩ : Shape).size a ≤ (⟨2, ![n, c]⟩ : Shape).size a)
  (hsq : (⟨2, ![1, c]⟩ : Shape).Squeezes ⟨1, ![c]⟩)

/-- The row view reads the table's row r. -/
theorem read_row_apply (h0 : off 0 = r) (h1 : off 1 = 0) (hr : r < n) (f : M.view.ty.Contents Val)
    (k : (⟨1, ![c]⟩ : Shape).Idx) :
    ((M.slice (Rect.unit (s := ⟨2, ![n, c]⟩) off (⟨2, ![1, c]⟩ : Shape).size inb) (fun _ => rfl)).squeeze
        ⟨1, ![c]⟩ hsq).view.read Val f k
      = M.view.read Val f (ValueIdx.ix2 (⟨r, hr⟩ : Fin n) (k 0 : Fin c)) :=
  (congrArg (M.view.read Val f) (emb_row off inb h0 h1 hr hsq.numel_eq k) :)

/-- The table read after a write through the row view: row r is the payload, every other row is unchanged. -/
theorem read_write_row_apply (h0 : off 0 = r) (h1 : off 1 = 0) (hr : r < n) (f : M.view.ty.Contents Val)
    (w : (⟨1, ![c]⟩ : Shape).Idx → Val e) (j : (⟨2, ![n, c]⟩ : Shape).Idx) :
    M.view.read Val (((M.slice (Rect.unit (s := ⟨2, ![n, c]⟩) off (⟨2, ![1, c]⟩ : Shape).size inb) (fun _ => rfl)).squeeze
        ⟨1, ![c]⟩ hsq).view.write Val f w Finset.univ) j
      = if (j 0).val = r then w (ValueIdx.ix1 (j 1 : Fin c)) else M.view.read Val f j := by
  by_cases h : (j 0).val = r
  · rw [if_pos h]
    have hj : j = (Rect.unit (s := ⟨2, ![n, c]⟩) off (⟨2, ![1, c]⟩ : Shape).size inb).emb
        (Shape.reshapeEquiv hsq.numel_eq (ValueIdx.ix1 (j 1 : Fin c))) := by
      rw [emb_row off inb h0 h1 hr hsq.numel_eq]
      funext a
      apply Fin.ext
      match a with
      | ⟨0, _⟩ => exact h
      | ⟨1, _⟩ => rfl
    exact (congrArg (M.view.read Val _) hj).trans
      (View.read_write_of_mem (v := ((M.slice (Rect.unit (s := ⟨2, ![n, c]⟩) off (⟨2, ![1, c]⟩ : Shape).size inb)
        (fun _ => rfl)).squeeze ⟨1, ![c]⟩ hsq).view) f w (Finset.mem_univ (ValueIdx.ix1 (j 1 : Fin c))))
  · rw [if_neg h]
    have hnm : M.view.emb j ∉ ((M.slice (Rect.unit (s := ⟨2, ![n, c]⟩) off (⟨2, ![1, c]⟩ : Shape).size inb)
        (fun _ => rfl)).squeeze ⟨1, ![c]⟩ hsq).view.setOn Finset.univ := by
      intro hm
      obtain ⟨x, -, hx⟩ := Finset.mem_map.mp hm
      have hx' : (Rect.unit (s := ⟨2, ![n, c]⟩) off (⟨2, ![1, c]⟩ : Shape).size inb).emb
          (Shape.reshapeEquiv hsq.numel_eq x) = j := M.view.emb.injective hx
      apply h
      rw [← hx', emb_row off inb h0 h1 hr hsq.numel_eq]
      rfl
    rw [View.read_apply, View.read_apply, View.write_of_not_mem _ _ _ hnm]

end General

/-! ## The kernels' tables and blocks -/

section Tables

variable [Facts]
open Facts₀ Facts

variable {Val : EltTy → Type} {r : ℕ}

/-- A one-row slice of a 200000 × 128 table starts at a row of the table. -/
theorem row_lt128 (off : Fin 2 → ℕ) (inb : ∀ a, off a + S1x128.size a ≤ S200000x128.size a) (h0 : off 0 = r) :
    r < 200000 := row_lt off inb h0

/-- A one-row slice of a 200000 × 1 table starts at a row of the table. -/
theorem row_lt1 (off : Fin 2 → ℕ) (inb : ∀ a, off a + S1x1.size a ≤ S200000x1.size a) (h0 : off 0 = r) :
    r < 200000 := row_lt off inb h0

/-- The row view of a 200000 × 128 table at row r reads row r of the table. -/
theorem read_row128 {sp : Space} (M : Memref sig .tc sp S200000x128 .f32) (hM : M.IsWhole) (off : Fin 2 → ℕ)
    (inb : ∀ a, off a + S1x128.size a ≤ S200000x128.size a) (h0 : off 0 = r) (h1 : off 1 = 0)
    (f : M.view.ty.Contents Val) :
    ((M.slice (Rect.unit (s := S200000x128) off S1x128.size inb) (fun _ => rfl)).squeeze S128
        squeezes_S1x128_S128).view.read Val f
      = fun k : S128.Idx =>
          M.view.read Val f (ValueIdx.ix2 (⟨r, row_lt128 off inb h0⟩ : Fin 200000) (k 0 : Fin 128)) :=
  funext fun k => read_row_apply M off inb squeezes_S1x128_S128 h0 h1 (row_lt128 off inb h0) f k

/-- A write through the row view of a 200000 × 128 table at row r replaces row r by the payload and nothing else. -/
theorem read_write_row128 {sp : Space} (M : Memref sig .tc sp S200000x128 .f32) (hM : M.IsWhole) (off : Fin 2 → ℕ)
    (inb : ∀ a, off a + S1x128.size a ≤ S200000x128.size a) (h0 : off 0 = r) (h1 : off 1 = 0)
    (f : M.view.ty.Contents Val) (w : S128.Idx → Val .f32) :
    M.view.read Val (((M.slice (Rect.unit (s := S200000x128) off S1x128.size inb) (fun _ => rfl)).squeeze S128
        squeezes_S1x128_S128).view.write Val f w Finset.univ)
      = fun j : S200000x128.Idx =>
          if (j 0).val = r then w (ValueIdx.ix1 (j 1 : Fin 128)) else M.view.read Val f j :=
  funext fun j => read_write_row_apply M off inb squeezes_S1x128_S128 h0 h1 (row_lt128 off inb h0) f w j

/-- The row view of a 200000 × 1 table at row r reads row r of the table. -/
theorem read_row1 {sp : Space} (M : Memref sig .tc sp S200000x1 .f32) (hM : M.IsWhole) (off : Fin 2 → ℕ)
    (inb : ∀ a, off a + S1x1.size a ≤ S200000x1.size a) (h0 : off 0 = r) (h1 : off 1 = 0)
    (f : M.view.ty.Contents Val) :
    ((M.slice (Rect.unit (s := S200000x1) off S1x1.size inb) (fun _ => rfl)).squeeze S1
        squeezes_S1x1_S1).view.read Val f
      = fun k : S1.Idx =>
          M.view.read Val f (ValueIdx.ix2 (⟨r, row_lt1 off inb h0⟩ : Fin 200000) (k 0 : Fin 1)) :=
  funext fun k => read_row_apply M off inb squeezes_S1x1_S1 h0 h1 (row_lt1 off inb h0) f k

/-- A write through the row view of a 200000 × 1 table at row r replaces row r by the payload and nothing else. -/
theorem read_write_row1 {sp : Space} (M : Memref sig .tc sp S200000x1 .f32) (hM : M.IsWhole) (off : Fin 2 → ℕ)
    (inb : ∀ a, off a + S1x1.size a ≤ S200000x1.size a) (h0 : off 0 = r) (h1 : off 1 = 0)
    (f : M.view.ty.Contents Val) (w : S1.Idx → Val .f32) :
    M.view.read Val (((M.slice (Rect.unit (s := S200000x1) off S1x1.size inb) (fun _ => rfl)).squeeze S1
        squeezes_S1x1_S1).view.write Val f w Finset.univ)
      = fun j : S200000x1.Idx =>
          if (j 0).val = r then w (ValueIdx.ix1 (j 1 : Fin 1)) else M.view.read Val f j :=
  funext fun j => read_write_row_apply M off inb squeezes_S1x1_S1 h0 h1 (row_lt1 off inb h0) f w j

/-- The row view of a 16 × 128 block at row p reads row p of the block. -/
theorem read_blockrow128 {sp : Space} (B : Memref sig .tc sp S16x128 .f32) (hB : B.IsWhole) (p : Fin 16)
    (off : Fin 2 → ℕ) (inb : ∀ a, off a + S1x128.size a ≤ S16x128.size a) (h0 : off 0 = p.val) (h1 : off 1 = 0)
    (g : B.view.ty.Contents Val) :
    ((B.slice (Rect.unit (s := S16x128) off S1x128.size inb) (fun _ => rfl)).squeeze S128
        squeezes_S1x128_S128).view.read Val g
      = fun k : S128.Idx => B.view.read Val g (ValueIdx.ix2 p (k 0 : Fin 128)) :=
  funext fun k => read_row_apply B off inb squeezes_S1x128_S128 h0 h1 p.isLt g k

/-- A write through the row view of a 16 × 128 block at row p replaces row p by the payload and nothing else. -/
theorem read_write_blockrow128 {sp : Space} (B : Memref sig .tc sp S16x128 .f32) (hB : B.IsWhole) (p : Fin 16)
    (off : Fin 2 → ℕ) (inb : ∀ a, off a + S1x128.size a ≤ S16x128.size a) (h0 : off 0 = p.val) (h1 : off 1 = 0)
    (g : B.view.ty.Contents Val) (w : S128.Idx → Val .f32) :
    B.view.read Val (((B.slice (Rect.unit (s := S16x128) off S1x128.size inb) (fun _ => rfl)).squeeze S128
        squeezes_S1x128_S128).view.write Val g w Finset.univ)
      = fun j : S16x128.Idx =>
          if (j 0).val = p.val then w (ValueIdx.ix1 (j 1 : Fin 128)) else B.view.read Val g j :=
  funext fun j => read_write_row_apply B off inb squeezes_S1x128_S128 h0 h1 p.isLt g w j

/-- The row view of a 16 × 1 block at row p reads row p of the block. -/
theorem read_blockrow1 {sp : Space} (B : Memref sig .tc sp S16x1 .f32) (hB : B.IsWhole) (p : Fin 16)
    (off : Fin 2 → ℕ) (inb : ∀ a, off a + S1x1.size a ≤ S16x1.size a) (h0 : off 0 = p.val) (h1 : off 1 = 0)
    (g : B.view.ty.Contents Val) :
    ((B.slice (Rect.unit (s := S16x1) off S1x1.size inb) (fun _ => rfl)).squeeze S1
        squeezes_S1x1_S1).view.read Val g
      = fun k : S1.Idx => B.view.read Val g (ValueIdx.ix2 p (k 0 : Fin 1)) :=
  funext fun k => read_row_apply B off inb squeezes_S1x1_S1 h0 h1 p.isLt g k

/-- A write through the row view of a 16 × 1 block at row p replaces row p by the payload and nothing else. -/
theorem read_write_blockrow1 {sp : Space} (B : Memref sig .tc sp S16x1 .f32) (hB : B.IsWhole) (p : Fin 16)
    (off : Fin 2 → ℕ) (inb : ∀ a, off a + S1x1.size a ≤ S16x1.size a) (h0 : off 0 = p.val) (h1 : off 1 = 0)
    (g : B.view.ty.Contents Val) (w : S1.Idx → Val .f32) :
    B.view.read Val (((B.slice (Rect.unit (s := S16x1) off S1x1.size inb) (fun _ => rfl)).squeeze S1
        squeezes_S1x1_S1).view.write Val g w Finset.univ)
      = fun j : S16x1.Idx =>
          if (j 0).val = p.val then w (ValueIdx.ix1 (j 1 : Fin 1)) else B.view.read Val g j :=
  funext fun j => read_write_row_apply B off inb squeezes_S1x1_S1 h0 h1 p.isLt g w j

end Tables

end Cert.Kernel.RowViews
-- ==== Proof.K.ScatterStep.lean ====
/- The scatter kernel's body at one grid point, read as a function on the four tables. The run of the body leaves each
   table as sixteen nested row writes; here each write is read as "row r of the table replaced": r is the unsigned value
   of the table word at position 16·t + p (the 32-bit computation of that position does not wrap, t being below 256 and p
   below 16), and the new row is row p of the point's input block, or the zero word for the two flag columns. So a point
   is one block of 16 ordered row writes, and sixteen steps of a row-by-row recurrence over all 4096 update rows are one
   such block: the fold over the grid. -/
import proofs.«423553_j10307921510829_1_alg».proof.Proof.K.Data1
import proofs.«423553_j10307921510829_1_alg».proof.Proof.K.RowViews
import proofs.«423553_j10307921510829_1_alg».proof.Proof.ScatterRows

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Sixteen row writes as one fold -/

/-- A left fold over 0, 1, …, n-1 whose m-th step takes g m to g (m+1) ends at g n. -/
theorem foldl_finRange_eq {β : Type} : ∀ (n : ℕ) (f : β → Fin n → β) (g : ℕ → β),
    (∀ (m : ℕ) (h : m < n), f (g m) ⟨m, h⟩ = g (m + 1)) → (List.finRange n).foldl f (g 0) = g n
  | 0, _, _, _ => rfl
  | n + 1, f, g, hstep => by
    rw [List.finRange_succ_last, List.foldl_append, List.foldl_map]
    rw [foldl_finRange_eq n (fun b i => f b i.castSucc) g (fun m h => hstep m (Nat.lt_succ_of_lt h))]
    exact hstep n (Nat.lt_succ_self n)

section Pure

variable {α : Type}

/-- Sixteen steps of a row-by-row recurrence over 4096 update rows are one block of 16 rows: if step m writes update
    row m at the row ids m names, then the 16 rows of block t, written in order over the state after 16·t steps, give the
    state after 16·(t+1) steps. -/
theorem rows16_128_eq_of_succ (R : ℕ → S200000x128.Idx → α) (ids : Fin 4096 → ℕ) (upd : S4096x128.Idx → α)
    (hsucc : ∀ (m : ℕ) (h : m < 4096),
      R (m + 1) = setRow128 (R m) (ids ⟨m, h⟩) (fun k => upd (ValueIdx.ix2 (⟨m, h⟩ : Fin 4096) k)))
    (t : ℕ) (ht : t < 256) :
    rows16_128 (R (16 * t)) (fun p => ids ⟨16 * t + p.val, by omega⟩)
        (fun q => upd (ValueIdx.ix2 (⟨16 * t + (q 0).val, by have : (q 0).val < 16 := (q 0).isLt; omega⟩ : Fin 4096)
          (q 1 : Fin 128)))
      = R (16 * (t + 1)) := by
  unfold rows16_128
  exact foldl_finRange_eq 16 _ (fun m => R (16 * t + m)) (fun m h => (hsucc (16 * t + m) (by omega)).symm)

/-- The same for a one-column table and a constant word. -/
theorem rowsConst16_eq_of_succ (R : ℕ → S200000x1.Idx → α) (ids : Fin 4096 → ℕ) (z : α)
    (hsucc : ∀ (m : ℕ) (h : m < 4096), R (m + 1) = setRow1 (R m) (ids ⟨m, h⟩) z)
    (t : ℕ) (ht : t < 256) :
    rowsConst16 (R (16 * t)) (fun p => ids ⟨16 * t + p.val, by omega⟩) z = R (16 * (t + 1)) := by
  unfold rowsConst16
  exact foldl_finRange_eq 16 _ (fun m => R (16 * t + m)) (fun m h => (hsucc (16 * t + m) (by omega)).symm)

/-- The 16 rows of a block written in order, as sixteen nested single-row writes. -/
theorem rows16_128_nest (X : S200000x128.Idx → α) (id : Fin 16 → ℕ) (x : S16x128.Idx → α) :
    rows16_128 X id x =
      setRow128 (setRow128 (setRow128 (setRow128 (setRow128 (setRow128 (setRow128 (setRow128 (setRow128 (setRow128
      (setRow128 (setRow128 (setRow128 (setRow128 (setRow128 (setRow128 X
        (id 0) (fun k => x (ValueIdx.ix2 0 k))) (id 1) (fun k => x (ValueIdx.ix2 1 k)))
        (id 2) (fun k => x (ValueIdx.ix2 2 k))) (id 3) (fun k => x (ValueIdx.ix2 3 k)))
        (id 4) (fun k => x (ValueIdx.ix2 4 k))) (id 5) (fun k => x (ValueIdx.ix2 5 k)))
        (id 6) (fun k => x (ValueIdx.ix2 6 k))) (id 7) (fun k => x (ValueIdx.ix2 7 k)))
        (id 8) (fun k => x (ValueIdx.ix2 8 k))) (id 9) (fun k => x (ValueIdx.ix2 9 k)))
        (id 10) (fun k => x (ValueIdx.ix2 10 k))) (id 11) (fun k => x (ValueIdx.ix2 11 k)))
        (id 12) (fun k => x (ValueIdx.ix2 12 k))) (id 13) (fun k => x (ValueIdx.ix2 13 k)))
        (id 14) (fun k => x (ValueIdx.ix2 14 k))) (id 15) (fun k => x (ValueIdx.ix2 15 k)) := by
  unfold rows16_128
  simp only [List.finRange_succ_last, List.finRange_zero, List.map_nil, List.nil_append, List.map_append, List.map_cons,
    List.foldl_append, List.foldl_cons, List.foldl_nil, List.map_map]
  rfl

/-- The same word written at 16 rows in order, as sixteen nested single-entry writes. -/
theorem rowsConst16_nest (X : S200000x1.Idx → α) (id : Fin 16 → ℕ) (z : α) :
    rowsConst16 X id z =
      setRow1 (setRow1 (setRow1 (setRow1 (setRow1 (setRow1 (setRow1 (setRow1 (setRow1 (setRow1 (setRow1 (setRow1
      (setRow1 (setRow1 (setRow1 (setRow1 X
        (id 0) z) (id 1) z) (id 2) z) (id 3) z) (id 4) z) (id 5) z) (id 6) z) (id 7) z)
        (id 8) z) (id 9) z) (id 10) z) (id 11) z) (id 12) z) (id 13) z) (id 14) z) (id 15) z := by
  unfold rowsConst16
  simp only [List.finRange_succ_last, List.finRange_zero, List.map_nil, List.nil_append, List.map_append, List.map_cons,
    List.foldl_append, List.foldl_cons, List.foldl_nil, List.map_map]
  rfl

end Pure

/-! ## The table words a point reads -/

/-- On the grid of 256 points along one axis, point t's coordinate is t. -/
theorem coords1_val (t : Fin grid1.N) : ((grid1.coords t) 0).val = t.val := by
  have hN : grid1.N = 256 := Gen.N_1
  have ht : t.val < 256 := hN ▸ t.isLt
  have hs : grid1.stride 0 = 1 := by decide
  show t.val / grid1.stride 0 % 256 = t.val
  rw [hs, Nat.div_one, Nat.mod_eq_of_lt ht]

/-- The word position 16·t + p, computed in 32-bit arithmetic from the point's coordinate, does not wrap: t is below 256
    and p below 16, so the product and the sum stay below 4096. -/
theorem wordOff (t : Fin grid1.N) (p : ℕ) (hp : p < 16) :
    (Scalar.indexCast (Scalar.addi (Scalar.muli (BitVec.ofNat 32 ((grid1.coords t) 0).val) 16#32) (BitVec.ofNat 32 p))).toNat
      = 16 * t.val + p := by
  have hN : grid1.N = 256 := Gen.N_1
  have ht : t.val < 256 := hN ▸ t.isLt
  rw [coords1_val]
  simp only [Scalar.indexCast, Scalar.addi, Scalar.muli, IntOp.addi, IntOp.muli, BitVec.toNat_add, BitVec.toNat_mul,
    BitVec.toNat_ofNat]
  omega

/-- The position, among the 4096 table words, of row p of point t. -/
def wordIx (t : Fin grid1.N) (p : Fin 16) : Fin 4096 :=
  ⟨16 * t.val + p.val, by have h : t.val < 256 := Gen.N_1 ▸ t.isLt; omega⟩

@[simp] theorem wordIx_val (t : Fin grid1.N) (p : Fin 16) : (wordIx t p).val = 16 * t.val + p.val := rfl

/-- The row numbers of point t's 16 rows, read off a function of the word position. -/
theorem idsAt_wordIx (ids : Fin 4096 → ℕ) (t : Fin grid1.N) : (fun p => ids (wordIx t p)) = idsAt ids t.val := by
  funext p
  have h : 16 * t.val + p.val < 4096 := (wordIx t p).isLt
  unfold idsAt
  rw [dif_pos h]
  rfl

/-- The one word a load reads through the one-element rectangle at offset k of a table of 4096 words is the table's
    word k. -/
theorem word_read {sp : Space} (M : Memref sig .tc sp S4096 .i32) (tb : M.view.ty.Contents (Elt F))
    (off : Fin 1 → ℕ) (inb : ∀ a, off a + S1.size a ≤ S4096.size a)
    (hpos : 0 < (Rect.unit (s := S4096) off S1.size inb).shape.numel) (k : Fin 4096) (hoff : off 0 = k.val) :
    View.readAt (Elt F) M.view (Rect.unit (s := S4096) off S1.size inb).toLoadRect tb (Shape.Idx.first hpos)
      = M.view.read (Elt F) tb (ValueIdx.ix1 k) := by
  rw [View.readAt_apply]
  congr 1
  funext a
  apply Fin.ext
  match a with
  | ⟨0, _⟩ =>
    show off 0 + 1 * 0 = k.val
    omega

/-- The row a slice offset names, when the offset is the unsigned value of the word a point reads at position k of a table:
    the unsigned value of the table's word k. -/
theorem row_of_word {sp : Space} (M : Memref sig .tc sp S4096 .i32) (tb : M.view.ty.Contents (Elt F))
    (off : Fin 1 → ℕ) (inb : ∀ a, off a + S1.size a ≤ S4096.size a)
    (hpos : 0 < (Rect.unit (s := S4096) off S1.size inb).shape.numel) (k : Fin 4096) (hoff : off 0 = k.val)
    (off2 : BitVec 32 → Fin 2 → ℕ) (hoff2 : ∀ w, off2 w 0 = w.toNat) :
    off2 (View.readAt (Elt F) M.view (Rect.unit (s := S4096) off S1.size inb).toLoadRect tb (Shape.Idx.first hpos)) 0
      = (M.view.read (Elt F) tb (ValueIdx.ix1 k)).toNat :=
  (hoff2 _).trans (congrArg BitVec.toNat (word_read M tb off inb hpos k hoff))

/-! ## One row copy -/

/-- One row copy into a 128-wide table: the table read afterwards is the table read before with row r replaced by row p
    of the block the source buffer holds. -/
theorem step128 {sp : Space} (M : Memref sig .tc sp S200000x128 .f32) (hM : M.IsWhole)
    {spB : Space} (B : Memref sig .tc spB S16x128 .f32) (hB : B.IsWhole) (x : S16x128.Idx → Elt F .f32)
    (off : Fin 2 → ℕ) (inb : ∀ a, off a + S1x128.size a ≤ S200000x128.size a)
    (offB : Fin 2 → ℕ) (inbB : ∀ a, offB a + S1x128.size a ≤ S16x128.size a) (p : Fin 16) (r : ℕ)
    (f : M.view.ty.Contents (Elt F)) (X : S200000x128.Idx → Elt F .f32)
    (hX : M.view.read (Elt F) f = X) (h0 : off 0 = r) (h1 : off 1 = 0) (hB0 : offB 0 = p.val) (hB1 : offB 1 = 0) :
    M.view.read (Elt F) (((M.slice (Rect.unit (s := S200000x128) off S1x128.size inb) (fun _ => rfl)).squeeze S128
        squeezes_S1x128_S128).view.write (Elt F) f
          (ReadAs.same.apply (((B.slice (Rect.unit (s := S16x128) offB S1x128.size inbB) (fun _ => rfl)).squeeze S128
            squeezes_S1x128_S128).view.read (Elt F) (hB.unread x))) Finset.univ)
      = setRow128 X r (fun k => x (ValueIdx.ix2 p k)) := by
  rw [RowViews.read_write_row128 M hM off inb h0 h1, RowViews.read_blockrow128 B hB p offB inbB hB0 hB1, hB.read_unread, hX]
  rfl

/-- One word copy into a one-column table: entry r becomes the word copied, every other entry stays. -/
theorem step1 {sp : Space} (M : Memref sig .tc sp S200000x1 .f32) (hM : M.IsWhole)
    (off : Fin 2 → ℕ) (inb : ∀ a, off a + S1x1.size a ≤ S200000x1.size a) (r : ℕ)
    (f : M.view.ty.Contents (Elt F)) (X : S200000x1.Idx → Elt F .f32) (w : S1.Idx → Elt F .f32) (z : Elt F .f32)
    (hX : M.view.read (Elt F) f = X) (h0 : off 0 = r) (h1 : off 1 = 0) (hw : w (ValueIdx.ix1 (0 : Fin 1)) = z) :
    M.view.read (Elt F) (((M.slice (Rect.unit (s := S200000x1) off S1x1.size inb) (fun _ => rfl)).squeeze S1
        squeezes_S1x1_S1).view.write (Elt F) f w Finset.univ)
      = setRow1 X r z := by
  rw [RowViews.read_write_row1 M hM off inb h0 h1, hX]
  funext j
  show (if (j 0).val = r then w (ValueIdx.ix1 (j 1 : Fin 1)) else X j) = if (j 0).val = r then z else X j
  have hj : (ValueIdx.ix1 (j 1 : Fin 1) : S1.Idx) = ValueIdx.ix1 (0 : Fin 1) :=
    congrArg ValueIdx.ix1 (Subsingleton.elim (α := Fin 1) _ _)
  rw [hj, hw]

/-- The scratch word after the body's store of the zero vector over it reads the zero word, whatever it held before. -/
theorem scratch_word (c : Dev nD) (g : Bf (F := F) c (Memref.whole cc1_scratch0)) :
    (ReadAs.same.apply ((Memref.whole cc1_scratch0).view.read (Elt F)
        ((Memref.whole cc1_scratch0).view.writes (Elt F) g
          [⟨Rect.unit (s := S1) ![0] S1.size inb_S1_S1_0, (k1_pay1 (F := F))⟩]))) (ValueIdx.ix1 (0 : Fin 1))
      = zeroWord (F := F) := by
  have e : (ValueIdx.ix1 (0 : Fin 1) : S1.Idx)
      = (Rect.unit (s := S1) ![0] S1.size inb_S1_S1_0).emb (ValueIdx.ix1 (0 : Fin 1)) := by
    funext a
    apply Fin.ext
    match a with
    | ⟨0, _⟩ => rfl
  exact (congrArg ((Memref.whole cc1_scratch0).view.read (Elt F) _) e).trans
    (View.read_writes_cons_emb (Memref.whole cc1_scratch0).view g (Rect.unit (s := S1) ![0] S1.size inb_S1_S1_0)
      (k1_pay1 (F := F)) [] (ValueIdx.ix1 (0 : Fin 1)))

/-! ## What the four tables read after the body at point t

The run leaves each table as sixteen nested row writes over its contents before, outermost the last row's. Each write
is undone from the outside in: the row its offset names is the unsigned value of the table word at position 16·t + p,
and what it writes is row p of the input block (first two tables) or the zero word the scratch holds (the two flag
columns). -/

/-- The first table after the body at point t: the 16 rows of the first input block written, in order, at the rows the
    point's 16 user ids name. -/
theorem scatterRun_read0 (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_0).view.read (Elt F) (scatterRun c t M0 h0 M1 h1 x0 x1 tb0 tb2 f0 f1 f2 f3 g hT0 hT2).1.1
      = rows16_128 ((Memref.whole main_v1_0).view.read (Elt F) f0)
          (fun p => ((Memref.whole main_arg0).view.read (Elt F) tb0 (ValueIdx.ix1 (wordIx t p))).toNat) x0 := by
  rw [rows16_128_nest]
  unfold scatterRun
  dsimp only
  sl_unfold_run_names
  refine step128 _ (Memref.isWhole_whole _) M0 h0 x0 _ _ _ _ (15 : Fin 16) _ _ _ ?_ ?_ rfl rfl rfl
  case refine_2 => exact row_of_word (Memref.whole main_arg0) tb0 (k1_off76 (grid1.coords t)) _ _ (wordIx t 15) (wordOff t 15 (by omega)) k1_off77 (fun _ => rfl)
  refine step128 _ (Memref.isWhole_whole _) M0 h0 x0 _ _ _ _ (14 : Fin 16) _ _ _ ?_ ?_ rfl rfl rfl
  case refine_2 => exact row_of_word (Memref.whole main_arg0) tb0 (k1_off71 (grid1.coords t)) _ _ (wordIx t 14) (wordOff t 14 (by omega)) k1_off72 (fun _ => rfl)
  refine step128 _ (Memref.isWhole_whole _) M0 h0 x0 _ _ _ _ (13 : Fin 16) _ _ _ ?_ ?_ rfl rfl rfl
  case refine_2 => exact row_of_word (Memref.whole main_arg0) tb0 (k1_off66 (grid1.coords t)) _ _ (wordIx t 13) (wordOff t 13 (by omega)) k1_off67 (fun _ => rfl)
  refine step128 _ (Memref.isWhole_whole _) M0 h0 x0 _ _ _ _ (12 : Fin 16) _ _ _ ?_ ?_ rfl rfl rfl
  case refine_2 => exact row_of_word (Memref.whole main_arg0) tb0 (k1_off61 (grid1.coords t)) _ _ (wordIx t 12) (wordOff t 12 (by omega)) k1_off62 (fun _ => rfl)
  refine step128 _ (Memref.isWhole_whole _) M0 h0 x0 _ _ _ _ (11 : Fin 16) _ _ _ ?_ ?_ rfl rfl rfl
  case refine_2 => exact row_of_word (Memref.whole main_arg0) tb0 (k1_off56 (grid1.coords t)) _ _ (wordIx t 11) (wordOff t 11 (by omega)) k1_off57 (fun _ => rfl)
  refine step128 _ (Memref.isWhole_whole _) M0 h0 x0 _ _ _ _ (10 : Fin 16) _ _ _ ?_ ?_ rfl rfl rfl
  case refine_2 => exact row_of_word (Memref.whole main_arg0) tb0 (k1_off51 (grid1.coords t)) _ _ (wordIx t 10) (wordOff t 10 (by omega)) k1_off52 (fun _ => rfl)
  refine step128 _ (Memref.isWhole_whole _) M0 h0 x0 _ _ _ _ (9 : Fin 16) _ _ _ ?_ ?_ rfl rfl rfl
  case refine_2 => exact row_of_word (Memref.whole main_arg0) tb0 (k1_off46 (grid1.coords t)) _ _ (wordIx t 9) (wordOff t 9 (by omega)) k1_off47 (fun _ => rfl)
  refine step128 _ (Memref.isWhole_whole _) M0 h0 x0 _ _ _ _ (8 : Fin 16) _ _ _ ?_ ?_ rfl rfl rfl
  case refine_2 => exact row_of_word (Memref.whole main_arg0) tb0 (k1_off41 (grid1.coords t)) _ _ (wordIx t 8) (wordOff t 8 (by omega)) k1_off42 (fun _ => rfl)
  refine step128 _ (Memref.isWhole_whole _) M0 h0 x0 _ _ _ _ (7 : Fin 16) _ _ _ ?_ ?_ rfl rfl rfl
  case refine_2 => exact row_of_word (Memref.whole main_arg0) tb0 (k1_off36 (grid1.coords t)) _ _ (wordIx t 7) (wordOff t 7 (by omega)) k1_off37 (fun _ => rfl)
  refine step128 _ (Memref.isWhole_whole _) M0 h0 x0 _ _ _ _ (6 : Fin 16) _ _ _ ?_ ?_ rfl rfl rfl
  case refine_2 => exact row_of_word (Memref.whole main_arg0) tb0 (k1_off31 (grid1.coords t)) _ _ (wordIx t 6) (wordOff t 6 (by omega)) k1_off32 (fun _ => rfl)
  refine step128 _ (Memref.isWhole_whole _) M0 h0 x0 _ _ _ _ (5 : Fin 16) _ _ _ ?_ ?_ rfl rfl rfl
  case refine_2 => exact row_of_word (Memref.whole main_arg0) tb0 (k1_off26 (grid1.coords t)) _ _ (wordIx t 5) (wordOff t 5 (by omega)) k1_off27 (fun _ => rfl)
  refine step128 _ (Memref.isWhole_whole _) M0 h0 x0 _ _ _ _ (4 : Fin 16) _ _ _ ?_ ?_ rfl rfl rfl
  case refine_2 => exact row_of_word (Memref.whole main_arg0) tb0 (k1_off21 (grid1.coords t)) _ _ (wordIx t 4) (wordOff t 4 (by omega)) k1_off22 (fun _ => rfl)
  refine step128 _ (Memref.isWhole_whole _) M0 h0 x0 _ _ _ _ (3 : Fin 16) _ _ _ ?_ ?_ rfl rfl rfl
  case refine_2 => exact row_of_word (Memref.whole main_arg0) tb0 (k1_off16 (grid1.coords t)) _ _ (wordIx t 3) (wordOff t 3 (by omega)) k1_off17 (fun _ => rfl)
  refine step128 _ (Memref.isWhole_whole _) M0 h0 x0 _ _ _ _ (2 : Fin 16) _ _ _ ?_ ?_ rfl rfl rfl
  case refine_2 => exact row_of_word (Memref.whole main_arg0) tb0 (k1_off11 (grid1.coords t)) _ _ (wordIx t 2) (wordOff t 2 (by omega)) k1_off12 (fun _ => rfl)
  refine step128 _ (Memref.isWhole_whole _) M0 h0 x0 _ _ _ _ (1 : Fin 16) _ _ _ ?_ ?_ rfl rfl rfl
  case refine_2 => exact row_of_word (Memref.whole main_arg0) tb0 (k1_off6 (grid1.coords t)) _ _ (wordIx t 1) (wordOff t 1 (by omega)) k1_off7 (fun _ => rfl)
  refine step128 _ (Memref.isWhole_whole _) M0 h0 x0 _ _ _ _ (0 : Fin 16) _ _ _ ?_ ?_ rfl rfl rfl
  case refine_2 => exact row_of_word (Memref.whole main_arg0) tb0 (k1_off1 (grid1.coords t)) _ _ (wordIx t 0) (wordOff t 0 (by omega)) k1_off2 (fun _ => rfl)
  rfl

/-- The second table after the body at point t: the 16 rows of the second input block written, in order, at the rows
    the point's 16 item ids name. -/
theorem scatterRun_read1 (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_1).view.read (Elt F) (scatterRun c t M0 h0 M1 h1 x0 x1 tb0 tb2 f0 f1 f2 f3 g hT0 hT2).1.2.1
      = rows16_128 ((Memref.whole main_v1_1).view.read (Elt F) f1)
          (fun p => ((Memref.whole main_arg2).view.read (Elt F) tb2 (ValueIdx.ix1 (wordIx t p))).toNat) x1 := by
  rw [rows16_128_nest]
  unfold scatterRun
  dsimp only
  sl_unfold_run_names
  refine step128 _ (Memref.isWhole_whole _) M1 h1 x1 _ _ _ _ (15 : Fin 16) _ _ _ ?_ ?_ rfl rfl rfl
  case refine_2 => exact row_of_word (Memref.whole main_arg2) tb2 (k1_off76 (grid1.coords t)) _ _ (wordIx t 15) (wordOff t 15 (by omega)) k1_off78 (fun _ => rfl)
  refine step128 _ (Memref.isWhole_whole _) M1 h1 x1 _ _ _ _ (14 : Fin 16) _ _ _ ?_ ?_ rfl rfl rfl
  case refine_2 => exact row_of_word (Memref.whole main_arg2) tb2 (k1_off71 (grid1.coords t)) _ _ (wordIx t 14) (wordOff t 14 (by omega)) k1_off73 (fun _ => rfl)
  refine step128 _ (Memref.isWhole_whole _) M1 h1 x1 _ _ _ _ (13 : Fin 16) _ _ _ ?_ ?_ rfl rfl rfl
  case refine_2 => exact row_of_word (Memref.whole main_arg2) tb2 (k1_off66 (grid1.coords t)) _ _ (wordIx t 13) (wordOff t 13 (by omega)) k1_off68 (fun _ => rfl)
  refine step128 _ (Memref.isWhole_whole _) M1 h1 x1 _ _ _ _ (12 : Fin 16) _ _ _ ?_ ?_ rfl rfl rfl
  case refine_2 => exact row_of_word (Memref.whole main_arg2) tb2 (k1_off61 (grid1.coords t)) _ _ (wordIx t 12) (wordOff t 12 (by omega)) k1_off63 (fun _ => rfl)
  refine step128 _ (Memref.isWhole_whole _) M1 h1 x1 _ _ _ _ (11 : Fin 16) _ _ _ ?_ ?_ rfl rfl rfl
  case refine_2 => exact row_of_word (Memref.whole main_arg2) tb2 (k1_off56 (grid1.coords t)) _ _ (wordIx t 11) (wordOff t 11 (by omega)) k1_off58 (fun _ => rfl)
  refine step128 _ (Memref.isWhole_whole _) M1 h1 x1 _ _ _ _ (10 : Fin 16) _ _ _ ?_ ?_ rfl rfl rfl
  case refine_2 => exact row_of_word (Memref.whole main_arg2) tb2 (k1_off51 (grid1.coords t)) _ _ (wordIx t 10) (wordOff t 10 (by omega)) k1_off53 (fun _ => rfl)
  refine step128 _ (Memref.isWhole_whole _) M1 h1 x1 _ _ _ _ (9 : Fin 16) _ _ _ ?_ ?_ rfl rfl rfl
  case refine_2 => exact row_of_word (Memref.whole main_arg2) tb2 (k1_off46 (grid1.coords t)) _ _ (wordIx t 9) (wordOff t 9 (by omega)) k1_off48 (fun _ => rfl)
  refine step128 _ (Memref.isWhole_whole _) M1 h1 x1 _ _ _ _ (8 : Fin 16) _ _ _ ?_ ?_ rfl rfl rfl
  case refine_2 => exact row_of_word (Memref.whole main_arg2) tb2 (k1_off41 (grid1.coords t)) _ _ (wordIx t 8) (wordOff t 8 (by omega)) k1_off43 (fun _ => rfl)
  refine step128 _ (Memref.isWhole_whole _) M1 h1 x1 _ _ _ _ (7 : Fin 16) _ _ _ ?_ ?_ rfl rfl rfl
  case refine_2 => exact row_of_word (Memref.whole main_arg2) tb2 (k1_off36 (grid1.coords t)) _ _ (wordIx t 7) (wordOff t 7 (by omega)) k1_off38 (fun _ => rfl)
  refine step128 _ (Memref.isWhole_whole _) M1 h1 x1 _ _ _ _ (6 : Fin 16) _ _ _ ?_ ?_ rfl rfl rfl
  case refine_2 => exact row_of_word (Memref.whole main_arg2) tb2 (k1_off31 (grid1.coords t)) _ _ (wordIx t 6) (wordOff t 6 (by omega)) k1_off33 (fun _ => rfl)
  refine step128 _ (Memref.isWhole_whole _) M1 h1 x1 _ _ _ _ (5 : Fin 16) _ _ _ ?_ ?_ rfl rfl rfl
  case refine_2 => exact row_of_word (Memref.whole main_arg2) tb2 (k1_off26 (grid1.coords t)) _ _ (wordIx t 5) (wordOff t 5 (by omega)) k1_off28 (fun _ => rfl)
  refine step128 _ (Memref.isWhole_whole _) M1 h1 x1 _ _ _ _ (4 : Fin 16) _ _ _ ?_ ?_ rfl rfl rfl
  case refine_2 => exact row_of_word (Memref.whole main_arg2) tb2 (k1_off21 (grid1.coords t)) _ _ (wordIx t 4) (wordOff t 4 (by omega)) k1_off23 (fun _ => rfl)
  refine step128 _ (Memref.isWhole_whole _) M1 h1 x1 _ _ _ _ (3 : Fin 16) _ _ _ ?_ ?_ rfl rfl rfl
  case refine_2 => exact row_of_word (Memref.whole main_arg2) tb2 (k1_off16 (grid1.coords t)) _ _ (wordIx t 3) (wordOff t 3 (by omega)) k1_off18 (fun _ => rfl)
  refine step128 _ (Memref.isWhole_whole _) M1 h1 x1 _ _ _ _ (2 : Fin 16) _ _ _ ?_ ?_ rfl rfl rfl
  case refine_2 => exact row_of_word (Memref.whole main_arg2) tb2 (k1_off11 (grid1.coords t)) _ _ (wordIx t 2) (wordOff t 2 (by omega)) k1_off13 (fun _ => rfl)
  refine step128 _ (Memref.isWhole_whole _) M1 h1 x1 _ _ _ _ (1 : Fin 16) _ _ _ ?_ ?_ rfl rfl rfl
  case refine_2 => exact row_of_word (Memref.whole main_arg2) tb2 (k1_off6 (grid1.coords t)) _ _ (wordIx t 1) (wordOff t 1 (by omega)) k1_off8 (fun _ => rfl)
  refine step128 _ (Memref.isWhole_whole _) M1 h1 x1 _ _ _ _ (0 : Fin 16) _ _ _ ?_ ?_ rfl rfl rfl
  case refine_2 => exact row_of_word (Memref.whole main_arg2) tb2 (k1_off1 (grid1.coords t)) _ _ (wordIx t 0) (wordOff t 0 (by omega)) k1_off3 (fun _ => rfl)
  rfl

/-- The first flag column after the body at point t: the zero word written at the entries the point's 16 user ids
    name. -/
theorem scatterRun_read2 (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_2).view.read (Elt F) (scatterRun c t M0 h0 M1 h1 x0 x1 tb0 tb2 f0 f1 f2 f3 g hT0 hT2).1.2.2.1
      = rowsConst16 ((Memref.whole main_v1_2).view.read (Elt F) f2)
          (fun p => ((Memref.whole main_arg0).view.read (Elt F) tb0 (ValueIdx.ix1 (wordIx t p))).toNat) (zeroWord (F := F)) := by
  rw [rowsConst16_nest]
  unfold scatterRun
  dsimp only
  sl_unfold_run_names
  refine step1 _ (Memref.isWhole_whole _) _ _ _ _ _ _ _ ?_ ?_ rfl (scratch_word c g)
  case refine_2 => exact row_of_word (Memref.whole main_arg0) tb0 (k1_off76 (grid1.coords t)) _ _ (wordIx t 15) (wordOff t 15 (by omega)) k1_off79 (fun _ => rfl)
  refine step1 _ (Memref.isWhole_whole _) _ _ _ _ _ _ _ ?_ ?_ rfl (scratch_word c g)
  case refine_2 => exact row_of_word (Memref.whole main_arg0) tb0 (k1_off71 (grid1.coords t)) _ _ (wordIx t 14) (wordOff t 14 (by omega)) k1_off74 (fun _ => rfl)
  refine step1 _ (Memref.isWhole_whole _) _ _ _ _ _ _ _ ?_ ?_ rfl (scratch_word c g)
  case refine_2 => exact row_of_word (Memref.whole main_arg0) tb0 (k1_off66 (grid1.coords t)) _ _ (wordIx t 13) (wordOff t 13 (by omega)) k1_off69 (fun _ => rfl)
  refine step1 _ (Memref.isWhole_whole _) _ _ _ _ _ _ _ ?_ ?_ rfl (scratch_word c g)
  case refine_2 => exact row_of_word (Memref.whole main_arg0) tb0 (k1_off61 (grid1.coords t)) _ _ (wordIx t 12) (wordOff t 12 (by omega)) k1_off64 (fun _ => rfl)
  refine step1 _ (Memref.isWhole_whole _) _ _ _ _ _ _ _ ?_ ?_ rfl (scratch_word c g)
  case refine_2 => exact row_of_word (Memref.whole main_arg0) tb0 (k1_off56 (grid1.coords t)) _ _ (wordIx t 11) (wordOff t 11 (by omega)) k1_off59 (fun _ => rfl)
  refine step1 _ (Memref.isWhole_whole _) _ _ _ _ _ _ _ ?_ ?_ rfl (scratch_word c g)
  case refine_2 => exact row_of_word (Memref.whole main_arg0) tb0 (k1_off51 (grid1.coords t)) _ _ (wordIx t 10) (wordOff t 10 (by omega)) k1_off54 (fun _ => rfl)
  refine step1 _ (Memref.isWhole_whole _) _ _ _ _ _ _ _ ?_ ?_ rfl (scratch_word c g)
  case refine_2 => exact row_of_word (Memref.whole main_arg0) tb0 (k1_off46 (grid1.coords t)) _ _ (wordIx t 9) (wordOff t 9 (by omega)) k1_off49 (fun _ => rfl)
  refine step1 _ (Memref.isWhole_whole _) _ _ _ _ _ _ _ ?_ ?_ rfl (scratch_word c g)
  case refine_2 => exact row_of_word (Memref.whole main_arg0) tb0 (k1_off41 (grid1.coords t)) _ _ (wordIx t 8) (wordOff t 8 (by omega)) k1_off44 (fun _ => rfl)
  refine step1 _ (Memref.isWhole_whole _) _ _ _ _ _ _ _ ?_ ?_ rfl (scratch_word c g)
  case refine_2 => exact row_of_word (Memref.whole main_arg0) tb0 (k1_off36 (grid1.coords t)) _ _ (wordIx t 7) (wordOff t 7 (by omega)) k1_off39 (fun _ => rfl)
  refine step1 _ (Memref.isWhole_whole _) _ _ _ _ _ _ _ ?_ ?_ rfl (scratch_word c g)
  case refine_2 => exact row_of_word (Memref.whole main_arg0) tb0 (k1_off31 (grid1.coords t)) _ _ (wordIx t 6) (wordOff t 6 (by omega)) k1_off34 (fun _ => rfl)
  refine step1 _ (Memref.isWhole_whole _) _ _ _ _ _ _ _ ?_ ?_ rfl (scratch_word c g)
  case refine_2 => exact row_of_word (Memref.whole main_arg0) tb0 (k1_off26 (grid1.coords t)) _ _ (wordIx t 5) (wordOff t 5 (by omega)) k1_off29 (fun _ => rfl)
  refine step1 _ (Memref.isWhole_whole _) _ _ _ _ _ _ _ ?_ ?_ rfl (scratch_word c g)
  case refine_2 => exact row_of_word (Memref.whole main_arg0) tb0 (k1_off21 (grid1.coords t)) _ _ (wordIx t 4) (wordOff t 4 (by omega)) k1_off24 (fun _ => rfl)
  refine step1 _ (Memref.isWhole_whole _) _ _ _ _ _ _ _ ?_ ?_ rfl (scratch_word c g)
  case refine_2 => exact row_of_word (Memref.whole main_arg0) tb0 (k1_off16 (grid1.coords t)) _ _ (wordIx t 3) (wordOff t 3 (by omega)) k1_off19 (fun _ => rfl)
  refine step1 _ (Memref.isWhole_whole _) _ _ _ _ _ _ _ ?_ ?_ rfl (scratch_word c g)
  case refine_2 => exact row_of_word (Memref.whole main_arg0) tb0 (k1_off11 (grid1.coords t)) _ _ (wordIx t 2) (wordOff t 2 (by omega)) k1_off14 (fun _ => rfl)
  refine step1 _ (Memref.isWhole_whole _) _ _ _ _ _ _ _ ?_ ?_ rfl (scratch_word c g)
  case refine_2 => exact row_of_word (Memref.whole main_arg0) tb0 (k1_off6 (grid1.coords t)) _ _ (wordIx t 1) (wordOff t 1 (by omega)) k1_off9 (fun _ => rfl)
  refine step1 _ (Memref.isWhole_whole _) _ _ _ _ _ _ _ ?_ ?_ rfl (scratch_word c g)
  case refine_2 => exact row_of_word (Memref.whole main_arg0) tb0 (k1_off1 (grid1.coords t)) _ _ (wordIx t 0) (wordOff t 0 (by omega)) k1_off4 (fun _ => rfl)
  rfl

/-- The second flag column after the body at point t: the zero word written at the entries the point's 16 item ids
    name. -/
theorem scatterRun_read3 (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_3).view.read (Elt F) (scatterRun c t M0 h0 M1 h1 x0 x1 tb0 tb2 f0 f1 f2 f3 g hT0 hT2).1.2.2.2
      = rowsConst16 ((Memref.whole main_v1_3).view.read (Elt F) f3)
          (fun p => ((Memref.whole main_arg2).view.read (Elt F) tb2 (ValueIdx.ix1 (wordIx t p))).toNat) (zeroWord (F := F)) := by
  rw [rowsConst16_nest]
  unfold scatterRun
  dsimp only
  sl_unfold_run_names
  refine step1 _ (Memref.isWhole_whole _) _ _ _ _ _ _ _ ?_ ?_ rfl (scratch_word c g)
  case refine_2 => exact row_of_word (Memref.whole main_arg2) tb2 (k1_off76 (grid1.coords t)) _ _ (wordIx t 15) (wordOff t 15 (by omega)) k1_off80 (fun _ => rfl)
  refine step1 _ (Memref.isWhole_whole _) _ _ _ _ _ _ _ ?_ ?_ rfl (scratch_word c g)
  case refine_2 => exact row_of_word (Memref.whole main_arg2) tb2 (k1_off71 (grid1.coords t)) _ _ (wordIx t 14) (wordOff t 14 (by omega)) k1_off75 (fun _ => rfl)
  refine step1 _ (Memref.isWhole_whole _) _ _ _ _ _ _ _ ?_ ?_ rfl (scratch_word c g)
  case refine_2 => exact row_of_word (Memref.whole main_arg2) tb2 (k1_off66 (grid1.coords t)) _ _ (wordIx t 13) (wordOff t 13 (by omega)) k1_off70 (fun _ => rfl)
  refine step1 _ (Memref.isWhole_whole _) _ _ _ _ _ _ _ ?_ ?_ rfl (scratch_word c g)
  case refine_2 => exact row_of_word (Memref.whole main_arg2) tb2 (k1_off61 (grid1.coords t)) _ _ (wordIx t 12) (wordOff t 12 (by omega)) k1_off65 (fun _ => rfl)
  refine step1 _ (Memref.isWhole_whole _) _ _ _ _ _ _ _ ?_ ?_ rfl (scratch_word c g)
  case refine_2 => exact row_of_word (Memref.whole main_arg2) tb2 (k1_off56 (grid1.coords t)) _ _ (wordIx t 11) (wordOff t 11 (by omega)) k1_off60 (fun _ => rfl)
  refine step1 _ (Memref.isWhole_whole _) _ _ _ _ _ _ _ ?_ ?_ rfl (scratch_word c g)
  case refine_2 => exact row_of_word (Memref.whole main_arg2) tb2 (k1_off51 (grid1.coords t)) _ _ (wordIx t 10) (wordOff t 10 (by omega)) k1_off55 (fun _ => rfl)
  refine step1 _ (Memref.isWhole_whole _) _ _ _ _ _ _ _ ?_ ?_ rfl (scratch_word c g)
  case refine_2 => exact row_of_word (Memref.whole main_arg2) tb2 (k1_off46 (grid1.coords t)) _ _ (wordIx t 9) (wordOff t 9 (by omega)) k1_off50 (fun _ => rfl)
  refine step1 _ (Memref.isWhole_whole _) _ _ _ _ _ _ _ ?_ ?_ rfl (scratch_word c g)
  case refine_2 => exact row_of_word (Memref.whole main_arg2) tb2 (k1_off41 (grid1.coords t)) _ _ (wordIx t 8) (wordOff t 8 (by omega)) k1_off45 (fun _ => rfl)
  refine step1 _ (Memref.isWhole_whole _) _ _ _ _ _ _ _ ?_ ?_ rfl (scratch_word c g)
  case refine_2 => exact row_of_word (Memref.whole main_arg2) tb2 (k1_off36 (grid1.coords t)) _ _ (wordIx t 7) (wordOff t 7 (by omega)) k1_off40 (fun _ => rfl)
  refine step1 _ (Memref.isWhole_whole _) _ _ _ _ _ _ _ ?_ ?_ rfl (scratch_word c g)
  case refine_2 => exact row_of_word (Memref.whole main_arg2) tb2 (k1_off31 (grid1.coords t)) _ _ (wordIx t 6) (wordOff t 6 (by omega)) k1_off35 (fun _ => rfl)
  refine step1 _ (Memref.isWhole_whole _) _ _ _ _ _ _ _ ?_ ?_ rfl (scratch_word c g)
  case refine_2 => exact row_of_word (Memref.whole main_arg2) tb2 (k1_off26 (grid1.coords t)) _ _ (wordIx t 5) (wordOff t 5 (by omega)) k1_off30 (fun _ => rfl)
  refine step1 _ (Memref.isWhole_whole _) _ _ _ _ _ _ _ ?_ ?_ rfl (scratch_word c g)
  case refine_2 => exact row_of_word (Memref.whole main_arg2) tb2 (k1_off21 (grid1.coords t)) _ _ (wordIx t 4) (wordOff t 4 (by omega)) k1_off25 (fun _ => rfl)
  refine step1 _ (Memref.isWhole_whole _) _ _ _ _ _ _ _ ?_ ?_ rfl (scratch_word c g)
  case refine_2 => exact row_of_word (Memref.whole main_arg2) tb2 (k1_off16 (grid1.coords t)) _ _ (wordIx t 3) (wordOff t 3 (by omega)) k1_off20 (fun _ => rfl)
  refine step1 _ (Memref.isWhole_whole _) _ _ _ _ _ _ _ ?_ ?_ rfl (scratch_word c g)
  case refine_2 => exact row_of_word (Memref.whole main_arg2) tb2 (k1_off11 (grid1.coords t)) _ _ (wordIx t 2) (wordOff t 2 (by omega)) k1_off15 (fun _ => rfl)
  refine step1 _ (Memref.isWhole_whole _) _ _ _ _ _ _ _ ?_ ?_ rfl (scratch_word c g)
  case refine_2 => exact row_of_word (Memref.whole main_arg2) tb2 (k1_off6 (grid1.coords t)) _ _ (wordIx t 1) (wordOff t 1 (by omega)) k1_off10 (fun _ => rfl)
  refine step1 _ (Memref.isWhole_whole _) _ _ _ _ _ _ _ ?_ ?_ rfl (scratch_word c g)
  case refine_2 => exact row_of_word (Memref.whole main_arg2) tb2 (k1_off1 (grid1.coords t)) _ _ (wordIx t 0) (wordOff t 0 (by omega)) k1_off5 (fun _ => rfl)
  rfl

/-! ### The same four, with the row numbers spelt as the 16 entries of point t of a function of the word position -/

theorem scatterRun_read0_idsAt (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_0).view.read (Elt F) (scatterRun c t M0 h0 M1 h1 x0 x1 tb0 tb2 f0 f1 f2 f3 g hT0 hT2).1.1
      = rows16_128 ((Memref.whole main_v1_0).view.read (Elt F) f0)
          (idsAt (fun k => ((Memref.whole main_arg0).view.read (Elt F) tb0 (ValueIdx.ix1 k)).toNat) t.val) x0 :=
  (scatterRun_read0 c t M0 h0 M1 h1 x0 x1 tb0 tb2 f0 f1 f2 f3 g hT0 hT2).trans
    (congrArg (fun ids => rows16_128 ((Memref.whole main_v1_0).view.read (Elt F) f0) ids x0)
      (idsAt_wordIx (fun k => ((Memref.whole main_arg0).view.read (Elt F) tb0 (ValueIdx.ix1 k)).toNat) t))

theorem scatterRun_read1_idsAt (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_1).view.read (Elt F) (scatterRun c t M0 h0 M1 h1 x0 x1 tb0 tb2 f0 f1 f2 f3 g hT0 hT2).1.2.1
      = rows16_128 ((Memref.whole main_v1_1).view.read (Elt F) f1)
          (idsAt (fun k => ((Memref.whole main_arg2).view.read (Elt F) tb2 (ValueIdx.ix1 k)).toNat) t.val) x1 :=
  (scatterRun_read1 c t M0 h0 M1 h1 x0 x1 tb0 tb2 f0 f1 f2 f3 g hT0 hT2).trans
    (congrArg (fun ids => rows16_128 ((Memref.whole main_v1_1).view.read (Elt F) f1) ids x1)
      (idsAt_wordIx (fun k => ((Memref.whole main_arg2).view.read (Elt F) tb2 (ValueIdx.ix1 k)).toNat) t))

theorem scatterRun_read2_idsAt (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_2).view.read (Elt F) (scatterRun c t M0 h0 M1 h1 x0 x1 tb0 tb2 f0 f1 f2 f3 g hT0 hT2).1.2.2.1
      = rowsConst16 ((Memref.whole main_v1_2).view.read (Elt F) f2)
          (idsAt (fun k => ((Memref.whole main_arg0).view.read (Elt F) tb0 (ValueIdx.ix1 k)).toNat) t.val) (zeroWord (F := F)) :=
  (scatterRun_read2 c t M0 h0 M1 h1 x0 x1 tb0 tb2 f0 f1 f2 f3 g hT0 hT2).trans
    (congrArg (fun ids => rowsConst16 ((Memref.whole main_v1_2).view.read (Elt F) f2) ids (zeroWord (F := F)))
      (idsAt_wordIx (fun k => ((Memref.whole main_arg0).view.read (Elt F) tb0 (ValueIdx.ix1 k)).toNat) t))

theorem scatterRun_read3_idsAt (c : Dev nD) (t : Fin grid1.N)
    (M0 : Memref sig .tc .vmem S16x128 .f32) (h0 : M0.IsWhole) (M1 : Memref sig .tc .vmem S16x128 .f32) (h1 : M1.IsWhole)
    (x0 x1 : Vec F S16x128 .f32)
    (tb0 : Bf (F := F) c (Memref.whole main_arg0)) (tb2 : Bf (F := F) c (Memref.whole main_arg2))
    (f0 : Bf (F := F) c (Memref.whole main_v1_0)) (f1 : Bf (F := F) c (Memref.whole main_v1_1))
    (f2 : Bf (F := F) c (Memref.whole main_v1_2)) (f3 : Bf (F := F) c (Memref.whole main_v1_3))
    (g : Bf (F := F) c (Memref.whole cc1_scratch0))
    (hT0 : RowWords c (Memref.whole main_arg0) tb0) (hT2 : RowWords c (Memref.whole main_arg2) tb2) :
    (Memref.whole main_v1_3).view.read (Elt F) (scatterRun c t M0 h0 M1 h1 x0 x1 tb0 tb2 f0 f1 f2 f3 g hT0 hT2).1.2.2.2
      = rowsConst16 ((Memref.whole main_v1_3).view.read (Elt F) f3)
          (idsAt (fun k => ((Memref.whole main_arg2).view.read (Elt F) tb2 (ValueIdx.ix1 k)).toNat) t.val) (zeroWord (F := F)) :=
  (scatterRun_read3 c t M0 h0 M1 h1 x0 x1 tb0 tb2 f0 f1 f2 f3 g hT0 hT2).trans
    (congrArg (fun ids => rowsConst16 ((Memref.whole main_v1_3).view.read (Elt F) f3) ids (zeroWord (F := F)))
      (idsAt_wordIx (fun k => ((Memref.whole main_arg2).view.read (Elt F) tb2 (ValueIdx.ix1 k)).toNat) t))

/-! ## The fold over the grid: a point is sixteen steps of the row-by-row recurrence -/

section Fold

open Cert.Proof.ScatterRows

variable {α : Type}

/-- One step of the row-by-row recurrence on the 128-column table is one row write. -/
theorem rowsAfter128_succ_setRow (X0 : S200000x128.Idx → α) (ids : Fin 4096 → ℕ) (upd : S4096x128.Idx → α)
    (m : ℕ) (h : m < 4096) :
    rowsAfter128 X0 ids upd (m + 1)
      = setRow128 (rowsAfter128 X0 ids upd m) (ids ⟨m, h⟩) (fun k => upd (ValueIdx.ix2 (⟨m, h⟩ : Fin 4096) k)) := by
  funext i
  rw [rowsAfter128_succ, dif_pos h]
  rfl

/-- One step of the row-by-row recurrence on the one-column table, when every update entry is the word z, is one entry
    write of z. -/
theorem rowsAfter1_succ_setRow (X0 : S200000x1.Idx → α) (ids : Fin 4096 → ℕ) (upd : S4096x1.Idx → α) (z : α)
    (hz : ∀ q, upd q = z) (m : ℕ) (h : m < 4096) :
    rowsAfter1 X0 ids upd (m + 1) = setRow1 (rowsAfter1 X0 ids upd m) (ids ⟨m, h⟩) z := by
  funext i
  rw [rowsAfter1_succ, dif_pos h, hz]
  rfl

/-- The 16 rows of block t of the update, written in order over the table after 16·t row writes, give the table after
    16·(t+1) row writes. -/
theorem rows16_128_eq_rowsAfter (X0 : S200000x128.Idx → α) (ids : Fin 4096 → ℕ) (upd : S4096x128.Idx → α)
    (t : ℕ) (ht : t < 256) :
    rows16_128 (rowsAfter128 X0 ids upd (16 * t)) (fun p => ids ⟨16 * t + p.val, by omega⟩)
        (fun q => upd (ValueIdx.ix2 (⟨16 * t + (q 0).val, by have : (q 0).val < 16 := (q 0).isLt; omega⟩ : Fin 4096)
          (q 1 : Fin 128)))
      = rowsAfter128 X0 ids upd (16 * (t + 1)) :=
  rows16_128_eq_of_succ (rowsAfter128 X0 ids upd) ids upd (rowsAfter128_succ_setRow X0 ids upd) t ht

/-- The word z written at the 16 entries block t names, over the one-column table after 16·t row writes of an update
    whose every entry is z, gives the table after 16·(t+1) row writes. -/
theorem rowsConst16_eq_rowsAfter (X0 : S200000x1.Idx → α) (ids : Fin 4096 → ℕ) (upd : S4096x1.Idx → α) (z : α)
    (hz : ∀ q, upd q = z) (t : ℕ) (ht : t < 256) :
    rowsConst16 (rowsAfter1 X0 ids upd (16 * t)) (fun p => ids ⟨16 * t + p.val, by omega⟩) z
      = rowsAfter1 X0 ids upd (16 * (t + 1)) :=
  rowsConst16_eq_of_succ (rowsAfter1 X0 ids upd) ids z (rowsAfter1_succ_setRow X0 ids upd z hz) t ht

end Fold

end Cert.Kernel.Hand

end
-- ==== Proof.K.Step1.lean ====
/- The scatter region's step, closed: what the body's run leaves in the four tables at point t, read back, is the tables'
   recursion one step on. The run's sixteen row writes per table are sixteen row replacements in the order of the rows
   (the read-back lemmas); the recursion's step at n is exactly those sixteen replacements at the rows the ids of point
   n name. -/
import proofs.«423553_j10307921510829_1_alg».proof.Proof.K.Region1
import proofs.«423553_j10307921510829_1_alg».proof.Proof.K.ScatterStep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

section Region

variable (a1 : (pcfg1 (F := F)).Adm)
variable (V : (c : Dev nD) → (b : Ref sig .tc) → Buf (Elt F) ((c : Thread nD τ).loc b))

/-- One step of each table's recursion, at a point of the grid. -/
theorem tabU_succ (c : Dev nD) (t : Fin (cfg1 a1).N) :
    tabU a1 V c (t.val + 1) = rows16_128 (tabU a1 V c t.val) (idsAt (idU V c) t.val) (iblk1 a1 V c 0 t) := by
  show (if h : t.val < (cfg1 a1).N then rows16_128 (tabU a1 V c t.val) (idsAt (idU V c) t.val) (iblk1 a1 V c 0 ⟨t.val, h⟩) else tabU a1 V c t.val) = _
  rw [dif_pos t.isLt]
theorem tabI_succ (c : Dev nD) (t : Fin (cfg1 a1).N) :
    tabI a1 V c (t.val + 1) = rows16_128 (tabI a1 V c t.val) (idsAt (idI V c) t.val) (iblk1 a1 V c 1 t) := by
  show (if h : t.val < (cfg1 a1).N then rows16_128 (tabI a1 V c t.val) (idsAt (idI V c) t.val) (iblk1 a1 V c 1 ⟨t.val, h⟩) else tabI a1 V c t.val) = _
  rw [dif_pos t.isLt]

set_option maxHeartbeats 4000000 in
/-- The step fact the body obligation takes: with the two tables of row numbers the region's own, the run's four results
    at point `t` are the four tables after `t + 1` points. -/
theorem scatter_step
    (ha0 : ∀ c : Dev nD, a1.1 0 = V c main_arg0) (ha1 : ∀ c : Dev nD, a1.1 1 = V c main_arg2)
    (hU : ∀ c : Dev nD, RowWords c (Memref.whole main_arg0) (a1.1 0)) (hI : ∀ c : Dev nD, RowWords c (Memref.whole main_arg2) (a1.1 1))
    (c : Dev nD) (t : Fin (cfg1 a1).N) (g : Bf (F := F) c (Memref.whole cc1_scratch0)) :
    (scatterRun c t (ms1_0 a1 t) (hs1_0 a1 t) (ms1_1 a1 t) (hs1_1 a1 t) (iblk1 a1 V c 0 t) (iblk1 a1 V c 1 t) (a1.1 0) (a1.1 1)
        (tabU a1 V c t.val) (tabI a1 V c t.val) (flagU V c t.val) (flagI V c t.val) g (hU c) (hI c)).1
      = (tabU a1 V c (t.val + 1), tabI a1 V c (t.val + 1), flagU V c (t.val + 1), flagI V c (t.val + 1)) := by
  have e0 := scatterRun_read0_idsAt c t (ms1_0 a1 t) (hs1_0 a1 t) (ms1_1 a1 t) (hs1_1 a1 t) (iblk1 a1 V c 0 t) (iblk1 a1 V c 1 t) (a1.1 0) (a1.1 1)
    (tabU a1 V c t.val) (tabI a1 V c t.val) (flagU V c t.val) (flagI V c t.val) g (hU c) (hI c)
  have e1 := scatterRun_read1_idsAt c t (ms1_0 a1 t) (hs1_0 a1 t) (ms1_1 a1 t) (hs1_1 a1 t) (iblk1 a1 V c 0 t) (iblk1 a1 V c 1 t) (a1.1 0) (a1.1 1)
    (tabU a1 V c t.val) (tabI a1 V c t.val) (flagU V c t.val) (flagI V c t.val) g (hU c) (hI c)
  have e2 := scatterRun_read2_idsAt c t (ms1_0 a1 t) (hs1_0 a1 t) (ms1_1 a1 t) (hs1_1 a1 t) (iblk1 a1 V c 0 t) (iblk1 a1 V c 1 t) (a1.1 0) (a1.1 1)
    (tabU a1 V c t.val) (tabI a1 V c t.val) (flagU V c t.val) (flagI V c t.val) g (hU c) (hI c)
  have e3 := scatterRun_read3_idsAt c t (ms1_0 a1 t) (hs1_0 a1 t) (ms1_1 a1 t) (hs1_1 a1 t) (iblk1 a1 V c 0 t) (iblk1 a1 V c 1 t) (a1.1 0) (a1.1 1)
    (tabU a1 V c t.val) (tabI a1 V c t.val) (flagU V c t.val) (flagI V c t.val) g (hU c) (hI c)
  simp only [Memref.view_whole, View.read_whole] at e0 e1 e2 e3
  have hidU : (fun k : Fin 4096 => BitVec.toNat (View.read (Elt F) (View.whole main_arg0) (a1.1 0) (ValueIdx.ix1 k))) = idU V c := by
    funext k; simp only [idU, Memref.view_whole, View.read_whole, ha0 c]
  have hidI : (fun k : Fin 4096 => BitVec.toNat (View.read (Elt F) (View.whole main_arg2) (a1.1 1) (ValueIdx.ix1 k))) = idI V c := by
    funext k; simp only [idI, Memref.view_whole, View.read_whole, ha1 c]
  refine Prod.ext ?_ (Prod.ext ?_ (Prod.ext ?_ ?_))
  · exact e0.trans ((congrArg (fun ids => rows16_128 (tabU a1 V c t.val) (idsAt ids t.val) (iblk1 a1 V c 0 t)) hidU).trans
      (tabU_succ a1 V c t).symm)
  · exact e1.trans ((congrArg (fun ids => rows16_128 (tabI a1 V c t.val) (idsAt ids t.val) (iblk1 a1 V c 1 t)) hidI).trans
      (tabI_succ a1 V c t).symm)
  · exact e2.trans (congrArg (fun ids => rowsConst16 (flagU V c t.val) (idsAt ids t.val) (zeroWord (F := F))) hidU)
  · exact e3.trans (congrArg (fun ids => rowsConst16 (flagI V c t.val) (idsAt ids t.val) (zeroWord (F := F))) hidI)

end Region

end Cert.Kernel.Hand

end
-- ==== Proof.K.RowWordsOf.lean ====
/- From a bound on the entries of an index table to a bound on every word a scalar load can read from it. A load at
   coordinates r reads, at position y, the table's view at the index r names for y; so a bound that holds at every index
   of the view holds for every word of every load. For a whole argument buffer the view reads the buffer's contents
   themselves, so the bound on the launch memory's three index arrays (which the precondition gives) is the bound on
   every word the kernel bodies read from their three tables. -/
import proofs.«423553_j10307921510829_1_alg».proof.Proof.K.Basics

noncomputable section

namespace Cert.Kernel.Hand

open Cert.Kernel Cert.Kernel.Gen
open Idealize.ShloMosaic Idealize.ShloMosaic.TcCoe
open Idealize.SL.Sem

variable {F : FTy → Type} [FloatOps F]

/-- A table whose view reads a row number at every index yields a row number at every position of every load. -/
theorem rowWords_of_lt (c : Dev nD) (M : Memref sig .tc .smem S4096 .i32) (tb : Bf (F := F) c M)
    (h : ∀ j : S4096.Idx, (M.view.read (Elt F) tb j).toNat < 200000) : RowWords c M tb :=
  fun r y => h (r.idx y)

/-- The three index tables are whole argument buffers: their views read the contents as they are. -/
theorem rowWords_arg0 (c : Dev nD) (tb : Bf (F := F) c (Memref.whole main_arg0))
    (h : ∀ j : S4096.Idx, (tb j).toNat < 200000) : RowWords c (Memref.whole main_arg0) tb :=
  rowWords_of_lt c (Memref.whole main_arg0) tb h

theorem rowWords_arg1 (c : Dev nD) (tb : Bf (F := F) c (Memref.whole main_arg1))
    (h : ∀ j : S4096.Idx, (tb j).toNat < 200000) : RowWords c (Memref.whole main_arg1) tb :=
  rowWords_of_lt c (Memref.whole main_arg1) tb h

theorem rowWords_arg2 (c : Dev nD) (tb : Bf (F := F) c (Memref.whole main_arg2))
    (h : ∀ j : S4096.Idx, (tb j).toNat < 200000) : RowWords c (Memref.whole main_arg2) tb :=
  rowWords_of_lt c (Memref.whole main_arg2) tb h

/-- The launch memory's three index arrays have every entry below 200000 (the precondition's integer conjuncts):
    then every word read from each of the three tables, as the memory holds them on core c, is a row number. -/
theorem idsOk_of_pre (c : Dev nD) (m : (ℓ : Loc nD τ sig) → Buf (Elt F) ℓ)
    (h : (∀ j : S4096.Idx, (m ((c : Thread nD τ).loc main_arg0) j).toNat < 200000)
      ∧ (∀ j : S4096.Idx, (m ((c : Thread nD τ).loc main_arg1) j).toNat < 200000)
      ∧ (∀ j : S4096.Idx, (m ((c : Thread nD τ).loc main_arg2) j).toNat < 200000)) :
    RowWords c (Memref.whole main_arg0) (m ((c : Thread nD τ).loc main_arg0))
      ∧ RowWords c (Memref.whole main_arg1) (m ((c : Thread nD τ).loc main_arg1))
      ∧ RowWords c (Memref.whole main_arg2) (m ((c : Thread nD τ).loc main_arg2)) :=
  ⟨rowWords_arg0 c _ h.1, rowWords_arg1 c _ h.2.1, rowWords_arg2 c _ h.2.2⟩

end Cert.Kernel.Hand

end
-- ==== Proof.K.Final.lean ====
/- The two kernel regions put together at the launch memory. Under the precondition every word of the three id columns
   is, unsigned, below 200000; so every table word names a row, each region's body obligation holds, and @main runs: every
   weakly fair execution terminates and the final memory holds, at every buffer that outlives a region, what the last
   boundary's valuation says. Read at the arguments, that is the frame: each argument array ends as launched. -/
import proofs.«423553_j10307921510829_1_alg».proof.Proof.K.Segs
import proofs.«423553_j10307921510829_1_alg».proof.Proof.K.Region0
import proofs.«423553_j10307921510829_1_alg».proof.Proof.K.Step1
import proofs.«423553_j10307921510829_1_alg».proof.Proof.K.RowWordsOf

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-- On every core, every word of the three id columns of the launch memory is, unsigned, below 200000. -/
abbrev IdsLt : Prop := ∀ c : Dev nD,
  (∀ j : S4096.Idx, (m ((c : Thread nD τ).loc main_arg0) j).toNat < 200000)
    ∧ (∀ j : S4096.Idx, (m ((c : Thread nD τ).loc main_arg1) j).toNat < 200000)
    ∧ (∀ j : S4096.Idx, (m ((c : Thread nD τ).loc main_arg2) j).toNat < 200000)

/-- The region's own form of the same facts. -/
theorem hids_of (h3 : IdsLt m) : ∀ c, IdsOk (U0 m) c := fun c => ⟨(h3 c).1, (h3 c).2.1, (h3 c).2.2⟩

/-- Every word a scalar load reads from a table of row numbers names a row (the tables are the launch memory's id
    columns on the one core). -/
theorem hT0_of (h3 : IdsLt m) (c : Dev nD) : RowWords c (Memref.whole main_arg0) ((adm0 m).1 0) := rowWords_arg0 c _ (h3 0).1
theorem hT1_of (h3 : IdsLt m) (c : Dev nD) : RowWords c (Memref.whole main_arg2) ((adm0 m).1 1) := rowWords_arg2 c _ (h3 0).2.2
theorem hT2_of (h3 : IdsLt m) (c : Dev nD) : RowWords c (Memref.whole main_arg1) ((adm0 m).1 2) := rowWords_arg1 c _ (h3 0).2.1
theorem hU1_of (h3 : IdsLt m) (c : Dev nD) : RowWords c (Memref.whole main_arg0) ((adm1 m).1 0) := rowWords_arg0 c _ (h3 0).1
theorem hI1_of (h3 : IdsLt m) (c : Dev nD) : RowWords c (Memref.whole main_arg2) ((adm1 m).1 1) := rowWords_arg2 c _ (h3 0).2.2

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the first region's run leaves in its output buffers, read back, is the specification's blocks: the fact the
    gather step supplies. -/
abbrev GatherBlocks (h3 : IdsLt m) : Prop :=
  ∀ (c : Dev nD) (t : Fin (cfg0 (adm0 m)).N) (g0 : Bf (F := F) c (Memref.whole cc0_scratch0)) (g1 : Bf (F := F) c (Memref.whole cc0_scratch1)) (g2 : Bf (F := F) c (Memref.whole cc0_scratch2)) (g3 : Bf (F := F) c (Memref.whole cc0_scratch3)) (g4 : Bf (F := F) c (Memref.whole cc0_scratch4)) (g5 : Bf (F := F) c (Memref.whole cc0_scratch5)) (g6 : Bf (F := F) c (Memref.whole cc0_scratch6)) (g7 : Bf (F := F) c (Memref.whole cc0_scratch7)) (g8 : Bf (F := F) c (Memref.whole cc0_scratch8)),
        (ms0_16 (adm0 m) t).view.read (Elt F) ((ms0_16 (adm0 m) t).view.writes (Elt F) (ms0_16 (adm0 m) t).view.junk (gatherRun c t (ms0_0 (adm0 m) t) (hs0_0 (adm0 m) t) (iblk0 (adm0 m) (U0 m) c 0 t) (ms0_1 (adm0 m) t) (hs0_1 (adm0 m) t) (iblk0 (adm0 m) (U0 m) c 1 t) (ms0_2 (adm0 m) t) (hs0_2 (adm0 m) t) (iblk0 (adm0 m) (U0 m) c 2 t) (ms0_3 (adm0 m) t) (hs0_3 (adm0 m) t) (iblk0 (adm0 m) (U0 m) c 3 t) (ms0_4 (adm0 m) t) (hs0_4 (adm0 m) t) (iblk0 (adm0 m) (U0 m) c 4 t) (ms0_5 (adm0 m) t) (hs0_5 (adm0 m) t) (iblk0 (adm0 m) (U0 m) c 5 t) (ms0_6 (adm0 m) t) (hs0_6 (adm0 m) t) (iblk0 (adm0 m) (U0 m) c 6 t) (ms0_7 (adm0 m) t) (hs0_7 (adm0 m) t) (iblk0 (adm0 m) (U0 m) c 7 t) (ms0_8 (adm0 m) t) (hs0_8 (adm0 m) t) (iblk0 (adm0 m) (U0 m) c 8 t) (ms0_9 (adm0 m) t) (hs0_9 (adm0 m) t) (iblk0 (adm0 m) (U0 m) c 9 t) (ms0_10 (adm0 m) t) (hs0_10 (adm0 m) t) (iblk0 (adm0 m) (U0 m) c 10 t) (ms0_11 (adm0 m) t) (hs0_11 (adm0 m) t) (iblk0 (adm0 m) (U0 m) c 11 t) (ms0_12 (adm0 m) t) (hs0_12 (adm0 m) t) (iblk0 (adm0 m) (U0 m) c 12 t) (ms0_13 (adm0 m) t) (hs0_13 (adm0 m) t) (iblk0 (adm0 m) (U0 m) c 13 t) (ms0_14 (adm0 m) t) (hs0_14 (adm0 m) t) (iblk0 (adm0 m) (U0 m) c 14 t) (ms0_15 (adm0 m) t) (hs0_15 (adm0 m) t) (iblk0 (adm0 m) (U0 m) c 15 t) (ms0_16 (adm0 m) t) (hs0_16 (adm0 m) t) (ms0_17 (adm0 m) t) (hs0_17 (adm0 m) t) (ms0_18 (adm0 m) t) (hs0_18 (adm0 m) t) (ms0_19 (adm0 m) t) (hs0_19 (adm0 m) t) (ms0_20 (adm0 m) t) (hs0_20 (adm0 m) t) (ms0_21 (adm0 m) t) (hs0_21 (adm0 m) t) ((adm0 m).1 0) ((adm0 m).1 1) ((adm0 m).1 2) (U0 m c main_arg5) (U0 m c main_arg6) (U0 m c main_arg9) (U0 m c main_arg10) (U0 m c main_arg7) (U0 m c main_arg8) g0 g1 g2 g3 g4 g5 g6 g7 g8 (hT0_of m h3 c) (hT1_of m h3 c) (hT2_of m h3 c)).1.1) = after0 (adm0 m) (U0 m) c (hids_of m h3 c) 16 t
        ∧ (ms0_17 (adm0 m) t).view.read (Elt F) ((ms0_17 (adm0 m) t).view.writes (Elt F) (ms0_17 (adm0 m) t).view.junk (gatherRun c t (ms0_0 (adm0 m) t) (hs0_0 (adm0 m) t) (iblk0 (adm0 m) (U0 m) c 0 t) (ms0_1 (adm0 m) t) (hs0_1 (adm0 m) t) (iblk0 (adm0 m) (U0 m) c 1 t) (ms0_2 (adm0 m) t) (hs0_2 (adm0 m) t) (iblk0 (adm0 m) (U0 m) c 2 t) (ms0_3 (adm0 m) t) (hs0_3 (adm0 m) t) (iblk0 (adm0 m) (U0 m) c 3 t) (ms0_4 (adm0 m) t) (hs0_4 (adm0 m) t) (iblk0 (adm0 m) (U0 m) c 4 t) (ms0_5 (adm0 m) t) (hs0_5 (adm0 m) t) (iblk0 (adm0 m) (U0 m) c 5 t) (ms0_6 (adm0 m) t) (hs0_6 (adm0 m) t) (iblk0 (adm0 m) (U0 m) c 6 t) (ms0_7 (adm0 m) t) (hs0_7 (adm0 m) t) (iblk0 (adm0 m) (U0 m) c 7 t) (ms0_8 (adm0 m) t) (hs0_8 (adm0 m) t) (iblk0 (adm0 m) (U0 m) c 8 t) (ms0_9 (adm0 m) t) (hs0_9 (adm0 m) t) (iblk0 (adm0 m) (U0 m) c 9 t) (ms0_10 (adm0 m) t) (hs0_10 (adm0 m) t) (iblk0 (adm0 m) (U0 m) c 10 t) (ms0_11 (adm0 m) t) (hs0_11 (adm0 m) t) (iblk0 (adm0 m) (U0 m) c 11 t) (ms0_12 (adm0 m) t) (hs0_12 (adm0 m) t) (iblk0 (adm0 m) (U0 m) c 12 t) (ms0_13 (adm0 m) t) (hs0_13 (adm0 m) t) (iblk0 (adm0 m) (U0 m) c 13 t) (ms0_14 (adm0 m) t) (hs0_14 (adm0 m) t) (iblk0 (adm0 m) (U0 m) c 14 t) (ms0_15 (adm0 m) t) (hs0_15 (adm0 m) t) (iblk0 (adm0 m) (U0 m) c 15 t) (ms0_16 (adm0 m) t) (hs0_16 (adm0 m) t) (ms0_17 (adm0 m) t) (hs0_17 (adm0 m) t) (ms0_18 (adm0 m) t) (hs0_18 (adm0 m) t) (ms0_19 (adm0 m) t) (hs0_19 (adm0 m) t) (ms0_20 (adm0 m) t) (hs0_20 (adm0 m) t) (ms0_21 (adm0 m) t) (hs0_21 (adm0 m) t) ((adm0 m).1 0) ((adm0 m).1 1) ((adm0 m).1 2) (U0 m c main_arg5) (U0 m c main_arg6) (U0 m c main_arg9) (U0 m c main_arg10) (U0 m c main_arg7) (U0 m c main_arg8) g0 g1 g2 g3 g4 g5 g6 g7 g8 (hT0_of m h3 c) (hT1_of m h3 c) (hT2_of m h3 c)).1.2.1) = after0 (adm0 m) (U0 m) c (hids_of m h3 c) 17 t
        ∧ (ms0_18 (adm0 m) t).view.read (Elt F) ((ms0_18 (adm0 m) t).view.writes (Elt F) (ms0_18 (adm0 m) t).view.junk (gatherRun c t (ms0_0 (adm0 m) t) (hs0_0 (adm0 m) t) (iblk0 (adm0 m) (U0 m) c 0 t) (ms0_1 (adm0 m) t) (hs0_1 (adm0 m) t) (iblk0 (adm0 m) (U0 m) c 1 t) (ms0_2 (adm0 m) t) (hs0_2 (adm0 m) t) (iblk0 (adm0 m) (U0 m) c 2 t) (ms0_3 (adm0 m) t) (hs0_3 (adm0 m) t) (iblk0 (adm0 m) (U0 m) c 3 t) (ms0_4 (adm0 m) t) (hs0_4 (adm0 m) t) (iblk0 (adm0 m) (U0 m) c 4 t) (ms0_5 (adm0 m) t) (hs0_5 (adm0 m) t) (iblk0 (adm0 m) (U0 m) c 5 t) (ms0_6 (adm0 m) t) (hs0_6 (adm0 m) t) (iblk0 (adm0 m) (U0 m) c 6 t) (ms0_7 (adm0 m) t) (hs0_7 (adm0 m) t) (iblk0 (adm0 m) (U0 m) c 7 t) (ms0_8 (adm0 m) t) (hs0_8 (adm0 m) t) (iblk0 (adm0 m) (U0 m) c 8 t) (ms0_9 (adm0 m) t) (hs0_9 (adm0 m) t) (iblk0 (adm0 m) (U0 m) c 9 t) (ms0_10 (adm0 m) t) (hs0_10 (adm0 m) t) (iblk0 (adm0 m) (U0 m) c 10 t) (ms0_11 (adm0 m) t) (hs0_11 (adm0 m) t) (iblk0 (adm0 m) (U0 m) c 11 t) (ms0_12 (adm0 m) t) (hs0_12 (adm0 m) t) (iblk0 (adm0 m) (U0 m) c 12 t) (ms0_13 (adm0 m) t) (hs0_13 (adm0 m) t) (iblk0 (adm0 m) (U0 m) c 13 t) (ms0_14 (adm0 m) t) (hs0_14 (adm0 m) t) (iblk0 (adm0 m) (U0 m) c 14 t) (ms0_15 (adm0 m) t) (hs0_15 (adm0 m) t) (iblk0 (adm0 m) (U0 m) c 15 t) (ms0_16 (adm0 m) t) (hs0_16 (adm0 m) t) (ms0_17 (adm0 m) t) (hs0_17 (adm0 m) t) (ms0_18 (adm0 m) t) (hs0_18 (adm0 m) t) (ms0_19 (adm0 m) t) (hs0_19 (adm0 m) t) (ms0_20 (adm0 m) t) (hs0_20 (adm0 m) t) (ms0_21 (adm0 m) t) (hs0_21 (adm0 m) t) ((adm0 m).1 0) ((adm0 m).1 1) ((adm0 m).1 2) (U0 m c main_arg5) (U0 m c main_arg6) (U0 m c main_arg9) (U0 m c main_arg10) (U0 m c main_arg7) (U0 m c main_arg8) g0 g1 g2 g3 g4 g5 g6 g7 g8 (hT0_of m h3 c) (hT1_of m h3 c) (hT2_of m h3 c)).1.2.2.1) = after0 (adm0 m) (U0 m) c (hids_of m h3 c) 18 t
        ∧ (ms0_19 (adm0 m) t).view.read (Elt F) ((ms0_19 (adm0 m) t).view.writes (Elt F) (ms0_19 (adm0 m) t).view.junk (gatherRun c t (ms0_0 (adm0 m) t) (hs0_0 (adm0 m) t) (iblk0 (adm0 m) (U0 m) c 0 t) (ms0_1 (adm0 m) t) (hs0_1 (adm0 m) t) (iblk0 (adm0 m) (U0 m) c 1 t) (ms0_2 (adm0 m) t) (hs0_2 (adm0 m) t) (iblk0 (adm0 m) (U0 m) c 2 t) (ms0_3 (adm0 m) t) (hs0_3 (adm0 m) t) (iblk0 (adm0 m) (U0 m) c 3 t) (ms0_4 (adm0 m) t) (hs0_4 (adm0 m) t) (iblk0 (adm0 m) (U0 m) c 4 t) (ms0_5 (adm0 m) t) (hs0_5 (adm0 m) t) (iblk0 (adm0 m) (U0 m) c 5 t) (ms0_6 (adm0 m) t) (hs0_6 (adm0 m) t) (iblk0 (adm0 m) (U0 m) c 6 t) (ms0_7 (adm0 m) t) (hs0_7 (adm0 m) t) (iblk0 (adm0 m) (U0 m) c 7 t) (ms0_8 (adm0 m) t) (hs0_8 (adm0 m) t) (iblk0 (adm0 m) (U0 m) c 8 t) (ms0_9 (adm0 m) t) (hs0_9 (adm0 m) t) (iblk0 (adm0 m) (U0 m) c 9 t) (ms0_10 (adm0 m) t) (hs0_10 (adm0 m) t) (iblk0 (adm0 m) (U0 m) c 10 t) (ms0_11 (adm0 m) t) (hs0_11 (adm0 m) t) (iblk0 (adm0 m) (U0 m) c 11 t) (ms0_12 (adm0 m) t) (hs0_12 (adm0 m) t) (iblk0 (adm0 m) (U0 m) c 12 t) (ms0_13 (adm0 m) t) (hs0_13 (adm0 m) t) (iblk0 (adm0 m) (U0 m) c 13 t) (ms0_14 (adm0 m) t) (hs0_14 (adm0 m) t) (iblk0 (adm0 m) (U0 m) c 14 t) (ms0_15 (adm0 m) t) (hs0_15 (adm0 m) t) (iblk0 (adm0 m) (U0 m) c 15 t) (ms0_16 (adm0 m) t) (hs0_16 (adm0 m) t) (ms0_17 (adm0 m) t) (hs0_17 (adm0 m) t) (ms0_18 (adm0 m) t) (hs0_18 (adm0 m) t) (ms0_19 (adm0 m) t) (hs0_19 (adm0 m) t) (ms0_20 (adm0 m) t) (hs0_20 (adm0 m) t) (ms0_21 (adm0 m) t) (hs0_21 (adm0 m) t) ((adm0 m).1 0) ((adm0 m).1 1) ((adm0 m).1 2) (U0 m c main_arg5) (U0 m c main_arg6) (U0 m c main_arg9) (U0 m c main_arg10) (U0 m c main_arg7) (U0 m c main_arg8) g0 g1 g2 g3 g4 g5 g6 g7 g8 (hT0_of m h3 c) (hT1_of m h3 c) (hT2_of m h3 c)).1.2.2.2.1) = after0 (adm0 m) (U0 m) c (hids_of m h3 c) 19 t
        ∧ (ms0_20 (adm0 m) t).view.read (Elt F) ((ms0_20 (adm0 m) t).view.writes (Elt F) (ms0_20 (adm0 m) t).view.junk (gatherRun c t (ms0_0 (adm0 m) t) (hs0_0 (adm0 m) t) (iblk0 (adm0 m) (U0 m) c 0 t) (ms0_1 (adm0 m) t) (hs0_1 (adm0 m) t) (iblk0 (adm0 m) (U0 m) c 1 t) (ms0_2 (adm0 m) t) (hs0_2 (adm0 m) t) (iblk0 (adm0 m) (U0 m) c 2 t) (ms0_3 (adm0 m) t) (hs0_3 (adm0 m) t) (iblk0 (adm0 m) (U0 m) c 3 t) (ms0_4 (adm0 m) t) (hs0_4 (adm0 m) t) (iblk0 (adm0 m) (U0 m) c 4 t) (ms0_5 (adm0 m) t) (hs0_5 (adm0 m) t) (iblk0 (adm0 m) (U0 m) c 5 t) (ms0_6 (adm0 m) t) (hs0_6 (adm0 m) t) (iblk0 (adm0 m) (U0 m) c 6 t) (ms0_7 (adm0 m) t) (hs0_7 (adm0 m) t) (iblk0 (adm0 m) (U0 m) c 7 t) (ms0_8 (adm0 m) t) (hs0_8 (adm0 m) t) (iblk0 (adm0 m) (U0 m) c 8 t) (ms0_9 (adm0 m) t) (hs0_9 (adm0 m) t) (iblk0 (adm0 m) (U0 m) c 9 t) (ms0_10 (adm0 m) t) (hs0_10 (adm0 m) t) (iblk0 (adm0 m) (U0 m) c 10 t) (ms0_11 (adm0 m) t) (hs0_11 (adm0 m) t) (iblk0 (adm0 m) (U0 m) c 11 t) (ms0_12 (adm0 m) t) (hs0_12 (adm0 m) t) (iblk0 (adm0 m) (U0 m) c 12 t) (ms0_13 (adm0 m) t) (hs0_13 (adm0 m) t) (iblk0 (adm0 m) (U0 m) c 13 t) (ms0_14 (adm0 m) t) (hs0_14 (adm0 m) t) (iblk0 (adm0 m) (U0 m) c 14 t) (ms0_15 (adm0 m) t) (hs0_15 (adm0 m) t) (iblk0 (adm0 m) (U0 m) c 15 t) (ms0_16 (adm0 m) t) (hs0_16 (adm0 m) t) (ms0_17 (adm0 m) t) (hs0_17 (adm0 m) t) (ms0_18 (adm0 m) t) (hs0_18 (adm0 m) t) (ms0_19 (adm0 m) t) (hs0_19 (adm0 m) t) (ms0_20 (adm0 m) t) (hs0_20 (adm0 m) t) (ms0_21 (adm0 m) t) (hs0_21 (adm0 m) t) ((adm0 m).1 0) ((adm0 m).1 1) ((adm0 m).1 2) (U0 m c main_arg5) (U0 m c main_arg6) (U0 m c main_arg9) (U0 m c main_arg10) (U0 m c main_arg7) (U0 m c main_arg8) g0 g1 g2 g3 g4 g5 g6 g7 g8 (hT0_of m h3 c) (hT1_of m h3 c) (hT2_of m h3 c)).1.2.2.2.2.1) = after0 (adm0 m) (U0 m) c (hids_of m h3 c) 20 t
        ∧ (ms0_21 (adm0 m) t).view.read (Elt F) ((ms0_21 (adm0 m) t).view.writes (Elt F) (ms0_21 (adm0 m) t).view.junk (gatherRun c t (ms0_0 (adm0 m) t) (hs0_0 (adm0 m) t) (iblk0 (adm0 m) (U0 m) c 0 t) (ms0_1 (adm0 m) t) (hs0_1 (adm0 m) t) (iblk0 (adm0 m) (U0 m) c 1 t) (ms0_2 (adm0 m) t) (hs0_2 (adm0 m) t) (iblk0 (adm0 m) (U0 m) c 2 t) (ms0_3 (adm0 m) t) (hs0_3 (adm0 m) t) (iblk0 (adm0 m) (U0 m) c 3 t) (ms0_4 (adm0 m) t) (hs0_4 (adm0 m) t) (iblk0 (adm0 m) (U0 m) c 4 t) (ms0_5 (adm0 m) t) (hs0_5 (adm0 m) t) (iblk0 (adm0 m) (U0 m) c 5 t) (ms0_6 (adm0 m) t) (hs0_6 (adm0 m) t) (iblk0 (adm0 m) (U0 m) c 6 t) (ms0_7 (adm0 m) t) (hs0_7 (adm0 m) t) (iblk0 (adm0 m) (U0 m) c 7 t) (ms0_8 (adm0 m) t) (hs0_8 (adm0 m) t) (iblk0 (adm0 m) (U0 m) c 8 t) (ms0_9 (adm0 m) t) (hs0_9 (adm0 m) t) (iblk0 (adm0 m) (U0 m) c 9 t) (ms0_10 (adm0 m) t) (hs0_10 (adm0 m) t) (iblk0 (adm0 m) (U0 m) c 10 t) (ms0_11 (adm0 m) t) (hs0_11 (adm0 m) t) (iblk0 (adm0 m) (U0 m) c 11 t) (ms0_12 (adm0 m) t) (hs0_12 (adm0 m) t) (iblk0 (adm0 m) (U0 m) c 12 t) (ms0_13 (adm0 m) t) (hs0_13 (adm0 m) t) (iblk0 (adm0 m) (U0 m) c 13 t) (ms0_14 (adm0 m) t) (hs0_14 (adm0 m) t) (iblk0 (adm0 m) (U0 m) c 14 t) (ms0_15 (adm0 m) t) (hs0_15 (adm0 m) t) (iblk0 (adm0 m) (U0 m) c 15 t) (ms0_16 (adm0 m) t) (hs0_16 (adm0 m) t) (ms0_17 (adm0 m) t) (hs0_17 (adm0 m) t) (ms0_18 (adm0 m) t) (hs0_18 (adm0 m) t) (ms0_19 (adm0 m) t) (hs0_19 (adm0 m) t) (ms0_20 (adm0 m) t) (hs0_20 (adm0 m) t) (ms0_21 (adm0 m) t) (hs0_21 (adm0 m) t) ((adm0 m).1 0) ((adm0 m).1 1) ((adm0 m).1 2) (U0 m c main_arg5) (U0 m c main_arg6) (U0 m c main_arg9) (U0 m c main_arg10) (U0 m c main_arg7) (U0 m c main_arg8) g0 g1 g2 g3 g4 g5 g6 g7 g8 (hT0_of m h3 c) (hT1_of m h3 c) (hT2_of m h3 c)).1.2.2.2.2.2) = after0 (adm0 m) (U0 m) c (hids_of m h3 c) 21 t

/-- THE RUN: termination, and the whole final memory of the buffers that outlive the regions. -/
theorem final_run (h3 : IdsLt m) (ρ : Dev nD → PrngReg) (hblk : GatherBlocks m h3) :
    θ_run defs (onTc (τ := τ) (main (F := F))) ⟨m, fun _ => 0, ρ⟩ (fun r => ∀ c : Dev nD,
      ∀ b ∈ Pipeline.ucRefs τ sig, r.2.mem (((c : Thread nD τ)).1, b) = V3 m (outs m (hids_of m h3)) c b) :=
  run_values m (hids_of m h3) ρ
    (fun c => body_obligation0 (adm0 m) (U0 m) (hids_of m h3) (hT0_of m h3) (hT1_of m h3) (hT2_of m h3) hblk c)
    (fun c => body_obligation1 (adm1 m) (U2 m (hids_of m h3)) (hU1_of m h3) (hI1_of m h3)
      (scatter_step (adm1 m) (U2 m (hids_of m h3))
        (fun c => congrFun (adm1_val2 m (hids_of m h3) c) 0) (fun c => congrFun (adm1_val2 m (hids_of m h3) c) 1)
        (hU1_of m h3) (hI1_of m h3)) c)

/-- THE FRAME: every argument array ends as launched. -/
theorem final_frame (h3 : IdsLt m) (ρ : Dev nD → PrngReg) (hblk : GatherBlocks m h3) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (V3_main_arg0 m _ c),
      (h c _ (mem_uc main_arg1 (by decide))).trans (V3_main_arg1 m _ c),
      (h c _ (mem_uc main_arg2 (by decide))).trans (V3_main_arg2 m _ c),
      (h c _ (mem_uc main_arg3 (by decide))).trans (V3_main_arg3 m _ c),
      (h c _ (mem_uc main_arg4 (by decide))).trans (V3_main_arg4 m _ c),
      (h c _ (mem_uc main_arg5 (by decide))).trans (V3_main_arg5 m _ c),
      (h c _ (mem_uc main_arg6 (by decide))).trans (V3_main_arg6 m _ c),
      (h c _ (mem_uc main_arg7 (by decide))).trans (V3_main_arg7 m _ c),
      (h c _ (mem_uc main_arg8 (by decide))).trans (V3_main_arg8 m _ c),
      (h c _ (mem_uc main_arg9 (by decide))).trans (V3_main_arg9 m _ c),
      (h c _ (mem_uc main_arg10 (by decide))).trans (V3_main_arg10 m _ c),
      (h c _ (mem_uc main_arg11 (by decide))).trans (V3_main_arg11 m _ c),
      (h c _ (mem_uc main_arg12 (by decide))).trans (V3_main_arg12 m _ c),
      (h c _ (mem_uc main_arg13 (by decide))).trans (V3_main_arg13 m _ c),
      (h c _ (mem_uc main_arg14 (by decide))).trans (V3_main_arg14 m _ c),
      (h c _ (mem_uc main_arg15 (by decide))).trans (V3_main_arg15 m _ c),
      (h c _ (mem_uc main_arg16 (by decide))).trans (V3_main_arg16 m _ c),
      (h c _ (mem_uc main_arg17 (by decide))).trans (V3_main_arg17 m _ c),
      (h c _ (mem_uc main_arg18 (by decide))).trans (V3_main_arg18 m _ c),
      (h c _ (mem_uc main_arg19 (by decide))).trans (V3_main_arg19 m _ c),
      (h c _ (mem_uc main_arg20 (by decide))).trans (V3_main_arg20 m _ c),
      (h c _ (mem_uc main_arg21 (by decide))).trans (V3_main_arg21 m _ c),
      (h c _ (mem_uc main_arg22 (by decide))).trans (V3_main_arg22 m _ c),
      (h c _ (mem_uc main_arg23 (by decide))).trans (V3_main_arg23 m _ c),
      (h c _ (mem_uc main_arg24 (by decide))).trans (V3_main_arg24 m _ c)⟩)
    (final_run m h3 ρ hblk)

end Cert.Kernel.Hand

end
-- ==== Proof.K.GatherStep.lean ====
/- What the gather-and-compute body leaves in its six output buffers at one grid point, identified. The run of the body
   leaves, in each output buffer, one whole-block store of a vector computed from loads: of the nine gather buffers, of the
   point's two staged time blocks and of the fourteen staged weight arrays. A gather buffer is loaded after sixteen row
   deliveries; delivery p writes, into row p of the buffer, the row of a table whose number is the unsigned value of a
   table word at position 16·t + p (the 32-bit computation of that position does not wrap, t being below 256 and p below
   16). Sixteen deliveries into the sixteen rows overwrite the whole buffer, so the load reads row (ids (16·t + p)) of the
   table at row p: the gathered block of the specification, whatever the buffer held before. A staged input is held at
   its block and loaded whole. So each stored vector is the block the specification names, and reading an output buffer
   back after its one whole-block store gives that block. -/
import proofs.«423553_j10307921510829_1_alg».proof.Proof.K.Region0
import proofs.«423553_j10307921510829_1_alg».proof.Proof.K.RowViews
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-! ## Sixteen rows of a block, delivered one by one -/

section Pure

variable {α : Type} {c : ℕ}

/-- A 16-row block with row p replaced by w. -/
def gatherSet (X : (⟨2, ![16, c]⟩ : Shape).Idx → α) (p : Fin 16) (w : Fin c → α) : (⟨2, ![16, c]⟩ : Shape).Idx → α :=
  fun j => if (j 0).val = p.val then w (j 1 : Fin c) else X j

/-- The first n rows of a block replaced, in order, by the rows w names. -/
def gatherUpTo (X : (⟨2, ![16, c]⟩ : Shape).Idx → α) (w : Fin 16 → Fin c → α) :
    (n : ℕ) → n ≤ 16 → (⟨2, ![16, c]⟩ : Shape).Idx → α
  | 0, _ => X
  | n + 1, h => gatherSet (gatherUpTo X w n (Nat.le_of_succ_le h)) ⟨n, h⟩ (w ⟨n, h⟩)

/-- After the first n rows are replaced, a row below n reads its replacement and any other row what it held. -/
theorem gatherUpTo_apply (X : (⟨2, ![16, c]⟩ : Shape).Idx → α) (w : Fin 16 → Fin c → α) :
    ∀ (n : ℕ) (h : n ≤ 16) (j : (⟨2, ![16, c]⟩ : Shape).Idx),
      gatherUpTo X w n h j = if (j 0).val < n then w (j 0 : Fin 16) (j 1 : Fin c) else X j
  | 0, _, j => by simp [gatherUpTo]
  | n + 1, h, j => by
    show (if (j 0).val = n then w ⟨n, h⟩ (j 1 : Fin c) else gatherUpTo X w n (Nat.le_of_succ_le h) j) = _
    rw [gatherUpTo_apply X w n (Nat.le_of_succ_le h) j]
    by_cases h1 : (j 0).val = n
    · have e : (j 0 : Fin 16) = ⟨n, h⟩ := Fin.ext h1
      rw [if_pos h1, if_pos (by omega)]
      exact (congrArg (fun q : Fin 16 => w q (j 1 : Fin c)) e).symm
    · rw [if_neg h1]
      by_cases h2 : (j 0).val < n
      · rw [if_pos h2, if_pos (by omega)]
      · rw [if_neg h2, if_neg (by omega)]

/-- All sixteen rows replaced: the block reads row (y 0) of the replacement at column (y 1), whatever it held. -/
theorem gatherSet_nest (X : (⟨2, ![16, c]⟩ : Shape).Idx → α) (w : Fin 16 → Fin c → α) :
    gatherSet (gatherSet (gatherSet (gatherSet (gatherSet (gatherSet (gatherSet (gatherSet (gatherSet (gatherSet
      (gatherSet (gatherSet (gatherSet (gatherSet (gatherSet (gatherSet X
        0 (w 0)) 1 (w 1)) 2 (w 2)) 3 (w 3)) 4 (w 4)) 5 (w 5)) 6 (w 6)) 7 (w 7)) 8 (w 8)) 9 (w 9)) 10 (w 10)) 11 (w 11))
        12 (w 12)) 13 (w 13)) 14 (w 14)) 15 (w 15)
      = fun y => w (y 0 : Fin 16) (y 1 : Fin c) := by
  funext y
  have h := gatherUpTo_apply X w 16 (Nat.le_refl 16) y
  have hy : (y 0).val < 16 := (y 0).isLt
  rw [if_pos hy] at h
  exact h

end Pure

/-- The 16 rows of a 128-wide table that the ids of point t name, as sixteen row deliveries over any block. -/
theorem gather128_nest (X : S16x128.Idx → Elt F .f32) (tbl : Vec F S200000x128 .f32) (ids : Fin 4096 → Fin 200000) (t : Fin 256) :
    Spec.gather128 tbl ids t
      = gatherSet (gatherSet (gatherSet (gatherSet (gatherSet (gatherSet (gatherSet (gatherSet (gatherSet (gatherSet
      (gatherSet (gatherSet (gatherSet (gatherSet (gatherSet (gatherSet X
        0 (fun k => tbl (ValueIdx.ix2 (ids (Spec.batchRow t 0)) k)))
        1 (fun k => tbl (ValueIdx.ix2 (ids (Spec.batchRow t 1)) k)))
        2 (fun k => tbl (ValueIdx.ix2 (ids (Spec.batchRow t 2)) k)))
        3 (fun k => tbl (ValueIdx.ix2 (ids (Spec.batchRow t 3)) k)))
        4 (fun k => tbl (ValueIdx.ix2 (ids (Spec.batchRow t 4)) k)))
        5 (fun k => tbl (ValueIdx.ix2 (ids (Spec.batchRow t 5)) k)))
        6 (fun k => tbl (ValueIdx.ix2 (ids (Spec.batchRow t 6)) k)))
        7 (fun k => tbl (ValueIdx.ix2 (ids (Spec.batchRow t 7)) k)))
        8 (fun k => tbl (ValueIdx.ix2 (ids (Spec.batchRow t 8)) k)))
        9 (fun k => tbl (ValueIdx.ix2 (ids (Spec.batchRow t 9)) k)))
        10 (fun k => tbl (ValueIdx.ix2 (ids (Spec.batchRow t 10)) k)))
        11 (fun k => tbl (ValueIdx.ix2 (ids (Spec.batchRow t 11)) k)))
        12 (fun k => tbl (ValueIdx.ix2 (ids (Spec.batchRow t 12)) k)))
        13 (fun k => tbl (ValueIdx.ix2 (ids (Spec.batchRow t 13)) k)))
        14 (fun k => tbl (ValueIdx.ix2 (ids (Spec.batchRow t 14)) k)))
        15 (fun k => tbl (ValueIdx.ix2 (ids (Spec.batchRow t 15)) k)) :=
  (gatherSet_nest X (fun p k => tbl (ValueIdx.ix2 (ids (Spec.batchRow t p)) k))).symm

/-- The same for a one-column table. -/
theorem gather1_nest (X : S16x1.Idx → Elt F .f32) (tbl : Vec F S200000x1 .f32) (ids : Fin 4096 → Fin 200000) (t : Fin 256) :
    Spec.gather1 tbl ids t
      = gatherSet (gatherSet (gatherSet (gatherSet (gatherSet (gatherSet (gatherSet (gatherSet (gatherSet (gatherSet
      (gatherSet (gatherSet (gatherSet (gatherSet (gatherSet (gatherSet X
        0 (fun k => tbl (ValueIdx.ix2 (ids (Spec.batchRow t 0)) k)))
        1 (fun k => tbl (ValueIdx.ix2 (ids (Spec.batchRow t 1)) k)))
        2 (fun k => tbl (ValueIdx.ix2 (ids (Spec.batchRow t 2)) k)))
        3 (fun k => tbl (ValueIdx.ix2 (ids (Spec.batchRow t 3)) k)))
        4 (fun k => tbl (ValueIdx.ix2 (ids (Spec.batchRow t 4)) k)))
        5 (fun k => tbl (ValueIdx.ix2 (ids (Spec.batchRow t 5)) k)))
        6 (fun k => tbl (ValueIdx.ix2 (ids (Spec.batchRow t 6)) k)))
        7 (fun k => tbl (ValueIdx.ix2 (ids (Spec.batchRow t 7)) k)))
        8 (fun k => tbl (ValueIdx.ix2 (ids (Spec.batchRow t 8)) k)))
        9 (fun k => tbl (ValueIdx.ix2 (ids (Spec.batchRow t 9)) k)))
        10 (fun k => tbl (ValueIdx.ix2 (ids (Spec.batchRow t 10)) k)))
        11 (fun k => tbl (ValueIdx.ix2 (ids (Spec.batchRow t 11)) k)))
        12 (fun k => tbl (ValueIdx.ix2 (ids (Spec.batchRow t 12)) k)))
        13 (fun k => tbl (ValueIdx.ix2 (ids (Spec.batchRow t 13)) k)))
        14 (fun k => tbl (ValueIdx.ix2 (ids (Spec.batchRow t 14)) k)))
        15 (fun k => tbl (ValueIdx.ix2 (ids (Spec.batchRow t 15)) k)) :=
  (gatherSet_nest X (fun p k => tbl (ValueIdx.ix2 (ids (Spec.batchRow t p)) k))).symm

/-! ## The table words a point reads -/

/-- On the grid of 256 points along one axis, point t's coordinate is t. -/
theorem gather_coords0_val (t : Fin grid0.N) : ((grid0.coords t) 0).val = t.val := by
  have ht : t.val < 256 := t.isLt
  have hs : grid0.stride 0 = 1 := by decide
  show t.val / grid0.stride 0 % 256 = t.val
  rw [hs, Nat.div_one, Nat.mod_eq_of_lt ht]

/-- The word position 16·t + p, computed in 32-bit arithmetic from the point's coordinate, does not wrap: t is below 256
    and p below 16, so the product and the sum stay below 4096. -/
theorem gather_wordOff (t : Fin grid0.N) (p : ℕ) (hp : p < 16) :
    (Scalar.indexCast (Scalar.addi (Scalar.muli (BitVec.ofNat 32 ((grid0.coords t) 0).val) 16#32) (BitVec.ofNat 32 p))).toNat
      = 16 * t.val + p := by
  have ht : t.val < 256 := t.isLt
  rw [gather_coords0_val]
  simp only [Scalar.indexCast, Scalar.addi, Scalar.muli, IntOp.addi, IntOp.muli, BitVec.toNat_add, BitVec.toNat_mul,
    BitVec.toNat_ofNat]
  omega

/-- The one word a load reads through the one-element rectangle at offset k of a table of 4096 words is the table's
    word k. -/
theorem gather_word_read {sp : Space} (M : Memref sig .tc sp S4096 .i32) (tb : M.view.ty.Contents (Elt F))
    (off : Fin 1 → ℕ) (inb : ∀ a, off a + S1.size a ≤ S4096.size a)
    (hpos : 0 < (Rect.unit (s := S4096) off S1.size inb).shape.numel) (k : Fin 4096) (hoff : off 0 = k.val) :
    View.readAt (Elt F) M.view (Rect.unit (s := S4096) off S1.size inb).toLoadRect tb (Shape.Idx.first hpos)
      = M.view.read (Elt F) tb (ValueIdx.ix1 k) := by
  rw [View.readAt_apply]
  congr 1
  funext a
  apply Fin.ext
  match a with
  | ⟨0, _⟩ =>
    show off 0 + 1 * 0 = k.val
    omega

/-- The row a slice offset names, when the offset is the unsigned value of the word a point reads at position k of a
    table: the unsigned value of the table's word k. -/
theorem gather_row_of_word {sp : Space} (M : Memref sig .tc sp S4096 .i32) (tb : M.view.ty.Contents (Elt F))
    (off : Fin 1 → ℕ) (inb : ∀ a, off a + S1.size a ≤ S4096.size a)
    (hpos : 0 < (Rect.unit (s := S4096) off S1.size inb).shape.numel) (k : Fin 4096) (hoff : off 0 = k.val)
    (off2 : BitVec 32 → Fin 2 → ℕ) (hoff2 : ∀ w, off2 w 0 = w.toNat) :
    off2 (View.readAt (Elt F) M.view (Rect.unit (s := S4096) off S1.size inb).toLoadRect tb (Shape.Idx.first hpos)) 0
      = (M.view.read (Elt F) tb (ValueIdx.ix1 k)).toNat :=
  (hoff2 _).trans (congrArg BitVec.toNat (gather_word_read M tb off inb hpos k hoff))

/-! ## One row delivery -/

/-- One row copied from a 128-wide table into row p of a 16-row block: the block read afterwards is the block read
    before with row p replaced by the table's row r. -/
theorem gather_step128 {spB : Space} (B : Memref sig .tc spB S16x128 .f32) (hB : B.IsWhole)
    {sp : Space} (M : Memref sig .tc sp S200000x128 .f32) (hM : M.IsWhole) (fh : M.view.ty.Contents (Elt F))
    (offB : Fin 2 → ℕ) (inbB : ∀ a, offB a + S1x128.size a ≤ S16x128.size a)
    (off : Fin 2 → ℕ) (inb : ∀ a, off a + S1x128.size a ≤ S200000x128.size a) (p : Fin 16) (r : Fin 200000)
    (f : B.view.ty.Contents (Elt F)) (X : S16x128.Idx → Elt F .f32)
    (hX : B.view.read (Elt F) f = X) (h0 : off 0 = r.val) (h1 : off 1 = 0) (hB0 : offB 0 = p.val) (hB1 : offB 1 = 0) :
    B.view.read (Elt F) (((B.slice (Rect.unit (s := S16x128) offB S1x128.size inbB) (fun _ => rfl)).squeeze S128
        squeezes_S1x128_S128).view.write (Elt F) f
          (ReadAs.same.apply (((M.slice (Rect.unit (s := S200000x128) off S1x128.size inb) (fun _ => rfl)).squeeze S128
            squeezes_S1x128_S128).view.read (Elt F) fh)) Finset.univ)
      = gatherSet X p (fun k => M.view.read (Elt F) fh (ValueIdx.ix2 r k)) := by
  rw [RowViews.read_write_blockrow128 B hB p offB inbB hB0 hB1, RowViews.read_row128 M hM off inb h0 h1, hX]
  rfl

/-- The same for a one-column table and a 16 × 1 block. -/
theorem gather_step1 {spB : Space} (B : Memref sig .tc spB S16x1 .f32) (hB : B.IsWhole)
    {sp : Space} (M : Memref sig .tc sp S200000x1 .f32) (hM : M.IsWhole) (fh : M.view.ty.Contents (Elt F))
    (offB : Fin 2 → ℕ) (inbB : ∀ a, offB a + S1x1.size a ≤ S16x1.size a)
    (off : Fin 2 → ℕ) (inb : ∀ a, off a + S1x1.size a ≤ S200000x1.size a) (p : Fin 16) (r : Fin 200000)
    (f : B.view.ty.Contents (Elt F)) (X : S16x1.Idx → Elt F .f32)
    (hX : B.view.read (Elt F) f = X) (h0 : off 0 = r.val) (h1 : off 1 = 0) (hB0 : offB 0 = p.val) (hB1 : offB 1 = 0) :
    B.view.read (Elt F) (((B.slice (Rect.unit (s := S16x1) offB S1x1.size inbB) (fun _ => rfl)).squeeze S1
        squeezes_S1x1_S1).view.write (Elt F) f
          (ReadAs.same.apply (((M.slice (Rect.unit (s := S200000x1) off S1x1.size inb) (fun _ => rfl)).squeeze S1
            squeezes_S1x1_S1).view.read (Elt F) fh)) Finset.univ)
      = gatherSet X p (fun k => M.view.read (Elt F) fh (ValueIdx.ix2 r k)) := by
  rw [RowViews.read_write_blockrow1 B hB p offB inbB hB0 hB1, RowViews.read_row1 M hM off inb h0 h1, hX]
  rfl

/-! ## Whole-block loads and stores -/

/-- A buffer after one store through the rectangle of its own sizes at zero offsets reads the stored vector. -/
theorem gather_read_whole_piece {sg : RefSig} {κ : Kind} {sp : Space} {s : Shape} {e : EltTy} {Val : EltTy → Type}
    (v : View sg κ sp s e) (f : v.ty.Contents Val) {off : Fin s.rank → ℕ} (h : ∀ a, off a = 0)
    (inb : ∀ a, off a + s.size a ≤ s.size a) (w : (Rect.unit off s.size inb).shape.Idx → Val e) :
    v.read Val (v.writes Val f [⟨Rect.unit off s.size inb, w⟩]) = w := by
  obtain rfl : off = fun _ => 0 := funext h
  funext y
  have e := View.read_writes_cons_emb v f (Rect.whole s) w [] y
  rw [Rect.emb_whole_apply] at e
  exact e

/-- A load through the rectangle of a view's own sizes at zero offsets reads what the view reads. -/
theorem gather_readAt_whole {sg : RefSig} {κ : Kind} {sp : Space} {s : Shape} {e : EltTy} {Val : EltTy → Type}
    (v : View sg κ sp s e) (f : v.ty.Contents Val) {off : Fin s.rank → ℕ} (h : ∀ a, off a = 0)
    (inb : ∀ a, off a + s.size a ≤ s.size a) :
    v.readAt Val (Rect.unit off s.size inb).toLoadRect f = v.read Val f := by
  obtain rfl : off = fun _ => 0 := funext h
  funext y
  rw [View.readAt_apply]
  congr 1
  exact Rect.emb_whole_apply s y

/-- A load through the rectangle of a whole memref's own sizes at zero offsets, the memref held at the contents that
    read X, reads X. -/
theorem gather_readAt_whole_unread {sg : RefSig} {κ : Kind} {sp : Space} {s : Shape} {e : EltTy} {Val : EltTy → Type}
    {m : Memref sg κ sp s e} (hm : m.IsWhole) (X : s.Idx → Val e) {off : Fin s.rank → ℕ} (h : ∀ a, off a = 0)
    (inb : ∀ a, off a + s.size a ≤ s.size a) :
    View.readAt Val m.view (Rect.unit off s.size inb).toLoadRect (hm.unread X) = X :=
  (gather_readAt_whole m.view (hm.unread X) h inb).trans (hm.read_unread X)

/-- Offsets written as literal zeros are zero on every axis. -/
theorem gather_zero1 : ∀ a : Fin 1, (![0] : Fin 1 → ℕ) a = 0 := by decide
theorem gather_zero2 : ∀ a : Fin 2, (![0, 0] : Fin 2 → ℕ) a = 0 := by decide

section Region

variable (a0 : (pcfg0 (F := F)).Adm)
variable (V : (c : Dev nD) → (b : Ref sig .tc) → Buf (Elt F) ((c : Thread nD τ).loc b))

/-! ## The staged inputs' blocks -/

/-- Window 0's block index at point t is (t, 0). -/
theorem gather_idx0 : ∀ t : Fin (cfg0 a0).N, ((cfg0 a0).win 0).index t (0 : Fin 2) = t.val ∧ ((cfg0 a0).win 0).index t (1 : Fin 2) = 0 :=
  (by decide +kernel : ∀ t : Fin grid0.N, cc0_transform_0 (grid0.coords t) (0 : Fin 2) = t.val ∧ cc0_transform_0 (grid0.coords t) (1 : Fin 2) = 0)

/-- Window 0's block at point t is block t of the first time column. -/
theorem gather_iblk0_0 (c : Dev nD) (t : Fin (cfg0 a0).N) : iblk0 a0 V c 0 t = Spec.block1 (rd V c main_arg3) t := by
  obtain ⟨e0, e1⟩ := gather_idx0 a0 t
  funext j
  show V c main_arg3 ((((cfg0 a0).win 0).rect t).emb j) = V c main_arg3 (ValueIdx.ix2 (Spec.batchRow t (j (0 : Fin 2))) (j (1 : Fin 2)))
  congr 1
  funext a
  apply Fin.ext
  match a with
  | ⟨0, _⟩ =>
    show ((cfg0 a0).win 0).index t (0 : Fin 2) * 16 + 1 * (j (0 : Fin 2)).val = 16 * t.val + (j (0 : Fin 2)).val
    rw [e0]; omega
  | ⟨1, _⟩ =>
    show ((cfg0 a0).win 0).index t (1 : Fin 2) * 1 + 1 * (j (1 : Fin 2)).val = (j (1 : Fin 2)).val
    rw [e1]; omega

/-- Window 1's block index at point t is (t, 0). -/
theorem gather_idx1 : ∀ t : Fin (cfg0 a0).N, ((cfg0 a0).win 1).index t (0 : Fin 2) = t.val ∧ ((cfg0 a0).win 1).index t (1 : Fin 2) = 0 :=
  (by decide +kernel : ∀ t : Fin grid0.N, cc0_transform_1 (grid0.coords t) (0 : Fin 2) = t.val ∧ cc0_transform_1 (grid0.coords t) (1 : Fin 2) = 0)

/-- Window 1's block at point t is block t of the second time column. -/
theorem gather_iblk0_1 (c : Dev nD) (t : Fin (cfg0 a0).N) : iblk0 a0 V c 1 t = Spec.block1 (rd V c main_arg4) t := by
  obtain ⟨e0, e1⟩ := gather_idx1 a0 t
  funext j
  show V c main_arg4 ((((cfg0 a0).win 1).rect t).emb j) = V c main_arg4 (ValueIdx.ix2 (Spec.batchRow t (j (0 : Fin 2))) (j (1 : Fin 2)))
  congr 1
  funext a
  apply Fin.ext
  match a with
  | ⟨0, _⟩ =>
    show ((cfg0 a0).win 1).index t (0 : Fin 2) * 16 + 1 * (j (0 : Fin 2)).val = 16 * t.val + (j (0 : Fin 2)).val
    rw [e0]; omega
  | ⟨1, _⟩ =>
    show ((cfg0 a0).win 1).index t (1 : Fin 2) * 1 + 1 * (j (1 : Fin 2)).val = (j (1 : Fin 2)).val
    rw [e1]; omega

/-- Window 2's block at every point is its whole array. -/
theorem gather_iblk0_2 (c : Dev nD) (t : Fin (cfg0 a0).N) : iblk0 a0 V c 2 t = rd V c main_arg11 := by
  funext j
  show V c main_arg11 ((((cfg0 a0).win 2).rect t).emb j) = V c main_arg11 j
  congr 1
  funext a
  apply Fin.ext
  match a with
  | ⟨0, _⟩ =>
    show ((cfg0 a0).win 2).index t (0 : Fin 2) * 1 + 1 * (j (0 : Fin 2)).val = (j (0 : Fin 2)).val
    have e : ((cfg0 a0).win 2).index t (0 : Fin 2) = 0 := rfl
    rw [e]; omega
  | ⟨1, _⟩ =>
    show ((cfg0 a0).win 2).index t (1 : Fin 2) * 128 + 1 * (j (1 : Fin 2)).val = (j (1 : Fin 2)).val
    have e : ((cfg0 a0).win 2).index t (1 : Fin 2) = 0 := rfl
    rw [e]; omega

/-- Window 3's block at every point is its whole array. -/
theorem gather_iblk0_3 (c : Dev nD) (t : Fin (cfg0 a0).N) : iblk0 a0 V c 3 t = rd V c main_arg12 := by
  funext j
  show V c main_arg12 ((((cfg0 a0).win 3).rect t).emb j) = V c main_arg12 j
  congr 1
  funext a
  apply Fin.ext
  match a with
  | ⟨0, _⟩ =>
    show ((cfg0 a0).win 3).index t (0 : Fin 2) * 1 + 1 * (j (0 : Fin 2)).val = (j (0 : Fin 2)).val
    have e : ((cfg0 a0).win 3).index t (0 : Fin 2) = 0 := rfl
    rw [e]; omega
  | ⟨1, _⟩ =>
    show ((cfg0 a0).win 3).index t (1 : Fin 2) * 128 + 1 * (j (1 : Fin 2)).val = (j (1 : Fin 2)).val
    have e : ((cfg0 a0).win 3).index t (1 : Fin 2) = 0 := rfl
    rw [e]; omega

/-- Window 4's block at every point is its whole array. -/
theorem gather_iblk0_4 (c : Dev nD) (t : Fin (cfg0 a0).N) : iblk0 a0 V c 4 t = rd V c main_arg13 := by
  funext j
  show V c main_arg13 ((((cfg0 a0).win 4).rect t).emb j) = V c main_arg13 j
  congr 1
  funext a
  apply Fin.ext
  match a with
  | ⟨0, _⟩ =>
    show ((cfg0 a0).win 4).index t (0 : Fin 2) * 128 + 1 * (j (0 : Fin 2)).val = (j (0 : Fin 2)).val
    have e : ((cfg0 a0).win 4).index t (0 : Fin 2) = 0 := rfl
    rw [e]; omega
  | ⟨1, _⟩ =>
    show ((cfg0 a0).win 4).index t (1 : Fin 2) * 129 + 1 * (j (1 : Fin 2)).val = (j (1 : Fin 2)).val
    have e : ((cfg0 a0).win 4).index t (1 : Fin 2) = 0 := rfl
    rw [e]; omega

/-- Window 5's block at every point is its whole array. -/
theorem gather_iblk0_5 (c : Dev nD) (t : Fin (cfg0 a0).N) : iblk0 a0 V c 5 t = rd V c main_arg14 := by
  funext j
  show V c main_arg14 ((((cfg0 a0).win 5).rect t).emb j) = V c main_arg14 j
  congr 1
  funext a
  apply Fin.ext
  match a with
  | ⟨0, _⟩ =>
    show ((cfg0 a0).win 5).index t (0 : Fin 2) * 128 + 1 * (j (0 : Fin 2)).val = (j (0 : Fin 2)).val
    have e : ((cfg0 a0).win 5).index t (0 : Fin 2) = 0 := rfl
    rw [e]; omega
  | ⟨1, _⟩ =>
    show ((cfg0 a0).win 5).index t (1 : Fin 2) * 128 + 1 * (j (1 : Fin 2)).val = (j (1 : Fin 2)).val
    have e : ((cfg0 a0).win 5).index t (1 : Fin 2) = 0 := rfl
    rw [e]; omega

/-- Window 6's block at every point is its whole array. -/
theorem gather_iblk0_6 (c : Dev nD) (t : Fin (cfg0 a0).N) : iblk0 a0 V c 6 t = rd V c main_arg15 := by
  funext j
  show V c main_arg15 ((((cfg0 a0).win 6).rect t).emb j) = V c main_arg15 j
  congr 1
  funext a
  apply Fin.ext
  match a with
  | ⟨0, _⟩ =>
    show ((cfg0 a0).win 6).index t (0 : Fin 1) * 128 + 1 * (j (0 : Fin 1)).val = (j (0 : Fin 1)).val
    have e : ((cfg0 a0).win 6).index t (0 : Fin 1) = 0 := rfl
    rw [e]; omega

/-- Window 7's block at every point is its whole array. -/
theorem gather_iblk0_7 (c : Dev nD) (t : Fin (cfg0 a0).N) : iblk0 a0 V c 7 t = rd V c main_arg16 := by
  funext j
  show V c main_arg16 ((((cfg0 a0).win 7).rect t).emb j) = V c main_arg16 j
  congr 1
  funext a
  apply Fin.ext
  match a with
  | ⟨0, _⟩ =>
    show ((cfg0 a0).win 7).index t (0 : Fin 1) * 128 + 1 * (j (0 : Fin 1)).val = (j (0 : Fin 1)).val
    have e : ((cfg0 a0).win 7).index t (0 : Fin 1) = 0 := rfl
    rw [e]; omega

/-- Window 8's block at every point is its whole array. -/
theorem gather_iblk0_8 (c : Dev nD) (t : Fin (cfg0 a0).N) : iblk0 a0 V c 8 t = rd V c main_arg17 := by
  funext j
  show V c main_arg17 ((((cfg0 a0).win 8).rect t).emb j) = V c main_arg17 j
  congr 1
  funext a
  apply Fin.ext
  match a with
  | ⟨0, _⟩ =>
    show ((cfg0 a0).win 8).index t (0 : Fin 2) * 128 + 1 * (j (0 : Fin 2)).val = (j (0 : Fin 2)).val
    have e : ((cfg0 a0).win 8).index t (0 : Fin 2) = 0 := rfl
    rw [e]; omega
  | ⟨1, _⟩ =>
    show ((cfg0 a0).win 8).index t (1 : Fin 2) * 129 + 1 * (j (1 : Fin 2)).val = (j (1 : Fin 2)).val
    have e : ((cfg0 a0).win 8).index t (1 : Fin 2) = 0 := rfl
    rw [e]; omega

/-- Window 9's block at every point is its whole array. -/
theorem gather_iblk0_9 (c : Dev nD) (t : Fin (cfg0 a0).N) : iblk0 a0 V c 9 t = rd V c main_arg18 := by
  funext j
  show V c main_arg18 ((((cfg0 a0).win 9).rect t).emb j) = V c main_arg18 j
  congr 1
  funext a
  apply Fin.ext
  match a with
  | ⟨0, _⟩ =>
    show ((cfg0 a0).win 9).index t (0 : Fin 2) * 128 + 1 * (j (0 : Fin 2)).val = (j (0 : Fin 2)).val
    have e : ((cfg0 a0).win 9).index t (0 : Fin 2) = 0 := rfl
    rw [e]; omega
  | ⟨1, _⟩ =>
    show ((cfg0 a0).win 9).index t (1 : Fin 2) * 128 + 1 * (j (1 : Fin 2)).val = (j (1 : Fin 2)).val
    have e : ((cfg0 a0).win 9).index t (1 : Fin 2) = 0 := rfl
    rw [e]; omega

/-- Window 10's block at every point is its whole array. -/
theorem gather_iblk0_10 (c : Dev nD) (t : Fin (cfg0 a0).N) : iblk0 a0 V c 10 t = rd V c main_arg19 := by
  funext j
  show V c main_arg19 ((((cfg0 a0).win 10).rect t).emb j) = V c main_arg19 j
  congr 1
  funext a
  apply Fin.ext
  match a with
  | ⟨0, _⟩ =>
    show ((cfg0 a0).win 10).index t (0 : Fin 1) * 128 + 1 * (j (0 : Fin 1)).val = (j (0 : Fin 1)).val
    have e : ((cfg0 a0).win 10).index t (0 : Fin 1) = 0 := rfl
    rw [e]; omega

/-- Window 11's block at every point is its whole array. -/
theorem gather_iblk0_11 (c : Dev nD) (t : Fin (cfg0 a0).N) : iblk0 a0 V c 11 t = rd V c main_arg20 := by
  funext j
  show V c main_arg20 ((((cfg0 a0).win 11).rect t).emb j) = V c main_arg20 j
  congr 1
  funext a
  apply Fin.ext
  match a with
  | ⟨0, _⟩ =>
    show ((cfg0 a0).win 11).index t (0 : Fin 1) * 128 + 1 * (j (0 : Fin 1)).val = (j (0 : Fin 1)).val
    have e : ((cfg0 a0).win 11).index t (0 : Fin 1) = 0 := rfl
    rw [e]; omega

/-- Window 12's block at every point is its whole array. -/
theorem gather_iblk0_12 (c : Dev nD) (t : Fin (cfg0 a0).N) : iblk0 a0 V c 12 t = rd V c main_arg21 := by
  funext j
  show V c main_arg21 ((((cfg0 a0).win 12).rect t).emb j) = V c main_arg21 j
  congr 1
  funext a
  apply Fin.ext
  match a with
  | ⟨0, _⟩ =>
    show ((cfg0 a0).win 12).index t (0 : Fin 2) * 256 + 1 * (j (0 : Fin 2)).val = (j (0 : Fin 2)).val
    have e : ((cfg0 a0).win 12).index t (0 : Fin 2) = 0 := rfl
    rw [e]; omega
  | ⟨1, _⟩ =>
    show ((cfg0 a0).win 12).index t (1 : Fin 2) * 512 + 1 * (j (1 : Fin 2)).val = (j (1 : Fin 2)).val
    have e : ((cfg0 a0).win 12).index t (1 : Fin 2) = 0 := rfl
    rw [e]; omega

/-- Window 13's block at every point is its whole array. -/
theorem gather_iblk0_13 (c : Dev nD) (t : Fin (cfg0 a0).N) : iblk0 a0 V c 13 t = rd V c main_arg22 := by
  funext j
  show V c main_arg22 ((((cfg0 a0).win 13).rect t).emb j) = V c main_arg22 j
  congr 1
  funext a
  apply Fin.ext
  match a with
  | ⟨0, _⟩ =>
    show ((cfg0 a0).win 13).index t (0 : Fin 1) * 256 + 1 * (j (0 : Fin 1)).val = (j (0 : Fin 1)).val
    have e : ((cfg0 a0).win 13).index t (0 : Fin 1) = 0 := rfl
    rw [e]; omega

/-- Window 14's block at every point is its whole array. -/
theorem gather_iblk0_14 (c : Dev nD) (t : Fin (cfg0 a0).N) : iblk0 a0 V c 14 t = rd V c main_arg23 := by
  funext j
  show V c main_arg23 ((((cfg0 a0).win 14).rect t).emb j) = V c main_arg23 j
  congr 1
  funext a
  apply Fin.ext
  match a with
  | ⟨0, _⟩ =>
    show ((cfg0 a0).win 14).index t (0 : Fin 2) * 128 + 1 * (j (0 : Fin 2)).val = (j (0 : Fin 2)).val
    have e : ((cfg0 a0).win 14).index t (0 : Fin 2) = 0 := rfl
    rw [e]; omega
  | ⟨1, _⟩ =>
    show ((cfg0 a0).win 14).index t (1 : Fin 2) * 1 + 1 * (j (1 : Fin 2)).val = (j (1 : Fin 2)).val
    have e : ((cfg0 a0).win 14).index t (1 : Fin 2) = 0 := rfl
    rw [e]; omega

/-- Window 15's block at every point is its whole array. -/
theorem gather_iblk0_15 (c : Dev nD) (t : Fin (cfg0 a0).N) : iblk0 a0 V c 15 t = rd V c main_arg24 := by
  funext j
  show V c main_arg24 ((((cfg0 a0).win 15).rect t).emb j) = V c main_arg24 j
  congr 1
  funext a
  apply Fin.ext
  match a with
  | ⟨0, _⟩ =>
    show ((cfg0 a0).win 15).index t (0 : Fin 1) * 128 + 1 * (j (0 : Fin 1)).val = (j (0 : Fin 1)).val
    have e : ((cfg0 a0).win 15).index t (0 : Fin 1) = 0 := rfl
    rw [e]; omega

/-! ## The six output buffers -/

/-- The six output buffers read back. Each is filled by one store of a whole block, so what it reads afterwards is the
    stored vector, whatever it held before; and when the nine gather buffers were loaded at the blocks of table rows the
    point's ids name, the two time inputs at the point's blocks and the fourteen weight inputs at their arrays, the six
    stored vectors are the six blocks the specification names. -/
theorem gather_read_back (c : Dev nD) (h : IdsOk V c) (t : Fin (cfg0 a0).N)
    (L0 L1 L2 L3 L4 L5 : Vec F S16x128 .f32) (L6 L7 L8 : Vec F S16x1 .f32)
    (X0 X1 : Vec F S16x1 .f32) (X2 X3 : Vec F S1x128 .f32) (X4 : Vec F S128x129 .f32) (X5 : Vec F S128x128 .f32)
    (X6 X7 : Vec F S128 .f32) (X8 : Vec F S128x129 .f32) (X9 : Vec F S128x128 .f32) (X10 X11 : Vec F S128 .f32)
    (X12 : Vec F S256x512 .f32) (X13 : Vec F S256 .f32) (X14 : Vec F S128x1 .f32) (X15 : Vec F S128 .f32)
    (e0 : L0 = Spec.gather128 (argsAt V c h).dynU (argsAt V c h).uid t)
    (e1 : L1 = Spec.gather128 (argsAt V c h).dynI (argsAt V c h).iid t)
    (e2 : L2 = Spec.gather128 (argsAt V c h).dynI (argsAt V c h).pid t)
    (e3 : L3 = Spec.gather128 (argsAt V c h).statU (argsAt V c h).uid t)
    (e4 : L4 = Spec.gather128 (argsAt V c h).statI (argsAt V c h).iid t)
    (e5 : L5 = Spec.gather128 (argsAt V c h).statI (argsAt V c h).pid t)
    (e6 : L6 = Spec.gather1 (argsAt V c h).isU (argsAt V c h).uid t)
    (e7 : L7 = Spec.gather1 (argsAt V c h).isI (argsAt V c h).iid t)
    (e8 : L8 = Spec.gather1 (argsAt V c h).isI (argsAt V c h).pid t)
    (i0 : X0 = Spec.block1 (argsAt V c h).tpi t)
    (i1 : X1 = Spec.block1 (argsAt V c h).tpu t)
    (i2 : X2 = (argsAt V c h).initU)
    (i3 : X3 = (argsAt V c h).initI)
    (i4 : X4 = (argsAt V c h).uWih)
    (i5 : X5 = (argsAt V c h).uWhh)
    (i6 : X6 = (argsAt V c h).ubih)
    (i7 : X7 = (argsAt V c h).ubhh)
    (i8 : X8 = (argsAt V c h).iWih)
    (i9 : X9 = (argsAt V c h).iWhh)
    (i10 : X10 = (argsAt V c h).ibih)
    (i11 : X11 = (argsAt V c h).ibhh)
    (i12 : X12 = (argsAt V c h).predW)
    (i13 : X13 = (argsAt V c h).predb)
    (i14 : X14 = (argsAt V c h).tdW)
    (i15 : X15 = (argsAt V c h).tdb)
    (p16 p17 : ∀ a, (![0, 0] : Fin 2 → ℕ) a + S16x256.size a ≤ S16x256.size a)
    (p18 p19 p20 p21 : ∀ a, (![0, 0] : Fin 2 → ℕ) a + S16x128.size a ≤ S16x128.size a) :
    (ms0_16 a0 t).view.read (Elt F) ((ms0_16 a0 t).view.writes (Elt F) (ms0_16 a0 t).view.junk
        [(⟨Rect.unit (s := S16x256) ![0, 0] S16x256.size p16, k0_pay4 (k0_pay3 (k0_pay1 L6 X2 L0) L8 X3 L2 L3 L5 X0 X14 X15) X12 X13⟩ : View.Piece (Elt F) S16x256 .f32)]) = after0 a0 V c h 16 t
    ∧ (ms0_17 a0 t).view.read (Elt F) ((ms0_17 a0 t).view.writes (Elt F) (ms0_17 a0 t).view.junk
        [(⟨Rect.unit (s := S16x256) ![0, 0] S16x256.size p17, k0_pay5 (k0_pay2 L7 X3 L1) L4⟩ : View.Piece (Elt F) S16x256 .f32)]) = after0 a0 V c h 17 t
    ∧ (ms0_18 a0 t).view.read (Elt F) ((ms0_18 a0 t).view.writes (Elt F) (ms0_18 a0 t).view.junk
        [(⟨Rect.unit (s := S16x128) ![0, 0] S16x128.size p18, k0_pay6 (k0_pay1 L6 X2 L0) (k0_pay2 L7 X3 L1) X0 X4 X6 X5 X7⟩ : View.Piece (Elt F) S16x128 .f32)]) = after0 a0 V c h 18 t
    ∧ (ms0_19 a0 t).view.read (Elt F) ((ms0_19 a0 t).view.writes (Elt F) (ms0_19 a0 t).view.junk
        [(⟨Rect.unit (s := S16x128) ![0, 0] S16x128.size p19, k0_pay1 L6 X2 L0⟩ : View.Piece (Elt F) S16x128 .f32)]) = after0 a0 V c h 19 t
    ∧ (ms0_20 a0 t).view.read (Elt F) ((ms0_20 a0 t).view.writes (Elt F) (ms0_20 a0 t).view.junk
        [(⟨Rect.unit (s := S16x128) ![0, 0] S16x128.size p20, k0_pay7 (k0_pay1 L6 X2 L0) (k0_pay2 L7 X3 L1) X1 X8 X10 X9 X11⟩ : View.Piece (Elt F) S16x128 .f32)]) = after0 a0 V c h 20 t
    ∧ (ms0_21 a0 t).view.read (Elt F) ((ms0_21 a0 t).view.writes (Elt F) (ms0_21 a0 t).view.junk
        [(⟨Rect.unit (s := S16x128) ![0, 0] S16x128.size p21, k0_pay2 L7 X3 L1⟩ : View.Piece (Elt F) S16x128 .f32)]) = after0 a0 V c h 21 t := by
  subst e0 e1 e2 e3 e4 e5 e6 e7 e8 i0 i1 i2 i3 i4 i5 i6 i7 i8 i9 i10 i11 i12 i13 i14 i15
  exact ⟨gather_read_whole_piece _ _ gather_zero2 _ _, gather_read_whole_piece _ _ gather_zero2 _ _,
    gather_read_whole_piece _ _ gather_zero2 _ _, gather_read_whole_piece _ _ gather_zero2 _ _,
    gather_read_whole_piece _ _ gather_zero2 _ _, gather_read_whole_piece _ _ gather_zero2 _ _⟩

set_option maxHeartbeats 40000000 in
/-- What the body's run leaves in the six output buffers at point t, read back, is the six blocks the specification
    names. Each gather buffer is loaded after sixteen row deliveries, the one into row p copying the table row that the
    table word at position 16·t + p names: so it is loaded at the sixteen table rows the point's ids name. Each staged
    input is loaded as it stands: the point's block of a time column, or a whole weight array. -/
theorem gather_blocks
    (hids : ∀ c : Dev nD, IdsOk V c)
    (hT0 : ∀ c : Dev nD, RowWords c (Memref.whole main_arg0) (a0.1 0)) (hT1 : ∀ c : Dev nD, RowWords c (Memref.whole main_arg2) (a0.1 1))
    (hT2 : ∀ c : Dev nD, RowWords c (Memref.whole main_arg1) (a0.1 2))
    (ha : ∀ c : Dev nD, a0.1 0 = V c main_arg0 ∧ a0.1 1 = V c main_arg2 ∧ a0.1 2 = V c main_arg1) :
    ∀ (c : Dev nD) (t : Fin (cfg0 a0).N) (g0 : Bf (F := F) c (Memref.whole cc0_scratch0)) (g1 : Bf (F := F) c (Memref.whole cc0_scratch1)) (g2 : Bf (F := F) c (Memref.whole cc0_scratch2)) (g3 : Bf (F := F) c (Memref.whole cc0_scratch3)) (g4 : Bf (F := F) c (Memref.whole cc0_scratch4)) (g5 : Bf (F := F) c (Memref.whole cc0_scratch5)) (g6 : Bf (F := F) c (Memref.whole cc0_scratch6)) (g7 : Bf (F := F) c (Memref.whole cc0_scratch7)) (g8 : Bf (F := F) c (Memref.whole cc0_scratch8)),
        (ms0_16 a0 t).view.read (Elt F) ((ms0_16 a0 t).view.writes (Elt F) (ms0_16 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.1) = after0 a0 V c (hids c) 16 t
        ∧ (ms0_17 a0 t).view.read (Elt F) ((ms0_17 a0 t).view.writes (Elt F) (ms0_17 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.1) = after0 a0 V c (hids c) 17 t
        ∧ (ms0_18 a0 t).view.read (Elt F) ((ms0_18 a0 t).view.writes (Elt F) (ms0_18 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.1) = after0 a0 V c (hids c) 18 t
        ∧ (ms0_19 a0 t).view.read (Elt F) ((ms0_19 a0 t).view.writes (Elt F) (ms0_19 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.1) = after0 a0 V c (hids c) 19 t
        ∧ (ms0_20 a0 t).view.read (Elt F) ((ms0_20 a0 t).view.writes (Elt F) (ms0_20 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.2.1) = after0 a0 V c (hids c) 20 t
        ∧ (ms0_21 a0 t).view.read (Elt F) ((ms0_21 a0 t).view.writes (Elt F) (ms0_21 a0 t).view.junk (gatherRun c t (ms0_0 a0 t) (hs0_0 a0 t) (iblk0 a0 V c 0 t) (ms0_1 a0 t) (hs0_1 a0 t) (iblk0 a0 V c 1 t) (ms0_2 a0 t) (hs0_2 a0 t) (iblk0 a0 V c 2 t) (ms0_3 a0 t) (hs0_3 a0 t) (iblk0 a0 V c 3 t) (ms0_4 a0 t) (hs0_4 a0 t) (iblk0 a0 V c 4 t) (ms0_5 a0 t) (hs0_5 a0 t) (iblk0 a0 V c 5 t) (ms0_6 a0 t) (hs0_6 a0 t) (iblk0 a0 V c 6 t) (ms0_7 a0 t) (hs0_7 a0 t) (iblk0 a0 V c 7 t) (ms0_8 a0 t) (hs0_8 a0 t) (iblk0 a0 V c 8 t) (ms0_9 a0 t) (hs0_9 a0 t) (iblk0 a0 V c 9 t) (ms0_10 a0 t) (hs0_10 a0 t) (iblk0 a0 V c 10 t) (ms0_11 a0 t) (hs0_11 a0 t) (iblk0 a0 V c 11 t) (ms0_12 a0 t) (hs0_12 a0 t) (iblk0 a0 V c 12 t) (ms0_13 a0 t) (hs0_13 a0 t) (iblk0 a0 V c 13 t) (ms0_14 a0 t) (hs0_14 a0 t) (iblk0 a0 V c 14 t) (ms0_15 a0 t) (hs0_15 a0 t) (iblk0 a0 V c 15 t) (ms0_16 a0 t) (hs0_16 a0 t) (ms0_17 a0 t) (hs0_17 a0 t) (ms0_18 a0 t) (hs0_18 a0 t) (ms0_19 a0 t) (hs0_19 a0 t) (ms0_20 a0 t) (hs0_20 a0 t) (ms0_21 a0 t) (hs0_21 a0 t) (a0.1 0) (a0.1 1) (a0.1 2) (V c main_arg5) (V c main_arg6) (V c main_arg9) (V c main_arg10) (V c main_arg7) (V c main_arg8) g0 g1 g2 g3 g4 g5 g6 g7 g8 (hT0 c) (hT1 c) (hT2 c)).1.2.2.2.2.2) = after0 a0 V c (hids c) 21 t := by
  intro c t g0 g1 g2 g3 g4 g5 g6 g7 g8
  obtain ⟨hA0, hA1, hA2⟩ := ha c
  have hw0 : ∀ p : Fin 16, ((Memref.whole main_arg0).view.read (Elt F) (a0.1 0) (ValueIdx.ix1 (Spec.batchRow t p))).toNat
      = ((argsAt V c (hids c)).uid (Spec.batchRow t p)).val := fun p => by rw [hA0]; rfl
  have hw1 : ∀ p : Fin 16, ((Memref.whole main_arg2).view.read (Elt F) (a0.1 1) (ValueIdx.ix1 (Spec.batchRow t p))).toNat
      = ((argsAt V c (hids c)).iid (Spec.batchRow t p)).val := fun p => by rw [hA1]; rfl
  have hw2 : ∀ p : Fin 16, ((Memref.whole main_arg1).view.read (Elt F) (a0.1 2) (ValueIdx.ix1 (Spec.batchRow t p))).toNat
      = ((argsAt V c (hids c)).pid (Spec.batchRow t p)).val := fun p => by rw [hA2]; rfl
  unfold gatherRun
  dsimp only
  sl_unfold_run_names
  refine gather_read_back a0 V c (hids c) t _ _ _ _ _ _ _ _ _ _ _ _ _ _ _ _ _ _ _ _ _ _ _ _ _
    ?e0 ?e1 ?e2 ?e3 ?e4 ?e5 ?e6 ?e7 ?e8 ?i0 ?i1 ?i2 ?i3 ?i4 ?i5 ?i6 ?i7 ?i8 ?i9 ?i10 ?i11 ?i12 ?i13 ?i14 ?i15 _ _ _ _ _ _
  case e0 =>
    -- the dynamic user rows
    refine (gather_readAt_whole _ _ gather_zero2 _).trans ?_
    refine Eq.trans ?_ (gather128_nest ((Memref.whole cc0_scratch0).view.read (Elt F) g0) _ _ _).symm
    refine gather_step128 _ (Memref.isWhole_whole _) _ (Memref.isWhole_whole _) _ _ _ _ _ (15 : Fin 16) _ _ _ ?_ ?_ rfl rfl rfl
    case refine_2 => exact (gather_row_of_word (Memref.whole main_arg0) (a0.1 0) (k0_off136 (grid0.coords t)) _ _ (Spec.batchRow t 15) (gather_wordOff t 15 (by omega)) k0_off137 (fun _ => rfl)).trans (hw0 15)
    refine gather_step128 _ (Memref.isWhole_whole _) _ (Memref.isWhole_whole _) _ _ _ _ _ (14 : Fin 16) _ _ _ ?_ ?_ rfl rfl rfl
    case refine_2 => exact (gather_row_of_word (Memref.whole main_arg0) (a0.1 0) (k0_off127 (grid0.coords t)) _ _ (Spec.batchRow t 14) (gather_wordOff t 14 (by omega)) k0_off128 (fun _ => rfl)).trans (hw0 14)
    refine gather_step128 _ (Memref.isWhole_whole _) _ (Memref.isWhole_whole _) _ _ _ _ _ (13 : Fin 16) _ _ _ ?_ ?_ rfl rfl rfl
    case refine_2 => exact (gather_row_of_word (Memref.whole main_arg0) (a0.1 0) (k0_off118 (grid0.coords t)) _ _ (Spec.batchRow t 13) (gather_wordOff t 13 (by omega)) k0_off119 (fun _ => rfl)).trans (hw0 13)
    refine gather_step128 _ (Memref.isWhole_whole _) _ (Memref.isWhole_whole _) _ _ _ _ _ (12 : Fin 16) _ _ _ ?_ ?_ rfl rfl rfl
    case refine_2 => exact (gather_row_of_word (Memref.whole main_arg0) (a0.1 0) (k0_off109 (grid0.coords t)) _ _ (Spec.batchRow t 12) (gather_wordOff t 12 (by omega)) k0_off110 (fun _ => rfl)).trans (hw0 12)
    refine gather_step128 _ (Memref.isWhole_whole _) _ (Memref.isWhole_whole _) _ _ _ _ _ (11 : Fin 16) _ _ _ ?_ ?_ rfl rfl rfl
    case refine_2 => exact (gather_row_of_word (Memref.whole main_arg0) (a0.1 0) (k0_off100 (grid0.coords t)) _ _ (Spec.batchRow t 11) (gather_wordOff t 11 (by omega)) k0_off101 (fun _ => rfl)).trans (hw0 11)
    refine gather_step128 _ (Memref.isWhole_whole _) _ (Memref.isWhole_whole _) _ _ _ _ _ (10 : Fin 16) _ _ _ ?_ ?_ rfl rfl rfl
    case refine_2 => exact (gather_row_of_word (Memref.whole main_arg0) (a0.1 0) (k0_off91 (grid0.coords t)) _ _ (Spec.batchRow t 10) (gather_wordOff t 10 (by omega)) k0_off92 (fun _ => rfl)).trans (hw0 10)
    refine gather_step128 _ (Memref.isWhole_whole _) _ (Memref.isWhole_whole _) _ _ _ _ _ (9 : Fin 16) _ _ _ ?_ ?_ rfl rfl rfl
    case refine_2 => exact (gather_row_of_word (Memref.whole main_arg0) (a0.1 0) (k0_off82 (grid0.coords t)) _ _ (Spec.batchRow t 9) (gather_wordOff t 9 (by omega)) k0_off83 (fun _ => rfl)).trans (hw0 9)
    refine gather_step128 _ (Memref.isWhole_whole _) _ (Memref.isWhole_whole _) _ _ _ _ _ (8 : Fin 16) _ _ _ ?_ ?_ rfl rfl rfl
    case refine_2 => exact (gather_row_of_word (Memref.whole main_arg0) (a0.1 0) (k0_off73 (grid0.coords t)) _ _ (Spec.batchRow t 8) (gather_wordOff t 8 (by omega)) k0_off74 (fun _ => rfl)).trans (hw0 8)
    refine gather_step128 _ (Memref.isWhole_whole _) _ (Memref.isWhole_whole _) _ _ _ _ _ (7 : Fin 16) _ _ _ ?_ ?_ rfl rfl rfl
    case refine_2 => exact (gather_row_of_word (Memref.whole main_arg0) (a0.1 0) (k0_off64 (grid0.coords t)) _ _ (Spec.batchRow t 7) (gather_wordOff t 7 (by omega)) k0_off65 (fun _ => rfl)).trans (hw0 7)
    refine gather_step128 _ (Memref.isWhole_whole _) _ (Memref.isWhole_whole _) _ _ _ _ _ (6 : Fin 16) _ _ _ ?_ ?_ rfl rfl rfl
    case refine_2 => exact (gather_row_of_word (Memref.whole main_arg0) (a0.1 0) (k0_off55 (grid0.coords t)) _ _ (Spec.batchRow t 6) (gather_wordOff t 6 (by omega)) k0_off56 (fun _ => rfl)).trans (hw0 6)
    refine gather_step128 _ (Memref.isWhole_whole _) _ (Memref.isWhole_whole _) _ _ _ _ _ (5 : Fin 16) _ _ _ ?_ ?_ rfl rfl rfl
    case refine_2 => exact (gather_row_of_word (Memref.whole main_arg0) (a0.1 0) (k0_off46 (grid0.coords t)) _ _ (Spec.batchRow t 5) (gather_wordOff t 5 (by omega)) k0_off47 (fun _ => rfl)).trans (hw0 5)
    refine gather_step128 _ (Memref.isWhole_whole _) _ (Memref.isWhole_whole _) _ _ _ _ _ (4 : Fin 16) _ _ _ ?_ ?_ rfl rfl rfl
    case refine_2 => exact (gather_row_of_word (Memref.whole main_arg0) (a0.1 0) (k0_off37 (grid0.coords t)) _ _ (Spec.batchRow t 4) (gather_wordOff t 4 (by omega)) k0_off38 (fun _ => rfl)).trans (hw0 4)
    refine gather_step128 _ (Memref.isWhole_whole _) _ (Memref.isWhole_whole _) _ _ _ _ _ (3 : Fin 16) _ _ _ ?_ ?_ rfl rfl rfl
    case refine_2 => exact (gather_row_of_word (Memref.whole main_arg0) (a0.1 0) (k0_off28 (grid0.coords t)) _ _ (Spec.batchRow t 3) (gather_wordOff t 3 (by omega)) k0_off29 (fun _ => rfl)).trans (hw0 3)
    refine gather_step128 _ (Memref.isWhole_whole _) _ (Memref.isWhole_whole _) _ _ _ _ _ (2 : Fin 16) _ _ _ ?_ ?_ rfl rfl rfl
    case refine_2 => exact (gather_row_of_word (Memref.whole main_arg0) (a0.1 0) (k0_off19 (grid0.coords t)) _ _ (Spec.batchRow t 2) (gather_wordOff t 2 (by omega)) k0_off20 (fun _ => rfl)).trans (hw0 2)
    refine gather_step128 _ (Memref.isWhole_whole _) _ (Memref.isWhole_whole _) _ _ _ _ _ (1 : Fin 16) _ _ _ ?_ ?_ rfl rfl rfl
    case refine_2 => exact (gather_row_of_word (Memref.whole main_arg0) (a0.1 0) (k0_off10 (grid0.coords t)) _ _ (Spec.batchRow t 1) (gather_wordOff t 1 (by omega)) k0_off11 (fun _ => rfl)).trans (hw0 1)
    refine gather_step128 _ (Memref.isWhole_whole _) _ (Memref.isWhole_whole _) _ _ _ _ _ (0 : Fin 16) _ _ _ ?_ ?_ rfl rfl rfl
    case refine_2 => exact (gather_row_of_word (Memref.whole main_arg0) (a0.1 0) (k0_off1 (grid0.coords t)) _ _ (Spec.batchRow t 0) (gather_wordOff t 0 (by omega)) k0_off2 (fun _ => rfl)).trans (hw0 0)
    rfl
  case e1 =>
    -- the dynamic item rows
    refine (gather_readAt_whole _ _ gather_zero2 _).trans ?_
    refine Eq.trans ?_ (gather128_nest ((Memref.whole cc0_scratch1).view.read (Elt F) g1) _ _ _).symm
    refine gather_step128 _ (Memref.isWhole_whole _) _ (Memref.isWhole_whole _) _ _ _ _ _ (15 : Fin 16) _ _ _ ?_ ?_ rfl rfl rfl
    case refine_2 => exact (gather_row_of_word (Memref.whole main_arg2) (a0.1 1) (k0_off136 (grid0.coords t)) _ _ (Spec.batchRow t 15) (gather_wordOff t 15 (by omega)) k0_off138 (fun _ => rfl)).trans (hw1 15)
    refine gather_step128 _ (Memref.isWhole_whole _) _ (Memref.isWhole_whole _) _ _ _ _ _ (14 : Fin 16) _ _ _ ?_ ?_ rfl rfl rfl
    case refine_2 => exact (gather_row_of_word (Memref.whole main_arg2) (a0.1 1) (k0_off127 (grid0.coords t)) _ _ (Spec.batchRow t 14) (gather_wordOff t 14 (by omega)) k0_off129 (fun _ => rfl)).trans (hw1 14)
    refine gather_step128 _ (Memref.isWhole_whole _) _ (Memref.isWhole_whole _) _ _ _ _ _ (13 : Fin 16) _ _ _ ?_ ?_ rfl rfl rfl
    case refine_2 => exact (gather_row_of_word (Memref.whole main_arg2) (a0.1 1) (k0_off118 (grid0.coords t)) _ _ (Spec.batchRow t 13) (gather_wordOff t 13 (by omega)) k0_off120 (fun _ => rfl)).trans (hw1 13)
    refine gather_step128 _ (Memref.isWhole_whole _) _ (Memref.isWhole_whole _) _ _ _ _ _ (12 : Fin 16) _ _ _ ?_ ?_ rfl rfl rfl
    case refine_2 => exact (gather_row_of_word (Memref.whole main_arg2) (a0.1 1) (k0_off109 (grid0.coords t)) _ _ (Spec.batchRow t 12) (gather_wordOff t 12 (by omega)) k0_off111 (fun _ => rfl)).trans (hw1 12)
    refine gather_step128 _ (Memref.isWhole_whole _) _ (Memref.isWhole_whole _) _ _ _ _ _ (11 : Fin 16) _ _ _ ?_ ?_ rfl rfl rfl
    case refine_2 => exact (gather_row_of_word (Memref.whole main_arg2) (a0.1 1) (k0_off100 (grid0.coords t)) _ _ (Spec.batchRow t 11) (gather_wordOff t 11 (by omega)) k0_off102 (fun _ => rfl)).trans (hw1 11)
    refine gather_step128 _ (Memref.isWhole_whole _) _ (Memref.isWhole_whole _) _ _ _ _ _ (10 : Fin 16) _ _ _ ?_ ?_ rfl rfl rfl
    case refine_2 => exact (gather_row_of_word (Memref.whole main_arg2) (a0.1 1) (k0_off91 (grid0.coords t)) _ _ (Spec.batchRow t 10) (gather_wordOff t 10 (by omega)) k0_off93 (fun _ => rfl)).trans (hw1 10)
    refine gather_step128 _ (Memref.isWhole_whole _) _ (Memref.isWhole_whole _) _ _ _ _ _ (9 : Fin 16) _ _ _ ?_ ?_ rfl rfl rfl
    case refine_2 => exact (gather_row_of_word (Memref.whole main_arg2) (a0.1 1) (k0_off82 (grid0.coords t)) _ _ (Spec.batchRow t 9) (gather_wordOff t 9 (by omega)) k0_off84 (fun _ => rfl)).trans (hw1 9)
    refine gather_step128 _ (Memref.isWhole_whole _) _ (Memref.isWhole_whole _) _ _ _ _ _ (8 : Fin 16) _ _ _ ?_ ?_ rfl rfl rfl
    case refine_2 => exact (gather_row_of_word (Memref.whole main_arg2) (a0.1 1) (k0_off73 (grid0.coords t)) _ _ (Spec.batchRow t 8) (gather_wordOff t 8 (by omega)) k0_off75 (fun _ => rfl)).trans (hw1 8)
    refine gather_step128 _ (Memref.isWhole_whole _) _ (Memref.isWhole_whole _) _ _ _ _ _ (7 : Fin 16) _ _ _ ?_ ?_ rfl rfl rfl
    case refine_2 => exact (gather_row_of_word (Memref.whole main_arg2) (a0.1 1) (k0_off64 (grid0.coords t)) _ _ (Spec.batchRow t 7) (gather_wordOff t 7 (by omega)) k0_off66 (fun _ => rfl)).trans (hw1 7)
    refine gather_step128 _ (Memref.isWhole_whole _) _ (Memref.isWhole_whole _) _ _ _ _ _ (6 : Fin 16) _ _ _ ?_ ?_ rfl rfl rfl
    case refine_2 => exact (gather_row_of_word (Memref.whole main_arg2) (a0.1 1) (k0_off55 (grid0.coords t)) _ _ (Spec.batchRow t 6) (gather_wordOff t 6 (by omega)) k0_off57 (fun _ => rfl)).trans (hw1 6)
    refine gather_step128 _ (Memref.isWhole_whole _) _ (Memref.isWhole_whole _) _ _ _ _ _ (5 : Fin 16) _ _ _ ?_ ?_ rfl rfl rfl
    case refine_2 => exact (gather_row_of_word (Memref.whole main_arg2) (a0.1 1) (k0_off46 (grid0.coords t)) _ _ (Spec.batchRow t 5) (gather_wordOff t 5 (by omega)) k0_off48 (fun _ => rfl)).trans (hw1 5)
    refine gather_step128 _ (Memref.isWhole_whole _) _ (Memref.isWhole_whole _) _ _ _ _ _ (4 : Fin 16) _ _ _ ?_ ?_ rfl rfl rfl
    case refine_2 => exact (gather_row_of_word (Memref.whole main_arg2) (a0.1 1) (k0_off37 (grid0.coords t)) _ _ (Spec.batchRow t 4) (gather_wordOff t 4 (by omega)) k0_off39 (fun _ => rfl)).trans (hw1 4)
    refine gather_step128 _ (Memref.isWhole_whole _) _ (Memref.isWhole_whole _) _ _ _ _ _ (3 : Fin 16) _ _ _ ?_ ?_ rfl rfl rfl
    case refine_2 => exact (gather_row_of_word (Memref.whole main_arg2) (a0.1 1) (k0_off28 (grid0.coords t)) _ _ (Spec.batchRow t 3) (gather_wordOff t 3 (by omega)) k0_off30 (fun _ => rfl)).trans (hw1 3)
    refine gather_step128 _ (Memref.isWhole_whole _) _ (Memref.isWhole_whole _) _ _ _ _ _ (2 : Fin 16) _ _ _ ?_ ?_ rfl rfl rfl
    case refine_2 => exact (gather_row_of_word (Memref.whole main_arg2) (a0.1 1) (k0_off19 (grid0.coords t)) _ _ (Spec.batchRow t 2) (gather_wordOff t 2 (by omega)) k0_off21 (fun _ => rfl)).trans (hw1 2)
    refine gather_step128 _ (Memref.isWhole_whole _) _ (Memref.isWhole_whole _) _ _ _ _ _ (1 : Fin 16) _ _ _ ?_ ?_ rfl rfl rfl
    case refine_2 => exact (gather_row_of_word (Memref.whole main_arg2) (a0.1 1) (k0_off10 (grid0.coords t)) _ _ (Spec.batchRow t 1) (gather_wordOff t 1 (by omega)) k0_off12 (fun _ => rfl)).trans (hw1 1)
    refine gather_step128 _ (Memref.isWhole_whole _) _ (Memref.isWhole_whole _) _ _ _ _ _ (0 : Fin 16) _ _ _ ?_ ?_ rfl rfl rfl
    case refine_2 => exact (gather_row_of_word (Memref.whole main_arg2) (a0.1 1) (k0_off1 (grid0.coords t)) _ _ (Spec.batchRow t 0) (gather_wordOff t 0 (by omega)) k0_off3 (fun _ => rfl)).trans (hw1 0)
    rfl
  case e2 =>
    -- the dynamic rows of the previous items
    refine (gather_readAt_whole _ _ gather_zero2 _).trans ?_
    refine Eq.trans ?_ (gather128_nest ((Memref.whole cc0_scratch2).view.read (Elt F) g2) _ _ _).symm
    refine gather_step128 _ (Memref.isWhole_whole _) _ (Memref.isWhole_whole _) _ _ _ _ _ (15 : Fin 16) _ _ _ ?_ ?_ rfl rfl rfl
    case refine_2 => exact (gather_row_of_word (Memref.whole main_arg1) (a0.1 2) (k0_off136 (grid0.coords t)) _ _ (Spec.batchRow t 15) (gather_wordOff t 15 (by omega)) k0_off139 (fun _ => rfl)).trans (hw2 15)
    refine gather_step128 _ (Memref.isWhole_whole _) _ (Memref.isWhole_whole _) _ _ _ _ _ (14 : Fin 16) _ _ _ ?_ ?_ rfl rfl rfl
    case refine_2 => exact (gather_row_of_word (Memref.whole main_arg1) (a0.1 2) (k0_off127 (grid0.coords t)) _ _ (Spec.batchRow t 14) (gather_wordOff t 14 (by omega)) k0_off130 (fun _ => rfl)).trans (hw2 14)
    refine gather_step128 _ (Memref.isWhole_whole _) _ (Memref.isWhole_whole _) _ _ _ _ _ (13 : Fin 16) _ _ _ ?_ ?_ rfl rfl rfl
    case refine_2 => exact (gather_row_of_word (Memref.whole main_arg1) (a0.1 2) (k0_off118 (grid0.coords t)) _ _ (Spec.batchRow t 13) (gather_wordOff t 13 (by omega)) k0_off121 (fun _ => rfl)).trans (hw2 13)
    refine gather_step128 _ (Memref.isWhole_whole _) _ (Memref.isWhole_whole _) _ _ _ _ _ (12 : Fin 16) _ _ _ ?_ ?_ rfl rfl rfl
    case refine_2 => exact (gather_row_of_word (Memref.whole main_arg1) (a0.1 2) (k0_off109 (grid0.coords t)) _ _ (Spec.batchRow t 12) (gather_wordOff t 12 (by omega)) k0_off112 (fun _ => rfl)).trans (hw2 12)
    refine gather_step128 _ (Memref.isWhole_whole _) _ (Memref.isWhole_whole _) _ _ _ _ _ (11 : Fin 16) _ _ _ ?_ ?_ rfl rfl rfl
    case refine_2 => exact (gather_row_of_word (Memref.whole main_arg1) (a0.1 2) (k0_off100 (grid0.coords t)) _ _ (Spec.batchRow t 11) (gather_wordOff t 11 (by omega)) k0_off103 (fun _ => rfl)).trans (hw2 11)
    refine gather_step128 _ (Memref.isWhole_whole _) _ (Memref.isWhole_whole _) _ _ _ _ _ (10 : Fin 16) _ _ _ ?_ ?_ rfl rfl rfl
    case refine_2 => exact (gather_row_of_word (Memref.whole main_arg1) (a0.1 2) (k0_off91 (grid0.coords t)) _ _ (Spec.batchRow t 10) (gather_wordOff t 10 (by omega)) k0_off94 (fun _ => rfl)).trans (hw2 10)
    refine gather_step128 _ (Memref.isWhole_whole _) _ (Memref.isWhole_whole _) _ _ _ _ _ (9 : Fin 16) _ _ _ ?_ ?_ rfl rfl rfl
    case refine_2 => exact (gather_row_of_word (Memref.whole main_arg1) (a0.1 2) (k0_off82 (grid0.coords t)) _ _ (Spec.batchRow t 9) (gather_wordOff t 9 (by omega)) k0_off85 (fun _ => rfl)).trans (hw2 9)
    refine gather_step128 _ (Memref.isWhole_whole _) _ (Memref.isWhole_whole _) _ _ _ _ _ (8 : Fin 16) _ _ _ ?_ ?_ rfl rfl rfl
    case refine_2 => exact (gather_row_of_word (Memref.whole main_arg1) (a0.1 2) (k0_off73 (grid0.coords t)) _ _ (Spec.batchRow t 8) (gather_wordOff t 8 (by omega)) k0_off76 (fun _ => rfl)).trans (hw2 8)
    refine gather_step128 _ (Memref.isWhole_whole _) _ (Memref.isWhole_whole _) _ _ _ _ _ (7 : Fin 16) _ _ _ ?_ ?_ rfl rfl rfl
    case refine_2 => exact (gather_row_of_word (Memref.whole main_arg1) (a0.1 2) (k0_off64 (grid0.coords t)) _ _ (Spec.batchRow t 7) (gather_wordOff t 7 (by omega)) k0_off67 (fun _ => rfl)).trans (hw2 7)
    refine gather_step128 _ (Memref.isWhole_whole _) _ (Memref.isWhole_whole _) _ _ _ _ _ (6 : Fin 16) _ _ _ ?_ ?_ rfl rfl rfl
    case refine_2 => exact (gather_row_of_word (Memref.whole main_arg1) (a0.1 2) (k0_off55 (grid0.coords t)) _ _ (Spec.batchRow t 6) (gather_wordOff t 6 (by omega)) k0_off58 (fun _ => rfl)).trans (hw2 6)
    refine gather_step128 _ (Memref.isWhole_whole _) _ (Memref.isWhole_whole _) _ _ _ _ _ (5 : Fin 16) _ _ _ ?_ ?_ rfl rfl rfl
    case refine_2 => exact (gather_row_of_word (Memref.whole main_arg1) (a0.1 2) (k0_off46 (grid0.coords t)) _ _ (Spec.batchRow t 5) (gather_wordOff t 5 (by omega)) k0_off49 (fun _ => rfl)).trans (hw2 5)
    refine gather_step128 _ (Memref.isWhole_whole _) _ (Memref.isWhole_whole _) _ _ _ _ _ (4 : Fin 16) _ _ _ ?_ ?_ rfl rfl rfl
    case refine_2 => exact (gather_row_of_word (Memref.whole main_arg1) (a0.1 2) (k0_off37 (grid0.coords t)) _ _ (Spec.batchRow t 4) (gather_wordOff t 4 (by omega)) k0_off40 (fun _ => rfl)).trans (hw2 4)
    refine gather_step128 _ (Memref.isWhole_whole _) _ (Memref.isWhole_whole _) _ _ _ _ _ (3 : Fin 16) _ _ _ ?_ ?_ rfl rfl rfl
    case refine_2 => exact (gather_row_of_word (Memref.whole main_arg1) (a0.1 2) (k0_off28 (grid0.coords t)) _ _ (Spec.batchRow t 3) (gather_wordOff t 3 (by omega)) k0_off31 (fun _ => rfl)).trans (hw2 3)
    refine gather_step128 _ (Memref.isWhole_whole _) _ (Memref.isWhole_whole _) _ _ _ _ _ (2 : Fin 16) _ _ _ ?_ ?_ rfl rfl rfl
    case refine_2 => exact (gather_row_of_word (Memref.whole main_arg1) (a0.1 2) (k0_off19 (grid0.coords t)) _ _ (Spec.batchRow t 2) (gather_wordOff t 2 (by omega)) k0_off22 (fun _ => rfl)).trans (hw2 2)
    refine gather_step128 _ (Memref.isWhole_whole _) _ (Memref.isWhole_whole _) _ _ _ _ _ (1 : Fin 16) _ _ _ ?_ ?_ rfl rfl rfl
    case refine_2 => exact (gather_row_of_word (Memref.whole main_arg1) (a0.1 2) (k0_off10 (grid0.coords t)) _ _ (Spec.batchRow t 1) (gather_wordOff t 1 (by omega)) k0_off13 (fun _ => rfl)).trans (hw2 1)
    refine gather_step128 _ (Memref.isWhole_whole _) _ (Memref.isWhole_whole _) _ _ _ _ _ (0 : Fin 16) _ _ _ ?_ ?_ rfl rfl rfl
    case refine_2 => exact (gather_row_of_word (Memref.whole main_arg1) (a0.1 2) (k0_off1 (grid0.coords t)) _ _ (Spec.batchRow t 0) (gather_wordOff t 0 (by omega)) k0_off4 (fun _ => rfl)).trans (hw2 0)
    rfl
  case e3 =>
    -- the static user rows
    refine (gather_readAt_whole _ _ gather_zero2 _).trans ?_
    refine Eq.trans ?_ (gather128_nest ((Memref.whole cc0_scratch3).view.read (Elt F) g3) _ _ _).symm
    refine gather_step128 _ (Memref.isWhole_whole _) _ (Memref.isWhole_whole _) _ _ _ _ _ (15 : Fin 16) _ _ _ ?_ ?_ rfl rfl rfl
    case refine_2 => exact (gather_row_of_word (Memref.whole main_arg0) (a0.1 0) (k0_off136 (grid0.coords t)) _ _ (Spec.batchRow t 15) (gather_wordOff t 15 (by omega)) k0_off140 (fun _ => rfl)).trans (hw0 15)
    refine gather_step128 _ (Memref.isWhole_whole _) _ (Memref.isWhole_whole _) _ _ _ _ _ (14 : Fin 16) _ _ _ ?_ ?_ rfl rfl rfl
    case refine_2 => exact (gather_row_of_word (Memref.whole main_arg0) (a0.1 0) (k0_off127 (grid0.coords t)) _ _ (Spec.batchRow t 14) (gather_wordOff t 14 (by omega)) k0_off131 (fun _ => rfl)).trans (hw0 14)
    refine gather_step128 _ (Memref.isWhole_whole _) _ (Memref.isWhole_whole _) _ _ _ _ _ (13 : Fin 16) _ _ _ ?_ ?_ rfl rfl rfl
    case refine_2 => exact (gather_row_of_word (Memref.whole main_arg0) (a0.1 0) (k0_off118 (grid0.coords t)) _ _ (Spec.batchRow t 13) (gather_wordOff t 13 (by omega)) k0_off122 (fun _ => rfl)).trans (hw0 13)
    refine gather_step128 _ (Memref.isWhole_whole _) _ (Memref.isWhole_whole _) _ _ _ _ _ (12 : Fin 16) _ _ _ ?_ ?_ rfl rfl rfl
    case refine_2 => exact (gather_row_of_word (Memref.whole main_arg0) (a0.1 0) (k0_off109 (grid0.coords t)) _ _ (Spec.batchRow t 12) (gather_wordOff t 12 (by omega)) k0_off113 (fun _ => rfl)).trans (hw0 12)
    refine gather_step128 _ (Memref.isWhole_whole _) _ (Memref.isWhole_whole _) _ _ _ _ _ (11 : Fin 16) _ _ _ ?_ ?_ rfl rfl rfl
    case refine_2 => exact (gather_row_of_word (Memref.whole main_arg0) (a0.1 0) (k0_off100 (grid0.coords t)) _ _ (Spec.batchRow t 11) (gather_wordOff t 11 (by omega)) k0_off104 (fun _ => rfl)).trans (hw0 11)
    refine gather_step128 _ (Memref.isWhole_whole _) _ (Memref.isWhole_whole _) _ _ _ _ _ (10 : Fin 16) _ _ _ ?_ ?_ rfl rfl rfl
    case refine_2 => exact (gather_row_of_word (Memref.whole main_arg0) (a0.1 0) (k0_off91 (grid0.coords t)) _ _ (Spec.batchRow t 10) (gather_wordOff t 10 (by omega)) k0_off95 (fun _ => rfl)).trans (hw0 10)
    refine gather_step128 _ (Memref.isWhole_whole _) _ (Memref.isWhole_whole _) _ _ _ _ _ (9 : Fin 16) _ _ _ ?_ ?_ rfl rfl rfl
    case refine_2 => exact (gather_row_of_word (Memref.whole main_arg0) (a0.1 0) (k0_off82 (grid0.coords t)) _ _ (Spec.batchRow t 9) (gather_wordOff t 9 (by omega)) k0_off86 (fun _ => rfl)).trans (hw0 9)
    refine gather_step128 _ (Memref.isWhole_whole _) _ (Memref.isWhole_whole _) _ _ _ _ _ (8 : Fin 16) _ _ _ ?_ ?_ rfl rfl rfl
    case refine_2 => exact (gather_row_of_word (Memref.whole main_arg0) (a0.1 0) (k0_off73 (grid0.coords t)) _ _ (Spec.batchRow t 8) (gather_wordOff t 8 (by omega)) k0_off77 (fun _ => rfl)).trans (hw0 8)
    refine gather_step128 _ (Memref.isWhole_whole _) _ (Memref.isWhole_whole _) _ _ _ _ _ (7 : Fin 16) _ _ _ ?_ ?_ rfl rfl rfl
    case refine_2 => exact (gather_row_of_word (Memref.whole main_arg0) (a0.1 0) (k0_off64 (grid0.coords t)) _ _ (Spec.batchRow t 7) (gather_wordOff t 7 (by omega)) k0_off68 (fun _ => rfl)).trans (hw0 7)
    refine gather_step128 _ (Memref.isWhole_whole _) _ (Memref.isWhole_whole _) _ _ _ _ _ (6 : Fin 16) _ _ _ ?_ ?_ rfl rfl rfl
    case refine_2 => exact (gather_row_of_word (Memref.whole main_arg0) (a0.1 0) (k0_off55 (grid0.coords t)) _ _ (Spec.batchRow t 6) (gather_wordOff t 6 (by omega)) k0_off59 (fun _ => rfl)).trans (hw0 6)
    refine gather_step128 _ (Memref.isWhole_whole _) _ (Memref.isWhole_whole _) _ _ _ _ _ (5 : Fin 16) _ _ _ ?_ ?_ rfl rfl rfl
    case refine_2 => exact (gather_row_of_word (Memref.whole main_arg0) (a0.1 0) (k0_off46 (grid0.coords t)) _ _ (Spec.batchRow t 5) (gather_wordOff t 5 (by omega)) k0_off50 (fun _ => rfl)).trans (hw0 5)
    refine gather_step128 _ (Memref.isWhole_whole _) _ (Memref.isWhole_whole _) _ _ _ _ _ (4 : Fin 16) _ _ _ ?_ ?_ rfl rfl rfl
    case refine_2 => exact (gather_row_of_word (Memref.whole main_arg0) (a0.1 0) (k0_off37 (grid0.coords t)) _ _ (Spec.batchRow t 4) (gather_wordOff t 4 (by omega)) k0_off41 (fun _ => rfl)).trans (hw0 4)
    refine gather_step128 _ (Memref.isWhole_whole _) _ (Memref.isWhole_whole _) _ _ _ _ _ (3 : Fin 16) _ _ _ ?_ ?_ rfl rfl rfl
    case refine_2 => exact (gather_row_of_word (Memref.whole main_arg0) (a0.1 0) (k0_off28 (grid0.coords t)) _ _ (Spec.batchRow t 3) (gather_wordOff t 3 (by omega)) k0_off32 (fun _ => rfl)).trans (hw0 3)
    refine gather_step128 _ (Memref.isWhole_whole _) _ (Memref.isWhole_whole _) _ _ _ _ _ (2 : Fin 16) _ _ _ ?_ ?_ rfl rfl rfl
    case refine_2 => exact (gather_row_of_word (Memref.whole main_arg0) (a0.1 0) (k0_off19 (grid0.coords t)) _ _ (Spec.batchRow t 2) (gather_wordOff t 2 (by omega)) k0_off23 (fun _ => rfl)).trans (hw0 2)
    refine gather_step128 _ (Memref.isWhole_whole _) _ (Memref.isWhole_whole _) _ _ _ _ _ (1 : Fin 16) _ _ _ ?_ ?_ rfl rfl rfl
    case refine_2 => exact (gather_row_of_word (Memref.whole main_arg0) (a0.1 0) (k0_off10 (grid0.coords t)) _ _ (Spec.batchRow t 1) (gather_wordOff t 1 (by omega)) k0_off14 (fun _ => rfl)).trans (hw0 1)
    refine gather_step128 _ (Memref.isWhole_whole _) _ (Memref.isWhole_whole _) _ _ _ _ _ (0 : Fin 16) _ _ _ ?_ ?_ rfl rfl rfl
    case refine_2 => exact (gather_row_of_word (Memref.whole main_arg0) (a0.1 0) (k0_off1 (grid0.coords t)) _ _ (Spec.batchRow t 0) (gather_wordOff t 0 (by omega)) k0_off5 (fun _ => rfl)).trans (hw0 0)
    rfl
  case e4 =>
    -- the static item rows
    refine (gather_readAt_whole _ _ gather_zero2 _).trans ?_
    refine Eq.trans ?_ (gather128_nest ((Memref.whole cc0_scratch4).view.read (Elt F) g4) _ _ _).symm
    refine gather_step128 _ (Memref.isWhole_whole _) _ (Memref.isWhole_whole _) _ _ _ _ _ (15 : Fin 16) _ _ _ ?_ ?_ rfl rfl rfl
    case refine_2 => exact (gather_row_of_word (Memref.whole main_arg2) (a0.1 1) (k0_off136 (grid0.coords t)) _ _ (Spec.batchRow t 15) (gather_wordOff t 15 (by omega)) k0_off141 (fun _ => rfl)).trans (hw1 15)
    refine gather_step128 _ (Memref.isWhole_whole _) _ (Memref.isWhole_whole _) _ _ _ _ _ (14 : Fin 16) _ _ _ ?_ ?_ rfl rfl rfl
    case refine_2 => exact (gather_row_of_word (Memref.whole main_arg2) (a0.1 1) (k0_off127 (grid0.coords t)) _ _ (Spec.batchRow t 14) (gather_wordOff t 14 (by omega)) k0_off132 (fun _ => rfl)).trans (hw1 14)
    refine gather_step128 _ (Memref.isWhole_whole _) _ (Memref.isWhole_whole _) _ _ _ _ _ (13 : Fin 16) _ _ _ ?_ ?_ rfl rfl rfl
    case refine_2 => exact (gather_row_of_word (Memref.whole main_arg2) (a0.1 1) (k0_off118 (grid0.coords t)) _ _ (Spec.batchRow t 13) (gather_wordOff t 13 (by omega)) k0_off123 (fun _ => rfl)).trans (hw1 13)
    refine gather_step128 _ (Memref.isWhole_whole _) _ (Memref.isWhole_whole _) _ _ _ _ _ (12 : Fin 16) _ _ _ ?_ ?_ rfl rfl rfl
    case refine_2 => exact (gather_row_of_word (Memref.whole main_arg2) (a0.1 1) (k0_off109 (grid0.coords t)) _ _ (Spec.batchRow t 12) (gather_wordOff t 12 (by omega)) k0_off114 (fun _ => rfl)).trans (hw1 12)
    refine gather_step128 _ (Memref.isWhole_whole _) _ (Memref.isWhole_whole _) _ _ _ _ _ (11 : Fin 16) _ _ _ ?_ ?_ rfl rfl rfl
    case refine_2 => exact (gather_row_of_word (Memref.whole main_arg2) (a0.1 1) (k0_off100 (grid0.coords t)) _ _ (Spec.batchRow t 11) (gather_wordOff t 11 (by omega)) k0_off105 (fun _ => rfl)).trans (hw1 11)
    refine gather_step128 _ (Memref.isWhole_whole _) _ (Memref.isWhole_whole _) _ _ _ _ _ (10 : Fin 16) _ _ _ ?_ ?_ rfl rfl rfl
    case refine_2 => exact (gather_row_of_word (Memref.whole main_arg2) (a0.1 1) (k0_off91 (grid0.coords t)) _ _ (Spec.batchRow t 10) (gather_wordOff t 10 (by omega)) k0_off96 (fun _ => rfl)).trans (hw1 10)
    refine gather_step128 _ (Memref.isWhole_whole _) _ (Memref.isWhole_whole _) _ _ _ _ _ (9 : Fin 16) _ _ _ ?_ ?_ rfl rfl rfl
    case refine_2 => exact (gather_row_of_word (Memref.whole main_arg2) (a0.1 1) (k0_off82 (grid0.coords t)) _ _ (Spec.batchRow t 9) (gather_wordOff t 9 (by omega)) k0_off87 (fun _ => rfl)).trans (hw1 9)
    refine gather_step128 _ (Memref.isWhole_whole _) _ (Memref.isWhole_whole _) _ _ _ _ _ (8 : Fin 16) _ _ _ ?_ ?_ rfl rfl rfl
    case refine_2 => exact (gather_row_of_word (Memref.whole main_arg2) (a0.1 1) (k0_off73 (grid0.coords t)) _ _ (Spec.batchRow t 8) (gather_wordOff t 8 (by omega)) k0_off78 (fun _ => rfl)).trans (hw1 8)
    refine gather_step128 _ (Memref.isWhole_whole _) _ (Memref.isWhole_whole _) _ _ _ _ _ (7 : Fin 16) _ _ _ ?_ ?_ rfl rfl rfl
    case refine_2 => exact (gather_row_of_word (Memref.whole main_arg2) (a0.1 1) (k0_off64 (grid0.coords t)) _ _ (Spec.batchRow t 7) (gather_wordOff t 7 (by omega)) k0_off69 (fun _ => rfl)).trans (hw1 7)
    refine gather_step128 _ (Memref.isWhole_whole _) _ (Memref.isWhole_whole _) _ _ _ _ _ (6 : Fin 16) _ _ _ ?_ ?_ rfl rfl rfl
    case refine_2 => exact (gather_row_of_word (Memref.whole main_arg2) (a0.1 1) (k0_off55 (grid0.coords t)) _ _ (Spec.batchRow t 6) (gather_wordOff t 6 (by omega)) k0_off60 (fun _ => rfl)).trans (hw1 6)
    refine gather_step128 _ (Memref.isWhole_whole _) _ (Memref.isWhole_whole _) _ _ _ _ _ (5 : Fin 16) _ _ _ ?_ ?_ rfl rfl rfl
    case refine_2 => exact (gather_row_of_word (Memref.whole main_arg2) (a0.1 1) (k0_off46 (grid0.coords t)) _ _ (Spec.batchRow t 5) (gather_wordOff t 5 (by omega)) k0_off51 (fun _ => rfl)).trans (hw1 5)
    refine gather_step128 _ (Memref.isWhole_whole _) _ (Memref.isWhole_whole _) _ _ _ _ _ (4 : Fin 16) _ _ _ ?_ ?_ rfl rfl rfl
    case refine_2 => exact (gather_row_of_word (Memref.whole main_arg2) (a0.1 1) (k0_off37 (grid0.coords t)) _ _ (Spec.batchRow t 4) (gather_wordOff t 4 (by omega)) k0_off42 (fun _ => rfl)).trans (hw1 4)
    refine gather_step128 _ (Memref.isWhole_whole _) _ (Memref.isWhole_whole _) _ _ _ _ _ (3 : Fin 16) _ _ _ ?_ ?_ rfl rfl rfl
    case refine_2 => exact (gather_row_of_word (Memref.whole main_arg2) (a0.1 1) (k0_off28 (grid0.coords t)) _ _ (Spec.batchRow t 3) (gather_wordOff t 3 (by omega)) k0_off33 (fun _ => rfl)).trans (hw1 3)
    refine gather_step128 _ (Memref.isWhole_whole _) _ (Memref.isWhole_whole _) _ _ _ _ _ (2 : Fin 16) _ _ _ ?_ ?_ rfl rfl rfl
    case refine_2 => exact (gather_row_of_word (Memref.whole main_arg2) (a0.1 1) (k0_off19 (grid0.coords t)) _ _ (Spec.batchRow t 2) (gather_wordOff t 2 (by omega)) k0_off24 (fun _ => rfl)).trans (hw1 2)
    refine gather_step128 _ (Memref.isWhole_whole _) _ (Memref.isWhole_whole _) _ _ _ _ _ (1 : Fin 16) _ _ _ ?_ ?_ rfl rfl rfl
    case refine_2 => exact (gather_row_of_word (Memref.whole main_arg2) (a0.1 1) (k0_off10 (grid0.coords t)) _ _ (Spec.batchRow t 1) (gather_wordOff t 1 (by omega)) k0_off15 (fun _ => rfl)).trans (hw1 1)
    refine gather_step128 _ (Memref.isWhole_whole _) _ (Memref.isWhole_whole _) _ _ _ _ _ (0 : Fin 16) _ _ _ ?_ ?_ rfl rfl rfl
    case refine_2 => exact (gather_row_of_word (Memref.whole main_arg2) (a0.1 1) (k0_off1 (grid0.coords t)) _ _ (Spec.batchRow t 0) (gather_wordOff t 0 (by omega)) k0_off6 (fun _ => rfl)).trans (hw1 0)
    rfl
  case e5 =>
    -- the static rows of the previous items
    refine (gather_readAt_whole _ _ gather_zero2 _).trans ?_
    refine Eq.trans ?_ (gather128_nest ((Memref.whole cc0_scratch5).view.read (Elt F) g5) _ _ _).symm
    refine gather_step128 _ (Memref.isWhole_whole _) _ (Memref.isWhole_whole _) _ _ _ _ _ (15 : Fin 16) _ _ _ ?_ ?_ rfl rfl rfl
    case refine_2 => exact (gather_row_of_word (Memref.whole main_arg1) (a0.1 2) (k0_off136 (grid0.coords t)) _ _ (Spec.batchRow t 15) (gather_wordOff t 15 (by omega)) k0_off139 (fun _ => rfl)).trans (hw2 15)
    refine gather_step128 _ (Memref.isWhole_whole _) _ (Memref.isWhole_whole _) _ _ _ _ _ (14 : Fin 16) _ _ _ ?_ ?_ rfl rfl rfl
    case refine_2 => exact (gather_row_of_word (Memref.whole main_arg1) (a0.1 2) (k0_off127 (grid0.coords t)) _ _ (Spec.batchRow t 14) (gather_wordOff t 14 (by omega)) k0_off130 (fun _ => rfl)).trans (hw2 14)
    refine gather_step128 _ (Memref.isWhole_whole _) _ (Memref.isWhole_whole _) _ _ _ _ _ (13 : Fin 16) _ _ _ ?_ ?_ rfl rfl rfl
    case refine_2 => exact (gather_row_of_word (Memref.whole main_arg1) (a0.1 2) (k0_off118 (grid0.coords t)) _ _ (Spec.batchRow t 13) (gather_wordOff t 13 (by omega)) k0_off121 (fun _ => rfl)).trans (hw2 13)
    refine gather_step128 _ (Memref.isWhole_whole _) _ (Memref.isWhole_whole _) _ _ _ _ _ (12 : Fin 16) _ _ _ ?_ ?_ rfl rfl rfl
    case refine_2 => exact (gather_row_of_word (Memref.whole main_arg1) (a0.1 2) (k0_off109 (grid0.coords t)) _ _ (Spec.batchRow t 12) (gather_wordOff t 12 (by omega)) k0_off112 (fun _ => rfl)).trans (hw2 12)
    refine gather_step128 _ (Memref.isWhole_whole _) _ (Memref.isWhole_whole _) _ _ _ _ _ (11 : Fin 16) _ _ _ ?_ ?_ rfl rfl rfl
    case refine_2 => exact (gather_row_of_word (Memref.whole main_arg1) (a0.1 2) (k0_off100 (grid0.coords t)) _ _ (Spec.batchRow t 11) (gather_wordOff t 11 (by omega)) k0_off103 (fun _ => rfl)).trans (hw2 11)
    refine gather_step128 _ (Memref.isWhole_whole _) _ (Memref.isWhole_whole _) _ _ _ _ _ (10 : Fin 16) _ _ _ ?_ ?_ rfl rfl rfl
    case refine_2 => exact (gather_row_of_word (Memref.whole main_arg1) (a0.1 2) (k0_off91 (grid0.coords t)) _ _ (Spec.batchRow t 10) (gather_wordOff t 10 (by omega)) k0_off94 (fun _ => rfl)).trans (hw2 10)
    refine gather_step128 _ (Memref.isWhole_whole _) _ (Memref.isWhole_whole _) _ _ _ _ _ (9 : Fin 16) _ _ _ ?_ ?_ rfl rfl rfl
    case refine_2 => exact (gather_row_of_word (Memref.whole main_arg1) (a0.1 2) (k0_off82 (grid0.coords t)) _ _ (Spec.batchRow t 9) (gather_wordOff t 9 (by omega)) k0_off85 (fun _ => rfl)).trans (hw2 9)
    refine gather_step128 _ (Memref.isWhole_whole _) _ (Memref.isWhole_whole _) _ _ _ _ _ (8 : Fin 16) _ _ _ ?_ ?_ rfl rfl rfl
    case refine_2 => exact (gather_row_of_word (Memref.whole main_arg1) (a0.1 2) (k0_off73 (grid0.coords t)) _ _ (Spec.batchRow t 8) (gather_wordOff t 8 (by omega)) k0_off76 (fun _ => rfl)).trans (hw2 8)
    refine gather_step128 _ (Memref.isWhole_whole _) _ (Memref.isWhole_whole _) _ _ _ _ _ (7 : Fin 16) _ _ _ ?_ ?_ rfl rfl rfl
    case refine_2 => exact (gather_row_of_word (Memref.whole main_arg1) (a0.1 2) (k0_off64 (grid0.coords t)) _ _ (Spec.batchRow t 7) (gather_wordOff t 7 (by omega)) k0_off67 (fun _ => rfl)).trans (hw2 7)
    refine gather_step128 _ (Memref.isWhole_whole _) _ (Memref.isWhole_whole _) _ _ _ _ _ (6 : Fin 16) _ _ _ ?_ ?_ rfl rfl rfl
    case refine_2 => exact (gather_row_of_word (Memref.whole main_arg1) (a0.1 2) (k0_off55 (grid0.coords t)) _ _ (Spec.batchRow t 6) (gather_wordOff t 6 (by omega)) k0_off58 (fun _ => rfl)).trans (hw2 6)
    refine gather_step128 _ (Memref.isWhole_whole _) _ (Memref.isWhole_whole _) _ _ _ _ _ (5 : Fin 16) _ _ _ ?_ ?_ rfl rfl rfl
    case refine_2 => exact (gather_row_of_word (Memref.whole main_arg1) (a0.1 2) (k0_off46 (grid0.coords t)) _ _ (Spec.batchRow t 5) (gather_wordOff t 5 (by omega)) k0_off49 (fun _ => rfl)).trans (hw2 5)
    refine gather_step128 _ (Memref.isWhole_whole _) _ (Memref.isWhole_whole _) _ _ _ _ _ (4 : Fin 16) _ _ _ ?_ ?_ rfl rfl rfl
    case refine_2 => exact (gather_row_of_word (Memref.whole main_arg1) (a0.1 2) (k0_off37 (grid0.coords t)) _ _ (Spec.batchRow t 4) (gather_wordOff t 4 (by omega)) k0_off40 (fun _ => rfl)).trans (hw2 4)
    refine gather_step128 _ (Memref.isWhole_whole _) _ (Memref.isWhole_whole _) _ _ _ _ _ (3 : Fin 16) _ _ _ ?_ ?_ rfl rfl rfl
    case refine_2 => exact (gather_row_of_word (Memref.whole main_arg1) (a0.1 2) (k0_off28 (grid0.coords t)) _ _ (Spec.batchRow t 3) (gather_wordOff t 3 (by omega)) k0_off31 (fun _ => rfl)).trans (hw2 3)
    refine gather_step128 _ (Memref.isWhole_whole _) _ (Memref.isWhole_whole _) _ _ _ _ _ (2 : Fin 16) _ _ _ ?_ ?_ rfl rfl rfl
    case refine_2 => exact (gather_row_of_word (Memref.whole main_arg1) (a0.1 2) (k0_off19 (grid0.coords t)) _ _ (Spec.batchRow t 2) (gather_wordOff t 2 (by omega)) k0_off22 (fun _ => rfl)).trans (hw2 2)
    refine gather_step128 _ (Memref.isWhole_whole _) _ (Memref.isWhole_whole _) _ _ _ _ _ (1 : Fin 16) _ _ _ ?_ ?_ rfl rfl rfl
    case refine_2 => exact (gather_row_of_word (Memref.whole main_arg1) (a0.1 2) (k0_off10 (grid0.coords t)) _ _ (Spec.batchRow t 1) (gather_wordOff t 1 (by omega)) k0_off13 (fun _ => rfl)).trans (hw2 1)
    refine gather_step128 _ (Memref.isWhole_whole _) _ (Memref.isWhole_whole _) _ _ _ _ _ (0 : Fin 16) _ _ _ ?_ ?_ rfl rfl rfl
    case refine_2 => exact (gather_row_of_word (Memref.whole main_arg1) (a0.1 2) (k0_off1 (grid0.coords t)) _ _ (Spec.batchRow t 0) (gather_wordOff t 0 (by omega)) k0_off4 (fun _ => rfl)).trans (hw2 0)
    rfl
  case e6 =>
    -- the user flags
    refine (gather_readAt_whole _ _ gather_zero2 _).trans ?_
    refine Eq.trans ?_ (gather1_nest ((Memref.whole cc0_scratch6).view.read (Elt F) g6) _ _ _).symm
    refine gather_step1 _ (Memref.isWhole_whole _) _ (Memref.isWhole_whole _) _ _ _ _ _ (15 : Fin 16) _ _ _ ?_ ?_ rfl rfl rfl
    case refine_2 => exact (gather_row_of_word (Memref.whole main_arg0) (a0.1 0) (k0_off136 (grid0.coords t)) _ _ (Spec.batchRow t 15) (gather_wordOff t 15 (by omega)) k0_off142 (fun _ => rfl)).trans (hw0 15)
    refine gather_step1 _ (Memref.isWhole_whole _) _ (Memref.isWhole_whole _) _ _ _ _ _ (14 : Fin 16) _ _ _ ?_ ?_ rfl rfl rfl
    case refine_2 => exact (gather_row_of_word (Memref.whole main_arg0) (a0.1 0) (k0_off127 (grid0.coords t)) _ _ (Spec.batchRow t 14) (gather_wordOff t 14 (by omega)) k0_off133 (fun _ => rfl)).trans (hw0 14)
    refine gather_step1 _ (Memref.isWhole_whole _) _ (Memref.isWhole_whole _) _ _ _ _ _ (13 : Fin 16) _ _ _ ?_ ?_ rfl rfl rfl
    case refine_2 => exact (gather_row_of_word (Memref.whole main_arg0) (a0.1 0) (k0_off118 (grid0.coords t)) _ _ (Spec.batchRow t 13) (gather_wordOff t 13 (by omega)) k0_off124 (fun _ => rfl)).trans (hw0 13)
    refine gather_step1 _ (Memref.isWhole_whole _) _ (Memref.isWhole_whole _) _ _ _ _ _ (12 : Fin 16) _ _ _ ?_ ?_ rfl rfl rfl
    case refine_2 => exact (gather_row_of_word (Memref.whole main_arg0) (a0.1 0) (k0_off109 (grid0.coords t)) _ _ (Spec.batchRow t 12) (gather_wordOff t 12 (by omega)) k0_off115 (fun _ => rfl)).trans (hw0 12)
    refine gather_step1 _ (Memref.isWhole_whole _) _ (Memref.isWhole_whole _) _ _ _ _ _ (11 : Fin 16) _ _ _ ?_ ?_ rfl rfl rfl
    case refine_2 => exact (gather_row_of_word (Memref.whole main_arg0) (a0.1 0) (k0_off100 (grid0.coords t)) _ _ (Spec.batchRow t 11) (gather_wordOff t 11 (by omega)) k0_off106 (fun _ => rfl)).trans (hw0 11)
    refine gather_step1 _ (Memref.isWhole_whole _) _ (Memref.isWhole_whole _) _ _ _ _ _ (10 : Fin 16) _ _ _ ?_ ?_ rfl rfl rfl
    case refine_2 => exact (gather_row_of_word (Memref.whole main_arg0) (a0.1 0) (k0_off91 (grid0.coords t)) _ _ (Spec.batchRow t 10) (gather_wordOff t 10 (by omega)) k0_off97 (fun _ => rfl)).trans (hw0 10)
    refine gather_step1 _ (Memref.isWhole_whole _) _ (Memref.isWhole_whole _) _ _ _ _ _ (9 : Fin 16) _ _ _ ?_ ?_ rfl rfl rfl
    case refine_2 => exact (gather_row_of_word (Memref.whole main_arg0) (a0.1 0) (k0_off82 (grid0.coords t)) _ _ (Spec.batchRow t 9) (gather_wordOff t 9 (by omega)) k0_off88 (fun _ => rfl)).trans (hw0 9)
    refine gather_step1 _ (Memref.isWhole_whole _) _ (Memref.isWhole_whole _) _ _ _ _ _ (8 : Fin 16) _ _ _ ?_ ?_ rfl rfl rfl
    case refine_2 => exact (gather_row_of_word (Memref.whole main_arg0) (a0.1 0) (k0_off73 (grid0.coords t)) _ _ (Spec.batchRow t 8) (gather_wordOff t 8 (by omega)) k0_off79 (fun _ => rfl)).trans (hw0 8)
    refine gather_step1 _ (Memref.isWhole_whole _) _ (Memref.isWhole_whole _) _ _ _ _ _ (7 : Fin 16) _ _ _ ?_ ?_ rfl rfl rfl
    case refine_2 => exact (gather_row_of_word (Memref.whole main_arg0) (a0.1 0) (k0_off64 (grid0.coords t)) _ _ (Spec.batchRow t 7) (gather_wordOff t 7 (by omega)) k0_off70 (fun _ => rfl)).trans (hw0 7)
    refine gather_step1 _ (Memref.isWhole_whole _) _ (Memref.isWhole_whole _) _ _ _ _ _ (6 : Fin 16) _ _ _ ?_ ?_ rfl rfl rfl
    case refine_2 => exact (gather_row_of_word (Memref.whole main_arg0) (a0.1 0) (k0_off55 (grid0.coords t)) _ _ (Spec.batchRow t 6) (gather_wordOff t 6 (by omega)) k0_off61 (fun _ => rfl)).trans (hw0 6)
    refine gather_step1 _ (Memref.isWhole_whole _) _ (Memref.isWhole_whole _) _ _ _ _ _ (5 : Fin 16) _ _ _ ?_ ?_ rfl rfl rfl
    case refine_2 => exact (gather_row_of_word (Memref.whole main_arg0) (a0.1 0) (k0_off46 (grid0.coords t)) _ _ (Spec.batchRow t 5) (gather_wordOff t 5 (by omega)) k0_off52 (fun _ => rfl)).trans (hw0 5)
    refine gather_step1 _ (Memref.isWhole_whole _) _ (Memref.isWhole_whole _) _ _ _ _ _ (4 : Fin 16) _ _ _ ?_ ?_ rfl rfl rfl
    case refine_2 => exact (gather_row_of_word (Memref.whole main_arg0) (a0.1 0) (k0_off37 (grid0.coords t)) _ _ (Spec.batchRow t 4) (gather_wordOff t 4 (by omega)) k0_off43 (fun _ => rfl)).trans (hw0 4)
    refine gather_step1 _ (Memref.isWhole_whole _) _ (Memref.isWhole_whole _) _ _ _ _ _ (3 : Fin 16) _ _ _ ?_ ?_ rfl rfl rfl
    case refine_2 => exact (gather_row_of_word (Memref.whole main_arg0) (a0.1 0) (k0_off28 (grid0.coords t)) _ _ (Spec.batchRow t 3) (gather_wordOff t 3 (by omega)) k0_off34 (fun _ => rfl)).trans (hw0 3)
    refine gather_step1 _ (Memref.isWhole_whole _) _ (Memref.isWhole_whole _) _ _ _ _ _ (2 : Fin 16) _ _ _ ?_ ?_ rfl rfl rfl
    case refine_2 => exact (gather_row_of_word (Memref.whole main_arg0) (a0.1 0) (k0_off19 (grid0.coords t)) _ _ (Spec.batchRow t 2) (gather_wordOff t 2 (by omega)) k0_off25 (fun _ => rfl)).trans (hw0 2)
    refine gather_step1 _ (Memref.isWhole_whole _) _ (Memref.isWhole_whole _) _ _ _ _ _ (1 : Fin 16) _ _ _ ?_ ?_ rfl rfl rfl
    case refine_2 => exact (gather_row_of_word (Memref.whole main_arg0) (a0.1 0) (k0_off10 (grid0.coords t)) _ _ (Spec.batchRow t 1) (gather_wordOff t 1 (by omega)) k0_off16 (fun _ => rfl)).trans (hw0 1)
    refine gather_step1 _ (Memref.isWhole_whole _) _ (Memref.isWhole_whole _) _ _ _ _ _ (0 : Fin 16) _ _ _ ?_ ?_ rfl rfl rfl
    case refine_2 => exact (gather_row_of_word (Memref.whole main_arg0) (a0.1 0) (k0_off1 (grid0.coords t)) _ _ (Spec.batchRow t 0) (gather_wordOff t 0 (by omega)) k0_off7 (fun _ => rfl)).trans (hw0 0)
    rfl
  case e7 =>
    -- the item flags
    refine (gather_readAt_whole _ _ gather_zero2 _).trans ?_
    refine Eq.trans ?_ (gather1_nest ((Memref.whole cc0_scratch7).view.read (Elt F) g7) _ _ _).symm
    refine gather_step1 _ (Memref.isWhole_whole _) _ (Memref.isWhole_whole _) _ _ _ _ _ (15 : Fin 16) _ _ _ ?_ ?_ rfl rfl rfl
    case refine_2 => exact (gather_row_of_word (Memref.whole main_arg2) (a0.1 1) (k0_off136 (grid0.coords t)) _ _ (Spec.batchRow t 15) (gather_wordOff t 15 (by omega)) k0_off143 (fun _ => rfl)).trans (hw1 15)
    refine gather_step1 _ (Memref.isWhole_whole _) _ (Memref.isWhole_whole _) _ _ _ _ _ (14 : Fin 16) _ _ _ ?_ ?_ rfl rfl rfl
    case refine_2 => exact (gather_row_of_word (Memref.whole main_arg2) (a0.1 1) (k0_off127 (grid0.coords t)) _ _ (Spec.batchRow t 14) (gather_wordOff t 14 (by omega)) k0_off134 (fun _ => rfl)).trans (hw1 14)
    refine gather_step1 _ (Memref.isWhole_whole _) _ (Memref.isWhole_whole _) _ _ _ _ _ (13 : Fin 16) _ _ _ ?_ ?_ rfl rfl rfl
    case refine_2 => exact (gather_row_of_word (Memref.whole main_arg2) (a0.1 1) (k0_off118 (grid0.coords t)) _ _ (Spec.batchRow t 13) (gather_wordOff t 13 (by omega)) k0_off125 (fun _ => rfl)).trans (hw1 13)
    refine gather_step1 _ (Memref.isWhole_whole _) _ (Memref.isWhole_whole _) _ _ _ _ _ (12 : Fin 16) _ _ _ ?_ ?_ rfl rfl rfl
    case refine_2 => exact (gather_row_of_word (Memref.whole main_arg2) (a0.1 1) (k0_off109 (grid0.coords t)) _ _ (Spec.batchRow t 12) (gather_wordOff t 12 (by omega)) k0_off116 (fun _ => rfl)).trans (hw1 12)
    refine gather_step1 _ (Memref.isWhole_whole _) _ (Memref.isWhole_whole _) _ _ _ _ _ (11 : Fin 16) _ _ _ ?_ ?_ rfl rfl rfl
    case refine_2 => exact (gather_row_of_word (Memref.whole main_arg2) (a0.1 1) (k0_off100 (grid0.coords t)) _ _ (Spec.batchRow t 11) (gather_wordOff t 11 (by omega)) k0_off107 (fun _ => rfl)).trans (hw1 11)
    refine gather_step1 _ (Memref.isWhole_whole _) _ (Memref.isWhole_whole _) _ _ _ _ _ (10 : Fin 16) _ _ _ ?_ ?_ rfl rfl rfl
    case refine_2 => exact (gather_row_of_word (Memref.whole main_arg2) (a0.1 1) (k0_off91 (grid0.coords t)) _ _ (Spec.batchRow t 10) (gather_wordOff t 10 (by omega)) k0_off98 (fun _ => rfl)).trans (hw1 10)
    refine gather_step1 _ (Memref.isWhole_whole _) _ (Memref.isWhole_whole _) _ _ _ _ _ (9 : Fin 16) _ _ _ ?_ ?_ rfl rfl rfl
    case refine_2 => exact (gather_row_of_word (Memref.whole main_arg2) (a0.1 1) (k0_off82 (grid0.coords t)) _ _ (Spec.batchRow t 9) (gather_wordOff t 9 (by omega)) k0_off89 (fun _ => rfl)).trans (hw1 9)
    refine gather_step1 _ (Memref.isWhole_whole _) _ (Memref.isWhole_whole _) _ _ _ _ _ (8 : Fin 16) _ _ _ ?_ ?_ rfl rfl rfl
    case refine_2 => exact (gather_row_of_word (Memref.whole main_arg2) (a0.1 1) (k0_off73 (grid0.coords t)) _ _ (Spec.batchRow t 8) (gather_wordOff t 8 (by omega)) k0_off80 (fun _ => rfl)).trans (hw1 8)
    refine gather_step1 _ (Memref.isWhole_whole _) _ (Memref.isWhole_whole _) _ _ _ _ _ (7 : Fin 16) _ _ _ ?_ ?_ rfl rfl rfl
    case refine_2 => exact (gather_row_of_word (Memref.whole main_arg2) (a0.1 1) (k0_off64 (grid0.coords t)) _ _ (Spec.batchRow t 7) (gather_wordOff t 7 (by omega)) k0_off71 (fun _ => rfl)).trans (hw1 7)
    refine gather_step1 _ (Memref.isWhole_whole _) _ (Memref.isWhole_whole _) _ _ _ _ _ (6 : Fin 16) _ _ _ ?_ ?_ rfl rfl rfl
    case refine_2 => exact (gather_row_of_word (Memref.whole main_arg2) (a0.1 1) (k0_off55 (grid0.coords t)) _ _ (Spec.batchRow t 6) (gather_wordOff t 6 (by omega)) k0_off62 (fun _ => rfl)).trans (hw1 6)
    refine gather_step1 _ (Memref.isWhole_whole _) _ (Memref.isWhole_whole _) _ _ _ _ _ (5 : Fin 16) _ _ _ ?_ ?_ rfl rfl rfl
    case refine_2 => exact (gather_row_of_word (Memref.whole main_arg2) (a0.1 1) (k0_off46 (grid0.coords t)) _ _ (Spec.batchRow t 5) (gather_wordOff t 5 (by omega)) k0_off53 (fun _ => rfl)).trans (hw1 5)
    refine gather_step1 _ (Memref.isWhole_whole _) _ (Memref.isWhole_whole _) _ _ _ _ _ (4 : Fin 16) _ _ _ ?_ ?_ rfl rfl rfl
    case refine_2 => exact (gather_row_of_word (Memref.whole main_arg2) (a0.1 1) (k0_off37 (grid0.coords t)) _ _ (Spec.batchRow t 4) (gather_wordOff t 4 (by omega)) k0_off44 (fun _ => rfl)).trans (hw1 4)
    refine gather_step1 _ (Memref.isWhole_whole _) _ (Memref.isWhole_whole _) _ _ _ _ _ (3 : Fin 16) _ _ _ ?_ ?_ rfl rfl rfl
    case refine_2 => exact (gather_row_of_word (Memref.whole main_arg2) (a0.1 1) (k0_off28 (grid0.coords t)) _ _ (Spec.batchRow t 3) (gather_wordOff t 3 (by omega)) k0_off35 (fun _ => rfl)).trans (hw1 3)
    refine gather_step1 _ (Memref.isWhole_whole _) _ (Memref.isWhole_whole _) _ _ _ _ _ (2 : Fin 16) _ _ _ ?_ ?_ rfl rfl rfl
    case refine_2 => exact (gather_row_of_word (Memref.whole main_arg2) (a0.1 1) (k0_off19 (grid0.coords t)) _ _ (Spec.batchRow t 2) (gather_wordOff t 2 (by omega)) k0_off26 (fun _ => rfl)).trans (hw1 2)
    refine gather_step1 _ (Memref.isWhole_whole _) _ (Memref.isWhole_whole _) _ _ _ _ _ (1 : Fin 16) _ _ _ ?_ ?_ rfl rfl rfl
    case refine_2 => exact (gather_row_of_word (Memref.whole main_arg2) (a0.1 1) (k0_off10 (grid0.coords t)) _ _ (Spec.batchRow t 1) (gather_wordOff t 1 (by omega)) k0_off17 (fun _ => rfl)).trans (hw1 1)
    refine gather_step1 _ (Memref.isWhole_whole _) _ (Memref.isWhole_whole _) _ _ _ _ _ (0 : Fin 16) _ _ _ ?_ ?_ rfl rfl rfl
    case refine_2 => exact (gather_row_of_word (Memref.whole main_arg2) (a0.1 1) (k0_off1 (grid0.coords t)) _ _ (Spec.batchRow t 0) (gather_wordOff t 0 (by omega)) k0_off8 (fun _ => rfl)).trans (hw1 0)
    rfl
  case e8 =>
    -- the flags of the previous items
    refine (gather_readAt_whole _ _ gather_zero2 _).trans ?_
    refine Eq.trans ?_ (gather1_nest ((Memref.whole cc0_scratch8).view.read (Elt F) g8) _ _ _).symm
    refine gather_step1 _ (Memref.isWhole_whole _) _ (Memref.isWhole_whole _) _ _ _ _ _ (15 : Fin 16) _ _ _ ?_ ?_ rfl rfl rfl
    case refine_2 => exact (gather_row_of_word (Memref.whole main_arg1) (a0.1 2) (k0_off136 (grid0.coords t)) _ _ (Spec.batchRow t 15) (gather_wordOff t 15 (by omega)) k0_off144 (fun _ => rfl)).trans (hw2 15)
    refine gather_step1 _ (Memref.isWhole_whole _) _ (Memref.isWhole_whole _) _ _ _ _ _ (14 : Fin 16) _ _ _ ?_ ?_ rfl rfl rfl
    case refine_2 => exact (gather_row_of_word (Memref.whole main_arg1) (a0.1 2) (k0_off127 (grid0.coords t)) _ _ (Spec.batchRow t 14) (gather_wordOff t 14 (by omega)) k0_off135 (fun _ => rfl)).trans (hw2 14)
    refine gather_step1 _ (Memref.isWhole_whole _) _ (Memref.isWhole_whole _) _ _ _ _ _ (13 : Fin 16) _ _ _ ?_ ?_ rfl rfl rfl
    case refine_2 => exact (gather_row_of_word (Memref.whole main_arg1) (a0.1 2) (k0_off118 (grid0.coords t)) _ _ (Spec.batchRow t 13) (gather_wordOff t 13 (by omega)) k0_off126 (fun _ => rfl)).trans (hw2 13)
    refine gather_step1 _ (Memref.isWhole_whole _) _ (Memref.isWhole_whole _) _ _ _ _ _ (12 : Fin 16) _ _ _ ?_ ?_ rfl rfl rfl
    case refine_2 => exact (gather_row_of_word (Memref.whole main_arg1) (a0.1 2) (k0_off109 (grid0.coords t)) _ _ (Spec.batchRow t 12) (gather_wordOff t 12 (by omega)) k0_off117 (fun _ => rfl)).trans (hw2 12)
    refine gather_step1 _ (Memref.isWhole_whole _) _ (Memref.isWhole_whole _) _ _ _ _ _ (11 : Fin 16) _ _ _ ?_ ?_ rfl rfl rfl
    case refine_2 => exact (gather_row_of_word (Memref.whole main_arg1) (a0.1 2) (k0_off100 (grid0.coords t)) _ _ (Spec.batchRow t 11) (gather_wordOff t 11 (by omega)) k0_off108 (fun _ => rfl)).trans (hw2 11)
    refine gather_step1 _ (Memref.isWhole_whole _) _ (Memref.isWhole_whole _) _ _ _ _ _ (10 : Fin 16) _ _ _ ?_ ?_ rfl rfl rfl
    case refine_2 => exact (gather_row_of_word (Memref.whole main_arg1) (a0.1 2) (k0_off91 (grid0.coords t)) _ _ (Spec.batchRow t 10) (gather_wordOff t 10 (by omega)) k0_off99 (fun _ => rfl)).trans (hw2 10)
    refine gather_step1 _ (Memref.isWhole_whole _) _ (Memref.isWhole_whole _) _ _ _ _ _ (9 : Fin 16) _ _ _ ?_ ?_ rfl rfl rfl
    case refine_2 => exact (gather_row_of_word (Memref.whole main_arg1) (a0.1 2) (k0_off82 (grid0.coords t)) _ _ (Spec.batchRow t 9) (gather_wordOff t 9 (by omega)) k0_off90 (fun _ => rfl)).trans (hw2 9)
    refine gather_step1 _ (Memref.isWhole_whole _) _ (Memref.isWhole_whole _) _ _ _ _ _ (8 : Fin 16) _ _ _ ?_ ?_ rfl rfl rfl
    case refine_2 => exact (gather_row_of_word (Memref.whole main_arg1) (a0.1 2) (k0_off73 (grid0.coords t)) _ _ (Spec.batchRow t 8) (gather_wordOff t 8 (by omega)) k0_off81 (fun _ => rfl)).trans (hw2 8)
    refine gather_step1 _ (Memref.isWhole_whole _) _ (Memref.isWhole_whole _) _ _ _ _ _ (7 : Fin 16) _ _ _ ?_ ?_ rfl rfl rfl
    case refine_2 => exact (gather_row_of_word (Memref.whole main_arg1) (a0.1 2) (k0_off64 (grid0.coords t)) _ _ (Spec.batchRow t 7) (gather_wordOff t 7 (by omega)) k0_off72 (fun _ => rfl)).trans (hw2 7)
    refine gather_step1 _ (Memref.isWhole_whole _) _ (Memref.isWhole_whole _) _ _ _ _ _ (6 : Fin 16) _ _ _ ?_ ?_ rfl rfl rfl
    case refine_2 => exact (gather_row_of_word (Memref.whole main_arg1) (a0.1 2) (k0_off55 (grid0.coords t)) _ _ (Spec.batchRow t 6) (gather_wordOff t 6 (by omega)) k0_off63 (fun _ => rfl)).trans (hw2 6)
    refine gather_step1 _ (Memref.isWhole_whole _) _ (Memref.isWhole_whole _) _ _ _ _ _ (5 : Fin 16) _ _ _ ?_ ?_ rfl rfl rfl
    case refine_2 => exact (gather_row_of_word (Memref.whole main_arg1) (a0.1 2) (k0_off46 (grid0.coords t)) _ _ (Spec.batchRow t 5) (gather_wordOff t 5 (by omega)) k0_off54 (fun _ => rfl)).trans (hw2 5)
    refine gather_step1 _ (Memref.isWhole_whole _) _ (Memref.isWhole_whole _) _ _ _ _ _ (4 : Fin 16) _ _ _ ?_ ?_ rfl rfl rfl
    case refine_2 => exact (gather_row_of_word (Memref.whole main_arg1) (a0.1 2) (k0_off37 (grid0.coords t)) _ _ (Spec.batchRow t 4) (gather_wordOff t 4 (by omega)) k0_off45 (fun _ => rfl)).trans (hw2 4)
    refine gather_step1 _ (Memref.isWhole_whole _) _ (Memref.isWhole_whole _) _ _ _ _ _ (3 : Fin 16) _ _ _ ?_ ?_ rfl rfl rfl
    case refine_2 => exact (gather_row_of_word (Memref.whole main_arg1) (a0.1 2) (k0_off28 (grid0.coords t)) _ _ (Spec.batchRow t 3) (gather_wordOff t 3 (by omega)) k0_off36 (fun _ => rfl)).trans (hw2 3)
    refine gather_step1 _ (Memref.isWhole_whole _) _ (Memref.isWhole_whole _) _ _ _ _ _ (2 : Fin 16) _ _ _ ?_ ?_ rfl rfl rfl
    case refine_2 => exact (gather_row_of_word (Memref.whole main_arg1) (a0.1 2) (k0_off19 (grid0.coords t)) _ _ (Spec.batchRow t 2) (gather_wordOff t 2 (by omega)) k0_off27 (fun _ => rfl)).trans (hw2 2)
    refine gather_step1 _ (Memref.isWhole_whole _) _ (Memref.isWhole_whole _) _ _ _ _ _ (1 : Fin 16) _ _ _ ?_ ?_ rfl rfl rfl
    case refine_2 => exact (gather_row_of_word (Memref.whole main_arg1) (a0.1 2) (k0_off10 (grid0.coords t)) _ _ (Spec.batchRow t 1) (gather_wordOff t 1 (by omega)) k0_off18 (fun _ => rfl)).trans (hw2 1)
    refine gather_step1 _ (Memref.isWhole_whole _) _ (Memref.isWhole_whole _) _ _ _ _ _ (0 : Fin 16) _ _ _ ?_ ?_ rfl rfl rfl
    case refine_2 => exact (gather_row_of_word (Memref.whole main_arg1) (a0.1 2) (k0_off1 (grid0.coords t)) _ _ (Spec.batchRow t 0) (gather_wordOff t 0 (by omega)) k0_off9 (fun _ => rfl)).trans (hw2 0)
    rfl
  case i0 => exact (gather_readAt_whole_unread (hs0_0 a0 t) _ gather_zero2 _).trans (gather_iblk0_0 a0 V c t)
  case i1 => exact (gather_readAt_whole_unread (hs0_1 a0 t) _ gather_zero2 _).trans (gather_iblk0_1 a0 V c t)
  case i2 => exact (gather_readAt_whole_unread (hs0_2 a0 t) _ gather_zero2 _).trans (gather_iblk0_2 a0 V c t)
  case i3 => exact (gather_readAt_whole_unread (hs0_3 a0 t) _ gather_zero2 _).trans (gather_iblk0_3 a0 V c t)
  case i4 => exact (gather_readAt_whole_unread (hs0_4 a0 t) _ gather_zero2 _).trans (gather_iblk0_4 a0 V c t)
  case i5 => exact (gather_readAt_whole_unread (hs0_5 a0 t) _ gather_zero2 _).trans (gather_iblk0_5 a0 V c t)
  case i6 => exact (gather_readAt_whole_unread (hs0_6 a0 t) _ gather_zero1 _).trans (gather_iblk0_6 a0 V c t)
  case i7 => exact (gather_readAt_whole_unread (hs0_7 a0 t) _ gather_zero1 _).trans (gather_iblk0_7 a0 V c t)
  case i8 => exact (gather_readAt_whole_unread (hs0_8 a0 t) _ gather_zero2 _).trans (gather_iblk0_8 a0 V c t)
  case i9 => exact (gather_readAt_whole_unread (hs0_9 a0 t) _ gather_zero2 _).trans (gather_iblk0_9 a0 V c t)
  case i10 => exact (gather_readAt_whole_unread (hs0_10 a0 t) _ gather_zero1 _).trans (gather_iblk0_10 a0 V c t)
  case i11 => exact (gather_readAt_whole_unread (hs0_11 a0 t) _ gather_zero1 _).trans (gather_iblk0_11 a0 V c t)
  case i12 => exact (gather_readAt_whole_unread (hs0_12 a0 t) _ gather_zero2 _).trans (gather_iblk0_12 a0 V c t)
  case i13 => exact (gather_readAt_whole_unread (hs0_13 a0 t) _ gather_zero1 _).trans (gather_iblk0_13 a0 V c t)
  case i14 => exact (gather_readAt_whole_unread (hs0_14 a0 t) _ gather_zero2 _).trans (gather_iblk0_14 a0 V c t)
  case i15 => exact (gather_readAt_whole_unread (hs0_15 a0 t) _ gather_zero1 _).trans (gather_iblk0_15 a0 V c t)

end Region

end Cert.Kernel.Hand

end
-- ==== Proof.K.Blocks.lean ====
/- The gather step at the launch memory: with the three tables of row numbers the launch memory's id columns, what the
   first region's run leaves in its six output buffers, read back, is the specification's blocks. -/
import proofs.«423553_j10307921510829_1_alg».proof.Proof.K.Final
import proofs.«423553_j10307921510829_1_alg».proof.Proof.K.GatherStep

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- The gather step's fact, at the launch memory `m`. -/
theorem gather_blocks_at (m : (ℓ : Loc nD τ sig) → Buf (Elt F) ℓ) (h3 : IdsLt m) : GatherBlocks m h3 :=
  gather_blocks (adm0 m) (U0 m) (hids_of m h3) (hT0_of m h3) (hT1_of m h3) (hT2_of m h3)
    (fun c => ⟨congrFun (adm0_val m c) 0, congrFun (adm0_val m c) 1, congrFun (adm0_val m c) 2⟩)

end Cert.Kernel.Hand

end
-- ==== Proof.Bridge.Emb.lean ====
/- The embeddings, from the reference's operations to the kernel's blocks.

   The reference reads a table by x[ids]: a negative id has the table's length added, the ids are laid out as a column,
   and a gather takes, for each row of the column, the table's row at the id read as a signed integer and clamped into
   the table. For ids below 200000 (the table's length) nothing is added and nothing is clamped, so result row i is the
   table's row ids[i]: the same row the kernel's block 16t + p names. From there both sides compute
     user_emb[i, q] = is_user_new[uid i, 0] · initial_user[0, q] + dynamic_user[uid i, q]
     item_emb[i, q] = is_item_new[iid i, 0] · initial_item[0, q] + dynamic_item[iid i, q]
     item_target[i, r] = item_emb[i, r] for r < 128, static_item[iid i, r − 128] otherwise
   with one multiplication and one addition of extended reals per element, written in the same order on both sides:
   nothing here needs the floats to be finite. -/
import proofs.«423553_j10307921510829_1_alg».proof.Proof.KI.Spec
import proofs.«423553_j10307921510829_1_alg».proof.Proof.Gen.ReferenceIdeal.Read
import Idealize.ShloMosaic.Lib.ValueIdx
import Idealize.ShloMosaic.Lib.ValueLayout
import Idealize.ShloMosaic.Lib.Pipeline.Value

noncomputable section

namespace Cert.Proof.Bridge.Emb

open Idealize.ShloMosaic Idealize.ShloMosaic.ValueIdx

/-! ## Id words below 200000 -/

/-- A 32-bit word whose unsigned value is below 200000 has that value as its signed value. -/
theorem toInt_of_lt (w : BitVec 32) (h : w.toNat < 200000) : w.toInt = (w.toNat : Int) := by
  rw [BitVec.toInt_eq_toNat_cond, if_pos (by omega)]

/-- Such a word is not below zero as a signed integer. -/
theorem slt_zero_of_lt (w : BitVec 32) (h : w.toNat < 200000) : IntOp.cmpi .slt w 0#32 = 0#1 := by
  have h0 : (0#32 : BitVec 32).toInt = 0 := by decide
  have hs : w.slt 0#32 = false := by
    unfold BitVec.slt
    rw [toInt_of_lt w h, h0]
    exact decide_eq_false (by omega)
  show BitVec.ofBool (w.slt 0#32) = 0#1
  rw [hs]; rfl

/-- Its signed value, as a natural number and clamped to the last row of a 200000-row table, is its unsigned value. -/
theorem clamp_of_lt (w : BitVec 32) (h : w.toNat < 200000) : min w.toInt.toNat (200000 - 1) = w.toNat := by
  rw [toInt_of_lt w h, Int.toNat_natCast]; omega

/-! ## A row gather read at an index

jnp's x[ids] of a table x : [N, D] at a column of row numbers prints as a gather whose start indices are the [n, 1]
column, operand axis 0 collapsed and start-indexed, operand axis 1 the one offset axis, slices of one whole row. Result
element (p, q) is the table at (row, q), the row being the start index ids[p, 0] read signed and clamped into [0, N − 1]. -/

section RowGather
variable {α : Type}

/-- Those dimension numbers for a table [N, D], start indices [n, 1] and a result [n, D]. -/
abbrev rowDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- On the table's row axis the operand index is the clamped start index of the result's row. -/
theorem rowDims_axis0 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (p : Fin n) (q : Fin D) :
    ((rowDims N D n wf).operandIdx (ix2 p q) idx 0).val = min (idx (ix2 p (0 : Fin 1))).toInt.toNat (N - 1) := by
  show (rowDims N D n wf).start (ix2 p q) idx 0 + (rowDims N D n wf).batchCoord (ix2 p q) 0
    + (rowDims N D n wf).offCoord (ix2 p q) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D n wf).startIndexMap from List.mem_singleton.mpr rfl)]
  have hsi : (rowDims N D n wf).siIdx (ix2 p q) ⟨List.idxOf (0 : Fin 2) (rowDims N D n wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

/-- On the table's column axis the operand index is the result's column. -/
theorem rowDims_axis1 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (p : Fin n) (q : Fin D) :
    ((rowDims N D n wf).operandIdx (ix2 p q) idx 1).val = q.val := by
  show (rowDims N D n wf).start (ix2 p q) idx 1 + (rowDims N D n wf).batchCoord (ix2 p q) 1
    + (rowDims N D n wf).offCoord (ix2 p q) 1 = _
  rw [GatherDims.batchCoord_eq_zero _ _ _ List.not_mem_nil]
  unfold GatherDims.start
  have hsim : ¬ (1 : Fin 2) ∈ (rowDims N D n wf).startIndexMap := by
    show ¬ (1 : Fin 2) ∈ ([0] : List (Fin 2))
    decide
  rw [dif_neg hsim]
  unfold GatherDims.offCoord
  have hcoll : ¬ (1 : Fin 2) ∈ (rowDims N D n wf).collapsedSliceDims := by
    show ¬ (1 : Fin 2) ∈ ([0] : List (Fin 2))
    decide
  rw [dif_pos (show (1 : Fin 2) ∈ (rowDims N D n wf).sKept from
    (GatherDims.mem_sKept _ _).mpr ⟨hcoll, List.not_mem_nil⟩)]
  -- the offset axes are the one-element list [1]: whatever the position, the entry there is axis 1
  have hone : ∀ (k : Nat) (hk : k < (rowDims N D n wf).offsetDims.length),
      (rowDims N D n wf).offsetDims[k]'hk = (1 : Fin 2) := by
    intro k hk
    have hk1 : k < 1 := hk
    obtain rfl : k = 0 := by omega
    rfl
  rw [hone]
  show 0 + 0 + q.val = q.val
  omega

/-- THE ROW GATHER READ AT (p, q): the table at the clamped start index of row p, column q. -/
theorem gather_rows_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowDims N D n wf) x idx (ix2 p q)
      = x (ix2 (⟨min (idx (ix2 p (0 : Fin 1))).toInt.toNat (N - 1), by omega⟩ : Fin N) q) := by
  unfold Host.gather
  refine congrArg x (funext fun a => Fin.ext ?_)
  match a with
  | ⟨0, _⟩ => exact rowDims_axis0 wf idx p q
  | ⟨1, _⟩ => exact rowDims_axis1 wf idx p q

end RowGather

/-! ## jnp's index column

x[ids] first adds the table's length to a negative id and then lays the ids out as a column. For ids below 200000
nothing is added. -/

/-- The column of start indices jnp makes of a vector of 4096 ids for a table of 200000 rows. -/
abbrev wrappedIds (ids : IVec ⟨1, ![4096]⟩ 32)
    (hb0 : (⟨0, ![]⟩ : Shape).BroadcastsInDim ⟨1, ![4096]⟩ (![] : Fin 0 → Fin 1))
    (hb1 : (⟨1, ![4096]⟩ : Shape).BroadcastsInDim ⟨2, ![4096, 1]⟩ (![0] : Fin 1 → Fin 2)) : IVec ⟨2, ![4096, 1]⟩ 32 :=
  broadcastInDim ⟨2, ![4096, 1]⟩ ![0] hb1
    (select (cmpi .slt ids (broadcastInDim ⟨1, ![4096]⟩ ![] hb0 (constantI ⟨0, ![]⟩ 32 0#32)))
      (addi ids (broadcastInDim ⟨1, ![4096]⟩ ![] hb0 (constantI ⟨0, ![]⟩ 32 200000#32))) ids)

/-- Row p of that column is the id itself when every id is below 200000. -/
theorem wrappedIds_apply (ids : IVec ⟨1, ![4096]⟩ 32) (hlt : ∀ j, (ids j).toNat < 200000)
    (hb0 : (⟨0, ![]⟩ : Shape).BroadcastsInDim ⟨1, ![4096]⟩ (![] : Fin 0 → Fin 1))
    (hb1 : (⟨1, ![4096]⟩ : Shape).BroadcastsInDim ⟨2, ![4096, 1]⟩ (![0] : Fin 1 → Fin 2)) (p : Fin 4096) :
    wrappedIds ids hb0 hb1 (ix2 p (0 : Fin 1)) = ids (ix1 p) := by
  refine (broadcastInDim_apply _ hb1 _ (ix2 p (0 : Fin 1)) (ix1 p) (fun a => ?_)).trans ?_
  · match a with
    | ⟨0, _⟩ => show p.val = if (4096 : Nat) = 1 then 0 else p.val; rw [if_neg (by decide)]
  · show Scalar.select (IntOp.cmpi .slt (ids (ix1 p)) 0#32) _ (ids (ix1 p)) = _
    rw [slt_zero_of_lt _ (hlt _), select_zero]

/-- THE GATHER BY IDS BELOW 200000: result row i is the table's row ids[i]. -/
theorem gather_wrapped_apply {α : Type} {D : Nat}
    (wf : GatherDims.WF ⟨2, ![200000, D]⟩ ⟨2, ![4096, 1]⟩ ⟨2, ![4096, D]⟩ [1] [0] [] [0] [] 1 ![1, D])
    (tbl : (⟨2, ![200000, D]⟩ : Shape).Idx → α) (ids : IVec ⟨1, ![4096]⟩ 32) (hlt : ∀ j, (ids j).toNat < 200000)
    (hb0 : (⟨0, ![]⟩ : Shape).BroadcastsInDim ⟨1, ![4096]⟩ (![] : Fin 0 → Fin 1))
    (hb1 : (⟨1, ![4096]⟩ : Shape).BroadcastsInDim ⟨2, ![4096, 1]⟩ (![0] : Fin 1 → Fin 2)) (i : Fin 4096) (q : Fin D) :
    Host.gather (rowDims 200000 D 4096 wf) tbl (wrappedIds ids hb0 hb1) (ix2 i q)
      = tbl (ix2 (⟨(ids (ix1 i)).toNat, hlt _⟩ : Fin 200000) q) := by
  rw [gather_rows_apply (by decide)]
  refine congrArg (fun r : Fin 200000 => tbl (ix2 r q)) (Fin.ext ?_)
  show min (wrappedIds ids hb0 hb1 (ix2 i (0 : Fin 1))).toInt.toNat (200000 - 1) = (ids (ix1 i)).toNat
  rw [wrappedIds_apply ids hlt hb0 hb1 i, clamp_of_lt _ (hlt _)]

/-! ## Two layout operations read at an index -/

section Layout
variable {α : Type}

/-- An [a, 1] column broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Two [n, 128] arrays joined along the columns read, at (p, r), the first at column r for r < 128 and the second at
    column r − 128 otherwise. -/
theorem concat128_apply {n : ℕ} (x₁ x₂ : (⟨2, ![n, 128]⟩ : Shape).Idx → α)
    (h : Shape.Concatenates [(⟨2, ![n, 128]⟩ : Shape), ⟨2, ![n, 128]⟩] ⟨2, ![n, 256]⟩ 1) (p : Fin n) (r : Fin 256) :
    concatenate ⟨2, ![n, 256]⟩ 1 [⟨⟨2, ![n, 128]⟩, x₁⟩, ⟨⟨2, ![n, 128]⟩, x₂⟩] h (ix2 p r)
      = if hr : r.val < 128 then x₁ (ix2 p ⟨r.val, hr⟩)
        else x₂ (ix2 p ⟨r.val - 128, by have := r.isLt; omega⟩) := by
  split
  · next hr =>
    exact concatenate_pair_apply_left 1 x₁ x₂ h (ix2 p r) rfl (ix2 p ⟨r.val, hr⟩)
      (fun b => by match b with | ⟨0, _⟩ => rfl | ⟨1, _⟩ => rfl)
  · next hr =>
    exact concatenate_pair_apply_right 1 x₁ x₂ h (ix2 p r) rfl rfl (ix2 p ⟨r.val - 128, by have := r.isLt; omega⟩)
      (fun b hb => by
        match b, hb with
        | ⟨0, _⟩, _ => rfl
        | ⟨1, _⟩, hb => exact absurd rfl hb)
      (by show r.val - 128 + 128 = r.val; omega)

end Layout

end Cert.Proof.Bridge.Emb

namespace Cert.Proof.Bridge

open Idealize.ShloMosaic Idealize.ShloMosaic.ValueIdx

/-! ## The reference's nine gathers

Each reads its table's row ids[i] at result row i, the ids being the user ids (@main's argument 0), the previous-item
ids (argument 1) or the item ids (argument 2). -/

section Gathers
variable {F : FTy → Type} [FloatOps F]

/-- is_user_new[user_id]. -/
theorem gather_v6 (x0 : IVec Cert.ReferenceIdeal.S4096 32) (hx : ∀ j, (x0 j).toNat < 200000)
    (x7 : Vec F Cert.ReferenceIdeal.S200000x1 .f32) (i : Fin 4096) (q : Fin 1) :
    Cert.ReferenceIdeal.Read.val_main_v6 (F := F) x0 x7 (ix2 i q)
      = x7 (ix2 (⟨(x0 (ix1 i)).toNat, hx _⟩ : Fin 200000) q) :=
  Emb.gather_wrapped_apply _ x7 x0 hx _ _ i q

/-- dynamic_user_emb[user_id]. -/
theorem gather_v16 (x0 : IVec Cert.ReferenceIdeal.S4096 32) (hx : ∀ j, (x0 j).toNat < 200000)
    (x5 : Vec F Cert.ReferenceIdeal.S200000x128 .f32) (i : Fin 4096) (q : Fin 128) :
    Cert.ReferenceIdeal.Read.val_main_v16 (F := F) x0 x5 (ix2 i q)
      = x5 (ix2 (⟨(x0 (ix1 i)).toNat, hx _⟩ : Fin 200000) q) :=
  Emb.gather_wrapped_apply _ x5 x0 hx _ _ i q

/-- is_item_new[item_id]. -/
theorem gather_v24 (x2 : IVec Cert.ReferenceIdeal.S4096 32) (hx : ∀ j, (x2 j).toNat < 200000)
    (x8 : Vec F Cert.ReferenceIdeal.S200000x1 .f32) (i : Fin 4096) (q : Fin 1) :
    Cert.ReferenceIdeal.Read.val_main_v24 (F := F) x2 x8 (ix2 i q)
      = x8 (ix2 (⟨(x2 (ix1 i)).toNat, hx _⟩ : Fin 200000) q) :=
  Emb.gather_wrapped_apply _ x8 x2 hx _ _ i q

/-- dynamic_item_emb[item_id]. -/
theorem gather_v34 (x2 : IVec Cert.ReferenceIdeal.S4096 32) (hx : ∀ j, (x2 j).toNat < 200000)
    (x6 : Vec F Cert.ReferenceIdeal.S200000x128 .f32) (i : Fin 4096) (q : Fin 128) :
    Cert.ReferenceIdeal.Read.val_main_v34 (F := F) x2 x6 (ix2 i q)
      = x6 (ix2 (⟨(x2 (ix1 i)).toNat, hx _⟩ : Fin 200000) q) :=
  Emb.gather_wrapped_apply _ x6 x2 hx _ _ i q

/-- is_item_new[prev_item_id]. -/
theorem gather_v42 (x1 : IVec Cert.ReferenceIdeal.S4096 32) (hx : ∀ j, (x1 j).toNat < 200000)
    (x8 : Vec F Cert.ReferenceIdeal.S200000x1 .f32) (i : Fin 4096) (q : Fin 1) :
    Cert.ReferenceIdeal.Read.val_main_v42 (F := F) x1 x8 (ix2 i q)
      = x8 (ix2 (⟨(x1 (ix1 i)).toNat, hx _⟩ : Fin 200000) q) :=
  Emb.gather_wrapped_apply _ x8 x1 hx _ _ i q

/-- dynamic_item_emb[prev_item_id]. -/
theorem gather_v52 (x1 : IVec Cert.ReferenceIdeal.S4096 32) (hx : ∀ j, (x1 j).toNat < 200000)
    (x6 : Vec F Cert.ReferenceIdeal.S200000x128 .f32) (i : Fin 4096) (q : Fin 128) :
    Cert.ReferenceIdeal.Read.val_main_v52 (F := F) x1 x6 (ix2 i q)
      = x6 (ix2 (⟨(x1 (ix1 i)).toNat, hx _⟩ : Fin 200000) q) :=
  Emb.gather_wrapped_apply _ x6 x1 hx _ _ i q

/-- static_user_W[user_id]. -/
theorem gather_v60 (x0 : IVec Cert.ReferenceIdeal.S4096 32) (hx : ∀ j, (x0 j).toNat < 200000)
    (x9 : Vec F Cert.ReferenceIdeal.S200000x128 .f32) (i : Fin 4096) (q : Fin 128) :
    Cert.ReferenceIdeal.Read.val_main_v60 (F := F) x0 x9 (ix2 i q)
      = x9 (ix2 (⟨(x0 (ix1 i)).toNat, hx _⟩ : Fin 200000) q) :=
  Emb.gather_wrapped_apply _ x9 x0 hx _ _ i q

/-- static_item_W[item_id]. -/
theorem gather_v67 (x2 : IVec Cert.ReferenceIdeal.S4096 32) (hx : ∀ j, (x2 j).toNat < 200000)
    (x10 : Vec F Cert.ReferenceIdeal.S200000x128 .f32) (i : Fin 4096) (q : Fin 128) :
    Cert.ReferenceIdeal.Read.val_main_v67 (F := F) x2 x10 (ix2 i q)
      = x10 (ix2 (⟨(x2 (ix1 i)).toNat, hx _⟩ : Fin 200000) q) :=
  Emb.gather_wrapped_apply _ x10 x2 hx _ _ i q

/-- static_item_W[prev_item_id]. -/
theorem gather_v74 (x1 : IVec Cert.ReferenceIdeal.S4096 32) (hx : ∀ j, (x1 j).toNat < 200000)
    (x10 : Vec F Cert.ReferenceIdeal.S200000x128 .f32) (i : Fin 4096) (q : Fin 128) :
    Cert.ReferenceIdeal.Read.val_main_v74 (F := F) x1 x10 (ix2 i q)
      = x10 (ix2 (⟨(x1 (ix1 i)).toNat, hx _⟩ : Fin 200000) q) :=
  Emb.gather_wrapped_apply _ x10 x1 hx _ _ i q

end Gathers

/-! ## The kernel's blocks at a row of the batch

Row i of the batch is row i % 16 of block i / 16. -/

section Blocks
open Cert.KernelIdeal Cert.KernelIdeal.Spec
variable {F : FTy → Type} [FloatOps F]

theorem batchRow_divmod (i : Fin 4096) (h1 : i.val / 16 < 256) (h2 : i.val % 16 < 16) :
    batchRow ⟨i.val / 16, h1⟩ ⟨i.val % 16, h2⟩ = i :=
  Fin.ext (by show 16 * (i.val / 16) + i.val % 16 = i.val; omega)

/-- The gathered block of a 128-wide table, at row i of the batch: the table's row ids i. -/
theorem gather128_at (tbl : Vec F S200000x128 .f32) (ids : Fin 4096 → Fin 200000) (i : Fin 4096) (q : Fin 128)
    (h1 : i.val / 16 < 256) (h2 : i.val % 16 < 16) :
    gather128 tbl ids ⟨i.val / 16, h1⟩ (ix2 ⟨i.val % 16, h2⟩ q) = tbl (ix2 (ids i) q) := by
  show tbl (ix2 (ids (batchRow ⟨i.val / 16, h1⟩ ⟨i.val % 16, h2⟩)) q) = _
  rw [batchRow_divmod]

/-- The same for a one-column table. -/
theorem gather1_at (tbl : Vec F S200000x1 .f32) (ids : Fin 4096 → Fin 200000) (i : Fin 4096) (q : Fin 1)
    (h1 : i.val / 16 < 256) (h2 : i.val % 16 < 16) :
    gather1 tbl ids ⟨i.val / 16, h1⟩ (ix2 ⟨i.val % 16, h2⟩ q) = tbl (ix2 (ids i) q) := by
  show tbl (ix2 (ids (batchRow ⟨i.val / 16, h1⟩ ⟨i.val % 16, h2⟩)) q) = _
  rw [batchRow_divmod]

/-- A block of a batch column, at row i of the batch: the column at i. -/
theorem block1_at (x : Vec F S4096x1 .f32) (i : Fin 4096) (q : Fin 1)
    (h1 : i.val / 16 < 256) (h2 : i.val % 16 < 16) :
    block1 x ⟨i.val / 16, h1⟩ (ix2 ⟨i.val % 16, h2⟩ q) = x (ix2 i q) := by
  show x (ix2 (batchRow ⟨i.val / 16, h1⟩ ⟨i.val % 16, h2⟩) q) = _
  rw [batchRow_divmod]

end Blocks

/-! ## The two embeddings, element by element -/

section Embeddings
open Cert.KernelIdeal Cert.KernelIdeal.Spec

/-- The kernel's user-embedding payload at (p, q): flag · initial + dynamic. -/
theorem pay1_apply (g1 : Vec Ideal S16x1 .f32) (init : Vec Ideal S1x128 .f32) (g : Vec Ideal S16x128 .f32)
    (p : Fin 16) (q : Fin 128) :
    Gen.k0_pay1 g1 init g (ix2 p q) = g1 (ix2 p (0 : Fin 1)) * init (ix2 (0 : Fin 1) q) + g (ix2 p q) := by
  unfold Gen.k0_pay1
  rw [addf_apply, mulf_apply, Emb.broadcastTo_a1_ab_apply, broadcastTo_1b_ab_apply]

/-- The kernel's item-embedding payload at (p, q): the same expression. -/
theorem pay2_apply (g1 : Vec Ideal S16x1 .f32) (init : Vec Ideal S1x128 .f32) (g : Vec Ideal S16x128 .f32)
    (p : Fin 16) (q : Fin 128) :
    Gen.k0_pay2 g1 init g (ix2 p q) = g1 (ix2 p (0 : Fin 1)) * init (ix2 (0 : Fin 1) q) + g (ix2 p q) := by
  unfold Gen.k0_pay2
  rw [addf_apply, mulf_apply, Emb.broadcastTo_a1_ab_apply, broadcastTo_1b_ab_apply]

/-- user_emb[i, q] = is_user_new[uid i, 0] · initial_user[0, q] + dynamic_user[uid i, q]. -/
theorem userEmb_apply (A : Args Ideal) (i : Fin 4096) (q : Fin 128) :
    userEmb A (ix2 i q)
      = A.isU (ix2 (A.uid i) (0 : Fin 1)) * A.initU (ix2 (0 : Fin 1) q) + A.dynU (ix2 (A.uid i) q) := by
  have hi := i.isLt
  show userEmbBlk A ⟨i.val / 16, by omega⟩ (ix2 ⟨i.val % 16, by omega⟩ q) = _
  unfold userEmbBlk
  rw [pay1_apply, gather1_at, gather128_at]

/-- item_emb[i, q] = is_item_new[iid i, 0] · initial_item[0, q] + dynamic_item[iid i, q]. -/
theorem itemEmb_apply (A : Args Ideal) (i : Fin 4096) (q : Fin 128) :
    itemEmb A (ix2 i q)
      = A.isI (ix2 (A.iid i) (0 : Fin 1)) * A.initI (ix2 (0 : Fin 1) q) + A.dynI (ix2 (A.iid i) q) := by
  have hi := i.isLt
  show itemEmbBlk A ⟨i.val / 16, by omega⟩ (ix2 ⟨i.val % 16, by omega⟩ q) = _
  unfold itemEmbBlk
  rw [pay2_apply, gather1_at, gather128_at]

/-- item_target[i, r] is item_emb[i, r] on the first 128 columns and static_item[iid i, r − 128] on the last 128. -/
theorem itemTarget_apply (A : Args Ideal) (i : Fin 4096) (r : Fin 256) :
    itemTarget A (ix2 i r)
      = if hr : r.val < 128 then itemEmb A (ix2 i ⟨r.val, hr⟩)
        else A.statI (ix2 (A.iid i) ⟨r.val - 128, by have := r.isLt; omega⟩) := by
  have hi := i.isLt
  show itemTargetBlk A ⟨i.val / 16, by omega⟩ (ix2 ⟨i.val % 16, by omega⟩ r) = _
  unfold itemTargetBlk Gen.k0_pay5
  rw [Emb.concat128_apply]
  by_cases hr : r.val < 128
  · rw [dif_pos hr, dif_pos hr]
    rfl
  · rw [dif_neg hr, dif_neg hr, gather128_at]

/-- The reference's user_emb at (i, q), for user ids below 200000. -/
theorem ref_userEmb_apply (x0 : IVec Cert.ReferenceIdeal.S4096 32) (hx : ∀ j, (x0 j).toNat < 200000)
    (x5 : Vec Ideal Cert.ReferenceIdeal.S200000x128 .f32) (x7 : Vec Ideal Cert.ReferenceIdeal.S200000x1 .f32)
    (x11 : Vec Ideal Cert.ReferenceIdeal.S1x128 .f32) (i : Fin 4096) (q : Fin 128) :
    Cert.ReferenceIdeal.Read.val_main_v17 (F := Ideal) x0 x5 x7 x11 (ix2 i q)
      = x7 (ix2 (⟨(x0 (ix1 i)).toNat, hx _⟩ : Fin 200000) (0 : Fin 1)) * x11 (ix2 (0 : Fin 1) q)
        + x5 (ix2 (⟨(x0 (ix1 i)).toNat, hx _⟩ : Fin 200000) q) := by
  have e7 : Cert.ReferenceIdeal.Read.idx_main_v7 (ix2 i q) = ix2 i (0 : Fin 1) :=
    funext fun a => Fin.ext (by match a with | ⟨0, _⟩ => rfl | ⟨1, _⟩ => rfl)
  have e8 : Cert.ReferenceIdeal.Read.idx_main_v8 (ix2 i q) = ix2 (0 : Fin 1) q :=
    funext fun a => Fin.ext (by match a with | ⟨0, _⟩ => rfl | ⟨1, _⟩ => rfl)
  rw [Cert.ReferenceIdeal.Read.val_main_v17_apply, Cert.ReferenceIdeal.Read.val_main_v9_apply,
    Cert.ReferenceIdeal.Read.val_main_v7_apply, Cert.ReferenceIdeal.Read.val_main_v8_apply, e7, e8,
    gather_v6 x0 hx x7 i 0, gather_v16 x0 hx x5 i q]
  rfl

/-- The reference's item_emb at (i, q), for item ids below 200000. -/
theorem ref_itemEmb_apply (x2 : IVec Cert.ReferenceIdeal.S4096 32) (hx : ∀ j, (x2 j).toNat < 200000)
    (x6 : Vec Ideal Cert.ReferenceIdeal.S200000x128 .f32) (x8 : Vec Ideal Cert.ReferenceIdeal.S200000x1 .f32)
    (x12 : Vec Ideal Cert.ReferenceIdeal.S1x128 .f32) (i : Fin 4096) (q : Fin 128) :
    Cert.ReferenceIdeal.Read.val_main_v35 (F := Ideal) x2 x6 x8 x12 (ix2 i q)
      = x8 (ix2 (⟨(x2 (ix1 i)).toNat, hx _⟩ : Fin 200000) (0 : Fin 1)) * x12 (ix2 (0 : Fin 1) q)
        + x6 (ix2 (⟨(x2 (ix1 i)).toNat, hx _⟩ : Fin 200000) q) := by
  have e25 : Cert.ReferenceIdeal.Read.idx_main_v25 (ix2 i q) = ix2 i (0 : Fin 1) :=
    funext fun a => Fin.ext (by match a with | ⟨0, _⟩ => rfl | ⟨1, _⟩ => rfl)
  have e26 : Cert.ReferenceIdeal.Read.idx_main_v26 (ix2 i q) = ix2 (0 : Fin 1) q :=
    funext fun a => Fin.ext (by match a with | ⟨0, _⟩ => rfl | ⟨1, _⟩ => rfl)
  rw [Cert.ReferenceIdeal.Read.val_main_v35_apply, Cert.ReferenceIdeal.Read.val_main_v27_apply,
    Cert.ReferenceIdeal.Read.val_main_v25_apply, Cert.ReferenceIdeal.Read.val_main_v26_apply, e25, e26,
    gather_v24 x2 hx x8 i 0, gather_v34 x2 hx x6 i q]
  rfl

end Embeddings

/-! ## The reference's three arrays are the kernel's -/

section Arrays
open Cert.KernelIdeal Cert.KernelIdeal.Spec

variable (a0 a1 a2 : IVec S4096 32)
  (h0 : ∀ j : S4096.Idx, (a0 j).toNat < 200000) (h1 : ∀ j : S4096.Idx, (a1 j).toNat < 200000)
  (h2 : ∀ j : S4096.Idx, (a2 j).toNat < 200000)
  (a3 a4 : Vec Ideal S4096x1 .f32) (a5 a6 : Vec Ideal S200000x128 .f32) (a7 a8 : Vec Ideal S200000x1 .f32)
  (a9 a10 : Vec Ideal S200000x128 .f32) (a11 a12 : Vec Ideal S1x128 .f32) (a13 : Vec Ideal S128x129 .f32)
  (a14 : Vec Ideal S128x128 .f32) (a15 a16 : Vec Ideal S128 .f32) (a17 : Vec Ideal S128x129 .f32)
  (a18 : Vec Ideal S128x128 .f32) (a19 a20 : Vec Ideal S128 .f32) (a21 : Vec Ideal S256x512 .f32)
  (a22 : Vec Ideal S256 .f32) (a23 : Vec Ideal S128x1 .f32) (a24 : Vec Ideal S128 .f32)

/-- user_emb. -/
theorem ref_userEmb :
    Cert.ReferenceIdeal.Read.val_main_v17 (F := Ideal) a0 a5 a7 a11
      = userEmb (Args.ofMem a0 a1 a2 h0 h1 h2 a3 a4 a5 a6 a7 a8 a9 a10 a11 a12 a13 a14 a15 a16 a17 a18 a19 a20 a21 a22
          a23 a24) := by
  funext j
  obtain ⟨i, q, rfl⟩ : ∃ (i : Fin 4096) (q : Fin 128), j = ix2 i q := ⟨j 0, j 1, eq_ix2 j⟩
  rw [ref_userEmb_apply a0 h0 a5 a7 a11 i q, userEmb_apply]
  rfl

/-- item_emb. -/
theorem ref_itemEmb :
    Cert.ReferenceIdeal.Read.val_main_v35 (F := Ideal) a2 a6 a8 a12
      = itemEmb (Args.ofMem a0 a1 a2 h0 h1 h2 a3 a4 a5 a6 a7 a8 a9 a10 a11 a12 a13 a14 a15 a16 a17 a18 a19 a20 a21 a22
          a23 a24) := by
  funext j
  obtain ⟨i, q, rfl⟩ : ∃ (i : Fin 4096) (q : Fin 128), j = ix2 i q := ⟨j 0, j 1, eq_ix2 j⟩
  rw [ref_itemEmb_apply a2 h2 a6 a8 a12 i q, itemEmb_apply]
  rfl

/-- item_target. -/
theorem ref_itemTarget :
    Cert.ReferenceIdeal.Read.val_main_v89 (F := Ideal) a2 a6 a8 a10 a12
      = itemTarget (Args.ofMem a0 a1 a2 h0 h1 h2 a3 a4 a5 a6 a7 a8 a9 a10 a11 a12 a13 a14 a15 a16 a17 a18 a19 a20 a21
          a22 a23 a24) := by
  funext j
  obtain ⟨i, r, rfl⟩ : ∃ (i : Fin 4096) (r : Fin 256), j = ix2 i r := ⟨j 0, j 1, eq_ix2 j⟩
  rw [itemTarget_apply]
  unfold Cert.ReferenceIdeal.Read.val_main_v89
  rw [Emb.concat128_apply,
    ref_itemEmb a0 a1 a2 h0 h1 h2 a3 a4 a5 a6 a7 a8 a9 a10 a11 a12 a13 a14 a15 a16 a17 a18 a19 a20 a21 a22 a23 a24]
  by_cases hr : r.val < 128
  · rw [dif_pos hr, dif_pos hr]
  · rw [dif_neg hr, dif_neg hr, gather_v67 a2 h2 a10 i _]
    rfl

end Arrays

end Cert.Proof.Bridge

end
-- ==== Proof.Bridge.Pred.lean ====
/- The prediction head, item_pred, on both sides of the bridge.

   item_pred[i, j] = Σ_{k < 512} concat[i, k] · pred_W[j, k] + pred_b[j], where row i of concat is, in four stretches of 128
   columns, user_emb[i, ·] · (1 + t_pi[i] · td_Wᵀ + td_b), the previous item's embedding
   is_item_new[pid i] · initial_item + dynamic_item[pid i], static_item[pid i] and static_user[uid i].

   The kernel computes it block by block: a transpose of pred_W and a product into a zero accumulator, which is the finite
   sum over the contracted axis; the time gate is a product whose contracted axis has extent one, a sum of one term, left as
   such on both sides. The reference computes the same sum with a dot_general over the whole batch. Both sums run over the
   same 512 columns and their terms are equal one by one once the two concatenations are read at (i, k): no term is
   rearranged, so nothing here needs the entries to be finite. -/
import proofs.«423553_j10307921510829_1_alg».proof.Proof.KI.Spec
import proofs.«423553_j10307921510829_1_alg».proof.Proof.Gen.ReferenceIdeal.Read
import proofs.«423553_j10307921510829_1_alg».proof.Proof.Bridge.Emb
import Idealize.ShloMosaic.Lib.ValueIdx
import Idealize.ShloMosaic.Lib.ValueLayout
import Idealize.ShloMosaic.Lib.Pipeline.Value
import Idealize.ShloMosaic.PureOps.Ideal.Laws

noncomputable section

namespace Cert.Proof.Bridge.Pred

open Idealize.ShloMosaic Idealize.ShloMosaic.ValueIdx

/-! ## Four [R, 128] pieces laid side by side -/

/-- A concatenation of four [R, 128] pieces along axis 1, read at (p, 128·c + q): piece c at (p, q). -/
theorem concat4_apply {α : Type} {R : ℕ} (x0 x1 x2 x3 : (⟨2, ![R, 128]⟩ : Shape).Idx → α)
    (h : Shape.Concatenates (([⟨⟨2, ![R, 128]⟩, x0⟩, ⟨⟨2, ![R, 128]⟩, x1⟩, ⟨⟨2, ![R, 128]⟩, x2⟩, ⟨⟨2, ![R, 128]⟩, x3⟩] :
      List ((s : Shape) × (s.Idx → α))).map (·.1)) ⟨2, ![R, 512]⟩ 1)
    (p : Fin R) (k : Fin 512) (c : ℕ) (hc : c < 4) (q : Fin 128) (hk : k.val = 128 * c + q.val) :
    concatenate ⟨2, ![R, 512]⟩ 1 [⟨⟨2, ![R, 128]⟩, x0⟩, ⟨⟨2, ![R, 128]⟩, x1⟩, ⟨⟨2, ![R, 128]⟩, x2⟩, ⟨⟨2, ![R, 128]⟩, x3⟩] h (ix2 p k)
      = ([x0, x1, x2, x3][c]'hc) (ix2 p q) := by
  have hi : ∀ b : Fin (⟨2, ![R, 128]⟩ : Shape).rank, b.cast (rfl : (2 : ℕ) = 2) ≠ (1 : Fin 2) →
      ((ix2 p q : (⟨2, ![R, 128]⟩ : Shape).Idx) b).val = ((ix2 p k : (⟨2, ![R, 512]⟩ : Shape).Idx) (b.cast rfl)).val := fun b =>
    match b with
    | ⟨0, _⟩ => fun _ => rfl
    | ⟨1, _⟩ => fun hne => absurd rfl hne
  interval_cases c
  · exact concatenate_apply_piece 1 _ h _ 0 (by simp) ⟨2, ![R, 128]⟩ x0 rfl rfl 0 rfl (ix2 p q) hi
      (by show 0 + q.val = k.val; omega)
  · exact concatenate_apply_piece 1 _ h _ 1 (by simp) ⟨2, ![R, 128]⟩ x1 rfl rfl 128 rfl (ix2 p q) hi
      (by show 128 + q.val = k.val; omega)
  · exact concatenate_apply_piece 1 _ h _ 2 (by simp) ⟨2, ![R, 128]⟩ x2 rfl rfl 256 rfl (ix2 p q) hi
      (by show 256 + q.val = k.val; omega)
  · exact concatenate_apply_piece 1 _ h _ 3 (by simp) ⟨2, ![R, 128]⟩ x3 rfl rfl 384 rfl (ix2 p q) hi
      (by show 384 + q.val = k.val; omega)

section Kernel

open Cert.KernelIdeal Cert.KernelIdeal.Gen

/-! ## The prediction head's product on the kernel side -/

theorem lhs_pred_0 (i : S16x256.Idx) (q : dot_S16x512_S512x256_S16x256_1_0_0_1_n_n.contr.Idx) :
    (dot_S16x512_S512x256_S16x256_1_0_0_1_n_n.lhsIdx i q 0).val = (i 0).val := by
  unfold DotDims.lhsIdx
  rw [dif_neg (show ¬(0 : Fin S16x512.rank) ∈ dot_S16x512_S512x256_S16x256_1_0_0_1_n_n.lhsBatch by decide), dif_pos (show (0 : Fin S16x512.rank) ∈ dot_S16x512_S512x256_S16x256_1_0_0_1_n_n.lhsNonContracting by decide)]
  rfl
theorem lhs_pred_1 (i : S16x256.Idx) (q : dot_S16x512_S512x256_S16x256_1_0_0_1_n_n.contr.Idx) :
    (dot_S16x512_S512x256_S16x256_1_0_0_1_n_n.lhsIdx i q 1).val = (q ⟨0, by decide⟩).val :=
  dot_S16x512_S512x256_S16x256_1_0_0_1_n_n.lhsIdx_val_of_single rfl i q
theorem rhs_pred_0 (i : S16x256.Idx) (q : dot_S16x512_S512x256_S16x256_1_0_0_1_n_n.contr.Idx) :
    (dot_S16x512_S512x256_S16x256_1_0_0_1_n_n.rhsIdx i q 0).val = (q ⟨0, by decide⟩).val :=
  dot_S16x512_S512x256_S16x256_1_0_0_1_n_n.rhsIdx_val_of_single rfl i q
theorem rhs_pred_1 (i : S16x256.Idx) (q : dot_S16x512_S512x256_S16x256_1_0_0_1_n_n.contr.Idx) :
    (dot_S16x512_S512x256_S16x256_1_0_0_1_n_n.rhsIdx i q 1).val = (i 1).val := by
  unfold DotDims.rhsIdx
  rw [dif_neg (show ¬(1 : Fin S512x256.rank) ∈ dot_S16x512_S512x256_S16x256_1_0_0_1_n_n.rhsBatch by decide), dif_pos (show (1 : Fin S512x256.rank) ∈ dot_S16x512_S512x256_S16x256_1_0_0_1_n_n.rhsNonContracting by decide)]
  rfl

/-- The [16, 512] × [512, 256] product into a zero accumulator, at (p, j): the sum over the 512 contracted columns. -/
theorem predDot_apply (x : FVec Ideal S16x512 .f32) (w : FVec Ideal S512x256 .f32) (p : Fin 16) (j : Fin 256) :
    matmul dot_S16x512_S512x256_S16x256_1_0_0_1_n_n none x w (constant S16x256 .f32 0x00000000#32) (ix2 p j)
      = ∑ k : Fin 512, x (ix2 p k) * w (ix2 k j) := by
  refine (Ideal.matmul_constant_zero_apply _ _ _ _ _).trans ?_
  rw [← Equiv.sum_comp (contrEquiv1 dot_S16x512_S512x256_S16x256_1_0_0_1_n_n 512 rfl rfl).symm]
  refine Finset.sum_congr rfl fun k _ => ?_
  have hk := contrEquiv1_symm_val dot_S16x512_S512x256_S16x256_1_0_0_1_n_n 512 rfl rfl k
  have el : dot_S16x512_S512x256_S16x256_1_0_0_1_n_n.lhsIdx (ix2 p j) ((contrEquiv1 dot_S16x512_S512x256_S16x256_1_0_0_1_n_n 512 rfl rfl).symm k) = ix2 p k := funext fun a => Fin.ext (by
    match a with
    | ⟨0, _⟩ => exact lhs_pred_0 _ _
    | ⟨1, _⟩ => exact (lhs_pred_1 _ _).trans hk)
  have er : dot_S16x512_S512x256_S16x256_1_0_0_1_n_n.rhsIdx (ix2 p j) ((contrEquiv1 dot_S16x512_S512x256_S16x256_1_0_0_1_n_n 512 rfl rfl).symm k) = ix2 k j := funext fun a => Fin.ext (by
    match a with
    | ⟨0, _⟩ => exact (rhs_pred_0 _ _).trans hk
    | ⟨1, _⟩ => exact rhs_pred_1 _ _)
  rw [el, er]

/-- The prediction head's block at (p, j): the row of the concatenation against row j of the weights, plus the bias. -/
theorem k0_pay4_apply (c : FVec Ideal S16x512 .f32) (W : Vec Ideal S256x512 .f32) (b : Vec Ideal S256 .f32)
    (p : Fin 16) (j : Fin 256) :
    k0_pay4 c W b (ix2 p j) = (∑ k : Fin 512, c (ix2 p k) * W (ix2 j k)) + b (ix1 j) := by
  unfold k0_pay4
  rw [addf_apply, predDot_apply, broadcastTo_1b_ab_apply, shapeCast_a_1a_apply]
  congr 1
  refine Finset.sum_congr rfl fun k _ => ?_
  rw [transpose_ix2_apply]

/-! ## The time gate's product on the kernel side: a contraction of extent one -/

theorem lhs_gate_0 (i : S16x128.Idx) (q : dot_S16x1_S1x128_S16x128_1_0_0_1_n_n.contr.Idx) :
    (dot_S16x1_S1x128_S16x128_1_0_0_1_n_n.lhsIdx i q 0).val = (i 0).val := by
  unfold DotDims.lhsIdx
  rw [dif_neg (show ¬(0 : Fin S16x1.rank) ∈ dot_S16x1_S1x128_S16x128_1_0_0_1_n_n.lhsBatch by decide), dif_pos (show (0 : Fin S16x1.rank) ∈ dot_S16x1_S1x128_S16x128_1_0_0_1_n_n.lhsNonContracting by decide)]
  rfl
theorem lhs_gate_1 (i : S16x128.Idx) (q : dot_S16x1_S1x128_S16x128_1_0_0_1_n_n.contr.Idx) :
    (dot_S16x1_S1x128_S16x128_1_0_0_1_n_n.lhsIdx i q 1).val = (q ⟨0, by decide⟩).val :=
  dot_S16x1_S1x128_S16x128_1_0_0_1_n_n.lhsIdx_val_of_single rfl i q
theorem rhs_gate_0 (i : S16x128.Idx) (q : dot_S16x1_S1x128_S16x128_1_0_0_1_n_n.contr.Idx) :
    (dot_S16x1_S1x128_S16x128_1_0_0_1_n_n.rhsIdx i q 0).val = (q ⟨0, by decide⟩).val :=
  dot_S16x1_S1x128_S16x128_1_0_0_1_n_n.rhsIdx_val_of_single rfl i q
theorem rhs_gate_1 (i : S16x128.Idx) (q : dot_S16x1_S1x128_S16x128_1_0_0_1_n_n.contr.Idx) :
    (dot_S16x1_S1x128_S16x128_1_0_0_1_n_n.rhsIdx i q 1).val = (i 1).val := by
  unfold DotDims.rhsIdx
  rw [dif_neg (show ¬(1 : Fin S1x128.rank) ∈ dot_S16x1_S1x128_S16x128_1_0_0_1_n_n.rhsBatch by decide), dif_pos (show (1 : Fin S1x128.rank) ∈ dot_S16x1_S1x128_S16x128_1_0_0_1_n_n.rhsNonContracting by decide)]
  rfl

/-- The [16, 1] × [1, 128] product into a zero accumulator, at (p, q): a sum of one term. -/
theorem gateDot_apply (x : FVec Ideal S16x1 .f32) (w : FVec Ideal S1x128 .f32) (p : Fin 16) (q : Fin 128) :
    matmul dot_S16x1_S1x128_S16x128_1_0_0_1_n_n none x w (constant S16x128 .f32 0x00000000#32) (ix2 p q)
      = ∑ k : Fin 1, x (ix2 p k) * w (ix2 k q) := by
  refine (Ideal.matmul_constant_zero_apply _ _ _ _ _).trans ?_
  rw [← Equiv.sum_comp (contrEquiv1 dot_S16x1_S1x128_S16x128_1_0_0_1_n_n 1 rfl rfl).symm]
  refine Finset.sum_congr rfl fun k _ => ?_
  have hk := contrEquiv1_symm_val dot_S16x1_S1x128_S16x128_1_0_0_1_n_n 1 rfl rfl k
  have el : dot_S16x1_S1x128_S16x128_1_0_0_1_n_n.lhsIdx (ix2 p q) ((contrEquiv1 dot_S16x1_S1x128_S16x128_1_0_0_1_n_n 1 rfl rfl).symm k) = ix2 p k := funext fun a => Fin.ext (by
    match a with
    | ⟨0, _⟩ => exact lhs_gate_0 _ _
    | ⟨1, _⟩ => exact (lhs_gate_1 _ _).trans hk)
  have er : dot_S16x1_S1x128_S16x128_1_0_0_1_n_n.rhsIdx (ix2 p q) ((contrEquiv1 dot_S16x1_S1x128_S16x128_1_0_0_1_n_n 1 rfl rfl).symm k) = ix2 k q := funext fun a => Fin.ext (by
    match a with
    | ⟨0, _⟩ => exact (rhs_gate_0 _ _).trans hk
    | ⟨1, _⟩ => exact rhs_gate_1 _ _)
  rw [el, er]

/-! ## The concatenated block on the kernel side, piece by piece -/

/-- The gated user embedding: entry (p, q) of the first piece. -/
def gatedU (u : FVec Ideal S16x128 .f32) (t : Vec Ideal S16x1 .f32) (tdW : Vec Ideal S128x1 .f32) (tdb : Vec Ideal S128 .f32)
    (p : Fin 16) (q : Fin 128) : EReal :=
  u (ix2 p q) * ((Ideal.ofBits .f32 0x3F800000#32 + ∑ k : Fin 1, t (ix2 p k) * tdW (ix2 q k)) + tdb (ix1 q))

/-- The previous item's embedding: entry (p, q) of the second piece. -/
def embOf (f : Vec Ideal S16x1 .f32) (init : Vec Ideal S1x128 .f32) (dyn : Vec Ideal S16x128 .f32) (p : Fin 16) (q : Fin 128) : EReal :=
  f (ix2 p (0 : Fin 1)) * init (ix2 (0 : Fin 1) q) + dyn (ix2 p q)

/-- The concatenated block at (p, 128·c + q). -/
theorem k0_pay3_apply (u : FVec Ideal S16x128 .f32) (f : Vec Ideal S16x1 .f32) (init : Vec Ideal S1x128 .f32)
    (dyn stU stI : Vec Ideal S16x128 .f32) (t : Vec Ideal S16x1 .f32) (tdW : Vec Ideal S128x1 .f32) (tdb : Vec Ideal S128 .f32)
    (p : Fin 16) (k : Fin 512) (c : ℕ) (hc : c < 4) (q : Fin 128) (hk : k.val = 128 * c + q.val) :
    k0_pay3 u f init dyn stU stI t tdW tdb (ix2 p k)
      = ([gatedU u t tdW tdb p q, embOf f init dyn p q, stI (ix2 p q), stU (ix2 p q)][c]'hc) := by
  unfold k0_pay3
  refine (concat4_apply _ _ _ _ _ p k c hc q hk).trans ?_
  interval_cases c
  · show mulf u _ (ix2 p q) = gatedU u t tdW tdb p q
    rw [mulf_apply, addf_apply, addf_apply, broadcast_apply, gateDot_apply, broadcastTo_1b_ab_apply, shapeCast_a_1a_apply]
    unfold gatedU
    congr 3
    refine Finset.sum_congr rfl fun k _ => ?_
    rw [transpose_ix2_apply]
  · show addf (_ : FVec Ideal S16x128 .f32) dyn (ix2 p q) = embOf f init dyn p q
    rw [addf_apply, mulf_apply, Emb.broadcastTo_a1_ab_apply, broadcastTo_1b_ab_apply]
    rfl
  · rfl
  · rfl

end Kernel

section Reference

open Cert.ReferenceIdeal Cert.ReferenceIdeal.Gen Cert.ReferenceIdeal.Read

/-! ## The reference's stages at an index -/

/-- The time gate 1 + t_pi · td_Wᵀ + td_b at (i, q). -/
theorem ref_gate_apply (x3 : (⟨S4096x1, .f32⟩ : BufTy).Contents (Elt Ideal)) (x23 : (⟨S128x1, .f32⟩ : BufTy).Contents (Elt Ideal))
    (x24 : (⟨S128, .f32⟩ : BufTy).Contents (Elt Ideal)) (i : Fin 4096) (q : Fin 128) :
    val_main_v81 (F := Ideal) x3 x23 x24 (ix2 i q)
      = (Ideal.ofBits .f32 0x3F800000#32 + ∑ k : Fin 1, x3 (ix2 i k) * x23 (ix2 q k)) + x24 (ix1 q) := by
  have e1 : ∀ k : Fin 1, lidx_main_v76 (ix2 i q) k = ix2 i k := fun k => funext fun a => Fin.ext (by
    match a with | ⟨0, _⟩ => rfl | ⟨1, _⟩ => rfl)
  have e2 : ∀ k : Fin 1, idx_main_v75 (ridx_main_v76 (ix2 i q) k) = ix2 q k := fun k => funext fun a => Fin.ext (by
    match a with | ⟨0, _⟩ => rfl | ⟨1, _⟩ => rfl)
  have e3 : idx_main_v79 (idx_main_v80 (ix2 i q)) = ix1 q := funext fun a => Fin.ext (by
    match a with | ⟨0, _⟩ => rfl)
  rw [val_main_v81_apply, val_main_v78_apply, val_main_v77_apply, val_main_cst_apply, val_main_v76_apply, val_main_v80_apply,
    val_main_v79_apply]
  simp only [val_main_v75_apply, e1, e2, e3, Ideal.addf_def, Ideal.ofBits_def]

/-- The previous item's embedding at (i, q): its flag times the initial embedding plus its dynamic row. -/
theorem ref_prevEmb_apply (x1 : (⟨S4096, .i32⟩ : BufTy).Contents (Elt Ideal)) (x6 : (⟨S200000x128, .f32⟩ : BufTy).Contents (Elt Ideal))
    (x8 : (⟨S200000x1, .f32⟩ : BufTy).Contents (Elt Ideal)) (x12 : (⟨S1x128, .f32⟩ : BufTy).Contents (Elt Ideal)) (i : Fin 4096) (q : Fin 128) :
    val_main_v53 (F := Ideal) x1 x6 x8 x12 (ix2 i q)
      = val_main_v42 (F := Ideal) x1 x8 (ix2 i (0 : Fin 1)) * x12 (ix2 (0 : Fin 1) q) + val_main_v52 (F := Ideal) x1 x6 (ix2 i q) := by
  have e1 : idx_main_v43 (ix2 i q) = ix2 i (0 : Fin 1) := funext fun a => Fin.ext (by
    match a with | ⟨0, _⟩ => rfl | ⟨1, _⟩ => rfl)
  have e2 : idx_main_v44 (ix2 i q) = ix2 (0 : Fin 1) q := funext fun a => Fin.ext (by
    match a with | ⟨0, _⟩ => rfl | ⟨1, _⟩ => rfl)
  rw [val_main_v53_apply, val_main_v45_apply, val_main_v43_apply, val_main_v44_apply, e1, e2]
  rfl

/-- The reference's concatenation at (i, 128·c + q). -/
theorem ref_concat_apply (x0 x1 : (⟨S4096, .i32⟩ : BufTy).Contents (Elt Ideal)) (x3 : (⟨S4096x1, .f32⟩ : BufTy).Contents (Elt Ideal))
    (x5 x6 : (⟨S200000x128, .f32⟩ : BufTy).Contents (Elt Ideal)) (x7 x8 : (⟨S200000x1, .f32⟩ : BufTy).Contents (Elt Ideal))
    (x9 x10 : (⟨S200000x128, .f32⟩ : BufTy).Contents (Elt Ideal)) (x11 x12 : (⟨S1x128, .f32⟩ : BufTy).Contents (Elt Ideal))
    (x23 : (⟨S128x1, .f32⟩ : BufTy).Contents (Elt Ideal)) (x24 : (⟨S128, .f32⟩ : BufTy).Contents (Elt Ideal))
    (i : Fin 4096) (k : Fin 512) (c : ℕ) (hc : c < 4) (q : Fin 128) (hk : k.val = 128 * c + q.val) :
    val_main_v83 (F := Ideal) x0 x1 x3 x5 x6 x7 x8 x9 x10 x11 x12 x23 x24 (ix2 i k)
      = ([val_main_v17 (F := Ideal) x0 x5 x7 x11 (ix2 i q)
            * ((Ideal.ofBits .f32 0x3F800000#32 + ∑ k : Fin 1, x3 (ix2 i k) * x23 (ix2 q k)) + x24 (ix1 q)),
          val_main_v42 (F := Ideal) x1 x8 (ix2 i (0 : Fin 1)) * x12 (ix2 (0 : Fin 1) q) + val_main_v52 (F := Ideal) x1 x6 (ix2 i q),
          val_main_v74 (F := Ideal) x1 x10 (ix2 i q), val_main_v60 (F := Ideal) x0 x9 (ix2 i q)][c]'hc) := by
  unfold val_main_v83
  refine (concat4_apply _ _ _ _ _ i k c hc q hk).trans ?_
  interval_cases c
  · show val_main_v82 (F := Ideal) x0 x3 x5 x7 x11 x23 x24 (ix2 i q) = _
    rw [val_main_v82_apply, ref_gate_apply]
    rfl
  · exact ref_prevEmb_apply x1 x6 x8 x12 i q
  · rfl
  · rfl

/-- The reference's prediction at (i, j): row i of the concatenation against row j of the weights, plus the bias. -/
theorem ref_pred_apply (x0 x1 : (⟨S4096, .i32⟩ : BufTy).Contents (Elt Ideal)) (x3 : (⟨S4096x1, .f32⟩ : BufTy).Contents (Elt Ideal))
    (x5 x6 : (⟨S200000x128, .f32⟩ : BufTy).Contents (Elt Ideal)) (x7 x8 : (⟨S200000x1, .f32⟩ : BufTy).Contents (Elt Ideal))
    (x9 x10 : (⟨S200000x128, .f32⟩ : BufTy).Contents (Elt Ideal)) (x11 x12 : (⟨S1x128, .f32⟩ : BufTy).Contents (Elt Ideal))
    (x21 : (⟨S256x512, .f32⟩ : BufTy).Contents (Elt Ideal)) (x22 : (⟨S256, .f32⟩ : BufTy).Contents (Elt Ideal))
    (x23 : (⟨S128x1, .f32⟩ : BufTy).Contents (Elt Ideal)) (x24 : (⟨S128, .f32⟩ : BufTy).Contents (Elt Ideal))
    (i : Fin 4096) (j : Fin 256) :
    val_main_v88 (F := Ideal) x0 x1 x3 x5 x6 x7 x8 x9 x10 x11 x12 x21 x22 x23 x24 (ix2 i j)
      = (∑ k : Fin 512, val_main_v83 (F := Ideal) x0 x1 x3 x5 x6 x7 x8 x9 x10 x11 x12 x23 x24 (ix2 i k) * x21 (ix2 j k)) + x22 (ix1 j) := by
  have e1 : ∀ k : Fin 512, lidx_main_v85 (ix2 i j) k = ix2 i k := fun k => funext fun a => Fin.ext (by
    match a with | ⟨0, _⟩ => rfl | ⟨1, _⟩ => rfl)
  have e2 : ∀ k : Fin 512, idx_main_v84 (ridx_main_v85 (ix2 i j) k) = ix2 j k := fun k => funext fun a => Fin.ext (by
    match a with | ⟨0, _⟩ => rfl | ⟨1, _⟩ => rfl)
  have e3 : idx_main_v86 (idx_main_v87 (ix2 i j)) = ix1 j := funext fun a => Fin.ext (by
    match a with | ⟨0, _⟩ => rfl)
  rw [val_main_v88_apply, val_main_v85_apply, val_main_v87_apply, val_main_v86_apply]
  simp only [val_main_v84_apply, e1, e2, e3, Ideal.addf_def]

end Reference

end Cert.Proof.Bridge.Pred

namespace Cert.Proof.Bridge

open Idealize.ShloMosaic Idealize.ShloMosaic.ValueIdx

/-! ## The kernel's concatenated block at a row of the batch -/

section Blocks
open Cert.KernelIdeal Cert.KernelIdeal.Spec

/-- Row i of the kernel's concatenation, at column 128·c + q: the gated user embedding, the previous item's embedding,
    the previous item's static row, the user's static row. -/
theorem concatBlk_at (A : Args Ideal) (i : Fin 4096) (h1 : i.val / 16 < 256) (h2 : i.val % 16 < 16)
    (k : Fin 512) (c : ℕ) (hc : c < 4) (q : Fin 128) (hk : k.val = 128 * c + q.val) :
    concatBlk A ⟨i.val / 16, h1⟩ (ix2 ⟨i.val % 16, h2⟩ k)
      = ([userEmb A (ix2 i q)
            * ((Ideal.ofBits .f32 0x3F800000#32 + ∑ k : Fin 1, A.tpi (ix2 i k) * A.tdW (ix2 q k)) + A.tdb (ix1 q)),
          A.isI (ix2 (A.pid i) (0 : Fin 1)) * A.initI (ix2 (0 : Fin 1) q) + A.dynI (ix2 (A.pid i) q),
          A.statI (ix2 (A.pid i) q), A.statU (ix2 (A.uid i) q)][c]'hc) := by
  unfold concatBlk
  rw [Pred.k0_pay3_apply _ _ _ _ _ _ _ _ _ _ k c hc q hk]
  interval_cases c
  · show Pred.gatedU (userEmbBlk A ⟨i.val / 16, h1⟩) (block1 A.tpi ⟨i.val / 16, h1⟩) A.tdW A.tdb ⟨i.val % 16, h2⟩ q = _
    unfold Pred.gatedU
    simp only [block1_at]
    rfl
  · show Pred.embOf (gather1 A.isI A.pid ⟨i.val / 16, h1⟩) A.initI (gather128 A.dynI A.pid ⟨i.val / 16, h1⟩) ⟨i.val % 16, h2⟩ q = _
    unfold Pred.embOf
    rw [gather1_at, gather128_at]
    rfl
  · exact gather128_at A.statI A.pid i q h1 h2
  · exact gather128_at A.statU A.uid i q h1 h2

end Blocks

/-! ## The reference's item_pred is the kernel's -/

section Arrays
open Cert.KernelIdeal Cert.KernelIdeal.Spec

variable (a0 a1 a2 : IVec S4096 32)
  (h0 : ∀ j : S4096.Idx, (a0 j).toNat < 200000) (h1 : ∀ j : S4096.Idx, (a1 j).toNat < 200000)
  (h2 : ∀ j : S4096.Idx, (a2 j).toNat < 200000)
  (a3 a4 : Vec Ideal S4096x1 .f32) (a5 a6 : Vec Ideal S200000x128 .f32) (a7 a8 : Vec Ideal S200000x1 .f32)
  (a9 a10 : Vec Ideal S200000x128 .f32) (a11 a12 : Vec Ideal S1x128 .f32) (a13 : Vec Ideal S128x129 .f32)
  (a14 : Vec Ideal S128x128 .f32) (a15 a16 : Vec Ideal S128 .f32) (a17 : Vec Ideal S128x129 .f32)
  (a18 : Vec Ideal S128x128 .f32) (a19 a20 : Vec Ideal S128 .f32) (a21 : Vec Ideal S256x512 .f32)
  (a22 : Vec Ideal S256 .f32) (a23 : Vec Ideal S128x1 .f32) (a24 : Vec Ideal S128 .f32)

/-- item_pred. -/
theorem ref_itemPred :
    Cert.ReferenceIdeal.Read.val_main_v88 (F := Ideal) a0 a1 a3 a5 a6 a7 a8 a9 a10 a11 a12 a21 a22 a23 a24
      = itemPred (Args.ofMem a0 a1 a2 h0 h1 h2 a3 a4 a5 a6 a7 a8 a9 a10 a11 a12 a13 a14 a15 a16 a17 a18 a19 a20 a21 a22
          a23 a24) := by
  funext y
  obtain ⟨i, j, rfl⟩ : ∃ (i : Fin 4096) (j : Fin 256), y = ix2 i j := ⟨y 0, y 1, eq_ix2 y⟩
  have hi := i.isLt
  rw [Pred.ref_pred_apply]
  show _ = itemPredBlk (Args.ofMem a0 a1 a2 h0 h1 h2 a3 a4 a5 a6 a7 a8 a9 a10 a11 a12 a13 a14 a15 a16 a17 a18 a19 a20 a21 a22
    a23 a24) ⟨i.val / 16, by omega⟩ (ix2 ⟨i.val % 16, by omega⟩ j)
  unfold itemPredBlk
  rw [Pred.k0_pay4_apply]
  refine congrArg₂ (· + ·) (Finset.sum_congr rfl fun k _ => congrArg (· * _) ?_) rfl
  obtain ⟨c, hc, q, hk⟩ : ∃ c : ℕ, c < 4 ∧ ∃ q : Fin 128, k.val = 128 * c + q.val :=
    ⟨k.val / 128, by have := k.isLt; omega, ⟨k.val % 128, Nat.mod_lt _ (by decide)⟩, by
      show k.val = 128 * (k.val / 128) + k.val % 128
      omega⟩
  rw [Pred.ref_concat_apply a0 a1 a3 a5 a6 a7 a8 a9 a10 a11 a12 a23 a24 i k c hc q hk,
    concatBlk_at _ i _ _ k c hc q hk]
  interval_cases c
  · exact congrArg (· * _) (congrFun (ref_userEmb a0 a1 a2 h0 h1 h2 a3 a4 a5 a6 a7 a8 a9 a10 a11 a12 a13 a14 a15 a16 a17 a18
      a19 a20 a21 a22 a23 a24) (ix2 i q))
  · show Cert.ReferenceIdeal.Read.val_main_v42 (F := Ideal) a1 a8 (ix2 i (0 : Fin 1)) * a12 (ix2 (0 : Fin 1) q)
        + Cert.ReferenceIdeal.Read.val_main_v52 (F := Ideal) a1 a6 (ix2 i q) = _
    rw [gather_v42 a1 h1 a8 i 0, gather_v52 a1 h1 a6 i q]
    rfl
  · exact gather_v74 a1 h1 a10 i q
  · exact gather_v60 a0 h0 a9 i q

end Arrays

end Cert.Proof.Bridge

end
-- ==== Proof.Bridge.Cells.lean ====
/- The two recurrent cells of the first region, kernel against reference, at the extended reals.
   Both sides compute, for batch row r and column j,
     tanh( Σ_{k<129} x[r,k] · Wih[j,k] + bih[j] + Σ_{k<128} h[r,k] · Whh[j,k] + bhh[j] ),
   added in this order, where for the user cell x = [item_emb | t_pi] (129 columns) and h = user_emb, and for the item
   cell x = [user_emb | t_pu] and h = item_emb. The kernel forms the products block by block (16 rows of the batch at a
   grid point) as matrix products with the transposed weights into a zero accumulator; the reference forms them over
   the whole batch as general dot products. Read at an entry, each product is the same finite sum, term by term; the
   biases are broadcast rows on both sides; tanh is one function on both sides. No finiteness of the floats is used:
   the sums are matched term by term and in the same association. -/
import proofs.«423553_j10307921510829_1_alg».proof.Proof.KI.Spec
import proofs.«423553_j10307921510829_1_alg».proof.Proof.Gen.ReferenceIdeal.Read
import proofs.«423553_j10307921510829_1_alg».proof.Proof.Bridge.Emb
import Idealize.ShloMosaic.Lib.ValueIdx
import Idealize.ShloMosaic.Lib.ValueLayout
import Idealize.ShloMosaic.Lib.Pipeline.Value
import Idealize.ShloMosaic.PureOps.Ideal.Laws

noncomputable section

namespace Cert.Proof.Bridge

open Idealize.ShloMosaic Idealize.ShloMosaic.ValueIdx
open scoped BigOperators

/-! ## One cell entry, as a function of a row of inputs -/

/-- The 129 inputs of a cell's first product: the 128 entries of an embedding row, then the time entry. -/
def cellRow (e : Fin 128 → EReal) (t : EReal) (k : Fin 129) : EReal :=
  if h : k.val < 128 then e ⟨k.val, h⟩ else t

/-- One entry of a recurrent cell: tanh of x · Wihᵀ + bih + h · Whhᵀ + bhh at column j, added in this order. -/
def cellAt (x : Fin 129 → EReal) (h : Fin 128 → EReal) (Wih : Fin 128 → Fin 129 → EReal) (bih : Fin 128 → EReal)
    (Whh : Fin 128 → Fin 128 → EReal) (bhh : Fin 128 → EReal) (j : Fin 128) : EReal :=
  Ideal.tanh ((∑ k : Fin 129, x k * Wih j k) + bih j + (∑ k : Fin 128, h k * Whh j k) + bhh j)

/-- A block of 128 columns joined with one of a single column reads, at column k, the first block below 128 and the
    second at 128. -/
theorem cell_concat_apply {n : Nat} (x₁ : (⟨2, ![n, 128]⟩ : Shape).Idx → EReal) (x₂ : (⟨2, ![n, 1]⟩ : Shape).Idx → EReal)
    (h : Shape.Concatenates [⟨2, ![n, 128]⟩, ⟨2, ![n, 1]⟩] ⟨2, ![n, 129]⟩ 1) (r : Fin n) (k : Fin 129) :
    concatenate ⟨2, ![n, 129]⟩ 1 [⟨⟨2, ![n, 128]⟩, x₁⟩, ⟨⟨2, ![n, 1]⟩, x₂⟩] h (ix2 r k)
      = cellRow (fun c => x₁ (ix2 r c)) (x₂ (ix2 r (0 : Fin 1))) k := by
  unfold cellRow
  split
  · next hk =>
    exact concatenate_pair_apply_left 1 x₁ x₂ h (ix2 r k) rfl (ix2 r ⟨k.val, hk⟩)
      (fun b => match b with | ⟨0, _⟩ => rfl | ⟨1, _⟩ => rfl)
  · next hk =>
    refine concatenate_pair_apply_right 1 x₁ x₂ h (ix2 r k) rfl rfl (ix2 r (0 : Fin 1))
      (fun b hb => match b, hb with | ⟨0, _⟩, _ => rfl | ⟨1, _⟩, hb => absurd rfl hb) ?_
    show 0 + 128 = k.val
    have := k.isLt
    omega

/-! ## The kernel's side: a block's cell at an entry -/

section Kernel
open Cert.KernelIdeal Cert.KernelIdeal.Gen

/- The operand indices of the first product (16×129 by 129×128), axis by axis. -/
theorem cell_lhs_ih_0 (i : S16x128.Idx) (q : dot_S16x129_S129x128_S16x128_1_0_0_1_n_n.contr.Idx) :
    (dot_S16x129_S129x128_S16x128_1_0_0_1_n_n.lhsIdx i q 0).val = (i 0).val := by
  unfold DotDims.lhsIdx
  rw [dif_neg (show ¬(0 : Fin S16x129.rank) ∈ dot_S16x129_S129x128_S16x128_1_0_0_1_n_n.lhsBatch by decide), dif_pos (show (0 : Fin S16x129.rank) ∈ dot_S16x129_S129x128_S16x128_1_0_0_1_n_n.lhsNonContracting by decide)]
  rfl
theorem cell_lhs_ih_1 (i : S16x128.Idx) (q : dot_S16x129_S129x128_S16x128_1_0_0_1_n_n.contr.Idx) :
    (dot_S16x129_S129x128_S16x128_1_0_0_1_n_n.lhsIdx i q 1).val = (q ⟨0, by decide⟩).val :=
  dot_S16x129_S129x128_S16x128_1_0_0_1_n_n.lhsIdx_val_of_single rfl i q
theorem cell_rhs_ih_0 (i : S16x128.Idx) (q : dot_S16x129_S129x128_S16x128_1_0_0_1_n_n.contr.Idx) :
    (dot_S16x129_S129x128_S16x128_1_0_0_1_n_n.rhsIdx i q 0).val = (q ⟨0, by decide⟩).val :=
  dot_S16x129_S129x128_S16x128_1_0_0_1_n_n.rhsIdx_val_of_single rfl i q
theorem cell_rhs_ih_1 (i : S16x128.Idx) (q : dot_S16x129_S129x128_S16x128_1_0_0_1_n_n.contr.Idx) :
    (dot_S16x129_S129x128_S16x128_1_0_0_1_n_n.rhsIdx i q 1).val = (i 1).val := by
  unfold DotDims.rhsIdx
  rw [dif_neg (show ¬(1 : Fin S129x128.rank) ∈ dot_S16x129_S129x128_S16x128_1_0_0_1_n_n.rhsBatch by decide), dif_pos (show (1 : Fin S129x128.rank) ∈ dot_S16x129_S129x128_S16x128_1_0_0_1_n_n.rhsNonContracting by decide)]
  rfl

/-- The kernel's first product, into a zero accumulator, at an entry: the sum over the 129 joined columns. -/
theorem cell_matmul_ih_apply (L : FVec Ideal S16x129 .f32) (R : FVec Ideal S129x128 .f32) (p : Fin 16) (j : Fin 128) :
    matmul dot_S16x129_S129x128_S16x128_1_0_0_1_n_n none L R (constant (F := Ideal) S16x128 .f32 0x00000000#32) (ix2 p j)
      = ∑ k : Fin 129, L (ix2 p k) * R (ix2 k j) := by
  simp only [matmul]
  rw [Ideal.matmul_constant_zero_apply, ← Equiv.sum_comp (ValueIdx.contrEquiv1 dot_S16x129_S129x128_S16x128_1_0_0_1_n_n 129 rfl rfl).symm]
  refine Finset.sum_congr rfl fun k _ => ?_
  have hk := ValueIdx.contrEquiv1_symm_val dot_S16x129_S129x128_S16x128_1_0_0_1_n_n 129 rfl rfl k
  have el : dot_S16x129_S129x128_S16x128_1_0_0_1_n_n.lhsIdx (ix2 p j) ((ValueIdx.contrEquiv1 dot_S16x129_S129x128_S16x128_1_0_0_1_n_n 129 rfl rfl).symm k) = ix2 p k := funext fun a => Fin.ext (by
    match a with
    | ⟨0, _⟩ => exact cell_lhs_ih_0 _ _
    | ⟨1, _⟩ => exact (cell_lhs_ih_1 _ _).trans hk)
  have er : dot_S16x129_S129x128_S16x128_1_0_0_1_n_n.rhsIdx (ix2 p j) ((ValueIdx.contrEquiv1 dot_S16x129_S129x128_S16x128_1_0_0_1_n_n 129 rfl rfl).symm k) = ix2 k j := funext fun a => Fin.ext (by
    match a with
    | ⟨0, _⟩ => exact (cell_rhs_ih_0 _ _).trans hk
    | ⟨1, _⟩ => exact cell_rhs_ih_1 _ _)
  rw [el, er]

/- The operand indices of the second product (16×128 by 128×128), axis by axis. -/
theorem cell_lhs_hh_0 (i : S16x128.Idx) (q : dot_S16x128_S128x128_S16x128_1_0_0_1_n_n.contr.Idx) :
    (dot_S16x128_S128x128_S16x128_1_0_0_1_n_n.lhsIdx i q 0).val = (i 0).val := by
  unfold DotDims.lhsIdx
  rw [dif_neg (show ¬(0 : Fin S16x128.rank) ∈ dot_S16x128_S128x128_S16x128_1_0_0_1_n_n.lhsBatch by decide), dif_pos (show (0 : Fin S16x128.rank) ∈ dot_S16x128_S128x128_S16x128_1_0_0_1_n_n.lhsNonContracting by decide)]
  rfl
theorem cell_lhs_hh_1 (i : S16x128.Idx) (q : dot_S16x128_S128x128_S16x128_1_0_0_1_n_n.contr.Idx) :
    (dot_S16x128_S128x128_S16x128_1_0_0_1_n_n.lhsIdx i q 1).val = (q ⟨0, by decide⟩).val :=
  dot_S16x128_S128x128_S16x128_1_0_0_1_n_n.lhsIdx_val_of_single rfl i q
theorem cell_rhs_hh_0 (i : S16x128.Idx) (q : dot_S16x128_S128x128_S16x128_1_0_0_1_n_n.contr.Idx) :
    (dot_S16x128_S128x128_S16x128_1_0_0_1_n_n.rhsIdx i q 0).val = (q ⟨0, by decide⟩).val :=
  dot_S16x128_S128x128_S16x128_1_0_0_1_n_n.rhsIdx_val_of_single rfl i q
theorem cell_rhs_hh_1 (i : S16x128.Idx) (q : dot_S16x128_S128x128_S16x128_1_0_0_1_n_n.contr.Idx) :
    (dot_S16x128_S128x128_S16x128_1_0_0_1_n_n.rhsIdx i q 1).val = (i 1).val := by
  unfold DotDims.rhsIdx
  rw [dif_neg (show ¬(1 : Fin S128x128.rank) ∈ dot_S16x128_S128x128_S16x128_1_0_0_1_n_n.rhsBatch by decide), dif_pos (show (1 : Fin S128x128.rank) ∈ dot_S16x128_S128x128_S16x128_1_0_0_1_n_n.rhsNonContracting by decide)]
  rfl

/-- The kernel's second product, into a zero accumulator, at an entry: the sum over the embedding's 128 columns. -/
theorem cell_matmul_hh_apply (L : FVec Ideal S16x128 .f32) (R : FVec Ideal S128x128 .f32) (p : Fin 16) (j : Fin 128) :
    matmul dot_S16x128_S128x128_S16x128_1_0_0_1_n_n none L R (constant (F := Ideal) S16x128 .f32 0x00000000#32) (ix2 p j)
      = ∑ k : Fin 128, L (ix2 p k) * R (ix2 k j) := by
  simp only [matmul]
  rw [Ideal.matmul_constant_zero_apply, ← Equiv.sum_comp (ValueIdx.contrEquiv1 dot_S16x128_S128x128_S16x128_1_0_0_1_n_n 128 rfl rfl).symm]
  refine Finset.sum_congr rfl fun k _ => ?_
  have hk := ValueIdx.contrEquiv1_symm_val dot_S16x128_S128x128_S16x128_1_0_0_1_n_n 128 rfl rfl k
  have el : dot_S16x128_S128x128_S16x128_1_0_0_1_n_n.lhsIdx (ix2 p j) ((ValueIdx.contrEquiv1 dot_S16x128_S128x128_S16x128_1_0_0_1_n_n 128 rfl rfl).symm k) = ix2 p k := funext fun a => Fin.ext (by
    match a with
    | ⟨0, _⟩ => exact cell_lhs_hh_0 _ _
    | ⟨1, _⟩ => exact (cell_lhs_hh_1 _ _).trans hk)
  have er : dot_S16x128_S128x128_S16x128_1_0_0_1_n_n.rhsIdx (ix2 p j) ((ValueIdx.contrEquiv1 dot_S16x128_S128x128_S16x128_1_0_0_1_n_n 128 rfl rfl).symm k) = ix2 k j := funext fun a => Fin.ext (by
    match a with
    | ⟨0, _⟩ => exact (cell_rhs_hh_0 _ _).trans hk
    | ⟨1, _⟩ => exact cell_rhs_hh_1 _ _)
  rw [el, er]

/-- The user cell's block at row p, column j: the cell of the row's joined input (item embedding, then the time entry) and
    the row's user embedding. -/
theorem cell_pay6_apply (U I : FVec Ideal S16x128 .f32) (T : Vec Ideal S16x1 .f32) (Wih : Vec Ideal S128x129 .f32)
    (bih : Vec Ideal S128 .f32) (Whh : Vec Ideal S128x128 .f32) (bhh : Vec Ideal S128 .f32) (p : Fin 16) (j : Fin 128) :
    k0_pay6 U I T Wih bih Whh bhh (ix2 p j)
      = cellAt (cellRow (fun c => I (ix2 p c)) (T (ix2 p (0 : Fin 1)))) (fun c => U (ix2 p c))
          (fun a b => Wih (ix2 a b)) (fun a => bih (ix1 a)) (fun a b => Whh (ix2 a b)) (fun a => bhh (ix1 a)) j := by
  have t1 : ∀ k : Fin 129, transpose S129x128 [1, 0] Wih transposes_S128x129_p1_0_S129x128 (ix2 k j) = Wih (ix2 j k) :=
    fun k => transpose_ix2_apply Wih _ k j
  have t2 : ∀ k : Fin 128, transpose S128x128 [1, 0] Whh transposes_S128x128_p1_0_S128x128 (ix2 k j) = Whh (ix2 j k) :=
    fun k => transpose_ix2_apply Whh _ k j
  unfold k0_pay6 cellAt
  simp only [tanh, addf, Ideal.tanh_def, Ideal.addf_def]
  rw [cell_matmul_ih_apply, cell_matmul_hh_apply, broadcastTo_1b_ab_apply, broadcastTo_1b_ab_apply, shapeCast_a_1a_apply,
    shapeCast_a_1a_apply]
  simp only [cell_concat_apply, t1, t2]

/-- The item cell's block likewise, with the roles of the two embeddings exchanged. -/
theorem cell_pay7_apply (U I : FVec Ideal S16x128 .f32) (T : Vec Ideal S16x1 .f32) (Wih : Vec Ideal S128x129 .f32)
    (bih : Vec Ideal S128 .f32) (Whh : Vec Ideal S128x128 .f32) (bhh : Vec Ideal S128 .f32) (p : Fin 16) (j : Fin 128) :
    k0_pay7 U I T Wih bih Whh bhh (ix2 p j)
      = cellAt (cellRow (fun c => U (ix2 p c)) (T (ix2 p (0 : Fin 1)))) (fun c => I (ix2 p c))
          (fun a b => Wih (ix2 a b)) (fun a => bih (ix1 a)) (fun a b => Whh (ix2 a b)) (fun a => bhh (ix1 a)) j := by
  have t1 : ∀ k : Fin 129, transpose S129x128 [1, 0] Wih transposes_S128x129_p1_0_S129x128 (ix2 k j) = Wih (ix2 j k) :=
    fun k => transpose_ix2_apply Wih _ k j
  have t2 : ∀ k : Fin 128, transpose S128x128 [1, 0] Whh transposes_S128x128_p1_0_S128x128 (ix2 k j) = Whh (ix2 j k) :=
    fun k => transpose_ix2_apply Whh _ k j
  unfold k0_pay7 cellAt
  simp only [tanh, addf, Ideal.tanh_def, Ideal.addf_def]
  rw [cell_matmul_ih_apply, cell_matmul_hh_apply, broadcastTo_1b_ab_apply, broadcastTo_1b_ab_apply, shapeCast_a_1a_apply,
    shapeCast_a_1a_apply]
  simp only [cell_concat_apply, t1, t2]

end Kernel

/-! ## The reference's side: a cell of the whole batch at an entry -/

section Reference
open Cert.ReferenceIdeal Cert.ReferenceIdeal.Read

/-- The reference's updated user embedding at row r, column j: the cell of the row's joined input (item embedding,
    then the time since the previous item) and the row's user embedding, over the user cell's weights. -/
theorem cell_ref_user (x0 x2 : (⟨S4096, .i32⟩ : BufTy).Contents (Elt Ideal)) (x3 : (⟨S4096x1, .f32⟩ : BufTy).Contents (Elt Ideal))
    (x5 x6 : (⟨S200000x128, .f32⟩ : BufTy).Contents (Elt Ideal)) (x7 x8 : (⟨S200000x1, .f32⟩ : BufTy).Contents (Elt Ideal))
    (x11 x12 : (⟨S1x128, .f32⟩ : BufTy).Contents (Elt Ideal)) (x13 : (⟨S128x129, .f32⟩ : BufTy).Contents (Elt Ideal))
    (x14 : (⟨S128x128, .f32⟩ : BufTy).Contents (Elt Ideal)) (x15 x16 : (⟨S128, .f32⟩ : BufTy).Contents (Elt Ideal))
    (r : Fin 4096) (j : Fin 128) :
    val_main_v102 (F := Ideal) x0 x2 x3 x5 x6 x7 x8 x11 x12 x13 x14 x15 x16 (ix2 r j)
      = cellAt (cellRow (fun c => val_main_v35 (F := Ideal) x2 x6 x8 x12 (ix2 r c)) (x3 (ix2 r (0 : Fin 1))))
          (fun c => val_main_v17 (F := Ideal) x0 x5 x7 x11 (ix2 r c))
          (fun a b => x13 (ix2 a b)) (fun a => x15 (ix1 a)) (fun a b => x14 (ix2 a b)) (fun a => x16 (ix1 a)) j := by
  have h1 : ∀ k : Fin 129, val_main_v90 (F := Ideal) x2 x3 x6 x8 x12 (lidx_main_v92 (ix2 r j) k) * val_main_v91 (F := Ideal) x13 (ridx_main_v92 (ix2 r j) k)
      = cellRow (fun c => val_main_v35 (F := Ideal) x2 x6 x8 x12 (ix2 r c)) (x3 (ix2 r (0 : Fin 1))) k * x13 (ix2 j k) := by
    intro k
    have e1 : lidx_main_v92 (ix2 r j) k = ix2 r k := funext fun a => Fin.ext (by match a with | ⟨0, _⟩ => rfl | ⟨1, _⟩ => rfl)
    have e2 : idx_main_v91 (ridx_main_v92 (ix2 r j) k) = ix2 j k := funext fun a => Fin.ext (by match a with | ⟨0, _⟩ => rfl | ⟨1, _⟩ => rfl)
    rw [val_main_v91_apply, e1, e2]
    unfold val_main_v90
    rw [cell_concat_apply]
  have h2 : ∀ k : Fin 128, val_main_v17 (F := Ideal) x0 x5 x7 x11 (lidx_main_v97 (ix2 r j) k) * val_main_v96 (F := Ideal) x14 (ridx_main_v97 (ix2 r j) k)
      = val_main_v17 (F := Ideal) x0 x5 x7 x11 (ix2 r k) * x14 (ix2 j k) := by
    intro k
    have e1 : lidx_main_v97 (ix2 r j) k = ix2 r k := funext fun a => Fin.ext (by match a with | ⟨0, _⟩ => rfl | ⟨1, _⟩ => rfl)
    have e2 : idx_main_v96 (ridx_main_v97 (ix2 r j) k) = ix2 j k := funext fun a => Fin.ext (by match a with | ⟨0, _⟩ => rfl | ⟨1, _⟩ => rfl)
    rw [val_main_v96_apply, e1, e2]
  have h3 : idx_main_v93 (idx_main_v94 (ix2 r j)) = ix1 j := funext fun a => Fin.ext (by match a with | ⟨0, _⟩ => rfl)
  have h4 : idx_main_v99 (idx_main_v100 (ix2 r j)) = ix1 j := funext fun a => Fin.ext (by match a with | ⟨0, _⟩ => rfl)
  rw [val_main_v102_apply, val_main_v101_apply, val_main_v98_apply, val_main_v95_apply, val_main_v92_apply,
    val_main_v97_apply, val_main_v94_apply, val_main_v93_apply, val_main_v100_apply, val_main_v99_apply]
  rw [Finset.sum_congr rfl fun k _ => h1 k, Finset.sum_congr rfl fun k _ => h2 k, h3, h4]
  rfl

/-- The reference's updated item embedding at row r, column j: the cell of the row's joined input (user embedding,
    then the time since the previous user) and the row's item embedding, over the item cell's weights. -/
theorem cell_ref_item (x0 x2 : (⟨S4096, .i32⟩ : BufTy).Contents (Elt Ideal)) (x4 : (⟨S4096x1, .f32⟩ : BufTy).Contents (Elt Ideal))
    (x5 x6 : (⟨S200000x128, .f32⟩ : BufTy).Contents (Elt Ideal)) (x7 x8 : (⟨S200000x1, .f32⟩ : BufTy).Contents (Elt Ideal))
    (x11 x12 : (⟨S1x128, .f32⟩ : BufTy).Contents (Elt Ideal)) (x17 : (⟨S128x129, .f32⟩ : BufTy).Contents (Elt Ideal))
    (x18 : (⟨S128x128, .f32⟩ : BufTy).Contents (Elt Ideal)) (x19 x20 : (⟨S128, .f32⟩ : BufTy).Contents (Elt Ideal))
    (r : Fin 4096) (j : Fin 128) :
    val_main_v115 (F := Ideal) x0 x2 x4 x5 x6 x7 x8 x11 x12 x17 x18 x19 x20 (ix2 r j)
      = cellAt (cellRow (fun c => val_main_v17 (F := Ideal) x0 x5 x7 x11 (ix2 r c)) (x4 (ix2 r (0 : Fin 1))))
          (fun c => val_main_v35 (F := Ideal) x2 x6 x8 x12 (ix2 r c))
          (fun a b => x17 (ix2 a b)) (fun a => x19 (ix1 a)) (fun a b => x18 (ix2 a b)) (fun a => x20 (ix1 a)) j := by
  have h1 : ∀ k : Fin 129, val_main_v103 (F := Ideal) x0 x4 x5 x7 x11 (lidx_main_v105 (ix2 r j) k) * val_main_v104 (F := Ideal) x17 (ridx_main_v105 (ix2 r j) k)
      = cellRow (fun c => val_main_v17 (F := Ideal) x0 x5 x7 x11 (ix2 r c)) (x4 (ix2 r (0 : Fin 1))) k * x17 (ix2 j k) := by
    intro k
    have e1 : lidx_main_v105 (ix2 r j) k = ix2 r k := funext fun a => Fin.ext (by match a with | ⟨0, _⟩ => rfl | ⟨1, _⟩ => rfl)
    have e2 : idx_main_v104 (ridx_main_v105 (ix2 r j) k) = ix2 j k := funext fun a => Fin.ext (by match a with | ⟨0, _⟩ => rfl | ⟨1, _⟩ => rfl)
    rw [val_main_v104_apply, e1, e2]
    unfold val_main_v103
    rw [cell_concat_apply]
  have h2 : ∀ k : Fin 128, val_main_v35 (F := Ideal) x2 x6 x8 x12 (lidx_main_v110 (ix2 r j) k) * val_main_v109 (F := Ideal) x18 (ridx_main_v110 (ix2 r j) k)
      = val_main_v35 (F := Ideal) x2 x6 x8 x12 (ix2 r k) * x18 (ix2 j k) := by
    intro k
    have e1 : lidx_main_v110 (ix2 r j) k = ix2 r k := funext fun a => Fin.ext (by match a with | ⟨0, _⟩ => rfl | ⟨1, _⟩ => rfl)
    have e2 : idx_main_v109 (ridx_main_v110 (ix2 r j) k) = ix2 j k := funext fun a => Fin.ext (by match a with | ⟨0, _⟩ => rfl | ⟨1, _⟩ => rfl)
    rw [val_main_v109_apply, e1, e2]
  have h3 : idx_main_v106 (idx_main_v107 (ix2 r j)) = ix1 j := funext fun a => Fin.ext (by match a with | ⟨0, _⟩ => rfl)
  have h4 : idx_main_v112 (idx_main_v113 (ix2 r j)) = ix1 j := funext fun a => Fin.ext (by match a with | ⟨0, _⟩ => rfl)
  rw [val_main_v115_apply, val_main_v114_apply, val_main_v111_apply, val_main_v108_apply, val_main_v105_apply,
    val_main_v110_apply, val_main_v107_apply, val_main_v106_apply, val_main_v113_apply, val_main_v112_apply]
  rw [Finset.sum_congr rfl fun k _ => h1 k, Finset.sum_congr rfl fun k _ => h2 k, h3, h4]
  rfl

end Reference

/-! ## The two sides meet -/

section Assembly
open Cert.KernelIdeal Cert.KernelIdeal.Spec

/-- Row r's entry of a batch column, read through the block of 16 rows that holds the row. -/
theorem cell_block1_at (x : Vec Ideal S4096x1 .f32) (r : Fin 4096) (h1 : r.val / 16 < 256) (h2 : r.val % 16 < 16) :
    block1 x ⟨r.val / 16, h1⟩ (ix2 (⟨r.val % 16, h2⟩ : Fin 16) (0 : Fin 1)) = x (ix2 r (0 : Fin 1)) := by
  unfold block1
  refine congrArg x (funext fun a => ?_)
  match a with
  | ⟨0, _⟩ => exact Fin.ext (by show 16 * (r.val / 16) + r.val % 16 = r.val; omega)
  | ⟨1, _⟩ => rfl

/-- The kernel's updated user embedding at row r, column j, from the rows of the two embeddings. -/
theorem cell_updUser_at (A : Args Ideal) (r : Fin 4096) (j : Fin 128) :
    updUser A (ix2 r j)
      = cellAt (cellRow (fun c => itemEmb A (ix2 r c)) (A.tpi (ix2 r (0 : Fin 1)))) (fun c => userEmb A (ix2 r c))
          (fun a b => A.uWih (ix2 a b)) (fun a => A.ubih (ix1 a)) (fun a b => A.uWhh (ix2 a b)) (fun a => A.ubhh (ix1 a)) j := by
  have h1 : r.val / 16 < 256 := by have := r.isLt; omega
  have h2 : r.val % 16 < 16 := by omega
  show updUserBlk A ⟨r.val / 16, h1⟩ (ix2 (⟨r.val % 16, h2⟩ : Fin 16) j) = _
  unfold updUserBlk
  rw [cell_pay6_apply, cell_block1_at]
  rfl

/-- The kernel's updated item embedding at row r, column j, likewise. -/
theorem cell_updItem_at (A : Args Ideal) (r : Fin 4096) (j : Fin 128) :
    updItem A (ix2 r j)
      = cellAt (cellRow (fun c => userEmb A (ix2 r c)) (A.tpu (ix2 r (0 : Fin 1)))) (fun c => itemEmb A (ix2 r c))
          (fun a b => A.iWih (ix2 a b)) (fun a => A.ibih (ix1 a)) (fun a b => A.iWhh (ix2 a b)) (fun a => A.ibhh (ix1 a)) j := by
  have h1 : r.val / 16 < 256 := by have := r.isLt; omega
  have h2 : r.val % 16 < 16 := by omega
  show updItemBlk A ⟨r.val / 16, h1⟩ (ix2 (⟨r.val % 16, h2⟩ : Fin 16) j) = _
  unfold updItemBlk
  rw [cell_pay7_apply, cell_block1_at]
  rfl

variable (a0 a1 a2 : IVec S4096 32)
  (h0 : ∀ j : S4096.Idx, (a0 j).toNat < 200000) (h1 : ∀ j : S4096.Idx, (a1 j).toNat < 200000) (h2 : ∀ j : S4096.Idx, (a2 j).toNat < 200000)
  (a3 a4 : Vec Ideal S4096x1 .f32) (a5 a6 : Vec Ideal S200000x128 .f32) (a7 a8 : Vec Ideal S200000x1 .f32)
  (a9 a10 : Vec Ideal S200000x128 .f32) (a11 a12 : Vec Ideal S1x128 .f32) (a13 : Vec Ideal S128x129 .f32)
  (a14 : Vec Ideal S128x128 .f32) (a15 a16 : Vec Ideal S128 .f32) (a17 : Vec Ideal S128x129 .f32) (a18 : Vec Ideal S128x128 .f32)
  (a19 a20 : Vec Ideal S128 .f32) (a21 : Vec Ideal S256x512 .f32) (a22 : Vec Ideal S256 .f32) (a23 : Vec Ideal S128x1 .f32)
  (a24 : Vec Ideal S128 .f32)

/-- Given that the two sides agree on the two gathered embeddings, the reference's updated user embedding is the
    kernel's. -/
theorem ref_updUser_of_emb
    (hU : Cert.ReferenceIdeal.Read.val_main_v17 (F := Ideal) a0 a5 a7 a11
      = userEmb (Args.ofMem (F := Ideal) a0 a1 a2 h0 h1 h2 a3 a4 a5 a6 a7 a8 a9 a10 a11 a12 a13 a14 a15 a16 a17 a18 a19 a20 a21 a22 a23 a24))
    (hI : Cert.ReferenceIdeal.Read.val_main_v35 (F := Ideal) a2 a6 a8 a12
      = itemEmb (Args.ofMem (F := Ideal) a0 a1 a2 h0 h1 h2 a3 a4 a5 a6 a7 a8 a9 a10 a11 a12 a13 a14 a15 a16 a17 a18 a19 a20 a21 a22 a23 a24)) :
    Cert.ReferenceIdeal.Read.val_main_v102 (F := Ideal) a0 a2 a3 a5 a6 a7 a8 a11 a12 a13 a14 a15 a16
      = updUser (Args.ofMem (F := Ideal) a0 a1 a2 h0 h1 h2 a3 a4 a5 a6 a7 a8 a9 a10 a11 a12 a13 a14 a15 a16 a17 a18 a19 a20 a21 a22 a23 a24) := by
  funext i
  obtain ⟨r, j, rfl⟩ : ∃ (r : Fin 4096) (j : Fin 128), i = ix2 r j := ⟨i 0, i 1, eq_ix2 i⟩
  rw [cell_ref_user, hU, hI, cell_updUser_at]
  rfl

/-- And the reference's updated item embedding is the kernel's. -/
theorem ref_updItem_of_emb
    (hU : Cert.ReferenceIdeal.Read.val_main_v17 (F := Ideal) a0 a5 a7 a11
      = userEmb (Args.ofMem (F := Ideal) a0 a1 a2 h0 h1 h2 a3 a4 a5 a6 a7 a8 a9 a10 a11 a12 a13 a14 a15 a16 a17 a18 a19 a20 a21 a22 a23 a24))
    (hI : Cert.ReferenceIdeal.Read.val_main_v35 (F := Ideal) a2 a6 a8 a12
      = itemEmb (Args.ofMem (F := Ideal) a0 a1 a2 h0 h1 h2 a3 a4 a5 a6 a7 a8 a9 a10 a11 a12 a13 a14 a15 a16 a17 a18 a19 a20 a21 a22 a23 a24)) :
    Cert.ReferenceIdeal.Read.val_main_v115 (F := Ideal) a0 a2 a4 a5 a6 a7 a8 a11 a12 a17 a18 a19 a20
      = updItem (Args.ofMem (F := Ideal) a0 a1 a2 h0 h1 h2 a3 a4 a5 a6 a7 a8 a9 a10 a11 a12 a13 a14 a15 a16 a17 a18 a19 a20 a21 a22 a23 a24) := by
  funext i
  obtain ⟨r, j, rfl⟩ : ∃ (r : Fin 4096) (j : Fin 128), i = ix2 r j := ⟨i 0, i 1, eq_ix2 i⟩
  rw [cell_ref_item, hU, hI, cell_updItem_at]
  rfl

/-- The reference's updated user embedding is the kernel's: the two gathered embeddings agree on both sides, and the
    cell over them is one function. -/
theorem ref_updUser :
    Cert.ReferenceIdeal.Read.val_main_v102 (F := Ideal) a0 a2 a3 a5 a6 a7 a8 a11 a12 a13 a14 a15 a16
      = updUser (Args.ofMem (F := Ideal) a0 a1 a2 h0 h1 h2 a3 a4 a5 a6 a7 a8 a9 a10 a11 a12 a13 a14 a15 a16 a17 a18 a19 a20 a21 a22 a23 a24) :=
  ref_updUser_of_emb a0 a1 a2 h0 h1 h2 a3 a4 a5 a6 a7 a8 a9 a10 a11 a12 a13 a14 a15 a16 a17 a18 a19 a20 a21 a22 a23 a24
    (ref_userEmb a0 a1 a2 h0 h1 h2 a3 a4 a5 a6 a7 a8 a9 a10 a11 a12 a13 a14 a15 a16 a17 a18 a19 a20 a21 a22 a23 a24)
    (ref_itemEmb a0 a1 a2 h0 h1 h2 a3 a4 a5 a6 a7 a8 a9 a10 a11 a12 a13 a14 a15 a16 a17 a18 a19 a20 a21 a22 a23 a24)

/-- The reference's updated item embedding is the kernel's. -/
theorem ref_updItem :
    Cert.ReferenceIdeal.Read.val_main_v115 (F := Ideal) a0 a2 a4 a5 a6 a7 a8 a11 a12 a17 a18 a19 a20
      = updItem (Args.ofMem (F := Ideal) a0 a1 a2 h0 h1 h2 a3 a4 a5 a6 a7 a8 a9 a10 a11 a12 a13 a14 a15 a16 a17 a18 a19 a20 a21 a22 a23 a24) :=
  ref_updItem_of_emb a0 a1 a2 h0 h1 h2 a3 a4 a5 a6 a7 a8 a9 a10 a11 a12 a13 a14 a15 a16 a17 a18 a19 a20 a21 a22 a23 a24
    (ref_userEmb a0 a1 a2 h0 h1 h2 a3 a4 a5 a6 a7 a8 a9 a10 a11 a12 a13 a14 a15 a16 a17 a18 a19 a20 a21 a22 a23 a24)
    (ref_itemEmb a0 a1 a2 h0 h1 h2 a3 a4 a5 a6 a7 a8 a9 a10 a11 a12 a13 a14 a15 a16 a17 a18 a19 a20 a21 a22 a23 a24)

end Assembly

end Cert.Proof.Bridge

end
-- ==== Proof.Bridge.Scatters.lean ====
/- The reference's four scattered results, as row writes.

   x.at[ids].set(rows) first adds the table's length to a negative id and lays the ids out as a column; for ids below
   200000 (the table's length) nothing is added, so row k of the column is ids[k]. A scatter by such a column whose
   body returns the update writes row k of the update into table row ids[k], for k = 0, 1, …, 4095 in this order, a
   later write to a row replacing an earlier one. The two dynamic tables take the rows of the two updated embeddings,
   which are the kernel's; the two flag columns take the word +0.0 at every written row, and that word is the one the
   kernel's second region stores. Nothing here computes with the floats: every statement says which element lands
   where. -/
import proofs.«423553_j10307921510829_1_alg».proof.Proof.ScatterRows
import proofs.«423553_j10307921510829_1_alg».proof.Proof.Bridge.Emb
import proofs.«423553_j10307921510829_1_alg».proof.Proof.Bridge.Cells
import proofs.«423553_j10307921510829_1_alg».proof.Proof.KI.Spec
import proofs.«423553_j10307921510829_1_alg».proof.Proof.KI.Data1
import proofs.«423553_j10307921510829_1_alg».proof.Proof.Gen.ReferenceIdeal.Read
import Idealize.ShloMosaic.Lib.ValueIdx
import Idealize.ShloMosaic.Lib.Pipeline.Value

noncomputable section

namespace Cert.Proof.Bridge

open Idealize.ShloMosaic Idealize.ShloMosaic.ValueIdx

/-! ## The four index columns

Each is the column jnp makes of an id vector for a table of 200000 rows; for ids below 200000 its row k is ids[k]. -/

section Columns
variable {F : FTy → Type} [FloatOps F]

/-- The column of user ids the scatter into the dynamic user table reads. -/
theorem idxCol_v121 (x : IVec Cert.ReferenceIdeal.S4096 32) (hx : ∀ j, (x j).toNat < 200000) (k : Fin 4096) :
    Cert.ReferenceIdeal.Read.val_main_v121 (F := F) x (ix2 k (0 : Fin 1)) = x (ix1 k) :=
  Emb.wrappedIds_apply x hx _ _ k

theorem idxCol_v121_lt (x : IVec Cert.ReferenceIdeal.S4096 32) (hx : ∀ j, (x j).toNat < 200000) (k : Fin 4096) :
    (Cert.ReferenceIdeal.Read.val_main_v121 (F := F) x (ix2 k (0 : Fin 1))).toNat < 200000 := by
  rw [idxCol_v121 x hx k]
  exact hx _

/-- The column of item ids the scatter into the dynamic item table reads. -/
theorem idxCol_v128 (x : IVec Cert.ReferenceIdeal.S4096 32) (hx : ∀ j, (x j).toNat < 200000) (k : Fin 4096) :
    Cert.ReferenceIdeal.Read.val_main_v128 (F := F) x (ix2 k (0 : Fin 1)) = x (ix1 k) :=
  Emb.wrappedIds_apply x hx _ _ k

theorem idxCol_v128_lt (x : IVec Cert.ReferenceIdeal.S4096 32) (hx : ∀ j, (x j).toNat < 200000) (k : Fin 4096) :
    (Cert.ReferenceIdeal.Read.val_main_v128 (F := F) x (ix2 k (0 : Fin 1))).toNat < 200000 := by
  rw [idxCol_v128 x hx k]
  exact hx _

/-- The column of user ids the scatter into the user flag column reads. -/
theorem idxCol_v135 (x : IVec Cert.ReferenceIdeal.S4096 32) (hx : ∀ j, (x j).toNat < 200000) (k : Fin 4096) :
    Cert.ReferenceIdeal.Read.val_main_v135 (F := F) x (ix2 k (0 : Fin 1)) = x (ix1 k) :=
  Emb.wrappedIds_apply x hx _ _ k

theorem idxCol_v135_lt (x : IVec Cert.ReferenceIdeal.S4096 32) (hx : ∀ j, (x j).toNat < 200000) (k : Fin 4096) :
    (Cert.ReferenceIdeal.Read.val_main_v135 (F := F) x (ix2 k (0 : Fin 1))).toNat < 200000 := by
  rw [idxCol_v135 x hx k]
  exact hx _

/-- The column of item ids the scatter into the item flag column reads. -/
theorem idxCol_v143 (x : IVec Cert.ReferenceIdeal.S4096 32) (hx : ∀ j, (x j).toNat < 200000) (k : Fin 4096) :
    Cert.ReferenceIdeal.Read.val_main_v143 (F := F) x (ix2 k (0 : Fin 1)) = x (ix1 k) :=
  Emb.wrappedIds_apply x hx _ _ k

theorem idxCol_v143_lt (x : IVec Cert.ReferenceIdeal.S4096 32) (hx : ∀ j, (x j).toNat < 200000) (k : Fin 4096) :
    (Cert.ReferenceIdeal.Read.val_main_v143 (F := F) x (ix2 k (0 : Fin 1))).toNat < 200000 := by
  rw [idxCol_v143 x hx k]
  exact hx _

end Columns

/-! ## The zero word

The update of the two flag scatters is the word +0.0 at every index, and the kernel's second region stores the same
word. -/

section Zero
variable {F : FTy → Type} [FloatOps F]

/-- The word the kernel stores into the flag columns is the reference's update at any index (user flags). -/
theorem zeroWord_eq (i : Cert.ReferenceIdeal.S4096x1.Idx) :
    Cert.KernelIdeal.Hand.zeroWord (F := F) = Cert.ReferenceIdeal.Read.val_main_v136 (F := F) i := by
  rw [Cert.ReferenceIdeal.Read.val_main_v136_apply]
  unfold Cert.KernelIdeal.Hand.zeroWord Cert.KernelIdeal.Gen.k1_pay1
  rw [shapeCast_self]
  rfl

/-- The same for the item flags' update. -/
theorem zeroWord_eq_v144 (i : Cert.ReferenceIdeal.S4096x1.Idx) :
    Cert.KernelIdeal.Hand.zeroWord (F := F) = Cert.ReferenceIdeal.Read.val_main_v144 (F := F) i := by
  rw [Cert.ReferenceIdeal.Read.val_main_v144_apply]
  unfold Cert.KernelIdeal.Hand.zeroWord Cert.KernelIdeal.Gen.k1_pay1
  rw [shapeCast_self]
  rfl

/-- The user flags' update is the constant column of the kernel's zero word. -/
theorem val_main_v136_eq_zeroWord :
    Cert.ReferenceIdeal.Read.val_main_v136 (F := F) = fun _ => Cert.KernelIdeal.Hand.zeroWord (F := F) :=
  funext fun i => (zeroWord_eq i).symm

/-- The item flags' update is the constant column of the kernel's zero word. -/
theorem val_main_v144_eq_zeroWord :
    Cert.ReferenceIdeal.Read.val_main_v144 (F := F) = fun _ => Cert.KernelIdeal.Hand.zeroWord (F := F) :=
  funext fun i => (zeroWord_eq_v144 i).symm

end Zero

/-! ## The two flag columns -/

section Flags
open Cert.KernelIdeal
variable {F : FTy → Type} [FloatOps F]
variable (a0 a2 : IVec S4096 32)
  (h0 : ∀ j : S4096.Idx, (a0 j).toNat < 200000) (h2 : ∀ j : S4096.Idx, (a2 j).toNat < 200000)
  (a7 a8 : Vec F S200000x1 .f32)

include h0 in
/-- new_is_user_new: the user flag column with the reference's zero column written at the rows the user ids name. -/
theorem ref_newIsUser :
    Cert.ReferenceIdeal.Read.val_main_v137 (F := F) a0 a7
      = Cert.Proof.ScatterRows.rowsAfter1 a7 (fun k => (a0 (ix1 k)).toNat)
          (Cert.ReferenceIdeal.Read.val_main_v136 (F := F)) 4096 := by
  unfold Cert.ReferenceIdeal.Read.val_main_v137
  rw [Cert.Proof.ScatterRows.scatter1_eq_rows a7 _ _ (idxCol_v135_lt (F := F) a0 h0)]
  exact congrArg (fun ids => Cert.Proof.ScatterRows.rowsAfter1 a7 ids _ 4096)
    (funext fun k => by rw [idxCol_v135 (F := F) a0 h0 k])

include h2 in
/-- new_is_item_new: the item flag column with the reference's zero column written at the rows the item ids name. -/
theorem ref_newIsItem :
    Cert.ReferenceIdeal.Read.val_main_v145 (F := F) a2 a8
      = Cert.Proof.ScatterRows.rowsAfter1 a8 (fun k => (a2 (ix1 k)).toNat)
          (Cert.ReferenceIdeal.Read.val_main_v144 (F := F)) 4096 := by
  unfold Cert.ReferenceIdeal.Read.val_main_v145
  rw [Cert.Proof.ScatterRows.scatter1_eq_rows a8 _ _ (idxCol_v143_lt (F := F) a2 h2)]
  exact congrArg (fun ids => Cert.Proof.ScatterRows.rowsAfter1 a8 ids _ 4096)
    (funext fun k => by rw [idxCol_v143 (F := F) a2 h2 k])

include h0 in
/-- The same with the update written as the kernel's zero word. -/
theorem ref_newIsUser_zeroWord :
    Cert.ReferenceIdeal.Read.val_main_v137 (F := F) a0 a7
      = Cert.Proof.ScatterRows.rowsAfter1 a7 (fun k => (a0 (ix1 k)).toNat)
          (fun _ => Cert.KernelIdeal.Hand.zeroWord (F := F)) 4096 := by
  rw [ref_newIsUser a0 h0 a7, val_main_v136_eq_zeroWord]

include h2 in
theorem ref_newIsItem_zeroWord :
    Cert.ReferenceIdeal.Read.val_main_v145 (F := F) a2 a8
      = Cert.Proof.ScatterRows.rowsAfter1 a8 (fun k => (a2 (ix1 k)).toNat)
          (fun _ => Cert.KernelIdeal.Hand.zeroWord (F := F)) 4096 := by
  rw [ref_newIsItem a2 h2 a8, val_main_v144_eq_zeroWord]

end Flags

/-! ## The two dynamic tables -/

section Tables
open Cert.KernelIdeal Cert.KernelIdeal.Spec

variable (a0 a1 a2 : IVec S4096 32)
  (h0 : ∀ j : S4096.Idx, (a0 j).toNat < 200000) (h1 : ∀ j : S4096.Idx, (a1 j).toNat < 200000)
  (h2 : ∀ j : S4096.Idx, (a2 j).toNat < 200000)
  (a3 a4 : Vec Ideal S4096x1 .f32) (a5 a6 : Vec Ideal S200000x128 .f32) (a7 a8 : Vec Ideal S200000x1 .f32)
  (a9 a10 : Vec Ideal S200000x128 .f32) (a11 a12 : Vec Ideal S1x128 .f32) (a13 : Vec Ideal S128x129 .f32)
  (a14 : Vec Ideal S128x128 .f32) (a15 a16 : Vec Ideal S128 .f32) (a17 : Vec Ideal S128x129 .f32)
  (a18 : Vec Ideal S128x128 .f32) (a19 a20 : Vec Ideal S128 .f32) (a21 : Vec Ideal S256x512 .f32)
  (a22 : Vec Ideal S256 .f32) (a23 : Vec Ideal S128x1 .f32) (a24 : Vec Ideal S128 .f32)

/-- new_dyn_user: the dynamic user table with the kernel's updated user embeddings written row by row at the rows the
    user ids name. -/
theorem ref_newDynUser :
    Cert.ReferenceIdeal.Read.val_main_v122 (F := Ideal) a0 a2 a3 a5 a6 a7 a8 a11 a12 a13 a14 a15 a16
      = Cert.Proof.ScatterRows.rowsAfter128 a5 (fun k => (a0 (ix1 k)).toNat)
          (updUser (Args.ofMem (F := Ideal) a0 a1 a2 h0 h1 h2 a3 a4 a5 a6 a7 a8 a9 a10 a11 a12 a13 a14 a15 a16 a17 a18 a19 a20 a21 a22 a23 a24)) 4096 := by
  unfold Cert.ReferenceIdeal.Read.val_main_v122
  rw [ref_updUser a0 a1 a2 h0 h1 h2 a3 a4 a5 a6 a7 a8 a9 a10 a11 a12 a13 a14 a15 a16 a17 a18 a19 a20 a21 a22 a23 a24,
    Cert.Proof.ScatterRows.scatter128_eq_rows a5 _ _ (idxCol_v121_lt (F := Ideal) a0 h0)]
  exact congrArg (fun ids => Cert.Proof.ScatterRows.rowsAfter128 a5 ids _ 4096)
    (funext fun k => by rw [idxCol_v121 (F := Ideal) a0 h0 k])

/-- new_dyn_item: the dynamic item table with the kernel's updated item embeddings written row by row at the rows the
    item ids name. -/
theorem ref_newDynItem :
    Cert.ReferenceIdeal.Read.val_main_v129 (F := Ideal) a0 a2 a4 a5 a6 a7 a8 a11 a12 a17 a18 a19 a20
      = Cert.Proof.ScatterRows.rowsAfter128 a6 (fun k => (a2 (ix1 k)).toNat)
          (updItem (Args.ofMem (F := Ideal) a0 a1 a2 h0 h1 h2 a3 a4 a5 a6 a7 a8 a9 a10 a11 a12 a13 a14 a15 a16 a17 a18 a19 a20 a21 a22 a23 a24)) 4096 := by
  unfold Cert.ReferenceIdeal.Read.val_main_v129
  rw [ref_updItem a0 a1 a2 h0 h1 h2 a3 a4 a5 a6 a7 a8 a9 a10 a11 a12 a13 a14 a15 a16 a17 a18 a19 a20 a21 a22 a23 a24,
    Cert.Proof.ScatterRows.scatter128_eq_rows a6 _ _ (idxCol_v128_lt (F := Ideal) a2 h2)]
  exact congrArg (fun ids => Cert.Proof.ScatterRows.rowsAfter128 a6 ids _ 4096)
    (funext fun k => by rw [idxCol_v128 (F := Ideal) a2 h2 k])

end Tables

end Cert.Proof.Bridge

end
-- ==== Proof.Claims.lean ====
/- The certificate's five claims, assembled.
   Both kernel programs' frames: under the precondition every id names a table row, so both kernel regions run (the
   gather-and-compute region copies table rows by the ids; the scatter region writes rows back by the ids), and no
   argument array is written: each table the second region overwrites is its own copy.
   The reference's frame: its run, with the result equations dropped.
   Equal results at the ideal instance. The first region's six arrays: block by block, the kernel's payloads of the
   gathered rows are the reference's stages (the gathers take the same rows once jnp's wrap and clamp are idle; the
   matrix products are the same finite sums; tanh is one function on both sides). The four scattered tables: the kernel
   writes the 4096 update rows one after the other in batch order, a later write to a row replacing an earlier one; the
   reference's scatter is the left fold of the same replacements over the update indices in row-major order, which visits
   the rows in the same order; so both are the same table, duplicates included. No finiteness of the floats is used. -/
import proofs.«423553_j10307921510829_1_alg».proof.Defs
import proofs.«423553_j10307921510829_1_alg».proof.Proof.Gen.Kernel
import proofs.«423553_j10307921510829_1_alg».proof.Proof.Gen.KernelIdeal
import proofs.«423553_j10307921510829_1_alg».proof.Proof.Gen.ReferenceIdeal
import proofs.«423553_j10307921510829_1_alg».proof.Proof.Gen.Pre_finite_inputs
import proofs.«423553_j10307921510829_1_alg».proof.Proof.RefFrame
import proofs.«423553_j10307921510829_1_alg».proof.Proof.PreRange
import proofs.«423553_j10307921510829_1_alg».proof.Proof.KI.Final
import proofs.«423553_j10307921510829_1_alg».proof.Proof.KI.Blocks
import proofs.«423553_j10307921510829_1_alg».proof.Proof.KI.Values
import proofs.«423553_j10307921510829_1_alg».proof.Proof.K.Final
import proofs.«423553_j10307921510829_1_alg».proof.Proof.K.Blocks
import proofs.«423553_j10307921510829_1_alg».proof.Proof.Bridge.Emb
import proofs.«423553_j10307921510829_1_alg».proof.Proof.Bridge.Pred
import proofs.«423553_j10307921510829_1_alg».proof.Proof.Bridge.Cells
import proofs.«423553_j10307921510829_1_alg».proof.Proof.Bridge.Scatters

set_option maxRecDepth 16384

noncomputable section

open Idealize.ShloMosaic Idealize.ShloMosaic.TcCoe Idealize.SL.Sem

namespace Cert.Proof.Claims

/-- The word-level kernel's frame. -/
theorem frame_p : Cert.frame_Kernel := fun m ρ hpre =>
  Cert.Kernel.Hand.final_frame m (fun c => Cert.Proof.PreRange.ids_lt (F := Bits) _ _ _ _ _ _ _ _ _ _ _ _ _ _ _ _ _ _ _ _ _ _ _ _ _ (hpre c)) ρ
    (Cert.Kernel.Hand.gather_blocks_at m (fun c => Cert.Proof.PreRange.ids_lt (F := Bits) _ _ _ _ _ _ _ _ _ _ _ _ _ _ _ _ _ _ _ _ _ _ _ _ _ (hpre c)))

/-- The idealized kernel's frame. -/
theorem frame_pi : Cert.frame_KernelIdeal := fun m ρ hpre =>
  Cert.KernelIdeal.Hand.final_frame m (fun c => Cert.Proof.PreRange.ids_lt (F := Ideal) _ _ _ _ _ _ _ _ _ _ _ _ _ _ _ _ _ _ _ _ _ _ _ _ _ (hpre c)) ρ
    (Cert.KernelIdeal.Hand.gather_blocks_at m (fun c => Cert.Proof.PreRange.ids_lt (F := Ideal) _ _ _ _ _ _ _ _ _ _ _ _ _ _ _ _ _ _ _ _ _ _ _ _ _ (hpre c)))

/-- Nothing was rewritten when the kernel was idealized. -/
theorem preserves : Cert.preserves_Kernel_KernelIdeal := trivial

set_option maxHeartbeats 4000000 in
/-- Equal results, element by element, as extended reals. -/
theorem algebraic : Cert.algebraic_KernelIdeal_ReferenceIdeal := by
  intro m ρ m' ρ' hpre hagree
  have h3 : Cert.KernelIdeal.Hand.IdsLt m := fun c => Cert.Proof.PreRange.ids_lt (F := Ideal) _ _ _ _ _ _ _ _ _ _ _ _ _ _ _ _ _ _ _ _ _ _ _ _ _ (hpre c)
  refine ⟨fun c => Cert.KernelIdeal.Spec.itemPred (Cert.KernelIdeal.Hand.argsAt (Cert.KernelIdeal.Hand.U0 m) c (Cert.KernelIdeal.Hand.hids_of m h3 c)),
    fun c => Cert.KernelIdeal.Spec.itemTarget (Cert.KernelIdeal.Hand.argsAt (Cert.KernelIdeal.Hand.U0 m) c (Cert.KernelIdeal.Hand.hids_of m h3 c)),
    fun c => Cert.KernelIdeal.Spec.updUser (Cert.KernelIdeal.Hand.argsAt (Cert.KernelIdeal.Hand.U0 m) c (Cert.KernelIdeal.Hand.hids_of m h3 c)),
    fun c => Cert.KernelIdeal.Spec.userEmb (Cert.KernelIdeal.Hand.argsAt (Cert.KernelIdeal.Hand.U0 m) c (Cert.KernelIdeal.Hand.hids_of m h3 c)),
    fun c => Cert.KernelIdeal.Spec.updItem (Cert.KernelIdeal.Hand.argsAt (Cert.KernelIdeal.Hand.U0 m) c (Cert.KernelIdeal.Hand.hids_of m h3 c)),
    fun c => Cert.KernelIdeal.Spec.itemEmb (Cert.KernelIdeal.Hand.argsAt (Cert.KernelIdeal.Hand.U0 m) c (Cert.KernelIdeal.Hand.hids_of m h3 c)),
    fun c => Cert.Proof.ScatterRows.rowsAfter128 (m ((c.tc : Thread Cert.KernelIdeal.nD Cert.KernelIdeal.τ).loc Cert.KernelIdeal.main_arg5)) (fun k => ((m ((c.tc : Thread Cert.KernelIdeal.nD Cert.KernelIdeal.τ).loc Cert.KernelIdeal.main_arg0)) (Idealize.ShloMosaic.ValueIdx.ix1 k)).toNat) (Cert.KernelIdeal.Spec.updUser (Cert.KernelIdeal.Hand.argsAt (Cert.KernelIdeal.Hand.U0 m) c (Cert.KernelIdeal.Hand.hids_of m h3 c))) 4096,
    fun c => Cert.Proof.ScatterRows.rowsAfter128 (m ((c.tc : Thread Cert.KernelIdeal.nD Cert.KernelIdeal.τ).loc Cert.KernelIdeal.main_arg6)) (fun k => ((m ((c.tc : Thread Cert.KernelIdeal.nD Cert.KernelIdeal.τ).loc Cert.KernelIdeal.main_arg2)) (Idealize.ShloMosaic.ValueIdx.ix1 k)).toNat) (Cert.KernelIdeal.Spec.updItem (Cert.KernelIdeal.Hand.argsAt (Cert.KernelIdeal.Hand.U0 m) c (Cert.KernelIdeal.Hand.hids_of m h3 c))) 4096,
    fun c => Cert.Proof.ScatterRows.rowsAfter1 (m ((c.tc : Thread Cert.KernelIdeal.nD Cert.KernelIdeal.τ).loc Cert.KernelIdeal.main_arg7)) (fun k => ((m ((c.tc : Thread Cert.KernelIdeal.nD Cert.KernelIdeal.τ).loc Cert.KernelIdeal.main_arg0)) (Idealize.ShloMosaic.ValueIdx.ix1 k)).toNat) (fun _ => Cert.KernelIdeal.Hand.zeroWord (F := Ideal)) 4096,
    fun c => Cert.Proof.ScatterRows.rowsAfter1 (m ((c.tc : Thread Cert.KernelIdeal.nD Cert.KernelIdeal.τ).loc Cert.KernelIdeal.main_arg8)) (fun k => ((m ((c.tc : Thread Cert.KernelIdeal.nD Cert.KernelIdeal.τ).loc Cert.KernelIdeal.main_arg2)) (Idealize.ShloMosaic.ValueIdx.ix1 k)).toNat) (fun _ => Cert.KernelIdeal.Hand.zeroWord (F := Ideal)) 4096, ?_, ?_⟩
  · exact (θ_run Cert.KernelIdeal.defs _ _).mono (fun r h c => ⟨
      (h c _ (Cert.KernelIdeal.Hand.mem_uc Cert.KernelIdeal.main_v0_0 (by decide))).trans (Cert.KernelIdeal.Hand.val_v0_0 m (Cert.KernelIdeal.Hand.hids_of m h3) c),
      (h c _ (Cert.KernelIdeal.Hand.mem_uc Cert.KernelIdeal.main_v0_1 (by decide))).trans (Cert.KernelIdeal.Hand.val_v0_1 m (Cert.KernelIdeal.Hand.hids_of m h3) c),
      (h c _ (Cert.KernelIdeal.Hand.mem_uc Cert.KernelIdeal.main_v0_2 (by decide))).trans (Cert.KernelIdeal.Hand.val_v0_2 m (Cert.KernelIdeal.Hand.hids_of m h3) c),
      (h c _ (Cert.KernelIdeal.Hand.mem_uc Cert.KernelIdeal.main_v0_3 (by decide))).trans (Cert.KernelIdeal.Hand.val_v0_3 m (Cert.KernelIdeal.Hand.hids_of m h3) c),
      (h c _ (Cert.KernelIdeal.Hand.mem_uc Cert.KernelIdeal.main_v0_4 (by decide))).trans (Cert.KernelIdeal.Hand.val_v0_4 m (Cert.KernelIdeal.Hand.hids_of m h3) c),
      (h c _ (Cert.KernelIdeal.Hand.mem_uc Cert.KernelIdeal.main_v0_5 (by decide))).trans (Cert.KernelIdeal.Hand.val_v0_5 m (Cert.KernelIdeal.Hand.hids_of m h3) c),
      (h c _ (Cert.KernelIdeal.Hand.mem_uc Cert.KernelIdeal.main_v1_0 (by decide))).trans (Cert.KernelIdeal.Hand.val_v1_0 m (Cert.KernelIdeal.Hand.hids_of m h3) c),
      (h c _ (Cert.KernelIdeal.Hand.mem_uc Cert.KernelIdeal.main_v1_1 (by decide))).trans (Cert.KernelIdeal.Hand.val_v1_1 m (Cert.KernelIdeal.Hand.hids_of m h3) c),
      (h c _ (Cert.KernelIdeal.Hand.mem_uc Cert.KernelIdeal.main_v1_2 (by decide))).trans (Cert.KernelIdeal.Hand.val_v1_2 m (Cert.KernelIdeal.Hand.hids_of m h3) c),
      (h c _ (Cert.KernelIdeal.Hand.mem_uc Cert.KernelIdeal.main_v1_3 (by decide))).trans (Cert.KernelIdeal.Hand.val_v1_3 m (Cert.KernelIdeal.Hand.hids_of m h3) c),
      (h c _ (Cert.KernelIdeal.Hand.mem_uc Cert.KernelIdeal.main_arg0 (by decide))).trans (Cert.KernelIdeal.Gen.V3_main_arg0 m _ c),
      (h c _ (Cert.KernelIdeal.Hand.mem_uc Cert.KernelIdeal.main_arg1 (by decide))).trans (Cert.KernelIdeal.Gen.V3_main_arg1 m _ c),
      (h c _ (Cert.KernelIdeal.Hand.mem_uc Cert.KernelIdeal.main_arg2 (by decide))).trans (Cert.KernelIdeal.Gen.V3_main_arg2 m _ c),
      (h c _ (Cert.KernelIdeal.Hand.mem_uc Cert.KernelIdeal.main_arg3 (by decide))).trans (Cert.KernelIdeal.Gen.V3_main_arg3 m _ c),
      (h c _ (Cert.KernelIdeal.Hand.mem_uc Cert.KernelIdeal.main_arg4 (by decide))).trans (Cert.KernelIdeal.Gen.V3_main_arg4 m _ c),
      (h c _ (Cert.KernelIdeal.Hand.mem_uc Cert.KernelIdeal.main_arg5 (by decide))).trans (Cert.KernelIdeal.Gen.V3_main_arg5 m _ c),
      (h c _ (Cert.KernelIdeal.Hand.mem_uc Cert.KernelIdeal.main_arg6 (by decide))).trans (Cert.KernelIdeal.Gen.V3_main_arg6 m _ c),
      (h c _ (Cert.KernelIdeal.Hand.mem_uc Cert.KernelIdeal.main_arg7 (by decide))).trans (Cert.KernelIdeal.Gen.V3_main_arg7 m _ c),
      (h c _ (Cert.KernelIdeal.Hand.mem_uc Cert.KernelIdeal.main_arg8 (by decide))).trans (Cert.KernelIdeal.Gen.V3_main_arg8 m _ c),
      (h c _ (Cert.KernelIdeal.Hand.mem_uc Cert.KernelIdeal.main_arg9 (by decide))).trans (Cert.KernelIdeal.Gen.V3_main_arg9 m _ c),
      (h c _ (Cert.KernelIdeal.Hand.mem_uc Cert.KernelIdeal.main_arg10 (by decide))).trans (Cert.KernelIdeal.Gen.V3_main_arg10 m _ c),
      (h c _ (Cert.KernelIdeal.Hand.mem_uc Cert.KernelIdeal.main_arg11 (by decide))).trans (Cert.KernelIdeal.Gen.V3_main_arg11 m _ c),
      (h c _ (Cert.KernelIdeal.Hand.mem_uc Cert.KernelIdeal.main_arg12 (by decide))).trans (Cert.KernelIdeal.Gen.V3_main_arg12 m _ c),
      (h c _ (Cert.KernelIdeal.Hand.mem_uc Cert.KernelIdeal.main_arg13 (by decide))).trans (Cert.KernelIdeal.Gen.V3_main_arg13 m _ c),
      (h c _ (Cert.KernelIdeal.Hand.mem_uc Cert.KernelIdeal.main_arg14 (by decide))).trans (Cert.KernelIdeal.Gen.V3_main_arg14 m _ c),
      (h c _ (Cert.KernelIdeal.Hand.mem_uc Cert.KernelIdeal.main_arg15 (by decide))).trans (Cert.KernelIdeal.Gen.V3_main_arg15 m _ c),
      (h c _ (Cert.KernelIdeal.Hand.mem_uc Cert.KernelIdeal.main_arg16 (by decide))).trans (Cert.KernelIdeal.Gen.V3_main_arg16 m _ c),
      (h c _ (Cert.KernelIdeal.Hand.mem_uc Cert.KernelIdeal.main_arg17 (by decide))).trans (Cert.KernelIdeal.Gen.V3_main_arg17 m _ c),
      (h c _ (Cert.KernelIdeal.Hand.mem_uc Cert.KernelIdeal.main_arg18 (by decide))).trans (Cert.KernelIdeal.Gen.V3_main_arg18 m _ c),
      (h c _ (Cert.KernelIdeal.Hand.mem_uc Cert.KernelIdeal.main_arg19 (by decide))).trans (Cert.KernelIdeal.Gen.V3_main_arg19 m _ c),
      (h c _ (Cert.KernelIdeal.Hand.mem_uc Cert.KernelIdeal.main_arg20 (by decide))).trans (Cert.KernelIdeal.Gen.V3_main_arg20 m _ c),
      (h c _ (Cert.KernelIdeal.Hand.mem_uc Cert.KernelIdeal.main_arg21 (by decide))).trans (Cert.KernelIdeal.Gen.V3_main_arg21 m _ c),
      (h c _ (Cert.KernelIdeal.Hand.mem_uc Cert.KernelIdeal.main_arg22 (by decide))).trans (Cert.KernelIdeal.Gen.V3_main_arg22 m _ c),
      (h c _ (Cert.KernelIdeal.Hand.mem_uc Cert.KernelIdeal.main_arg23 (by decide))).trans (Cert.KernelIdeal.Gen.V3_main_arg23 m _ c),
      (h c _ (Cert.KernelIdeal.Hand.mem_uc Cert.KernelIdeal.main_arg24 (by decide))).trans (Cert.KernelIdeal.Gen.V3_main_arg24 m _ c)⟩)
      (Cert.KernelIdeal.Hand.final_run m h3 ρ (Cert.KernelIdeal.Hand.gather_blocks_at m h3))
  · exact (θ_run Cert.ReferenceIdeal.defs _ _).mono (fun r h c => ⟨
      ((h c).1.trans ((Cert.ReferenceIdeal.Read.val_main_v88_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24))).trans
        (by rw [(hagree c).1, (hagree c).2.1, (hagree c).2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]; exact Cert.Proof.Bridge.ref_itemPred (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (h3 c).1 (h3 c).2.1 (h3 c).2.2 (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))))),
      ((h c).2.1.trans ((Cert.ReferenceIdeal.Read.val_main_v89_eq (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg12))).trans
        (by rw [(hagree c).2.2.1, (hagree c).2.2.2.2.2.2.1, (hagree c).2.2.2.2.2.2.2.2.1, (hagree c).2.2.2.2.2.2.2.2.2.2.1, (hagree c).2.2.2.2.2.2.2.2.2.2.2.2.1]; exact Cert.Proof.Bridge.ref_itemTarget (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (h3 c).1 (h3 c).2.1 (h3 c).2.2 (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))))),
      ((h c).2.2.1.trans ((Cert.ReferenceIdeal.Read.val_main_v102_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))).trans
        (by rw [(hagree c).1, (hagree c).2.2.1, (hagree c).2.2.2.1, (hagree c).2.2.2.2.2.1, (hagree c).2.2.2.2.2.2.1, (hagree c).2.2.2.2.2.2.2.1, (hagree c).2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1]; exact Cert.Proof.Bridge.ref_updUser (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (h3 c).1 (h3 c).2.1 (h3 c).2.2 (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))))),
      ((h c).2.2.2.1.trans ((Cert.ReferenceIdeal.Read.val_main_v17_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg11))).trans
        (by rw [(hagree c).1, (hagree c).2.2.2.2.2.1, (hagree c).2.2.2.2.2.2.2.1, (hagree c).2.2.2.2.2.2.2.2.2.2.2.1]; exact Cert.Proof.Bridge.ref_userEmb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (h3 c).1 (h3 c).2.1 (h3 c).2.2 (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))))),
      ((h c).2.2.2.2.1.trans ((Cert.ReferenceIdeal.Read.val_main_v115_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))).trans
        (by rw [(hagree c).1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2.1, (hagree c).2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1]; exact Cert.Proof.Bridge.ref_updItem (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (h3 c).1 (h3 c).2.1 (h3 c).2.2 (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))))),
      ((h c).2.2.2.2.2.1.trans ((Cert.ReferenceIdeal.Read.val_main_v35_eq (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg12))).trans
        (by rw [(hagree c).2.2.1, (hagree c).2.2.2.2.2.2.1, (hagree c).2.2.2.2.2.2.2.2.1, (hagree c).2.2.2.2.2.2.2.2.2.2.2.2.1]; exact Cert.Proof.Bridge.ref_itemEmb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (h3 c).1 (h3 c).2.1 (h3 c).2.2 (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))))),
      ((h c).2.2.2.2.2.2.1.trans ((Cert.ReferenceIdeal.Read.val_main_v122_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))).trans
        (by rw [(hagree c).1, (hagree c).2.2.1, (hagree c).2.2.2.1, (hagree c).2.2.2.2.2.1, (hagree c).2.2.2.2.2.2.1, (hagree c).2.2.2.2.2.2.2.1, (hagree c).2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1]; exact Cert.Proof.Bridge.ref_newDynUser (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (h3 c).1 (h3 c).2.1 (h3 c).2.2 (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))))),
      ((h c).2.2.2.2.2.2.2.1.trans ((Cert.ReferenceIdeal.Read.val_main_v129_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))).trans
        (by rw [(hagree c).1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2.1, (hagree c).2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1]; exact Cert.Proof.Bridge.ref_newDynItem (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (h3 c).1 (h3 c).2.1 (h3 c).2.2 (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))))),
      ((h c).2.2.2.2.2.2.2.2.1.trans ((Cert.ReferenceIdeal.Read.val_main_v137_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7))).trans
        (by rw [(hagree c).1, (hagree c).2.2.2.2.2.2.2.1]; exact Cert.Proof.Bridge.ref_newIsUser_zeroWord (F := Ideal) (m ((c.tc : Thread Cert.KernelIdeal.nD Cert.KernelIdeal.τ).loc Cert.KernelIdeal.main_arg0)) (h3 c).1 (m ((c.tc : Thread Cert.KernelIdeal.nD Cert.KernelIdeal.τ).loc Cert.KernelIdeal.main_arg7))))),
      ((h c).2.2.2.2.2.2.2.2.2.1.trans ((Cert.ReferenceIdeal.Read.val_main_v145_eq (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg8))).trans
        (by rw [(hagree c).2.2.1, (hagree c).2.2.2.2.2.2.2.2.1]; exact Cert.Proof.Bridge.ref_newIsItem_zeroWord (F := Ideal) (m ((c.tc : Thread Cert.KernelIdeal.nD Cert.KernelIdeal.τ).loc Cert.KernelIdeal.main_arg2)) (h3 c).2.2 (m ((c.tc : Thread Cert.KernelIdeal.nD Cert.KernelIdeal.τ).loc Cert.KernelIdeal.main_arg8))))),
      (h c).2.2.2.2.2.2.2.2.2.2⟩)
      (Cert.ReferenceIdeal.Value.run (F := Ideal) m' ρ')

end Cert.Proof.Claims

end
-- ==== Proof.lean ====
/- The proof of the certificate's claim: the two kernel programs' frames, the reference's frame, the (empty) record of
   idealization rewrites, and equal results at the ideal instance, under the precondition that every float input is
   finite and every id lies in [0, 200000). The program gathers rows of embedding tables by user, item and previous-item
   ids, computes a prediction and two tanh recurrent-cell updates per interaction, and writes the updated rows back; the
   reference does the same with jnp's indexing. The frames are proved region by region (Proof/KI for the idealized
   program, Proof/K for the word-level one: the same text, the program's name substituted); the values are bridged in
   Proof/Bridge; Proof/Claims.lean assembles the five claims. The witnesses of the programs' stated side conditions come
   first: the instances the generated modules prove. -/
import proofs.«423553_j10307921510829_1_alg».proof.Defs
import proofs.«423553_j10307921510829_1_alg».proof.Proof.Gen.Kernel
import proofs.«423553_j10307921510829_1_alg».proof.Proof.Gen.Kernel.Skeleton
import proofs.«423553_j10307921510829_1_alg».proof.Proof.Gen.Kernel.Launch
import proofs.«423553_j10307921510829_1_alg».proof.Proof.Gen.Kernel.Regions
import proofs.«423553_j10307921510829_1_alg».proof.Proof.Gen.KernelIdeal
import proofs.«423553_j10307921510829_1_alg».proof.Proof.Gen.KernelIdeal.Skeleton
import proofs.«423553_j10307921510829_1_alg».proof.Proof.Gen.KernelIdeal.Launch
import proofs.«423553_j10307921510829_1_alg».proof.Proof.Gen.KernelIdeal.Regions
import proofs.«423553_j10307921510829_1_alg».proof.Proof.Gen.ReferenceIdeal
import proofs.«423553_j10307921510829_1_alg».proof.Proof.Gen.Pre_finite_inputs
import proofs.«423553_j10307921510829_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_p, Cert.Proof.Claims.frame_pi, Cert.Proof.RefSide.frame_ri, Cert.Proof.Claims.preserves, Cert.Proof.Claims.algebraic⟩

end Cert.Proof

end
